-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 2048]⟩ ⟨2, ![32768, 2048]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![32768, 1024]⟩ ⟨2, ![32768, 2048]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Pre_finite_inputs_ReferenceIdeal.lean ====
abbrev S32768x2048 : Shape := ⟨2, ![32768, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel

variable [Facts]

def fn {F : FTy → Type} [FloatOps F] (main_arg0 : FVec F S32768x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  main_v3
-- ==== Kernel.lean ====
abbrev S16384x2048 : Shape := ⟨2, ![16384, 2048]⟩
abbrev S32768x1024 : Shape := ⟨2, ![32768, 1024]⟩
abbrev S2x2048x1024 : Shape := ⟨3, ![2, 2048, 1024]⟩
abbrev S2 : Shape := ⟨1, ![2]⟩
abbrev S64 : Shape := ⟨1, ![64]⟩
abbrev S_ : Shape := ⟨0, ![]⟩
abbrev S1 : Shape := ⟨1, ![1]⟩
abbrev S128x1024 : Shape := ⟨2, ![128, 1024]⟩
abbrev S1x2048x1024 : Shape := ⟨3, ![1, 2048, 1024]⟩
abbrev S2048x1024 : Shape := ⟨2, ![2048, 1024]⟩

abbrev nBuf : Space → Nat
  | .hbm => 2
  | .vmem => 1
  | .smem => 0
  | _ => 0

abbrev bufTy : (tb : Table) → Fin (tcTables nBuf tb) → BufTy
  | .hbm, ⟨0, _⟩ => ⟨S16384x2048, .f32⟩
  | .hbm, ⟨1, _⟩ => ⟨S32768x1024, .f32⟩
  | .local _ .vmem, ⟨0, _⟩ => ⟨S2x2048x1024, .f32⟩
  | _, _ => ⟨S16384x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 260 → Bool
  | ⟨i, _⟩ => dmaSemScopedAt i

abbrev sig : RefSig :=
  (ofTc nBuf bufTy 1 260 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_14 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c16384_i32 : BitVec 32 := 16384#32
  let v20 : BitVec 32 := Scalar.muli v2 c16384_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32_13 : BitVec 32 := 8192#32
  let v21 : BitVec 32 := Scalar.muli v5 c8192_i32_13
  let v22 : BitVec 32 := Scalar.addi v20 v21
  let v23 : BitVec 32 := Scalar.addi v22 c0_i32_14
  let c0_i32_20 : BitVec 32 := 0#32
  ![v23.toNat, 0]
def k0_off2 (d0 : Dev nD) (c0_i32_12 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v17 : BitVec 32 := Scalar.muli v5 c8192_i32
  let v18 : BitVec 32 := Scalar.addi v17 c0_i32_12
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c1024_i32 : BitVec 32 := 1024#32
  let v19 : BitVec 32 := Scalar.muli v6 c1024_i32
  ![v18.toNat, v19.toNat]
def k0_dev3 (d0 : Dev nD) : Nat :=
  let c0_i32_18 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_17 : BitVec 32 := 2#32
  let v24 : BitVec 32 := Scalar.muli v6 c2_i32_17
  let v25 : BitVec 32 := Scalar.addi c0_i32_18 v24
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v26 : BitVec 32 := Scalar.muli v5 c1_i32_19
  let v27 : BitVec 32 := Scalar.addi v25 v26
  v27.toNat
def k0_dev4 (d0 : Dev nD) : Nat :=
  let c0_i32_29 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_28 : BitVec 32 := 2#32
  let v41 : BitVec 32 := Scalar.muli v6 c2_i32_28
  let v42 : BitVec 32 := Scalar.addi c0_i32_29 v41
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_30 : BitVec 32 := 1#32
  let v43 : BitVec 32 := Scalar.muli v5 c1_i32_30
  let v44 : BitVec 32 := Scalar.addi v42 v43
  v44.toNat
def k0_dev5 (d0 : Dev nD) : Nat :=
  let c0_i32_40 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_39 : BitVec 32 := 2#32
  let v58 : BitVec 32 := Scalar.muli v6 c2_i32_39
  let v59 : BitVec 32 := Scalar.addi c0_i32_40 v58
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v60 : BitVec 32 := Scalar.muli v5 c1_i32_41
  let v61 : BitVec 32 := Scalar.addi v59 v60
  v61.toNat
def k0_dev6 (d0 : Dev nD) : Nat :=
  let c0_i32_50 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_49 : BitVec 32 := 2#32
  let v75 : BitVec 32 := Scalar.muli v6 c2_i32_49
  let v76 : BitVec 32 := Scalar.addi c0_i32_50 v75
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_51 : BitVec 32 := 1#32
  let v77 : BitVec 32 := Scalar.muli v5 c1_i32_51
  let v78 : BitVec 32 := Scalar.addi v76 v77
  v78.toNat
def k0_dev7 (d0 : Dev nD) : Nat :=
  let c0_i32_60 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_59 : BitVec 32 := 2#32
  let v92 : BitVec 32 := Scalar.muli v6 c2_i32_59
  let v93 : BitVec 32 := Scalar.addi c0_i32_60 v92
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_61 : BitVec 32 := 1#32
  let v94 : BitVec 32 := Scalar.muli v5 c1_i32_61
  let v95 : BitVec 32 := Scalar.addi v93 v94
  v95.toNat
def k0_dev8 (d0 : Dev nD) : Nat :=
  let c0_i32_70 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_69 : BitVec 32 := 2#32
  let v109 : BitVec 32 := Scalar.muli v6 c2_i32_69
  let v110 : BitVec 32 := Scalar.addi c0_i32_70 v109
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_71 : BitVec 32 := 1#32
  let v111 : BitVec 32 := Scalar.muli v5 c1_i32_71
  let v112 : BitVec 32 := Scalar.addi v110 v111
  v112.toNat
def k0_dev9 (d0 : Dev nD) : Nat :=
  let c0_i32_80 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_79 : BitVec 32 := 2#32
  let v126 : BitVec 32 := Scalar.muli v6 c2_i32_79
  let v127 : BitVec 32 := Scalar.addi c0_i32_80 v126
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_81 : BitVec 32 := 1#32
  let v128 : BitVec 32 := Scalar.muli v5 c1_i32_81
  let v129 : BitVec 32 := Scalar.addi v127 v128
  v129.toNat
def k0_dev10 (d0 : Dev nD) : Nat :=
  let c0_i32_90 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_89 : BitVec 32 := 2#32
  let v143 : BitVec 32 := Scalar.muli v6 c2_i32_89
  let v144 : BitVec 32 := Scalar.addi c0_i32_90 v143
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_91 : BitVec 32 := 1#32
  let v145 : BitVec 32 := Scalar.muli v5 c1_i32_91
  let v146 : BitVec 32 := Scalar.addi v144 v145
  v146.toNat
def k0_dev11 (d0 : Dev nD) : Nat :=
  let c0_i32_101 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_100 : BitVec 32 := 2#32
  let v160 : BitVec 32 := Scalar.muli v6 c2_i32_100
  let v161 : BitVec 32 := Scalar.addi c0_i32_101 v160
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_102 : BitVec 32 := 1#32
  let v162 : BitVec 32 := Scalar.muli v5 c1_i32_102
  let v163 : BitVec 32 := Scalar.addi v161 v162
  v163.toNat
def k0_dev12 (d0 : Dev nD) : Nat :=
  let c0_i32_111 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_110 : BitVec 32 := 2#32
  let v177 : BitVec 32 := Scalar.muli v6 c2_i32_110
  let v178 : BitVec 32 := Scalar.addi c0_i32_111 v177
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_112 : BitVec 32 := 1#32
  let v179 : BitVec 32 := Scalar.muli v5 c1_i32_112
  let v180 : BitVec 32 := Scalar.addi v178 v179
  v180.toNat
def k0_dev13 (d0 : Dev nD) : Nat :=
  let c0_i32_121 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_120 : BitVec 32 := 2#32
  let v194 : BitVec 32 := Scalar.muli v6 c2_i32_120
  let v195 : BitVec 32 := Scalar.addi c0_i32_121 v194
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_122 : BitVec 32 := 1#32
  let v196 : BitVec 32 := Scalar.muli v5 c1_i32_122
  let v197 : BitVec 32 := Scalar.addi v195 v196
  v197.toNat
def k0_dev14 (d0 : Dev nD) : Nat :=
  let c0_i32_131 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_130 : BitVec 32 := 2#32
  let v211 : BitVec 32 := Scalar.muli v6 c2_i32_130
  let v212 : BitVec 32 := Scalar.addi c0_i32_131 v211
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_132 : BitVec 32 := 1#32
  let v213 : BitVec 32 := Scalar.muli v5 c1_i32_132
  let v214 : BitVec 32 := Scalar.addi v212 v213
  v214.toNat
def k0_dev15 (d0 : Dev nD) : Nat :=
  let c0_i32_141 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_140 : BitVec 32 := 2#32
  let v228 : BitVec 32 := Scalar.muli v6 c2_i32_140
  let v229 : BitVec 32 := Scalar.addi c0_i32_141 v228
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_142 : BitVec 32 := 1#32
  let v230 : BitVec 32 := Scalar.muli v5 c1_i32_142
  let v231 : BitVec 32 := Scalar.addi v229 v230
  v231.toNat
def k0_dev16 (d0 : Dev nD) : Nat :=
  let c0_i32_151 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_150 : BitVec 32 := 2#32
  let v245 : BitVec 32 := Scalar.muli v6 c2_i32_150
  let v246 : BitVec 32 := Scalar.addi c0_i32_151 v245
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_152 : BitVec 32 := 1#32
  let v247 : BitVec 32 := Scalar.muli v5 c1_i32_152
  let v248 : BitVec 32 := Scalar.addi v246 v247
  v248.toNat
def k0_dev17 (d0 : Dev nD) : Nat :=
  let c0_i32_161 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_160 : BitVec 32 := 2#32
  let v262 : BitVec 32 := Scalar.muli v6 c2_i32_160
  let v263 : BitVec 32 := Scalar.addi c0_i32_161 v262
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_162 : BitVec 32 := 1#32
  let v264 : BitVec 32 := Scalar.muli v5 c1_i32_162
  let v265 : BitVec 32 := Scalar.addi v263 v264
  v265.toNat
def k0_dev18 (d0 : Dev nD) : Nat :=
  let c0_i32_171 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_170 : BitVec 32 := 2#32
  let v279 : BitVec 32 := Scalar.muli v6 c2_i32_170
  let v280 : BitVec 32 := Scalar.addi c0_i32_171 v279
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_172 : BitVec 32 := 1#32
  let v281 : BitVec 32 := Scalar.muli v5 c1_i32_172
  let v282 : BitVec 32 := Scalar.addi v280 v281
  v282.toNat
def k0_dev19 (d0 : Dev nD) : Nat :=
  let c0_i32_181 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_180 : BitVec 32 := 2#32
  let v296 : BitVec 32 := Scalar.muli v6 c2_i32_180
  let v297 : BitVec 32 := Scalar.addi c0_i32_181 v296
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_182 : BitVec 32 := 1#32
  let v298 : BitVec 32 := Scalar.muli v5 c1_i32_182
  let v299 : BitVec 32 := Scalar.addi v297 v298
  v299.toNat
def k0_dev20 (d0 : Dev nD) : Nat :=
  let c0_i32_191 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_190 : BitVec 32 := 2#32
  let v313 : BitVec 32 := Scalar.muli v6 c2_i32_190
  let v314 : BitVec 32 := Scalar.addi c0_i32_191 v313
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_192 : BitVec 32 := 1#32
  let v315 : BitVec 32 := Scalar.muli v5 c1_i32_192
  let v316 : BitVec 32 := Scalar.addi v314 v315
  v316.toNat
def k0_dev21 (d0 : Dev nD) : Nat :=
  let c0_i32_201 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_200 : BitVec 32 := 2#32
  let v330 : BitVec 32 := Scalar.muli v6 c2_i32_200
  let v331 : BitVec 32 := Scalar.addi c0_i32_201 v330
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_202 : BitVec 32 := 1#32
  let v332 : BitVec 32 := Scalar.muli v5 c1_i32_202
  let v333 : BitVec 32 := Scalar.addi v331 v332
  v333.toNat
def k0_dev22 (d0 : Dev nD) : Nat :=
  let c0_i32_211 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_210 : BitVec 32 := 2#32
  let v347 : BitVec 32 := Scalar.muli v6 c2_i32_210
  let v348 : BitVec 32 := Scalar.addi c0_i32_211 v347
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_212 : BitVec 32 := 1#32
  let v349 : BitVec 32 := Scalar.muli v5 c1_i32_212
  let v350 : BitVec 32 := Scalar.addi v348 v349
  v350.toNat
def k0_dev23 (d0 : Dev nD) : Nat :=
  let c0_i32_221 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_220 : BitVec 32 := 2#32
  let v364 : BitVec 32 := Scalar.muli v6 c2_i32_220
  let v365 : BitVec 32 := Scalar.addi c0_i32_221 v364
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_222 : BitVec 32 := 1#32
  let v366 : BitVec 32 := Scalar.muli v5 c1_i32_222
  let v367 : BitVec 32 := Scalar.addi v365 v366
  v367.toNat
def k0_dev24 (d0 : Dev nD) : Nat :=
  let c0_i32_231 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_230 : BitVec 32 := 2#32
  let v381 : BitVec 32 := Scalar.muli v6 c2_i32_230
  let v382 : BitVec 32 := Scalar.addi c0_i32_231 v381
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_232 : BitVec 32 := 1#32
  let v383 : BitVec 32 := Scalar.muli v5 c1_i32_232
  let v384 : BitVec 32 := Scalar.addi v382 v383
  v384.toNat
def k0_dev25 (d0 : Dev nD) : Nat :=
  let c0_i32_241 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_240 : BitVec 32 := 2#32
  let v398 : BitVec 32 := Scalar.muli v6 c2_i32_240
  let v399 : BitVec 32 := Scalar.addi c0_i32_241 v398
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_242 : BitVec 32 := 1#32
  let v400 : BitVec 32 := Scalar.muli v5 c1_i32_242
  let v401 : BitVec 32 := Scalar.addi v399 v400
  v401.toNat
def k0_dev26 (d0 : Dev nD) : Nat :=
  let c0_i32_251 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_250 : BitVec 32 := 2#32
  let v415 : BitVec 32 := Scalar.muli v6 c2_i32_250
  let v416 : BitVec 32 := Scalar.addi c0_i32_251 v415
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_252 : BitVec 32 := 1#32
  let v417 : BitVec 32 := Scalar.muli v5 c1_i32_252
  let v418 : BitVec 32 := Scalar.addi v416 v417
  v418.toNat
def k0_dev27 (d0 : Dev nD) : Nat :=
  let c0_i32_261 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_260 : BitVec 32 := 2#32
  let v432 : BitVec 32 := Scalar.muli v6 c2_i32_260
  let v433 : BitVec 32 := Scalar.addi c0_i32_261 v432
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_262 : BitVec 32 := 1#32
  let v434 : BitVec 32 := Scalar.muli v5 c1_i32_262
  let v435 : BitVec 32 := Scalar.addi v433 v434
  v435.toNat
def k0_dev28 (d0 : Dev nD) : Nat :=
  let c0_i32_271 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_270 : BitVec 32 := 2#32
  let v449 : BitVec 32 := Scalar.muli v6 c2_i32_270
  let v450 : BitVec 32 := Scalar.addi c0_i32_271 v449
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_272 : BitVec 32 := 1#32
  let v451 : BitVec 32 := Scalar.muli v5 c1_i32_272
  let v452 : BitVec 32 := Scalar.addi v450 v451
  v452.toNat
def k0_dev29 (d0 : Dev nD) : Nat :=
  let c0_i32_281 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_280 : BitVec 32 := 2#32
  let v466 : BitVec 32 := Scalar.muli v6 c2_i32_280
  let v467 : BitVec 32 := Scalar.addi c0_i32_281 v466
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_282 : BitVec 32 := 1#32
  let v468 : BitVec 32 := Scalar.muli v5 c1_i32_282
  let v469 : BitVec 32 := Scalar.addi v467 v468
  v469.toNat
def k0_dev30 (d0 : Dev nD) : Nat :=
  let c0_i32_291 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_290 : BitVec 32 := 2#32
  let v483 : BitVec 32 := Scalar.muli v6 c2_i32_290
  let v484 : BitVec 32 := Scalar.addi c0_i32_291 v483
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_292 : BitVec 32 := 1#32
  let v485 : BitVec 32 := Scalar.muli v5 c1_i32_292
  let v486 : BitVec 32 := Scalar.addi v484 v485
  v486.toNat
def k0_dev31 (d0 : Dev nD) : Nat :=
  let c0_i32_301 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_300 : BitVec 32 := 2#32
  let v500 : BitVec 32 := Scalar.muli v6 c2_i32_300
  let v501 : BitVec 32 := Scalar.addi c0_i32_301 v500
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_302 : BitVec 32 := 1#32
  let v502 : BitVec 32 := Scalar.muli v5 c1_i32_302
  let v503 : BitVec 32 := Scalar.addi v501 v502
  v503.toNat
def k0_dev32 (d0 : Dev nD) : Nat :=
  let c0_i32_311 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_310 : BitVec 32 := 2#32
  let v517 : BitVec 32 := Scalar.muli v6 c2_i32_310
  let v518 : BitVec 32 := Scalar.addi c0_i32_311 v517
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_312 : BitVec 32 := 1#32
  let v519 : BitVec 32 := Scalar.muli v5 c1_i32_312
  let v520 : BitVec 32 := Scalar.addi v518 v519
  v520.toNat
def k0_dev33 (d0 : Dev nD) : Nat :=
  let c0_i32_321 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_320 : BitVec 32 := 2#32
  let v534 : BitVec 32 := Scalar.muli v6 c2_i32_320
  let v535 : BitVec 32 := Scalar.addi c0_i32_321 v534
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_322 : BitVec 32 := 1#32
  let v536 : BitVec 32 := Scalar.muli v5 c1_i32_322
  let v537 : BitVec 32 := Scalar.addi v535 v536
  v537.toNat
def k0_dev34 (d0 : Dev nD) : Nat :=
  let c0_i32_331 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_330 : BitVec 32 := 2#32
  let v551 : BitVec 32 := Scalar.muli v6 c2_i32_330
  let v552 : BitVec 32 := Scalar.addi c0_i32_331 v551
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_332 : BitVec 32 := 1#32
  let v553 : BitVec 32 := Scalar.muli v5 c1_i32_332
  let v554 : BitVec 32 := Scalar.addi v552 v553
  v554.toNat
def k0_dev35 (d0 : Dev nD) : Nat :=
  let c0_i32_341 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_340 : BitVec 32 := 2#32
  let v568 : BitVec 32 := Scalar.muli v6 c2_i32_340
  let v569 : BitVec 32 := Scalar.addi c0_i32_341 v568
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_342 : BitVec 32 := 1#32
  let v570 : BitVec 32 := Scalar.muli v5 c1_i32_342
  let v571 : BitVec 32 := Scalar.addi v569 v570
  v571.toNat
def k0_dev36 (d0 : Dev nD) : Nat :=
  let c0_i32_351 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_350 : BitVec 32 := 2#32
  let v585 : BitVec 32 := Scalar.muli v6 c2_i32_350
  let v586 : BitVec 32 := Scalar.addi c0_i32_351 v585
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_352 : BitVec 32 := 1#32
  let v587 : BitVec 32 := Scalar.muli v5 c1_i32_352
  let v588 : BitVec 32 := Scalar.addi v586 v587
  v588.toNat
def k0_dev37 (d0 : Dev nD) : Nat :=
  let c0_i32_361 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_360 : BitVec 32 := 2#32
  let v602 : BitVec 32 := Scalar.muli v6 c2_i32_360
  let v603 : BitVec 32 := Scalar.addi c0_i32_361 v602
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_362 : BitVec 32 := 1#32
  let v604 : BitVec 32 := Scalar.muli v5 c1_i32_362
  let v605 : BitVec 32 := Scalar.addi v603 v604
  v605.toNat
def k0_dev38 (d0 : Dev nD) : Nat :=
  let c0_i32_371 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_370 : BitVec 32 := 2#32
  let v619 : BitVec 32 := Scalar.muli v6 c2_i32_370
  let v620 : BitVec 32 := Scalar.addi c0_i32_371 v619
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_372 : BitVec 32 := 1#32
  let v621 : BitVec 32 := Scalar.muli v5 c1_i32_372
  let v622 : BitVec 32 := Scalar.addi v620 v621
  v622.toNat
def k0_dev39 (d0 : Dev nD) : Nat :=
  let c0_i32_381 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_380 : BitVec 32 := 2#32
  let v636 : BitVec 32 := Scalar.muli v6 c2_i32_380
  let v637 : BitVec 32 := Scalar.addi c0_i32_381 v636
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_382 : BitVec 32 := 1#32
  let v638 : BitVec 32 := Scalar.muli v5 c1_i32_382
  let v639 : BitVec 32 := Scalar.addi v637 v638
  v639.toNat
def k0_dev40 (d0 : Dev nD) : Nat :=
  let c0_i32_391 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_390 : BitVec 32 := 2#32
  let v653 : BitVec 32 := Scalar.muli v6 c2_i32_390
  let v654 : BitVec 32 := Scalar.addi c0_i32_391 v653
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_392 : BitVec 32 := 1#32
  let v655 : BitVec 32 := Scalar.muli v5 c1_i32_392
  let v656 : BitVec 32 := Scalar.addi v654 v655
  v656.toNat
def k0_dev41 (d0 : Dev nD) : Nat :=
  let c0_i32_401 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_400 : BitVec 32 := 2#32
  let v670 : BitVec 32 := Scalar.muli v6 c2_i32_400
  let v671 : BitVec 32 := Scalar.addi c0_i32_401 v670
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_402 : BitVec 32 := 1#32
  let v672 : BitVec 32 := Scalar.muli v5 c1_i32_402
  let v673 : BitVec 32 := Scalar.addi v671 v672
  v673.toNat
def k0_dev42 (d0 : Dev nD) : Nat :=
  let c0_i32_411 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_410 : BitVec 32 := 2#32
  let v687 : BitVec 32 := Scalar.muli v6 c2_i32_410
  let v688 : BitVec 32 := Scalar.addi c0_i32_411 v687
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_412 : BitVec 32 := 1#32
  let v689 : BitVec 32 := Scalar.muli v5 c1_i32_412
  let v690 : BitVec 32 := Scalar.addi v688 v689
  v690.toNat
def k0_dev43 (d0 : Dev nD) : Nat :=
  let c0_i32_421 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_420 : BitVec 32 := 2#32
  let v704 : BitVec 32 := Scalar.muli v6 c2_i32_420
  let v705 : BitVec 32 := Scalar.addi c0_i32_421 v704
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_422 : BitVec 32 := 1#32
  let v706 : BitVec 32 := Scalar.muli v5 c1_i32_422
  let v707 : BitVec 32 := Scalar.addi v705 v706
  v707.toNat
def k0_dev44 (d0 : Dev nD) : Nat :=
  let c0_i32_431 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_430 : BitVec 32 := 2#32
  let v721 : BitVec 32 := Scalar.muli v6 c2_i32_430
  let v722 : BitVec 32 := Scalar.addi c0_i32_431 v721
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_432 : BitVec 32 := 1#32
  let v723 : BitVec 32 := Scalar.muli v5 c1_i32_432
  let v724 : BitVec 32 := Scalar.addi v722 v723
  v724.toNat
def k0_dev45 (d0 : Dev nD) : Nat :=
  let c0_i32_441 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_440 : BitVec 32 := 2#32
  let v738 : BitVec 32 := Scalar.muli v6 c2_i32_440
  let v739 : BitVec 32 := Scalar.addi c0_i32_441 v738
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_442 : BitVec 32 := 1#32
  let v740 : BitVec 32 := Scalar.muli v5 c1_i32_442
  let v741 : BitVec 32 := Scalar.addi v739 v740
  v741.toNat
def k0_dev46 (d0 : Dev nD) : Nat :=
  let c0_i32_451 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_450 : BitVec 32 := 2#32
  let v755 : BitVec 32 := Scalar.muli v6 c2_i32_450
  let v756 : BitVec 32 := Scalar.addi c0_i32_451 v755
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_452 : BitVec 32 := 1#32
  let v757 : BitVec 32 := Scalar.muli v5 c1_i32_452
  let v758 : BitVec 32 := Scalar.addi v756 v757
  v758.toNat
def k0_dev47 (d0 : Dev nD) : Nat :=
  let c0_i32_461 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_460 : BitVec 32 := 2#32
  let v772 : BitVec 32 := Scalar.muli v6 c2_i32_460
  let v773 : BitVec 32 := Scalar.addi c0_i32_461 v772
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_462 : BitVec 32 := 1#32
  let v774 : BitVec 32 := Scalar.muli v5 c1_i32_462
  let v775 : BitVec 32 := Scalar.addi v773 v774
  v775.toNat
def k0_dev48 (d0 : Dev nD) : Nat :=
  let c0_i32_471 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_470 : BitVec 32 := 2#32
  let v789 : BitVec 32 := Scalar.muli v6 c2_i32_470
  let v790 : BitVec 32 := Scalar.addi c0_i32_471 v789
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_472 : BitVec 32 := 1#32
  let v791 : BitVec 32 := Scalar.muli v5 c1_i32_472
  let v792 : BitVec 32 := Scalar.addi v790 v791
  v792.toNat
def k0_dev49 (d0 : Dev nD) : Nat :=
  let c0_i32_481 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_480 : BitVec 32 := 2#32
  let v806 : BitVec 32 := Scalar.muli v6 c2_i32_480
  let v807 : BitVec 32 := Scalar.addi c0_i32_481 v806
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_482 : BitVec 32 := 1#32
  let v808 : BitVec 32 := Scalar.muli v5 c1_i32_482
  let v809 : BitVec 32 := Scalar.addi v807 v808
  v809.toNat
def k0_dev50 (d0 : Dev nD) : Nat :=
  let c0_i32_491 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_490 : BitVec 32 := 2#32
  let v823 : BitVec 32 := Scalar.muli v6 c2_i32_490
  let v824 : BitVec 32 := Scalar.addi c0_i32_491 v823
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_492 : BitVec 32 := 1#32
  let v825 : BitVec 32 := Scalar.muli v5 c1_i32_492
  let v826 : BitVec 32 := Scalar.addi v824 v825
  v826.toNat
def k0_dev51 (d0 : Dev nD) : Nat :=
  let c0_i32_501 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_500 : BitVec 32 := 2#32
  let v840 : BitVec 32 := Scalar.muli v6 c2_i32_500
  let v841 : BitVec 32 := Scalar.addi c0_i32_501 v840
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_502 : BitVec 32 := 1#32
  let v842 : BitVec 32 := Scalar.muli v5 c1_i32_502
  let v843 : BitVec 32 := Scalar.addi v841 v842
  v843.toNat
def k0_dev52 (d0 : Dev nD) : Nat :=
  let c0_i32_511 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_510 : BitVec 32 := 2#32
  let v857 : BitVec 32 := Scalar.muli v6 c2_i32_510
  let v858 : BitVec 32 := Scalar.addi c0_i32_511 v857
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_512 : BitVec 32 := 1#32
  let v859 : BitVec 32 := Scalar.muli v5 c1_i32_512
  let v860 : BitVec 32 := Scalar.addi v858 v859
  v860.toNat
def k0_dev53 (d0 : Dev nD) : Nat :=
  let c0_i32_521 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_520 : BitVec 32 := 2#32
  let v874 : BitVec 32 := Scalar.muli v6 c2_i32_520
  let v875 : BitVec 32 := Scalar.addi c0_i32_521 v874
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_522 : BitVec 32 := 1#32
  let v876 : BitVec 32 := Scalar.muli v5 c1_i32_522
  let v877 : BitVec 32 := Scalar.addi v875 v876
  v877.toNat
def k0_dev54 (d0 : Dev nD) : Nat :=
  let c0_i32_531 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_530 : BitVec 32 := 2#32
  let v891 : BitVec 32 := Scalar.muli v6 c2_i32_530
  let v892 : BitVec 32 := Scalar.addi c0_i32_531 v891
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_532 : BitVec 32 := 1#32
  let v893 : BitVec 32 := Scalar.muli v5 c1_i32_532
  let v894 : BitVec 32 := Scalar.addi v892 v893
  v894.toNat
def k0_dev55 (d0 : Dev nD) : Nat :=
  let c0_i32_541 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_540 : BitVec 32 := 2#32
  let v908 : BitVec 32 := Scalar.muli v6 c2_i32_540
  let v909 : BitVec 32 := Scalar.addi c0_i32_541 v908
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_542 : BitVec 32 := 1#32
  let v910 : BitVec 32 := Scalar.muli v5 c1_i32_542
  let v911 : BitVec 32 := Scalar.addi v909 v910
  v911.toNat
def k0_dev56 (d0 : Dev nD) : Nat :=
  let c0_i32_551 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_550 : BitVec 32 := 2#32
  let v925 : BitVec 32 := Scalar.muli v6 c2_i32_550
  let v926 : BitVec 32 := Scalar.addi c0_i32_551 v925
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_552 : BitVec 32 := 1#32
  let v927 : BitVec 32 := Scalar.muli v5 c1_i32_552
  let v928 : BitVec 32 := Scalar.addi v926 v927
  v928.toNat
def k0_dev57 (d0 : Dev nD) : Nat :=
  let c0_i32_561 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_560 : BitVec 32 := 2#32
  let v942 : BitVec 32 := Scalar.muli v6 c2_i32_560
  let v943 : BitVec 32 := Scalar.addi c0_i32_561 v942
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_562 : BitVec 32 := 1#32
  let v944 : BitVec 32 := Scalar.muli v5 c1_i32_562
  let v945 : BitVec 32 := Scalar.addi v943 v944
  v945.toNat
def k0_dev58 (d0 : Dev nD) : Nat :=
  let c0_i32_571 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_570 : BitVec 32 := 2#32
  let v959 : BitVec 32 := Scalar.muli v6 c2_i32_570
  let v960 : BitVec 32 := Scalar.addi c0_i32_571 v959
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_572 : BitVec 32 := 1#32
  let v961 : BitVec 32 := Scalar.muli v5 c1_i32_572
  let v962 : BitVec 32 := Scalar.addi v960 v961
  v962.toNat
def k0_dev59 (d0 : Dev nD) : Nat :=
  let c0_i32_581 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_580 : BitVec 32 := 2#32
  let v976 : BitVec 32 := Scalar.muli v6 c2_i32_580
  let v977 : BitVec 32 := Scalar.addi c0_i32_581 v976
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_582 : BitVec 32 := 1#32
  let v978 : BitVec 32 := Scalar.muli v5 c1_i32_582
  let v979 : BitVec 32 := Scalar.addi v977 v978
  v979.toNat
def k0_dev60 (d0 : Dev nD) : Nat :=
  let c0_i32_591 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_590 : BitVec 32 := 2#32
  let v993 : BitVec 32 := Scalar.muli v6 c2_i32_590
  let v994 : BitVec 32 := Scalar.addi c0_i32_591 v993
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_592 : BitVec 32 := 1#32
  let v995 : BitVec 32 := Scalar.muli v5 c1_i32_592
  let v996 : BitVec 32 := Scalar.addi v994 v995
  v996.toNat
def k0_dev61 (d0 : Dev nD) : Nat :=
  let c0_i32_601 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_600 : BitVec 32 := 2#32
  let v1010 : BitVec 32 := Scalar.muli v6 c2_i32_600
  let v1011 : BitVec 32 := Scalar.addi c0_i32_601 v1010
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_602 : BitVec 32 := 1#32
  let v1012 : BitVec 32 := Scalar.muli v5 c1_i32_602
  let v1013 : BitVec 32 := Scalar.addi v1011 v1012
  v1013.toNat
def k0_dev62 (d0 : Dev nD) : Nat :=
  let c0_i32_611 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_610 : BitVec 32 := 2#32
  let v1027 : BitVec 32 := Scalar.muli v6 c2_i32_610
  let v1028 : BitVec 32 := Scalar.addi c0_i32_611 v1027
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_612 : BitVec 32 := 1#32
  let v1029 : BitVec 32 := Scalar.muli v5 c1_i32_612
  let v1030 : BitVec 32 := Scalar.addi v1028 v1029
  v1030.toNat
def k0_dev63 (d0 : Dev nD) : Nat :=
  let c0_i32_621 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_620 : BitVec 32 := 2#32
  let v1044 : BitVec 32 := Scalar.muli v6 c2_i32_620
  let v1045 : BitVec 32 := Scalar.addi c0_i32_621 v1044
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_622 : BitVec 32 := 1#32
  let v1046 : BitVec 32 := Scalar.muli v5 c1_i32_622
  let v1047 : BitVec 32 := Scalar.addi v1045 v1046
  v1047.toNat
def k0_dev64 (d0 : Dev nD) : Nat :=
  let c0_i32_631 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_630 : BitVec 32 := 2#32
  let v1061 : BitVec 32 := Scalar.muli v6 c2_i32_630
  let v1062 : BitVec 32 := Scalar.addi c0_i32_631 v1061
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_632 : BitVec 32 := 1#32
  let v1063 : BitVec 32 := Scalar.muli v5 c1_i32_632
  let v1064 : BitVec 32 := Scalar.addi v1062 v1063
  v1064.toNat
def k0_dev65 (d0 : Dev nD) : Nat :=
  let c0_i32_641 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_640 : BitVec 32 := 2#32
  let v1078 : BitVec 32 := Scalar.muli v6 c2_i32_640
  let v1079 : BitVec 32 := Scalar.addi c0_i32_641 v1078
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_642 : BitVec 32 := 1#32
  let v1080 : BitVec 32 := Scalar.muli v5 c1_i32_642
  let v1081 : BitVec 32 := Scalar.addi v1079 v1080
  v1081.toNat
def k0_dev66 (d0 : Dev nD) : Nat :=
  let c0_i32_651 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_650 : BitVec 32 := 2#32
  let v1095 : BitVec 32 := Scalar.muli v6 c2_i32_650
  let v1096 : BitVec 32 := Scalar.addi c0_i32_651 v1095
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_652 : BitVec 32 := 1#32
  let v1097 : BitVec 32 := Scalar.muli v5 c1_i32_652
  let v1098 : BitVec 32 := Scalar.addi v1096 v1097
  v1098.toNat
def k0_off3 (d0 : Dev nD) (c0_i32_665 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c16384_i32_663 : BitVec 32 := 16384#32
  let v1117 : BitVec 32 := Scalar.muli v6 c16384_i32_663
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32_664 : BitVec 32 := 8192#32
  let v1118 : BitVec 32 := Scalar.muli v5 c8192_i32_664
  let v1119 : BitVec 32 := Scalar.addi v1117 v1118
  let v1120 : BitVec 32 := Scalar.addi v1119 c0_i32_665
  let c0_i32_671 : BitVec 32 := 0#32
  ![v1120.toNat, 0]
def k0_dev67 (d0 : Dev nD) : Nat :=
  let c0_i32_669 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_668 : BitVec 32 := 2#32
  let v1121 : BitVec 32 := Scalar.muli v2 c2_i32_668
  let v1122 : BitVec 32 := Scalar.addi c0_i32_669 v1121
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_670 : BitVec 32 := 1#32
  let v1123 : BitVec 32 := Scalar.muli v7 c1_i32_670
  let v1124 : BitVec 32 := Scalar.addi v1122 v1123
  v1124.toNat
def k0_dev68 (d0 : Dev nD) : Nat :=
  let c0_i32_688 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_687 : BitVec 32 := 2#32
  let v1147 : BitVec 32 := Scalar.muli v2 c2_i32_687
  let v1148 : BitVec 32 := Scalar.addi c0_i32_688 v1147
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_689 : BitVec 32 := 1#32
  let v1149 : BitVec 32 := Scalar.muli v7 c1_i32_689
  let v1150 : BitVec 32 := Scalar.addi v1148 v1149
  v1150.toNat
def k0_dev69 (d0 : Dev nD) : Nat :=
  let c0_i32_707 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_706 : BitVec 32 := 2#32
  let v1173 : BitVec 32 := Scalar.muli v2 c2_i32_706
  let v1174 : BitVec 32 := Scalar.addi c0_i32_707 v1173
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_708 : BitVec 32 := 1#32
  let v1175 : BitVec 32 := Scalar.muli v7 c1_i32_708
  let v1176 : BitVec 32 := Scalar.addi v1174 v1175
  v1176.toNat
def k0_dev70 (d0 : Dev nD) : Nat :=
  let c0_i32_726 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_725 : BitVec 32 := 2#32
  let v1199 : BitVec 32 := Scalar.muli v2 c2_i32_725
  let v1200 : BitVec 32 := Scalar.addi c0_i32_726 v1199
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_727 : BitVec 32 := 1#32
  let v1201 : BitVec 32 := Scalar.muli v7 c1_i32_727
  let v1202 : BitVec 32 := Scalar.addi v1200 v1201
  v1202.toNat
def k0_off4 (d0 : Dev nD) : Fin 2 → Nat :=
  let c0_i32_735 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_730 : BitVec 32 := 1024#32
  let v1209 : BitVec 32 := Scalar.muli v2 c1024_i32_730
  ![0, v1209.toNat]
def k0_off5 (d0 : Dev nD) (c0_i32_742 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c16384_i32_741 : BitVec 32 := 16384#32
  let v1220 : BitVec 32 := Scalar.muli v2 c16384_i32_741
  let v1221 : BitVec 32 := Scalar.addi v1220 c0_i32_742
  let c0_i32_745 : BitVec 32 := 0#32
  ![v1221.toNat, 0]
def k0_dev71 (d0 : Dev nD) : Nat :=
  let c0_i32_763 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_762 : BitVec 32 := 2#32
  let v1243 : BitVec 32 := Scalar.muli v2 c2_i32_762
  let v1244 : BitVec 32 := Scalar.addi c0_i32_763 v1243
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_764 : BitVec 32 := 1#32
  let v1245 : BitVec 32 := Scalar.muli v7 c1_i32_764
  let v1246 : BitVec 32 := Scalar.addi v1244 v1245
  v1246.toNat
def k0_dev72 (d0 : Dev nD) : Nat :=
  let c0_i32_782 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_781 : BitVec 32 := 2#32
  let v1269 : BitVec 32 := Scalar.muli v2 c2_i32_781
  let v1270 : BitVec 32 := Scalar.addi c0_i32_782 v1269
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_783 : BitVec 32 := 1#32
  let v1271 : BitVec 32 := Scalar.muli v7 c1_i32_783
  let v1272 : BitVec 32 := Scalar.addi v1270 v1271
  v1272.toNat
def k0_dev73 (d0 : Dev nD) : Nat :=
  let c0_i32_801 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_800 : BitVec 32 := 2#32
  let v1295 : BitVec 32 := Scalar.muli v2 c2_i32_800
  let v1296 : BitVec 32 := Scalar.addi c0_i32_801 v1295
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_802 : BitVec 32 := 1#32
  let v1297 : BitVec 32 := Scalar.muli v7 c1_i32_802
  let v1298 : BitVec 32 := Scalar.addi v1296 v1297
  v1298.toNat
def k0_dev74 (d0 : Dev nD) : Nat :=
  let c0_i32_820 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_819 : BitVec 32 := 2#32
  let v1321 : BitVec 32 := Scalar.muli v2 c2_i32_819
  let v1322 : BitVec 32 := Scalar.addi c0_i32_820 v1321
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_821 : BitVec 32 := 1#32
  let v1323 : BitVec 32 := Scalar.muli v7 c1_i32_821
  let v1324 : BitVec 32 := Scalar.addi v1322 v1323
  v1324.toNat
def k0_off6 (d0 : Dev nD) : Fin 2 → Nat :=
  let c2048_i32_829 : BitVec 32 := 2048#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_824 : BitVec 32 := 1024#32
  let v1331 : BitVec 32 := Scalar.muli v2 c1024_i32_824
  ![2048, v1331.toNat]
def k0_dev75 (d0 : Dev nD) : Nat :=
  let c0_i32_857 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_856 : BitVec 32 := 2#32
  let v1365 : BitVec 32 := Scalar.muli v2 c2_i32_856
  let v1366 : BitVec 32 := Scalar.addi c0_i32_857 v1365
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_858 : BitVec 32 := 1#32
  let v1367 : BitVec 32 := Scalar.muli v7 c1_i32_858
  let v1368 : BitVec 32 := Scalar.addi v1366 v1367
  v1368.toNat
def k0_dev76 (d0 : Dev nD) : Nat :=
  let c0_i32_876 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_875 : BitVec 32 := 2#32
  let v1391 : BitVec 32 := Scalar.muli v2 c2_i32_875
  let v1392 : BitVec 32 := Scalar.addi c0_i32_876 v1391
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_877 : BitVec 32 := 1#32
  let v1393 : BitVec 32 := Scalar.muli v7 c1_i32_877
  let v1394 : BitVec 32 := Scalar.addi v1392 v1393
  v1394.toNat
def k0_dev77 (d0 : Dev nD) : Nat :=
  let c0_i32_895 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_894 : BitVec 32 := 2#32
  let v1417 : BitVec 32 := Scalar.muli v2 c2_i32_894
  let v1418 : BitVec 32 := Scalar.addi c0_i32_895 v1417
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_896 : BitVec 32 := 1#32
  let v1419 : BitVec 32 := Scalar.muli v7 c1_i32_896
  let v1420 : BitVec 32 := Scalar.addi v1418 v1419
  v1420.toNat
def k0_dev78 (d0 : Dev nD) : Nat :=
  let c0_i32_914 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_913 : BitVec 32 := 2#32
  let v1443 : BitVec 32 := Scalar.muli v2 c2_i32_913
  let v1444 : BitVec 32 := Scalar.addi c0_i32_914 v1443
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_915 : BitVec 32 := 1#32
  let v1445 : BitVec 32 := Scalar.muli v7 c1_i32_915
  let v1446 : BitVec 32 := Scalar.addi v1444 v1445
  v1446.toNat
def k0_off7 (d0 : Dev nD) : Fin 2 → Nat :=
  let c4096_i32_928 : BitVec 32 := 4096#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_923 : BitVec 32 := 1024#32
  let v1458 : BitVec 32 := Scalar.muli v2 c1024_i32_923
  ![4096, v1458.toNat]
def k0_dev79 (d0 : Dev nD) : Nat :=
  let c0_i32_956 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_955 : BitVec 32 := 2#32
  let v1492 : BitVec 32 := Scalar.muli v2 c2_i32_955
  let v1493 : BitVec 32 := Scalar.addi c0_i32_956 v1492
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_957 : BitVec 32 := 1#32
  let v1494 : BitVec 32 := Scalar.muli v7 c1_i32_957
  let v1495 : BitVec 32 := Scalar.addi v1493 v1494
  v1495.toNat
def k0_dev80 (d0 : Dev nD) : Nat :=
  let c0_i32_975 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_974 : BitVec 32 := 2#32
  let v1518 : BitVec 32 := Scalar.muli v2 c2_i32_974
  let v1519 : BitVec 32 := Scalar.addi c0_i32_975 v1518
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_976 : BitVec 32 := 1#32
  let v1520 : BitVec 32 := Scalar.muli v7 c1_i32_976
  let v1521 : BitVec 32 := Scalar.addi v1519 v1520
  v1521.toNat
def k0_dev81 (d0 : Dev nD) : Nat :=
  let c0_i32_994 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_993 : BitVec 32 := 2#32
  let v1544 : BitVec 32 := Scalar.muli v2 c2_i32_993
  let v1545 : BitVec 32 := Scalar.addi c0_i32_994 v1544
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_995 : BitVec 32 := 1#32
  let v1546 : BitVec 32 := Scalar.muli v7 c1_i32_995
  let v1547 : BitVec 32 := Scalar.addi v1545 v1546
  v1547.toNat
def k0_dev82 (d0 : Dev nD) : Nat :=
  let c0_i32_1013 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1012 : BitVec 32 := 2#32
  let v1570 : BitVec 32 := Scalar.muli v2 c2_i32_1012
  let v1571 : BitVec 32 := Scalar.addi c0_i32_1013 v1570
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1014 : BitVec 32 := 1#32
  let v1572 : BitVec 32 := Scalar.muli v7 c1_i32_1014
  let v1573 : BitVec 32 := Scalar.addi v1571 v1572
  v1573.toNat
def k0_off8 (d0 : Dev nD) : Fin 2 → Nat :=
  let c6144_i32_1027 : BitVec 32 := 6144#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_1022 : BitVec 32 := 1024#32
  let v1585 : BitVec 32 := Scalar.muli v2 c1024_i32_1022
  ![6144, v1585.toNat]
def k0_dev83 (d0 : Dev nD) : Nat :=
  let c0_i32_1055 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1054 : BitVec 32 := 2#32
  let v1619 : BitVec 32 := Scalar.muli v2 c2_i32_1054
  let v1620 : BitVec 32 := Scalar.addi c0_i32_1055 v1619
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1056 : BitVec 32 := 1#32
  let v1621 : BitVec 32 := Scalar.muli v7 c1_i32_1056
  let v1622 : BitVec 32 := Scalar.addi v1620 v1621
  v1622.toNat
def k0_dev84 (d0 : Dev nD) : Nat :=
  let c0_i32_1074 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1073 : BitVec 32 := 2#32
  let v1645 : BitVec 32 := Scalar.muli v2 c2_i32_1073
  let v1646 : BitVec 32 := Scalar.addi c0_i32_1074 v1645
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1075 : BitVec 32 := 1#32
  let v1647 : BitVec 32 := Scalar.muli v7 c1_i32_1075
  let v1648 : BitVec 32 := Scalar.addi v1646 v1647
  v1648.toNat
def k0_dev85 (d0 : Dev nD) : Nat :=
  let c0_i32_1093 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1092 : BitVec 32 := 2#32
  let v1671 : BitVec 32 := Scalar.muli v2 c2_i32_1092
  let v1672 : BitVec 32 := Scalar.addi c0_i32_1093 v1671
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1094 : BitVec 32 := 1#32
  let v1673 : BitVec 32 := Scalar.muli v7 c1_i32_1094
  let v1674 : BitVec 32 := Scalar.addi v1672 v1673
  v1674.toNat
def k0_dev86 (d0 : Dev nD) : Nat :=
  let c0_i32_1112 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1111 : BitVec 32 := 2#32
  let v1697 : BitVec 32 := Scalar.muli v2 c2_i32_1111
  let v1698 : BitVec 32 := Scalar.addi c0_i32_1112 v1697
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1113 : BitVec 32 := 1#32
  let v1699 : BitVec 32 := Scalar.muli v7 c1_i32_1113
  let v1700 : BitVec 32 := Scalar.addi v1698 v1699
  v1700.toNat
def k0_off9 (d0 : Dev nD) : Fin 2 → Nat :=
  let c8192_i32_1126 : BitVec 32 := 8192#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_1121 : BitVec 32 := 1024#32
  let v1712 : BitVec 32 := Scalar.muli v2 c1024_i32_1121
  ![8192, v1712.toNat]
def k0_dev87 (d0 : Dev nD) : Nat :=
  let c0_i32_1154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1153 : BitVec 32 := 2#32
  let v1746 : BitVec 32 := Scalar.muli v2 c2_i32_1153
  let v1747 : BitVec 32 := Scalar.addi c0_i32_1154 v1746
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1155 : BitVec 32 := 1#32
  let v1748 : BitVec 32 := Scalar.muli v7 c1_i32_1155
  let v1749 : BitVec 32 := Scalar.addi v1747 v1748
  v1749.toNat
def k0_dev88 (d0 : Dev nD) : Nat :=
  let c0_i32_1173 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1172 : BitVec 32 := 2#32
  let v1772 : BitVec 32 := Scalar.muli v2 c2_i32_1172
  let v1773 : BitVec 32 := Scalar.addi c0_i32_1173 v1772
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1174 : BitVec 32 := 1#32
  let v1774 : BitVec 32 := Scalar.muli v7 c1_i32_1174
  let v1775 : BitVec 32 := Scalar.addi v1773 v1774
  v1775.toNat
def k0_dev89 (d0 : Dev nD) : Nat :=
  let c0_i32_1192 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1191 : BitVec 32 := 2#32
  let v1798 : BitVec 32 := Scalar.muli v2 c2_i32_1191
  let v1799 : BitVec 32 := Scalar.addi c0_i32_1192 v1798
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1193 : BitVec 32 := 1#32
  let v1800 : BitVec 32 := Scalar.muli v7 c1_i32_1193
  let v1801 : BitVec 32 := Scalar.addi v1799 v1800
  v1801.toNat
def k0_dev90 (d0 : Dev nD) : Nat :=
  let c0_i32_1211 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1210 : BitVec 32 := 2#32
  let v1824 : BitVec 32 := Scalar.muli v2 c2_i32_1210
  let v1825 : BitVec 32 := Scalar.addi c0_i32_1211 v1824
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1212 : BitVec 32 := 1#32
  let v1826 : BitVec 32 := Scalar.muli v7 c1_i32_1212
  let v1827 : BitVec 32 := Scalar.addi v1825 v1826
  v1827.toNat
def k0_off10 (d0 : Dev nD) : Fin 2 → Nat :=
  let c10240_i32 : BitVec 32 := 10240#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_1220 : BitVec 32 := 1024#32
  let v1839 : BitVec 32 := Scalar.muli v2 c1024_i32_1220
  ![10240, v1839.toNat]
def k0_dev91 (d0 : Dev nD) : Nat :=
  let c0_i32_1252 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1251 : BitVec 32 := 2#32
  let v1873 : BitVec 32 := Scalar.muli v2 c2_i32_1251
  let v1874 : BitVec 32 := Scalar.addi c0_i32_1252 v1873
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1253 : BitVec 32 := 1#32
  let v1875 : BitVec 32 := Scalar.muli v7 c1_i32_1253
  let v1876 : BitVec 32 := Scalar.addi v1874 v1875
  v1876.toNat
def k0_dev92 (d0 : Dev nD) : Nat :=
  let c0_i32_1271 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1270 : BitVec 32 := 2#32
  let v1899 : BitVec 32 := Scalar.muli v2 c2_i32_1270
  let v1900 : BitVec 32 := Scalar.addi c0_i32_1271 v1899
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1272 : BitVec 32 := 1#32
  let v1901 : BitVec 32 := Scalar.muli v7 c1_i32_1272
  let v1902 : BitVec 32 := Scalar.addi v1900 v1901
  v1902.toNat
def k0_dev93 (d0 : Dev nD) : Nat :=
  let c0_i32_1290 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1289 : BitVec 32 := 2#32
  let v1925 : BitVec 32 := Scalar.muli v2 c2_i32_1289
  let v1926 : BitVec 32 := Scalar.addi c0_i32_1290 v1925
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1291 : BitVec 32 := 1#32
  let v1927 : BitVec 32 := Scalar.muli v7 c1_i32_1291
  let v1928 : BitVec 32 := Scalar.addi v1926 v1927
  v1928.toNat
def k0_dev94 (d0 : Dev nD) : Nat :=
  let c0_i32_1309 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1308 : BitVec 32 := 2#32
  let v1951 : BitVec 32 := Scalar.muli v2 c2_i32_1308
  let v1952 : BitVec 32 := Scalar.addi c0_i32_1309 v1951
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1310 : BitVec 32 := 1#32
  let v1953 : BitVec 32 := Scalar.muli v7 c1_i32_1310
  let v1954 : BitVec 32 := Scalar.addi v1952 v1953
  v1954.toNat
def k0_off11 (d0 : Dev nD) : Fin 2 → Nat :=
  let c12288_i32 : BitVec 32 := 12288#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_1318 : BitVec 32 := 1024#32
  let v1966 : BitVec 32 := Scalar.muli v2 c1024_i32_1318
  ![12288, v1966.toNat]
def k0_dev95 (d0 : Dev nD) : Nat :=
  let c0_i32_1350 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1349 : BitVec 32 := 2#32
  let v2000 : BitVec 32 := Scalar.muli v2 c2_i32_1349
  let v2001 : BitVec 32 := Scalar.addi c0_i32_1350 v2000
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1351 : BitVec 32 := 1#32
  let v2002 : BitVec 32 := Scalar.muli v7 c1_i32_1351
  let v2003 : BitVec 32 := Scalar.addi v2001 v2002
  v2003.toNat
def k0_dev96 (d0 : Dev nD) : Nat :=
  let c0_i32_1369 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1368 : BitVec 32 := 2#32
  let v2026 : BitVec 32 := Scalar.muli v2 c2_i32_1368
  let v2027 : BitVec 32 := Scalar.addi c0_i32_1369 v2026
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1370 : BitVec 32 := 1#32
  let v2028 : BitVec 32 := Scalar.muli v7 c1_i32_1370
  let v2029 : BitVec 32 := Scalar.addi v2027 v2028
  v2029.toNat
def k0_dev97 (d0 : Dev nD) : Nat :=
  let c0_i32_1388 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1387 : BitVec 32 := 2#32
  let v2052 : BitVec 32 := Scalar.muli v2 c2_i32_1387
  let v2053 : BitVec 32 := Scalar.addi c0_i32_1388 v2052
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1389 : BitVec 32 := 1#32
  let v2054 : BitVec 32 := Scalar.muli v7 c1_i32_1389
  let v2055 : BitVec 32 := Scalar.addi v2053 v2054
  v2055.toNat
def k0_dev98 (d0 : Dev nD) : Nat :=
  let c0_i32_1407 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1406 : BitVec 32 := 2#32
  let v2078 : BitVec 32 := Scalar.muli v2 c2_i32_1406
  let v2079 : BitVec 32 := Scalar.addi c0_i32_1407 v2078
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1408 : BitVec 32 := 1#32
  let v2080 : BitVec 32 := Scalar.muli v7 c1_i32_1408
  let v2081 : BitVec 32 := Scalar.addi v2079 v2080
  v2081.toNat
def k0_off12 (d0 : Dev nD) : Fin 2 → Nat :=
  let c14336_i32 : BitVec 32 := 14336#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_1416 : BitVec 32 := 1024#32
  let v2093 : BitVec 32 := Scalar.muli v2 c1024_i32_1416
  ![14336, v2093.toNat]
def k0_dev99 (d0 : Dev nD) : Nat :=
  let c0_i32_1448 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1447 : BitVec 32 := 2#32
  let v2127 : BitVec 32 := Scalar.muli v2 c2_i32_1447
  let v2128 : BitVec 32 := Scalar.addi c0_i32_1448 v2127
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1449 : BitVec 32 := 1#32
  let v2129 : BitVec 32 := Scalar.muli v7 c1_i32_1449
  let v2130 : BitVec 32 := Scalar.addi v2128 v2129
  v2130.toNat
def k0_dev100 (d0 : Dev nD) : Nat :=
  let c0_i32_1467 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1466 : BitVec 32 := 2#32
  let v2153 : BitVec 32 := Scalar.muli v2 c2_i32_1466
  let v2154 : BitVec 32 := Scalar.addi c0_i32_1467 v2153
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1468 : BitVec 32 := 1#32
  let v2155 : BitVec 32 := Scalar.muli v7 c1_i32_1468
  let v2156 : BitVec 32 := Scalar.addi v2154 v2155
  v2156.toNat
def k0_dev101 (d0 : Dev nD) : Nat :=
  let c0_i32_1486 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1485 : BitVec 32 := 2#32
  let v2179 : BitVec 32 := Scalar.muli v2 c2_i32_1485
  let v2180 : BitVec 32 := Scalar.addi c0_i32_1486 v2179
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1487 : BitVec 32 := 1#32
  let v2181 : BitVec 32 := Scalar.muli v7 c1_i32_1487
  let v2182 : BitVec 32 := Scalar.addi v2180 v2181
  v2182.toNat
def k0_dev102 (d0 : Dev nD) : Nat :=
  let c0_i32_1505 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1504 : BitVec 32 := 2#32
  let v2205 : BitVec 32 := Scalar.muli v2 c2_i32_1504
  let v2206 : BitVec 32 := Scalar.addi c0_i32_1505 v2205
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1506 : BitVec 32 := 1#32
  let v2207 : BitVec 32 := Scalar.muli v7 c1_i32_1506
  let v2208 : BitVec 32 := Scalar.addi v2206 v2207
  v2208.toNat
def k0_dev103 (d0 : Dev nD) : Nat :=
  let c0_i32_1524 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1523 : BitVec 32 := 2#32
  let v2231 : BitVec 32 := Scalar.muli v2 c2_i32_1523
  let v2232 : BitVec 32 := Scalar.addi c0_i32_1524 v2231
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1525 : BitVec 32 := 1#32
  let v2233 : BitVec 32 := Scalar.muli v7 c1_i32_1525
  let v2234 : BitVec 32 := Scalar.addi v2232 v2233
  v2234.toNat
def k0_dev104 (d0 : Dev nD) : Nat :=
  let c0_i32_1543 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1542 : BitVec 32 := 2#32
  let v2257 : BitVec 32 := Scalar.muli v2 c2_i32_1542
  let v2258 : BitVec 32 := Scalar.addi c0_i32_1543 v2257
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1544 : BitVec 32 := 1#32
  let v2259 : BitVec 32 := Scalar.muli v7 c1_i32_1544
  let v2260 : BitVec 32 := Scalar.addi v2258 v2259
  v2260.toNat
def k0_dev105 (d0 : Dev nD) : Nat :=
  let c0_i32_1562 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1561 : BitVec 32 := 2#32
  let v2283 : BitVec 32 := Scalar.muli v2 c2_i32_1561
  let v2284 : BitVec 32 := Scalar.addi c0_i32_1562 v2283
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1563 : BitVec 32 := 1#32
  let v2285 : BitVec 32 := Scalar.muli v7 c1_i32_1563
  let v2286 : BitVec 32 := Scalar.addi v2284 v2285
  v2286.toNat
def k0_dev106 (d0 : Dev nD) : Nat :=
  let c0_i32_1581 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1580 : BitVec 32 := 2#32
  let v2309 : BitVec 32 := Scalar.muli v2 c2_i32_1580
  let v2310 : BitVec 32 := Scalar.addi c0_i32_1581 v2309
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1582 : BitVec 32 := 1#32
  let v2311 : BitVec 32 := Scalar.muli v7 c1_i32_1582
  let v2312 : BitVec 32 := Scalar.addi v2310 v2311
  v2312.toNat
def k0_dev107 (d0 : Dev nD) : Nat :=
  let c0_i32_1600 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1599 : BitVec 32 := 2#32
  let v2335 : BitVec 32 := Scalar.muli v2 c2_i32_1599
  let v2336 : BitVec 32 := Scalar.addi c0_i32_1600 v2335
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1601 : BitVec 32 := 1#32
  let v2337 : BitVec 32 := Scalar.muli v7 c1_i32_1601
  let v2338 : BitVec 32 := Scalar.addi v2336 v2337
  v2338.toNat
def k0_dev108 (d0 : Dev nD) : Nat :=
  let c0_i32_1619 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1618 : BitVec 32 := 2#32
  let v2361 : BitVec 32 := Scalar.muli v2 c2_i32_1618
  let v2362 : BitVec 32 := Scalar.addi c0_i32_1619 v2361
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1620 : BitVec 32 := 1#32
  let v2363 : BitVec 32 := Scalar.muli v7 c1_i32_1620
  let v2364 : BitVec 32 := Scalar.addi v2362 v2363
  v2364.toNat
def k0_dev109 (d0 : Dev nD) : Nat :=
  let c0_i32_1638 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1637 : BitVec 32 := 2#32
  let v2387 : BitVec 32 := Scalar.muli v2 c2_i32_1637
  let v2388 : BitVec 32 := Scalar.addi c0_i32_1638 v2387
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1639 : BitVec 32 := 1#32
  let v2389 : BitVec 32 := Scalar.muli v7 c1_i32_1639
  let v2390 : BitVec 32 := Scalar.addi v2388 v2389
  v2390.toNat
def k0_dev110 (d0 : Dev nD) : Nat :=
  let c0_i32_1657 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1656 : BitVec 32 := 2#32
  let v2413 : BitVec 32 := Scalar.muli v2 c2_i32_1656
  let v2414 : BitVec 32 := Scalar.addi c0_i32_1657 v2413
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1658 : BitVec 32 := 1#32
  let v2415 : BitVec 32 := Scalar.muli v7 c1_i32_1658
  let v2416 : BitVec 32 := Scalar.addi v2414 v2415
  v2416.toNat
def k0_dev111 (d0 : Dev nD) : Nat :=
  let c0_i32_1676 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1675 : BitVec 32 := 2#32
  let v2439 : BitVec 32 := Scalar.muli v2 c2_i32_1675
  let v2440 : BitVec 32 := Scalar.addi c0_i32_1676 v2439
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1677 : BitVec 32 := 1#32
  let v2441 : BitVec 32 := Scalar.muli v7 c1_i32_1677
  let v2442 : BitVec 32 := Scalar.addi v2440 v2441
  v2442.toNat
def k0_dev112 (d0 : Dev nD) : Nat :=
  let c0_i32_1695 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1694 : BitVec 32 := 2#32
  let v2465 : BitVec 32 := Scalar.muli v2 c2_i32_1694
  let v2466 : BitVec 32 := Scalar.addi c0_i32_1695 v2465
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1696 : BitVec 32 := 1#32
  let v2467 : BitVec 32 := Scalar.muli v7 c1_i32_1696
  let v2468 : BitVec 32 := Scalar.addi v2466 v2467
  v2468.toNat
def k0_dev113 (d0 : Dev nD) : Nat :=
  let c0_i32_1714 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1713 : BitVec 32 := 2#32
  let v2491 : BitVec 32 := Scalar.muli v2 c2_i32_1713
  let v2492 : BitVec 32 := Scalar.addi c0_i32_1714 v2491
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1715 : BitVec 32 := 1#32
  let v2493 : BitVec 32 := Scalar.muli v7 c1_i32_1715
  let v2494 : BitVec 32 := Scalar.addi v2492 v2493
  v2494.toNat
def k0_dev114 (d0 : Dev nD) : Nat :=
  let c0_i32_1733 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1732 : BitVec 32 := 2#32
  let v2517 : BitVec 32 := Scalar.muli v2 c2_i32_1732
  let v2518 : BitVec 32 := Scalar.addi c0_i32_1733 v2517
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1734 : BitVec 32 := 1#32
  let v2519 : BitVec 32 := Scalar.muli v7 c1_i32_1734
  let v2520 : BitVec 32 := Scalar.addi v2518 v2519
  v2520.toNat
def k0_dev115 (d0 : Dev nD) : Nat :=
  let c0_i32_1752 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1751 : BitVec 32 := 2#32
  let v2543 : BitVec 32 := Scalar.muli v2 c2_i32_1751
  let v2544 : BitVec 32 := Scalar.addi c0_i32_1752 v2543
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1753 : BitVec 32 := 1#32
  let v2545 : BitVec 32 := Scalar.muli v7 c1_i32_1753
  let v2546 : BitVec 32 := Scalar.addi v2544 v2545
  v2546.toNat
def k0_dev116 (d0 : Dev nD) : Nat :=
  let c0_i32_1771 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1770 : BitVec 32 := 2#32
  let v2569 : BitVec 32 := Scalar.muli v2 c2_i32_1770
  let v2570 : BitVec 32 := Scalar.addi c0_i32_1771 v2569
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1772 : BitVec 32 := 1#32
  let v2571 : BitVec 32 := Scalar.muli v7 c1_i32_1772
  let v2572 : BitVec 32 := Scalar.addi v2570 v2571
  v2572.toNat
def k0_dev117 (d0 : Dev nD) : Nat :=
  let c0_i32_1790 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1789 : BitVec 32 := 2#32
  let v2595 : BitVec 32 := Scalar.muli v2 c2_i32_1789
  let v2596 : BitVec 32 := Scalar.addi c0_i32_1790 v2595
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1791 : BitVec 32 := 1#32
  let v2597 : BitVec 32 := Scalar.muli v7 c1_i32_1791
  let v2598 : BitVec 32 := Scalar.addi v2596 v2597
  v2598.toNat
def k0_dev118 (d0 : Dev nD) : Nat :=
  let c0_i32_1809 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1808 : BitVec 32 := 2#32
  let v2621 : BitVec 32 := Scalar.muli v2 c2_i32_1808
  let v2622 : BitVec 32 := Scalar.addi c0_i32_1809 v2621
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1810 : BitVec 32 := 1#32
  let v2623 : BitVec 32 := Scalar.muli v7 c1_i32_1810
  let v2624 : BitVec 32 := Scalar.addi v2622 v2623
  v2624.toNat
def k0_dev119 (d0 : Dev nD) : Nat :=
  let c0_i32_1828 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1827 : BitVec 32 := 2#32
  let v2647 : BitVec 32 := Scalar.muli v2 c2_i32_1827
  let v2648 : BitVec 32 := Scalar.addi c0_i32_1828 v2647
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1829 : BitVec 32 := 1#32
  let v2649 : BitVec 32 := Scalar.muli v7 c1_i32_1829
  let v2650 : BitVec 32 := Scalar.addi v2648 v2649
  v2650.toNat
def k0_dev120 (d0 : Dev nD) : Nat :=
  let c0_i32_1847 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1846 : BitVec 32 := 2#32
  let v2673 : BitVec 32 := Scalar.muli v2 c2_i32_1846
  let v2674 : BitVec 32 := Scalar.addi c0_i32_1847 v2673
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1848 : BitVec 32 := 1#32
  let v2675 : BitVec 32 := Scalar.muli v7 c1_i32_1848
  let v2676 : BitVec 32 := Scalar.addi v2674 v2675
  v2676.toNat
def k0_dev121 (d0 : Dev nD) : Nat :=
  let c0_i32_1866 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1865 : BitVec 32 := 2#32
  let v2699 : BitVec 32 := Scalar.muli v2 c2_i32_1865
  let v2700 : BitVec 32 := Scalar.addi c0_i32_1866 v2699
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1867 : BitVec 32 := 1#32
  let v2701 : BitVec 32 := Scalar.muli v7 c1_i32_1867
  let v2702 : BitVec 32 := Scalar.addi v2700 v2701
  v2702.toNat
def k0_dev122 (d0 : Dev nD) : Nat :=
  let c0_i32_1885 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1884 : BitVec 32 := 2#32
  let v2725 : BitVec 32 := Scalar.muli v2 c2_i32_1884
  let v2726 : BitVec 32 := Scalar.addi c0_i32_1885 v2725
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1886 : BitVec 32 := 1#32
  let v2727 : BitVec 32 := Scalar.muli v7 c1_i32_1886
  let v2728 : BitVec 32 := Scalar.addi v2726 v2727
  v2728.toNat
def k0_dev123 (d0 : Dev nD) : Nat :=
  let c0_i32_1904 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1903 : BitVec 32 := 2#32
  let v2751 : BitVec 32 := Scalar.muli v2 c2_i32_1903
  let v2752 : BitVec 32 := Scalar.addi c0_i32_1904 v2751
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1905 : BitVec 32 := 1#32
  let v2753 : BitVec 32 := Scalar.muli v7 c1_i32_1905
  let v2754 : BitVec 32 := Scalar.addi v2752 v2753
  v2754.toNat
def k0_dev124 (d0 : Dev nD) : Nat :=
  let c0_i32_1923 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1922 : BitVec 32 := 2#32
  let v2777 : BitVec 32 := Scalar.muli v2 c2_i32_1922
  let v2778 : BitVec 32 := Scalar.addi c0_i32_1923 v2777
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1924 : BitVec 32 := 1#32
  let v2779 : BitVec 32 := Scalar.muli v7 c1_i32_1924
  let v2780 : BitVec 32 := Scalar.addi v2778 v2779
  v2780.toNat
def k0_dev125 (d0 : Dev nD) : Nat :=
  let c0_i32_1942 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1941 : BitVec 32 := 2#32
  let v2803 : BitVec 32 := Scalar.muli v2 c2_i32_1941
  let v2804 : BitVec 32 := Scalar.addi c0_i32_1942 v2803
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1943 : BitVec 32 := 1#32
  let v2805 : BitVec 32 := Scalar.muli v7 c1_i32_1943
  let v2806 : BitVec 32 := Scalar.addi v2804 v2805
  v2806.toNat
def k0_dev126 (d0 : Dev nD) : Nat :=
  let c0_i32_1961 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1960 : BitVec 32 := 2#32
  let v2829 : BitVec 32 := Scalar.muli v2 c2_i32_1960
  let v2830 : BitVec 32 := Scalar.addi c0_i32_1961 v2829
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1962 : BitVec 32 := 1#32
  let v2831 : BitVec 32 := Scalar.muli v7 c1_i32_1962
  let v2832 : BitVec 32 := Scalar.addi v2830 v2831
  v2832.toNat
def k0_dev127 (d0 : Dev nD) : Nat :=
  let c0_i32_1980 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1979 : BitVec 32 := 2#32
  let v2855 : BitVec 32 := Scalar.muli v2 c2_i32_1979
  let v2856 : BitVec 32 := Scalar.addi c0_i32_1980 v2855
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1981 : BitVec 32 := 1#32
  let v2857 : BitVec 32 := Scalar.muli v7 c1_i32_1981
  let v2858 : BitVec 32 := Scalar.addi v2856 v2857
  v2858.toNat
def k0_dev128 (d0 : Dev nD) : Nat :=
  let c0_i32_1999 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1998 : BitVec 32 := 2#32
  let v2881 : BitVec 32 := Scalar.muli v2 c2_i32_1998
  let v2882 : BitVec 32 := Scalar.addi c0_i32_1999 v2881
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2000 : BitVec 32 := 1#32
  let v2883 : BitVec 32 := Scalar.muli v7 c1_i32_2000
  let v2884 : BitVec 32 := Scalar.addi v2882 v2883
  v2884.toNat
def k0_dev129 (d0 : Dev nD) : Nat :=
  let c0_i32_2018 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2017 : BitVec 32 := 2#32
  let v2907 : BitVec 32 := Scalar.muli v2 c2_i32_2017
  let v2908 : BitVec 32 := Scalar.addi c0_i32_2018 v2907
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2019 : BitVec 32 := 1#32
  let v2909 : BitVec 32 := Scalar.muli v7 c1_i32_2019
  let v2910 : BitVec 32 := Scalar.addi v2908 v2909
  v2910.toNat
def k0_dev130 (d0 : Dev nD) : Nat :=
  let c0_i32_2037 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2036 : BitVec 32 := 2#32
  let v2933 : BitVec 32 := Scalar.muli v2 c2_i32_2036
  let v2934 : BitVec 32 := Scalar.addi c0_i32_2037 v2933
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2038 : BitVec 32 := 1#32
  let v2935 : BitVec 32 := Scalar.muli v7 c1_i32_2038
  let v2936 : BitVec 32 := Scalar.addi v2934 v2935
  v2936.toNat

class Facts₀ : Prop where
  hamt_1 : (1#32 : BitVec 32).msb = false
  hamt_2 : (2#32 : BitVec 32).msb = false
  inb_S64_S1_0 : ∀ a, (![0] : Fin 1 → Nat) a + S1.size a ≤ S64.size a
  squeezes_S1_S_ : S1.Squeezes S_
  inb_S64_S1_1 : ∀ a, (![1] : Fin 1 → Nat) a + S1.size a ≤ S64.size a
  inb_S64_S1_2 : ∀ a, (![2] : Fin 1 → Nat) a + S1.size a ≤ S64.size a
  inb_S64_S1_3 : ∀ a, (![3] : Fin 1 → Nat) a + S1.size a ≤ S64.size a
  inb_S64_S1_4 : ∀ a, (![4] : Fin 1 → Nat) a + S1.size a ≤ S64.size a
  inb_S64_S1_5 : ∀ a, (![5] : Fin 1 → Nat) a + S1.size a ≤ S64.size a
  inb_S64_S1_6 : ∀ a, (![6] : Fin 1 → Nat) a + S1.size a ≤ S64.size a
  inb_S64_S1_7 : ∀ a, (![7] : Fin 1 → Nat) a + S1.size a ≤ S64.size a
  inb_S64_S1_8 : ∀ a, (![8] : Fin 1 → Nat) a + S1.size a ≤ S64.size a
  inb_S64_S1_9 : ∀ a, (![9] : Fin 1 → Nat) a + S1.size a ≤ S64.size a
  inb_S64_S1_10 : ∀ a, (![10] : Fin 1 → Nat) a + S1.size a ≤ S64.size a
  inb_S64_S1_11 : ∀ a, (![11] : Fin 1 → Nat) a + S1.size a ≤ S64.size a
  inb_S64_S1_12 : ∀ a, (![12] : Fin 1 → Nat) a + S1.size a ≤ S64.size a
  inb_S64_S1_13 : ∀ a, (![13] : Fin 1 → Nat) a + S1.size a ≤ S64.size a
  inb_S64_S1_14 : ∀ a, (![14] : Fin 1 → Nat) a + S1.size a ≤ S64.size a
  inb_S64_S1_15 : ∀ a, (![15] : Fin 1 → Nat) a + S1.size a ≤ S64.size a
  inb_S64_S1_16 : ∀ a, (![16] : Fin 1 → Nat) a + S1.size a ≤ S64.size a
  inb_S64_S1_17 : ∀ a, (![17] : Fin 1 → Nat) a + S1.size a ≤ S64.size a
  inb_S64_S1_18 : ∀ a, (![18] : Fin 1 → Nat) a + S1.size a ≤ S64.size a
  inb_S64_S1_19 : ∀ a, (![19] : Fin 1 → Nat) a + S1.size a ≤ S64.size a
  inb_S64_S1_20 : ∀ a, (![20] : Fin 1 → Nat) a + S1.size a ≤ S64.size a
  inb_S64_S1_21 : ∀ a, (![21] : Fin 1 → Nat) a + S1.size a ≤ S64.size a
  inb_S64_S1_22 : ∀ a, (![22] : Fin 1 → Nat) a + S1.size a ≤ S64.size a
  inb_S64_S1_23 : ∀ a, (![23] : Fin 1 → Nat) a + S1.size a ≤ S64.size a
  inb_S64_S1_24 : ∀ a, (![24] : Fin 1 → Nat) a + S1.size a ≤ S64.size a
  inb_S64_S1_25 : ∀ a, (![25] : Fin 1 → Nat) a + S1.size a ≤ S64.size a
  inb_S64_S1_26 : ∀ a, (![26] : Fin 1 → Nat) a + S1.size a ≤ S64.size a
  inb_S64_S1_27 : ∀ a, (![27] : Fin 1 → Nat) a + S1.size a ≤ S64.size a
  inb_S64_S1_28 : ∀ a, (![28] : Fin 1 → Nat) a + S1.size a ≤ S64.size a
  inb_S64_S1_29 : ∀ a, (![29] : Fin 1 → Nat) a + S1.size a ≤ S64.size a
  inb_S64_S1_30 : ∀ a, (![30] : Fin 1 → Nat) a + S1.size a ≤ S64.size a
  inb_S64_S1_31 : ∀ a, (![31] : Fin 1 → Nat) a + S1.size a ≤ S64.size a
  inb_S64_S1_32 : ∀ a, (![32] : Fin 1 → Nat) a + S1.size a ≤ S64.size a
  inb_S64_S1_33 : ∀ a, (![33] : Fin 1 → Nat) a + S1.size a ≤ S64.size a
  inb_S64_S1_34 : ∀ a, (![34] : Fin 1 → Nat) a + S1.size a ≤ S64.size a
  inb_S64_S1_35 : ∀ a, (![35] : Fin 1 → Nat) a + S1.size a ≤ S64.size a
  inb_S64_S1_36 : ∀ a, (![36] : Fin 1 → Nat) a + S1.size a ≤ S64.size a
  inb_S64_S1_37 : ∀ a, (![37] : Fin 1 → Nat) a + S1.size a ≤ S64.size a
  inb_S64_S1_38 : ∀ a, (![38] : Fin 1 → Nat) a + S1.size a ≤ S64.size a
  inb_S64_S1_39 : ∀ a, (![39] : Fin 1 → Nat) a + S1.size a ≤ S64.size a
  inb_S64_S1_40 : ∀ a, (![40] : Fin 1 → Nat) a + S1.size a ≤ S64.size a
  inb_S64_S1_41 : ∀ a, (![41] : Fin 1 → Nat) a + S1.size a ≤ S64.size a
  inb_S64_S1_42 : ∀ a, (![42] : Fin 1 → Nat) a + S1.size a ≤ S64.size a
  inb_S64_S1_43 : ∀ a, (![43] : Fin 1 → Nat) a + S1.size a ≤ S64.size a
  inb_S64_S1_44 : ∀ a, (![44] : Fin 1 → Nat) a + S1.size a ≤ S64.size a
  inb_S64_S1_45 : ∀ a, (![45] : Fin 1 → Nat) a + S1.size a ≤ S64.size a
  inb_S64_S1_46 : ∀ a, (![46] : Fin 1 → Nat) a + S1.size a ≤ S64.size a
  inb_S64_S1_47 : ∀ a, (![47] : Fin 1 → Nat) a + S1.size a ≤ S64.size a
  inb_S64_S1_48 : ∀ a, (![48] : Fin 1 → Nat) a + S1.size a ≤ S64.size a
  inb_S64_S1_49 : ∀ a, (![49] : Fin 1 → Nat) a + S1.size a ≤ S64.size a
  inb_S64_S1_50 : ∀ a, (![50] : Fin 1 → Nat) a + S1.size a ≤ S64.size a
  inb_S64_S1_51 : ∀ a, (![51] : Fin 1 → Nat) a + S1.size a ≤ S64.size a
  inb_S64_S1_52 : ∀ a, (![52] : Fin 1 → Nat) a + S1.size a ≤ S64.size a
  inb_S64_S1_53 : ∀ a, (![53] : Fin 1 → Nat) a + S1.size a ≤ S64.size a
  inb_S64_S1_54 : ∀ a, (![54] : Fin 1 → Nat) a + S1.size a ≤ S64.size a
  inb_S64_S1_55 : ∀ a, (![55] : Fin 1 → Nat) a + S1.size a ≤ S64.size a
  inb_S64_S1_56 : ∀ a, (![56] : Fin 1 → Nat) a + S1.size a ≤ S64.size a
  inb_S64_S1_57 : ∀ a, (![57] : Fin 1 → Nat) a + S1.size a ≤ S64.size a
  inb_S64_S1_58 : ∀ a, (![58] : Fin 1 → Nat) a + S1.size a ≤ S64.size a
  inb_S64_S1_59 : ∀ a, (![59] : Fin 1 → Nat) a + S1.size a ≤ S64.size a
  inb_S64_S1_60 : ∀ a, (![60] : Fin 1 → Nat) a + S1.size a ≤ S64.size a
  inb_S64_S1_61 : ∀ a, (![61] : Fin 1 → Nat) a + S1.size a ≤ S64.size a
  inb_S64_S1_62 : ∀ a, (![62] : Fin 1 → Nat) a + S1.size a ≤ S64.size a
  inb_S64_S1_63 : ∀ a, (![63] : Fin 1 → Nat) a + S1.size a ≤ S64.size a
  inb_S2_S1_0 : ∀ a, (![0] : Fin 1 → Nat) a + S1.size a ≤ S2.size a
  inb_S2x2048x1024_S1x2048x1024_0_0_0 : ∀ a, (![0, 0, 0] : Fin 3 → Nat) a + S1x2048x1024.size a ≤ S2x2048x1024.size a
  squeezes_S1x2048x1024_S2048x1024 : S1x2048x1024.Squeezes S2048x1024
  inb_S2_S1_1 : ∀ a, (![1] : Fin 1 → Nat) a + S1.size a ≤ S2.size a
  inb_S2x2048x1024_S1x2048x1024_1_0_0 : ∀ a, (![1, 0, 0] : Fin 3 → Nat) a + S1x2048x1024.size a ≤ S2x2048x1024.size a
  hcc0_scratch1 : 0 + S2.numel ≤ 260
  hcc0_scratch2 : 2 + S2.numel ≤ 260
  hcc0_scratch3 : 4 + S64.numel ≤ 260
  hcc0_scratch4 : 68 + S64.numel ≤ 260
  hcc0_scratch5 : 132 + S64.numel ≤ 260
  hcc0_scratch6 : 196 + S64.numel ≤ 260
  k0_dev1_lt : ∀ d0 : Dev nD, (k0_dev1 d0) < nD
  k0_dev2_lt : ∀ d0 : Dev nD, (k0_dev2 d0) < nD
  k0_off1_inb : ∀ d0 : Dev nD, ∀ (r : Fin 64), ∀ a, (k0_off1 d0 (BitVec.ofNat 32 (128 * r.val))) a + S128x1024.size a ≤ S32768x1024.size a
  k0_off2_inb : ∀ d0 : Dev nD, ∀ (r : Fin 64), ∀ a, (k0_off2 d0 (BitVec.ofNat 32 (128 * r.val))) a + S128x1024.size a ≤ S16384x2048.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_off3_inb : ∀ d0 : Dev nD, ∀ (r : Fin 64), ∀ a, (k0_off3 d0 (BitVec.ofNat 32 (128 * r.val))) a + S128x1024.size a ≤ S32768x1024.size a
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_off4_inb : ∀ d0 : Dev nD, ∀ a, (k0_off4 d0) a + S2048x1024.size a ≤ S16384x2048.size a
  k0_off5_inb : ∀ d0 : Dev nD, ∀ (r : Fin 8), ∀ a, (k0_off5 d0 (BitVec.ofNat 32 (2048 * r.val))) a + S2048x1024.size a ≤ S32768x1024.size a
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_off6_inb : ∀ d0 : Dev nD, ∀ a, (k0_off6 d0) a + S2048x1024.size a ≤ S16384x2048.size a
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_off7_inb : ∀ d0 : Dev nD, ∀ a, (k0_off7 d0) a + S2048x1024.size a ≤ S16384x2048.size a
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_off8_inb : ∀ d0 : Dev nD, ∀ a, (k0_off8 d0) a + S2048x1024.size a ≤ S16384x2048.size a
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_off9_inb : ∀ d0 : Dev nD, ∀ a, (k0_off9 d0) a + S2048x1024.size a ≤ S16384x2048.size a
  k0_dev87_lt : ∀ d0 : Dev nD, (k0_dev87 d0) < nD
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_off10_inb : ∀ d0 : Dev nD, ∀ a, (k0_off10 d0) a + S2048x1024.size a ≤ S16384x2048.size a
  k0_dev91_lt : ∀ d0 : Dev nD, (k0_dev91 d0) < nD
  k0_dev92_lt : ∀ d0 : Dev nD, (k0_dev92 d0) < nD
  k0_dev93_lt : ∀ d0 : Dev nD, (k0_dev93 d0) < nD
  k0_dev94_lt : ∀ d0 : Dev nD, (k0_dev94 d0) < nD
  k0_off11_inb : ∀ d0 : Dev nD, ∀ a, (k0_off11 d0) a + S2048x1024.size a ≤ S16384x2048.size a
  k0_dev95_lt : ∀ d0 : Dev nD, (k0_dev95 d0) < nD
  k0_dev96_lt : ∀ d0 : Dev nD, (k0_dev96 d0) < nD
  k0_dev97_lt : ∀ d0 : Dev nD, (k0_dev97 d0) < nD
  k0_dev98_lt : ∀ d0 : Dev nD, (k0_dev98 d0) < nD
  k0_off12_inb : ∀ d0 : Dev nD, ∀ a, (k0_off12 d0) a + S2048x1024.size a ≤ S16384x2048.size a
  k0_dev99_lt : ∀ d0 : Dev nD, (k0_dev99 d0) < nD
  k0_dev100_lt : ∀ d0 : Dev nD, (k0_dev100 d0) < nD
  k0_dev101_lt : ∀ d0 : Dev nD, (k0_dev101 d0) < nD
  k0_dev102_lt : ∀ d0 : Dev nD, (k0_dev102 d0) < nD
  k0_dev103_lt : ∀ d0 : Dev nD, (k0_dev103 d0) < nD
  k0_dev104_lt : ∀ d0 : Dev nD, (k0_dev104 d0) < nD
  k0_dev105_lt : ∀ d0 : Dev nD, (k0_dev105 d0) < nD
  k0_dev106_lt : ∀ d0 : Dev nD, (k0_dev106 d0) < nD
  k0_dev107_lt : ∀ d0 : Dev nD, (k0_dev107 d0) < nD
  k0_dev108_lt : ∀ d0 : Dev nD, (k0_dev108 d0) < nD
  k0_dev109_lt : ∀ d0 : Dev nD, (k0_dev109 d0) < nD
  k0_dev110_lt : ∀ d0 : Dev nD, (k0_dev110 d0) < nD
  k0_dev111_lt : ∀ d0 : Dev nD, (k0_dev111 d0) < nD
  k0_dev112_lt : ∀ d0 : Dev nD, (k0_dev112 d0) < nD
  k0_dev113_lt : ∀ d0 : Dev nD, (k0_dev113 d0) < nD
  k0_dev114_lt : ∀ d0 : Dev nD, (k0_dev114 d0) < nD
  k0_dev115_lt : ∀ d0 : Dev nD, (k0_dev115 d0) < nD
  k0_dev116_lt : ∀ d0 : Dev nD, (k0_dev116 d0) < nD
  k0_dev117_lt : ∀ d0 : Dev nD, (k0_dev117 d0) < nD
  k0_dev118_lt : ∀ d0 : Dev nD, (k0_dev118 d0) < nD
  k0_dev119_lt : ∀ d0 : Dev nD, (k0_dev119 d0) < nD
  k0_dev120_lt : ∀ d0 : Dev nD, (k0_dev120 d0) < nD
  k0_dev121_lt : ∀ d0 : Dev nD, (k0_dev121 d0) < nD
  k0_dev122_lt : ∀ d0 : Dev nD, (k0_dev122 d0) < nD
  k0_dev123_lt : ∀ d0 : Dev nD, (k0_dev123 d0) < nD
  k0_dev124_lt : ∀ d0 : Dev nD, (k0_dev124 d0) < nD
  k0_dev125_lt : ∀ d0 : Dev nD, (k0_dev125 d0) < nD
  k0_dev126_lt : ∀ d0 : Dev nD, (k0_dev126 d0) < nD
  k0_dev127_lt : ∀ d0 : Dev nD, (k0_dev127 d0) < nD
  k0_dev128_lt : ∀ d0 : Dev nD, (k0_dev128 d0) < nD
  k0_dev129_lt : ∀ d0 : Dev nD, (k0_dev129 d0) < nD
  k0_dev130_lt : ∀ d0 : Dev nD, (k0_dev130 d0) < nD

variable [Facts₀]

abbrev cc0_scratch1 : DmaSems sig S2 := SemArray.consecutive 0 S2 hcc0_scratch1
abbrev cc0_scratch2 : DmaSems sig S2 := SemArray.consecutive 2 S2 hcc0_scratch2
abbrev cc0_scratch3 : DmaSems sig S64 := SemArray.consecutive 4 S64 hcc0_scratch3
abbrev cc0_scratch4 : DmaSems sig S64 := SemArray.consecutive 68 S64 hcc0_scratch4
abbrev cc0_scratch5 : DmaSems sig S64 := SemArray.consecutive 132 S64 hcc0_scratch5
abbrev cc0_scratch6 : DmaSems sig S64 := SemArray.consecutive 196 S64 hcc0_scratch6

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S32768x2048 : Shape := ⟨2, ![32768, 2048]⟩

abbrev nBuf : Space → Nat
  | .hbm => 1
  | .vmem => 0
  | .smem => 0
  | _ => 0

abbrev bufTy : (tb : Table) → Fin (tcTables nBuf tb) → BufTy
  | .hbm, ⟨0, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Kernel.Base.lean ====
import proofs.«900013_g7700000000000014_dist_a2a_v7x_xy2x2_x_m16384_n1024_f32_1_alg».proof.Defs
import proofs.«900013_g7700000000000014_dist_a2a_v7x_xy2x2_x_m16384_n1024_f32_1_alg».proof.Proof.Gen.Kernel
import Idealize.ShloMosaic.Lib.Layout

noncomputable section

namespace Cert.Kernel.A2A

open Cert.Kernel Cert.Kernel.Gen
open Idealize.ShloMosaic Idealize.ShloMosaic.TcCoe

variable {F : FTy → Type} [FloatOps F]

/-! ## The mesh: device `2·x + y` has coordinates `(x, y)`; its two neighbours flip one coordinate -/

/-- The coordinate on mesh axis `x` (the axis both the input's rows and the result's columns are cut along). -/
def px (c : Dev nD) : ℕ := c.val / 2
/-- The coordinate on mesh axis `y`. -/
def py (c : Dev nD) : ℕ := c.val % 2

theorem px_lt (c : Dev nD) : px c < 2 := by revert c; decide
theorem py_lt (c : Dev nD) : py c < 2 := by revert c; decide

/-- The neighbour along `x`: `(1 - x, y)`. -/
def xn (c : Dev nD) : Dev nD := ⟨(c.val % 2 + 2) - 2 * (c.val / 2), by revert c; decide⟩
/-- The neighbour along `y`: `(x, 1 - y)`. -/
def yn (c : Dev nD) : Dev nD := ⟨(2 * (c.val / 2) + 1) - c.val % 2, by revert c; decide⟩

theorem xn_xn (c : Dev nD) : xn (xn c) = c := by revert c; decide
theorem yn_yn (c : Dev nD) : yn (yn c) = c := by revert c; decide
theorem xn_yn (c : Dev nD) : xn (yn c) = yn (xn c) := by revert c; decide
theorem xn_ne (c : Dev nD) : xn c ≠ c := by revert c; decide
theorem yn_ne (c : Dev nD) : yn c ≠ c := by revert c; decide
theorem xn_ne_yn (c : Dev nD) : xn c ≠ yn c := by revert c; decide
theorem px_xn (c : Dev nD) : px (xn c) = 1 - px c := by revert c; decide
theorem py_xn (c : Dev nD) : py (xn c) = py c := by revert c; decide
theorem px_yn (c : Dev nD) : px (yn c) = px c := by revert c; decide
theorem py_yn (c : Dev nD) : py (yn c) = 1 - py c := by revert c; decide

/-! ## The buffers and the pieces the copies move, for a symbolic chunk -/

abbrev A0 : Memref sig .tc .hbm S16384x2048 .f32 := Memref.whole main_arg0
abbrev A1 : Memref sig .tc .hbm S32768x1024 .f32 := Memref.whole main_v1
abbrev A2 : Memref sig .tc .vmem S2x2048x1024 .f32 := Memref.whole cc0_scratch0

theorem inb_sem64 (k : Fin 64) : ∀ a, (![k.val] : Fin 1 → Nat) a + S1.size a ≤ S64.size a := by
  intro a; fin_cases a; show k.val + 1 ≤ 64; omega
theorem inb_sem2 (s : Fin 2) : ∀ a, (![s.val] : Fin 1 → Nat) a + S1.size a ≤ S2.size a := by
  intro a; fin_cases a; show s.val + 1 ≤ 2; omega

/-- Semaphore `k` of a 64-semaphore scratch array, as the body slices and squeezes it. -/
abbrev sem64 (arr : DmaSems sig S64) (k : Fin 64) : DmaSems sig S_ :=
  (arr.slice (Rect.unit (s := S64) ![k.val] S1.size (inb_sem64 k))).squeeze S_ squeezes_S1_S_
abbrev sem2 (arr : DmaSems sig S2) (s : Fin 2) : DmaSems sig S_ :=
  (arr.slice (Rect.unit (s := S2) ![s.val] S1.size (inb_sem2 s))).squeeze S_ squeezes_S1_S_

/-- The local copies' semaphores (into the staging slot; out of it), the row-exchange send and receive semaphores,
    the column-exchange send and receive semaphores. -/
abbrev linS (s : Fin 2) : DmaSems sig S_ := sem2 cc0_scratch1 s
abbrev loutS (s : Fin 2) : DmaSems sig S_ := sem2 cc0_scratch2 s
abbrev sxS (k : Fin 64) : DmaSems sig S_ := sem64 cc0_scratch3 k
abbrev rxS (k : Fin 64) : DmaSems sig S_ := sem64 cc0_scratch4 k
abbrev syS (k : Fin 64) : DmaSems sig S_ := sem64 cc0_scratch5 k
abbrev ryS (k : Fin 64) : DmaSems sig S_ := sem64 cc0_scratch6 k
/-- The runtime's barrier semaphore of collective id 0. -/
abbrev barS : Sem sig := (SemArray.scalar (sig.barrier 0 rfl) : Sems sig S_).sem

/-- Chunk `k` of what device `c` sends its `x`-neighbour: rows `8192·y + 128k …` of its argument array, the
    neighbour's 1024 columns. -/
abbrev xSrc (c : Dev nD) (k : Fin 64) : Memref sig .tc .hbm S128x1024 .f32 :=
  A0.slice (Rect.unit (s := S16384x2048) (k0_off2 c (BitVec.ofNat 32 (128 * k.val))) S128x1024.size (k0_off2_inb c k)) (fun _ => rfl)
/-- Where it lands in the `x`-neighbour's result array: rows `16384·x + 8192·y + 128k …` (the sender's `x`, `y`). -/
abbrev xDst (c : Dev nD) (k : Fin 64) : Memref sig .tc .hbm S128x1024 .f32 :=
  A1.slice (Rect.unit (s := S32768x1024) (k0_off1 c (BitVec.ofNat 32 (128 * k.val))) S128x1024.size (k0_off1_inb c k)) (fun _ => rfl)
/-- Chunk `k` of what device `c` forwards to its `y`-neighbour: rows `16384·(1-x) + 8192·y + 128k …` of its result
    array (what the `x`-neighbour's chunk `k` landed in); the same rows of the `y`-neighbour's result array receive it. -/
abbrev yBuf (c : Dev nD) (k : Fin 64) : Memref sig .tc .hbm S128x1024 .f32 :=
  A1.slice (Rect.unit (s := S32768x1024) (k0_off3 c (BitVec.ofNat 32 (128 * k.val))) S128x1024.size (k0_off3_inb c k)) (fun _ => rfl)
/-- Slot `s` of the staging scratch. -/
abbrev stg : Fin 2 → Memref sig .tc .vmem S2048x1024 .f32
  | ⟨0, _⟩ => (A2.slice (Rect.unit (s := S2x2048x1024) ![0, 0, 0] S1x2048x1024.size inb_S2x2048x1024_S1x2048x1024_0_0_0) (fun _ => rfl)).squeeze S2048x1024 squeezes_S1x2048x1024_S2048x1024
  | ⟨_ + 1, _⟩ => (A2.slice (Rect.unit (s := S2x2048x1024) ![1, 0, 0] S1x2048x1024.size inb_S2x2048x1024_S1x2048x1024_1_0_0) (fun _ => rfl)).squeeze S2048x1024 squeezes_S1x2048x1024_S2048x1024
/-- A 2048-row piece of the argument array at an offset (the local copies' sources: rows `2048·j`, the device's own
    1024 columns; the body names the eight offsets one by one). -/
abbrev lSrc (off : Fin 2 → Nat) (h : ∀ a, off a + S2048x1024.size a ≤ S16384x2048.size a) : Memref sig .tc .hbm S2048x1024 .f32 :=
  A0.slice (Rect.unit (s := S16384x2048) off S2048x1024.size h) (fun _ => rfl)
/-- Where local piece `j` goes: rows `16384·x + 2048·j …` of the result array. -/
abbrev lDst (c : Dev nD) (j : Fin 8) : Memref sig .tc .hbm S2048x1024 .f32 :=
  A1.slice (Rect.unit (s := S32768x1024) (k0_off5 c (BitVec.ofNat 32 (2048 * j.val))) S2048x1024.size (k0_off5_inb c j)) (fun _ => rfl)

/-- The offsets of the eight local sources, in the body's order. -/
def lOff (c : Dev nD) : Fin 8 → (Fin 2 → Nat)
  | ⟨0, _⟩ => k0_off4 c | ⟨1, _⟩ => k0_off6 c | ⟨2, _⟩ => k0_off7 c | ⟨3, _⟩ => k0_off8 c
  | ⟨4, _⟩ => k0_off9 c | ⟨5, _⟩ => k0_off10 c | ⟨6, _⟩ => k0_off11 c | ⟨_ + 7, _⟩ => k0_off12 c
theorem lOff_eq (c : Dev nD) (j : Fin 8) : lOff c j = ![2048 * j.val, 1024 * (c.val / 2)] := by
  revert c j; decide +kernel
theorem lOff_inb (c : Dev nD) (j : Fin 8) : ∀ a, lOff c j a + S2048x1024.size a ≤ S16384x2048.size a := by
  rw [lOff_eq]; intro a; fin_cases a
  · show 2048 * j.val + 2048 ≤ 16384; omega
  · show 1024 * (c.val / 2) + 1024 ≤ 2048; have : c.val < 4 := c.isLt; omega

/-- The device chains the body addresses its copies and signals with: all are one of the two neighbours. -/
theorem dev_xn (c : Dev nD) (n : Nat) (h : n < nD) (e : n = ((c.val % 2) + 2) - 2 * (c.val / 2)) : (⟨n, h⟩ : Dev nD) = xn c := Fin.ext e
theorem dev_yn (c : Dev nD) (n : Nat) (h : n < nD) (e : n = (2 * (c.val / 2) + 1) - (c.val % 2)) : (⟨n, h⟩ : Dev nD) = yn c := Fin.ext e

-- the chunk-generic pieces ARE the printed ones at a literal chunk
example (c : Dev nD) : xSrc c ⟨1, by decide⟩ = (Memref.whole main_arg0 : Memref sig .tc .hbm S16384x2048 .f32).slice (Rect.unit (s := S16384x2048) (k0_off2 c 128#32) S128x1024.size (k0_off2_inb c 1)) (fun _ => rfl) := rfl
example : sxS ⟨63, by decide⟩ = ((cc0_scratch3 : DmaSems sig S64).slice (Rect.unit (s := S64) ![63] S1.size inb_S64_S1_63)).squeeze S_ squeezes_S1_S_ := rfl
example (c : Dev nD) : lSrc (lOff c ⟨0, by decide⟩) (lOff_inb c _) = (Memref.whole main_arg0 : Memref sig .tc .hbm S16384x2048 .f32).slice (Rect.unit (s := S16384x2048) (k0_off4 c) S2048x1024.size (k0_off4_inb c)) (fun _ => rfl) := rfl
example : stg ⟨1, by decide⟩ = ((Memref.whole cc0_scratch0 : Memref sig .tc .vmem S2x2048x1024 .f32).slice (Rect.unit (s := S2x2048x1024) ![1, 0, 0] S1x2048x1024.size inb_S2x2048x1024_S1x2048x1024_1_0_0) (fun _ => rfl)).squeeze S2048x1024 squeezes_S1x2048x1024_S2048x1024 := rfl

/-! ## What each device's result array holds at the end -/

variable (m : (ℓ : Loc nD τ sig) → Buf (Elt F) ℓ)

/-- Device `c`'s argument array (its block of the rows of the whole input), as launched. -/
abbrev inA (c : Dev nD) : Buf (Elt F) ((c : Thread nD τ).loc main_arg0) := m ((c : Thread nD τ).loc main_arg0)

/-- The device whose argument array row `i` of `c`'s result is read from: rows of `c`'s own row block come from `c`
    itself; of the other row block, the half with `c`'s own `y` comes straight from the `x`-neighbour, the other half
    from the `x`-neighbour of the `y`-neighbour (through the `y`-neighbour). -/
def srcDev (c : Dev nD) (i : ℕ) : Dev nD :=
  if i / 16384 = px c then c else if (i % 16384) / 8192 = py c then xn c else xn (yn c)

/-- Device `c`'s result array after the kernel: entry `(i, j)` is entry `(i mod 16384, 1024·x + j)` of the argument
    array of the device row `i` is read from (whose `x` coordinate is `i / 16384`). -/
def outFinal (c : Dev nD) : Buf (Elt F) ((c : Thread nD τ).loc main_v1) := fun idx =>
  inA m (srcDev c (idx 0).val)
    (Shape.pair (⟨(idx 0).val % 16384, Nat.mod_lt _ (by decide)⟩ : Fin 16384)
      (⟨1024 * px c + (idx 1).val, by have h1 := px_lt c; have h2 : (idx 1).val < 1024 := (idx 1).isLt; omega⟩ : Fin 2048))

end Cert.Kernel.A2A

end
-- ==== Proof.Kernel.Sched.lean ====
import proofs.«900013_g7700000000000014_dist_a2a_v7x_xy2x2_x_m16384_n1024_f32_1_alg».proof.Proof.Kernel.Base
import proofs.«900013_g7700000000000014_dist_a2a_v7x_xy2x2_x_m16384_n1024_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's own (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

abbrev barCell (c : Dev nD) : GSem nD τ sig := ((c : Thread nD τ), .reg barS)
abbrev linCell (c : Dev nD) (s : Fin 2) : GSem nD τ sig := ((c : Thread nD τ), .dma (linS s).sem)
abbrev loutCell (c : Dev nD) (s : Fin 2) : GSem nD τ sig := ((c : Thread nD τ), .dma (loutS s).sem)
abbrev sxCell (c : Dev nD) (k : Fin 64) : GSem nD τ sig := ((c : Thread nD τ), .dma (sxS k).sem)
abbrev rxCell (c : Dev nD) (k : Fin 64) : GSem nD τ sig := ((c : Thread nD τ), .dma (rxS k).sem)
abbrev syCell (c : Dev nD) (k : Fin 64) : GSem nD τ sig := ((c : Thread nD τ), .dma (syS k).sem)
abbrev ryCell (c : Dev nD) (k : Fin 64) : GSem nD τ sig := ((c : Thread nD τ), .dma (ryS k).sem)

/-- The DMA semaphores by number: 0–1 into the staging slots, 2–3 out of them, 4–67 the row exchange's sends,
    68–131 its receives, 132–195 the column exchange's sends, 196–259 its receives. -/
theorem linS_val (s : Fin 2) : (linS s).sem.val = s.val := by revert s; decide
theorem loutS_val (s : Fin 2) : (loutS s).sem.val = 2 + s.val := by revert s; decide
theorem sxS_val (k : Fin 64) : (sxS k).sem.val = 4 + k.val := by revert k; decide
theorem rxS_val (k : Fin 64) : (rxS k).sem.val = 68 + k.val := by revert k; decide
theorem syS_val (k : Fin 64) : (syS k).sem.val = 132 + k.val := by revert k; decide
theorem ryS_val (k : Fin 64) : (ryS k).sem.val = 196 + k.val := by revert k; decide

/-! ## Credit amounts: a 128-row chunk of the result array; a staging slot; a 2048-row piece of the result array -/

abbrev N128 : ℕ := (xDst (0 : Dev nD) 0).view.dmaCredit
abbrev NLi : ℕ := (stg 0).view.dmaCredit
abbrev NLo : ℕ := (lDst (0 : Dev nD) 0).view.dmaCredit
theorem N128_pos : 0 < N128 := View.dmaCredit_pos _ (by decide)
theorem NLi_pos : 0 < NLi := View.dmaCredit_pos _ (by decide)
theorem NLo_pos : 0 < NLo := View.dmaCredit_pos _ (by decide)

/-! ## Which cell a semaphore is -/

inductive CK where
  | bar | lin (s : Fin 2) | lout (s : Fin 2) | sx (k : Fin 64) | rx (k : Fin 64) | sy (k : Fin 64) | ry (k : Fin 64)
  deriving DecidableEq

def classify : SemLoc sig → Option CK
  | .reg _ => some .bar
  | .dma q =>
    if h : q.val < 2 then some (.lin ⟨q.val, h⟩)
    else if h : q.val < 4 then some (.lout ⟨q.val - 2, by omega⟩)
    else if h : q.val < 68 then some (.sx ⟨q.val - 4, by omega⟩)
    else if h : q.val < 132 then some (.rx ⟨q.val - 68, by omega⟩)
    else if h : q.val < 196 then some (.sy ⟨q.val - 132, by omega⟩)
    else if h : q.val < 260 then some (.ry ⟨q.val - 196, by omega⟩)
    else none

theorem classify_bar : classify (.reg barS) = some .bar := rfl
theorem classify_lin (s : Fin 2) : classify (.dma (linS s).sem) = some (.lin s) := by revert s; decide
theorem classify_lout (s : Fin 2) : classify (.dma (loutS s).sem) = some (.lout s) := by revert s; decide
theorem classify_sx (k : Fin 64) : classify (.dma (sxS k).sem) = some (.sx k) := by revert k; decide
theorem classify_rx (k : Fin 64) : classify (.dma (rxS k).sem) = some (.rx k) := by revert k; decide
theorem classify_sy (k : Fin 64) : classify (.dma (syS k).sem) = some (.sy k) := by revert k; decide
theorem classify_ry (k : Fin 64) : classify (.dma (ryS k).sem) = some (.ry k) := by revert k; decide

/-! ## What is held of a buffer: the elements under a slice, at some contents -/

/-- Device `d` holds the elements under the slice `P` of one of its buffers, at contents `f` (of which only the values
    under the slice matter). -/
abbrev pts {sp : Space} {s : Shape} {e : EltTy} (d : Dev nD) (P : Memref sig .tc sp s e) (f : Buf (Elt F) (P.view.loc (d : Thread nD τ))) : sProp 𝕄 :=
  P.view.loc (d : Thread nD τ) ↦[P.view.set]{fullShare} f

/-! ## The payloads -/

/-- The `x`-neighbour's entry signal hands device `c` the 64 chunks of the neighbour's result array that `c`'s row
    exchange writes; the `y`-neighbour's the 64 chunks that `c`'s column exchange writes. -/
def barPayX (c : Dev nD) : sProp 𝕄 := bigSep Finset.univ fun k : Fin 64 => iprop(∃ f, pts (xn c) (xDst c k) f)
def barPayY (c : Dev nD) : sProp 𝕄 := bigSep Finset.univ fun k : Fin 64 => iprop(∃ f, pts (yn c) (yBuf c k) f)
/-- Chunk `k` of the row exchange landed on `c`: those rows of `c`'s result array hold what they must. -/
def rxPay (c : Dev nD) (k : Fin 64) : sProp 𝕄 := pts c (xDst (xn c) k) (outFinal m c)
/-- Chunk `k` of the column exchange landed on `c`. -/
def ryPay (c : Dev nD) (k : Fin 64) : sProp 𝕄 := pts c (yBuf (yn c) k) (outFinal m c)
/-- The row exchange's source chunk is `c`'s again; -/
def sxPay (c : Dev nD) (k : Fin 64) : sProp 𝕄 := pts c (xSrc c k) (inA m c)
/-- the column exchange's (the rows chunk `k` of the row exchange landed in). -/
def syPay (c : Dev nD) (k : Fin 64) : sProp 𝕄 := pts c (yBuf c k) (outFinal m c)
/-- Local piece `j` is in its staging slot (read back through the slot it is the piece), its source `c`'s again; -/
def linPay (c : Dev nD) (j : Fin 8) (s : Fin 2) : sProp 𝕄 :=
  iprop((∃ f, pts c (stg s) f ∗ ⌜(stg s).view.read (Elt F) f = (lSrc (lOff c j) (lOff_inb c j)).view.read (Elt F) (inA m c)⌝)
    ∗ pts c (lSrc (lOff c j) (lOff_inb c j)) (inA m c))
/-- it is in the result array, the staging slot `c`'s again. -/
def loutPay (c : Dev nD) (j : Fin 8) (s : Fin 2) : sProp 𝕄 :=
  iprop(pts c (lDst c j) (outFinal m c) ∗ ∃ f, pts c (stg s) f)

/-- The local piece that round `r` of a slot-`s` cell moves: `2r + s` (pieces alternate between the two slots). -/
def pieceOf (r : ℕ) (s : Fin 2) : Fin 8 := ⟨(2 * r + s.val) % 8, Nat.mod_lt _ (by decide)⟩

/-! ## The schedule -/

/-- One round for the barrier cell (two duties of one unit: `false` the `x`-neighbour's signal, `true` the
    `y`-neighbour's) and for each exchange cell (one duty, a chunk's credit); four rounds for each local-copy cell
    (one duty a round, the piece's credit). -/
def a2aRd : Rounds.Schedule (GSem nD τ sig) Bool 𝕄 where
  duties g r :=
    if g.1.2 = .tc then
      match classify g.2 with
      | some .bar => if r = 0 then Finset.univ else ∅
      | some (.lin _) => if r < 4 then {false} else ∅
      | some (.lout _) => if r < 4 then {false} else ∅
      | some _ => if r = 0 then {false} else ∅
      | none => ∅
    else ∅
  unitless _ := False
  amount g _ _ :=
    match classify g.2 with
    | some .bar => 1
    | some (.lin _) => NLi
    | some (.lout _) => NLo
    | _ => N128
  payload g r d :=
    match classify g.2 with
    | some .bar => if d then barPayY g.1.1 else barPayX g.1.1
    | some (.lin s) => linPay m g.1.1 (pieceOf r s) s
    | some (.lout s) => loutPay m g.1.1 (pieceOf r s) s
    | some (.sx k) => sxPay m g.1.1 k
    | some (.rx k) => rxPay m g.1.1 k
    | some (.sy k) => syPay m g.1.1 k
    | some (.ry k) => ryPay m g.1.1 k
    | none => iprop(emp)
  amount_pos g _ _ _ := by
    cases classify g.2 with
    | none => exact N128_pos
    | some ck => cases ck <;> first | exact Nat.one_pos | exact NLi_pos | exact NLo_pos | exact N128_pos

/-! ## The schedule's tables -/

section Tables
variable (c : Dev nD)

omit [FloatOps F] in
theorem duties_bar : (a2aRd (F := F) m).duties (barCell c) 0 = Finset.univ := by
  simp only [a2aRd, classify_bar, if_true]
omit [FloatOps F] in
theorem duties_sx (k : Fin 64) : (a2aRd (F := F) m).duties (sxCell c k) 0 = {false} := by simp only [a2aRd, classify_sx, if_true]
omit [FloatOps F] in
theorem duties_rx (k : Fin 64) : (a2aRd (F := F) m).duties (rxCell c k) 0 = {false} := by simp only [a2aRd, classify_rx, if_true]
omit [FloatOps F] in
theorem duties_sy (k : Fin 64) : (a2aRd (F := F) m).duties (syCell c k) 0 = {false} := by simp only [a2aRd, classify_sy, if_true]
omit [FloatOps F] in
theorem duties_ry (k : Fin 64) : (a2aRd (F := F) m).duties (ryCell c k) 0 = {false} := by simp only [a2aRd, classify_ry, if_true]
omit [FloatOps F] in
theorem duties_lin (s : Fin 2) (r : ℕ) (hr : r < 4) : (a2aRd (F := F) m).duties (linCell c s) r = {false} := by
  simp only [a2aRd, classify_lin, if_true, if_pos hr]
omit [FloatOps F] in
theorem duties_lout (s : Fin 2) (r : ℕ) (hr : r < 4) : (a2aRd (F := F) m).duties (loutCell c s) r = {false} := by
  simp only [a2aRd, classify_lout, if_true, if_pos hr]

omit [FloatOps F] in
theorem amount_bar (d : Bool) : (a2aRd (F := F) m).amount (barCell c) 0 d = 1 := by simp only [a2aRd, classify_bar]
omit [FloatOps F] in
theorem amount_sx (k : Fin 64) (d : Bool) : (a2aRd (F := F) m).amount (sxCell c k) 0 d = N128 := by simp only [a2aRd, classify_sx]
omit [FloatOps F] in
theorem amount_rx (k : Fin 64) (d : Bool) : (a2aRd (F := F) m).amount (rxCell c k) 0 d = N128 := by simp only [a2aRd, classify_rx]
omit [FloatOps F] in
theorem amount_sy (k : Fin 64) (d : Bool) : (a2aRd (F := F) m).amount (syCell c k) 0 d = N128 := by simp only [a2aRd, classify_sy]
omit [FloatOps F] in
theorem amount_ry (k : Fin 64) (d : Bool) : (a2aRd (F := F) m).amount (ryCell c k) 0 d = N128 := by simp only [a2aRd, classify_ry]
omit [FloatOps F] in
theorem amount_lin (s : Fin 2) (r : ℕ) (d : Bool) : (a2aRd (F := F) m).amount (linCell c s) r d = NLi := by simp only [a2aRd, classify_lin]
omit [FloatOps F] in
theorem amount_lout (s : Fin 2) (r : ℕ) (d : Bool) : (a2aRd (F := F) m).amount (loutCell c s) r d = NLo := by simp only [a2aRd, classify_lout]

omit [FloatOps F] in
theorem payload_bar (d : Bool) : (a2aRd (F := F) m).payload (barCell c) 0 d = if d then barPayY c else barPayX c := by simp only [a2aRd, classify_bar]
omit [FloatOps F] in
theorem payload_sx (k : Fin 64) (r : ℕ) (d : Bool) : (a2aRd (F := F) m).payload (sxCell c k) r d = sxPay m c k := by simp only [a2aRd, classify_sx]
omit [FloatOps F] in
theorem payload_rx (k : Fin 64) (r : ℕ) (d : Bool) : (a2aRd (F := F) m).payload (rxCell c k) r d = rxPay m c k := by simp only [a2aRd, classify_rx]
omit [FloatOps F] in
theorem payload_sy (k : Fin 64) (r : ℕ) (d : Bool) : (a2aRd (F := F) m).payload (syCell c k) r d = syPay m c k := by simp only [a2aRd, classify_sy]
omit [FloatOps F] in
theorem payload_ry (k : Fin 64) (r : ℕ) (d : Bool) : (a2aRd (F := F) m).payload (ryCell c k) r d = ryPay m c k := by simp only [a2aRd, classify_ry]
omit [FloatOps F] in
theorem payload_lin (s : Fin 2) (r : ℕ) (d : Bool) : (a2aRd (F := F) m).payload (linCell c s) r d = linPay m c (pieceOf r s) s := by simp only [a2aRd, classify_lin]
omit [FloatOps F] in
theorem payload_lout (s : Fin 2) (r : ℕ) (d : Bool) : (a2aRd (F := F) m).payload (loutCell c s) r d = loutPay m c (pieceOf r s) s := by simp only [a2aRd, classify_lout]

end Tables

end Cert.Kernel.A2A

end
-- ==== Proof.Kernel.State.lean ====
import proofs.«900013_g7700000000000014_dist_a2a_v7x_xy2x2_x_m16384_n1024_f32_1_alg».proof.Proof.Kernel.Sched

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Chunks still to do, chunks done -/

/-- The chunks from `a` on; -/
def seg (a : ℕ) : Finset (Fin 64) := Finset.univ.filter fun k => a ≤ k.val
/-- the chunks before `a`; -/
def pre (a : ℕ) : Finset (Fin 64) := Finset.univ.filter fun k => k.val < a
/-- the chunks from `lo` up to `hi`. -/
def mid (lo hi : ℕ) : Finset (Fin 64) := Finset.univ.filter fun k => lo ≤ k.val ∧ k.val < hi

theorem seg_zero : seg 0 = Finset.univ := by ext k; simp [seg]
theorem seg_top : seg 64 = ∅ := by ext k; simp [seg]
theorem pre_zero : pre 0 = ∅ := by ext k; simp [pre]
theorem pre_top : pre 64 = Finset.univ := by ext k; simp [pre]
theorem mid_self (a : ℕ) : mid a a = ∅ := by ext k; simp [mid]
theorem seg_eq_insert (k : Fin 64) : seg k.val = insert k (seg (k.val + 1)) := by
  ext j; simp only [seg, Finset.mem_filter, Finset.mem_univ, true_and, Finset.mem_insert]
  constructor
  · intro h; by_cases hj : j = k
    · exact .inl hj
    · exact .inr (by have : j.val ≠ k.val := fun h' => hj (Fin.ext h'); omega)
  · rintro (rfl | h) <;> omega
theorem not_mem_seg_succ (k : Fin 64) : k ∉ seg (k.val + 1) := by simp [seg]
theorem pre_succ_eq_insert (k : Fin 64) : pre (k.val + 1) = insert k (pre k.val) := by
  ext j; simp only [pre, Finset.mem_filter, Finset.mem_univ, true_and, Finset.mem_insert]
  constructor
  · intro h; by_cases hj : j = k
    · exact .inl hj
    · exact .inr (by have : j.val ≠ k.val := fun h' => hj (Fin.ext h'); omega)
  · rintro (rfl | h) <;> omega
theorem not_mem_pre (k : Fin 64) : k ∉ pre k.val := by simp [pre]
theorem mid_succ_eq_insert (lo : ℕ) (k : Fin 64) (h : lo ≤ k.val) : mid lo (k.val + 1) = insert k (mid lo k.val) := by
  ext j; simp only [mid, Finset.mem_filter, Finset.mem_univ, true_and, Finset.mem_insert]
  constructor
  · intro h'; by_cases hj : j = k
    · exact .inl hj
    · exact .inr (by have : j.val ≠ k.val := fun h'' => hj (Fin.ext h''); omega)
  · rintro (rfl | h') <;> omega
theorem not_mem_mid (lo : ℕ) (k : Fin 64) : k ∉ mid lo k.val := by simp [mid]
theorem mid_eq_insert_low (k : Fin 64) (hi : ℕ) (h : k.val < hi) : mid k.val hi = insert k (mid (k.val + 1) hi) := by
  ext j; simp only [mid, Finset.mem_filter, Finset.mem_univ, true_and, Finset.mem_insert]
  constructor
  · intro h'; by_cases hj : j = k
    · exact .inl hj
    · exact .inr (by have : j.val ≠ k.val := fun h'' => hj (Fin.ext h''); omega)
  · rintro (rfl | h') <;> omega
theorem not_mem_mid_succ (k : Fin 64) (hi : ℕ) : k ∉ mid (k.val + 1) hi := by simp [mid]

/-! ## Every cell of the exchange, by number; the invariants' names; the persistent records -/

/-- The 261 semaphores a device's exchange runs on: the barrier, then the 260 DMA semaphores in order. -/
abbrev csem : Fin 261 → SemLoc sig := fun i => if h : i.val = 0 then .reg barS else .dma ⟨i.val - 1, by have := i.isLt; show i.val - 1 < 260; omega⟩
abbrev kcell (ck : Dev nD × Fin 261) : GSem nD τ sig := ((ck.1 : Thread nD τ), csem ck.2)

/-- The number of a DMA semaphore's cell. -/
def ixDma (q : DmaSem sig) : Fin 261 := ⟨q.val + 1, by have : q.val < 260 := q.isLt; omega⟩
theorem kcell_dma (c : Dev nD) (q : DmaSem sig) : kcell (c, ixDma q) = ((c : Thread nD τ), .dma q) := by
  show ((c : Thread nD τ), csem (ixDma q)) = _
  congr 1
theorem kcell_bar (c : Dev nD) : kcell (c, (0 : Fin 261)) = barCell c := rfl

/-- Under the names `K` the launch allocated them at: every cell's invariant, and that round 0 of it is reached. -/
def records (K : Dev nD × Fin 261 → ℕ) : sProp 𝕄 :=
  bigSep Finset.univ fun ck : Dev nD × Fin 261 => iprop(cellInv ER (a2aRd m) (K ck) (kcell ck) ∗ reached ER (kcell ck) 0)

instance records_persistent (K : Dev nD × Fin 261 → ℕ) : BI.Persistent (records m K) := by unfold records; infer_instance

/-! ## What a device owes, chunk by chunk -/

/-- What the row exchange still owes the `x`-neighbour's receive cells from chunk `a` on; the column exchange the
    `y`-neighbour's from chunk `b` on. -/
def OX (c : Dev nD) (a : ℕ) : CellTallies nD τ sig Unit := ∑ k ∈ seg a, tallyAt (rxCell (xn c) k) () N128
def OY (c : Dev nD) (b : ℕ) : CellTallies nD τ sig Unit := ∑ k ∈ seg b, tallyAt (ryCell (yn c) k) () N128
/-- At launch: all of both and the two entry signals, summed so that the first signal (to the `x`-neighbour) peels
    the last summand and the second the one before. -/
def O₁ (c : Dev nD) : CellTallies nD τ sig Unit := (OX c 0 + OY c 0) + tallyAt (barCell (yn c)) () 1
def O₀ (c : Dev nD) : CellTallies nD τ sig Unit := O₁ c + tallyAt (barCell (xn c)) () 1

theorem OX_peel (c : Dev nD) (k : Fin 64) : OX c k.val = OX c (k.val + 1) + tallyAt (rxCell (xn c) k) () N128 := by
  unfold OX; rw [seg_eq_insert k, Finset.sum_insert (not_mem_seg_succ k), add_comm]
theorem OY_peel (c : Dev nD) (k : Fin 64) : OY c k.val = OY c (k.val + 1) + tallyAt (ryCell (yn c) k) () N128 := by
  unfold OY; rw [seg_eq_insert k, Finset.sum_insert (not_mem_seg_succ k), add_comm]
theorem OX_top (c : Dev nD) : OX c 64 = 0 := by unfold OX; rw [seg_top, Finset.sum_empty]
theorem OY_top (c : Dev nD) : OY c 64 = 0 := by unfold OY; rw [seg_top, Finset.sum_empty]

/-! ## The levels: the barrier below the row exchange's receives below the column exchange's; everything else lowest -/

def L (g : GSem nD τ sig) : Finset Unit := if g.1.2 = .tc then {()} else ∅
def lv (g : GSem nD τ sig) (_ : Unit) : ℕ :=
  match classify g.2 with
  | some .bar => 1
  | some (.rx _) => 2
  | some (.ry _) => 3
  | _ => 0

theorem L_of_ne (g : GSem nD τ sig) (h : g.1.2 ≠ .tc) : L g = ∅ := if_neg h
theorem L_tc (c : Dev nD) (sm : SemLoc sig) : L ((c : Thread nD τ), sm) = {()} := if_pos rfl

/-! ## The groups of resources a device's body holds, by progress -/

section Groups
variable (c : Dev nD)

/-- Row-exchange chunks not yet sent: both duty tokens and the source chunk; -/
def GXtok (a : ℕ) : sProp 𝕄 := bigSep (seg a) fun k =>
  iprop(dutyTok ER (sxCell c k) 0 false ∗ dutyTok ER (rxCell (xn c) k) 0 false ∗ pts c (xSrc c k) (inA m c))
/-- their destinations in the `x`-neighbour's result array (handed over by its entry signal: `GXdst c 0 = barPayX c`). -/
def GXdst (a : ℕ) : sProp 𝕄 := bigSep (seg a) fun k => iprop(∃ f, pts (xn c) (xDst c k) f)
/-- The send credits of the chunks sent and not yet waited for, and the send cells not yet waited on; -/
def GXcred (lo hi : ℕ) : sProp 𝕄 := bigSep (mid lo hi) fun k => cred (tallyAt (sxCell c k) () N128)
def GXpos (e : ℕ) : sProp 𝕄 := bigSep (seg e) fun k => atPos ER (sxCell c k) 0 ∅ 0
/-- once waited on: the cell closed, the source chunk back. -/
def GXdone (e : ℕ) : sProp 𝕄 := bigSep (pre e) fun k => iprop(semVal (sxCell c k) 0 ∗ pts c (xSrc c k) (inA m c))

/-- The same for the column exchange (its source chunk `k` is what landed from the row exchange, so there is none here). -/
def GYtok (b : ℕ) : sProp 𝕄 := bigSep (seg b) fun k =>
  iprop(dutyTok ER (syCell c k) 0 false ∗ dutyTok ER (ryCell (yn c) k) 0 false)
def GYdst (b : ℕ) : sProp 𝕄 := bigSep (seg b) fun k => iprop(∃ f, pts (yn c) (yBuf c k) f)
def GYcred (lo hi : ℕ) : sProp 𝕄 := bigSep (mid lo hi) fun k => cred (tallyAt (syCell c k) () N128)
def GYpos (e : ℕ) : sProp 𝕄 := bigSep (seg e) fun k => atPos ER (syCell c k) 0 ∅ 0
def GYdone (e : ℕ) : sProp 𝕄 := bigSep (pre e) fun k => iprop(semVal (syCell c k) 0 ∗ pts c (yBuf c k) (outFinal m c))

/-- The row exchange's receive cells not yet waited on (position and the launch's credit); once waited on, closed. -/
def GRXwait (b : ℕ) : sProp 𝕄 := bigSep (seg b) fun k => iprop(atPos ER (rxCell c k) 0 ∅ 0 ∗ cred (tallyAt (rxCell c k) () N128))
def GRXdone (b : ℕ) : sProp 𝕄 := bigSep (pre b) fun k => semVal (rxCell c k) 0
/-- The column exchange's; once waited on, closed and the landed chunk held. -/
def GRYwait (r : ℕ) : sProp 𝕄 := bigSep (seg r) fun k => iprop(atPos ER (ryCell c k) 0 ∅ 0 ∗ cred (tallyAt (ryCell c k) () N128))
def GRYdone (r : ℕ) : sProp 𝕄 := bigSep (pre r) fun k => iprop(semVal (ryCell c k) 0 ∗ pts c (yBuf (yn c) k) (outFinal m c))

/-- The slot and round of local piece `j`. -/
def slotOf (j : Fin 8) : Fin 2 := ⟨j.val % 2, Nat.mod_lt _ (by decide)⟩
def roundOf (j : Fin 8) : ℕ := j.val / 2
/-- Local pieces from `j` on: their two duty tokens, the source piece, the destination piece. -/
def GLtok (j : ℕ) : sProp 𝕄 := bigSep (Finset.univ.filter fun i : Fin 8 => j ≤ i.val) fun i =>
  iprop(dutyTok ER (linCell c (slotOf i)) (roundOf i) false ∗ dutyTok ER (loutCell c (slotOf i)) (roundOf i) false
    ∗ pts c (lSrc (lOff c i) (lOff_inb c i)) (inA m c) ∗ ∃ f, pts c (lDst c i) f)
/-- A slot with `r` pieces through it and none in flight: the slot itself, both cells at round `r`. -/
def SlotIdle (s : Fin 2) (r : ℕ) : sProp 𝕄 :=
  iprop((∃ f, pts c (stg s) f) ∗ atPos ER (linCell c s) r ∅ 0 ∗ atPos ER (loutCell c s) r ∅ 0)
/-- A slot whose piece of round `r` is on its way out: the copy-out's credit, the copy-in cell a round ahead. -/
def SlotBusy (s : Fin 2) (r : ℕ) : sProp 𝕄 :=
  iprop(cred (tallyAt (loutCell c s) () NLo) ∗ atPos ER (linCell c s) (r + 1) ∅ 0 ∗ atPos ER (loutCell c s) r ∅ 0)
/-- Local pieces done: the source piece back (`j` copied in), the result piece written (`j'` copied out). -/
def GLsrc (j : ℕ) : sProp 𝕄 := bigSep (Finset.univ.filter fun i : Fin 8 => i.val < j) fun i => pts c (lSrc (lOff c i) (lOff_inb c i)) (inA m c)
def GLout (j : ℕ) : sProp 𝕄 := bigSep (Finset.univ.filter fun i : Fin 8 => i.val < j) fun i => pts c (lDst c i) (outFinal m c)

end Groups

end Cert.Kernel.A2A

end
-- ==== Proof.Kernel.Body0.lean ====
import proofs.«900013_g7700000000000014_dist_a2a_v7x_xy2x2_x_m16384_n1024_f32_1_alg».proof.Proof.Kernel.State
import proofs.«900013_g7700000000000014_dist_a2a_v7x_xy2x2_x_m16384_n1024_f32_1_alg».proof.Proof.Gen.Kernel.Points

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What a device's body starts from and what it leaves -/

/-- The elements of the argument array that no copy reads: held from entry to exit. -/
def restSetA (c : Dev nD) : Finset (Idx (A0.view.loc (c : Thread nD τ))) :=
  Finset.univ \ ((Finset.univ.biUnion fun k : Fin 64 => (xSrc c k).view.set) ∪ (Finset.univ.biUnion fun j : Fin 8 => (lSrc (lOff c j) (lOff_inb c j)).view.set))
def RestA (c : Dev nD) : sProp 𝕄 := A0.view.loc (c : Thread nD τ) ↦[restSetA c]{fullShare} inA m c

/-- At entry, under the names `K`: the records; the two entry-signal tokens with what they hand over (the chunks of the
    device's OWN result array its two neighbours will write); its barrier cell's position and the launch's credit for
    it; every exchange chunk's tokens, source and cell positions; the receive cells with the launch's credits; the
    local pieces and the two idle slots; the untouched rest of the argument array. -/
def entry (K : Dev nD × Fin 261 → ℕ) (c : Dev nD) : sProp 𝕄 :=
  iprop(records m K ∗ levAts L lv
    ∗ dutyTok ER (barCell (xn c)) 0 false ∗ dutyTok ER (barCell (yn c)) 0 true
    ∗ barPayX (xn c) ∗ barPayY (yn c)
    ∗ atPos ER (barCell c) 0 ∅ 0 ∗ cred (tallyAt (barCell c) () 2)
    ∗ GXtok m c 0 ∗ GXpos c 0 ∗ GYtok c 0 ∗ GYpos c 0
    ∗ GRXwait c 0 ∗ GRYwait c 0
    ∗ GLtok m c 0 ∗ SlotIdle c 0 0 ∗ SlotIdle c 1 0
    ∗ RestA m c)

def Φ₀ (c : Dev nD) : sProp 𝕄 := iprop(∃ K, entry m K c)

/-- At exit: every chunk of the argument array back at its launch contents, every chunk of the result array at
    `outFinal`, every one of the device's 260 DMA semaphores closed at zero, the two staging slots. -/
def Φ₁ (c : Dev nD) : sProp 𝕄 :=
  iprop(GXdone m c 64 ∗ GYdone m c 64 ∗ GRXdone c 64 ∗ GRYdone m c 64
    ∗ GLsrc m c 8 ∗ GLout m c 8
    ∗ (semVal (linCell c 0) 0 ∗ semVal (loutCell c 0) 0 ∗ ∃ f, pts c (stg 0) f)
    ∗ (semVal (linCell c 1) 0 ∗ semVal (loutCell c 1) 0 ∗ ∃ f, pts c (stg 1) f)
    ∗ RestA m c)

/-- The pipeline's proof data: no window; the invariant before and after the one point; what is owed. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the body is run from: the entry resources and what the device owes (all of it, nothing waited yet). -/
def bodyPre (K : Dev nD × Fin 261 → ℕ) (c : Dev nD) : sProp 𝕄 :=
  iprop(entry m K c ∗ (dats m 0 c).owesAt () t₀.castSucc)
/-- What it ends in: the exit resources, nothing owed. -/
def bodyPost (c : Dev nD) : sProp 𝕄 :=
  iprop(Φ₁ m c ∗ (dats m 0 c).owesAt () t₀.succ)

end Cert.Kernel.A2A

end
-- ==== Proof.Kernel.Pieces.lean ====
import proofs.«900013_g7700000000000014_dist_a2a_v7x_xy2x2_x_m16384_n1024_f32_1_alg».proof.Proof.Kernel.Base
import Idealize.ShloMosaic.Lib.Pipeline.Value

/-!
# The pieces of the arrays: what each copy leaves, and how the pieces tile the arrays

Every copy of the exchange moves one rectangular piece of an array onto one rectangular piece of another. This file
states, as equalities of functions and of finite sets of indices only,

* what a destination piece holds after its copy: on the piece's elements, the values the finished result array
  has there (`outFinal`);
* which rows each piece occupies, that the pieces of one result array are pairwise disjoint and together cover it,
  and that the pieces read out of one argument array are pairwise disjoint.
-/

noncomputable section

namespace Cert.Kernel.A2A

open Cert.Kernel Cert.Kernel.Gen
open Idealize.ShloMosaic Idealize.ShloMosaic.TcCoe

variable {F : FTy → Type} [FloatOps F]

/-! ## The neighbours' numbers, and which elements each piece occupies

A piece of the result array spans all 1024 columns, so membership is a condition on the row alone; a piece of the
argument array spans 1024 of the 2048 columns. -/

theorem xn_val (c : Dev nD) : (xn c).val = (c.val % 2 + 2) - 2 * (c.val / 2) := rfl
theorem yn_val (c : Dev nD) : (yn c).val = (2 * (c.val / 2) + 1) - c.val % 2 := rfl

theorem mem_xDst (c : Dev nD) (k : Fin 64) (i : (xDst c k).view.ty.Idx) :
    i ∈ (xDst c k).view.set ↔
      16384 * (c.val / 2) + 8192 * (c.val % 2) + 128 * k.val ≤ (i 0).val
        ∧ (i 0).val < 16384 * (c.val / 2) + 8192 * (c.val % 2) + 128 * k.val + 128 := by
  rw [show (xDst c k).view.set = _ from View.set_slice_whole _ _, Rect.mem_set_unit, k0_off1_eq]
  refine ⟨fun h => h (0 : Fin 2), fun h => Fin.forall_fin_two.mpr ⟨h, Nat.zero_le _, ?_⟩⟩
  have h1 : (i 1).val < 1024 := (i 1).isLt
  show (i 1).val < 0 + 1024
  omega

theorem mem_yBuf (c : Dev nD) (k : Fin 64) (i : (yBuf c k).view.ty.Idx) :
    i ∈ (yBuf c k).view.set ↔
      (8192 * (c.val % 2) + 128 * k.val + 16384) - 16384 * (c.val / 2) ≤ (i 0).val
        ∧ (i 0).val < (8192 * (c.val % 2) + 128 * k.val + 16384) - 16384 * (c.val / 2) + 128 := by
  rw [show (yBuf c k).view.set = _ from View.set_slice_whole _ _, Rect.mem_set_unit, k0_off3_eq]
  refine ⟨fun h => h (0 : Fin 2), fun h => Fin.forall_fin_two.mpr ⟨h, Nat.zero_le _, ?_⟩⟩
  have h1 : (i 1).val < 1024 := (i 1).isLt
  show (i 1).val < 0 + 1024
  omega

theorem mem_lDst (c : Dev nD) (j : Fin 8) (i : (lDst c j).view.ty.Idx) :
    i ∈ (lDst c j).view.set ↔
      16384 * (c.val / 2) + 2048 * j.val ≤ (i 0).val ∧ (i 0).val < 16384 * (c.val / 2) + 2048 * j.val + 2048 := by
  rw [show (lDst c j).view.set = _ from View.set_slice_whole _ _, Rect.mem_set_unit, k0_off5_eq]
  refine ⟨fun h => h (0 : Fin 2), fun h => Fin.forall_fin_two.mpr ⟨h, Nat.zero_le _, ?_⟩⟩
  have h1 : (i 1).val < 1024 := (i 1).isLt
  show (i 1).val < 0 + 1024
  omega

theorem mem_xSrc (c : Dev nD) (k : Fin 64) (i : (xSrc c k).view.ty.Idx) :
    i ∈ (xSrc c k).view.set ↔
      (8192 * (c.val % 2) + 128 * k.val ≤ (i 0).val ∧ (i 0).val < 8192 * (c.val % 2) + 128 * k.val + 128)
        ∧ (1024 - 1024 * (c.val / 2) ≤ (i 1).val ∧ (i 1).val < 1024 - 1024 * (c.val / 2) + 1024) := by
  rw [show (xSrc c k).view.set = _ from View.set_slice_whole _ _, Rect.mem_set_unit, k0_off2_eq]
  exact Fin.forall_fin_two

/-- The offsets of local source `j`: row `2048·j`, the device's own 1024 columns. -/
theorem lOff_zero (c : Dev nD) (j : Fin 8) : lOff c j (0 : Fin 2) = 2048 * j.val := congrFun (lOff_eq c j) 0
theorem lOff_one (c : Dev nD) (j : Fin 8) : lOff c j (1 : Fin 2) = 1024 * (c.val / 2) := congrFun (lOff_eq c j) 1

theorem mem_lSrc (c : Dev nD) (j : Fin 8) (i : (lSrc (lOff c j) (lOff_inb c j)).view.ty.Idx) :
    i ∈ (lSrc (lOff c j) (lOff_inb c j)).view.set ↔
      (2048 * j.val ≤ (i 0).val ∧ (i 0).val < 2048 * j.val + 2048)
        ∧ (1024 * (c.val / 2) ≤ (i 1).val ∧ (i 1).val < 1024 * (c.val / 2) + 1024) := by
  rw [show (lSrc (lOff c j) (lOff_inb c j)).view.set = _ from View.set_slice_whole _ _, Rect.mem_set_unit]
  refine Iff.trans Fin.forall_fin_two ?_
  rw [lOff_zero, lOff_one]
  exact Iff.rfl

/-! ## The pieces tile the arrays

Device `c`'s result array is written in 136 pieces: the 64 chunks its x-neighbour sends it (rows
`16384·(1-x) + 8192·y + 128k …`), the 64 chunks its y-neighbour forwards to it (rows
`16384·(1-x) + 8192·(1-y) + 128k …`), and its own 8 local pieces (rows `16384·x + 2048j …`). -/

/-- Every element of device `c`'s result array is in one of the 136 pieces. -/
theorem result_cover (c : Dev nD) (i : ((c : Thread nD τ).loc main_v1).ty.Idx) :
    (∃ k : Fin 64, i ∈ (xDst (xn c) k).view.set) ∨ (∃ k : Fin 64, i ∈ (yBuf (yn c) k).view.set)
      ∨ (∃ j : Fin 8, i ∈ (lDst c j).view.set) := by
  have hc : c.val < 4 := c.isLt
  have hi : (i 0).val < 32768 := (i 0).isLt
  by_cases h1 : (i 0).val / 16384 = c.val / 2
  · have hj : ((i 0).val - 16384 * (c.val / 2)) / 2048 < 8 := by omega
    refine Or.inr (Or.inr ⟨⟨((i 0).val - 16384 * (c.val / 2)) / 2048, hj⟩,
      (mem_lDst c ⟨((i 0).val - 16384 * (c.val / 2)) / 2048, hj⟩ i).mpr ?_⟩)
    show 16384 * (c.val / 2) + 2048 * (((i 0).val - 16384 * (c.val / 2)) / 2048) ≤ (i 0).val
      ∧ (i 0).val < 16384 * (c.val / 2) + 2048 * (((i 0).val - 16384 * (c.val / 2)) / 2048) + 2048
    omega
  · by_cases h2 : ((i 0).val % 16384) / 8192 = c.val % 2
    · have hk : ((i 0).val % 8192) / 128 < 64 := by omega
      refine Or.inl ⟨⟨((i 0).val % 8192) / 128, hk⟩, (mem_xDst (xn c) ⟨((i 0).val % 8192) / 128, hk⟩ i).mpr ?_⟩
      rw [xn_val]
      show 16384 * (((c.val % 2 + 2) - 2 * (c.val / 2)) / 2) + 8192 * (((c.val % 2 + 2) - 2 * (c.val / 2)) % 2)
            + 128 * (((i 0).val % 8192) / 128) ≤ (i 0).val
        ∧ (i 0).val < 16384 * (((c.val % 2 + 2) - 2 * (c.val / 2)) / 2) + 8192 * (((c.val % 2 + 2) - 2 * (c.val / 2)) % 2)
            + 128 * (((i 0).val % 8192) / 128) + 128
      omega
    · have hk : ((i 0).val % 8192) / 128 < 64 := by omega
      refine Or.inr (Or.inl ⟨⟨((i 0).val % 8192) / 128, hk⟩, (mem_yBuf (yn c) ⟨((i 0).val % 8192) / 128, hk⟩ i).mpr ?_⟩)
      rw [yn_val]
      show (8192 * (((2 * (c.val / 2) + 1) - c.val % 2) % 2) + 128 * (((i 0).val % 8192) / 128) + 16384)
            - 16384 * (((2 * (c.val / 2) + 1) - c.val % 2) / 2) ≤ (i 0).val
        ∧ (i 0).val < (8192 * (((2 * (c.val / 2) + 1) - c.val % 2) % 2) + 128 * (((i 0).val % 8192) / 128) + 16384)
            - 16384 * (((2 * (c.val / 2) + 1) - c.val % 2) / 2) + 128
      omega

/-- Two different chunks sent by one device land on disjoint rows. -/
theorem xDst_disjoint (c : Dev nD) {k k' : Fin 64} (h : k ≠ k') :
    Disjoint (xDst c k).view.set (xDst c k').view.set := by
  rw [Finset.disjoint_left]
  intro i h1 h2
  have h1' := (mem_xDst c k i).mp h1
  have h2' := (mem_xDst c k' i).mp h2
  have hk : k.val ≠ k'.val := fun e => h (Fin.ext e)
  omega

/-- Two different chunks forwarded by one device occupy disjoint rows. -/
theorem yBuf_disjoint (c : Dev nD) {k k' : Fin 64} (h : k ≠ k') :
    Disjoint (yBuf c k).view.set (yBuf c k').view.set := by
  rw [Finset.disjoint_left]
  intro i h1 h2
  have h1' := (mem_yBuf c k i).mp h1
  have h2' := (mem_yBuf c k' i).mp h2
  have hk : k.val ≠ k'.val := fun e => h (Fin.ext e)
  have hc : c.val < 4 := c.isLt
  omega

/-- Two different local pieces occupy disjoint rows of the result. -/
theorem lDst_disjoint (c : Dev nD) {j j' : Fin 8} (h : j ≠ j') :
    Disjoint (lDst c j).view.set (lDst c j').view.set := by
  rw [Finset.disjoint_left]
  intro i h1 h2
  have h1' := (mem_lDst c j i).mp h1
  have h2' := (mem_lDst c j' i).mp h2
  have hj : j.val ≠ j'.val := fun e => h (Fin.ext e)
  omega

/-- What the x-neighbour sends a device and what the y-neighbour forwards to it land in different halves of the
    other row block. -/
theorem xDst_yBuf_disjoint (c : Dev nD) (k k' : Fin 64) :
    Disjoint (xDst (xn c) k).view.set (yBuf (yn c) k').view.set := by
  rw [Finset.disjoint_left]
  intro i h1 h2
  have h1' := (mem_xDst (xn c) k i).mp h1
  have h2' := (mem_yBuf (yn c) k' i).mp h2
  rw [xn_val] at h1'
  rw [yn_val] at h2'
  have hc : c.val < 4 := c.isLt
  have hk : k.val < 64 := k.isLt
  have hk' : k'.val < 64 := k'.isLt
  omega

/-- What the x-neighbour sends a device lands in the other row block than its own local pieces. -/
theorem xDst_lDst_disjoint (c : Dev nD) (k : Fin 64) (j : Fin 8) :
    Disjoint (xDst (xn c) k).view.set (lDst c j).view.set := by
  rw [Finset.disjoint_left]
  intro i h1 h2
  have h1' := (mem_xDst (xn c) k i).mp h1
  have h2' := (mem_lDst c j i).mp h2
  rw [xn_val] at h1'
  have hc : c.val < 4 := c.isLt
  have hk : k.val < 64 := k.isLt
  have hj : j.val < 8 := j.isLt
  omega

/-- What the y-neighbour forwards to a device lands in the other row block than its own local pieces. -/
theorem yBuf_lDst_disjoint (c : Dev nD) (k : Fin 64) (j : Fin 8) :
    Disjoint (yBuf (yn c) k).view.set (lDst c j).view.set := by
  rw [Finset.disjoint_left]
  intro i h1 h2
  have h1' := (mem_yBuf (yn c) k i).mp h1
  have h2' := (mem_lDst c j i).mp h2
  rw [yn_val] at h1'
  have hc : c.val < 4 := c.isLt
  have hk : k.val < 64 := k.isLt
  have hj : j.val < 8 := j.isLt
  omega

/-! The pieces read out of device `c`'s argument array: the 64 chunks it sends (the other device column's 1024
    columns) and its 8 local sources (its own 1024 columns). -/

/-- Two different chunks a device sends are read from disjoint rows of its argument array. -/
theorem xSrc_disjoint (c : Dev nD) {k k' : Fin 64} (h : k ≠ k') :
    Disjoint (xSrc c k).view.set (xSrc c k').view.set := by
  rw [Finset.disjoint_left]
  intro i h1 h2
  have h1' := (mem_xSrc c k i).mp h1
  have h2' := (mem_xSrc c k' i).mp h2
  have hk : k.val ≠ k'.val := fun e => h (Fin.ext e)
  omega

/-- Two different local sources are disjoint rows of the argument array. -/
theorem lSrc_disjoint (c : Dev nD) {j j' : Fin 8} (h : j ≠ j') :
    Disjoint (lSrc (lOff c j) (lOff_inb c j)).view.set (lSrc (lOff c j') (lOff_inb c j')).view.set := by
  rw [Finset.disjoint_left]
  intro i h1 h2
  have h1' := (mem_lSrc c j i).mp h1
  have h2' := (mem_lSrc c j' i).mp h2
  have hj : j.val ≠ j'.val := fun e => h (Fin.ext e)
  omega

/-- A chunk a device sends and a local source of it are in different column halves of its argument array. -/
theorem xSrc_lSrc_disjoint (c : Dev nD) (k : Fin 64) (j : Fin 8) :
    Disjoint (xSrc c k).view.set (lSrc (lOff c j) (lOff_inb c j)).view.set := by
  rw [Finset.disjoint_left]
  intro i h1 h2
  have h1' := (mem_xSrc c k i).mp h1
  have h2' := (mem_lSrc c j i).mp h2
  have hc : c.val < 4 := c.isLt
  omega

/-! ## The pieces as one family, for splitting an array's ownership along them -/

/-- The 136 pieces of device `c`'s result array, as one family: the chunks from the x-neighbour, the chunks from the
    y-neighbour, the local pieces. -/
def resPiece (c : Dev nD) : Fin 64 ⊕ Fin 64 ⊕ Fin 8 → Finset ((c : Thread nD τ).loc main_v1).ty.Idx
  | .inl k => (xDst (xn c) k).view.set
  | .inr (.inl k) => (yBuf (yn c) k).view.set
  | .inr (.inr j) => (lDst c j).view.set

@[simp] theorem resPiece_x (c : Dev nD) (k : Fin 64) : resPiece c (.inl k) = (xDst (xn c) k).view.set := rfl
@[simp] theorem resPiece_y (c : Dev nD) (k : Fin 64) : resPiece c (.inr (.inl k)) = (yBuf (yn c) k).view.set := rfl
@[simp] theorem resPiece_l (c : Dev nD) (j : Fin 8) : resPiece c (.inr (.inr j)) = (lDst c j).view.set := rfl

/-- Different pieces of the result array share no element. -/
theorem resPiece_disjoint (c : Dev nD) (t t' : Fin 64 ⊕ Fin 64 ⊕ Fin 8) (h : t ≠ t') :
    Disjoint (resPiece c t) (resPiece c t') := by
  rcases t with k | k | j <;> rcases t' with k' | k' | j'
  · exact xDst_disjoint (xn c) (fun e => h (by rw [e]))
  · exact xDst_yBuf_disjoint c k k'
  · exact xDst_lDst_disjoint c k j'
  · exact (xDst_yBuf_disjoint c k' k).symm
  · exact yBuf_disjoint (yn c) (fun e => h (by rw [e]))
  · exact yBuf_lDst_disjoint c k j'
  · exact (xDst_lDst_disjoint c k' j).symm
  · exact (yBuf_lDst_disjoint c k' j).symm
  · exact lDst_disjoint c (fun e => h (by rw [e]))

/-- Together the pieces are the whole result array. -/
theorem resPiece_biUnion (c : Dev nD) : Finset.univ.biUnion (resPiece c) = Finset.univ := by
  ext i
  simp only [Finset.mem_biUnion, Finset.mem_univ, true_and, iff_true]
  rcases result_cover c i with ⟨k, hk⟩ | ⟨k, hk⟩ | ⟨j, hj⟩
  · exact ⟨.inl k, hk⟩
  · exact ⟨.inr (.inl k), hk⟩
  · exact ⟨.inr (.inr j), hj⟩

/-- The 72 pieces read out of device `c`'s argument array, as one family: the chunks it sends, its local sources. -/
def argPiece (c : Dev nD) : Fin 64 ⊕ Fin 8 → Finset ((c : Thread nD τ).loc main_arg0).ty.Idx
  | .inl k => (xSrc c k).view.set
  | .inr j => (lSrc (lOff c j) (lOff_inb c j)).view.set

@[simp] theorem argPiece_x (c : Dev nD) (k : Fin 64) : argPiece c (.inl k) = (xSrc c k).view.set := rfl
@[simp] theorem argPiece_l (c : Dev nD) (j : Fin 8) :
    argPiece c (.inr j) = (lSrc (lOff c j) (lOff_inb c j)).view.set := rfl

/-- Different pieces read out of the argument array share no element. -/
theorem argPiece_disjoint (c : Dev nD) (t t' : Fin 64 ⊕ Fin 8) (h : t ≠ t') :
    Disjoint (argPiece c t) (argPiece c t') := by
  rcases t with k | j <;> rcases t' with k' | j'
  · exact xSrc_disjoint c (fun e => h (by rw [e]))
  · exact xSrc_lSrc_disjoint c k j'
  · exact (xSrc_lSrc_disjoint c k' j).symm
  · exact lSrc_disjoint c (fun e => h (by rw [e]))

/-! ## Where a block's coordinate sits: offset plus the coordinate inside the block -/

theorem xDst_emb_row (c : Dev nD) (k : Fin 64) (y : S128x1024.Idx) :
    (((xDst c k).view.emb y) 0).val = 16384 * (c.val / 2) + 8192 * (c.val % 2) + 128 * k.val + (y 0).val := by
  show k0_off1 c (BitVec.ofNat 32 (128 * k.val)) 0 + 1 * (y 0).val = _
  rw [k0_off1_eq, Nat.one_mul]; rfl
theorem xDst_emb_col (c : Dev nD) (k : Fin 64) (y : S128x1024.Idx) :
    (((xDst c k).view.emb y) 1).val = (y 1).val := by
  show k0_off1 c (BitVec.ofNat 32 (128 * k.val)) 1 + 1 * (y 1).val = _
  rw [k0_off1_eq, Nat.one_mul]; exact Nat.zero_add _
theorem xSrc_emb_row (c : Dev nD) (k : Fin 64) (y : S128x1024.Idx) :
    (((xSrc c k).view.emb y) 0).val = 8192 * (c.val % 2) + 128 * k.val + (y 0).val := by
  show k0_off2 c (BitVec.ofNat 32 (128 * k.val)) 0 + 1 * (y 0).val = _
  rw [k0_off2_eq, Nat.one_mul]; rfl
theorem xSrc_emb_col (c : Dev nD) (k : Fin 64) (y : S128x1024.Idx) :
    (((xSrc c k).view.emb y) 1).val = 1024 - 1024 * (c.val / 2) + (y 1).val := by
  show k0_off2 c (BitVec.ofNat 32 (128 * k.val)) 1 + 1 * (y 1).val = _
  rw [k0_off2_eq, Nat.one_mul]; rfl
theorem yBuf_emb_row (c : Dev nD) (k : Fin 64) (y : S128x1024.Idx) :
    (((yBuf c k).view.emb y) 0).val = (8192 * (c.val % 2) + 128 * k.val + 16384) - 16384 * (c.val / 2) + (y 0).val := by
  show k0_off3 c (BitVec.ofNat 32 (128 * k.val)) 0 + 1 * (y 0).val = _
  rw [k0_off3_eq, Nat.one_mul]; rfl
theorem yBuf_emb_col (c : Dev nD) (k : Fin 64) (y : S128x1024.Idx) :
    (((yBuf c k).view.emb y) 1).val = (y 1).val := by
  show k0_off3 c (BitVec.ofNat 32 (128 * k.val)) 1 + 1 * (y 1).val = _
  rw [k0_off3_eq, Nat.one_mul]; exact Nat.zero_add _
theorem lDst_emb_row (c : Dev nD) (j : Fin 8) (y : S2048x1024.Idx) :
    (((lDst c j).view.emb y) 0).val = 16384 * (c.val / 2) + 2048 * j.val + (y 0).val := by
  show k0_off5 c (BitVec.ofNat 32 (2048 * j.val)) 0 + 1 * (y 0).val = _
  rw [k0_off5_eq, Nat.one_mul]; rfl
theorem lDst_emb_col (c : Dev nD) (j : Fin 8) (y : S2048x1024.Idx) :
    (((lDst c j).view.emb y) 1).val = (y 1).val := by
  show k0_off5 c (BitVec.ofNat 32 (2048 * j.val)) 1 + 1 * (y 1).val = _
  rw [k0_off5_eq, Nat.one_mul]; exact Nat.zero_add _
theorem lSrc_emb_row (c : Dev nD) (j : Fin 8) (y : S2048x1024.Idx) :
    (((lSrc (lOff c j) (lOff_inb c j)).view.emb y) 0).val = 2048 * j.val + (y 0).val := by
  show lOff c j 0 + 1 * (y 0).val = _
  rw [lOff_zero, Nat.one_mul]
theorem lSrc_emb_col (c : Dev nD) (j : Fin 8) (y : S2048x1024.Idx) :
    (((lSrc (lOff c j) (lOff_inb c j)).view.emb y) 1).val = 1024 * (c.val / 2) + (y 1).val := by
  show lOff c j 1 + 1 * (y 1).val = _
  rw [lOff_one, Nat.one_mul]

/-! ## What a copy leaves on its destination piece -/

variable (m : (ℓ : Loc nD τ sig) → Buf (Elt F) ℓ)

/-- Contents that agree on a piece read the same through it. -/
theorem read_congr_piece {κ : Kind} {sp : Space} {s : Shape} {e : EltTy} {Val : EltTy → Type}
    (P : Memref sig κ sp s e) {f g : P.view.ty.Contents Val} (h : ∀ i ∈ P.view.set, f i = g i) :
    P.view.read Val f = P.view.read Val g := View.read_congr h

/-- Two entries of argument arrays are the same entry when the devices and both coordinates agree. -/
theorem inA_congr {d d' : Dev nD} (hd : d = d')
    {x : ((d : Thread nD τ).loc main_arg0).ty.Idx} {x' : ((d' : Thread nD τ).loc main_arg0).ty.Idx}
    (h0 : (x 0).val = (x' 0).val) (h1 : (x 1).val = (x' 1).val) : inA m d x = inA m d' x' := by
  subst hd
  have : x = x' := by
    funext a
    apply Fin.ext
    rcases a with ⟨_ | _ | n, ha⟩
    · exact h0
    · exact h1
    · exact absurd (show n + 2 < 2 from ha) (by omega)
  rw [this]

theorem outFinal_apply (c : Dev nD) (idx : ((c : Thread nD τ).loc main_v1).ty.Idx) :
    outFinal m c idx = inA m (srcDev c (idx 0).val)
      (Shape.pair (⟨(idx 0).val % 16384, Nat.mod_lt _ (by decide)⟩ : Fin 16384)
        (⟨1024 * px c + (idx 1).val, by have h1 := px_lt c; have h2 : (idx 1).val < 1024 := (idx 1).isLt; omega⟩ : Fin 2048)) := rfl

/-- Which device a row of the result is read from, by the row's block and half. -/
theorem srcDev_self (c : Dev nD) (r : ℕ) (h : r / 16384 = c.val / 2) : srcDev c r = c := by
  unfold srcDev; rw [if_pos (by show r / 16384 = c.val / 2; exact h)]
theorem srcDev_xn (c : Dev nD) (r : ℕ) (h : r / 16384 ≠ c.val / 2) (h2 : (r % 16384) / 8192 = c.val % 2) :
    srcDev c r = xn c := by
  unfold srcDev; rw [if_neg (by show ¬ r / 16384 = c.val / 2; exact h), if_pos (by show (r % 16384) / 8192 = c.val % 2; exact h2)]
theorem srcDev_xn_yn (c : Dev nD) (r : ℕ) (h : r / 16384 ≠ c.val / 2) (h2 : (r % 16384) / 8192 ≠ c.val % 2) :
    srcDev c r = xn (yn c) := by
  unfold srcDev; rw [if_neg (by show ¬ r / 16384 = c.val / 2; exact h), if_neg (by show ¬ (r % 16384) / 8192 = c.val % 2; exact h2)]

theorem xLanding (c : Dev nD) (k : Fin 64)
    (fd : Buf (Elt F) ((xDst c k).view.loc ((xn c : Dev nD) : Thread nD τ))) :
    ∀ i ∈ (xDst c k).view.set,
      (xDst c k).view.write (Elt F) fd ((xSrc c k).view.read (Elt F) (inA m c)) Finset.univ i = outFinal m (xn c) i := by
  intro i hi
  obtain ⟨y, rfl⟩ := View.exists_emb_of_mem_set _ hi
  rw [View.write_emb_of_mem _ _ (Finset.mem_univ y), View.read_apply]
  show inA m c ((xSrc c k).view.emb y) = outFinal m (xn c) ((xDst c k).view.emb y)
  have hc : c.val < 4 := c.isLt
  have hk : k.val < 64 := k.isLt
  have hy0 : (y 0).val < 128 := (y 0).isLt
  have hy1 : (y 1).val < 1024 := (y 1).isLt
  have er := xDst_emb_row c k y
  have ec := xDst_emb_col c k y
  have sr := xSrc_emb_row c k y
  have sc := xSrc_emb_col c k y
  have hx := xn_val c
  rw [outFinal_apply]
  have hdev : srcDev (xn c) (((xDst c k).view.emb y) 0).val = c := by
    rw [srcDev_xn _ _ (by rw [er, hx]; omega) (by rw [er, hx]; omega), xn_xn]
  refine (inA_congr m hdev ?_ ?_).symm
  · show (((xDst c k).view.emb y) 0).val % 16384 = _
    rw [er, sr]; omega
  · show 1024 * px (xn c) + (((xDst c k).view.emb y) 1).val = _
    rw [ec, sc, px_xn]; show 1024 * (1 - c.val / 2) + _ = _; omega

theorem yLanding (c : Dev nD) (k : Fin 64)
    (fs : Buf (Elt F) ((yBuf c k).view.loc ((c : Dev nD) : Thread nD τ)))
    (hfs : ∀ i ∈ (yBuf c k).view.set, fs i = outFinal m c i)
    (fd : Buf (Elt F) ((yBuf c k).view.loc ((yn c : Dev nD) : Thread nD τ))) :
    ∀ i ∈ (yBuf c k).view.set,
      (yBuf c k).view.write (Elt F) fd ((yBuf c k).view.read (Elt F) fs) Finset.univ i = outFinal m (yn c) i := by
  intro i hi
  have hfi := hfs i hi
  obtain ⟨y, rfl⟩ := View.exists_emb_of_mem_set _ hi
  rw [View.write_emb_of_mem _ _ (Finset.mem_univ y), View.read_apply]
  show fs ((yBuf c k).view.emb y) = outFinal m (yn c) ((yBuf c k).view.emb y)
  rw [hfi]
  have hc : c.val < 4 := c.isLt
  have hk : k.val < 64 := k.isLt
  have hy0 : (y 0).val < 128 := (y 0).isLt
  have er := yBuf_emb_row c k y
  have hyn := yn_val c
  rw [outFinal_apply, outFinal_apply]
  have hdev : srcDev c (((yBuf c k).view.emb y) 0).val = srcDev (yn c) (((yBuf c k).view.emb y) 0).val := by
    rw [srcDev_xn c _ (by rw [er]; omega) (by rw [er]; omega),
      srcDev_xn_yn (yn c) _ (by rw [er, hyn]; omega) (by rw [er, hyn]; omega), yn_yn]
  refine inA_congr m hdev rfl ?_
  show 1024 * px c + _ = 1024 * px (yn c) + _
  rw [px_yn]

/-- The rows the x-neighbour's chunk lands in on a device are the rows that device forwards. -/
theorem off3_eq_off1_xn (c : Dev nD) (k : Fin 64) :
    k0_off3 c (BitVec.ofNat 32 (128 * k.val)) = k0_off1 (xn c) (BitVec.ofNat 32 (128 * k.val)) := by
  rw [k0_off3_eq, k0_off1_eq, xn_val]
  have hc : c.val < 4 := c.isLt
  congr 1
  omega

theorem slice128_congr {off off' : Fin 2 → ℕ} (h : off = off')
    (inb : ∀ a, off a + S128x1024.size a ≤ S32768x1024.size a) (inb' : ∀ a, off' a + S128x1024.size a ≤ S32768x1024.size a) :
    A1.slice (Rect.unit (s := S32768x1024) off S128x1024.size inb) (fun _ => rfl)
      = A1.slice (Rect.unit (s := S32768x1024) off' S128x1024.size inb') (fun _ => rfl) := by
  subst h; rfl

theorem yBuf_eq_xDst (c : Dev nD) (k : Fin 64) : yBuf c k = xDst (xn c) k :=
  slice128_congr (off3_eq_off1_xn c k) _ _

theorem yBuf_set_eq (c : Dev nD) (k : Fin 64) : (yBuf c k).view.set = (xDst (xn c) k).view.set := by
  ext i
  refine (mem_yBuf c k i).trans (Iff.trans ?_ (mem_xDst (xn c) k i).symm)
  rw [xn_val]
  have hc : c.val < 4 := c.isLt
  omega

/-- Every piece of a device's result array lives at that array's location, every piece of its argument array at the
    argument's, the staging slots at the scratch's. -/
theorem xDst_loc (c : Dev nD) (k : Fin 64) (d : Dev nD) :
    (xDst c k).view.loc (d : Thread nD τ) = (d : Thread nD τ).loc main_v1 := rfl
theorem yBuf_loc (c : Dev nD) (k : Fin 64) (d : Dev nD) :
    (yBuf c k).view.loc (d : Thread nD τ) = (d : Thread nD τ).loc main_v1 := rfl
theorem lDst_loc (c : Dev nD) (j : Fin 8) (d : Dev nD) :
    (lDst c j).view.loc (d : Thread nD τ) = (d : Thread nD τ).loc main_v1 := rfl
theorem xSrc_loc (c : Dev nD) (k : Fin 64) (d : Dev nD) :
    (xSrc c k).view.loc (d : Thread nD τ) = (d : Thread nD τ).loc main_arg0 := rfl
theorem lSrc_loc (off : Fin 2 → Nat) (h : ∀ a, off a + S2048x1024.size a ≤ S16384x2048.size a) (d : Dev nD) :
    (lSrc off h).view.loc (d : Thread nD τ) = (d : Thread nD τ).loc main_arg0 := rfl
theorem stg_loc (s : Fin 2) (d : Dev nD) :
    (stg s).view.loc (d : Thread nD τ) = (d : Thread nD τ).loc cc0_scratch0 := by
  rcases s with ⟨_ | _, hs⟩ <;> rfl

theorem yBuf_loc_eq (c : Dev nD) (k : Fin 64) (d : Dev nD) :
    (yBuf c k).view.loc (d : Thread nD τ) = (xDst (xn c) k).view.loc (d : Thread nD τ) :=
  (yBuf_loc c k d).trans (xDst_loc (xn c) k d).symm

/-- The local copy without the staging slot: rows `2048·j …` of the device's own 1024 columns of its argument array,
    written onto rows `16384·x + 2048·j …` of its result array. -/
theorem lLanding_direct (c : Dev nD) (j : Fin 8)
    (fd' : Buf (Elt F) ((lDst c j).view.loc ((c : Dev nD) : Thread nD τ))) :
    ∀ i ∈ (lDst c j).view.set,
      (lDst c j).view.write (Elt F) fd' ((lSrc (lOff c j) (lOff_inb c j)).view.read (Elt F) (inA m c)) Finset.univ i
        = outFinal m c i := by
  intro i hi
  obtain ⟨y, rfl⟩ := View.exists_emb_of_mem_set _ hi
  rw [View.write_emb_of_mem _ _ (Finset.mem_univ y), View.read_apply]
  show inA m c ((lSrc (lOff c j) (lOff_inb c j)).view.emb y) = outFinal m c ((lDst c j).view.emb y)
  have hc : c.val < 4 := c.isLt
  have hj : j.val < 8 := j.isLt
  have hy0 : (y 0).val < 2048 := (y 0).isLt
  have er := lDst_emb_row c j y
  have ec := lDst_emb_col c j y
  have sr := lSrc_emb_row c j y
  have sc := lSrc_emb_col c j y
  rw [outFinal_apply]
  have hdev : srcDev c (((lDst c j).view.emb y) 0).val = c := srcDev_self c _ (by rw [er]; omega)
  refine (inA_congr m hdev ?_ ?_).symm
  · show (((lDst c j).view.emb y) 0).val % 16384 = _
    rw [er, sr]; omega
  · show 1024 * px c + (((lDst c j).view.emb y) 1).val = _
    rw [ec, sc]; rfl

/-- What is written through a staging slot and read back through the same slot is what was written. -/
theorem stg_read_write (s : Fin 2) {d : Dev nD} (fd : Buf (Elt F) ((stg s).view.loc ((d : Dev nD) : Thread nD τ)))
    (w : S2048x1024.Idx → Elt F .f32) :
    (stg s).view.read (Elt F) ((stg s).view.write (Elt F) fd w Finset.univ) = w :=
  View.read_write_univ (v := (stg s).view) (Val := Elt F) fd w

/-- The local copy out of staging slot `s`, the slot reading as the local source does: onto the result's rows. -/
theorem lLanding (c : Dev nD) (j : Fin 8) (s : Fin 2) (f : Buf (Elt F) ((stg s).view.loc (c : Thread nD τ)))
    (hf : (stg s).view.read (Elt F) f = (lSrc (lOff c j) (lOff_inb c j)).view.read (Elt F) (inA m c))
    (fd : Buf (Elt F) ((lDst c j).view.loc (c : Thread nD τ))) :
    ∀ i ∈ (lDst c j).view.set,
      (lDst c j).view.write (Elt F) fd ((stg s).view.read (Elt F) f) Finset.univ i = outFinal m c i := by
  rw [hf]
  exact lLanding_direct m c j fd

/-- The local copy through staging slot `s`: into the slot, then out of it onto the result's rows. -/
theorem lLanding_via (c : Dev nD) (j : Fin 8) (s : Fin 2)
    (fd : Buf (Elt F) ((stg s).view.loc ((c : Dev nD) : Thread nD τ)))
    (fd' : Buf (Elt F) ((lDst c j).view.loc ((c : Dev nD) : Thread nD τ))) :
    ∀ i ∈ (lDst c j).view.set,
      (lDst c j).view.write (Elt F) fd'
        ((stg s).view.read (Elt F)
          ((stg s).view.write (Elt F) fd ((lSrc (lOff c j) (lOff_inb c j)).view.read (Elt F) (inA m c)) Finset.univ))
        Finset.univ i = outFinal m c i := by
  rw [stg_read_write]
  exact lLanding_direct m c j fd'

/-! ## The covers, as the exit state reads them -/

/-- The same cover, the chunks from the x-neighbour named as the rows the device forwards. -/
theorem result_cover_fwd (c : Dev nD) (i : ((c : Thread nD τ).loc main_v1).ty.Idx) :
    (∃ k : Fin 64, i ∈ (yBuf c k).view.set) ∨ (∃ k : Fin 64, i ∈ (yBuf (yn c) k).view.set)
      ∨ (∃ j : Fin 8, i ∈ (lDst c j).view.set) := by
  rcases result_cover c i with ⟨k, hk⟩ | h
  · exact Or.inl ⟨k, by rw [yBuf_set_eq]; exact hk⟩
  · exact Or.inr h

/-- Every element of the argument array is in a chunk the device sends, in a local source, or in neither. -/
theorem arg_cover (c : Dev nD) (i : Idx (A0.view.loc (c : Thread nD τ))) :
    (∃ k : Fin 64, i ∈ (xSrc c k).view.set) ∨ (∃ j : Fin 8, i ∈ (lSrc (lOff c j) (lOff_inb c j)).view.set)
      ∨ i ∈ Finset.univ \ ((Finset.univ.biUnion fun k : Fin 64 => (xSrc c k).view.set)
            ∪ (Finset.univ.biUnion fun j : Fin 8 => (lSrc (lOff c j) (lOff_inb c j)).view.set)) := by
  by_cases h1 : ∃ k : Fin 64, i ∈ (xSrc c k).view.set
  · exact Or.inl h1
  · by_cases h2 : ∃ j : Fin 8, i ∈ (lSrc (lOff c j) (lOff_inb c j)).view.set
    · exact Or.inr (Or.inl h2)
    · refine Or.inr (Or.inr ?_)
      rw [Finset.mem_sdiff, Finset.mem_union, Finset.mem_biUnion, Finset.mem_biUnion]
      refine ⟨Finset.mem_univ _, ?_⟩
      rintro (⟨k, -, hk⟩ | ⟨j, -, hj⟩)
      · exact h1 ⟨k, hk⟩
      · exact h2 ⟨j, hj⟩

end Cert.Kernel.A2A

end
-- ==== Proof.Kernel.EntryG.lean ====
import proofs.«900013_g7700000000000014_dist_a2a_v7x_xy2x2_x_m16384_n1024_f32_1_alg».proof.Proof.Kernel.Body0

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The ghost half of a device's entry resources (the records, the levels, the tokens of the duties it pays, its
    cells' positions, the launch's credits for what the others owe it); the memory half is the pieces of its three
    buffers. -/
def entryG (K : Dev nD × Fin 261 → ℕ) (c : Dev nD) : sProp 𝕄 :=
  iprop(records m K ∗ levAts L lv
    ∗ dutyTok ER (barCell (xn c)) 0 false ∗ dutyTok ER (barCell (yn c)) 0 true
    ∗ atPos ER (barCell c) 0 ∅ 0 ∗ cred (tallyAt (barCell c) () 2)
    ∗ (bigSep Finset.univ fun k : Fin 64 => iprop(dutyTok ER (sxCell c k) 0 false ∗ dutyTok ER (rxCell (xn c) k) 0 false))
    ∗ GXpos c 0 ∗ GYtok c 0 ∗ GYpos c 0 ∗ GRXwait c 0 ∗ GRYwait c 0
    ∗ (bigSep Finset.univ fun i : Fin 8 => iprop(dutyTok ER (linCell c (slotOf i)) (roundOf i) false ∗ dutyTok ER (loutCell c (slotOf i)) (roundOf i) false))
    ∗ (atPos ER (linCell c 0) 0 ∅ 0 ∗ atPos ER (loutCell c 0) 0 ∅ 0)
    ∗ (atPos ER (linCell c 1) 0 ∅ 0 ∗ atPos ER (loutCell c 1) 0 ∅ 0))

end Cert.Kernel.A2A

end
-- ==== Proof.Kernel.Split.lean ====
import proofs.«900013_g7700000000000014_dist_a2a_v7x_xy2x2_x_m16384_n1024_f32_1_alg».proof.Proof.Kernel.Body0
import proofs.«900013_g7700000000000014_dist_a2a_v7x_xy2x2_x_m16384_n1024_f32_1_alg».proof.Proof.Kernel.Pieces

/-!
# The entry split: a device's three buffers, whole, cut into the pieces the copies move

At launch a device holds its argument array, its result array and its staging scratch whole. The argument array is
cut into the 64 chunks the device sends, its 8 local sources, and the rest; the result array into the 64 chunks its
x-neighbour writes, the 64 its y-neighbour writes, and its 8 local pieces; the scratch into its two slots.
-/

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The argument array -/

/-- The elements of the argument array under the chunks a device sends, and under its local sources. -/
def xSetA (c : Dev nD) : Finset (Idx ((c : Thread nD τ).loc main_arg0)) :=
  Finset.univ.biUnion fun k : Fin 64 => (xSrc c k).view.set
def lSetA (c : Dev nD) : Finset (Idx ((c : Thread nD τ).loc main_arg0)) :=
  Finset.univ.biUnion fun j : Fin 8 => (lSrc (lOff c j) (lOff_inb c j)).view.set

theorem xSetA_lSetA_disjoint (c : Dev nD) : Disjoint (xSetA c) (lSetA c) := by
  unfold xSetA lSetA
  rw [Finset.disjoint_biUnion_left]
  intro k _
  rw [Finset.disjoint_biUnion_right]
  intro j _
  exact xSrc_lSrc_disjoint c k j

theorem arg_split (c : Dev nD) :
    ((((c : Thread nD τ).loc main_arg0) ↦{fullShare} inA m c) : sProp 𝕄) ⊢
      iprop((bigSep Finset.univ fun k : Fin 64 => pts c (xSrc c k) (inA m c))
        ∗ (bigSep Finset.univ fun j : Fin 8 => pts c (lSrc (lOff c j) (lOff_inb c j)) (inA m c)) ∗ RestA m c) := by
  have hX : ((((c : Thread nD τ).loc main_arg0) ↦[xSetA c]{fullShare} inA m c) : sProp 𝕄)
      = bigSep Finset.univ fun k : Fin 64 => ((c : Thread nD τ).loc main_arg0) ↦[(xSrc c k).view.set]{fullShare} inA m c :=
    pointsTo_biUnion (ℓ := (c : Thread nD τ).loc main_arg0) Finset.univ (fun k : Fin 64 => (xSrc c k).view.set)
      (fun k _ k' _ h => xSrc_disjoint c h)
  have hL : ((((c : Thread nD τ).loc main_arg0) ↦[lSetA c]{fullShare} inA m c) : sProp 𝕄)
      = bigSep Finset.univ fun j : Fin 8 =>
          ((c : Thread nD τ).loc main_arg0) ↦[(lSrc (lOff c j) (lOff_inb c j)).view.set]{fullShare} inA m c :=
    pointsTo_biUnion (ℓ := (c : Thread nD τ).loc main_arg0) Finset.univ
      (fun j : Fin 8 => (lSrc (lOff c j) (lOff_inb c j)).view.set) (fun j _ j' _ h => lSrc_disjoint c h)
  show _ ⊢ iprop((bigSep Finset.univ fun k : Fin 64 =>
        ((c : Thread nD τ).loc main_arg0) ↦[(xSrc c k).view.set]{fullShare} inA m c)
      ∗ (bigSep Finset.univ fun j : Fin 8 =>
        ((c : Thread nD τ).loc main_arg0) ↦[(lSrc (lOff c j) (lOff_inb c j)).view.set]{fullShare} inA m c)
      ∗ (((c : Thread nD τ).loc main_arg0) ↦[Finset.univ \ (xSetA c ∪ lSetA c)]{fullShare} inA m c))
  rw [← hX, ← hL]
  refine (pointsTo_split_subset (Finset.subset_univ (xSetA c ∪ lSetA c))).1.trans ?_
  refine (sep_mono_left (pointsTo_union (xSetA_lSetA_disjoint c)).1).trans ?_
  exact sep_assoc.1

/-! ## The result array: the 136 pieces -/

def xSetR (c : Dev nD) : Finset (Idx ((c : Thread nD τ).loc main_v1)) :=
  Finset.univ.biUnion fun k : Fin 64 => (xDst (xn c) k).view.set
def ySetR (c : Dev nD) : Finset (Idx ((c : Thread nD τ).loc main_v1)) :=
  Finset.univ.biUnion fun k : Fin 64 => (yBuf (yn c) k).view.set
def lSetR (c : Dev nD) : Finset (Idx ((c : Thread nD τ).loc main_v1)) :=
  Finset.univ.biUnion fun j : Fin 8 => (lDst c j).view.set

theorem ySetR_lSetR_disjoint (c : Dev nD) : Disjoint (ySetR c) (lSetR c) := by
  unfold ySetR lSetR
  rw [Finset.disjoint_biUnion_left]
  intro k _
  rw [Finset.disjoint_biUnion_right]
  intro j _
  exact yBuf_lDst_disjoint c k j

theorem xSetR_disjoint (c : Dev nD) : Disjoint (xSetR c) (ySetR c ∪ lSetR c) := by
  rw [Finset.disjoint_union_right]
  unfold xSetR ySetR lSetR
  constructor
  · rw [Finset.disjoint_biUnion_left]
    intro k _
    rw [Finset.disjoint_biUnion_right]
    intro k' _
    exact xDst_yBuf_disjoint c k k'
  · rw [Finset.disjoint_biUnion_left]
    intro k _
    rw [Finset.disjoint_biUnion_right]
    intro j _
    exact xDst_lDst_disjoint c k j

theorem setR_cover (c : Dev nD) : xSetR c ∪ (ySetR c ∪ lSetR c) = Finset.univ := by
  ext i
  simp only [Finset.mem_union, Finset.mem_univ, iff_true]
  unfold xSetR ySetR lSetR
  simp only [Finset.mem_biUnion, Finset.mem_univ, true_and]
  exact result_cover c i

/-- The payload of the x-neighbour's entry signal is the x-neighbour's chunks' rows of the device's own result array;
    of the y-neighbour's, the y-neighbour's chunks' rows. -/
theorem barPayX_xn (c : Dev nD) :
    (barPayX (xn c) : sProp 𝕄) = bigSep Finset.univ fun k : Fin 64 => iprop(∃ f', pts c (xDst (xn c) k) f') := by
  have h : ∀ d : Dev nD, d = c →
      (bigSep Finset.univ fun k : Fin 64 => iprop(∃ f', pts d (xDst (xn c) k) f') : sProp 𝕄)
        = bigSep Finset.univ fun k : Fin 64 => iprop(∃ f', pts c (xDst (xn c) k) f') := by
    intro d hd; subst hd; rfl
  exact h _ (xn_xn c)
theorem barPayY_yn (c : Dev nD) :
    (barPayY (yn c) : sProp 𝕄) = bigSep Finset.univ fun k : Fin 64 => iprop(∃ f', pts c (yBuf (yn c) k) f') := by
  have h : ∀ d : Dev nD, d = c →
      (bigSep Finset.univ fun k : Fin 64 => iprop(∃ f', pts d (yBuf (yn c) k) f') : sProp 𝕄)
        = bigSep Finset.univ fun k : Fin 64 => iprop(∃ f', pts c (yBuf (yn c) k) f') := by
    intro d hd; subst hd; rfl
  exact h _ (yn_yn c)

theorem res_split (c : Dev nD) (f : Buf (Elt F) ((c : Thread nD τ).loc main_v1)) :
    ((((c : Thread nD τ).loc main_v1) ↦{fullShare} f) : sProp 𝕄) ⊢
      iprop(barPayX (xn c) ∗ barPayY (yn c) ∗ bigSep Finset.univ fun j : Fin 8 => iprop(∃ f', pts c (lDst c j) f')) := by
  have hX : ((((c : Thread nD τ).loc main_v1) ↦[xSetR c]{fullShare} f) : sProp 𝕄)
      = bigSep Finset.univ fun k : Fin 64 => ((c : Thread nD τ).loc main_v1) ↦[(xDst (xn c) k).view.set]{fullShare} f :=
    pointsTo_biUnion (ℓ := (c : Thread nD τ).loc main_v1) Finset.univ (fun k : Fin 64 => (xDst (xn c) k).view.set)
      (fun k _ k' _ h => xDst_disjoint (xn c) h)
  have hY : ((((c : Thread nD τ).loc main_v1) ↦[ySetR c]{fullShare} f) : sProp 𝕄)
      = bigSep Finset.univ fun k : Fin 64 => ((c : Thread nD τ).loc main_v1) ↦[(yBuf (yn c) k).view.set]{fullShare} f :=
    pointsTo_biUnion (ℓ := (c : Thread nD τ).loc main_v1) Finset.univ (fun k : Fin 64 => (yBuf (yn c) k).view.set)
      (fun k _ k' _ h => yBuf_disjoint (yn c) h)
  have hL : ((((c : Thread nD τ).loc main_v1) ↦[lSetR c]{fullShare} f) : sProp 𝕄)
      = bigSep Finset.univ fun j : Fin 8 => ((c : Thread nD τ).loc main_v1) ↦[(lDst c j).view.set]{fullShare} f :=
    pointsTo_biUnion (ℓ := (c : Thread nD τ).loc main_v1) Finset.univ (fun j : Fin 8 => (lDst c j).view.set)
      (fun j _ j' _ h => lDst_disjoint c h)
  rw [barPayX_xn, barPayY_yn, ← setR_cover c]
  refine (pointsTo_union (xSetR_disjoint c)).1.trans ?_
  refine (sep_mono_right (pointsTo_union (ySetR_lSetR_disjoint c)).1).trans ?_
  rw [hX, hY, hL]
  refine sep_mono (bigSep_mono fun k _ => ?_) (sep_mono (bigSep_mono fun k _ => ?_) (bigSep_mono fun j _ => ?_))
  · exact exists_intro (Φ := fun f' => pts c (xDst (xn c) k) f') f
  · exact exists_intro (Φ := fun f' => pts c (yBuf (yn c) k) f') f
  · exact exists_intro (Φ := fun f' => pts c (lDst c j) f') f

/-! ## The staging scratch: its two slots -/

/-- Slot 0 of the staging scratch is the elements whose first coordinate is 0; slot 1, those whose first coordinate is 1. -/
theorem mem_stg0 (c : Dev nD) (i : Idx ((c : Thread nD τ).loc cc0_scratch0)) :
    Iff (i ∈ ((stg 0).view.set : Finset (Idx ((c : Thread nD τ).loc cc0_scratch0)))) ((i 0).val = 0) := by
  have h1 : (i 1).val < 2048 := (i 1).isLt
  have h2 : (i 2).val < 1024 := (i 2).isLt
  show Iff (i ∈ ((A2.view.slice (Rect.unit (s := S2x2048x1024) ![0, 0, 0] S1x2048x1024.size
      inb_S2x2048x1024_S1x2048x1024_0_0_0)).reshape S2048x1024 squeezes_S1x2048x1024_S2048x1024.numel_eq).set) _
  rw [View.set_reshape, show ((A2.view.slice _).set) = _ from View.set_slice_whole _ _, Rect.mem_set_unit]
  constructor
  · intro h
    have h0 := h (0 : Fin 3)
    have : (i 0).val < 0 + 1 := h0.2
    omega
  · intro h a
    rcases a with ⟨_ | _ | _ | n, ha⟩
    · exact ⟨Nat.zero_le _, by show (i 0).val < 0 + 1; omega⟩
    · exact ⟨Nat.zero_le _, by show (i 1).val < 0 + 2048; omega⟩
    · exact ⟨Nat.zero_le _, by show (i 2).val < 0 + 1024; omega⟩
    · exact absurd (show n + 3 < 3 from ha) (by omega)
theorem mem_stg1 (c : Dev nD) (i : Idx ((c : Thread nD τ).loc cc0_scratch0)) :
    Iff (i ∈ ((stg 1).view.set : Finset (Idx ((c : Thread nD τ).loc cc0_scratch0)))) ((i 0).val = 1) := by
  have h1 : (i 1).val < 2048 := (i 1).isLt
  have h2 : (i 2).val < 1024 := (i 2).isLt
  show Iff (i ∈ ((A2.view.slice (Rect.unit (s := S2x2048x1024) ![1, 0, 0] S1x2048x1024.size
      inb_S2x2048x1024_S1x2048x1024_1_0_0)).reshape S2048x1024 squeezes_S1x2048x1024_S2048x1024.numel_eq).set) _
  rw [View.set_reshape, show ((A2.view.slice _).set) = _ from View.set_slice_whole _ _, Rect.mem_set_unit]
  constructor
  · intro h
    have h0 := h (0 : Fin 3)
    have hlo : 1 ≤ (i 0).val := h0.1
    have hhi : (i 0).val < 1 + 1 := h0.2
    omega
  · intro h a
    rcases a with ⟨_ | _ | _ | n, ha⟩
    · exact ⟨by show 1 ≤ (i 0).val; omega, by show (i 0).val < 1 + 1; omega⟩
    · exact ⟨Nat.zero_le _, by show (i 1).val < 0 + 2048; omega⟩
    · exact ⟨Nat.zero_le _, by show (i 2).val < 0 + 1024; omega⟩
    · exact absurd (show n + 3 < 3 from ha) (by omega)

theorem stg_disjoint (c : Dev nD) :
    Disjoint ((stg 0).view.set : Finset (Idx ((c : Thread nD τ).loc cc0_scratch0))) (stg 1).view.set := by
  rw [Finset.disjoint_left]
  intro i h0 h1
  have e0 := (mem_stg0 c i).mp h0
  have e1 := (mem_stg1 c i).mp h1
  omega

theorem stg_cover (c : Dev nD) :
    ((stg 0).view.set : Finset (Idx ((c : Thread nD τ).loc cc0_scratch0))) ∪ (stg 1).view.set = Finset.univ := by
  ext i
  simp only [Finset.mem_union, Finset.mem_univ, iff_true]
  have hi : (i 0).val < 2 := (i 0).isLt
  by_cases h : (i 0).val = 0
  · exact Or.inl ((mem_stg0 c i).mpr h)
  · exact Or.inr ((mem_stg1 c i).mpr (by omega))

theorem stg_split (c : Dev nD) (f : Buf (Elt F) ((c : Thread nD τ).loc cc0_scratch0)) :
    ((((c : Thread nD τ).loc cc0_scratch0) ↦{fullShare} f) : sProp 𝕄) ⊢
      iprop((∃ f', pts c (stg 0) f') ∗ (∃ f', pts c (stg 1) f')) := by
  rw [← stg_cover c]
  refine (pointsTo_union (stg_disjoint c)).1.trans ?_
  exact (sep_mono_left (exists_intro (Φ := fun f' => pts c (stg 0) f') f)).trans
    (sep_mono_right (exists_intro (Φ := fun f' => pts c (stg 1) f') f))

theorem stg_join (c : Dev nD) :
    (iprop((∃ f', pts c (stg 0) f') ∗ (∃ f', pts c (stg 1) f')) : sProp 𝕄) ⊢
      ∃ f, ((c : Thread nD τ).loc cc0_scratch0) ↦{fullShare} f := by
  iintro ⟨⟨%f0, H0⟩, ⟨%f1, H1⟩⟩
  iexists (Finset.piecewise ((stg 1).view.set : Finset (Idx ((c : Thread nD τ).loc cc0_scratch0))) f1 f0)
  rw [← stg_cover c]
  iapply (pointsTo_join (stg_disjoint c))
  isplitl [H0]
  · iexact H0
  · iexact H1

end Cert.Kernel.A2A

end
-- ==== Proof.Kernel.ExitSems.lean ====
import proofs.«900013_g7700000000000014_dist_a2a_v7x_xy2x2_x_m16384_n1024_f32_1_alg».proof.Proof.Kernel.Body0
import Mathlib.Logic.Equiv.Fin.Basic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The device's 260 transfer semaphores, by number -/

abbrev C_osem : Fin 260 → SemLoc sig := fun i => .dma i

/-- A family over the first `a + b` numbers is one over the first `a` and one over the next `b`. -/
theorem C_bigSep_fin_add (a b : ℕ) (Ψ : Fin (a + b) → sProp 𝕄) :
    bigSep Finset.univ Ψ
      = iprop((bigSep Finset.univ fun i : Fin a => Ψ (Fin.castAdd b i)) ∗ bigSep Finset.univ fun j : Fin b => Ψ (Fin.natAdd a j)) := by
  rw [bigSep_univ_equiv finSumFinEquiv Ψ, bigSep_univ_sum]
  rfl

/-- Split five times: a family over the first `2 + (2 + (64 + (64 + (64 + 64))))` numbers is six families. -/
theorem C_bigSep_split6 (Ψ : Fin (2 + (2 + (64 + (64 + (64 + 64))))) → sProp 𝕄) :
    bigSep Finset.univ Ψ
      = iprop((bigSep Finset.univ fun s : Fin 2 => Ψ (Fin.castAdd _ s))
          ∗ (bigSep Finset.univ fun s : Fin 2 => Ψ (Fin.natAdd 2 (Fin.castAdd _ s)))
          ∗ (bigSep Finset.univ fun k : Fin 64 => Ψ (Fin.natAdd 2 (Fin.natAdd 2 (Fin.castAdd _ k))))
          ∗ (bigSep Finset.univ fun k : Fin 64 => Ψ (Fin.natAdd 2 (Fin.natAdd 2 (Fin.natAdd 64 (Fin.castAdd _ k)))))
          ∗ (bigSep Finset.univ fun k : Fin 64 => Ψ (Fin.natAdd 2 (Fin.natAdd 2 (Fin.natAdd 64 (Fin.natAdd 64 (Fin.castAdd 64 k))))))
          ∗ (bigSep Finset.univ fun k : Fin 64 => Ψ (Fin.natAdd 2 (Fin.natAdd 2 (Fin.natAdd 64 (Fin.natAdd 64 (Fin.natAdd 64 k))))))) := by
  rw [C_bigSep_fin_add 2 _ Ψ,
    C_bigSep_fin_add 2 _ (fun j => Ψ (Fin.natAdd 2 j)),
    C_bigSep_fin_add 64 _ (fun j => Ψ (Fin.natAdd 2 (Fin.natAdd 2 j))),
    C_bigSep_fin_add 64 _ (fun j => Ψ (Fin.natAdd 2 (Fin.natAdd 2 (Fin.natAdd 64 j)))),
    C_bigSep_fin_add 64 64 (fun j => Ψ (Fin.natAdd 2 (Fin.natAdd 2 (Fin.natAdd 64 (Fin.natAdd 64 j)))))]

/-- The 260 numbers are: two, two, and four times 64. -/
theorem C_bigSep_260 (Ψ : Fin 260 → sProp 𝕄) :
    bigSep Finset.univ Ψ
      = iprop((bigSep Finset.univ fun s : Fin 2 => Ψ ⟨s.val, by omega⟩)
          ∗ (bigSep Finset.univ fun s : Fin 2 => Ψ ⟨2 + s.val, by omega⟩)
          ∗ (bigSep Finset.univ fun k : Fin 64 => Ψ ⟨4 + k.val, by omega⟩)
          ∗ (bigSep Finset.univ fun k : Fin 64 => Ψ ⟨68 + k.val, by omega⟩)
          ∗ (bigSep Finset.univ fun k : Fin 64 => Ψ ⟨132 + k.val, by omega⟩)
          ∗ (bigSep Finset.univ fun k : Fin 64 => Ψ ⟨196 + k.val, by omega⟩)) := by
  refine (C_bigSep_split6 Ψ).trans ?_
  have e (a : Fin (2 + (2 + (64 + (64 + (64 + 64)))))) (b : Fin 260) (h : a.val = b.val) : Ψ a = Ψ b := congrArg Ψ (Fin.ext h)
  have h1 : (bigSep Finset.univ fun s : Fin 2 => Ψ (Fin.castAdd (2 + (64 + (64 + (64 + 64)))) s))
      = bigSep Finset.univ fun s : Fin 2 => Ψ ⟨s.val, by omega⟩ := bigSep_congr fun s _ => e _ _ rfl
  have h2 : (bigSep Finset.univ fun s : Fin 2 => Ψ (Fin.natAdd 2 (Fin.castAdd (64 + (64 + (64 + 64))) s)))
      = bigSep Finset.univ fun s : Fin 2 => Ψ ⟨2 + s.val, by omega⟩ := bigSep_congr fun s _ => e _ _ rfl
  have h3 : (bigSep Finset.univ fun k : Fin 64 => Ψ (Fin.natAdd 2 (Fin.natAdd 2 (Fin.castAdd (64 + (64 + 64)) k))))
      = bigSep Finset.univ fun k : Fin 64 => Ψ ⟨4 + k.val, by omega⟩ :=
    bigSep_congr fun k _ => e _ _ (by simp only [Fin.coe_natAdd, Fin.coe_castAdd]; omega)
  have h4 : (bigSep Finset.univ fun k : Fin 64 => Ψ (Fin.natAdd 2 (Fin.natAdd 2 (Fin.natAdd 64 (Fin.castAdd (64 + 64) k)))))
      = bigSep Finset.univ fun k : Fin 64 => Ψ ⟨68 + k.val, by omega⟩ :=
    bigSep_congr fun k _ => e _ _ (by simp only [Fin.coe_natAdd, Fin.coe_castAdd]; omega)
  have h5 : (bigSep Finset.univ fun k : Fin 64 => Ψ (Fin.natAdd 2 (Fin.natAdd 2 (Fin.natAdd 64 (Fin.natAdd 64 (Fin.castAdd 64 k))))))
      = bigSep Finset.univ fun k : Fin 64 => Ψ ⟨132 + k.val, by omega⟩ :=
    bigSep_congr fun k _ => e _ _ (by simp only [Fin.coe_natAdd, Fin.coe_castAdd]; omega)
  have h6 : (bigSep Finset.univ fun k : Fin 64 => Ψ (Fin.natAdd 2 (Fin.natAdd 2 (Fin.natAdd 64 (Fin.natAdd 64 (Fin.natAdd 64 k))))))
      = bigSep Finset.univ fun k : Fin 64 => Ψ ⟨196 + k.val, by omega⟩ :=
    bigSep_congr fun k _ => e _ _ (by simp only [Fin.coe_natAdd]; omega)
  rw [h1, h2, h3, h4, h5, h6]

omit [FloatOps F] in
/-- A semaphore named by its number. -/
theorem C_sem_eq (c : Dev nD) (q : DmaSem sig) (n : ℕ) (hn : n < 260) (h : q.val = n) :
    (semVal ((c : Thread nD τ), C_osem ⟨n, hn⟩) 0 : sProp 𝕄) = semVal ((c : Thread nD τ), SemLoc.dma q) 0 := by
  subst h; rfl

/-- All of the device's own transfer semaphores at zero: the four of the staging slots and the 256 of the two exchanges. -/
theorem C_ownSems0_eq (c : Dev nD) :
    (Pipeline.ownSems0 (Ix := Unit) (Name := ℕ) (U := UU) (Lvl := ℕ) (Val := Elt F) (τ := τ) C_osem c : sProp 𝕄)
      = iprop((bigSep Finset.univ fun s : Fin 2 => semVal (linCell c s) 0)
          ∗ (bigSep Finset.univ fun s : Fin 2 => semVal (loutCell c s) 0)
          ∗ (bigSep Finset.univ fun k : Fin 64 => semVal (sxCell c k) 0)
          ∗ (bigSep Finset.univ fun k : Fin 64 => semVal (rxCell c k) 0)
          ∗ (bigSep Finset.univ fun k : Fin 64 => semVal (syCell c k) 0)
          ∗ (bigSep Finset.univ fun k : Fin 64 => semVal (ryCell c k) 0)) := by
  unfold Pipeline.ownSems0
  refine (C_bigSep_260 (fun i : Fin 260 => (semVal ((c : Thread nD τ), C_osem i) 0 : sProp 𝕄))).trans ?_
  have h1 : (bigSep Finset.univ fun s : Fin 2 => (semVal ((c : Thread nD τ), C_osem ⟨s.val, by omega⟩) 0 : sProp 𝕄))
      = bigSep Finset.univ fun s : Fin 2 => semVal (linCell c s) 0 := bigSep_congr fun s _ => C_sem_eq c (linS s).sem s.val _ (linS_val s)
  have h2 : (bigSep Finset.univ fun s : Fin 2 => (semVal ((c : Thread nD τ), C_osem ⟨2 + s.val, by omega⟩) 0 : sProp 𝕄))
      = bigSep Finset.univ fun s : Fin 2 => semVal (loutCell c s) 0 := bigSep_congr fun s _ => C_sem_eq c (loutS s).sem (2 + s.val) _ (loutS_val s)
  have h3 : (bigSep Finset.univ fun k : Fin 64 => (semVal ((c : Thread nD τ), C_osem ⟨4 + k.val, by omega⟩) 0 : sProp 𝕄))
      = bigSep Finset.univ fun k : Fin 64 => semVal (sxCell c k) 0 := bigSep_congr fun k _ => C_sem_eq c (sxS k).sem (4 + k.val) _ (sxS_val k)
  have h4 : (bigSep Finset.univ fun k : Fin 64 => (semVal ((c : Thread nD τ), C_osem ⟨68 + k.val, by omega⟩) 0 : sProp 𝕄))
      = bigSep Finset.univ fun k : Fin 64 => semVal (rxCell c k) 0 := bigSep_congr fun k _ => C_sem_eq c (rxS k).sem (68 + k.val) _ (rxS_val k)
  have h5 : (bigSep Finset.univ fun k : Fin 64 => (semVal ((c : Thread nD τ), C_osem ⟨132 + k.val, by omega⟩) 0 : sProp 𝕄))
      = bigSep Finset.univ fun k : Fin 64 => semVal (syCell c k) 0 := bigSep_congr fun k _ => C_sem_eq c (syS k).sem (132 + k.val) _ (syS_val k)
  have h6 : (bigSep Finset.univ fun k : Fin 64 => (semVal ((c : Thread nD τ), C_osem ⟨196 + k.val, by omega⟩) 0 : sProp 𝕄))
      = bigSep Finset.univ fun k : Fin 64 => semVal (ryCell c k) 0 := bigSep_congr fun k _ => C_sem_eq c (ryS k).sem (196 + k.val) _ (ryS_val k)
  rw [h1, h2, h3, h4, h5, h6]

/-- What the device leaves holds its 260 transfer semaphores at zero, and beside them every piece of its two arrays
    and its two staging slots. -/
theorem exit_sems (c : Dev nD) :
    Φ₁ m c ⊢ iprop(Pipeline.ownSems0 (Ix := Unit) (Name := ℕ) (U := UU) (Lvl := ℕ) (Val := Elt F) (τ := τ) C_osem c
      ∗ (bigSep Finset.univ fun k : Fin 64 => pts c (xSrc c k) (inA m c))
      ∗ (bigSep Finset.univ fun k : Fin 64 => pts c (yBuf c k) (outFinal m c))
      ∗ (bigSep Finset.univ fun k : Fin 64 => pts c (yBuf (yn c) k) (outFinal m c))
      ∗ GLsrc m c 8 ∗ GLout m c 8
      ∗ (∃ f, pts c (stg 0) f) ∗ (∃ f, pts c (stg 1) f)
      ∗ RestA m c) := by
  have hX : GXdone m c 64 = iprop((bigSep Finset.univ fun k : Fin 64 => semVal (sxCell c k) 0)
      ∗ bigSep Finset.univ fun k : Fin 64 => pts c (xSrc c k) (inA m c)) := by
    unfold GXdone; rw [pre_top]; exact bigSep_sep _ _ _
  have hY : GYdone m c 64 = iprop((bigSep Finset.univ fun k : Fin 64 => semVal (syCell c k) 0)
      ∗ bigSep Finset.univ fun k : Fin 64 => pts c (yBuf c k) (outFinal m c)) := by
    unfold GYdone; rw [pre_top]; exact bigSep_sep _ _ _
  have hRX : GRXdone (F := F) c 64 = bigSep Finset.univ fun k : Fin 64 => semVal (rxCell c k) 0 := by
    unfold GRXdone; rw [pre_top]
  have hRY : GRYdone m c 64 = iprop((bigSep Finset.univ fun k : Fin 64 => semVal (ryCell c k) 0)
      ∗ bigSep Finset.univ fun k : Fin 64 => pts c (yBuf (yn c) k) (outFinal m c)) := by
    unfold GRYdone; rw [pre_top]; exact bigSep_sep _ _ _
  have hLi : (bigSep Finset.univ fun s : Fin 2 => (semVal (linCell c s) 0 : sProp 𝕄))
      = iprop(semVal (linCell c 0) 0 ∗ semVal (linCell c 1) 0) := bigSep_fin_two _
  have hLo : (bigSep Finset.univ fun s : Fin 2 => (semVal (loutCell c s) 0 : sProp 𝕄))
      = iprop(semVal (loutCell c 0) 0 ∗ semVal (loutCell c 1) 0) := bigSep_fin_two _
  rw [C_ownSems0_eq c, hLi, hLo]
  unfold Φ₁
  rw [hX, hY, hRX, hRY]
  iintro ⟨⟨HsX, HpX⟩, ⟨HsY, HpY⟩, HsRX, ⟨HsRY, HpRY⟩, HLs, HLo, ⟨Hli0, Hlo0, Hst0⟩, ⟨Hli1, Hlo1, Hst1⟩, HR⟩
  isplitl [Hli0 Hli1 Hlo0 Hlo1 HsX HsRX HsY HsRY]
  · isplitl [Hli0 Hli1]
    · isplitl [Hli0]; · iexact Hli0
      iexact Hli1
    isplitl [Hlo0 Hlo1]
    · isplitl [Hlo0]; · iexact Hlo0
      iexact Hlo1
    isplitl [HsX]; · iexact HsX
    isplitl [HsRX]; · iexact HsRX
    isplitl [HsY]; · iexact HsY
    iexact HsRY
  isplitl [HpX]; · iexact HpX
  isplitl [HpY]; · iexact HpY
  isplitl [HpRY]; · iexact HpRY
  isplitl [HLs]; · iexact HLs
  isplitl [HLo]; · iexact HLo
  isplitl [Hst0]; · iexact Hst0
  isplitl [Hst1]; · iexact Hst1
  iexact HR

/-- info: 'Cert.Kernel.A2A.C_ownSems0_eq' depends on axioms: [propext, Classical.choice, Quot.sound] -/
#guard_msgs in #print axioms C_ownSems0_eq

/-- info: 'Cert.Kernel.A2A.exit_sems' depends on axioms: [propext, Classical.choice, Quot.sound] -/
#guard_msgs in #print axioms exit_sems

end Cert.Kernel.A2A

end
-- ==== Proof.Kernel.LaunchGhost.lean ====
import proofs.«900013_g7700000000000014_dist_a2a_v7x_xy2x2_x_m16384_n1024_f32_1_alg».proof.Proof.Kernel.Body0
import proofs.«900013_g7700000000000014_dist_a2a_v7x_xy2x2_x_m16384_n1024_f32_1_alg».proof.Proof.Kernel.EntryG
import Mathlib.Data.Fintype.Sum
import Mathlib.Data.Fintype.Prod
import Mathlib.Data.Fintype.Card

/-!
  The ghost side of the launch.

  Every device has 261 cells: the barrier cell and the 260 copy cells. At launch the exchange's algebra holds, for every
  cell, its round state at counter zero, its owner's position at the start of round 0 and the record that round 0 is
  reached; and, for every duty of every round of every cell, the one-shot token its payer presents. The tokens are
  minted at the cell's owner and then dealt to the payers: a device pays the two entry signals of its neighbours'
  barrier cells, its own send cells, its neighbours' receive cells and its own local-copy cells. The units the
  neighbours owe a device at launch come back to it as credit on its own barrier and receive cells.
-/

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores; the cells by number -/

/-- The kernel's own (scoped) semaphores: the 260 copy semaphores. -/
abbrev osem : Fin 260 → SemLoc sig := fun i => .dma i

theorem ownSemFacts : Pipeline.OwnSemFacts cfg0.spec osem :=
  ⟨fun k => by revert k; decide, fun i j h => SemLoc.dma.inj h, fun k w s => w.elim0⟩

theorem csem_injective : Function.Injective csem := by
  intro i j h
  unfold csem at h
  by_cases hi : i.val = 0
  · by_cases hj : j.val = 0
    · exact Fin.ext (hi.trans hj.symm)
    · rw [dif_pos hi, dif_neg hj] at h; exact absurd h (fun h' => by cases h')
  · by_cases hj : j.val = 0
    · rw [dif_neg hi, dif_pos hj] at h; exact absurd h (fun h' => by cases h')
    · rw [dif_neg hi, dif_neg hj] at h
      have h' : i.val - 1 = j.val - 1 := congrArg Fin.val (SemLoc.dma.inj h)
      exact Fin.ext (by omega)

theorem kcell_injective : Function.Injective (kcell : Dev nD × Fin 261 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The number of a semaphore's cell: 0 the barrier, `q + 1` copy semaphore `q`. -/
def semNo : SemLoc sig → ℕ
  | .reg _ => 0
  | .dma q => q.val + 1

theorem semNo_csem (i : Fin 261) : semNo (csem i) = i.val := by
  unfold csem
  by_cases hi : i.val = 0
  · rw [dif_pos hi]; exact hi.symm
  · rw [dif_neg hi]; show i.val - 1 + 1 = i.val; omega

/-! ## The cells of a device by kind -/

/-- The cells of a device listed by kind: the barrier; local copy `(w, s)` (`w = 0` into staging slot `s`, `w = 1` out
    of it); exchange cell `(q, k)` of chunk `k` (`q = 0, 1` the row exchange's send and receive, `q = 2, 3` the column
    exchange's). -/
abbrev CIx : Type := Unit ⊕ (Fin 2 × Fin 2) ⊕ (Fin 4 × Fin 64)

/-- The local-copy semaphores and the exchange semaphores by kind. -/
def lsem (w s : Fin 2) : DmaSem sig := if w.val = 0 then (linS s).sem else (loutS s).sem
def xsem (q : Fin 4) (k : Fin 64) : DmaSem sig :=
  if q.val = 0 then (sxS k).sem else if q.val = 1 then (rxS k).sem else if q.val = 2 then (syS k).sem else (ryS k).sem

theorem lsem_val (w s : Fin 2) : (lsem w s).val = 2 * w.val + s.val := by
  unfold lsem
  by_cases h : w.val = 0
  · rw [if_pos h, linS_val, h]; omega
  · rw [if_neg h, loutS_val]; have := w.isLt; omega
theorem xsem_val (q : Fin 4) (k : Fin 64) : (xsem q k).val = 4 + 64 * q.val + k.val := by
  unfold xsem
  by_cases h0 : q.val = 0
  · rw [if_pos h0, sxS_val, h0]
  · rw [if_neg h0]
    by_cases h1 : q.val = 1
    · rw [if_pos h1, rxS_val, h1]
    · rw [if_neg h1]
      by_cases h2 : q.val = 2
      · rw [if_pos h2, syS_val, h2]
      · rw [if_neg h2, ryS_val]; have := q.isLt; omega

/-- The semaphore of a cell given by kind. -/
def cixSem : CIx → SemLoc sig
  | .inl _ => .reg barS
  | .inr (.inl ws) => .dma (lsem ws.1 ws.2)
  | .inr (.inr qk) => .dma (xsem qk.1 qk.2)

/-- Its number among the device's 261 cells. -/
def cixNo : CIx → ℕ
  | .inl _ => 0
  | .inr (.inl ws) => 1 + 2 * ws.1.val + ws.2.val
  | .inr (.inr qk) => 5 + 64 * qk.1.val + qk.2.val

theorem semNo_cixSem (t : CIx) : semNo (cixSem t) = cixNo t := by
  rcases t with _ | ws | qk
  · rfl
  · show (lsem ws.1 ws.2).val + 1 = 1 + 2 * ws.1.val + ws.2.val; rw [lsem_val]; omega
  · show (xsem qk.1 qk.2).val + 1 = 5 + 64 * qk.1.val + qk.2.val; rw [xsem_val]; omega

theorem cixNo_lt (t : CIx) : cixNo t < 261 := by
  rcases t with _ | ⟨w, s⟩ | ⟨q, k⟩
  · exact Nat.succ_pos _
  · have := w.isLt; have := s.isLt; show 1 + 2 * w.val + s.val < 261; omega
  · have := q.isLt; have := k.isLt; show 5 + 64 * q.val + k.val < 261; omega

theorem cixNo_injective : Function.Injective cixNo := by
  intro t t' h
  rcases t with _ | ⟨w, s⟩ | ⟨q, k⟩ <;> rcases t' with _ | ⟨w', s'⟩ | ⟨q', k'⟩ <;> simp only [cixNo] at h
  · rfl
  · omega
  · omega
  · omega
  · have := s.isLt; have := s'.isLt
    have hw : w = w' := Fin.ext (by omega)
    have hs : s = s' := Fin.ext (by omega)
    rw [hw, hs]
  · have := w.isLt; have := s.isLt; omega
  · omega
  · have := w'.isLt; have := s'.isLt; omega
  · have := k.isLt; have := k'.isLt
    have hq : q = q' := Fin.ext (by omega)
    have hk : k = k' := Fin.ext (by omega)
    rw [hq, hk]

/-- A cell given by kind, as one of the 261. -/
def cix (t : CIx) : Fin 261 := ⟨cixNo t, cixNo_lt t⟩

theorem csem_cix (t : CIx) : csem (cix t) = cixSem t := by
  rcases t with _ | ⟨w, s⟩ | ⟨q, k⟩
  · rfl
  · have hne : ¬ (cix (.inr (.inl (w, s)))).val = 0 := by show ¬ (1 + 2 * w.val + s.val = 0); omega
    unfold csem; rw [dif_neg hne]
    refine congrArg SemLoc.dma (Fin.ext ?_)
    show 1 + 2 * w.val + s.val - 1 = (lsem w s).val
    rw [lsem_val]; omega
  · have hne : ¬ (cix (.inr (.inr (q, k)))).val = 0 := by show ¬ (5 + 64 * q.val + k.val = 0); omega
    unfold csem; rw [dif_neg hne]
    refine congrArg SemLoc.dma (Fin.ext ?_)
    show 5 + 64 * q.val + k.val - 1 = (xsem q k).val
    rw [xsem_val]; omega

theorem cix_bijective : Function.Bijective cix := by
  refine (Fintype.bijective_iff_injective_and_card cix).mpr ⟨fun t t' h => cixNo_injective (congrArg Fin.val h), ?_⟩
  simp only [Fintype.card_sum, Fintype.card_prod, Fintype.card_fin, Fintype.card_unit]

/-- The 261 cells are the cells listed by kind. -/
def cixEquiv : CIx ≃ Fin 261 := Equiv.ofBijective cix cix_bijective

/-- The cell of device `c` given by kind. -/
abbrev ccell (c : Dev nD) (t : CIx) : GSem nD τ sig := ((c : Thread nD τ), cixSem t)

theorem kcell_cix (c : Dev nD) (t : CIx) : kcell (c, cix t) = ccell c t := by
  show ((c : Thread nD τ), csem (cix t)) = _; rw [csem_cix]

/-! ## The duty tokens minted for a device's own cells -/

/-- The duties of a device's own cells: the barrier's two (`false` the `x`-neighbour's signal, `true` the
    `y`-neighbour's); the one of round 0 of exchange cell `(q, k)`; for the local copy `w` of piece `i`, the one of round
    `i / 2` of the cell of slot `i % 2`. -/
abbrev TIx : Type := Bool ⊕ (Fin 4 × Fin 64) ⊕ (Fin 2 × Fin 8)

def tokCell : TIx → CIx
  | .inl _ => .inl ()
  | .inr (.inl qk) => .inr (.inr qk)
  | .inr (.inr wi) => .inr (.inl (wi.1, slotOf wi.2))
def tokRound : TIx → ℕ
  | .inl _ => 0
  | .inr (.inl _) => 0
  | .inr (.inr wi) => roundOf wi.2
def tokDuty : TIx → Bool
  | .inl b => b
  | .inr _ => false

abbrev tokOf (ct : Dev nD × TIx) : GSem nD τ sig × ℕ × Bool := (ccell ct.1 (tokCell ct.2), tokRound ct.2, tokDuty ct.2)

theorem cixSem_injective : Function.Injective cixSem := fun t t' h =>
  cixNo_injective (by rw [← semNo_cixSem, ← semNo_cixSem, h])

theorem tokOf_injective : Function.Injective (tokOf : Dev nD × TIx → GSem nD τ sig × ℕ × Bool) := by
  rintro ⟨c, t⟩ ⟨c', t'⟩ h
  have h1 : c = c' := by have := congrArg (fun x : GSem nD τ sig × ℕ × Bool => x.1.1.1) h; exact this
  subst h1
  have hc : tokCell t = tokCell t' := cixSem_injective (congrArg (fun x : GSem nD τ sig × ℕ × Bool => x.1.2) h)
  have hr : tokRound t = tokRound t' := congrArg (fun x : GSem nD τ sig × ℕ × Bool => x.2.1) h
  have hd : tokDuty t = tokDuty t' := congrArg (fun x : GSem nD τ sig × ℕ × Bool => x.2.2) h
  have : t = t' := by
    rcases t with b | qk | ⟨w, i⟩ <;> rcases t' with b' | qk' | ⟨w', i'⟩ <;> simp only [tokCell, tokRound, tokDuty] at hc hr hd
    · rw [hd]
    · cases hc
    · cases hc
    · cases hc
    · cases hc; rfl
    · cases hc
    · cases hc
    · cases hc
    · have hw : w = w' := by injection hc with hc; injection hc with hc; exact (Prod.mk.inj hc).1
      have hs : slotOf i = slotOf i' := by injection hc with hc; injection hc with hc; exact (Prod.mk.inj hc).2
      have hs' : i.val % 2 = i'.val % 2 := congrArg Fin.val hs
      have hr' : i.val / 2 = i'.val / 2 := hr
      have hi : i = i' := Fin.ext (by omega)
      rw [hw, hi]
  subst this; rfl

/-- The cells and the tokens the exchange's algebra is launched with. -/
def a2aCells : Finset (GSem nD τ sig) := Finset.univ.map ⟨kcell, kcell_injective⟩
def a2aToks : Finset (GSem nD τ sig × ℕ × Bool) := Finset.univ.map ⟨tokOf, tokOf_injective⟩

/-- The launch element: the pipeline library's copy (no window: no staging cell) and the exchange's. -/
def u₀ : UU := (initOf (Pipeline.cells cfgs cellOf_inj) (Pipeline.launchToks cfgs cellOf_inj), initOf a2aCells a2aToks)

/-- The duty tokens of device `c`'s own cells. -/
def toks (c : Dev nD) : sProp 𝕄 :=
  bigSep Finset.univ fun t : TIx => dutyTok ER (ccell c (tokCell t)) (tokRound t) (tokDuty t)

/-- What the launch element deals device `c`: of each of its 261 cells the round state at counter zero, the owner's
    position at the start of round 0 and that round 0 is reached; and its own cells' duty tokens. -/
def G (c : Dev nD) : sProp 𝕄 :=
  iprop((bigSep Finset.univ fun i : Fin 261 => roundState ER (a2aRd m) (kcell (c, i)) 0)
    ∗ (bigSep Finset.univ fun i : Fin 261 => iprop(atPos ER (kcell (c, i)) 0 ∅ 0 ∗ reached ER (kcell (c, i)) 0)) ∗ toks c)

omit [FloatOps F] in
theorem fund_a2a : BI.own (ER (initOf a2aCells a2aToks)) ⊢ (|==> bigSep Finset.univ (G m) : sProp 𝕄) := by
  have hX (Φ : GSem nD τ sig → sProp 𝕄) : bigSep a2aCells Φ = bigSep Finset.univ fun c : Dev nD => bigSep Finset.univ fun i : Fin 261 => Φ (kcell (c, i)) := by
    unfold a2aCells; rw [bigSep_map, bigSep_univ_prod]; rfl
  have hT : bigSep a2aToks (fun x => (dutyTok ER x.1 x.2.1 x.2.2 : sProp 𝕄)) = bigSep Finset.univ fun c : Dev nD => toks c := by
    unfold a2aToks; rw [bigSep_map, bigSep_univ_prod]; rfl
  iintro HX
  imod (Rounds.fund ER (a2aRd m) a2aCells a2aToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The credits: what the neighbours owe a device at launch -/

omit [FloatOps F] in
/-- The `x`-neighbour owes device `c` an entry signal and the 64 chunks of the row exchange, the `y`-neighbour an entry
    signal and the 64 chunks of the column exchange: the launch hands `c` the matching credit on its own barrier cell
    and receive cells. -/
theorem creds (c : Dev nD) :
    (Pipeline.launchCred O₀ c : sProp 𝕄)
      ⊢ iprop(cred (tallyAt (barCell c) () 2) ∗ (bigSep Finset.univ fun k : Fin 64 => cred (tallyAt (rxCell c k) () N128))
          ∗ (bigSep Finset.univ fun k : Fin 64 => cred (tallyAt (ryCell c k) () N128))) := by
  have hX : (Pipeline.launchCred (fun d => OX d 0) c : sProp 𝕄) ⊢ bigSep Finset.univ fun k : Fin 64 => cred (tallyAt (rxCell c k) () N128) := by
    unfold OX; rw [Pipeline.launchCred_sum, seg_zero]
    exact bigSep_mono fun k _ => Pipeline.launchCred_tallyAt (.dma (rxS k).sem) xn xn xn_xn xn_xn () N128 c
  have hY : (Pipeline.launchCred (fun d => OY d 0) c : sProp 𝕄) ⊢ bigSep Finset.univ fun k : Fin 64 => cred (tallyAt (ryCell c k) () N128) := by
    unfold OY; rw [Pipeline.launchCred_sum, seg_zero]
    exact bigSep_mono fun k _ => Pipeline.launchCred_tallyAt (.dma (ryS k).sem) yn yn yn_yn yn_yn () N128 c
  have hbX : (Pipeline.launchCred (fun d => tallyAt (barCell (xn d)) () 1) c : sProp 𝕄) ⊢ cred (tallyAt (barCell c) () 1) :=
    Pipeline.launchCred_tallyAt (.reg barS) xn xn xn_xn xn_xn () 1 c
  have hbY : (Pipeline.launchCred (fun d => tallyAt (barCell (yn d)) () 1) c : sProp 𝕄) ⊢ cred (tallyAt (barCell c) () 1) :=
    Pipeline.launchCred_tallyAt (.reg barS) yn yn yn_yn yn_yn () 1 c
  have h2 : (iprop(cred (tallyAt (barCell c) () 1) ∗ cred (tallyAt (barCell c) () 1)) : sProp 𝕄) ⊢ cred (tallyAt (barCell c) () 2) := by
    rw [show (2 : ℕ) = 1 + 1 from rfl, ← tallyAt_add]; exact (cred_add _ _).2
  have hO : (O₀ : Dev nD → CellTallies nD τ sig Unit)
      = fun d => ((OX d 0 + OY d 0) + tallyAt (barCell (yn d)) () 1) + tallyAt (barCell (xn d)) () 1 := rfl
  rw [hO, Pipeline.launchCred_add (fun d => (OX d 0 + OY d 0) + tallyAt (barCell (yn d)) () 1) (fun d => tallyAt (barCell (xn d)) () 1),
    Pipeline.launchCred_add (fun d => OX d 0 + OY d 0) (fun d => tallyAt (barCell (yn d)) () 1),
    Pipeline.launchCred_add (fun d => OX d 0) (fun d => OY d 0)]
  iintro ⟨⟨⟨HX, HY⟩, HbY⟩, HbX⟩
  isplitl [HbX HbY]
  · iapply h2
    isplitl [HbX]
    · iapply hbX; iexact HbX
    · iapply hbY; iexact HbY
  isplitl [HX]
  · iapply hX; iexact HX
  · iapply hY; iexact HY

/-! ## A device's cells and tokens, kind by kind -/

omit [FloatOps F] in
theorem bigSep_bool (Φ : Bool → sProp 𝕄) : bigSep Finset.univ Φ = iprop(Φ false ∗ Φ true) :=
  bigSep_univ_eq_bigSepL [false, true] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- Something held of each of a device's 261 cells, kind by kind. -/
theorem cells_split (c : Dev nD) (Φ : GSem nD τ sig → sProp 𝕄) :
    (bigSep Finset.univ fun i : Fin 261 => Φ (kcell (c, i)))
      = iprop(Φ (barCell c)
          ∗ ((Φ (linCell c 0) ∗ Φ (linCell c 1)) ∗ (Φ (loutCell c 0) ∗ Φ (loutCell c 1)))
          ∗ ((bigSep Finset.univ fun k : Fin 64 => Φ (sxCell c k)) ∗ (bigSep Finset.univ fun k : Fin 64 => Φ (rxCell c k))
            ∗ (bigSep Finset.univ fun k : Fin 64 => Φ (syCell c k)) ∗ (bigSep Finset.univ fun k : Fin 64 => Φ (ryCell c k)))) := by
  rw [bigSep_univ_equiv cixEquiv (fun i : Fin 261 => Φ (kcell (c, i))),
    bigSep_congr (s := Finset.univ) (Φ := fun t : CIx => Φ (kcell (c, cixEquiv t))) (Ψ := fun t : CIx => Φ (ccell c t))
      (fun t _ => congrArg Φ (kcell_cix c t)),
    bigSep_univ_sum, bigSep_univ_sum, bigSep_univ_of_subsingleton (), bigSep_univ_prod, bigSep_univ_two, bigSep_univ_two, bigSep_univ_two,
    bigSep_univ_prod, bigSep_fin4]
  rfl

omit [FloatOps F] in
/-- A device's own cells' tokens, kind by kind. -/
theorem toks_split (c : Dev nD) :
    (toks c : sProp 𝕄)
      = iprop((dutyTok ER (barCell c) 0 false ∗ dutyTok ER (barCell c) 0 true)
          ∗ ((bigSep Finset.univ fun k : Fin 64 => dutyTok ER (sxCell c k) 0 false) ∗ (bigSep Finset.univ fun k : Fin 64 => dutyTok ER (rxCell c k) 0 false)
            ∗ (bigSep Finset.univ fun k : Fin 64 => dutyTok ER (syCell c k) 0 false) ∗ (bigSep Finset.univ fun k : Fin 64 => dutyTok ER (ryCell c k) 0 false))
          ∗ ((bigSep Finset.univ fun i : Fin 8 => dutyTok ER (linCell c (slotOf i)) (roundOf i) false)
            ∗ (bigSep Finset.univ fun i : Fin 8 => dutyTok ER (loutCell c (slotOf i)) (roundOf i) false))) := by
  unfold toks
  rw [bigSep_univ_sum, bigSep_univ_sum, bigSep_bool, bigSep_univ_prod, bigSep_fin4, bigSep_univ_prod, bigSep_univ_two]
  rfl

/-! ## The counters at zero; every cell's invariant allocated -/

omit [FloatOps F] in
/-- The barrier semaphore is the core's one unscoped semaphore. -/
theorem unscopedSems0_eq (c : Dev nD) : (unscopedSems0 c : sProp 𝕄) = semVal (barCell c) 0 := by
  unfold unscopedSems0
  have h : (Finset.univ.filter fun sm : SemLoc sig => ¬ sm.isScoped .tc) = {SemLoc.reg barS} := by
    ext sm; rw [Finset.mem_filter, Finset.mem_singleton]
    constructor
    · rintro ⟨-, h⟩
      rcases sm with s | q
      · exact congrArg SemLoc.reg (Subsingleton.elim (α := Fin 1) s barS)
      · exact absurd (ownSemFacts.isScoped q) h
    · rintro rfl; exact ⟨Finset.mem_univ _, by decide⟩
  rw [h, bigSep_singleton]

omit [FloatOps F] in
/-- The 261 counters: the barrier's, then the 260 copy semaphores'. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 261 => semVal (kcell (c, i)) 0 : sProp 𝕄) := by
  have h0 : (0 : Fin 261) ∉ (Finset.univ : Finset (Fin 260)).map ⟨Fin.succ, Fin.succ_injective _⟩ := by
    simp [Fin.succ_ne_zero]
  have h : (bigSep Finset.univ fun i : Fin 261 => (semVal (kcell (c, i)) 0 : sProp 𝕄))
      = iprop(semVal (barCell c) 0 ∗ bigSep Finset.univ fun q : Fin 260 => semVal (((c : Thread nD τ), SemLoc.dma q) : GSem nD τ sig) 0) := by
    rw [Fin.univ_succ, Finset.cons_eq_insert, bigSep_insert h0, bigSep_map]
    refine congrArg (fun X : sProp 𝕄 => iprop(semVal (barCell c) 0 ∗ X)) (bigSep_congr fun q _ => ?_)
    exact congrArg (fun g : GSem nD τ sig => (semVal g 0 : sProp 𝕄)) (kcell_dma c q)
  rw [h, unscopedSems0_eq]
  unfold Pipeline.ownSems0
  iintro ⟨Ho, Hb⟩
  isplitl [Hb]; · iexact Hb
  iexact Ho

/-- Every payload of the schedule can be stored in an invariant. -/
instance a2aRd_payload_storable (g : GSem nD τ sig) (r : ℕ) (d : Bool) :
    BI.Storable (upEmb : UEmb _ 𝕄) ((a2aRd (F := F) m).payload g r d) := by
  show BI.Storable upEmb (match classify g.2 with
    | some .bar => if d then barPayY g.1.1 else barPayX g.1.1
    | some (.lin s) => linPay m g.1.1 (pieceOf r s) s
    | some (.lout s) => loutPay m g.1.1 (pieceOf r s) s
    | some (.sx k) => sxPay m g.1.1 k
    | some (.rx k) => rxPay m g.1.1 k
    | some (.sy k) => syPay m g.1.1 k
    | some (.ry k) => ryPay m g.1.1 k
    | none => iprop(emp))
  unfold barPayX barPayY linPay loutPay sxPay rxPay syPay ryPay
  (repeat' split) <;> infer_instance

omit [FloatOps F] in
/-- From its counters at zero and its cells' round states at zero, a device allocates every cell's invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 261 => iprop(∃ κ : ℕ, cellInv ER (a2aRd m) κ (kcell (c, i))))
          ∗ (bigSep Finset.univ fun i : Fin 261 => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Fin 261 => semVal (kcell (c, i)) 0) ∗ bigSep Finset.univ fun i : Fin 261 => roundState ER (a2aRd m) (kcell (c, i)) 0)
      ⊢ (|={Set.univ}=> bigSep Finset.univ fun i : Fin 261 => iprop(∃ κ : ℕ, cellInv ER (a2aRd m) κ (kcell (c, i))) : sProp 𝕄) from by
        rw [← bigSep_sep']
        exact (bigSep_mono fun i _ => (Rounds.body_intro ER (a2aRd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to their payers; the positions and tokens a device starts from -/

/-- The two neighbour maps as permutations of the devices. -/
def xnE : Dev nD ≃ Dev nD := ⟨xn, xn, xn_xn, xn_xn⟩
def ynE : Dev nD ≃ Dev nD := ⟨yn, yn, yn_yn, yn_yn⟩

/-- The tokens of the duties device `c` pays in the row exchange (its own send cells', the `x`-neighbour's receive
    cells'), in the column exchange, and in the local copies. -/
def GXtokT (c : Dev nD) : sProp 𝕄 :=
  iprop((bigSep Finset.univ fun k : Fin 64 => dutyTok ER (sxCell c k) 0 false) ∗ (bigSep Finset.univ fun k : Fin 64 => dutyTok ER (rxCell (xn c) k) 0 false))
def GYtokT (c : Dev nD) : sProp 𝕄 :=
  iprop((bigSep Finset.univ fun k : Fin 64 => dutyTok ER (syCell c k) 0 false) ∗ (bigSep Finset.univ fun k : Fin 64 => dutyTok ER (ryCell (yn c) k) 0 false))
def GLtokT (c : Dev nD) : sProp 𝕄 :=
  iprop((bigSep Finset.univ fun i : Fin 8 => dutyTok ER (linCell c (slotOf i)) (roundOf i) false)
    ∗ (bigSep Finset.univ fun i : Fin 8 => dutyTok ER (loutCell c (slotOf i)) (roundOf i) false))

/-- The tokens of all the duties device `c` pays: the two entry signals (to the `x`-neighbour's barrier cell, duty
    `false`; to the `y`-neighbour's, duty `true`), the two exchanges, the local copies. -/
def payToks (c : Dev nD) : sProp 𝕄 :=
  iprop(dutyTok ER (barCell (xn c)) 0 false ∗ dutyTok ER (barCell (yn c)) 0 true ∗ GXtokT c ∗ GYtokT c ∗ GLtokT c)

/-- Device `c`'s position at the start of round 0 of each of its cells, kind by kind. -/
def posns (c : Dev nD) : sProp 𝕄 :=
  iprop(atPos ER (barCell c) 0 ∅ 0
    ∗ ((atPos ER (linCell c 0) 0 ∅ 0 ∗ atPos ER (linCell c 1) 0 ∅ 0) ∗ (atPos ER (loutCell c 0) 0 ∅ 0 ∗ atPos ER (loutCell c 1) 0 ∅ 0))
    ∗ ((bigSep Finset.univ fun k : Fin 64 => atPos ER (sxCell c k) 0 ∅ 0) ∗ (bigSep Finset.univ fun k : Fin 64 => atPos ER (rxCell c k) 0 ∅ 0)
      ∗ (bigSep Finset.univ fun k : Fin 64 => atPos ER (syCell c k) 0 ∅ 0) ∗ (bigSep Finset.univ fun k : Fin 64 => atPos ER (ryCell c k) 0 ∅ 0)))

/-- The ghost part of what device `c`'s body starts from, under the names `K`: the records, its positions, the tokens
    of the duties it pays. -/
def ghostEntry (K : Dev nD × Fin 261 → ℕ) (c : Dev nD) : sProp 𝕄 := iprop(records m K ∗ posns c ∗ payToks c)

/-- What the global step leaves each device. -/
def G' (c : Dev nD) : sProp 𝕄 := iprop(∃ K, ghostEntry m K c)

omit [FloatOps F] in
/-- The tokens minted at a device for its barrier's duty `false` and for its row-receive cells go to its
    `x`-neighbour, those for its barrier's duty `true` and its column-receive cells to its `y`-neighbour; the rest stay. -/
theorem toks_around : (bigSep Finset.univ fun c : Dev nD => (toks c : sProp 𝕄)) ⊢ bigSep Finset.univ fun c : Dev nD => payToks c := by
  have e1 := bigSep_univ_equiv xnE (fun c : Dev nD => (dutyTok ER (barCell c) 0 false : sProp 𝕄))
  have e2 := bigSep_univ_equiv ynE (fun c : Dev nD => (dutyTok ER (barCell c) 0 true : sProp 𝕄))
  have e3 := bigSep_univ_equiv xnE (fun c : Dev nD => (bigSep Finset.univ fun k : Fin 64 => dutyTok ER (rxCell c k) 0 false : sProp 𝕄))
  have e4 := bigSep_univ_equiv ynE (fun c : Dev nD => (bigSep Finset.univ fun k : Fin 64 => dutyTok ER (ryCell c k) 0 false : sProp 𝕄))
  unfold payToks GXtokT GYtokT GLtokT
  rw [bigSep_congr (s := Finset.univ) (fun (c : Dev nD) _ => toks_split (F := F) c)]
  simp only [bigSep_sep']
  rw [e1, e2, e3, e4]
  iintro ⟨⟨Hbf, Hbt⟩, ⟨Hsx, Hrx, Hsy, Hry⟩, ⟨Hli, Hlo⟩⟩
  isplitl [Hbf]; · iexact Hbf
  isplitl [Hbt]; · iexact Hbt
  isplitl [Hsx Hrx]
  · isplitl [Hsx]; · iexact Hsx
    iexact Hrx
  isplitl [Hsy Hry]
  · isplitl [Hsy]; · iexact Hsy
    iexact Hry
  isplitl [Hli]; · iexact Hli
  iexact Hlo

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem ghost_intro (K : Dev nD × Fin 261 → ℕ) (c : Dev nD) :
    iprop(records m K ∗ (bigSep Finset.univ fun i : Fin 261 => atPos ER (kcell (c, i)) 0 ∅ 0) ∗ payToks c) ⊢ G' m c := by
  rw [cells_split c (fun g => (atPos ER g 0 ∅ 0 : sProp 𝕄))]
  unfold G' ghostEntry posns
  iintro ⟨HR, Hp, Ht⟩
  iexists K
  isplitl [HR]; · iexact HR
  isplitl [Hp]; · iexact Hp
  iexact Ht

omit [FloatOps F] in
theorem regroup :
    (bigSep Finset.univ fun c : Dev nD => iprop((bigSep Finset.univ fun i : Fin 261 => iprop(∃ κ : ℕ, cellInv ER (a2aRd m) κ (kcell (c, i))))
          ∗ (bigSep Finset.univ fun i : Fin 261 => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × Fin 261 => iprop(∃ κ : ℕ, cellInv ER (a2aRd m) κ (kcell ck))),
    bigSep_congr (s := Finset.univ) (fun (c : Dev nD) _ => bigSep_sep' Finset.univ (fun i : Fin 261 => (atPos ER (kcell (c, i)) 0 ∅ 0 : sProp 𝕄)) (fun i => reached ER (kcell (c, i)) 0)),
    bigSep_sep', ← bigSep_univ_prod (fun ck : Dev nD × Fin 261 => (reached ER (kcell ck) 0 : sProp 𝕄))]
  iintro ⟨HI, ⟨Hat, #HR⟩, Htok⟩
  ihave HK := (BI.bigSep_exists_pi Finset.univ (fun (ck : Dev nD × Fin 261) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; rw [bigSep_sep']
    isplitl; · iexact HI
    iexact HR
  · iapply (Entails.of_eq (bigSep_sep' Finset.univ (fun c : Dev nD => bigSep Finset.univ fun i : Fin 261 => (atPos ER (kcell (c, i)) 0 ∅ 0 : sProp 𝕄)) payToks).symm)
    isplitl [Hat]; · iexact Hat
    iexact Htk

omit [FloatOps F] in
/-- The global step: every device's own and unscoped counters at zero and its share of the launch element become, for
    every device, the records of ALL devices' cells, its positions and the tokens of the duties it pays. -/
theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

/-! ## The entry resources reassembled from the ghost part, the levels, the credits and the memory -/

/-- The credits the launch hands device `c` (what `creds` reads off the launch credit). -/
def credEntry (c : Dev nD) : sProp 𝕄 :=
  iprop(cred (tallyAt (barCell c) () 2) ∗ (bigSep Finset.univ fun k : Fin 64 => cred (tallyAt (rxCell c k) () N128))
    ∗ (bigSep Finset.univ fun k : Fin 64 => cred (tallyAt (ryCell c k) () N128)))

/-- The memory a device's body starts from: the chunks of its neighbours' result arrays its two exchanges write (what
    the neighbours' entry signals hand it), the 64 source chunks of the row exchange, the eight local pieces (source and
    destination), the two staging slots, and the untouched rest of the argument array. -/
def memEntry (c : Dev nD) : sProp 𝕄 :=
  iprop(barPayX (xn c) ∗ barPayY (yn c)
    ∗ (bigSep Finset.univ fun k : Fin 64 => pts c (xSrc c k) (inA m c))
    ∗ (bigSep Finset.univ fun i : Fin 8 => iprop(pts c (lSrc (lOff c i) (lOff_inb c i)) (inA m c) ∗ ∃ f, pts c (lDst c i) f))
    ∗ (∃ f, pts c (stg 0) f) ∗ (∃ f, pts c (stg 1) f) ∗ RestA m c)

theorem entry_intro (K : Dev nD × Fin 261 → ℕ) (c : Dev nD) :
    iprop(ghostEntry m K c ∗ levAts L lv ∗ credEntry c ∗ memEntry m c) ⊢ entry m K c := by
  unfold ghostEntry posns payToks GXtokT GYtokT GLtokT credEntry memEntry entry GXtok GXpos GYtok GYpos GRXwait GRYwait GLtok SlotIdle
  rw [seg_zero, show (Finset.univ.filter fun i : Fin 8 => 0 ≤ i.val) = Finset.univ from Finset.filter_true_of_mem fun i _ => Nat.zero_le _]
  simp only [bigSep_sep']
  iintro ⟨⟨HR, ⟨Hpb, ⟨⟨Hli0, Hli1⟩, ⟨Hlo0, Hlo1⟩⟩, ⟨Hpsx, Hprx, Hpsy, Hpry⟩⟩, ⟨Htbx, Htby, ⟨Htsx, Htrx⟩, ⟨Htsy, Htry⟩, ⟨Htli, Htlo⟩⟩⟩, Hlev, ⟨Hcb, Hcrx, Hcry⟩,
    ⟨HpX, HpY, Hxs, ⟨Hls, Hld⟩, Hs0, Hs1, Hrest⟩⟩
  isplitl [HR]; · iexact HR
  isplitl [Hlev]; · iexact Hlev
  isplitl [Htbx]; · iexact Htbx
  isplitl [Htby]; · iexact Htby
  isplitl [HpX]; · iexact HpX
  isplitl [HpY]; · iexact HpY
  isplitl [Hpb]; · iexact Hpb
  isplitl [Hcb]; · iexact Hcb
  isplitl [Htsx Htrx Hxs]
  · isplitl [Htsx]; · iexact Htsx
    isplitl [Htrx]; · iexact Htrx
    iexact Hxs
  isplitl [Hpsx]; · iexact Hpsx
  isplitl [Htsy Htry]
  · isplitl [Htsy]; · iexact Htsy
    iexact Htry
  isplitl [Hpsy]; · iexact Hpsy
  isplitl [Hprx Hcrx]
  · isplitl [Hprx]; · iexact Hprx
    iexact Hcrx
  isplitl [Hpry Hcry]
  · isplitl [Hpry]; · iexact Hpry
    iexact Hcry
  isplitl [Htli Htlo Hls Hld]
  · isplitl [Htli]; · iexact Htli
    isplitl [Htlo]; · iexact Htlo
    isplitl [Hls]; · iexact Hls
    iexact Hld
  isplitl [Hs0 Hli0 Hlo0]
  · isplitl [Hs0]; · iexact Hs0
    isplitl [Hli0]; · iexact Hli0
    iexact Hlo0
  isplitl [Hs1 Hli1 Hlo1]
  · isplitl [Hs1]; · iexact Hs1
    isplitl [Hli1]; · iexact Hli1
    iexact Hlo1
  iexact Hrest

/-- What the body's first point asks, from what the global step left the device, the levels, the credits and the memory. -/
theorem phi0_of_parts (c : Dev nD) : iprop(G' m c ∗ levAts L lv ∗ credEntry c ∗ memEntry m c) ⊢ Φ₀ m c := by
  unfold G' Φ₀
  iintro ⟨⟨%K, HG⟩, Hrest⟩
  iexists K
  iapply (entry_intro m K c)
  isplitl [HG]; · iexact HG
  iexact Hrest

/-- info: 'Cert.Kernel.A2A.glob' depends on axioms: [propext, Classical.choice, Quot.sound] -/
#guard_msgs in #print axioms glob
/-- info: 'Cert.Kernel.A2A.fund_a2a' depends on axioms: [propext, Classical.choice, Quot.sound] -/
#guard_msgs in #print axioms fund_a2a
/-- info: 'Cert.Kernel.A2A.creds' depends on axioms: [propext, Classical.choice, Quot.sound] -/
#guard_msgs in #print axioms creds
/-- info: 'Cert.Kernel.A2A.phi0_of_parts' depends on axioms: [propext, Classical.choice, Quot.sound] -/
#guard_msgs in #print axioms phi0_of_parts

/-! ## The ghost half of the entry resources -/

omit [FloatOps F] in
theorem entryG_intro (K : Dev nD × Fin 261 → ℕ) (c : Dev nD) :
    iprop(ghostEntry m K c ∗ levAts L lv ∗ credEntry c) ⊢ entryG m K c := by
  unfold ghostEntry posns payToks GXtokT GYtokT GLtokT credEntry entryG GXpos GYtok GYpos GRXwait GRYwait
  rw [seg_zero]
  simp only [bigSep_sep']
  iintro ⟨⟨HR, ⟨Hpb, ⟨⟨Hli0, Hli1⟩, ⟨Hlo0, Hlo1⟩⟩, ⟨Hpsx, Hprx, Hpsy, Hpry⟩⟩, ⟨Htbx, Htby, ⟨Htsx, Htrx⟩, ⟨Htsy, Htry⟩, ⟨Htli, Htlo⟩⟩⟩, Hlev, ⟨Hcb, Hcrx, Hcry⟩⟩
  isplitl [HR]; · iexact HR
  isplitl [Hlev]; · iexact Hlev
  isplitl [Htbx]; · iexact Htbx
  isplitl [Htby]; · iexact Htby
  isplitl [Hpb]; · iexact Hpb
  isplitl [Hcb]; · iexact Hcb
  isplitl [Htsx Htrx]
  · isplitl [Htsx]; · iexact Htsx
    iexact Htrx
  isplitl [Hpsx]; · iexact Hpsx
  isplitl [Htsy Htry]
  · isplitl [Htsy]; · iexact Htsy
    iexact Htry
  isplitl [Hpsy]; · iexact Hpsy
  isplitl [Hprx Hcrx]
  · isplitl [Hprx]; · iexact Hprx
    iexact Hcrx
  isplitl [Hpry Hcry]
  · isplitl [Hpry]; · iexact Hpry
    iexact Hcry
  isplitl [Htli Htlo]
  · isplitl [Htli]; · iexact Htli
    iexact Htlo
  isplitl [Hli0 Hlo0]
  · isplitl [Hli0]; · iexact Hli0
    iexact Hlo0
  isplitl [Hli1]; · iexact Hli1
  iexact Hlo1

omit [FloatOps F] in
/-- From the levels, the launch credit and what the global step left it, a device has the ghost half of its entry
    resources under some names. -/
theorem ghost_start (c : Dev nD) :
    iprop(levAts L lv ∗ Pipeline.launchCred O₀ c ∗ G' m c) ⊢ iprop(∃ K, entryG m K c) := by
  unfold G'
  iintro ⟨Hlev, Hcr, ⟨%K, HG⟩⟩
  ihave Hc := (show (Pipeline.launchCred O₀ c : sProp 𝕄) ⊢ credEntry c from creds c) $$ Hcr
  iexists K
  iapply (entryG_intro m K c)
  isplitl [HG]; · iexact HG
  isplitl [Hlev]; · iexact Hlev
  iexact Hc

/-- info: 'Cert.Kernel.A2A.ghost_start' depends on axioms: [propext, Classical.choice, Quot.sound] -/
#guard_msgs in #print axioms ghost_start

omit [FloatOps F] in
/-- The launch element splits into the pipeline library's copy and every device's share of the exchange's. -/
theorem launch_u₀ :
    (ownU u₀ : sProp 𝕄)
      ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_a2a m) $$ HX with HG
  imodintro
  isplitl [HP] <;> iassumption

end Cert.Kernel.A2A

end
-- ==== Proof.Kernel.LaunchMem.lean ====
import proofs.«900013_g7700000000000014_dist_a2a_v7x_xy2x2_x_m16384_n1024_f32_1_alg».proof.Proof.Kernel.Body0
import proofs.«900013_g7700000000000014_dist_a2a_v7x_xy2x2_x_m16384_n1024_f32_1_alg».proof.Proof.Kernel.Pieces
import proofs.«900013_g7700000000000014_dist_a2a_v7x_xy2x2_x_m16384_n1024_f32_1_alg».proof.Proof.Kernel.EntryG
import proofs.«900013_g7700000000000014_dist_a2a_v7x_xy2x2_x_m16384_n1024_f32_1_alg».proof.Proof.Kernel.Split
import proofs.«900013_g7700000000000014_dist_a2a_v7x_xy2x2_x_m16384_n1024_f32_1_alg».proof.Proof.Kernel.ExitSems
import proofs.«900013_g7700000000000014_dist_a2a_v7x_xy2x2_x_m16384_n1024_f32_1_alg».proof.Proof.Kernel.LaunchGhost
import Idealize.ShloMosaic.Rules.PointsTo

/-!
# The memory side of the launch, and the final reading

Each device's argument array, result array and staging scratch are handed to its body as one whole buffer each. The body
works on rectangular pieces of them. This file cuts the three buffers into the pieces the body starts from, puts the
pieces it ends with back together, and reads the final contents of the two arrays off the pieces.
-/

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading a family of pieces of one buffer against the memory -/

/-- Under the state interpretation, pieces of one buffer pin the memory's contents on each piece's elements. -/
theorem SI_bigSep_pointsTo_agree {st : Phys nD τ sig (Elt F)} {ℓ : Loc nD τ sig} {q : PosShare TreeShare}
    {T : Type} [DecidableEq T] (S : Finset T) (K : T → Finset (Idx ℓ)) (f : T → Buf (Elt F) ℓ) :
    iprop(SI st ∗ bigSep S fun t => ℓ ↦[K t]{q} f t) ⊢ (⌜∀ t ∈ S, ∀ i ∈ K t, st.mem.mem ℓ i = f t i⌝ : sProp 𝕄) := by
  induction S using Finset.induction_on with
  | empty => iintro -; ipureintro; intro t ht; exact absurd ht (Finset.notMem_empty _)
  | insert t S ht ih =>
    rw [bigSep_insert ht]
    refine (show iprop(SI st ∗ ((ℓ ↦[K t]{q} f t) ∗ bigSep S fun t => ℓ ↦[K t]{q} f t)) ⊢ _ from ?_)
    iintro ⟨HSI, Ht, HS⟩
    icombine HSI Ht gives %h
    ihave %hS := ih $$ [HSI HS]
    · isplitl [HSI] <;> iassumption
    ipureintro
    intro t' ht' i hi
    rcases Finset.mem_insert.mp ht' with rfl | ht'
    · exact h i hi
    · exact hS t' ht' i hi

/-- The same, keeping what was read. -/
theorem SI_bigSep_pointsTo_read {st : Phys nD τ sig (Elt F)} {ℓ : Loc nD τ sig} {q : PosShare TreeShare}
    {T : Type} [DecidableEq T] (S : Finset T) (K : T → Finset (Idx ℓ)) (f : T → Buf (Elt F) ℓ) :
    iprop(SI st ∗ bigSep S fun t => ℓ ↦[K t]{q} f t)
      ⊢ (iprop(⌜∀ t ∈ S, ∀ i ∈ K t, st.mem.mem ℓ i = f t i⌝ ∗ (SI st ∗ bigSep S fun t => ℓ ↦[K t]{q} f t)) : sProp 𝕄) :=
  persistent_entails_right (SI_bigSep_pointsTo_agree S K f)

/-! ## The final reading

When a device's body is done it holds every piece of its two arrays: of the argument array the 64 chunks it sent, the
8 local sources and the untouched rest, all at the launch contents; of the result array the 64 chunks landed from the
x-neighbour, the 64 landed from the y-neighbour and the 8 local pieces, all at the final contents. The pieces cover
both arrays, so the memory holds the final contents everywhere. -/

abbrev locA (c : Dev nD) : Loc nD τ sig := (c : Thread nD τ).loc main_arg0
abbrev locR (c : Dev nD) : Loc nD τ sig := (c : Thread nD τ).loc main_v1
abbrev locS (c : Dev nD) : Loc nD τ sig := (c : Thread nD τ).loc cc0_scratch0

/-- What a device holds of its two arrays when its body is done. -/
def Yc (c : Dev nD) : sProp 𝕄 :=
  iprop((bigSep Finset.univ fun k : Fin 64 => pts c (xSrc c k) (inA m c))
    ∗ (bigSep Finset.univ fun k : Fin 64 => pts c (yBuf c k) (outFinal m c))
    ∗ (bigSep Finset.univ fun k : Fin 64 => pts c (yBuf (yn c) k) (outFinal m c))
    ∗ GLsrc m c 8 ∗ GLout m c 8 ∗ RestA m c)

/-- The post of one device: its result array holds the final contents, its argument array what it held at launch. -/
def QY (c : Dev nD) (s : MemSt nD τ sig (Elt F)) : Prop :=
  s.mem (locR c) = outFinal m c ∧ s.mem (locA c) = m (locA c)

/-- The pieces of the argument array pin it to its launch contents. -/
theorem read_arg (c : Dev nD) (st : Phys nD τ sig (Elt F)) :
    iprop(SI st ∗ (bigSep Finset.univ fun k : Fin 64 => pts c (xSrc c k) (inA m c)) ∗ GLsrc m c 8 ∗ RestA m c)
      ⊢ (⌜st.mem.mem (locA c) = m (locA c)⌝ : sProp 𝕄) := by
  unfold GLsrc
  iintro ⟨HSI, HX, HL, HR⟩
  ihave H := (SI_bigSep_pointsTo_read (st := st) (ℓ := locA c) (q := fullShare) Finset.univ
    (fun k : Fin 64 => (xSrc c k).view.set) (fun _ => inA m c)) $$ [HSI HX]
  · isplitl [HSI] <;> iassumption
  icases H with ⟨%h1, HSI, -⟩
  ihave H := (SI_bigSep_pointsTo_read (st := st) (ℓ := locA c) (q := fullShare) (Finset.univ.filter fun i : Fin 8 => i.val < 8)
    (fun j : Fin 8 => (lSrc (lOff c j) (lOff_inb c j)).view.set) (fun _ => inA m c)) $$ [HSI HL]
  · isplitl [HSI] <;> iassumption
  icases H with ⟨%h2, HSI, -⟩
  unfold RestA
  icombine HSI HR gives %h3
  ipureintro
  funext i
  rcases arg_cover c i with ⟨k, hk⟩ | ⟨j, hj⟩ | hr
  · exact h1 k (Finset.mem_univ _) i hk
  · exact h2 j (Finset.mem_filter.mpr ⟨Finset.mem_univ _, j.isLt⟩) i hj
  · exact h3 i hr

/-- The pieces of the result array pin it to the final contents. -/
theorem read_res (c : Dev nD) (st : Phys nD τ sig (Elt F)) :
    iprop(SI st ∗ (bigSep Finset.univ fun k : Fin 64 => pts c (yBuf c k) (outFinal m c))
        ∗ (bigSep Finset.univ fun k : Fin 64 => pts c (yBuf (yn c) k) (outFinal m c)) ∗ GLout m c 8)
      ⊢ (⌜st.mem.mem (locR c) = outFinal m c⌝ : sProp 𝕄) := by
  unfold GLout
  iintro ⟨HSI, HX, HY, HL⟩
  ihave H := (SI_bigSep_pointsTo_read (st := st) (ℓ := locR c) (q := fullShare) Finset.univ
    (fun k : Fin 64 => (yBuf c k).view.set) (fun _ => outFinal m c)) $$ [HSI HX]
  · isplitl [HSI] <;> iassumption
  icases H with ⟨%h1, HSI, -⟩
  ihave H := (SI_bigSep_pointsTo_read (st := st) (ℓ := locR c) (q := fullShare) Finset.univ
    (fun k : Fin 64 => (yBuf (yn c) k).view.set) (fun _ => outFinal m c)) $$ [HSI HY]
  · isplitl [HSI] <;> iassumption
  icases H with ⟨%h2, HSI, -⟩
  ihave %h3 := (SI_bigSep_pointsTo_agree (st := st) (ℓ := locR c) (q := fullShare) (Finset.univ.filter fun i : Fin 8 => i.val < 8)
    (fun j : Fin 8 => (lDst c j).view.set) (fun _ => outFinal m c)) $$ [HSI HL]
  · isplitl [HSI] <;> iassumption
  ipureintro
  funext i
  rcases result_cover_fwd c i with ⟨k, hk⟩ | ⟨k, hk⟩ | ⟨j, hj⟩
  · exact h1 k (Finset.mem_univ _) i hk
  · exact h2 k (Finset.mem_univ _) i hk
  · exact h3 j (Finset.mem_filter.mpr ⟨Finset.mem_univ _, j.isLt⟩) i hj

/-- The launch theorem's reading step: what a device holds at the end, read against the final memory. -/
theorem read_Y (c : Dev nD) (s' : Phys nD τ sig (Elt F)) :
    iprop(Yc m c ∗ emp ∗ SI s') ⊢ (|={Set.univ}=> iprop(⌜QY m c s'.mem⌝ ∗ SI s') : sProp 𝕄) := by
  unfold Yc
  iintro ⟨⟨HX, HY1, HY2, HL, HLo, HR⟩, -, HSI⟩
  ihave H := (persistent_entails_right (read_arg m c s')) $$ [HSI HX HL HR]
  · isplitl [HSI]; · iexact HSI
    isplitl [HX]; · iexact HX
    isplitl [HL] <;> iassumption
  icases H with ⟨%ha, HSI, -⟩
  ihave H := (persistent_entails_right (read_res m c s')) $$ [HSI HY1 HY2 HLo]
  · isplitl [HSI]; · iexact HSI
    isplitl [HY1]; · iexact HY1
    isplitl [HY2] <;> iassumption
  icases H with ⟨%hr, HSI, -⟩
  imodintro
  isplitr
  · ipureintro; exact ⟨hr, ha⟩
  · iexact HSI

/-! ## Entry: the ghost half and the memory half together

The memory half of a device's entry resources: the pieces of its argument array at the launch contents, the pieces of
its result array (the chunks its two neighbours will write, handed over with its entry signals; the destinations of its
own local copies) at whatever they hold, and the two staging slots. -/

def entryM (c : Dev nD) : sProp 𝕄 :=
  iprop(((bigSep Finset.univ fun k : Fin 64 => pts c (xSrc c k) (inA m c))
      ∗ (bigSep Finset.univ fun j : Fin 8 => pts c (lSrc (lOff c j) (lOff_inb c j)) (inA m c)) ∗ RestA m c)
    ∗ (barPayX (xn c) ∗ barPayY (yn c) ∗ bigSep Finset.univ fun j : Fin 8 => iprop(∃ f, pts c (lDst c j) f))
    ∗ ((∃ f, pts c (stg 0) f) ∗ (∃ f, pts c (stg 1) f)))

omit [FloatOps F] in
theorem sep_assoc3 (A B C : sProp 𝕄) : iprop((A ∗ B) ∗ C) ⊢ iprop(A ∗ B ∗ C) := by
  iintro ⟨⟨H1, H2⟩, H3⟩
  isplitl [H1]; · iexact H1
  isplitl [H2] <;> iassumption

omit [FloatOps F] in
theorem sep_assoc4 (A B C D : sProp 𝕄) : iprop((A ∗ B) ∗ C ∗ D) ⊢ iprop(A ∗ B ∗ C ∗ D) := by
  iintro ⟨⟨H1, H2⟩, H3, H4⟩
  isplitl [H1]; · iexact H1
  isplitl [H2]; · iexact H2
  isplitl [H3] <;> iassumption

theorem filter_zero_le : (Finset.univ.filter fun i : Fin 8 => 0 ≤ i.val) = Finset.univ :=
  Finset.filter_true_of_mem fun i _ => Nat.zero_le _

theorem entry_of_halves (K : Dev nD × Fin 261 → ℕ) (c : Dev nD) : iprop(entryG m K c ∗ entryM m c) ⊢ entry m K c := by
  have hGX : iprop((bigSep Finset.univ fun k : Fin 64 => iprop(dutyTok ER (sxCell c k) 0 false ∗ dutyTok ER (rxCell (xn c) k) 0 false))
      ∗ (bigSep Finset.univ fun k : Fin 64 => pts c (xSrc c k) (inA m c))) ⊢ GXtok m c 0 := by
    unfold GXtok
    rw [seg_zero, ← bigSep_sep']
    exact bigSep_mono fun k _ => sep_assoc3 _ _ _
  have hGL : iprop((bigSep Finset.univ fun i : Fin 8 => iprop(dutyTok ER (linCell c (slotOf i)) (roundOf i) false ∗ dutyTok ER (loutCell c (slotOf i)) (roundOf i) false))
      ∗ (bigSep Finset.univ fun j : Fin 8 => pts c (lSrc (lOff c j) (lOff_inb c j)) (inA m c))
      ∗ (bigSep Finset.univ fun j : Fin 8 => iprop(∃ f, pts c (lDst c j) f))) ⊢ GLtok m c 0 := by
    unfold GLtok
    rw [filter_zero_le, ← bigSep_sep', ← bigSep_sep']
    exact bigSep_mono fun i _ => sep_assoc4 _ _ _ _
  unfold entryG entryM entry SlotIdle
  iintro ⟨⟨Hrec, Hlev, HtX, HtY, HaB, HcB, HtokX, HposX, HtokY, HposY, HRX, HRY, HtokL, ⟨Hl0, Ho0⟩, ⟨Hl1, Ho1⟩⟩, ⟨HpX, HpL, HRest⟩, ⟨HbX, HbY, HdL⟩, ⟨Hs0, Hs1⟩⟩
  isplitl [Hrec]; · iexact Hrec
  isplitl [Hlev]; · iexact Hlev
  isplitl [HtX]; · iexact HtX
  isplitl [HtY]; · iexact HtY
  isplitl [HbX]; · iexact HbX
  isplitl [HbY]; · iexact HbY
  isplitl [HaB]; · iexact HaB
  isplitl [HcB]; · iexact HcB
  isplitl [HtokX HpX]
  · iapply hGX; isplitl [HtokX] <;> iassumption
  isplitl [HposX]; · iexact HposX
  isplitl [HtokY]; · iexact HtokY
  isplitl [HposY]; · iexact HposY
  isplitl [HRX]; · iexact HRX
  isplitl [HRY]; · iexact HRY
  isplitl [HtokL HpL HdL]
  · iapply hGL
    isplitl [HtokL]; · iexact HtokL
    isplitl [HpL] <;> iassumption
  isplitl [Hs0 Hl0 Ho0]
  · isplitl [Hs0]; · iexact Hs0
    isplitl [Hl0] <;> iassumption
  isplitl [Hs1 Hl1 Ho1]
  · isplitl [Hs1]; · iexact Hs1
    isplitl [Hl1] <;> iassumption
  iexact HRest

/-! ## The launch theorem's memory steps

At the launch each device is handed its two arrays whole at the launch contents, its staging scratch whole at some
contents, and (from the ghost side) the ghost half of its entry resources. The arrays are cut into the pieces before
the body, the scratch when the body is entered; at the exit the scratch is put back together and the pieces of the two
arrays are kept for the final reading. -/

/-- The kernel's own (scoped) semaphores: the 260 copy semaphores. -/
abbrev osem' : Fin 260 → SemLoc sig := fun i => .dma i

/-- What a device holds between the launch and its body: the ghost half of its entry resources and the pieces of its
    two arrays. -/
def Xc (c : Dev nD) : sProp 𝕄 :=
  iprop((∃ K, entryG m K c)
    ∗ ((bigSep Finset.univ fun k : Fin 64 => pts c (xSrc c k) (inA m c))
      ∗ (bigSep Finset.univ fun j : Fin 8 => pts c (lSrc (lOff c j) (lOff_inb c j)) (inA m c)) ∗ RestA m c)
    ∗ (barPayX (xn c) ∗ barPayY (yn c) ∗ bigSep Finset.univ fun j : Fin 8 => iprop(∃ f, pts c (lDst c j) f)))

theorem start_intro (G' : Dev nD → sProp 𝕄)
    (ghost_start : ∀ c : Dev nD, iprop(levAts L lv ∗ Pipeline.launchCred O₀ c ∗ G' c) ⊢ (iprop(∃ K, entryG m K c) : sProp 𝕄))
    (arg_split : ∀ c : Dev nD, (((c : Thread nD τ).loc main_arg0) ↦{fullShare} inA m c : sProp 𝕄)
      ⊢ iprop((bigSep Finset.univ fun k : Fin 64 => pts c (xSrc c k) (inA m c))
          ∗ (bigSep Finset.univ fun j : Fin 8 => pts c (lSrc (lOff c j) (lOff_inb c j)) (inA m c)) ∗ RestA m c))
    (res_split : ∀ (c : Dev nD) (f : Buf (Elt F) ((c : Thread nD τ).loc main_v1)), (((c : Thread nD τ).loc main_v1) ↦{fullShare} f : sProp 𝕄)
      ⊢ iprop(barPayX (xn c) ∗ barPayY (yn c) ∗ bigSep Finset.univ fun j : Fin 8 => iprop(∃ f', pts c (lDst c j) f')))
    (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' c)
      ⊢ |={Set.univ}=> iprop(Xc m c ∗ emp) := by
  rw [Pipeline.unscopedRestP_none, unscopedRest0_eq]
  iintro ⟨⟨HA, HR⟩, Hlev, Hcr, -, HG⟩
  ihave HE := (ghost_start c) $$ [Hlev Hcr HG]
  · isplitl [Hlev]; · iexact Hlev
    isplitl [Hcr] <;> iassumption
  ihave HA' := (arg_split c) $$ HA
  ihave HR' := (res_split c (m ((c : Thread nD τ).loc main_v1))) $$ HR
  imodintro
  unfold Xc
  isplitl
  · isplitl [HE]; · iexact HE
    isplitl [HA'] <;> iassumption
  · iempintro

theorem phi0_intro
    (stg_split : ∀ (c : Dev nD) (f : Buf (Elt F) ((c : Thread nD τ).loc cc0_scratch0)), (((c : Thread nD τ).loc cc0_scratch0) ↦{fullShare} f : sProp 𝕄)
      ⊢ iprop((∃ f', pts c (stg 0) f') ∗ (∃ f', pts c (stg 1) f')))
    (c : Dev nD) :
    iprop(Xc m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Xc
  iintro ⟨⟨⟨%K, HG⟩, HA, HR⟩, -, ⟨%f, Hs⟩⟩
  ihave Hs' := (stg_split c f) $$ Hs
  iexists K
  iapply (entry_of_halves m K c)
  unfold entryM
  isplitl [HG]; · iexact HG
  isplitl [HA]; · iexact HA
  isplitl [HR] <;> iassumption

theorem phi1_exit
    (exit_sems : ∀ c : Dev nD, Φ₁ m c ⊢ iprop(Pipeline.ownSems0 (Ix := Unit) (Name := ℕ) (U := UU) (Lvl := ℕ) (Val := Elt F) (τ := τ) osem' c
        ∗ (bigSep Finset.univ fun k : Fin 64 => pts c (xSrc c k) (inA m c))
        ∗ (bigSep Finset.univ fun k : Fin 64 => pts c (yBuf c k) (outFinal m c))
        ∗ (bigSep Finset.univ fun k : Fin 64 => pts c (yBuf (yn c) k) (outFinal m c))
        ∗ GLsrc m c 8 ∗ GLout m c 8 ∗ (∃ f, pts c (stg 0) f) ∗ (∃ f, pts c (stg 1) f) ∗ RestA m c))
    (stg_join : ∀ c : Dev nD, iprop((∃ f', pts c (stg 0) f') ∗ (∃ f', pts c (stg 1) f'))
      ⊢ (iprop(∃ f : Buf (Elt F) ((c : Thread nD τ).loc cc0_scratch0), ((c : Thread nD τ).loc cc0_scratch0) ↦{fullShare} f) : sProp 𝕄))
    (c : Dev nD) :
    (dats m 0 c).Φ (Fin.last cfg0.N) ⊢ iprop(Yc m c ∗ Pipeline.ownSems0 osem' c ∗ Pipeline.scopedRest cfg0.spec c) := by
  rw [show (dats m 0 c).Φ (Fin.last cfg0.N) = Φ₁ m c from rfl, scopedRest0_eq]
  refine (exit_sems c).trans ?_
  unfold Yc
  iintro ⟨Hsem, HX, HY1, HY2, HLs, HLo, Hs0, Hs1, HR⟩
  isplitl [HX HY1 HY2 HLs HLo HR]
  · isplitl [HX]; · iexact HX
    isplitl [HY1]; · iexact HY1
    isplitl [HY2]; · iexact HY2
    isplitl [HLs]; · iexact HLs
    isplitl [HLo] <;> iassumption
  isplitl [Hsem]; · iexact Hsem
  iapply (stg_join c)
  isplitl [Hs0] <;> iassumption

/-! ## The run -/

set_option maxRecDepth 8000 in
/-- From any memory with zero counters, every fair run of the program on the four devices ends, faults nowhere, leaves
    each argument array as it was and each result array holding the final contents — given the body obligation, the
    ghost side of the launch, the cuts of the three buffers and the regrouping of the exit's counters. -/
theorem run_main_of
    (hbody : ∀ c : Dev nD, BodyObligation (dats (F := F) m 0 c) (defs₀ (F := F)) 𝒱₀ () Set.univ)
    (ownSemFacts' : Pipeline.OwnSemFacts cfg0.spec osem')
    (G G' : Dev nD → sProp 𝕄) (u₂ : UB)
    (hfund : BI.own (ER u₂) ⊢ (|==> bigSep Finset.univ G : sProp 𝕄))
    (hglob : (bigSep Finset.univ fun c : Dev nD => iprop(Pipeline.ownSems0 (Ix := Unit) (Name := ℕ) (U := UU) (Lvl := ℕ) (Val := Elt F) (τ := τ) osem' c
        ∗ unscopedSems0 c ∗ G c) : sProp 𝕄) ⊢ |={Set.univ}=> bigSep Finset.univ G')
    (ghost_start : ∀ c : Dev nD, iprop(levAts L lv ∗ Pipeline.launchCred O₀ c ∗ G' c) ⊢ (iprop(∃ K, entryG m K c) : sProp 𝕄))
        (arg_split : ∀ c : Dev nD, (((c : Thread nD τ).loc main_arg0) ↦{fullShare} inA m c : sProp 𝕄)
      ⊢ iprop((bigSep Finset.univ fun k : Fin 64 => pts c (xSrc c k) (inA m c))
          ∗ (bigSep Finset.univ fun j : Fin 8 => pts c (lSrc (lOff c j) (lOff_inb c j)) (inA m c)) ∗ RestA m c))
    (res_split : ∀ (c : Dev nD) (f : Buf (Elt F) ((c : Thread nD τ).loc main_v1)), (((c : Thread nD τ).loc main_v1) ↦{fullShare} f : sProp 𝕄)
      ⊢ iprop(barPayX (xn c) ∗ barPayY (yn c) ∗ bigSep Finset.univ fun j : Fin 8 => iprop(∃ f', pts c (lDst c j) f')))
    (stg_split : ∀ (c : Dev nD) (f : Buf (Elt F) ((c : Thread nD τ).loc cc0_scratch0)), (((c : Thread nD τ).loc cc0_scratch0) ↦{fullShare} f : sProp 𝕄)
      ⊢ iprop((∃ f', pts c (stg 0) f') ∗ (∃ f', pts c (stg 1) f')))
    (stg_join : ∀ c : Dev nD, iprop((∃ f', pts c (stg 0) f') ∗ (∃ f', pts c (stg 1) f'))
      ⊢ (iprop(∃ f : Buf (Elt F) ((c : Thread nD τ).loc cc0_scratch0), ((c : Thread nD τ).loc cc0_scratch0) ↦{fullShare} f) : sProp 𝕄))
    (exit_sems : ∀ c : Dev nD, Φ₁ m c ⊢ iprop(Pipeline.ownSems0 (Ix := Unit) (Name := ℕ) (U := UU) (Lvl := ℕ) (Val := Elt F) (τ := τ) osem' c
        ∗ (bigSep Finset.univ fun k : Fin 64 => pts c (xSrc c k) (inA m c))
        ∗ (bigSep Finset.univ fun k : Fin 64 => pts c (yBuf c k) (outFinal m c))
        ∗ (bigSep Finset.univ fun k : Fin 64 => pts c (yBuf (yn c) k) (outFinal m c))
        ∗ GLsrc m c 8 ∗ GLout m c 8 ∗ (∃ f, pts c (stg 0) f) ∗ (∃ f, pts c (stg 1) f) ∗ RestA m c)) :
    θ_run (defs (F := F)) (onTc (τ := τ) (main (F := F))) ⟨m, fun _ => 0, ρ⟩
      (fun r => ∀ c : Dev nD, r.2.mem ((c.tc : Thread nD τ).loc main_v1) = outFinal m c
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts' (Pipeline.PreFacts.none _) EP defs₀ 𝒱₀ m ρ main
    (hmain := fun c => (main_chain c).trans rfl)
    (hbody := fun c => (hbody c).loose) (hne := block_pos0) (harr := arr_whole0) (hstage := stage_whole0)
    (hshare := fun c w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w s t => w.elim0)
    (G := G) (G' := G') (u₀ := (initOf (Pipeline.cells cfgs cellOf_inj) (Pipeline.launchToks cfgs cellOf_inj), u₂))
    (hu₀ := by
      iintro Hu
      ihave H := (ownU_pair _ _) $$ Hu
      icases H with ⟨HP, HX⟩
      imod hfund $$ HX with HG
      imodintro
      isplitl [HP] <;> iassumption)
    (hglob := hglob)
    (hA := fun _ w => w.elim0) (hpf := fun _ k => k.elim0)
    (X := Xc m) (Y := Yc m) (Z := fun _ => iprop(emp))
    (hX := start_intro m ρ G' ghost_start arg_split res_split) (hin := phi0_intro m stg_split) (hout := phi1_exit m exit_sems stg_join)
    (QY := QY m)
    (hY := read_Y m)
    (hQ := fun s h c => (h c).2.2)

/-- The same with the cuts of the three buffers and the exit's counters filled in: what remains is the body obligation
    and the ghost side of the launch. -/
theorem run_main_of_ghost
    (hbody : ∀ c : Dev nD, BodyObligation (dats (F := F) m 0 c) (defs₀ (F := F)) 𝒱₀ () Set.univ)
    (ownSemFacts' : Pipeline.OwnSemFacts cfg0.spec osem')
    (G G' : Dev nD → sProp 𝕄) (u₂ : UB)
    (hfund : BI.own (ER u₂) ⊢ (|==> bigSep Finset.univ G : sProp 𝕄))
    (hglob : (bigSep Finset.univ fun c : Dev nD => iprop(Pipeline.ownSems0 (Ix := Unit) (Name := ℕ) (U := UU) (Lvl := ℕ) (Val := Elt F) (τ := τ) osem' c
        ∗ unscopedSems0 c ∗ G c) : sProp 𝕄) ⊢ |={Set.univ}=> bigSep Finset.univ G')
    (ghost_start : ∀ c : Dev nD, iprop(levAts L lv ∗ Pipeline.launchCred O₀ c ∗ G' c) ⊢ (iprop(∃ K, entryG m K c) : sProp 𝕄)) :
    θ_run (defs (F := F)) (onTc (τ := τ) (main (F := F))) ⟨m, fun _ => 0, ρ⟩
      (fun r => ∀ c : Dev nD, r.2.mem ((c.tc : Thread nD τ).loc main_v1) = outFinal m c
        ∧ r.2.mem ((c.tc : Thread nD τ).loc main_arg0) = m ((c.tc : Thread nD τ).loc main_arg0)) :=
  run_main_of m ρ hbody ownSemFacts' G G' u₂ hfund hglob ghost_start (arg_split m) res_split stg_split stg_join (exit_sems m)

/-- The same with the ghost side of the launch filled in: what remains is the body obligation. -/
theorem run_main_of_body
    (hbody : ∀ c : Dev nD, BodyObligation (dats (F := F) m 0 c) (defs₀ (F := F)) 𝒱₀ () Set.univ) :
    θ_run (defs (F := F)) (onTc (τ := τ) (main (F := F))) ⟨m, fun _ => 0, ρ⟩
      (fun r => ∀ c : Dev nD, r.2.mem ((c.tc : Thread nD τ).loc main_v1) = outFinal m c
        ∧ r.2.mem ((c.tc : Thread nD τ).loc main_arg0) = m ((c.tc : Thread nD τ).loc main_arg0)) :=
  run_main_of_ghost m ρ hbody ownSemFacts (G m) (G' m) (initOf a2aCells a2aToks) (fund_a2a m) (glob m) (ghost_start m)

/-- info: 'Cert.Kernel.A2A.read_Y' depends on axioms: [propext, Classical.choice, Quot.sound] -/
#guard_msgs in #print axioms read_Y

/-- info: 'Cert.Kernel.A2A.run_main_of' depends on axioms: [propext, Classical.choice, Quot.sound] -/
#guard_msgs in #print axioms run_main_of
/-- info: 'Cert.Kernel.A2A.run_main_of_ghost' depends on axioms: [propext, Classical.choice, Quot.sound] -/
#guard_msgs in #print axioms run_main_of_ghost
/-- info: 'Cert.Kernel.A2A.run_main_of_body' depends on axioms: [propext, Classical.choice, Quot.sound] -/
#guard_msgs in #print axioms run_main_of_body

end Cert.Kernel.A2A

end
-- ==== Proof.Kernel.BodyOb.lean ====
import proofs.«900013_g7700000000000014_dist_a2a_v7x_xy2x2_x_m16384_n1024_f32_1_alg».proof.Proof.Kernel.Body0

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The body obligation: the pipeline has no window, so it is the body's run from the entry resources -/

omit [FloatOps F] in
/-- There is no window: a separating conjunction over the windows is empty. -/
theorem AO_bigSep_W (Φ : Fin cfg0.W → sProp 𝕄) : bigSep Finset.univ Φ = iprop(emp) := by
  haveI : IsEmpty (Fin cfg0.W) := (inferInstance : IsEmpty (Fin 0))
  rw [Finset.univ_eq_empty]; rfl

omit [FloatOps F] in
theorem AO_Φ_pre (m : (ℓ : Loc nD τ sig) → Buf (Elt F) ℓ) (c : Dev nD) : (dats m 0 c).Φ t₀.castSucc = Φ₀ m c := rfl
omit [FloatOps F] in
theorem AO_Φ_post (m : (ℓ : Loc nD τ sig) → Buf (Elt F) ℓ) (c : Dev nD) : (dats m 0 c).Φ t₀.succ = Φ₁ m c := rfl
/-- The body as the pipeline calls it at the one point. -/
theorem AO_body : (defs₀ (F := F)) .tc cfg0.body (cfg0.bodyArgs t₀ (cfg0.slots t₀))
    = cc0_body (Memref.whole main_arg0) (Memref.isWhole_whole _) (Memref.whole main_v1) (Memref.isWhole_whole _)
        (Memref.whole cc0_scratch0) (Memref.isWhole_whole _) cc0_scratch1 cc0_scratch2 cc0_scratch3 cc0_scratch4 cc0_scratch5 cc0_scratch6 := rfl

set_option maxRecDepth 8000 in
/-- The library's body obligation on device `c`, from the body's run. -/
theorem body_obligation (m : (ℓ : Loc nD τ sig) → Buf (Elt F) ℓ)
    (hsound : ∀ (K : Dev nD × Fin 261 → ℕ) (c : Dev nD) (Kt : PUnit → sProp 𝕄),
      iprop(bodyPre m K c ∗ (bodyPost m c -∗ Kt ⟨⟩))
        ⊢ wp frame (wpE (defs₀ (F := F)) 𝒱₀ (c : Thread nD τ) none) Set.univ
            (cc0_body (Memref.whole main_arg0) (Memref.isWhole_whole _) (Memref.whole main_v1) (Memref.isWhole_whole _)
              (Memref.whole cc0_scratch0) (Memref.isWhole_whole _) cc0_scratch1 cc0_scratch2 cc0_scratch3 cc0_scratch4 cc0_scratch5 cc0_scratch6) Kt)
    (c : Dev nD) : BodyObligation (dats (F := F) m 0 c) (defs₀ (F := F)) 𝒱₀ () Set.univ := fun t => by
  rw [fin_N t]
  rw [AO_bigSep_W, AO_bigSep_W, AO_Φ_pre, AO_Φ_post, AO_body]
  unfold Φ₀
  iintro ⟨⟨%K, He⟩, Ho, -⟩
  iapply (hsound K c fun _ => iprop(Φ₁ m c ∗ (dats m 0 c).owesAt () t₀.succ ∗ emp))
  unfold bodyPre bodyPost
  isplitl [He Ho]
  · isplitl [He]; · iexact He
    iexact Ho
  · iintro ⟨H1, H2⟩
    isplitl [H1]; · iexact H1
    isplitl [H2]; · iexact H2
    iempintro

/-- info: 'Cert.Kernel.A2A.body_obligation' depends on axioms: [propext, Classical.choice, Quot.sound] -/
#guard_msgs in #print axioms body_obligation

end Cert.Kernel.A2A

end
-- ==== Proof.Kernel.Levels.lean ====
import proofs.«900013_g7700000000000014_dist_a2a_v7x_xy2x2_x_m16384_n1024_f32_1_alg».proof.Proof.Kernel.Body0

/-!
  Why no wait of the exchange can deadlock: the levels.

  A device may wait on one of its cells only if that cell lies strictly below, in level, every cell it still owes
  units to. What a device owes, at any moment, is receive credit of its two neighbours: chunks of the row exchange to
  the `x`-neighbour's row-receive cells (level 2) and chunks of the column exchange to the `y`-neighbour's
  column-receive cells (level 3). So the entry wait on the barrier cell (level 1) is below all of it; a wait on an own
  row-receive cell (level 2) is allowed once every row chunk has been sent, when only column chunks (level 3) are
  owed; and every other cell (level 0: the local copies' and the two exchanges' send cells) may be waited on whatever
  is still owed.
-/

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The level of each kind of cell -/

theorem lv_bar (c : Dev nD) (u : Unit) : lv (barCell c) u = 1 := by simp only [lv, classify_bar]
theorem lv_rx (c : Dev nD) (k : Fin 64) (u : Unit) : lv (rxCell c k) u = 2 := by simp only [lv, classify_rx]
theorem lv_ry (c : Dev nD) (k : Fin 64) (u : Unit) : lv (ryCell c k) u = 3 := by simp only [lv, classify_ry]
theorem lv_lin (c : Dev nD) (s : Fin 2) (u : Unit) : lv (linCell c s) u = 0 := by simp only [lv, classify_lin]
theorem lv_lout (c : Dev nD) (s : Fin 2) (u : Unit) : lv (loutCell c s) u = 0 := by simp only [lv, classify_lout]
theorem lv_sx (c : Dev nD) (k : Fin 64) (u : Unit) : lv (sxCell c k) u = 0 := by simp only [lv, classify_sx]
theorem lv_sy (c : Dev nD) (k : Fin 64) (u : Unit) : lv (syCell c k) u = 0 := by simp only [lv, classify_sy]

/-- Every cell of a device's core carries the one index. -/
theorem mem_L (c : Dev nD) (sm : SemLoc sig) (u : Unit) : u ∈ L ((c : Thread nD τ), sm) := by
  rw [L_tc]; exact Finset.mem_singleton.mpr rfl

/-! ## Where what is owed is positive: only at a neighbour's receive cell -/

/-- What the row exchange still owes is positive only at a row-receive cell of the `x`-neighbour; -/
theorem OX_pos {c : Dev nD} {a : ℕ} {g : GSem nD τ sig} {u : Unit} (h : 0 < OX c a g u) :
    ∃ k : Fin 64, g = rxCell (xn c) k := by
  unfold OX at h
  obtain ⟨k, _, hk⟩ := Pipeline.sum_pos_exists h
  exact ⟨k, (Pipeline.tallyAt_pos hk).1⟩

/-- what the column exchange still owes, only at a column-receive cell of the `y`-neighbour. -/
theorem OY_pos {c : Dev nD} {b : ℕ} {g : GSem nD τ sig} {u : Unit} (h : 0 < OY c b g u) :
    ∃ k : Fin 64, g = ryCell (yn c) k := by
  unfold OY at h
  obtain ⟨k, _, hk⟩ := Pipeline.sum_pos_exists h
  exact ⟨k, (Pipeline.tallyAt_pos hk).1⟩

/-- With every chunk of both exchanges sent, nothing is owed. -/
theorem owes_top (c : Dev nD) : OX c 64 + OY c 64 = 0 := by rw [OX_top, OY_top, add_zero]

/-! ## The waits -/

omit [FloatOps F] in
/-- The entry wait: the barrier cell (level 1) is below every receive cell of either exchange (levels 2 and 3). -/
theorem mayWait_bar (c : Dev nD) :
    (levAts L lv : sProp 𝕄) ⊢ MayWait (c : Thread nD τ) (.reg barS) () (OX c 0 + OY c 0) :=
  Pipeline.mayWait_of_levAts (mem_L c _ _) fun g u hg => by
    rcases Pipeline.add_pos_cases hg with h | h
    · obtain ⟨k, rfl⟩ := OX_pos h
      refine ⟨mem_L _ _ _, ?_⟩
      show lv (barCell c) () < lv (rxCell (xn c) k) u
      rw [lv_bar, lv_rx]; decide
    · obtain ⟨k, rfl⟩ := OY_pos h
      refine ⟨mem_L _ _ _, ?_⟩
      show lv (barCell c) () < lv (ryCell (yn c) k) u
      rw [lv_bar, lv_ry]; decide

omit [FloatOps F] in
/-- A wait on an own row-receive cell (level 2), every row chunk sent: only column chunks are owed, to column-receive
    cells (level 3). -/
theorem mayWait_rx (c : Dev nD) (k : Fin 64) (b : ℕ) :
    (levAts L lv : sProp 𝕄) ⊢ MayWait (c : Thread nD τ) (.dma (rxS k).sem) () (OX c 64 + OY c b) := by
  rw [OX_top, zero_add]
  exact Pipeline.mayWait_of_levAts (mem_L c _ _) fun g u hg => by
    obtain ⟨j, rfl⟩ := OY_pos hg
    refine ⟨mem_L _ _ _, ?_⟩
    show lv (rxCell c k) () < lv (ryCell (yn c) j) u
    rw [lv_rx, lv_ry]; decide

omit [FloatOps F] in
/-- A wait on a cell of the lowest level, whatever of the two exchanges is still owed. -/
theorem mayWait_low (c : Dev nD) (q : DmaSem sig) (hq : lv ((c : Thread nD τ), .dma q) () = 0) (a b : ℕ) :
    (levAts L lv : sProp 𝕄) ⊢ MayWait (c : Thread nD τ) (.dma q) () (OX c a + OY c b) :=
  Pipeline.mayWait_of_levAts (mem_L c _ _) fun g u hg => by
    rcases Pipeline.add_pos_cases hg with h | h
    · obtain ⟨k, rfl⟩ := OX_pos h
      refine ⟨mem_L _ _ _, ?_⟩
      rw [hq, lv_rx]; decide
    · obtain ⟨k, rfl⟩ := OY_pos h
      refine ⟨mem_L _ _ _, ?_⟩
      rw [hq, lv_ry]; decide

omit [FloatOps F] in
/-- Its instances: the local copies' cells and the two exchanges' send cells. -/
theorem mayWait_lin (c : Dev nD) (s : Fin 2) (a b : ℕ) :
    (levAts L lv : sProp 𝕄) ⊢ MayWait (c : Thread nD τ) (.dma (linS s).sem) () (OX c a + OY c b) :=
  mayWait_low c _ (lv_lin c s ()) a b
omit [FloatOps F] in
theorem mayWait_lout (c : Dev nD) (s : Fin 2) (a b : ℕ) :
    (levAts L lv : sProp 𝕄) ⊢ MayWait (c : Thread nD τ) (.dma (loutS s).sem) () (OX c a + OY c b) :=
  mayWait_low c _ (lv_lout c s ()) a b
omit [FloatOps F] in
theorem mayWait_sx (c : Dev nD) (k : Fin 64) (a b : ℕ) :
    (levAts L lv : sProp 𝕄) ⊢ MayWait (c : Thread nD τ) (.dma (sxS k).sem) () (OX c a + OY c b) :=
  mayWait_low c _ (lv_sx c k ()) a b
omit [FloatOps F] in
theorem mayWait_sy (c : Dev nD) (k : Fin 64) (a b : ℕ) :
    (levAts L lv : sProp 𝕄) ⊢ MayWait (c : Thread nD τ) (.dma (syS k).sem) () (OX c a + OY c b) :=
  mayWait_low c _ (lv_sy c k ()) a b

/-! ## The pipeline's own waits

  The kernel's one region stages no array through a window, so the pipeline around the body waits on no cell of its
  own: the evidence asked for every window, slot and point ranges over no window at all. -/

omit [FloatOps F] in
theorem hwaits (m : (ℓ : Loc nD τ sig) → Buf (Elt F) ℓ) (c : Dev nD) :
    (levAts L lv : sProp 𝕄) ⊢ Pipeline.cellsWaits cfgs (dats m) () 0 c :=
  Pipeline.cellsWaits_intro cfgs (dats m) () 0 c fun w => w.elim0

end Cert.Kernel.A2A

end

/-- info: 'Cert.Kernel.A2A.mayWait_bar' depends on axioms: [propext, Classical.choice, Quot.sound] -/
#guard_msgs in #print axioms Cert.Kernel.A2A.mayWait_bar
/-- info: 'Cert.Kernel.A2A.mayWait_rx' depends on axioms: [propext, Classical.choice, Quot.sound] -/
#guard_msgs in #print axioms Cert.Kernel.A2A.mayWait_rx
/-- info: 'Cert.Kernel.A2A.mayWait_low' depends on axioms: [propext, Classical.choice, Quot.sound] -/
#guard_msgs in #print axioms Cert.Kernel.A2A.mayWait_low
/-- info: 'Cert.Kernel.A2A.hwaits' depends on axioms: [propext, Classical.choice, Quot.sound] -/
#guard_msgs in #print axioms Cert.Kernel.A2A.hwaits
-- ==== Proof.Kernel.Common.lean ====
import proofs.«900013_g7700000000000014_dist_a2a_v7x_xy2x2_x_m16384_n1024_f32_1_alg».proof.Proof.Kernel.State

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## After round 0 an exchange cell has no duty -/

omit [FloatOps F] in
theorem duties_later_sx (c : Dev nD) (k : Fin 64) (r : ℕ) (hr : 1 ≤ r) : (a2aRd (F := F) m).duties (sxCell c k) r = ∅ := by
  have h0 : r ≠ 0 := by omega
  simp only [a2aRd, classify_sx, if_true, if_neg h0]
omit [FloatOps F] in
theorem duties_later_rx (c : Dev nD) (k : Fin 64) (r : ℕ) (hr : 1 ≤ r) : (a2aRd (F := F) m).duties (rxCell c k) r = ∅ := by
  have h0 : r ≠ 0 := by omega
  simp only [a2aRd, classify_rx, if_true, if_neg h0]
omit [FloatOps F] in
theorem duties_later_sy (c : Dev nD) (k : Fin 64) (r : ℕ) (hr : 1 ≤ r) : (a2aRd (F := F) m).duties (syCell c k) r = ∅ := by
  have h0 : r ≠ 0 := by omega
  simp only [a2aRd, classify_sy, if_true, if_neg h0]
omit [FloatOps F] in
theorem duties_later_ry (c : Dev nD) (k : Fin 64) (r : ℕ) (hr : 1 ≤ r) : (a2aRd (F := F) m).duties (ryCell c k) r = ∅ := by
  have h0 : r ≠ 0 := by omega
  simp only [a2aRd, classify_ry, if_true, if_neg h0]

/-! ## What round 0 of an exchange cell delivers in all: one chunk's credit -/

omit [FloatOps F] in
theorem expect_sx (c : Dev nD) (k : Fin 64) : (a2aRd (F := F) m).expect (sxCell c k) 0 = N128 := by
  unfold Schedule.expect Schedule.amountOf; rw [duties_sx, Finset.sum_singleton, amount_sx]
omit [FloatOps F] in
theorem expect_rx (c : Dev nD) (k : Fin 64) : (a2aRd (F := F) m).expect (rxCell c k) 0 = N128 := by
  unfold Schedule.expect Schedule.amountOf; rw [duties_rx, Finset.sum_singleton, amount_rx]
omit [FloatOps F] in
theorem expect_sy (c : Dev nD) (k : Fin 64) : (a2aRd (F := F) m).expect (syCell c k) 0 = N128 := by
  unfold Schedule.expect Schedule.amountOf; rw [duties_sy, Finset.sum_singleton, amount_sy]
omit [FloatOps F] in
theorem expect_ry (c : Dev nD) (k : Fin 64) : (a2aRd (F := F) m).expect (ryCell c k) 0 = N128 := by
  unfold Schedule.expect Schedule.amountOf; rw [duties_ry, Finset.sum_singleton, amount_ry]

/-! ## The payloads of the whole of round 0 of an exchange cell: its one duty's -/

omit [FloatOps F] in
theorem rest_sx (c : Dev nD) (k : Fin 64) :
    bigSep ((a2aRd (F := F) m).duties (sxCell c k) 0 \ ∅) (fun d => (a2aRd (F := F) m).payload (sxCell c k) 0 d) = sxPay m c k := by
  rw [Finset.sdiff_empty, duties_sx, bigSep_singleton, payload_sx]
omit [FloatOps F] in
theorem rest_rx (c : Dev nD) (k : Fin 64) :
    bigSep ((a2aRd (F := F) m).duties (rxCell c k) 0 \ ∅) (fun d => (a2aRd (F := F) m).payload (rxCell c k) 0 d) = rxPay m c k := by
  rw [Finset.sdiff_empty, duties_rx, bigSep_singleton, payload_rx]
omit [FloatOps F] in
theorem rest_sy (c : Dev nD) (k : Fin 64) :
    bigSep ((a2aRd (F := F) m).duties (syCell c k) 0 \ ∅) (fun d => (a2aRd (F := F) m).payload (syCell c k) 0 d) = syPay m c k := by
  rw [Finset.sdiff_empty, duties_sy, bigSep_singleton, payload_sy]
omit [FloatOps F] in
theorem rest_ry (c : Dev nD) (k : Fin 64) :
    bigSep ((a2aRd (F := F) m).duties (ryCell c k) 0 \ ∅) (fun d => (a2aRd (F := F) m).payload (ryCell c k) 0 d) = ryPay m c k := by
  rw [Finset.sdiff_empty, duties_ry, bigSep_singleton, payload_ry]

/-! ## A cell's invariant and its reached round 0, out of the records -/

omit [FloatOps F] in
theorem inv_at (K : Dev nD × Fin 261 → ℕ) (ck : Dev nD × Fin 261) :
    records m K ⊢ cellInv ER (a2aRd m) (K ck) (kcell ck) := by
  unfold records
  have h : (bigSep Finset.univ fun ck : Dev nD × Fin 261 => iprop(cellInv ER (a2aRd m) (K ck) (kcell ck) ∗ reached ER (kcell ck) 0) : sProp 𝕄)
      ⊢ iprop(cellInv ER (a2aRd m) (K ck) (kcell ck) ∗ reached ER (kcell ck) 0) := bigSep_elim (Finset.mem_univ ck)
  exact h.trans sep_elim_left
omit [FloatOps F] in
theorem reached_at (K : Dev nD × Fin 261 → ℕ) (ck : Dev nD × Fin 261) :
    records m K ⊢ reached ER (kcell ck) 0 := by
  unfold records
  have h : (bigSep Finset.univ fun ck : Dev nD × Fin 261 => iprop(cellInv ER (a2aRd m) (K ck) (kcell ck) ∗ reached ER (kcell ck) 0) : sProp 𝕄)
      ⊢ iprop(cellInv ER (a2aRd m) (K ck) (kcell ck) ∗ reached ER (kcell ck) 0) := bigSep_elim (Finset.mem_univ ck)
  exact h.trans sep_elim_right

omit [FloatOps F] in
/-- The same at a DMA semaphore's cell, spelt as the rules spell it. -/
theorem inv_dma (K : Dev nD × Fin 261 → ℕ) (c : Dev nD) (q : DmaSem sig) :
    records m K ⊢ cellInv ER (a2aRd m) (K (c, ixDma q)) ((c : Thread nD τ), .dma q) := by
  have h := inv_at m K (c, ixDma q); rwa [kcell_dma] at h
omit [FloatOps F] in
theorem reached_dma (K : Dev nD × Fin 261 → ℕ) (c : Dev nD) (q : DmaSem sig) :
    records m K ⊢ reached ER ((c : Thread nD τ), .dma q) 0 := by
  have h := reached_at m K (c, ixDma q); rwa [kcell_dma] at h
omit [FloatOps F] in
/-- At the barrier's cell. -/
theorem inv_bar (K : Dev nD × Fin 261 → ℕ) (c : Dev nD) :
    records m K ⊢ cellInv ER (a2aRd m) (K (c, (0 : Fin 261))) (barCell c) := inv_at m K (c, 0)
omit [FloatOps F] in
theorem reached_bar (K : Dev nD × Fin 261 → ℕ) (c : Dev nD) :
    records m K ⊢ reached ER (barCell c) 0 := reached_at m K (c, 0)

end Cert.Kernel.A2A

end
-- ==== Proof.Kernel.Groups.lean ====
import proofs.«900013_g7700000000000014_dist_a2a_v7x_xy2x2_x_m16384_n1024_f32_1_alg».proof.Proof.Kernel.State

/-!
  The groups of resources a device's body holds, at the ends of their ranges.

  Each group is a separating conjunction over a range of chunks (or of local pieces). Before any chunk is done the
  groups "done" and "in flight" range over no chunk, and after the last chunk the groups "still to do" range over none:
  there they are the empty resource. With all eight local pieces done, the two groups of finished pieces are the
  eight pieces one after the other.
-/

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Nothing in flight, nothing done: before the first chunk -/

omit [FloatOps F] in
theorem GXcred_self (a : ℕ) : (GXcred c a a : sProp 𝕄) = iprop(emp) := by unfold GXcred; rw [mid_self, bigSep_empty]; rfl
omit [FloatOps F] in
theorem GYcred_self (a : ℕ) : (GYcred c a a : sProp 𝕄) = iprop(emp) := by unfold GYcred; rw [mid_self, bigSep_empty]; rfl
omit [FloatOps F] in
theorem GXdone_zero : GXdone m c 0 = iprop(emp) := by unfold GXdone; rw [pre_zero, bigSep_empty]; rfl
omit [FloatOps F] in
theorem GYdone_zero : GYdone m c 0 = iprop(emp) := by unfold GYdone; rw [pre_zero, bigSep_empty]; rfl
omit [FloatOps F] in
theorem GRXdone_zero : (GRXdone c 0 : sProp 𝕄) = iprop(emp) := by unfold GRXdone; rw [pre_zero, bigSep_empty]; rfl
omit [FloatOps F] in
theorem GRYdone_zero : GRYdone m c 0 = iprop(emp) := by unfold GRYdone; rw [pre_zero, bigSep_empty]; rfl

/-! ## Nothing left to do: after the last chunk -/

omit [FloatOps F] in
theorem GXtok_top : GXtok m c 64 = iprop(emp) := by unfold GXtok; rw [seg_top, bigSep_empty]; rfl
omit [FloatOps F] in
theorem GXdst_top : (GXdst c 64 : sProp 𝕄) = iprop(emp) := by unfold GXdst; rw [seg_top, bigSep_empty]; rfl
omit [FloatOps F] in
theorem GXpos_top : (GXpos c 64 : sProp 𝕄) = iprop(emp) := by unfold GXpos; rw [seg_top, bigSep_empty]; rfl
omit [FloatOps F] in
theorem GYtok_top : (GYtok c 64 : sProp 𝕄) = iprop(emp) := by unfold GYtok; rw [seg_top, bigSep_empty]; rfl
omit [FloatOps F] in
theorem GYdst_top : (GYdst c 64 : sProp 𝕄) = iprop(emp) := by unfold GYdst; rw [seg_top, bigSep_empty]; rfl
omit [FloatOps F] in
theorem GYpos_top : (GYpos c 64 : sProp 𝕄) = iprop(emp) := by unfold GYpos; rw [seg_top, bigSep_empty]; rfl
omit [FloatOps F] in
theorem GRXwait_top : (GRXwait c 64 : sProp 𝕄) = iprop(emp) := by unfold GRXwait; rw [seg_top, bigSep_empty]; rfl
omit [FloatOps F] in
theorem GRYwait_top : (GRYwait c 64 : sProp 𝕄) = iprop(emp) := by unfold GRYwait; rw [seg_top, bigSep_empty]; rfl

/-! ## All eight local pieces done: the pieces one by one -/

omit [FloatOps F] in
/-- The eight source pieces of the argument array, each back at its launch contents. -/
theorem GLsrc_eight : GLsrc m c 8
    = iprop(pts c (lSrc (lOff c 0) (lOff_inb c 0)) (inA m c)
      ∗ pts c (lSrc (lOff c 1) (lOff_inb c 1)) (inA m c)
      ∗ pts c (lSrc (lOff c 2) (lOff_inb c 2)) (inA m c)
      ∗ pts c (lSrc (lOff c 3) (lOff_inb c 3)) (inA m c)
      ∗ pts c (lSrc (lOff c 4) (lOff_inb c 4)) (inA m c)
      ∗ pts c (lSrc (lOff c 5) (lOff_inb c 5)) (inA m c)
      ∗ pts c (lSrc (lOff c 6) (lOff_inb c 6)) (inA m c)
      ∗ pts c (lSrc (lOff c 7) (lOff_inb c 7)) (inA m c)) := by
  unfold GLsrc
  exact bigSep_eq_bigSepL_of_eq [0, 1, 2, 3, 4, 5, 6, 7] (by decide) (by decide) _

omit [FloatOps F] in
/-- The eight pieces of the result array the local copies write, each at its final contents. -/
theorem GLout_eight : GLout m c 8
    = iprop(pts c (lDst c 0) (outFinal m c)
      ∗ pts c (lDst c 1) (outFinal m c)
      ∗ pts c (lDst c 2) (outFinal m c)
      ∗ pts c (lDst c 3) (outFinal m c)
      ∗ pts c (lDst c 4) (outFinal m c)
      ∗ pts c (lDst c 5) (outFinal m c)
      ∗ pts c (lDst c 6) (outFinal m c)
      ∗ pts c (lDst c 7) (outFinal m c)) := by
  unfold GLout
  exact bigSep_eq_bigSepL_of_eq [0, 1, 2, 3, 4, 5, 6, 7] (by decide) (by decide) _

end Cert.Kernel.A2A

end

/-- info: 'Cert.Kernel.A2A.GLsrc_eight' depends on axioms: [propext, Classical.choice, Quot.sound] -/
#guard_msgs in #print axioms Cert.Kernel.A2A.GLsrc_eight
/-- info: 'Cert.Kernel.A2A.GLout_eight' depends on axioms: [propext, Classical.choice, Quot.sound] -/
#guard_msgs in #print axioms Cert.Kernel.A2A.GLout_eight
/-- info: 'Cert.Kernel.A2A.GXtok_top' depends on axioms: [propext, Classical.choice, Quot.sound] -/
#guard_msgs in #print axioms Cert.Kernel.A2A.GXtok_top
-- ==== Proof.Kernel.StanzaA.lean ====
import proofs.«900013_g7700000000000014_dist_a2a_v7x_xy2x2_x_m16384_n1024_f32_1_alg».proof.Proof.Kernel.Common

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Peeling chunk `k` off the row exchange's groups -/

omit [FloatOps F] in
theorem A_GXtok_peel (m : (ℓ : Loc nD τ sig) → Buf (Elt F) ℓ) (c : Dev nD) (k : Fin 64) :
    GXtok m c k.val = iprop((dutyTok ER (sxCell c k) 0 false ∗ dutyTok ER (rxCell (xn c) k) 0 false ∗ pts c (xSrc c k) (inA m c)) ∗ GXtok m c (k.val + 1)) := by
  unfold GXtok; conv_lhs => rw [seg_eq_insert k, bigSep_insert (not_mem_seg_succ k)]
  rfl
omit [FloatOps F] in
theorem A_GXdst_peel (c : Dev nD) (k : Fin 64) :
    (GXdst c k.val : sProp 𝕄) = iprop((∃ f, pts (xn c) (xDst c k) f) ∗ GXdst c (k.val + 1)) := by
  unfold GXdst; conv_lhs => rw [seg_eq_insert k, bigSep_insert (not_mem_seg_succ k)]
  rfl
omit [FloatOps F] in
theorem A_GXcred_push (c : Dev nD) (k : Fin 64) :
    (GXcred c 0 (k.val + 1) : sProp 𝕄) = iprop(cred (tallyAt (sxCell c k) () N128) ∗ GXcred c 0 k.val) := by
  unfold GXcred; conv_lhs => rw [mid_succ_eq_insert 0 k (Nat.zero_le _), bigSep_insert (not_mem_mid 0 k)]
  rfl

/-! ## The row exchange's send of chunk `k` -/

theorem wp_xsend (m : (ℓ : Loc nD τ sig) → Buf (Elt F) ℓ) (K : Dev nD × Fin 261 → ℕ) (c n : Dev nD) (hn : n = xn c) (k : Fin 64) (b : ℕ)
    {hsc : (xDst c k : Memref sig (Dev.tc n : Thread nD τ).2.kind .hbm S128x1024 .f32).view.ref.isScScratch = false}
    {hsrc : (xSrc c k).view.WordExact} {hdst : (xDst c k).view.WordExact}
    {hsem : DmaTarget.Typed .hbm (.dma (rxS k).sem) (.remote (Dev.tc n : Thread nD τ) (xDst c k) (.dma (sxS k).sem) hsc)}
    {α : Type} {Q : α → sProp 𝕄} {kont : PUnit → Prog (TpuEff nD τ sig (Elt F) Λ₀ .tc) α}
    (W : Waits sig Unit)
    (hval : ∀ (fd : Buf (Elt F) ((xDst c k).view.loc (xn c : Thread nD τ))), ∀ i ∈ (xDst c k).view.set,
      (xDst c k).view.write (Elt F) fd ((xSrc c k).view.read (Elt F) (inA m c)) Finset.univ i = outFinal m (xn c) i) :
    iprop(records m K ∗ GXtok m c k.val ∗ GXdst c k.val ∗ GXcred c 0 k.val ∗ owes (c : Thread nD τ) (OX c k.val + OY c b) W)
      ⊢ iprop((iprop(GXtok m c (k.val + 1) ∗ GXdst c (k.val + 1) ∗ GXcred c 0 (k.val + 1) ∗ owes (c : Thread nD τ) (OX c (k.val + 1) + OY c b) W)
            -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.enqueueDma (xSrc c k) (DmaTarget.remote (Dev.tc n) (xDst c k) (SemLoc.dma (sxS k).sem) hsc) (SemLoc.dma (rxS k).sem) hsrc hdst hsem) kont) Q) := by
  subst hn
  rw [A_GXtok_peel, A_GXdst_peel, A_GXcred_push]
  iintro ⟨#Hrec, ⟨⟨HtS, HtR, Hsrc⟩, Htok⟩, ⟨⟨%fd, Hdst⟩, Hdsts⟩, Hcred, HO⟩ Hk
  ihave #HIs := (inv_dma m K c (sxS k).sem) $$ Hrec
  ihave #HIr := (inv_dma m K (xn c) (rxS k).sem) $$ Hrec
  ihave #HRs := (reached_dma m K c (sxS k).sem) $$ Hrec
  ihave #HRr := (reached_dma m K (xn c) (rxS k).sem) $$ Hrec
  iapply (Rounds.wp_send_pointsTo Variants.none ER (a2aRd m) (c : Thread nD τ) none (c' := (xn c : Thread nD τ))
      (src := xSrc c k) (dst := xDst c k) (q := fullShare) (fs := inA m c) (fd := fd)
      (κ₁ := K (c, ixDma (sxS k).sem)) (κ₂ := K (xn c, ixDma (rxS k).sem))
      (r₁ := 0) (r₂ := 0) (d₁ := false) (d₂ := false)
      (by rw [duties_sx]; exact Finset.mem_singleton_self _) (by rw [duties_rx]; exact Finset.mem_singleton_self _)
      () () N128 rfl (amount_sx m c k false) (amount_rx m (xn c) k false)
      (O₀ := OX c k.val + OY c b) (OX c (k.val + 1) + OY c b) (by rw [OX_peel c k, add_right_comm]) (W := W)
      (by rw [payload_sx]; exact BI.Entails.refl _)
      (by rw [payload_rx]; unfold rxPay pts; rw [xn_xn]; exact Entails.of_eq (pointsTo_congr (hval fd))))
    $$ [HtS HtR Hsrc Hdst HO]
  · isplitr; · iexact HIs
    isplitr; · iexact HIr
    isplitl [Hsrc]; · iexact Hsrc
    isplitl [Hdst]; · iexact Hdst
    isplitl [HO]; · iexact HO
    isplitl [HtS]; · iexact HtS
    isplitr; · iexact HRs
    isplitl [HtR]; · iexact HtR
    iexact HRr
  iintro ⟨Hc, HO⟩
  iapply Hk
  isplitl [Htok]; · iexact Htok
  isplitl [Hdsts]; · iexact Hdsts
  isplitl [Hc Hcred]
  · isplitl [Hc]; · iexact Hc
    iexact Hcred
  iexact HO

/-! ## The entry handshake on the barrier cell -/

omit [FloatOps F] in
theorem A_payload_bar_false (m : (ℓ : Loc nD τ sig) → Buf (Elt F) ℓ) (c : Dev nD) :
    (a2aRd (F := F) m).payload (barCell c) 0 false = barPayX c := by rw [payload_bar]; rfl
omit [FloatOps F] in
theorem A_payload_bar_true (m : (ℓ : Loc nD τ sig) → Buf (Elt F) ℓ) (c : Dev nD) :
    (a2aRd (F := F) m).payload (barCell c) 0 true = barPayY c := by rw [payload_bar]; rfl
omit [FloatOps F] in
theorem A_expect_bar (m : (ℓ : Loc nD τ sig) → Buf (Elt F) ℓ) (c : Dev nD) : (a2aRd (F := F) m).expect (barCell c) 0 = 2 := by
  unfold Schedule.expect Schedule.amountOf
  rw [duties_bar, Finset.sum_congr rfl (fun d _ => amount_bar m c d)]
  rfl
omit [FloatOps F] in
theorem A_rest_bar (m : (ℓ : Loc nD τ sig) → Buf (Elt F) ℓ) (c : Dev nD) :
    bigSep ((a2aRd (F := F) m).duties (barCell c) 0 \ ∅) (fun d => (a2aRd (F := F) m).payload (barCell c) 0 d)
      = iprop(barPayX c ∗ barPayY c) := by
  rw [duties_bar, Finset.sdiff_empty, show (Finset.univ : Finset Bool) = insert false {true} from by decide,
    bigSep_insert (by decide), bigSep_singleton, A_payload_bar_false, A_payload_bar_true]
  rfl
omit [FloatOps F] in
theorem A_GXdst_zero (c : Dev nD) : (GXdst c 0 : sProp 𝕄) = barPayX c := by unfold GXdst barPayX; rw [seg_zero]
omit [FloatOps F] in
theorem A_GYdst_zero (c : Dev nD) : (GYdst c 0 : sProp 𝕄) = barPayY c := by unfold GYdst barPayY; rw [seg_zero]

/-- The first entry signal, to the `x`-neighbour's barrier cell: its duty `false`, handing over the 64 chunks of this
    device's result array that the neighbour's row exchange writes. -/
theorem wp_sig_x (m : (ℓ : Loc nD τ sig) → Buf (Elt F) ℓ) (K : Dev nD × Fin 261 → ℕ) (c n : Dev nD) (hn : n = xn c)
    {α : Type} {Q : α → sProp 𝕄} {kont : PUnit → Prog (TpuEff nD τ sig (Elt F) Λ₀ .tc) α} (W : Waits sig Unit) :
    iprop(records m K ∗ dutyTok ER (barCell (xn c)) 0 false ∗ barPayX (xn c) ∗ owes (c : Thread nD τ) (O₀ c) W)
      ⊢ iprop((owes (c : Thread nD τ) (O₁ c) W -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.semSignal ((n, Proc.tc) : Thread nD τ) barS (1#32).toNat) kont) Q) := by
  subst hn
  iintro ⟨#Hrec, Htok, Hpay, HO⟩ Hk
  ihave #HI := (inv_bar m K (xn c)) $$ Hrec
  ihave #HR := (reached_bar m K (xn c)) $$ Hrec
  iapply (Rounds.wp_signal Variants.none ER (a2aRd m) (c : Thread nD τ) none (dst := (xn c : Thread nD τ)) (sem := barS)
      (κ := K (xn c, 0)) (r := 0) (d := false) (k' := (1#32).toNat)
      (by rw [duties_bar]; exact Finset.mem_univ _) ((amount_bar m (xn c) false).trans (by decide)) ()
      (O₀ := O₀ c) (O₁ c) rfl (W := W))
    $$ [HO Htok Hpay]
  · isplitr; · iexact HI
    isplitl [HO]; · iexact HO
    isplitl [Htok]; · iexact Htok
    isplitl [Hpay]; · rw [A_payload_bar_false]; iexact Hpay
    iexact HR
  iexact Hk

/-- The second entry signal, to the `y`-neighbour's barrier cell: its duty `true`, handing over the 64 chunks of this
    device's result array that the neighbour's column exchange writes. -/
theorem wp_sig_y (m : (ℓ : Loc nD τ sig) → Buf (Elt F) ℓ) (K : Dev nD × Fin 261 → ℕ) (c n : Dev nD) (hn : n = yn c)
    {α : Type} {Q : α → sProp 𝕄} {kont : PUnit → Prog (TpuEff nD τ sig (Elt F) Λ₀ .tc) α} (W : Waits sig Unit) :
    iprop(records m K ∗ dutyTok ER (barCell (yn c)) 0 true ∗ barPayY (yn c) ∗ owes (c : Thread nD τ) (O₁ c) W)
      ⊢ iprop((owes (c : Thread nD τ) (OX c 0 + OY c 0) W -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.semSignal ((n, Proc.tc) : Thread nD τ) barS (1#32).toNat) kont) Q) := by
  subst hn
  iintro ⟨#Hrec, Htok, Hpay, HO⟩ Hk
  ihave #HI := (inv_bar m K (yn c)) $$ Hrec
  ihave #HR := (reached_bar m K (yn c)) $$ Hrec
  iapply (Rounds.wp_signal Variants.none ER (a2aRd m) (c : Thread nD τ) none (dst := (yn c : Thread nD τ)) (sem := barS)
      (κ := K (yn c, 0)) (r := 0) (d := true) (k' := (1#32).toNat)
      (by rw [duties_bar]; exact Finset.mem_univ _) ((amount_bar m (yn c) true).trans (by decide)) ()
      (O₀ := O₁ c) (OX c 0 + OY c 0) rfl (W := W))
    $$ [HO Htok Hpay]
  · isplitr; · iexact HI
    isplitl [HO]; · iexact HO
    isplitl [Htok]; · iexact Htok
    isplitl [Hpay]; · rw [A_payload_bar_true]; iexact Hpay
    iexact HR
  iexact Hk

/-- The wait for both neighbours' entry signals: the chunks of their result arrays that this device's two exchanges
    write come with it. -/
theorem wp_bar_wait (m : (ℓ : Loc nD τ sig) → Buf (Elt F) ℓ) (K : Dev nD × Fin 261 → ℕ) (c : Dev nD)
    {α : Type} {Q : α → sProp 𝕄} {kont : PUnit → Prog (TpuEff nD τ sig (Elt F) Λ₀ .tc) α} (W : Waits sig Unit)
    (hmw : (levAts L lv : sProp 𝕄) ⊢ MayWait (c : Thread nD τ) (.reg barS) () (OX c 0 + OY c 0)) :
    iprop(records m K ∗ levAts L lv ∗ atPos ER (barCell c) 0 ∅ 0 ∗ cred (tallyAt (barCell c) () 2)
        ∗ owes (c : Thread nD τ) (OX c 0 + OY c 0) W)
      ⊢ iprop((iprop(GXdst c 0 ∗ GYdst c 0 ∗ ∃ W', owes (c : Thread nD τ) (OX c 0 + OY c 0) W')
            -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.semWait barS (2#32).toNat) kont) Q) := by
  iintro ⟨#Hrec, #Hlev, Hat, Hc, HO⟩ Hk
  ihave #HI := (inv_bar m K c) $$ Hrec
  iapply (Rounds.wp_wait_rest_token Variants.none ER (a2aRd m) (c : Thread nD τ) none (κ := K (c, 0)) (sm := .reg barS) (k' := (2#32).toNat)
      (wpE_semWait_eq Variants.none (c : Thread nD τ) none Set.univ) (Set.mem_univ _) () (O := OX c 0 + OY c 0) (W := W)
      (R := 0) (m := 0) (T := ∅) (by rw [A_expect_bar]; decide)) $$ [Hc HO Hat]
  · isplitr; · iexact HI
    isplitl [Hc]; · iexact Hc
    isplitl [HO]; · iexact HO
    isplitr; · iapply hmw; iexact Hlev
    iexact Hat
  iintro ⟨HO, -, -, Hpay⟩
  ihave Hp := (Entails.of_eq (A_rest_bar m c)) $$ Hpay
  icases Hp with ⟨HX, HY⟩
  iapply Hk
  isplitl [HX]; · rw [A_GXdst_zero]; iexact HX
  isplitl [HY]; · rw [A_GYdst_zero]; iexact HY
  iexists (insert (SemLoc.reg barS, ()) W)
  iexact HO

/-- info: 'Cert.Kernel.A2A.wp_xsend' depends on axioms: [propext, Classical.choice, Quot.sound] -/
#guard_msgs in #print axioms wp_xsend

/-- info: 'Cert.Kernel.A2A.wp_sig_x' depends on axioms: [propext, Classical.choice, Quot.sound] -/
#guard_msgs in #print axioms wp_sig_x

/-- info: 'Cert.Kernel.A2A.wp_sig_y' depends on axioms: [propext, Classical.choice, Quot.sound] -/
#guard_msgs in #print axioms wp_sig_y

/-- info: 'Cert.Kernel.A2A.wp_bar_wait' depends on axioms: [propext, Classical.choice, Quot.sound] -/
#guard_msgs in #print axioms wp_bar_wait

end Cert.Kernel.A2A

end
-- ==== Proof.Kernel.StanzaB.lean ====
import proofs.«900013_g7700000000000014_dist_a2a_v7x_xy2x2_x_m16384_n1024_f32_1_alg».proof.Proof.Kernel.Common

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## One chunk out of a group, one chunk into a group -/

omit [FloatOps F] in
private theorem GRXwait_peel (c : Dev nD) (k : Fin 64) :
    (GRXwait c k.val : sProp 𝕄) = iprop((atPos ER (rxCell c k) 0 ∅ 0 ∗ cred (tallyAt (rxCell c k) () N128)) ∗ GRXwait c (k.val + 1)) := by
  unfold GRXwait; rw [seg_eq_insert k, bigSep_insert (not_mem_seg_succ k)]; rfl
omit [FloatOps F] in
private theorem GRXdone_push (c : Dev nD) (k : Fin 64) :
    (GRXdone c (k.val + 1) : sProp 𝕄) = iprop(semVal (rxCell c k) 0 ∗ GRXdone c k.val) := by
  unfold GRXdone; rw [pre_succ_eq_insert k, bigSep_insert (not_mem_pre k)]; rfl
omit [FloatOps F] in
private theorem GYtok_peel (c : Dev nD) (k : Fin 64) :
    (GYtok c k.val : sProp 𝕄) = iprop((dutyTok ER (syCell c k) 0 false ∗ dutyTok ER (ryCell (yn c) k) 0 false) ∗ GYtok c (k.val + 1)) := by
  unfold GYtok; rw [seg_eq_insert k, bigSep_insert (not_mem_seg_succ k)]; rfl
private theorem GYdst_peel (c : Dev nD) (k : Fin 64) :
    (GYdst c k.val : sProp 𝕄) = iprop((∃ f, pts (yn c) (yBuf c k) f) ∗ GYdst c (k.val + 1)) := by
  unfold GYdst; rw [seg_eq_insert k, bigSep_insert (not_mem_seg_succ k)]; rfl
omit [FloatOps F] in
private theorem GYcred_push (c : Dev nD) (k : Fin 64) :
    (GYcred c 0 (k.val + 1) : sProp 𝕄) = iprop(cred (tallyAt (syCell c k) () N128) ∗ GYcred c 0 k.val) := by
  unfold GYcred; rw [mid_succ_eq_insert 0 k (Nat.zero_le _), bigSep_insert (not_mem_mid 0 k)]; rfl

/-! ## The receive wait of the row exchange, chunk `k`: the landed chunk comes, the cell closes -/

theorem wp_rxwait (K : Dev nD × Fin 261 → ℕ) (c : Dev nD) (k : Fin 64)
    {h1 : (xSrc c k).view.WordExact} {h2 : (xDst c k).view.WordExact}
    {α : Type} {Q : α → sProp 𝕄} {kont : PUnit → Prog (TpuEff nD τ sig (Elt F) Λ₀ .tc) α}
    (W : Waits sig Unit)
    (hmw : (levAts L lv : sProp 𝕄) ⊢ MayWait (c : Thread nD τ) (.dma (rxS k).sem) () (OX c 64 + OY c k.val)) :
    iprop(records m K ∗ levAts L lv ∗ GRXwait c k.val ∗ GRXdone c k.val ∗ owes (c : Thread nD τ) (OX c 64 + OY c k.val) W)
      ⊢ iprop((iprop(GRXwait c (k.val + 1) ∗ GRXdone c (k.val + 1) ∗ rxPay m c k ∗ ∃ W', owes (c : Thread nD τ) (OX c 64 + OY c k.val) W')
            -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.waitDma2 (rxS k).sem (xSrc c k) (xDst c k) h1 h2) kont) Q) := by
  rw [GRXwait_peel c k, GRXdone_push c k]
  iintro ⟨#Hrec, #Hlev, ⟨⟨Hat, Hc⟩, Hw⟩, Hd, HO⟩ Hk
  -- the wait for the whole of round 0: one chunk's credit
  iapply (Rounds.wp_wait_rest_token Variants.none ER (a2aRd m) (c : Thread nD τ) none (κ := K (c, ixDma (rxS k).sem))
      (w := .waitDma2 (rxS k).sem (xSrc c k) (xDst c k) h1 h2)
      (wpE_waitDma2_eq Variants.none (c : Thread nD τ) none Set.univ) (Set.mem_univ _) () (O := OX c 64 + OY c k.val) (W := W) (R := 0) (m := 0) (T := ∅)
      (by rw [Nat.zero_add, expect_rx])) $$ [Hc HO Hat]
  · isplitr; · iapply (inv_dma m K c (rxS k).sem); iexact Hrec
    isplitl [Hc]; · iexact Hc
    isplitl [HO]; · iexact HO
    isplitr; · iapply hmw; iexact Hlev
    iexact Hat
  iintro ⟨HO, Hat, -, Hpay⟩
  ihave Hp := (Entails.of_eq (rest_rx m c k)) $$ Hpay
  -- no later round has a duty: the cell closes, its counter at zero
  imod (Rounds.cell_close ER (a2aRd m) (Set.mem_univ (K (c, ixDma (rxS k).sem))) (fun h => h) (R := 0 + 1) (duties_later_rx m c k)) $$ [Hat] with Hz
  · isplitr; · iapply (inv_dma m K c (rxS k).sem); iexact Hrec
    iexact Hat
  iapply Hk
  isplitl [Hw]; · iexact Hw
  isplitl [Hz Hd]
  · isplitl [Hz]; · iexact Hz
    iexact Hd
  isplitl [Hp]; · iexact Hp
  iexists (insert (SemLoc.dma (rxS k).sem, ()) W)
  iexact HO

/-! ## The send of the column exchange, chunk `k` -/

omit [FloatOps F] in
/-- The chunk that landed from the row exchange is the column exchange's source chunk. -/
theorem rxPay_eq_syPay (c : Dev nD) (k : Fin 64) (hset : (yBuf c k).view.set = (xDst (xn c) k).view.set) :
    rxPay m c k = syPay m c k := by
  unfold rxPay syPay pts; rw [hset]

theorem wp_ysend (K : Dev nD × Fin 261 → ℕ) (c n : Dev nD) (hn : n = yn c) (k : Fin 64)
    {hsc : (yBuf c k : Memref sig (Dev.tc n : Thread nD τ).2.kind .hbm S128x1024 .f32).view.ref.isScScratch = false}
    {hsrc : (yBuf c k).view.WordExact} {hdst : (yBuf c k).view.WordExact}
    {hsem : DmaTarget.Typed .hbm (.dma (ryS k).sem) (.remote (Dev.tc n : Thread nD τ) (yBuf c k) (.dma (syS k).sem) hsc)}
    {α : Type} {Q : α → sProp 𝕄} {kont : PUnit → Prog (TpuEff nD τ sig (Elt F) Λ₀ .tc) α}
    (W : Waits sig Unit)
    (hset : (yBuf c k).view.set = (xDst (xn c) k).view.set)
    (hval : ∀ fd : Buf (Elt F) ((yBuf c k).view.loc (yn c : Thread nD τ)), ∀ i ∈ (yBuf c k).view.set,
      (yBuf c k).view.write (Elt F) fd ((yBuf c k).view.read (Elt F) (outFinal m c)) Finset.univ i = outFinal m (yn c) i) :
    iprop(records m K ∗ GYtok c k.val ∗ GYdst c k.val ∗ GYcred c 0 k.val ∗ rxPay m c k ∗ owes (c : Thread nD τ) (OX c 64 + OY c k.val) W)
      ⊢ iprop((iprop(GYtok c (k.val + 1) ∗ GYdst c (k.val + 1) ∗ GYcred c 0 (k.val + 1) ∗ owes (c : Thread nD τ) (OX c 64 + OY c (k.val + 1)) W)
            -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.enqueueDma (yBuf c k) (DmaTarget.remote (Dev.tc n) (yBuf c k) (SemLoc.dma (syS k).sem) hsc) (SemLoc.dma (ryS k).sem) hsrc hdst hsem) kont) Q) := by
  subst hn
  rw [rxPay_eq_syPay m c k hset]
  rw [GYtok_peel c k, GYdst_peel c k, GYcred_push c k, OY_peel c k]
  iintro ⟨#Hrec, ⟨⟨Hts, Htr⟩, Htok⟩, ⟨⟨%fd, Hdst⟩, Hdsts⟩, Hcred, Hsrc, HO⟩ Hk
  unfold syPay
  iapply (Rounds.wp_send_pointsTo Variants.none ER (a2aRd m) (c : Thread nD τ) none
      (c' := (yn c : Thread nD τ)) (src := yBuf c k) (dst := yBuf c k) (sS := .dma (syS k).sem) (sem := .dma (ryS k).sem)
      (q := fullShare) (fs := outFinal m c) (fd := fd)
      (κ₁ := K (c, ixDma (syS k).sem)) (κ₂ := K (yn c, ixDma (ryS k).sem))
      (r₁ := 0) (r₂ := 0) (d₁ := false) (d₂ := false)
      (by rw [duties_sy]; exact Finset.mem_singleton_self _) (by rw [duties_ry]; exact Finset.mem_singleton_self _)
      () () N128 rfl (amount_sy m c k false) (amount_ry m (yn c) k false)
      (OX c 64 + OY c (k.val + 1)) (add_assoc _ _ _).symm (W := W)
      (by rw [payload_sy]; exact BI.Entails.refl _)
      (by rw [payload_ry]; unfold ryPay pts; rw [yn_yn]; exact Entails.of_eq (pointsTo_congr (hval fd))))
    $$ [Hsrc Hdst HO Hts Htr]
  · isplitr; · iapply (inv_dma m K c (syS k).sem); iexact Hrec
    isplitr; · iapply (inv_dma m K (yn c) (ryS k).sem); iexact Hrec
    isplitl [Hsrc]; · iexact Hsrc
    isplitl [Hdst]; · iexact Hdst
    isplitl [HO]; · iexact HO
    isplitl [Hts]; · iexact Hts
    isplitr; · iapply (reached_dma m K c (syS k).sem); iexact Hrec
    isplitl [Htr]; · iexact Htr
    iapply (reached_dma m K (yn c) (ryS k).sem); iexact Hrec
  iintro ⟨Hc, HO⟩
  iapply Hk
  isplitl [Htok]; · iexact Htok
  isplitl [Hdsts]; · iexact Hdsts
  isplitl [Hc Hcred]
  · isplitl [Hc]; · iexact Hc
    iexact Hcred
  iexact HO

/-- info: 'Cert.Kernel.A2A.wp_rxwait' depends on axioms: [propext, Classical.choice, Quot.sound] -/
#guard_msgs in #print axioms wp_rxwait

/-- info: 'Cert.Kernel.A2A.wp_ysend' depends on axioms: [propext, Classical.choice, Quot.sound] -/
#guard_msgs in #print axioms wp_ysend

end Cert.Kernel.A2A

end
-- ==== Proof.Kernel.StanzaC.lean ====
import proofs.«900013_g7700000000000014_dist_a2a_v7x_xy2x2_x_m16384_n1024_f32_1_alg».proof.Proof.Kernel.State

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule at the exchange's send and receive cells: one round, one duty, a chunk's credit -/

omit [FloatOps F] in
theorem C_duties_later_sx (c : Dev nD) (k : Fin 64) (r : ℕ) (hr : 0 + 1 ≤ r) : (a2aRd (F := F) m).duties (sxCell c k) r = ∅ := by
  have h0 : r ≠ 0 := by omega
  simp only [a2aRd, classify_sx, if_true, if_neg h0]
omit [FloatOps F] in
theorem C_duties_later_sy (c : Dev nD) (k : Fin 64) (r : ℕ) (hr : 0 + 1 ≤ r) : (a2aRd (F := F) m).duties (syCell c k) r = ∅ := by
  have h0 : r ≠ 0 := by omega
  simp only [a2aRd, classify_sy, if_true, if_neg h0]
omit [FloatOps F] in
theorem C_duties_later_ry (c : Dev nD) (k : Fin 64) (r : ℕ) (hr : 0 + 1 ≤ r) : (a2aRd (F := F) m).duties (ryCell c k) r = ∅ := by
  have h0 : r ≠ 0 := by omega
  simp only [a2aRd, classify_ry, if_true, if_neg h0]

omit [FloatOps F] in
theorem C_expect_sx (c : Dev nD) (k : Fin 64) : (a2aRd (F := F) m).expect (sxCell c k) 0 = N128 := by
  unfold Schedule.expect Schedule.amountOf
  rw [duties_sx, Finset.sum_singleton, amount_sx]
omit [FloatOps F] in
theorem C_expect_sy (c : Dev nD) (k : Fin 64) : (a2aRd (F := F) m).expect (syCell c k) 0 = N128 := by
  unfold Schedule.expect Schedule.amountOf
  rw [duties_sy, Finset.sum_singleton, amount_sy]
omit [FloatOps F] in
theorem C_expect_ry (c : Dev nD) (k : Fin 64) : (a2aRd (F := F) m).expect (ryCell c k) 0 = N128 := by
  unfold Schedule.expect Schedule.amountOf
  rw [duties_ry, Finset.sum_singleton, amount_ry]

/-- The one payload of round 0 of a send or receive cell. -/
theorem C_rest_sx (c : Dev nD) (k : Fin 64) :
    bigSep ((a2aRd m).duties (sxCell c k) 0 \ ∅) (fun d => (a2aRd m).payload (sxCell c k) 0 d) = sxPay m c k := by
  rw [Finset.sdiff_empty, duties_sx, bigSep_singleton, payload_sx]
theorem C_rest_sy (c : Dev nD) (k : Fin 64) :
    bigSep ((a2aRd m).duties (syCell c k) 0 \ ∅) (fun d => (a2aRd m).payload (syCell c k) 0 d) = syPay m c k := by
  rw [Finset.sdiff_empty, duties_sy, bigSep_singleton, payload_sy]
theorem C_rest_ry (c : Dev nD) (k : Fin 64) :
    bigSep ((a2aRd m).duties (ryCell c k) 0 \ ∅) (fun d => (a2aRd m).payload (ryCell c k) 0 d) = ryPay m c k := by
  rw [Finset.sdiff_empty, duties_ry, bigSep_singleton, payload_ry]

/-- A wait names its second piece; every 128-row piece of either array counts the same credit. -/
theorem C_credit_xSrc (c : Dev nD) (k : Fin 64) : (xSrc c k).view.dmaCredit = N128 := rfl
theorem C_credit_yBuf (c : Dev nD) (k : Fin 64) : (yBuf c k).view.dmaCredit = N128 := rfl

/-- A cell's invariant out of the records. -/
theorem C_inv_dma (K : Dev nD × Fin 261 → ℕ) (c : Dev nD) (q : DmaSem sig) :
    records m K ⊢ cellInv ER (a2aRd m) (K (c, ixDma q)) ((c : Thread nD τ), SemLoc.dma q) := by
  have h : records m K ⊢ iprop(cellInv ER (a2aRd m) (K (c, ixDma q)) (kcell (c, ixDma q)) ∗ reached ER (kcell (c, ixDma q)) 0) :=
    bigSep_elim (Finset.mem_univ (c, ixDma q))
  rw [kcell_dma] at h
  exact h.trans sep_elim_left

/-! ## Peeling chunk `k` off the groups -/

omit [FloatOps F] in
theorem C_GXcred_peel (c : Dev nD) (k : Fin 64) :
    (GXcred (F := F) c k.val 64) = iprop(cred (tallyAt (sxCell c k) () N128) ∗ GXcred (F := F) c (k.val + 1) 64) := by
  unfold GXcred; rw [mid_eq_insert_low k 64 k.isLt, bigSep_insert (not_mem_mid_succ k 64)]; rfl
omit [FloatOps F] in
theorem C_GXpos_peel (c : Dev nD) (k : Fin 64) :
    (GXpos (F := F) c k.val) = iprop(atPos ER (sxCell c k) 0 ∅ 0 ∗ GXpos (F := F) c (k.val + 1)) := by
  unfold GXpos; rw [seg_eq_insert k, bigSep_insert (not_mem_seg_succ k)]; rfl
theorem C_GXdone_peel (c : Dev nD) (k : Fin 64) :
    GXdone m c (k.val + 1) = iprop((semVal (sxCell c k) 0 ∗ pts c (xSrc c k) (inA m c)) ∗ GXdone m c k.val) := by
  unfold GXdone; rw [pre_succ_eq_insert k, bigSep_insert (not_mem_pre k)]; rfl

/-! ## The wait for the row exchange's send `k` -/

/-- The wait for the row exchange's send of chunk `k` to have left: the device, which owes nothing any more, pays the
    credit the send returned, gets its source chunk back and closes the send's cell, the counter at zero its own. -/
theorem wp_sx_wait (K : Dev nD × Fin 261 → ℕ) (c : Dev nD) (k : Fin 64)
    {h1 : (xDst c k).view.WordExact} {h2 : (xSrc c k).view.WordExact}
    {α : Type} {Q : α → sProp 𝕄} {kont : PUnit → Prog (TpuEff nD τ sig (Elt F) Λ₀ .tc) α} (W : Waits sig Unit) :
    iprop(records m K ∗ GXcred c k.val 64 ∗ GXpos c k.val ∗ GXdone m c k.val ∗ owes (c : Thread nD τ) (OX c 64 + OY c 64) W)
      ⊢ iprop((iprop(GXcred c (k.val + 1) 64 ∗ GXpos c (k.val + 1) ∗ GXdone m c (k.val + 1) ∗ ∃ W', owes (c : Thread nD τ) (OX c 64 + OY c 64) W')
            -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.waitDma2 (sxS k).sem (xDst c k) (xSrc c k) h1 h2) kont) Q) := by
  rw [OX_top, OY_top, add_zero, C_GXcred_peel c k, C_GXpos_peel c k, C_GXdone_peel m c k]
  iintro ⟨#HR, ⟨Hc, Hcs⟩, ⟨Hat, Hats⟩, Hdone, HO⟩ Hk
  ihave #HI := (C_inv_dma m K c (sxS k).sem) $$ HR
  iapply (Rounds.wp_wait_rest_token Variants.none ER (a2aRd m) (c : Thread nD τ) none (κ := K (c, ixDma (sxS k).sem))
      (wpE_waitDma2_eq Variants.none (c : Thread nD τ) none Set.univ) (Set.mem_univ _) () (O := 0) (W := W) (R := 0) (m := 0) (T := ∅)
      (by rw [Nat.zero_add, C_expect_sx])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq (C_rest_sx m c k)) $$ Hpay
  imod (Rounds.cell_close ER (a2aRd m) (Set.mem_univ (K (c, ixDma (sxS k).sem))) (fun h => h) (R := 0 + 1) (C_duties_later_sx m c k)) $$ [Hat] with Hz
  · isplitr; · iexact HI
    iexact Hat
  iapply Hk
  isplitl [Hcs]; · iexact Hcs
  isplitl [Hats]; · iexact Hats
  isplitl [Hz Hpay Hdone]
  · isplitl [Hz Hpay]
    · isplitl [Hz]; · iexact Hz
      unfold sxPay; iexact Hpay
    iexact Hdone
  iexists _
  iexact HO

/-! ## The wait for the column exchange's send `k` -/

omit [FloatOps F] in
theorem C_GYcred_peel (c : Dev nD) (k : Fin 64) :
    (GYcred (F := F) c k.val 64) = iprop(cred (tallyAt (syCell c k) () N128) ∗ GYcred (F := F) c (k.val + 1) 64) := by
  unfold GYcred; rw [mid_eq_insert_low k 64 k.isLt, bigSep_insert (not_mem_mid_succ k 64)]; rfl
omit [FloatOps F] in
theorem C_GYpos_peel (c : Dev nD) (k : Fin 64) :
    (GYpos (F := F) c k.val) = iprop(atPos ER (syCell c k) 0 ∅ 0 ∗ GYpos (F := F) c (k.val + 1)) := by
  unfold GYpos; rw [seg_eq_insert k, bigSep_insert (not_mem_seg_succ k)]; rfl
theorem C_GYdone_peel (c : Dev nD) (k : Fin 64) :
    GYdone m c (k.val + 1) = iprop((semVal (syCell c k) 0 ∗ pts c (yBuf c k) (outFinal m c)) ∗ GYdone m c k.val) := by
  unfold GYdone; rw [pre_succ_eq_insert k, bigSep_insert (not_mem_pre k)]; rfl

/-- The same for the column exchange's send of chunk `k`: the rows it forwarded are the device's again, holding what
    the result must hold there. -/
theorem wp_sy_wait (K : Dev nD × Fin 261 → ℕ) (c : Dev nD) (k : Fin 64)
    {h1 : (yBuf c k).view.WordExact} {h2 : (yBuf c k).view.WordExact}
    {α : Type} {Q : α → sProp 𝕄} {kont : PUnit → Prog (TpuEff nD τ sig (Elt F) Λ₀ .tc) α} (W : Waits sig Unit) :
    iprop(records m K ∗ GYcred c k.val 64 ∗ GYpos c k.val ∗ GYdone m c k.val ∗ owes (c : Thread nD τ) (OX c 64 + OY c 64) W)
      ⊢ iprop((iprop(GYcred c (k.val + 1) 64 ∗ GYpos c (k.val + 1) ∗ GYdone m c (k.val + 1) ∗ ∃ W', owes (c : Thread nD τ) (OX c 64 + OY c 64) W')
            -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.waitDma2 (syS k).sem (yBuf c k) (yBuf c k) h1 h2) kont) Q) := by
  rw [OX_top, OY_top, add_zero, C_GYcred_peel c k, C_GYpos_peel c k, C_GYdone_peel m c k]
  iintro ⟨#HR, ⟨Hc, Hcs⟩, ⟨Hat, Hats⟩, Hdone, HO⟩ Hk
  ihave #HI := (C_inv_dma m K c (syS k).sem) $$ HR
  iapply (Rounds.wp_wait_rest_token Variants.none ER (a2aRd m) (c : Thread nD τ) none (κ := K (c, ixDma (syS k).sem))
      (wpE_waitDma2_eq Variants.none (c : Thread nD τ) none Set.univ) (Set.mem_univ _) () (O := 0) (W := W) (R := 0) (m := 0) (T := ∅)
      (by rw [Nat.zero_add, C_expect_sy])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq (C_rest_sy m c k)) $$ Hpay
  imod (Rounds.cell_close ER (a2aRd m) (Set.mem_univ (K (c, ixDma (syS k).sem))) (fun h => h) (R := 0 + 1) (C_duties_later_sy m c k)) $$ [Hat] with Hz
  · isplitr; · iexact HI
    iexact Hat
  iapply Hk
  isplitl [Hcs]; · iexact Hcs
  isplitl [Hats]; · iexact Hats
  isplitl [Hz Hpay Hdone]
  · isplitl [Hz Hpay]
    · isplitl [Hz]; · iexact Hz
      unfold syPay; iexact Hpay
    iexact Hdone
  iexists _
  iexact HO

/-! ## The wait for chunk `k` of the column exchange to land -/

omit [FloatOps F] in
theorem C_GRYwait_peel (c : Dev nD) (k : Fin 64) :
    (GRYwait (F := F) c k.val) = iprop((atPos ER (ryCell c k) 0 ∅ 0 ∗ cred (tallyAt (ryCell c k) () N128)) ∗ GRYwait (F := F) c (k.val + 1)) := by
  unfold GRYwait; rw [seg_eq_insert k, bigSep_insert (not_mem_seg_succ k)]; rfl
theorem C_GRYdone_peel (c : Dev nD) (k : Fin 64) :
    GRYdone m c (k.val + 1) = iprop((semVal (ryCell c k) 0 ∗ pts c (yBuf (yn c) k) (outFinal m c)) ∗ GRYdone m c k.val) := by
  unfold GRYdone; rw [pre_succ_eq_insert k, bigSep_insert (not_mem_pre k)]; rfl

/-- The wait for chunk `k` of the column exchange to have landed: the device pays the credit it was dealt at launch,
    receives those rows of its result array holding what they must, and closes the receive's cell. -/
theorem wp_ry_wait (K : Dev nD × Fin 261 → ℕ) (c : Dev nD) (k : Fin 64)
    {h1 : (yBuf c k).view.WordExact} {h2 : (yBuf c k).view.WordExact}
    {α : Type} {Q : α → sProp 𝕄} {kont : PUnit → Prog (TpuEff nD τ sig (Elt F) Λ₀ .tc) α} (W : Waits sig Unit) :
    iprop(records m K ∗ GRYwait c k.val ∗ GRYdone m c k.val ∗ owes (c : Thread nD τ) (OX c 64 + OY c 64) W)
      ⊢ iprop((iprop(GRYwait c (k.val + 1) ∗ GRYdone m c (k.val + 1) ∗ ∃ W', owes (c : Thread nD τ) (OX c 64 + OY c 64) W')
            -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.waitDma2 (ryS k).sem (yBuf c k) (yBuf c k) h1 h2) kont) Q) := by
  rw [OX_top, OY_top, add_zero, C_GRYwait_peel c k, C_GRYdone_peel m c k]
  iintro ⟨#HR, ⟨⟨Hat, Hc⟩, Hws⟩, Hdone, HO⟩ Hk
  ihave #HI := (C_inv_dma m K c (ryS k).sem) $$ HR
  iapply (Rounds.wp_wait_rest_token Variants.none ER (a2aRd m) (c : Thread nD τ) none (κ := K (c, ixDma (ryS k).sem))
      (wpE_waitDma2_eq Variants.none (c : Thread nD τ) none Set.univ) (Set.mem_univ _) () (O := 0) (W := W) (R := 0) (m := 0) (T := ∅)
      (by rw [Nat.zero_add, C_expect_ry])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq (C_rest_ry m c k)) $$ Hpay
  imod (Rounds.cell_close ER (a2aRd m) (Set.mem_univ (K (c, ixDma (ryS k).sem))) (fun h => h) (R := 0 + 1) (C_duties_later_ry m c k)) $$ [Hat] with Hz
  · isplitr; · iexact HI
    iexact Hat
  iapply Hk
  isplitl [Hws]; · iexact Hws
  isplitl [Hz Hpay Hdone]
  · isplitl [Hz Hpay]
    · isplitl [Hz]; · iexact Hz
      unfold ryPay; iexact Hpay
    iexact Hdone
  iexists _
  iexact HO

/-- info: 'Cert.Kernel.A2A.wp_sx_wait' depends on axioms: [propext, Classical.choice, Quot.sound] -/
#guard_msgs in #print axioms wp_sx_wait

/-- info: 'Cert.Kernel.A2A.wp_sy_wait' depends on axioms: [propext, Classical.choice, Quot.sound] -/
#guard_msgs in #print axioms wp_sy_wait

/-- info: 'Cert.Kernel.A2A.wp_ry_wait' depends on axioms: [propext, Classical.choice, Quot.sound] -/
#guard_msgs in #print axioms wp_ry_wait

end Cert.Kernel.A2A

end
-- ==== Proof.Kernel.StanzaD.lean ====
import proofs.«900013_g7700000000000014_dist_a2a_v7x_xy2x2_x_m16384_n1024_f32_1_alg».proof.Proof.Kernel.Common
import proofs.«900013_g7700000000000014_dist_a2a_v7x_xy2x2_x_m16384_n1024_f32_1_alg».proof.Proof.Kernel.Pieces

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The local copies through the two staging slots -/

/-- Piece `j` is the piece that round `roundOf j` of slot `slotOf j` moves. -/
theorem pieceOf_round_slot (j : Fin 8) : pieceOf (roundOf j) (slotOf j) = j := by revert j; decide
theorem roundOf_lt (j : Fin 8) : roundOf j < 4 := by revert j; decide

omit [FloatOps F] in
theorem D_credit_stg (s : Fin 2) : (stg s).view.amount (.dma (linS s).sem) = NLi := by revert s; decide
omit [FloatOps F] in
theorem D_credit_lDst (c : Dev nD) (j : Fin 8) (s : Fin 2) : (lDst c j).view.amount (.dma (loutS s).sem) = NLo := rfl

omit [FloatOps F] in
theorem D_dmaCredit_stg (s : Fin 2) : (stg s).view.dmaCredit = NLi := D_credit_stg s
omit [FloatOps F] in
theorem D_dmaCredit_lDst (c : Dev nD) (j : Fin 8) : (lDst c j).view.dmaCredit = NLo := rfl

omit [FloatOps F] in
theorem D_rest_lin (c : Dev nD) (j : Fin 8) :
    bigSep ((a2aRd (F := F) m).duties (linCell c (slotOf j)) (roundOf j) \ ∅) (fun d => (a2aRd (F := F) m).payload (linCell c (slotOf j)) (roundOf j) d)
      = linPay m c j (slotOf j) := by
  rw [Finset.sdiff_empty, duties_lin m c _ _ (roundOf_lt j), bigSep_singleton, payload_lin, pieceOf_round_slot]
omit [FloatOps F] in
theorem D_rest_lout (c : Dev nD) (j : Fin 8) :
    bigSep ((a2aRd (F := F) m).duties (loutCell c (slotOf j)) (roundOf j) \ ∅) (fun d => (a2aRd (F := F) m).payload (loutCell c (slotOf j)) (roundOf j) d)
      = loutPay m c j (slotOf j) := by
  rw [Finset.sdiff_empty, duties_lout m c _ _ (roundOf_lt j), bigSep_singleton, payload_lout, pieceOf_round_slot]

omit [FloatOps F] in
theorem D_expect_lin (c : Dev nD) (s : Fin 2) (r : ℕ) (hr : r < 4) : (a2aRd (F := F) m).expect (linCell c s) r = NLi := by
  unfold Schedule.expect Schedule.amountOf; rw [duties_lin m c s r hr, Finset.sum_singleton, amount_lin]
omit [FloatOps F] in
theorem D_expect_lout (c : Dev nD) (s : Fin 2) (r : ℕ) (hr : r < 4) : (a2aRd (F := F) m).expect (loutCell c s) r = NLo := by
  unfold Schedule.expect Schedule.amountOf; rw [duties_lout m c s r hr, Finset.sum_singleton, amount_lout]

section Slots
variable (c : Dev nD)

/-- A slot with `r` pieces through it, none in flight, and both its cells known to have reached round `r`. -/
def SlotIdleR (s : Fin 2) (r : ℕ) : sProp 𝕄 :=
  iprop(SlotIdle c s r ∗ reached ER (linCell c s) r ∗ reached ER (loutCell c s) r)
/-- A slot whose piece of round `r` is on its way in: the copy-in's credit, both cells still at round `r`. -/
def SlotIn (s : Fin 2) (r : ℕ) : sProp 𝕄 :=
  iprop(cred (tallyAt (linCell c s) () NLi) ∗ atPos ER (linCell c s) r ∅ 0 ∗ atPos ER (loutCell c s) r ∅ 0
    ∗ reached ER (loutCell c s) r)
/-- A slot holding piece `j` (read back through the slot it is the piece): the copy-in cell a round ahead. -/
def SlotFull (j : Fin 8) : sProp 𝕄 :=
  iprop((∃ f, pts c (stg (slotOf j)) f ∗ ⌜(stg (slotOf j)).view.read (Elt F) f = (lSrc (lOff c j) (lOff_inb c j)).view.read (Elt F) (inA m c)⌝)
    ∗ atPos ER (linCell c (slotOf j)) (roundOf j + 1) ∅ 0 ∗ atPos ER (loutCell c (slotOf j)) (roundOf j) ∅ 0
    ∗ reached ER (linCell c (slotOf j)) (roundOf j + 1) ∗ reached ER (loutCell c (slotOf j)) (roundOf j))
/-- A slot whose piece of round `r` is on its way out, the copy-in cell known to have reached round `r + 1`. -/
def SlotBusyR (s : Fin 2) (r : ℕ) : sProp 𝕄 :=
  iprop(SlotBusy c s r ∗ reached ER (linCell c s) (r + 1))
end Slots

/-- The copy of local piece `j` into its staging slot. -/
theorem wp_copy_in (K : Dev nD × Fin 261 → ℕ) (c : Dev nD) (j : Fin 8)
    {h1 : (lSrc (lOff c j) (lOff_inb c j)).view.WordExact} {h2 : (stg (slotOf j)).view.WordExact}
    {h3 : DmaTarget.Typed (nD := nD) (τ := τ) (p := Proc.tc) .hbm (.dma (linS (slotOf j)).sem) (.here (stg (slotOf j)))}
    {α : Type} {Q : α → sProp 𝕄} {kont : PUnit → Prog (TpuEff nD τ sig (Elt F) Λ₀ .tc) α} :
    iprop(records m K ∗ dutyTok ER (linCell c (slotOf j)) (roundOf j) false
        ∗ pts c (lSrc (lOff c j) (lOff_inb c j)) (inA m c) ∗ SlotIdleR c (slotOf j) (roundOf j))
      ⊢ iprop((SlotIn c (slotOf j) (roundOf j) -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.enqueueDma (lSrc (lOff c j) (lOff_inb c j)) (DmaTarget.here (stg (slotOf j))) (SemLoc.dma (linS (slotOf j)).sem) h1 h2 h3) kont) Q) := by
  unfold SlotIdleR SlotIdle SlotIn
  iintro ⟨#Hrec, Htok, Hsrc, ⟨⟨%f, Hslot⟩, HatI, HatO⟩, #HrI, #HrO⟩ Hk
  ihave #Hinv := (inv_dma m K c (linS (slotOf j)).sem) $$ Hrec
  iapply (Rounds.wp_copy_pointsTo Variants.none ER (a2aRd m) (c : Thread nD τ) none (κ := K (c, ixDma (linS (slotOf j)).sem))
      (src := lSrc (lOff c j) (lOff_inb c j)) (dst := stg (slotOf j)) (q := fullShare) (fs := inA m c) (fd := f)
      (r := roundOf j) (d := false)
      (by rw [duties_lin m c _ _ (roundOf_lt j)]; exact Finset.mem_singleton_self _) () NLi (D_credit_stg _) (amount_lin m c _ _ false)
      (by
        rw [payload_lin, pieceOf_round_slot]; unfold linPay
        iintro ⟨Hd, Hs⟩
        isplitl [Hd]
        · iexists _
          isplitl [Hd]; · iexact Hd
          ipureintro; exact View.read_write_univ _ _
        · iexact Hs)) $$ [Htok Hsrc Hslot]
  · isplitr; · iexact Hinv
    isplitl [Hsrc]; · iexact Hsrc
    isplitl [Hslot]; · iexact Hslot
    isplitl [Htok]; · iexact Htok
    iexact HrI
  iintro Hc
  iapply Hk
  isplitl [Hc]; · iexact Hc
  isplitl [HatI]; · iexact HatI
  isplitl [HatO]; · iexact HatO
  iexact HrO

/-- The wait for that copy. -/
theorem wp_wait_in (K : Dev nD × Fin 261 → ℕ) (c : Dev nD) (j : Fin 8) {O : CellTallies nD τ sig Unit}
    (hmw : (levAts L lv : sProp 𝕄) ⊢ MayWait (c : Thread nD τ) (.dma (linS (slotOf j)).sem) () O)
    {h1 : (lSrc (lOff c j) (lOff_inb c j)).view.WordExact} {h2 : (stg (slotOf j)).view.WordExact}
    {α : Type} {Q : α → sProp 𝕄} {kont : PUnit → Prog (TpuEff nD τ sig (Elt F) Λ₀ .tc) α} :
    iprop(records m K ∗ levAts L lv ∗ SlotIn c (slotOf j) (roundOf j) ∗ (∃ W, owes (c : Thread nD τ) O W))
      ⊢ iprop(((SlotFull m c j ∗ pts c (lSrc (lOff c j) (lOff_inb c j)) (inA m c) ∗ (∃ W, owes (c : Thread nD τ) O W))
            -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.waitDma2 (linS (slotOf j)).sem (lSrc (lOff c j) (lOff_inb c j)) (stg (slotOf j)) h1 h2) kont) Q) := by
  unfold SlotIn SlotFull
  iintro ⟨#Hrec, #Hlev, ⟨Hc, HatI, HatO, #HrO⟩, ⟨%W, HO⟩⟩ Hk
  ihave #Hinv := (inv_dma m K c (linS (slotOf j)).sem) $$ Hrec
  iapply (Rounds.wp_wait_rest_token Variants.none ER (a2aRd m) (c : Thread nD τ) none (κ := K (c, ixDma (linS (slotOf j)).sem))
      (w := .waitDma2 (linS (slotOf j)).sem (lSrc (lOff c j) (lOff_inb c j)) (stg (slotOf j)) h1 h2)
      (wpE_waitDma2_eq Variants.none (c : Thread nD τ) none Set.univ) (Set.mem_univ _) () (O := O) (W := W)
      (R := roundOf j) (m := 0) (T := ∅)
      (by rw [D_expect_lin m c _ _ (roundOf_lt j), zero_add, D_dmaCredit_stg])) $$ [Hc HO HatI]
  · isplitr; · iexact Hinv
    isplitl [Hc]; · rw [D_dmaCredit_stg]; iexact Hc
    isplitl [HO]; · iexact HO
    isplitr; · iapply hmw; iexact Hlev
    iexact HatI
  iintro ⟨HO, HatI, #HrI, Hpay⟩
  ihave Hp := (Entails.of_eq (D_rest_lin m c j)) $$ Hpay
  unfold linPay
  icases Hp with ⟨Hslot, Hsrc⟩
  iapply Hk
  isplitl [Hslot HatI HatO]
  · isplitl [Hslot]; · iexact Hslot
    isplitl [HatI]; · iexact HatI
    isplitl [HatO]; · iexact HatO
    isplitr; · iexact HrI
    iexact HrO
  isplitl [Hsrc]; · iexact Hsrc
  iexists _; iexact HO

/-- The copy of piece `j` out of its staging slot into its rows of the result array. -/
theorem wp_copy_out (K : Dev nD × Fin 261 → ℕ) (c : Dev nD) (j : Fin 8)
    {h1 : (stg (slotOf j)).view.WordExact} {h2 : (lDst c j).view.WordExact}
    {h3 : DmaTarget.Typed (nD := nD) (τ := τ) (p := Proc.tc) .vmem (.dma (loutS (slotOf j)).sem) (.here (lDst c j))}
    {α : Type} {Q : α → sProp 𝕄} {kont : PUnit → Prog (TpuEff nD τ sig (Elt F) Λ₀ .tc) α} :
    iprop(records m K ∗ dutyTok ER (loutCell c (slotOf j)) (roundOf j) false ∗ (∃ f, pts c (lDst c j) f) ∗ SlotFull m c j)
      ⊢ iprop((SlotBusyR c (slotOf j) (roundOf j) -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.enqueueDma (stg (slotOf j)) (DmaTarget.here (lDst c j)) (SemLoc.dma (loutS (slotOf j)).sem) h1 h2 h3) kont) Q) := by
  unfold SlotFull SlotBusyR SlotBusy
  iintro ⟨#Hrec, Htok, ⟨%fd, Hdst⟩, ⟨%f, Hslot, %hf⟩, HatI, HatO, #HrI, #HrO⟩ Hk
  ihave #Hinv := (inv_dma m K c (loutS (slotOf j)).sem) $$ Hrec
  iapply (Rounds.wp_copy_pointsTo Variants.none ER (a2aRd m) (c : Thread nD τ) none (κ := K (c, ixDma (loutS (slotOf j)).sem))
      (src := stg (slotOf j)) (dst := lDst c j) (q := fullShare) (fs := f) (fd := fd)
      (r := roundOf j) (d := false)
      (by rw [duties_lout m c _ _ (roundOf_lt j)]; exact Finset.mem_singleton_self _) () NLo (D_credit_lDst c j _) (amount_lout m c _ _ false)
      (by
        rw [payload_lout, pieceOf_round_slot]; unfold loutPay
        iintro ⟨Hd, Hs⟩
        isplitl [Hd]
        · iapply (Entails.of_eq (pointsTo_congr (lLanding m c j (slotOf j) f hf fd)))
          iexact Hd
        · iexists f
          iexact Hs)) $$ [Htok Hdst Hslot]
  · isplitr; · iexact Hinv
    isplitl [Hslot]; · iexact Hslot
    isplitl [Hdst]; · iexact Hdst
    isplitl [Htok]; · iexact Htok
    iexact HrO
  iintro Hc
  iapply Hk
  isplitl [Hc HatI HatO]
  · isplitl [Hc]; · iexact Hc
    isplitl [HatI]; · iexact HatI
    iexact HatO
  iexact HrI

/-- The wait for that copy: the piece is in the result array, the slot idle again, a round further. -/
theorem wp_wait_out (K : Dev nD × Fin 261 → ℕ) (c : Dev nD) (j : Fin 8) {O : CellTallies nD τ sig Unit}
    (hmw : (levAts L lv : sProp 𝕄) ⊢ MayWait (c : Thread nD τ) (.dma (loutS (slotOf j)).sem) () O)
    {h1 : (stg (slotOf j)).view.WordExact} {h2 : (lDst c j).view.WordExact}
    {α : Type} {Q : α → sProp 𝕄} {kont : PUnit → Prog (TpuEff nD τ sig (Elt F) Λ₀ .tc) α} :
    iprop(records m K ∗ levAts L lv ∗ SlotBusyR c (slotOf j) (roundOf j) ∗ (∃ W, owes (c : Thread nD τ) O W))
      ⊢ iprop(((SlotIdleR c (slotOf j) (roundOf j + 1) ∗ pts c (lDst c j) (outFinal m c) ∗ (∃ W, owes (c : Thread nD τ) O W))
            -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.waitDma2 (loutS (slotOf j)).sem (stg (slotOf j)) (lDst c j) h1 h2) kont) Q) := by
  unfold SlotBusyR SlotBusy SlotIdleR SlotIdle
  iintro ⟨#Hrec, #Hlev, ⟨⟨Hc, HatI, HatO⟩, #HrI⟩, ⟨%W, HO⟩⟩ Hk
  ihave #Hinv := (inv_dma m K c (loutS (slotOf j)).sem) $$ Hrec
  iapply (Rounds.wp_wait_rest_token Variants.none ER (a2aRd m) (c : Thread nD τ) none (κ := K (c, ixDma (loutS (slotOf j)).sem))
      (w := .waitDma2 (loutS (slotOf j)).sem (stg (slotOf j)) (lDst c j) h1 h2)
      (wpE_waitDma2_eq Variants.none (c : Thread nD τ) none Set.univ) (Set.mem_univ _) () (O := O) (W := W)
      (R := roundOf j) (m := 0) (T := ∅)
      (by rw [D_expect_lout m c _ _ (roundOf_lt j), zero_add, D_dmaCredit_lDst])) $$ [Hc HO HatO]
  · isplitr; · iexact Hinv
    isplitl [Hc]; · rw [D_dmaCredit_lDst]; iexact Hc
    isplitl [HO]; · iexact HO
    isplitr; · iapply hmw; iexact Hlev
    iexact HatO
  iintro ⟨HO, HatO, #HrO, Hpay⟩
  ihave Hp := (Entails.of_eq (D_rest_lout m c j)) $$ Hpay
  unfold loutPay
  icases Hp with ⟨Hdst, Hslot⟩
  iapply Hk
  isplitl [Hslot HatI HatO]
  · isplitl [Hslot HatI HatO]
    · isplitl [Hslot]; · iexact Hslot
      isplitl [HatI]; · iexact HatI
      iexact HatO
    isplitr; · iexact HrI
    iexact HrO
  isplitl [Hdst]; · iexact Hdst
  iexists _; iexact HO

/-- At the start a slot's cells have reached round 0. -/
theorem slotIdleR_start (K : Dev nD × Fin 261 → ℕ) (c : Dev nD) (s : Fin 2) :
    iprop(records m K ∗ SlotIdle c s 0) ⊢ SlotIdleR c s 0 := by
  unfold SlotIdleR
  iintro ⟨#Hrec, H⟩
  isplitl [H]; · iexact H
  isplitr
  · iapply (reached_dma m K c (linS s).sem); iexact Hrec
  · iapply (reached_dma m K c (loutS s).sem); iexact Hrec

omit [FloatOps F] in
theorem D_duties_later_lin (c : Dev nD) (s : Fin 2) (r : ℕ) (hr : 4 ≤ r) : (a2aRd (F := F) m).duties (linCell c s) r = ∅ := by
  have h4 : ¬ r < 4 := by omega
  simp only [a2aRd, classify_lin, if_true, if_neg h4]
omit [FloatOps F] in
theorem D_duties_later_lout (c : Dev nD) (s : Fin 2) (r : ℕ) (hr : 4 ≤ r) : (a2aRd (F := F) m).duties (loutCell c s) r = ∅ := by
  have h4 : ¬ r < 4 := by omega
  simp only [a2aRd, classify_lout, if_true, if_neg h4]

/-- After its four rounds a slot's two cells close, before any continuation: their counters at zero and the slot
    itself are the device's again. -/
theorem wp_slot_close (K : Dev nD × Fin 261 → ℕ) (c : Dev nD) (s : Fin 2)
    {α : Type} {Q : α → sProp 𝕄} {p : Prog (TpuEff nD τ sig (Elt F) Λ₀ .tc) α} :
    iprop(records m K ∗ SlotIdleR c s 4)
      ⊢ iprop(((semVal (linCell c s) 0 ∗ semVal (loutCell c s) 0 ∗ ∃ f, pts c (stg s) f)
            -∗ wp frame (wpE (defs₀ (F := F)) Variants.none (c : Thread nD τ) none) Set.univ p Q)
          -∗ wp frame (wpE (defs₀ (F := F)) Variants.none (c : Thread nD τ) none) Set.univ p Q) := by
  unfold SlotIdleR SlotIdle
  iintro ⟨#Hrec, ⟨Hslot, HatI, HatO⟩, -⟩ Hk
  ihave #HinvI := (inv_dma m K c (linS s).sem) $$ Hrec
  ihave #HinvO := (inv_dma m K c (loutS s).sem) $$ Hrec
  imod (Rounds.cell_close ER (a2aRd m) (Set.mem_univ (K (c, ixDma (linS s).sem))) (fun h => h) (R := 4) (D_duties_later_lin m c s)) $$ [HatI] with HzI
  · isplitr; · iexact HinvI
    iexact HatI
  imod (Rounds.cell_close ER (a2aRd m) (Set.mem_univ (K (c, ixDma (loutS s).sem))) (fun h => h) (R := 4) (D_duties_later_lout m c s)) $$ [HatO] with HzO
  · isplitr; · iexact HinvO
    iexact HatO
  iapply Hk
  isplitl [HzI]; · iexact HzI
  isplitl [HzO]; · iexact HzO
  iexact Hslot

/-! ## Peeling a piece off the groups of local pieces -/

omit [FloatOps F] in
theorem D_from_eq_insert (j : Fin 8) :
    (Finset.univ.filter fun i : Fin 8 => j.val ≤ i.val) = insert j (Finset.univ.filter fun i : Fin 8 => j.val + 1 ≤ i.val) := by
  revert j; decide
omit [FloatOps F] in
theorem D_not_mem_from (j : Fin 8) : j ∉ Finset.univ.filter fun i : Fin 8 => j.val + 1 ≤ i.val := by
  revert j; decide

/-- The pieces from `j` on are piece `j` and the pieces from `j + 1` on. -/
theorem D_GLtok_peel (c : Dev nD) (j : Fin 8) :
    GLtok m c j.val = iprop((dutyTok ER (linCell c (slotOf j)) (roundOf j) false ∗ dutyTok ER (loutCell c (slotOf j)) (roundOf j) false
        ∗ pts c (lSrc (lOff c j) (lOff_inb c j)) (inA m c) ∗ ∃ f, pts c (lDst c j) f) ∗ GLtok m c (j.val + 1)) := by
  unfold GLtok; rw [D_from_eq_insert j, bigSep_insert (D_not_mem_from j)]; rfl
theorem D_GLtok_top (c : Dev nD) : GLtok m c 8 = iprop(emp) := by
  unfold GLtok; rw [show (Finset.univ.filter fun i : Fin 8 => 8 ≤ i.val) = ∅ by decide]; rfl

/-- info: 'Cert.Kernel.A2A.wp_copy_in' depends on axioms: [propext, Classical.choice, Quot.sound] -/
#guard_msgs in #print axioms wp_copy_in

/-- info: 'Cert.Kernel.A2A.wp_wait_in' depends on axioms: [propext, Classical.choice, Quot.sound] -/
#guard_msgs in #print axioms wp_wait_in

/-- info: 'Cert.Kernel.A2A.wp_copy_out' depends on axioms: [propext, Classical.choice, Quot.sound] -/
#guard_msgs in #print axioms wp_copy_out

/-- info: 'Cert.Kernel.A2A.wp_wait_out' depends on axioms: [propext, Classical.choice, Quot.sound] -/
#guard_msgs in #print axioms wp_wait_out

/-- info: 'Cert.Kernel.A2A.slotIdleR_start' depends on axioms: [propext, Classical.choice, Quot.sound] -/
#guard_msgs in #print axioms slotIdleR_start

/-- info: 'Cert.Kernel.A2A.wp_slot_close' depends on axioms: [propext, Classical.choice, Quot.sound] -/
#guard_msgs in #print axioms wp_slot_close

/-- info: 'Cert.Kernel.A2A.D_GLtok_peel' depends on axioms: [propext, Classical.choice, Quot.sound] -/
#guard_msgs in #print axioms D_GLtok_peel

/-- info: 'Cert.Kernel.A2A.D_GLtok_top' depends on axioms: [propext, Classical.choice, Quot.sound] -/
#guard_msgs in #print axioms D_GLtok_top

end Cert.Kernel.A2A

end
-- ==== Proof.Kernel.Body.lean ====
import proofs.«900013_g7700000000000014_dist_a2a_v7x_xy2x2_x_m16384_n1024_f32_1_alg».proof.Proof.Kernel.Body0
import proofs.«900013_g7700000000000014_dist_a2a_v7x_xy2x2_x_m16384_n1024_f32_1_alg».proof.Proof.Kernel.Levels
import proofs.«900013_g7700000000000014_dist_a2a_v7x_xy2x2_x_m16384_n1024_f32_1_alg».proof.Proof.Kernel.Pieces
import proofs.«900013_g7700000000000014_dist_a2a_v7x_xy2x2_x_m16384_n1024_f32_1_alg».proof.Proof.Kernel.Common
import proofs.«900013_g7700000000000014_dist_a2a_v7x_xy2x2_x_m16384_n1024_f32_1_alg».proof.Proof.Kernel.Groups
import proofs.«900013_g7700000000000014_dist_a2a_v7x_xy2x2_x_m16384_n1024_f32_1_alg».proof.Proof.Kernel.StanzaA
import proofs.«900013_g7700000000000014_dist_a2a_v7x_xy2x2_x_m16384_n1024_f32_1_alg».proof.Proof.Kernel.StanzaB
import proofs.«900013_g7700000000000014_dist_a2a_v7x_xy2x2_x_m16384_n1024_f32_1_alg».proof.Proof.Kernel.StanzaC
import proofs.«900013_g7700000000000014_dist_a2a_v7x_xy2x2_x_m16384_n1024_f32_1_alg».proof.Proof.Kernel.StanzaD
import proofs.«900013_g7700000000000014_dist_a2a_v7x_xy2x2_x_m16384_n1024_f32_1_alg».proof.Proof.Gen.Kernel.Skeleton

set_option maxRecDepth 200000
set_option maxHeartbeats 8000000

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Local piece `j`'s resources taken out of the pieces still to do, before any goal. -/
theorem GLtok_open (m : (ℓ : Loc nD τ sig) → Buf (Elt F) ℓ) (c : Dev nD) (j : Fin 8) (R : sProp 𝕄) :
    iprop(GLtok m c j.val)
      ⊢ iprop((iprop((dutyTok ER (linCell c (slotOf j)) (roundOf j) false ∗ dutyTok ER (loutCell c (slotOf j)) (roundOf j) false
            ∗ pts c (lSrc (lOff c j) (lOff_inb c j)) (inA m c) ∗ ∃ f, pts c (lDst c j) f) ∗ GLtok m c (j.val + 1)) -∗ R) -∗ R) := by
  rw [D_GLtok_peel m c j]
  iintro H Hk
  iapply Hk
  iexact H

/-- One device's body, run effect by effect in program order from its entry resources: the two entry signals and the
    wait for both neighbours'; the 64 row-exchange sends; for each chunk the wait for the row neighbour's and its
    forwarding to the column neighbour, the eight local pieces through the two staging slots in between; the waits for
    the column neighbour's chunks; the waits for every send; the last two local pieces. Each landing states what the
    chunk holds, so the exit resources hold every chunk of the result array at `outFinal`. -/
theorem sound_body (m : (ℓ : Loc nD τ sig) → Buf (Elt F) ℓ) (K : Dev nD × Fin 261 → ℕ) (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6) Kt := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel, k0_part84_eq_skeleton, k0_part84_skel, k0_part85_eq_skeleton, k0_part85_skel, k0_part86_eq_skeleton, k0_part86_skel, k0_part87_eq_skeleton, k0_part87_skel, k0_part88_eq_skeleton, k0_part88_skel, k0_part89_eq_skeleton, k0_part89_skel, k0_part90_eq_skeleton, k0_part90_skel, k0_part91_eq_skeleton, k0_part91_skel, k0_part92_eq_skeleton, k0_part92_skel, k0_part93_eq_skeleton, k0_part93_skel, k0_part94_eq_skeleton, k0_part94_skel, k0_part95_eq_skeleton, k0_part95_skel, k0_part96_eq_skeleton, k0_part96_skel, k0_part97_eq_skeleton, k0_part97_skel, k0_part98_eq_skeleton, k0_part98_skel, k0_part99_eq_skeleton, k0_part99_skel, k0_part100_eq_skeleton, k0_part100_skel, k0_part101_eq_skeleton, k0_part101_skel, k0_part102_eq_skeleton, k0_part102_skel, k0_part103_eq_skeleton, k0_part103_skel, k0_part104_eq_skeleton, k0_part104_skel, k0_part105_eq_skeleton, k0_part105_skel, k0_part106_eq_skeleton, k0_part106_skel, k0_part107_eq_skeleton, k0_part107_skel, k0_part108_eq_skeleton, k0_part108_skel, k0_part109_eq_skeleton, k0_part109_skel, k0_part110_eq_skeleton, k0_part110_skel, k0_part111_eq_skeleton, k0_part111_skel, k0_part112_eq_skeleton, k0_part112_skel, k0_part113_eq_skeleton, k0_part113_skel, k0_part114_eq_skeleton, k0_part114_skel, k0_part115_eq_skeleton, k0_part115_skel, k0_part116_eq_skeleton, k0_part116_skel, k0_part117_eq_skeleton, k0_part117_skel, k0_part118_eq_skeleton, k0_part118_skel, k0_part119_eq_skeleton, k0_part119_skel, k0_part120_eq_skeleton, k0_part120_skel, k0_part121_eq_skeleton, k0_part121_skel, k0_part122_eq_skeleton, k0_part122_skel, k0_part123_eq_skeleton, k0_part123_skel, k0_part124_eq_skeleton, k0_part124_skel, k0_part125_eq_skeleton, k0_part125_skel, k0_part126_eq_skeleton, k0_part126_skel, k0_part127_eq_skeleton, k0_part127_skel, k0_part128_eq_skeleton, k0_part128_skel,
    semSignalWord, semWaitWord, Prog.lift, Prog.bind_op, Prog.bind_ret, Prog.pure_eq_ret, wp_deviceId, Prog.bind_assoc]
  unfold bodyPre entry
  iintro ⟨⟨⟨#Hrec, #Hlev, Ht1, Ht2, Hp1, Hp2, Hat, Hcr, HXt, HXp, HYt, HYp, HRXw, HRYw, HLt, HS0, HS1, HRA⟩, Ho⟩, Hk⟩
  unfold Dat.owesAt Pipeline.owesWithin
  icases Ho with ⟨%W, %hW, HO⟩
  rw [show (dats m 0 c).owed t₀.castSucc = O₀ c from rfl]
  iapply (wp_sig_x m K c _ (dev_xn c _ _ (k0_dev1_eq c)) W) $$ [Ht1 Hp1 HO]
  · isplitr; · iexact Hrec
    isplitl [Ht1]; · iexact Ht1
    isplitl [Hp1]; · iexact Hp1
    iexact HO
  iintro HO
  iapply (wp_sig_y m K c _ (dev_yn c _ _ (k0_dev2_eq c)) W) $$ [Ht2 Hp2 HO]
  · isplitr; · iexact Hrec
    isplitl [Ht2]; · iexact Ht2
    isplitl [Hp2]; · iexact Hp2
    iexact HO
  iintro HO
  iapply (wp_bar_wait m K c W (mayWait_bar c)) $$ [Hat Hcr HO]
  · isplitr; · iexact Hrec
    isplitr; · iexact Hlev
    isplitl [Hat]; · iexact Hat
    isplitl [Hcr]; · iexact Hcr
    iexact HO
  iintro ⟨HXd, HYd, ⟨%W1, HO⟩⟩
  iapply (wp_xsend m K c _ (dev_xn c _ _ (k0_dev3_eq c)) (0 : Fin 64) 0 W1 (xLanding m c (0 : Fin 64))) $$ [HXt HXd HO]
  · isplitr; · iexact Hrec
    isplitl [HXt]; · iexact HXt
    isplitl [HXd]; · iexact HXd
    isplitl []; · (iapply (Entails.of_eq (GXcred_self (F := F) c 0).symm); iempintro)
    iexact HO
  iintro ⟨HXt, HXd, HXc, HO⟩
  iapply (wp_xsend m K c _ (dev_xn c _ _ (k0_dev4_eq c)) (1 : Fin 64) 0 W1 (xLanding m c (1 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev5_eq c)) (2 : Fin 64) 0 W1 (xLanding m c (2 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev6_eq c)) (3 : Fin 64) 0 W1 (xLanding m c (3 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev7_eq c)) (4 : Fin 64) 0 W1 (xLanding m c (4 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev8_eq c)) (5 : Fin 64) 0 W1 (xLanding m c (5 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev9_eq c)) (6 : Fin 64) 0 W1 (xLanding m c (6 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev10_eq c)) (7 : Fin 64) 0 W1 (xLanding m c (7 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev11_eq c)) (8 : Fin 64) 0 W1 (xLanding m c (8 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev12_eq c)) (9 : Fin 64) 0 W1 (xLanding m c (9 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev13_eq c)) (10 : Fin 64) 0 W1 (xLanding m c (10 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev14_eq c)) (11 : Fin 64) 0 W1 (xLanding m c (11 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev15_eq c)) (12 : Fin 64) 0 W1 (xLanding m c (12 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev16_eq c)) (13 : Fin 64) 0 W1 (xLanding m c (13 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev17_eq c)) (14 : Fin 64) 0 W1 (xLanding m c (14 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev18_eq c)) (15 : Fin 64) 0 W1 (xLanding m c (15 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev19_eq c)) (16 : Fin 64) 0 W1 (xLanding m c (16 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev20_eq c)) (17 : Fin 64) 0 W1 (xLanding m c (17 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev21_eq c)) (18 : Fin 64) 0 W1 (xLanding m c (18 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev22_eq c)) (19 : Fin 64) 0 W1 (xLanding m c (19 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev23_eq c)) (20 : Fin 64) 0 W1 (xLanding m c (20 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev24_eq c)) (21 : Fin 64) 0 W1 (xLanding m c (21 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev25_eq c)) (22 : Fin 64) 0 W1 (xLanding m c (22 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev26_eq c)) (23 : Fin 64) 0 W1 (xLanding m c (23 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev27_eq c)) (24 : Fin 64) 0 W1 (xLanding m c (24 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev28_eq c)) (25 : Fin 64) 0 W1 (xLanding m c (25 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev29_eq c)) (26 : Fin 64) 0 W1 (xLanding m c (26 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev30_eq c)) (27 : Fin 64) 0 W1 (xLanding m c (27 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev31_eq c)) (28 : Fin 64) 0 W1 (xLanding m c (28 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev32_eq c)) (29 : Fin 64) 0 W1 (xLanding m c (29 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev33_eq c)) (30 : Fin 64) 0 W1 (xLanding m c (30 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev34_eq c)) (31 : Fin 64) 0 W1 (xLanding m c (31 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev35_eq c)) (32 : Fin 64) 0 W1 (xLanding m c (32 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev36_eq c)) (33 : Fin 64) 0 W1 (xLanding m c (33 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev37_eq c)) (34 : Fin 64) 0 W1 (xLanding m c (34 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev38_eq c)) (35 : Fin 64) 0 W1 (xLanding m c (35 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev39_eq c)) (36 : Fin 64) 0 W1 (xLanding m c (36 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev40_eq c)) (37 : Fin 64) 0 W1 (xLanding m c (37 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev41_eq c)) (38 : Fin 64) 0 W1 (xLanding m c (38 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev42_eq c)) (39 : Fin 64) 0 W1 (xLanding m c (39 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev43_eq c)) (40 : Fin 64) 0 W1 (xLanding m c (40 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev44_eq c)) (41 : Fin 64) 0 W1 (xLanding m c (41 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev45_eq c)) (42 : Fin 64) 0 W1 (xLanding m c (42 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev46_eq c)) (43 : Fin 64) 0 W1 (xLanding m c (43 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev47_eq c)) (44 : Fin 64) 0 W1 (xLanding m c (44 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev48_eq c)) (45 : Fin 64) 0 W1 (xLanding m c (45 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev49_eq c)) (46 : Fin 64) 0 W1 (xLanding m c (46 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev50_eq c)) (47 : Fin 64) 0 W1 (xLanding m c (47 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev51_eq c)) (48 : Fin 64) 0 W1 (xLanding m c (48 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev52_eq c)) (49 : Fin 64) 0 W1 (xLanding m c (49 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev53_eq c)) (50 : Fin 64) 0 W1 (xLanding m c (50 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev54_eq c)) (51 : Fin 64) 0 W1 (xLanding m c (51 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev55_eq c)) (52 : Fin 64) 0 W1 (xLanding m c (52 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev56_eq c)) (53 : Fin 64) 0 W1 (xLanding m c (53 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev57_eq c)) (54 : Fin 64) 0 W1 (xLanding m c (54 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev58_eq c)) (55 : Fin 64) 0 W1 (xLanding m c (55 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev59_eq c)) (56 : Fin 64) 0 W1 (xLanding m c (56 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev60_eq c)) (57 : Fin 64) 0 W1 (xLanding m c (57 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev61_eq c)) (58 : Fin 64) 0 W1 (xLanding m c (58 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev62_eq c)) (59 : Fin 64) 0 W1 (xLanding m c (59 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev63_eq c)) (60 : Fin 64) 0 W1 (xLanding m c (60 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev64_eq c)) (61 : Fin 64) 0 W1 (xLanding m c (61 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev65_eq c)) (62 : Fin 64) 0 W1 (xLanding m c (62 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev66_eq c)) (63 : Fin 64) 0 W1 (xLanding m c (63 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_rxwait m K c (0 : Fin 64) W1 (mayWait_rx c (0 : Fin 64) 0)) $$ [HRXw HO]
  · isplitr; · iexact Hrec
    isplitr; · iexact Hlev
    isplitl [HRXw]; · iexact HRXw
    isplitl []; · (iapply (Entails.of_eq (GRXdone_zero (F := F) c).symm); iempintro)
    iexact HO
  iintro ⟨HRXw, HRXz, Hland, ⟨%W2, HO⟩⟩
  iapply (wp_ysend m K c _ (dev_yn c _ _ (k0_dev67_eq c)) (0 : Fin 64) W2 (yBuf_set_eq c (0 : Fin 64)) (fun fd => yLanding m c (0 : Fin 64) (outFinal m c) (fun _ _ => rfl) fd)) $$ [HYt HYd Hland HO]
  · isplitr; · iexact Hrec
    isplitl [HYt]; · iexact HYt
    isplitl [HYd]; · iexact HYd
    isplitl []; · (iapply (Entails.of_eq (GYcred_self (F := F) c 0).symm); iempintro)
    isplitl [Hland]; · iexact Hland
    iexact HO
  iintro ⟨HYt, HYd, HYc, HO⟩
  iapply (wp_rxwait m K c (1 : Fin 64) W2 (mayWait_rx c (1 : Fin 64) 1)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W3, HO⟩⟩
  iapply (wp_ysend m K c _ (dev_yn c _ _ (k0_dev68_eq c)) (1 : Fin 64) W3 (yBuf_set_eq c (1 : Fin 64)) (fun fd => yLanding m c (1 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (2 : Fin 64) W3 (mayWait_rx c (2 : Fin 64) 2)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W4, HO⟩⟩
  iapply (wp_ysend m K c _ (dev_yn c _ _ (k0_dev69_eq c)) (2 : Fin 64) W4 (yBuf_set_eq c (2 : Fin 64)) (fun fd => yLanding m c (2 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (3 : Fin 64) W4 (mayWait_rx c (3 : Fin 64) 3)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W5, HO⟩⟩
  iapply (wp_ysend m K c _ (dev_yn c _ _ (k0_dev70_eq c)) (3 : Fin 64) W5 (yBuf_set_eq c (3 : Fin 64)) (fun fd => yLanding m c (3 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (GLtok_open m c (0 : Fin 8)) $$ [HLt]
  · iexact HLt
  iintro ⟨⟨Hli, Hlo, Hsrc, Hdst⟩, HLt⟩
  ihave HS0 := (slotIdleR_start m K c (0 : Fin 2)) $$ [HS0]
  · isplitr; · iexact Hrec
    iexact HS0
  iapply (wp_copy_in m K c (0 : Fin 8)) $$ [Hli Hsrc HS0]
  · isplitr; · iexact Hrec
    isplitl [Hli]; · iexact Hli
    isplitl [Hsrc]; · iexact Hsrc
    iexact HS0
  iintro HS0
  iapply (wp_wait_in m K c (0 : Fin 8) (mayWait_lin c (0 : Fin 2) 64 _)) $$ [HS0 HO]
  · isplitr; · iexact Hrec
    isplitr; · iexact Hlev
    isplitl [HS0]; · iexact HS0
    iexists W5; iexact HO
  iintro ⟨HS0, Hsrc0, ⟨%W6, HO⟩⟩
  iapply (wp_copy_out m K c (0 : Fin 8)) $$ [Hlo Hdst HS0]
  · isplitr; · iexact Hrec
    isplitl [Hlo]; · iexact Hlo
    isplitl [Hdst]; · iexact Hdst
    iexact HS0
  iintro HS0
  iapply (wp_rxwait m K c (4 : Fin 64) W6 (mayWait_rx c (4 : Fin 64) 4)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W7, HO⟩⟩
  iapply (wp_ysend m K c _ (dev_yn c _ _ (k0_dev71_eq c)) (4 : Fin 64) W7 (yBuf_set_eq c (4 : Fin 64)) (fun fd => yLanding m c (4 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (5 : Fin 64) W7 (mayWait_rx c (5 : Fin 64) 5)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W8, HO⟩⟩
  iapply (wp_ysend m K c _ (dev_yn c _ _ (k0_dev72_eq c)) (5 : Fin 64) W8 (yBuf_set_eq c (5 : Fin 64)) (fun fd => yLanding m c (5 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (6 : Fin 64) W8 (mayWait_rx c (6 : Fin 64) 6)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W9, HO⟩⟩
  iapply (wp_ysend m K c _ (dev_yn c _ _ (k0_dev73_eq c)) (6 : Fin 64) W9 (yBuf_set_eq c (6 : Fin 64)) (fun fd => yLanding m c (6 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (7 : Fin 64) W9 (mayWait_rx c (7 : Fin 64) 7)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W10, HO⟩⟩
  iapply (wp_ysend m K c _ (dev_yn c _ _ (k0_dev74_eq c)) (7 : Fin 64) W10 (yBuf_set_eq c (7 : Fin 64)) (fun fd => yLanding m c (7 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (GLtok_open m c (1 : Fin 8)) $$ [HLt]
  · iexact HLt
  iintro ⟨⟨Hli, Hlo, Hsrc, Hdst⟩, HLt⟩
  ihave HS1 := (slotIdleR_start m K c (1 : Fin 2)) $$ [HS1]
  · isplitr; · iexact Hrec
    iexact HS1
  iapply (wp_copy_in m K c (1 : Fin 8)) $$ [Hli Hsrc HS1]
  · isplitr; · iexact Hrec
    isplitl [Hli]; · iexact Hli
    isplitl [Hsrc]; · iexact Hsrc
    iexact HS1
  iintro HS1
  iapply (wp_wait_in m K c (1 : Fin 8) (mayWait_lin c (1 : Fin 2) 64 _)) $$ [HS1 HO]
  · isplitr; · iexact Hrec
    isplitr; · iexact Hlev
    isplitl [HS1]; · iexact HS1
    iexists W10; iexact HO
  iintro ⟨HS1, Hsrc1, ⟨%W11, HO⟩⟩
  iapply (wp_copy_out m K c (1 : Fin 8)) $$ [Hlo Hdst HS1]
  · isplitr; · iexact Hrec
    isplitl [Hlo]; · iexact Hlo
    isplitl [Hdst]; · iexact Hdst
    iexact HS1
  iintro HS1
  iapply (wp_rxwait m K c (8 : Fin 64) W11 (mayWait_rx c (8 : Fin 64) 8)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W12, HO⟩⟩
  iapply (wp_ysend m K c _ (dev_yn c _ _ (k0_dev75_eq c)) (8 : Fin 64) W12 (yBuf_set_eq c (8 : Fin 64)) (fun fd => yLanding m c (8 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (9 : Fin 64) W12 (mayWait_rx c (9 : Fin 64) 9)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W13, HO⟩⟩
  iapply (wp_ysend m K c _ (dev_yn c _ _ (k0_dev76_eq c)) (9 : Fin 64) W13 (yBuf_set_eq c (9 : Fin 64)) (fun fd => yLanding m c (9 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (10 : Fin 64) W13 (mayWait_rx c (10 : Fin 64) 10)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W14, HO⟩⟩
  iapply (wp_ysend m K c _ (dev_yn c _ _ (k0_dev77_eq c)) (10 : Fin 64) W14 (yBuf_set_eq c (10 : Fin 64)) (fun fd => yLanding m c (10 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (11 : Fin 64) W14 (mayWait_rx c (11 : Fin 64) 11)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W15, HO⟩⟩
  iapply (wp_ysend m K c _ (dev_yn c _ _ (k0_dev78_eq c)) (11 : Fin 64) W15 (yBuf_set_eq c (11 : Fin 64)) (fun fd => yLanding m c (11 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_wait_out m K c (0 : Fin 8) (mayWait_lout c (0 : Fin 2) 64 _)) $$ [HS0 HO]
  · isplitr; · iexact Hrec
    isplitr; · iexact Hlev
    isplitl [HS0]; · iexact HS0
    iexists W15; iexact HO
  iintro ⟨HS0, Hout0, ⟨%W16, HO⟩⟩
  iapply (GLtok_open m c (2 : Fin 8)) $$ [HLt]
  · iexact HLt
  iintro ⟨⟨Hli, Hlo, Hsrc, Hdst⟩, HLt⟩
  iapply (wp_copy_in m K c (2 : Fin 8)) $$ [Hli Hsrc HS0]
  · isplitr; · iexact Hrec
    isplitl [Hli]; · iexact Hli
    isplitl [Hsrc]; · iexact Hsrc
    iexact HS0
  iintro HS0
  iapply (wp_wait_in m K c (2 : Fin 8) (mayWait_lin c (0 : Fin 2) 64 _)) $$ [HS0 HO]
  · isplitr; · iexact Hrec
    isplitr; · iexact Hlev
    isplitl [HS0]; · iexact HS0
    iexists W16; iexact HO
  iintro ⟨HS0, Hsrc2, ⟨%W17, HO⟩⟩
  iapply (wp_copy_out m K c (2 : Fin 8)) $$ [Hlo Hdst HS0]
  · isplitr; · iexact Hrec
    isplitl [Hlo]; · iexact Hlo
    isplitl [Hdst]; · iexact Hdst
    iexact HS0
  iintro HS0
  iapply (wp_rxwait m K c (12 : Fin 64) W17 (mayWait_rx c (12 : Fin 64) 12)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W18, HO⟩⟩
  iapply (wp_ysend m K c _ (dev_yn c _ _ (k0_dev79_eq c)) (12 : Fin 64) W18 (yBuf_set_eq c (12 : Fin 64)) (fun fd => yLanding m c (12 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (13 : Fin 64) W18 (mayWait_rx c (13 : Fin 64) 13)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W19, HO⟩⟩
  iapply (wp_ysend m K c _ (dev_yn c _ _ (k0_dev80_eq c)) (13 : Fin 64) W19 (yBuf_set_eq c (13 : Fin 64)) (fun fd => yLanding m c (13 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (14 : Fin 64) W19 (mayWait_rx c (14 : Fin 64) 14)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W20, HO⟩⟩
  iapply (wp_ysend m K c _ (dev_yn c _ _ (k0_dev81_eq c)) (14 : Fin 64) W20 (yBuf_set_eq c (14 : Fin 64)) (fun fd => yLanding m c (14 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (15 : Fin 64) W20 (mayWait_rx c (15 : Fin 64) 15)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W21, HO⟩⟩
  iapply (wp_ysend m K c _ (dev_yn c _ _ (k0_dev82_eq c)) (15 : Fin 64) W21 (yBuf_set_eq c (15 : Fin 64)) (fun fd => yLanding m c (15 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_wait_out m K c (1 : Fin 8) (mayWait_lout c (1 : Fin 2) 64 _)) $$ [HS1 HO]
  · isplitr; · iexact Hrec
    isplitr; · iexact Hlev
    isplitl [HS1]; · iexact HS1
    iexists W21; iexact HO
  iintro ⟨HS1, Hout1, ⟨%W22, HO⟩⟩
  iapply (GLtok_open m c (3 : Fin 8)) $$ [HLt]
  · iexact HLt
  iintro ⟨⟨Hli, Hlo, Hsrc, Hdst⟩, HLt⟩
  iapply (wp_copy_in m K c (3 : Fin 8)) $$ [Hli Hsrc HS1]
  · isplitr; · iexact Hrec
    isplitl [Hli]; · iexact Hli
    isplitl [Hsrc]; · iexact Hsrc
    iexact HS1
  iintro HS1
  iapply (wp_wait_in m K c (3 : Fin 8) (mayWait_lin c (1 : Fin 2) 64 _)) $$ [HS1 HO]
  · isplitr; · iexact Hrec
    isplitr; · iexact Hlev
    isplitl [HS1]; · iexact HS1
    iexists W22; iexact HO
  iintro ⟨HS1, Hsrc3, ⟨%W23, HO⟩⟩
  iapply (wp_copy_out m K c (3 : Fin 8)) $$ [Hlo Hdst HS1]
  · isplitr; · iexact Hrec
    isplitl [Hlo]; · iexact Hlo
    isplitl [Hdst]; · iexact Hdst
    iexact HS1
  iintro HS1
  iapply (wp_rxwait m K c (16 : Fin 64) W23 (mayWait_rx c (16 : Fin 64) 16)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W24, HO⟩⟩
  iapply (wp_ysend m K c _ (dev_yn c _ _ (k0_dev83_eq c)) (16 : Fin 64) W24 (yBuf_set_eq c (16 : Fin 64)) (fun fd => yLanding m c (16 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (17 : Fin 64) W24 (mayWait_rx c (17 : Fin 64) 17)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W25, HO⟩⟩
  iapply (wp_ysend m K c _ (dev_yn c _ _ (k0_dev84_eq c)) (17 : Fin 64) W25 (yBuf_set_eq c (17 : Fin 64)) (fun fd => yLanding m c (17 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (18 : Fin 64) W25 (mayWait_rx c (18 : Fin 64) 18)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W26, HO⟩⟩
  iapply (wp_ysend m K c _ (dev_yn c _ _ (k0_dev85_eq c)) (18 : Fin 64) W26 (yBuf_set_eq c (18 : Fin 64)) (fun fd => yLanding m c (18 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (19 : Fin 64) W26 (mayWait_rx c (19 : Fin 64) 19)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W27, HO⟩⟩
  iapply (wp_ysend m K c _ (dev_yn c _ _ (k0_dev86_eq c)) (19 : Fin 64) W27 (yBuf_set_eq c (19 : Fin 64)) (fun fd => yLanding m c (19 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_wait_out m K c (2 : Fin 8) (mayWait_lout c (0 : Fin 2) 64 _)) $$ [HS0 HO]
  · isplitr; · iexact Hrec
    isplitr; · iexact Hlev
    isplitl [HS0]; · iexact HS0
    iexists W27; iexact HO
  iintro ⟨HS0, Hout2, ⟨%W28, HO⟩⟩
  iapply (GLtok_open m c (4 : Fin 8)) $$ [HLt]
  · iexact HLt
  iintro ⟨⟨Hli, Hlo, Hsrc, Hdst⟩, HLt⟩
  iapply (wp_copy_in m K c (4 : Fin 8)) $$ [Hli Hsrc HS0]
  · isplitr; · iexact Hrec
    isplitl [Hli]; · iexact Hli
    isplitl [Hsrc]; · iexact Hsrc
    iexact HS0
  iintro HS0
  iapply (wp_wait_in m K c (4 : Fin 8) (mayWait_lin c (0 : Fin 2) 64 _)) $$ [HS0 HO]
  · isplitr; · iexact Hrec
    isplitr; · iexact Hlev
    isplitl [HS0]; · iexact HS0
    iexists W28; iexact HO
  iintro ⟨HS0, Hsrc4, ⟨%W29, HO⟩⟩
  iapply (wp_copy_out m K c (4 : Fin 8)) $$ [Hlo Hdst HS0]
  · isplitr; · iexact Hrec
    isplitl [Hlo]; · iexact Hlo
    isplitl [Hdst]; · iexact Hdst
    iexact HS0
  iintro HS0
  iapply (wp_rxwait m K c (20 : Fin 64) W29 (mayWait_rx c (20 : Fin 64) 20)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W30, HO⟩⟩
  iapply (wp_ysend m K c _ (dev_yn c _ _ (k0_dev87_eq c)) (20 : Fin 64) W30 (yBuf_set_eq c (20 : Fin 64)) (fun fd => yLanding m c (20 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (21 : Fin 64) W30 (mayWait_rx c (21 : Fin 64) 21)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W31, HO⟩⟩
  iapply (wp_ysend m K c _ (dev_yn c _ _ (k0_dev88_eq c)) (21 : Fin 64) W31 (yBuf_set_eq c (21 : Fin 64)) (fun fd => yLanding m c (21 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (22 : Fin 64) W31 (mayWait_rx c (22 : Fin 64) 22)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W32, HO⟩⟩
  iapply (wp_ysend m K c _ (dev_yn c _ _ (k0_dev89_eq c)) (22 : Fin 64) W32 (yBuf_set_eq c (22 : Fin 64)) (fun fd => yLanding m c (22 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (23 : Fin 64) W32 (mayWait_rx c (23 : Fin 64) 23)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W33, HO⟩⟩
  iapply (wp_ysend m K c _ (dev_yn c _ _ (k0_dev90_eq c)) (23 : Fin 64) W33 (yBuf_set_eq c (23 : Fin 64)) (fun fd => yLanding m c (23 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_wait_out m K c (3 : Fin 8) (mayWait_lout c (1 : Fin 2) 64 _)) $$ [HS1 HO]
  · isplitr; · iexact Hrec
    isplitr; · iexact Hlev
    isplitl [HS1]; · iexact HS1
    iexists W33; iexact HO
  iintro ⟨HS1, Hout3, ⟨%W34, HO⟩⟩
  iapply (GLtok_open m c (5 : Fin 8)) $$ [HLt]
  · iexact HLt
  iintro ⟨⟨Hli, Hlo, Hsrc, Hdst⟩, HLt⟩
  iapply (wp_copy_in m K c (5 : Fin 8)) $$ [Hli Hsrc HS1]
  · isplitr; · iexact Hrec
    isplitl [Hli]; · iexact Hli
    isplitl [Hsrc]; · iexact Hsrc
    iexact HS1
  iintro HS1
  iapply (wp_wait_in m K c (5 : Fin 8) (mayWait_lin c (1 : Fin 2) 64 _)) $$ [HS1 HO]
  · isplitr; · iexact Hrec
    isplitr; · iexact Hlev
    isplitl [HS1]; · iexact HS1
    iexists W34; iexact HO
  iintro ⟨HS1, Hsrc5, ⟨%W35, HO⟩⟩
  iapply (wp_copy_out m K c (5 : Fin 8)) $$ [Hlo Hdst HS1]
  · isplitr; · iexact Hrec
    isplitl [Hlo]; · iexact Hlo
    isplitl [Hdst]; · iexact Hdst
    iexact HS1
  iintro HS1
  iapply (wp_rxwait m K c (24 : Fin 64) W35 (mayWait_rx c (24 : Fin 64) 24)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W36, HO⟩⟩
  iapply (wp_ysend m K c _ (dev_yn c _ _ (k0_dev91_eq c)) (24 : Fin 64) W36 (yBuf_set_eq c (24 : Fin 64)) (fun fd => yLanding m c (24 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (25 : Fin 64) W36 (mayWait_rx c (25 : Fin 64) 25)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W37, HO⟩⟩
  iapply (wp_ysend m K c _ (dev_yn c _ _ (k0_dev92_eq c)) (25 : Fin 64) W37 (yBuf_set_eq c (25 : Fin 64)) (fun fd => yLanding m c (25 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (26 : Fin 64) W37 (mayWait_rx c (26 : Fin 64) 26)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W38, HO⟩⟩
  iapply (wp_ysend m K c _ (dev_yn c _ _ (k0_dev93_eq c)) (26 : Fin 64) W38 (yBuf_set_eq c (26 : Fin 64)) (fun fd => yLanding m c (26 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (27 : Fin 64) W38 (mayWait_rx c (27 : Fin 64) 27)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W39, HO⟩⟩
  iapply (wp_ysend m K c _ (dev_yn c _ _ (k0_dev94_eq c)) (27 : Fin 64) W39 (yBuf_set_eq c (27 : Fin 64)) (fun fd => yLanding m c (27 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_wait_out m K c (4 : Fin 8) (mayWait_lout c (0 : Fin 2) 64 _)) $$ [HS0 HO]
  · isplitr; · iexact Hrec
    isplitr; · iexact Hlev
    isplitl [HS0]; · iexact HS0
    iexists W39; iexact HO
  iintro ⟨HS0, Hout4, ⟨%W40, HO⟩⟩
  iapply (GLtok_open m c (6 : Fin 8)) $$ [HLt]
  · iexact HLt
  iintro ⟨⟨Hli, Hlo, Hsrc, Hdst⟩, HLt⟩
  iapply (wp_copy_in m K c (6 : Fin 8)) $$ [Hli Hsrc HS0]
  · isplitr; · iexact Hrec
    isplitl [Hli]; · iexact Hli
    isplitl [Hsrc]; · iexact Hsrc
    iexact HS0
  iintro HS0
  iapply (wp_wait_in m K c (6 : Fin 8) (mayWait_lin c (0 : Fin 2) 64 _)) $$ [HS0 HO]
  · isplitr; · iexact Hrec
    isplitr; · iexact Hlev
    isplitl [HS0]; · iexact HS0
    iexists W40; iexact HO
  iintro ⟨HS0, Hsrc6, ⟨%W41, HO⟩⟩
  iapply (wp_copy_out m K c (6 : Fin 8)) $$ [Hlo Hdst HS0]
  · isplitr; · iexact Hrec
    isplitl [Hlo]; · iexact Hlo
    isplitl [Hdst]; · iexact Hdst
    iexact HS0
  iintro HS0
  iapply (wp_rxwait m K c (28 : Fin 64) W41 (mayWait_rx c (28 : Fin 64) 28)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W42, HO⟩⟩
  iapply (wp_ysend m K c _ (dev_yn c _ _ (k0_dev95_eq c)) (28 : Fin 64) W42 (yBuf_set_eq c (28 : Fin 64)) (fun fd => yLanding m c (28 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (29 : Fin 64) W42 (mayWait_rx c (29 : Fin 64) 29)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W43, HO⟩⟩
  iapply (wp_ysend m K c _ (dev_yn c _ _ (k0_dev96_eq c)) (29 : Fin 64) W43 (yBuf_set_eq c (29 : Fin 64)) (fun fd => yLanding m c (29 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (30 : Fin 64) W43 (mayWait_rx c (30 : Fin 64) 30)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W44, HO⟩⟩
  iapply (wp_ysend m K c _ (dev_yn c _ _ (k0_dev97_eq c)) (30 : Fin 64) W44 (yBuf_set_eq c (30 : Fin 64)) (fun fd => yLanding m c (30 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (31 : Fin 64) W44 (mayWait_rx c (31 : Fin 64) 31)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W45, HO⟩⟩
  iapply (wp_ysend m K c _ (dev_yn c _ _ (k0_dev98_eq c)) (31 : Fin 64) W45 (yBuf_set_eq c (31 : Fin 64)) (fun fd => yLanding m c (31 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_wait_out m K c (5 : Fin 8) (mayWait_lout c (1 : Fin 2) 64 _)) $$ [HS1 HO]
  · isplitr; · iexact Hrec
    isplitr; · iexact Hlev
    isplitl [HS1]; · iexact HS1
    iexists W45; iexact HO
  iintro ⟨HS1, Hout5, ⟨%W46, HO⟩⟩
  iapply (GLtok_open m c (7 : Fin 8)) $$ [HLt]
  · iexact HLt
  iintro ⟨⟨Hli, Hlo, Hsrc, Hdst⟩, HLt⟩
  iapply (wp_copy_in m K c (7 : Fin 8)) $$ [Hli Hsrc HS1]
  · isplitr; · iexact Hrec
    isplitl [Hli]; · iexact Hli
    isplitl [Hsrc]; · iexact Hsrc
    iexact HS1
  iintro HS1
  iapply (wp_wait_in m K c (7 : Fin 8) (mayWait_lin c (1 : Fin 2) 64 _)) $$ [HS1 HO]
  · isplitr; · iexact Hrec
    isplitr; · iexact Hlev
    isplitl [HS1]; · iexact HS1
    iexists W46; iexact HO
  iintro ⟨HS1, Hsrc7, ⟨%W47, HO⟩⟩
  iapply (wp_copy_out m K c (7 : Fin 8)) $$ [Hlo Hdst HS1]
  · isplitr; · iexact Hrec
    isplitl [Hlo]; · iexact Hlo
    isplitl [Hdst]; · iexact Hdst
    iexact HS1
  iintro HS1
  iapply (wp_rxwait m K c (32 : Fin 64) W47 (mayWait_rx c (32 : Fin 64) 32)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W48, HO⟩⟩
  iapply (wp_ysend m K c _ (dev_yn c _ _ (k0_dev99_eq c)) (32 : Fin 64) W48 (yBuf_set_eq c (32 : Fin 64)) (fun fd => yLanding m c (32 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (33 : Fin 64) W48 (mayWait_rx c (33 : Fin 64) 33)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W49, HO⟩⟩
  iapply (wp_ysend m K c _ (dev_yn c _ _ (k0_dev100_eq c)) (33 : Fin 64) W49 (yBuf_set_eq c (33 : Fin 64)) (fun fd => yLanding m c (33 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (34 : Fin 64) W49 (mayWait_rx c (34 : Fin 64) 34)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W50, HO⟩⟩
  iapply (wp_ysend m K c _ (dev_yn c _ _ (k0_dev101_eq c)) (34 : Fin 64) W50 (yBuf_set_eq c (34 : Fin 64)) (fun fd => yLanding m c (34 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (35 : Fin 64) W50 (mayWait_rx c (35 : Fin 64) 35)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W51, HO⟩⟩
  iapply (wp_ysend m K c _ (dev_yn c _ _ (k0_dev102_eq c)) (35 : Fin 64) W51 (yBuf_set_eq c (35 : Fin 64)) (fun fd => yLanding m c (35 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (36 : Fin 64) W51 (mayWait_rx c (36 : Fin 64) 36)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W52, HO⟩⟩
  iapply (wp_ysend m K c _ (dev_yn c _ _ (k0_dev103_eq c)) (36 : Fin 64) W52 (yBuf_set_eq c (36 : Fin 64)) (fun fd => yLanding m c (36 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (37 : Fin 64) W52 (mayWait_rx c (37 : Fin 64) 37)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W53, HO⟩⟩
  iapply (wp_ysend m K c _ (dev_yn c _ _ (k0_dev104_eq c)) (37 : Fin 64) W53 (yBuf_set_eq c (37 : Fin 64)) (fun fd => yLanding m c (37 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (38 : Fin 64) W53 (mayWait_rx c (38 : Fin 64) 38)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W54, HO⟩⟩
  iapply (wp_ysend m K c _ (dev_yn c _ _ (k0_dev105_eq c)) (38 : Fin 64) W54 (yBuf_set_eq c (38 : Fin 64)) (fun fd => yLanding m c (38 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (39 : Fin 64) W54 (mayWait_rx c (39 : Fin 64) 39)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W55, HO⟩⟩
  iapply (wp_ysend m K c _ (dev_yn c _ _ (k0_dev106_eq c)) (39 : Fin 64) W55 (yBuf_set_eq c (39 : Fin 64)) (fun fd => yLanding m c (39 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (40 : Fin 64) W55 (mayWait_rx c (40 : Fin 64) 40)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W56, HO⟩⟩
  iapply (wp_ysend m K c _ (dev_yn c _ _ (k0_dev107_eq c)) (40 : Fin 64) W56 (yBuf_set_eq c (40 : Fin 64)) (fun fd => yLanding m c (40 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (41 : Fin 64) W56 (mayWait_rx c (41 : Fin 64) 41)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W57, HO⟩⟩
  iapply (wp_ysend m K c _ (dev_yn c _ _ (k0_dev108_eq c)) (41 : Fin 64) W57 (yBuf_set_eq c (41 : Fin 64)) (fun fd => yLanding m c (41 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (42 : Fin 64) W57 (mayWait_rx c (42 : Fin 64) 42)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W58, HO⟩⟩
  iapply (wp_ysend m K c _ (dev_yn c _ _ (k0_dev109_eq c)) (42 : Fin 64) W58 (yBuf_set_eq c (42 : Fin 64)) (fun fd => yLanding m c (42 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (43 : Fin 64) W58 (mayWait_rx c (43 : Fin 64) 43)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W59, HO⟩⟩
  iapply (wp_ysend m K c _ (dev_yn c _ _ (k0_dev110_eq c)) (43 : Fin 64) W59 (yBuf_set_eq c (43 : Fin 64)) (fun fd => yLanding m c (43 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (44 : Fin 64) W59 (mayWait_rx c (44 : Fin 64) 44)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W60, HO⟩⟩
  iapply (wp_ysend m K c _ (dev_yn c _ _ (k0_dev111_eq c)) (44 : Fin 64) W60 (yBuf_set_eq c (44 : Fin 64)) (fun fd => yLanding m c (44 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (45 : Fin 64) W60 (mayWait_rx c (45 : Fin 64) 45)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W61, HO⟩⟩
  iapply (wp_ysend m K c _ (dev_yn c _ _ (k0_dev112_eq c)) (45 : Fin 64) W61 (yBuf_set_eq c (45 : Fin 64)) (fun fd => yLanding m c (45 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (46 : Fin 64) W61 (mayWait_rx c (46 : Fin 64) 46)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W62, HO⟩⟩
  iapply (wp_ysend m K c _ (dev_yn c _ _ (k0_dev113_eq c)) (46 : Fin 64) W62 (yBuf_set_eq c (46 : Fin 64)) (fun fd => yLanding m c (46 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (47 : Fin 64) W62 (mayWait_rx c (47 : Fin 64) 47)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W63, HO⟩⟩
  iapply (wp_ysend m K c _ (dev_yn c _ _ (k0_dev114_eq c)) (47 : Fin 64) W63 (yBuf_set_eq c (47 : Fin 64)) (fun fd => yLanding m c (47 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (48 : Fin 64) W63 (mayWait_rx c (48 : Fin 64) 48)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W64, HO⟩⟩
  iapply (wp_ysend m K c _ (dev_yn c _ _ (k0_dev115_eq c)) (48 : Fin 64) W64 (yBuf_set_eq c (48 : Fin 64)) (fun fd => yLanding m c (48 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (49 : Fin 64) W64 (mayWait_rx c (49 : Fin 64) 49)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W65, HO⟩⟩
  iapply (wp_ysend m K c _ (dev_yn c _ _ (k0_dev116_eq c)) (49 : Fin 64) W65 (yBuf_set_eq c (49 : Fin 64)) (fun fd => yLanding m c (49 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (50 : Fin 64) W65 (mayWait_rx c (50 : Fin 64) 50)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W66, HO⟩⟩
  iapply (wp_ysend m K c _ (dev_yn c _ _ (k0_dev117_eq c)) (50 : Fin 64) W66 (yBuf_set_eq c (50 : Fin 64)) (fun fd => yLanding m c (50 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (51 : Fin 64) W66 (mayWait_rx c (51 : Fin 64) 51)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W67, HO⟩⟩
  iapply (wp_ysend m K c _ (dev_yn c _ _ (k0_dev118_eq c)) (51 : Fin 64) W67 (yBuf_set_eq c (51 : Fin 64)) (fun fd => yLanding m c (51 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (52 : Fin 64) W67 (mayWait_rx c (52 : Fin 64) 52)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W68, HO⟩⟩
  iapply (wp_ysend m K c _ (dev_yn c _ _ (k0_dev119_eq c)) (52 : Fin 64) W68 (yBuf_set_eq c (52 : Fin 64)) (fun fd => yLanding m c (52 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (53 : Fin 64) W68 (mayWait_rx c (53 : Fin 64) 53)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W69, HO⟩⟩
  iapply (wp_ysend m K c _ (dev_yn c _ _ (k0_dev120_eq c)) (53 : Fin 64) W69 (yBuf_set_eq c (53 : Fin 64)) (fun fd => yLanding m c (53 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (54 : Fin 64) W69 (mayWait_rx c (54 : Fin 64) 54)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W70, HO⟩⟩
  iapply (wp_ysend m K c _ (dev_yn c _ _ (k0_dev121_eq c)) (54 : Fin 64) W70 (yBuf_set_eq c (54 : Fin 64)) (fun fd => yLanding m c (54 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (55 : Fin 64) W70 (mayWait_rx c (55 : Fin 64) 55)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W71, HO⟩⟩
  iapply (wp_ysend m K c _ (dev_yn c _ _ (k0_dev122_eq c)) (55 : Fin 64) W71 (yBuf_set_eq c (55 : Fin 64)) (fun fd => yLanding m c (55 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (56 : Fin 64) W71 (mayWait_rx c (56 : Fin 64) 56)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W72, HO⟩⟩
  iapply (wp_ysend m K c _ (dev_yn c _ _ (k0_dev123_eq c)) (56 : Fin 64) W72 (yBuf_set_eq c (56 : Fin 64)) (fun fd => yLanding m c (56 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (57 : Fin 64) W72 (mayWait_rx c (57 : Fin 64) 57)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W73, HO⟩⟩
  iapply (wp_ysend m K c _ (dev_yn c _ _ (k0_dev124_eq c)) (57 : Fin 64) W73 (yBuf_set_eq c (57 : Fin 64)) (fun fd => yLanding m c (57 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (58 : Fin 64) W73 (mayWait_rx c (58 : Fin 64) 58)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W74, HO⟩⟩
  iapply (wp_ysend m K c _ (dev_yn c _ _ (k0_dev125_eq c)) (58 : Fin 64) W74 (yBuf_set_eq c (58 : Fin 64)) (fun fd => yLanding m c (58 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (59 : Fin 64) W74 (mayWait_rx c (59 : Fin 64) 59)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W75, HO⟩⟩
  iapply (wp_ysend m K c _ (dev_yn c _ _ (k0_dev126_eq c)) (59 : Fin 64) W75 (yBuf_set_eq c (59 : Fin 64)) (fun fd => yLanding m c (59 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (60 : Fin 64) W75 (mayWait_rx c (60 : Fin 64) 60)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W76, HO⟩⟩
  iapply (wp_ysend m K c _ (dev_yn c _ _ (k0_dev127_eq c)) (60 : Fin 64) W76 (yBuf_set_eq c (60 : Fin 64)) (fun fd => yLanding m c (60 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (61 : Fin 64) W76 (mayWait_rx c (61 : Fin 64) 61)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W77, HO⟩⟩
  iapply (wp_ysend m K c _ (dev_yn c _ _ (k0_dev128_eq c)) (61 : Fin 64) W77 (yBuf_set_eq c (61 : Fin 64)) (fun fd => yLanding m c (61 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (62 : Fin 64) W77 (mayWait_rx c (62 : Fin 64) 62)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W78, HO⟩⟩
  iapply (wp_ysend m K c _ (dev_yn c _ _ (k0_dev129_eq c)) (62 : Fin 64) W78 (yBuf_set_eq c (62 : Fin 64)) (fun fd => yLanding m c (62 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (63 : Fin 64) W78 (mayWait_rx c (63 : Fin 64) 63)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W79, HO⟩⟩
  iapply (wp_ysend m K c _ (dev_yn c _ _ (k0_dev130_eq c)) (63 : Fin 64) W79 (yBuf_set_eq c (63 : Fin 64)) (fun fd => yLanding m c (63 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_ry_wait m K c (0 : Fin 64) W79) $$ [HRYw HO]
  · isplitr; · iexact Hrec
    isplitl [HRYw]; · iexact HRYw
    isplitl []; · (iapply (Entails.of_eq (GRYdone_zero m c).symm); iempintro)
    iexact HO
  iintro ⟨HRYw, HRYz, ⟨%W80, HO⟩⟩
  iapply (wp_ry_wait m K c (1 : Fin 64) W80) $$ [HRYw HRYz HO]
  · isplitr; · iexact Hrec
    isplitl [HRYw]; · iexact HRYw
    isplitl [HRYz]; · iexact HRYz
    iexact HO
  iintro ⟨HRYw, HRYz, ⟨%W81, HO⟩⟩
  iapply (wp_ry_wait m K c (2 : Fin 64) W81) $$ [HRYw HRYz HO]
  · isplitr; · iexact Hrec
    isplitl [HRYw]; · iexact HRYw
    isplitl [HRYz]; · iexact HRYz
    iexact HO
  iintro ⟨HRYw, HRYz, ⟨%W82, HO⟩⟩
  iapply (wp_ry_wait m K c (3 : Fin 64) W82) $$ [HRYw HRYz HO]
  · isplitr; · iexact Hrec
    isplitl [HRYw]; · iexact HRYw
    isplitl [HRYz]; · iexact HRYz
    iexact HO
  iintro ⟨HRYw, HRYz, ⟨%W83, HO⟩⟩
  iapply (wp_ry_wait m K c (4 : Fin 64) W83) $$ [HRYw HRYz HO]
  · isplitr; · iexact Hrec
    isplitl [HRYw]; · iexact HRYw
    isplitl [HRYz]; · iexact HRYz
    iexact HO
  iintro ⟨HRYw, HRYz, ⟨%W84, HO⟩⟩
  iapply (wp_ry_wait m K c (5 : Fin 64) W84) $$ [HRYw HRYz HO]
  · isplitr; · iexact Hrec
    isplitl [HRYw]; · iexact HRYw
    isplitl [HRYz]; · iexact HRYz
    iexact HO
  iintro ⟨HRYw, HRYz, ⟨%W85, HO⟩⟩
  iapply (wp_ry_wait m K c (6 : Fin 64) W85) $$ [HRYw HRYz HO]
  · isplitr; · iexact Hrec
    isplitl [HRYw]; · iexact HRYw
    isplitl [HRYz]; · iexact HRYz
    iexact HO
  iintro ⟨HRYw, HRYz, ⟨%W86, HO⟩⟩
  iapply (wp_ry_wait m K c (7 : Fin 64) W86) $$ [HRYw HRYz HO]
  · isplitr; · iexact Hrec
    isplitl [HRYw]; · iexact HRYw
    isplitl [HRYz]; · iexact HRYz
    iexact HO
  iintro ⟨HRYw, HRYz, ⟨%W87, HO⟩⟩
  iapply (wp_ry_wait m K c (8 : Fin 64) W87) $$ [HRYw HRYz HO]
  · isplitr; · iexact Hrec
    isplitl [HRYw]; · iexact HRYw
    isplitl [HRYz]; · iexact HRYz
    iexact HO
  iintro ⟨HRYw, HRYz, ⟨%W88, HO⟩⟩
  iapply (wp_ry_wait m K c (9 : Fin 64) W88) $$ [HRYw HRYz HO]
  · isplitr; · iexact Hrec
    isplitl [HRYw]; · iexact HRYw
    isplitl [HRYz]; · iexact HRYz
    iexact HO
  iintro ⟨HRYw, HRYz, ⟨%W89, HO⟩⟩
  iapply (wp_ry_wait m K c (10 : Fin 64) W89) $$ [HRYw HRYz HO]
  · isplitr; · iexact Hrec
    isplitl [HRYw]; · iexact HRYw
    isplitl [HRYz]; · iexact HRYz
    iexact HO
  iintro ⟨HRYw, HRYz, ⟨%W90, HO⟩⟩
  iapply (wp_ry_wait m K c (11 : Fin 64) W90) $$ [HRYw HRYz HO]
  · isplitr; · iexact Hrec
    isplitl [HRYw]; · iexact HRYw
    isplitl [HRYz]; · iexact HRYz
    iexact HO
  iintro ⟨HRYw, HRYz, ⟨%W91, HO⟩⟩
  iapply (wp_ry_wait m K c (12 : Fin 64) W91) $$ [HRYw HRYz HO]
  · isplitr; · iexact Hrec
    isplitl [HRYw]; · iexact HRYw
    isplitl [HRYz]; · iexact HRYz
    iexact HO
  iintro ⟨HRYw, HRYz, ⟨%W92, HO⟩⟩
  iapply (wp_ry_wait m K c (13 : Fin 64) W92) $$ [HRYw HRYz HO]
  · isplitr; · iexact Hrec
    isplitl [HRYw]; · iexact HRYw
    isplitl [HRYz]; · iexact HRYz
    iexact HO
  iintro ⟨HRYw, HRYz, ⟨%W93, HO⟩⟩
  iapply (wp_ry_wait m K c (14 : Fin 64) W93) $$ [HRYw HRYz HO]
  · isplitr; · iexact Hrec
    isplitl [HRYw]; · iexact HRYw
    isplitl [HRYz]; · iexact HRYz
    iexact HO
  iintro ⟨HRYw, HRYz, ⟨%W94, HO⟩⟩
  iapply (wp_ry_wait m K c (15 : Fin 64) W94) $$ [HRYw HRYz HO]
  · isplitr; · iexact Hrec
    isplitl [HRYw]; · iexact HRYw
    isplitl [HRYz]; · iexact HRYz
    iexact HO
  iintro ⟨HRYw, HRYz, ⟨%W95, HO⟩⟩
  iapply (wp_ry_wait m K c (16 : Fin 64) W95) $$ [HRYw HRYz HO]
  · isplitr; · iexact Hrec
    isplitl [HRYw]; · iexact HRYw
    isplitl [HRYz]; · iexact HRYz
    iexact HO
  iintro ⟨HRYw, HRYz, ⟨%W96, HO⟩⟩
  iapply (wp_ry_wait m K c (17 : Fin 64) W96) $$ [HRYw HRYz HO]
  · isplitr; · iexact Hrec
    isplitl [HRYw]; · iexact HRYw
    isplitl [HRYz]; · iexact HRYz
    iexact HO
  iintro ⟨HRYw, HRYz, ⟨%W97, HO⟩⟩
  iapply (wp_ry_wait m K c (18 : Fin 64) W97) $$ [HRYw HRYz HO]
  · isplitr; · iexact Hrec
    isplitl [HRYw]; · iexact HRYw
    isplitl [HRYz]; · iexact HRYz
    iexact HO
  iintro ⟨HRYw, HRYz, ⟨%W98, HO⟩⟩
  iapply (wp_ry_wait m K c (19 : Fin 64) W98) $$ [HRYw HRYz HO]
  · isplitr; · iexact Hrec
    isplitl [HRYw]; · iexact HRYw
    isplitl [HRYz]; · iexact HRYz
    iexact HO
  iintro ⟨HRYw, HRYz, ⟨%W99, HO⟩⟩
  iapply (wp_ry_wait m K c (20 : Fin 64) W99) $$ [HRYw HRYz HO]
  · isplitr; · iexact Hrec
    isplitl [HRYw]; · iexact HRYw
    isplitl [HRYz]; · iexact HRYz
    iexact HO
  iintro ⟨HRYw, HRYz, ⟨%W100, HO⟩⟩
  iapply (wp_ry_wait m K c (21 : Fin 64) W100) $$ [HRYw HRYz HO]
  · isplitr; · iexact Hrec
    isplitl [HRYw]; · iexact HRYw
    isplitl [HRYz]; · iexact HRYz
    iexact HO
  iintro ⟨HRYw, HRYz, ⟨%W101, HO⟩⟩
  iapply (wp_ry_wait m K c (22 : Fin 64) W101) $$ [HRYw HRYz HO]
  · isplitr; · iexact Hrec
    isplitl [HRYw]; · iexact HRYw
    isplitl [HRYz]; · iexact HRYz
    iexact HO
  iintro ⟨HRYw, HRYz, ⟨%W102, HO⟩⟩
  iapply (wp_ry_wait m K c (23 : Fin 64) W102) $$ [HRYw HRYz HO]
  · isplitr; · iexact Hrec
    isplitl [HRYw]; · iexact HRYw
    isplitl [HRYz]; · iexact HRYz
    iexact HO
  iintro ⟨HRYw, HRYz, ⟨%W103, HO⟩⟩
  iapply (wp_ry_wait m K c (24 : Fin 64) W103) $$ [HRYw HRYz HO]
  · isplitr; · iexact Hrec
    isplitl [HRYw]; · iexact HRYw
    isplitl [HRYz]; · iexact HRYz
    iexact HO
  iintro ⟨HRYw, HRYz, ⟨%W104, HO⟩⟩
  iapply (wp_ry_wait m K c (25 : Fin 64) W104) $$ [HRYw HRYz HO]
  · isplitr; · iexact Hrec
    isplitl [HRYw]; · iexact HRYw
    isplitl [HRYz]; · iexact HRYz
    iexact HO
  iintro ⟨HRYw, HRYz, ⟨%W105, HO⟩⟩
  iapply (wp_ry_wait m K c (26 : Fin 64) W105) $$ [HRYw HRYz HO]
  · isplitr; · iexact Hrec
    isplitl [HRYw]; · iexact HRYw
    isplitl [HRYz]; · iexact HRYz
    iexact HO
  iintro ⟨HRYw, HRYz, ⟨%W106, HO⟩⟩
  iapply (wp_ry_wait m K c (27 : Fin 64) W106) $$ [HRYw HRYz HO]
  · isplitr; · iexact Hrec
    isplitl [HRYw]; · iexact HRYw
    isplitl [HRYz]; · iexact HRYz
    iexact HO
  iintro ⟨HRYw, HRYz, ⟨%W107, HO⟩⟩
  iapply (wp_ry_wait m K c (28 : Fin 64) W107) $$ [HRYw HRYz HO]
  · isplitr; · iexact Hrec
    isplitl [HRYw]; · iexact HRYw
    isplitl [HRYz]; · iexact HRYz
    iexact HO
  iintro ⟨HRYw, HRYz, ⟨%W108, HO⟩⟩
  iapply (wp_ry_wait m K c (29 : Fin 64) W108) $$ [HRYw HRYz HO]
  · isplitr; · iexact Hrec
    isplitl [HRYw]; · iexact HRYw
    isplitl [HRYz]; · iexact HRYz
    iexact HO
  iintro ⟨HRYw, HRYz, ⟨%W109, HO⟩⟩
  iapply (wp_ry_wait m K c (30 : Fin 64) W109) $$ [HRYw HRYz HO]
  · isplitr; · iexact Hrec
    isplitl [HRYw]; · iexact HRYw
    isplitl [HRYz]; · iexact HRYz
    iexact HO
  iintro ⟨HRYw, HRYz, ⟨%W110, HO⟩⟩
  iapply (wp_ry_wait m K c (31 : Fin 64) W110) $$ [HRYw HRYz HO]
  · isplitr; · iexact Hrec
    isplitl [HRYw]; · iexact HRYw
    isplitl [HRYz]; · iexact HRYz
    iexact HO
  iintro ⟨HRYw, HRYz, ⟨%W111, HO⟩⟩
  iapply (wp_ry_wait m K c (32 : Fin 64) W111) $$ [HRYw HRYz HO]
  · isplitr; · iexact Hrec
    isplitl [HRYw]; · iexact HRYw
    isplitl [HRYz]; · iexact HRYz
    iexact HO
  iintro ⟨HRYw, HRYz, ⟨%W112, HO⟩⟩
  iapply (wp_ry_wait m K c (33 : Fin 64) W112) $$ [HRYw HRYz HO]
  · isplitr; · iexact Hrec
    isplitl [HRYw]; · iexact HRYw
    isplitl [HRYz]; · iexact HRYz
    iexact HO
  iintro ⟨HRYw, HRYz, ⟨%W113, HO⟩⟩
  iapply (wp_ry_wait m K c (34 : Fin 64) W113) $$ [HRYw HRYz HO]
  · isplitr; · iexact Hrec
    isplitl [HRYw]; · iexact HRYw
    isplitl [HRYz]; · iexact HRYz
    iexact HO
  iintro ⟨HRYw, HRYz, ⟨%W114, HO⟩⟩
  iapply (wp_ry_wait m K c (35 : Fin 64) W114) $$ [HRYw HRYz HO]
  · isplitr; · iexact Hrec
    isplitl [HRYw]; · iexact HRYw
    isplitl [HRYz]; · iexact HRYz
    iexact HO
  iintro ⟨HRYw, HRYz, ⟨%W115, HO⟩⟩
  iapply (wp_ry_wait m K c (36 : Fin 64) W115) $$ [HRYw HRYz HO]
  · isplitr; · iexact Hrec
    isplitl [HRYw]; · iexact HRYw
    isplitl [HRYz]; · iexact HRYz
    iexact HO
  iintro ⟨HRYw, HRYz, ⟨%W116, HO⟩⟩
  iapply (wp_ry_wait m K c (37 : Fin 64) W116) $$ [HRYw HRYz HO]
  · isplitr; · iexact Hrec
    isplitl [HRYw]; · iexact HRYw
    isplitl [HRYz]; · iexact HRYz
    iexact HO
  iintro ⟨HRYw, HRYz, ⟨%W117, HO⟩⟩
  iapply (wp_ry_wait m K c (38 : Fin 64) W117) $$ [HRYw HRYz HO]
  · isplitr; · iexact Hrec
    isplitl [HRYw]; · iexact HRYw
    isplitl [HRYz]; · iexact HRYz
    iexact HO
  iintro ⟨HRYw, HRYz, ⟨%W118, HO⟩⟩
  iapply (wp_ry_wait m K c (39 : Fin 64) W118) $$ [HRYw HRYz HO]
  · isplitr; · iexact Hrec
    isplitl [HRYw]; · iexact HRYw
    isplitl [HRYz]; · iexact HRYz
    iexact HO
  iintro ⟨HRYw, HRYz, ⟨%W119, HO⟩⟩
  iapply (wp_ry_wait m K c (40 : Fin 64) W119) $$ [HRYw HRYz HO]
  · isplitr; · iexact Hrec
    isplitl [HRYw]; · iexact HRYw
    isplitl [HRYz]; · iexact HRYz
    iexact HO
  iintro ⟨HRYw, HRYz, ⟨%W120, HO⟩⟩
  iapply (wp_ry_wait m K c (41 : Fin 64) W120) $$ [HRYw HRYz HO]
  · isplitr; · iexact Hrec
    isplitl [HRYw]; · iexact HRYw
    isplitl [HRYz]; · iexact HRYz
    iexact HO
  iintro ⟨HRYw, HRYz, ⟨%W121, HO⟩⟩
  iapply (wp_ry_wait m K c (42 : Fin 64) W121) $$ [HRYw HRYz HO]
  · isplitr; · iexact Hrec
    isplitl [HRYw]; · iexact HRYw
    isplitl [HRYz]; · iexact HRYz
    iexact HO
  iintro ⟨HRYw, HRYz, ⟨%W122, HO⟩⟩
  iapply (wp_ry_wait m K c (43 : Fin 64) W122) $$ [HRYw HRYz HO]
  · isplitr; · iexact Hrec
    isplitl [HRYw]; · iexact HRYw
    isplitl [HRYz]; · iexact HRYz
    iexact HO
  iintro ⟨HRYw, HRYz, ⟨%W123, HO⟩⟩
  iapply (wp_ry_wait m K c (44 : Fin 64) W123) $$ [HRYw HRYz HO]
  · isplitr; · iexact Hrec
    isplitl [HRYw]; · iexact HRYw
    isplitl [HRYz]; · iexact HRYz
    iexact HO
  iintro ⟨HRYw, HRYz, ⟨%W124, HO⟩⟩
  iapply (wp_ry_wait m K c (45 : Fin 64) W124) $$ [HRYw HRYz HO]
  · isplitr; · iexact Hrec
    isplitl [HRYw]; · iexact HRYw
    isplitl [HRYz]; · iexact HRYz
    iexact HO
  iintro ⟨HRYw, HRYz, ⟨%W125, HO⟩⟩
  iapply (wp_ry_wait m K c (46 : Fin 64) W125) $$ [HRYw HRYz HO]
  · isplitr; · iexact Hrec
    isplitl [HRYw]; · iexact HRYw
    isplitl [HRYz]; · iexact HRYz
    iexact HO
  iintro ⟨HRYw, HRYz, ⟨%W126, HO⟩⟩
  iapply (wp_ry_wait m K c (47 : Fin 64) W126) $$ [HRYw HRYz HO]
  · isplitr; · iexact Hrec
    isplitl [HRYw]; · iexact HRYw
    isplitl [HRYz]; · iexact HRYz
    iexact HO
  iintro ⟨HRYw, HRYz, ⟨%W127, HO⟩⟩
  iapply (wp_ry_wait m K c (48 : Fin 64) W127) $$ [HRYw HRYz HO]
  · isplitr; · iexact Hrec
    isplitl [HRYw]; · iexact HRYw
    isplitl [HRYz]; · iexact HRYz
    iexact HO
  iintro ⟨HRYw, HRYz, ⟨%W128, HO⟩⟩
  iapply (wp_ry_wait m K c (49 : Fin 64) W128) $$ [HRYw HRYz HO]
  · isplitr; · iexact Hrec
    isplitl [HRYw]; · iexact HRYw
    isplitl [HRYz]; · iexact HRYz
    iexact HO
  iintro ⟨HRYw, HRYz, ⟨%W129, HO⟩⟩
  iapply (wp_ry_wait m K c (50 : Fin 64) W129) $$ [HRYw HRYz HO]
  · isplitr; · iexact Hrec
    isplitl [HRYw]; · iexact HRYw
    isplitl [HRYz]; · iexact HRYz
    iexact HO
  iintro ⟨HRYw, HRYz, ⟨%W130, HO⟩⟩
  iapply (wp_ry_wait m K c (51 : Fin 64) W130) $$ [HRYw HRYz HO]
  · isplitr; · iexact Hrec
    isplitl [HRYw]; · iexact HRYw
    isplitl [HRYz]; · iexact HRYz
    iexact HO
  iintro ⟨HRYw, HRYz, ⟨%W131, HO⟩⟩
  iapply (wp_ry_wait m K c (52 : Fin 64) W131) $$ [HRYw HRYz HO]
  · isplitr; · iexact Hrec
    isplitl [HRYw]; · iexact HRYw
    isplitl [HRYz]; · iexact HRYz
    iexact HO
  iintro ⟨HRYw, HRYz, ⟨%W132, HO⟩⟩
  iapply (wp_ry_wait m K c (53 : Fin 64) W132) $$ [HRYw HRYz HO]
  · isplitr; · iexact Hrec
    isplitl [HRYw]; · iexact HRYw
    isplitl [HRYz]; · iexact HRYz
    iexact HO
  iintro ⟨HRYw, HRYz, ⟨%W133, HO⟩⟩
  iapply (wp_ry_wait m K c (54 : Fin 64) W133) $$ [HRYw HRYz HO]
  · isplitr; · iexact Hrec
    isplitl [HRYw]; · iexact HRYw
    isplitl [HRYz]; · iexact HRYz
    iexact HO
  iintro ⟨HRYw, HRYz, ⟨%W134, HO⟩⟩
  iapply (wp_ry_wait m K c (55 : Fin 64) W134) $$ [HRYw HRYz HO]
  · isplitr; · iexact Hrec
    isplitl [HRYw]; · iexact HRYw
    isplitl [HRYz]; · iexact HRYz
    iexact HO
  iintro ⟨HRYw, HRYz, ⟨%W135, HO⟩⟩
  iapply (wp_ry_wait m K c (56 : Fin 64) W135) $$ [HRYw HRYz HO]
  · isplitr; · iexact Hrec
    isplitl [HRYw]; · iexact HRYw
    isplitl [HRYz]; · iexact HRYz
    iexact HO
  iintro ⟨HRYw, HRYz, ⟨%W136, HO⟩⟩
  iapply (wp_ry_wait m K c (57 : Fin 64) W136) $$ [HRYw HRYz HO]
  · isplitr; · iexact Hrec
    isplitl [HRYw]; · iexact HRYw
    isplitl [HRYz]; · iexact HRYz
    iexact HO
  iintro ⟨HRYw, HRYz, ⟨%W137, HO⟩⟩
  iapply (wp_ry_wait m K c (58 : Fin 64) W137) $$ [HRYw HRYz HO]
  · isplitr; · iexact Hrec
    isplitl [HRYw]; · iexact HRYw
    isplitl [HRYz]; · iexact HRYz
    iexact HO
  iintro ⟨HRYw, HRYz, ⟨%W138, HO⟩⟩
  iapply (wp_ry_wait m K c (59 : Fin 64) W138) $$ [HRYw HRYz HO]
  · isplitr; · iexact Hrec
    isplitl [HRYw]; · iexact HRYw
    isplitl [HRYz]; · iexact HRYz
    iexact HO
  iintro ⟨HRYw, HRYz, ⟨%W139, HO⟩⟩
  iapply (wp_ry_wait m K c (60 : Fin 64) W139) $$ [HRYw HRYz HO]
  · isplitr; · iexact Hrec
    isplitl [HRYw]; · iexact HRYw
    isplitl [HRYz]; · iexact HRYz
    iexact HO
  iintro ⟨HRYw, HRYz, ⟨%W140, HO⟩⟩
  iapply (wp_ry_wait m K c (61 : Fin 64) W140) $$ [HRYw HRYz HO]
  · isplitr; · iexact Hrec
    isplitl [HRYw]; · iexact HRYw
    isplitl [HRYz]; · iexact HRYz
    iexact HO
  iintro ⟨HRYw, HRYz, ⟨%W141, HO⟩⟩
  iapply (wp_ry_wait m K c (62 : Fin 64) W141) $$ [HRYw HRYz HO]
  · isplitr; · iexact Hrec
    isplitl [HRYw]; · iexact HRYw
    isplitl [HRYz]; · iexact HRYz
    iexact HO
  iintro ⟨HRYw, HRYz, ⟨%W142, HO⟩⟩
  iapply (wp_ry_wait m K c (63 : Fin 64) W142) $$ [HRYw HRYz HO]
  · isplitr; · iexact Hrec
    isplitl [HRYw]; · iexact HRYw
    isplitl [HRYz]; · iexact HRYz
    iexact HO
  iintro ⟨HRYw, HRYz, ⟨%W143, HO⟩⟩
  iapply (wp_sx_wait m K c (0 : Fin 64) W143) $$ [HXc HXp HO]
  · isplitr; · iexact Hrec
    isplitl [HXc]; · iexact HXc
    isplitl [HXp]; · iexact HXp
    isplitl []; · (iapply (Entails.of_eq (GXdone_zero m c).symm); iempintro)
    iexact HO
  iintro ⟨HXc, HXp, HXz, ⟨%W144, HO⟩⟩
  iapply (wp_sy_wait m K c (0 : Fin 64) W144) $$ [HYc HYp HO]
  · isplitr; · iexact Hrec
    isplitl [HYc]; · iexact HYc
    isplitl [HYp]; · iexact HYp
    isplitl []; · (iapply (Entails.of_eq (GYdone_zero m c).symm); iempintro)
    iexact HO
  iintro ⟨HYc, HYp, HYz, ⟨%W145, HO⟩⟩
  iapply (wp_sx_wait m K c (1 : Fin 64) W145) $$ [HXc HXp HXz HO]
  · isplitr; · iexact Hrec
    isplitl [HXc]; · iexact HXc
    isplitl [HXp]; · iexact HXp
    isplitl [HXz]; · iexact HXz
    iexact HO
  iintro ⟨HXc, HXp, HXz, ⟨%W146, HO⟩⟩
  iapply (wp_sy_wait m K c (1 : Fin 64) W146) $$ [HYc HYp HYz HO]
  · isplitr; · iexact Hrec
    isplitl [HYc]; · iexact HYc
    isplitl [HYp]; · iexact HYp
    isplitl [HYz]; · iexact HYz
    iexact HO
  iintro ⟨HYc, HYp, HYz, ⟨%W147, HO⟩⟩
  iapply (wp_sx_wait m K c (2 : Fin 64) W147) $$ [HXc HXp HXz HO]
  · isplitr; · iexact Hrec
    isplitl [HXc]; · iexact HXc
    isplitl [HXp]; · iexact HXp
    isplitl [HXz]; · iexact HXz
    iexact HO
  iintro ⟨HXc, HXp, HXz, ⟨%W148, HO⟩⟩
  iapply (wp_sy_wait m K c (2 : Fin 64) W148) $$ [HYc HYp HYz HO]
  · isplitr; · iexact Hrec
    isplitl [HYc]; · iexact HYc
    isplitl [HYp]; · iexact HYp
    isplitl [HYz]; · iexact HYz
    iexact HO
  iintro ⟨HYc, HYp, HYz, ⟨%W149, HO⟩⟩
  iapply (wp_sx_wait m K c (3 : Fin 64) W149) $$ [HXc HXp HXz HO]
  · isplitr; · iexact Hrec
    isplitl [HXc]; · iexact HXc
    isplitl [HXp]; · iexact HXp
    isplitl [HXz]; · iexact HXz
    iexact HO
  iintro ⟨HXc, HXp, HXz, ⟨%W150, HO⟩⟩
  iapply (wp_sy_wait m K c (3 : Fin 64) W150) $$ [HYc HYp HYz HO]
  · isplitr; · iexact Hrec
    isplitl [HYc]; · iexact HYc
    isplitl [HYp]; · iexact HYp
    isplitl [HYz]; · iexact HYz
    iexact HO
  iintro ⟨HYc, HYp, HYz, ⟨%W151, HO⟩⟩
  iapply (wp_sx_wait m K c (4 : Fin 64) W151) $$ [HXc HXp HXz HO]
  · isplitr; · iexact Hrec
    isplitl [HXc]; · iexact HXc
    isplitl [HXp]; · iexact HXp
    isplitl [HXz]; · iexact HXz
    iexact HO
  iintro ⟨HXc, HXp, HXz, ⟨%W152, HO⟩⟩
  iapply (wp_sy_wait m K c (4 : Fin 64) W152) $$ [HYc HYp HYz HO]
  · isplitr; · iexact Hrec
    isplitl [HYc]; · iexact HYc
    isplitl [HYp]; · iexact HYp
    isplitl [HYz]; · iexact HYz
    iexact HO
  iintro ⟨HYc, HYp, HYz, ⟨%W153, HO⟩⟩
  iapply (wp_sx_wait m K c (5 : Fin 64) W153) $$ [HXc HXp HXz HO]
  · isplitr; · iexact Hrec
    isplitl [HXc]; · iexact HXc
    isplitl [HXp]; · iexact HXp
    isplitl [HXz]; · iexact HXz
    iexact HO
  iintro ⟨HXc, HXp, HXz, ⟨%W154, HO⟩⟩
  iapply (wp_sy_wait m K c (5 : Fin 64) W154) $$ [HYc HYp HYz HO]
  · isplitr; · iexact Hrec
    isplitl [HYc]; · iexact HYc
    isplitl [HYp]; · iexact HYp
    isplitl [HYz]; · iexact HYz
    iexact HO
  iintro ⟨HYc, HYp, HYz, ⟨%W155, HO⟩⟩
  iapply (wp_sx_wait m K c (6 : Fin 64) W155) $$ [HXc HXp HXz HO]
  · isplitr; · iexact Hrec
    isplitl [HXc]; · iexact HXc
    isplitl [HXp]; · iexact HXp
    isplitl [HXz]; · iexact HXz
    iexact HO
  iintro ⟨HXc, HXp, HXz, ⟨%W156, HO⟩⟩
  iapply (wp_sy_wait m K c (6 : Fin 64) W156) $$ [HYc HYp HYz HO]
  · isplitr; · iexact Hrec
    isplitl [HYc]; · iexact HYc
    isplitl [HYp]; · iexact HYp
    isplitl [HYz]; · iexact HYz
    iexact HO
  iintro ⟨HYc, HYp, HYz, ⟨%W157, HO⟩⟩
  iapply (wp_sx_wait m K c (7 : Fin 64) W157) $$ [HXc HXp HXz HO]
  · isplitr; · iexact Hrec
    isplitl [HXc]; · iexact HXc
    isplitl [HXp]; · iexact HXp
    isplitl [HXz]; · iexact HXz
    iexact HO
  iintro ⟨HXc, HXp, HXz, ⟨%W158, HO⟩⟩
  iapply (wp_sy_wait m K c (7 : Fin 64) W158) $$ [HYc HYp HYz HO]
  · isplitr; · iexact Hrec
    isplitl [HYc]; · iexact HYc
    isplitl [HYp]; · iexact HYp
    isplitl [HYz]; · iexact HYz
    iexact HO
  iintro ⟨HYc, HYp, HYz, ⟨%W159, HO⟩⟩
  iapply (wp_sx_wait m K c (8 : Fin 64) W159) $$ [HXc HXp HXz HO]
  · isplitr; · iexact Hrec
    isplitl [HXc]; · iexact HXc
    isplitl [HXp]; · iexact HXp
    isplitl [HXz]; · iexact HXz
    iexact HO
  iintro ⟨HXc, HXp, HXz, ⟨%W160, HO⟩⟩
  iapply (wp_sy_wait m K c (8 : Fin 64) W160) $$ [HYc HYp HYz HO]
  · isplitr; · iexact Hrec
    isplitl [HYc]; · iexact HYc
    isplitl [HYp]; · iexact HYp
    isplitl [HYz]; · iexact HYz
    iexact HO
  iintro ⟨HYc, HYp, HYz, ⟨%W161, HO⟩⟩
  iapply (wp_sx_wait m K c (9 : Fin 64) W161) $$ [HXc HXp HXz HO]
  · isplitr; · iexact Hrec
    isplitl [HXc]; · iexact HXc
    isplitl [HXp]; · iexact HXp
    isplitl [HXz]; · iexact HXz
    iexact HO
  iintro ⟨HXc, HXp, HXz, ⟨%W162, HO⟩⟩
  iapply (wp_sy_wait m K c (9 : Fin 64) W162) $$ [HYc HYp HYz HO]
  · isplitr; · iexact Hrec
    isplitl [HYc]; · iexact HYc
    isplitl [HYp]; · iexact HYp
    isplitl [HYz]; · iexact HYz
    iexact HO
  iintro ⟨HYc, HYp, HYz, ⟨%W163, HO⟩⟩
  iapply (wp_sx_wait m K c (10 : Fin 64) W163) $$ [HXc HXp HXz HO]
  · isplitr; · iexact Hrec
    isplitl [HXc]; · iexact HXc
    isplitl [HXp]; · iexact HXp
    isplitl [HXz]; · iexact HXz
    iexact HO
  iintro ⟨HXc, HXp, HXz, ⟨%W164, HO⟩⟩
  iapply (wp_sy_wait m K c (10 : Fin 64) W164) $$ [HYc HYp HYz HO]
  · isplitr; · iexact Hrec
    isplitl [HYc]; · iexact HYc
    isplitl [HYp]; · iexact HYp
    isplitl [HYz]; · iexact HYz
    iexact HO
  iintro ⟨HYc, HYp, HYz, ⟨%W165, HO⟩⟩
  iapply (wp_sx_wait m K c (11 : Fin 64) W165) $$ [HXc HXp HXz HO]
  · isplitr; · iexact Hrec
    isplitl [HXc]; · iexact HXc
    isplitl [HXp]; · iexact HXp
    isplitl [HXz]; · iexact HXz
    iexact HO
  iintro ⟨HXc, HXp, HXz, ⟨%W166, HO⟩⟩
  iapply (wp_sy_wait m K c (11 : Fin 64) W166) $$ [HYc HYp HYz HO]
  · isplitr; · iexact Hrec
    isplitl [HYc]; · iexact HYc
    isplitl [HYp]; · iexact HYp
    isplitl [HYz]; · iexact HYz
    iexact HO
  iintro ⟨HYc, HYp, HYz, ⟨%W167, HO⟩⟩
  iapply (wp_sx_wait m K c (12 : Fin 64) W167) $$ [HXc HXp HXz HO]
  · isplitr; · iexact Hrec
    isplitl [HXc]; · iexact HXc
    isplitl [HXp]; · iexact HXp
    isplitl [HXz]; · iexact HXz
    iexact HO
  iintro ⟨HXc, HXp, HXz, ⟨%W168, HO⟩⟩
  iapply (wp_sy_wait m K c (12 : Fin 64) W168) $$ [HYc HYp HYz HO]
  · isplitr; · iexact Hrec
    isplitl [HYc]; · iexact HYc
    isplitl [HYp]; · iexact HYp
    isplitl [HYz]; · iexact HYz
    iexact HO
  iintro ⟨HYc, HYp, HYz, ⟨%W169, HO⟩⟩
  iapply (wp_sx_wait m K c (13 : Fin 64) W169) $$ [HXc HXp HXz HO]
  · isplitr; · iexact Hrec
    isplitl [HXc]; · iexact HXc
    isplitl [HXp]; · iexact HXp
    isplitl [HXz]; · iexact HXz
    iexact HO
  iintro ⟨HXc, HXp, HXz, ⟨%W170, HO⟩⟩
  iapply (wp_sy_wait m K c (13 : Fin 64) W170) $$ [HYc HYp HYz HO]
  · isplitr; · iexact Hrec
    isplitl [HYc]; · iexact HYc
    isplitl [HYp]; · iexact HYp
    isplitl [HYz]; · iexact HYz
    iexact HO
  iintro ⟨HYc, HYp, HYz, ⟨%W171, HO⟩⟩
  iapply (wp_sx_wait m K c (14 : Fin 64) W171) $$ [HXc HXp HXz HO]
  · isplitr; · iexact Hrec
    isplitl [HXc]; · iexact HXc
    isplitl [HXp]; · iexact HXp
    isplitl [HXz]; · iexact HXz
    iexact HO
  iintro ⟨HXc, HXp, HXz, ⟨%W172, HO⟩⟩
  iapply (wp_sy_wait m K c (14 : Fin 64) W172) $$ [HYc HYp HYz HO]
  · isplitr; · iexact Hrec
    isplitl [HYc]; · iexact HYc
    isplitl [HYp]; · iexact HYp
    isplitl [HYz]; · iexact HYz
    iexact HO
  iintro ⟨HYc, HYp, HYz, ⟨%W173, HO⟩⟩
  iapply (wp_sx_wait m K c (15 : Fin 64) W173) $$ [HXc HXp HXz HO]
  · isplitr; · iexact Hrec
    isplitl [HXc]; · iexact HXc
    isplitl [HXp]; · iexact HXp
    isplitl [HXz]; · iexact HXz
    iexact HO
  iintro ⟨HXc, HXp, HXz, ⟨%W174, HO⟩⟩
  iapply (wp_sy_wait m K c (15 : Fin 64) W174) $$ [HYc HYp HYz HO]
  · isplitr; · iexact Hrec
    isplitl [HYc]; · iexact HYc
    isplitl [HYp]; · iexact HYp
    isplitl [HYz]; · iexact HYz
    iexact HO
  iintro ⟨HYc, HYp, HYz, ⟨%W175, HO⟩⟩
  iapply (wp_sx_wait m K c (16 : Fin 64) W175) $$ [HXc HXp HXz HO]
  · isplitr; · iexact Hrec
    isplitl [HXc]; · iexact HXc
    isplitl [HXp]; · iexact HXp
    isplitl [HXz]; · iexact HXz
    iexact HO
  iintro ⟨HXc, HXp, HXz, ⟨%W176, HO⟩⟩
  iapply (wp_sy_wait m K c (16 : Fin 64) W176) $$ [HYc HYp HYz HO]
  · isplitr; · iexact Hrec
    isplitl [HYc]; · iexact HYc
    isplitl [HYp]; · iexact HYp
    isplitl [HYz]; · iexact HYz
    iexact HO
  iintro ⟨HYc, HYp, HYz, ⟨%W177, HO⟩⟩
  iapply (wp_sx_wait m K c (17 : Fin 64) W177) $$ [HXc HXp HXz HO]
  · isplitr; · iexact Hrec
    isplitl [HXc]; · iexact HXc
    isplitl [HXp]; · iexact HXp
    isplitl [HXz]; · iexact HXz
    iexact HO
  iintro ⟨HXc, HXp, HXz, ⟨%W178, HO⟩⟩
  iapply (wp_sy_wait m K c (17 : Fin 64) W178) $$ [HYc HYp HYz HO]
  · isplitr; · iexact Hrec
    isplitl [HYc]; · iexact HYc
    isplitl [HYp]; · iexact HYp
    isplitl [HYz]; · iexact HYz
    iexact HO
  iintro ⟨HYc, HYp, HYz, ⟨%W179, HO⟩⟩
  iapply (wp_sx_wait m K c (18 : Fin 64) W179) $$ [HXc HXp HXz HO]
  · isplitr; · iexact Hrec
    isplitl [HXc]; · iexact HXc
    isplitl [HXp]; · iexact HXp
    isplitl [HXz]; · iexact HXz
    iexact HO
  iintro ⟨HXc, HXp, HXz, ⟨%W180, HO⟩⟩
  iapply (wp_sy_wait m K c (18 : Fin 64) W180) $$ [HYc HYp HYz HO]
  · isplitr; · iexact Hrec
    isplitl [HYc]; · iexact HYc
    isplitl [HYp]; · iexact HYp
    isplitl [HYz]; · iexact HYz
    iexact HO
  iintro ⟨HYc, HYp, HYz, ⟨%W181, HO⟩⟩
  iapply (wp_sx_wait m K c (19 : Fin 64) W181) $$ [HXc HXp HXz HO]
  · isplitr; · iexact Hrec
    isplitl [HXc]; · iexact HXc
    isplitl [HXp]; · iexact HXp
    isplitl [HXz]; · iexact HXz
    iexact HO
  iintro ⟨HXc, HXp, HXz, ⟨%W182, HO⟩⟩
  iapply (wp_sy_wait m K c (19 : Fin 64) W182) $$ [HYc HYp HYz HO]
  · isplitr; · iexact Hrec
    isplitl [HYc]; · iexact HYc
    isplitl [HYp]; · iexact HYp
    isplitl [HYz]; · iexact HYz
    iexact HO
  iintro ⟨HYc, HYp, HYz, ⟨%W183, HO⟩⟩
  iapply (wp_sx_wait m K c (20 : Fin 64) W183) $$ [HXc HXp HXz HO]
  · isplitr; · iexact Hrec
    isplitl [HXc]; · iexact HXc
    isplitl [HXp]; · iexact HXp
    isplitl [HXz]; · iexact HXz
    iexact HO
  iintro ⟨HXc, HXp, HXz, ⟨%W184, HO⟩⟩
  iapply (wp_sy_wait m K c (20 : Fin 64) W184) $$ [HYc HYp HYz HO]
  · isplitr; · iexact Hrec
    isplitl [HYc]; · iexact HYc
    isplitl [HYp]; · iexact HYp
    isplitl [HYz]; · iexact HYz
    iexact HO
  iintro ⟨HYc, HYp, HYz, ⟨%W185, HO⟩⟩
  iapply (wp_sx_wait m K c (21 : Fin 64) W185) $$ [HXc HXp HXz HO]
  · isplitr; · iexact Hrec
    isplitl [HXc]; · iexact HXc
    isplitl [HXp]; · iexact HXp
    isplitl [HXz]; · iexact HXz
    iexact HO
  iintro ⟨HXc, HXp, HXz, ⟨%W186, HO⟩⟩
  iapply (wp_sy_wait m K c (21 : Fin 64) W186) $$ [HYc HYp HYz HO]
  · isplitr; · iexact Hrec
    isplitl [HYc]; · iexact HYc
    isplitl [HYp]; · iexact HYp
    isplitl [HYz]; · iexact HYz
    iexact HO
  iintro ⟨HYc, HYp, HYz, ⟨%W187, HO⟩⟩
  iapply (wp_sx_wait m K c (22 : Fin 64) W187) $$ [HXc HXp HXz HO]
  · isplitr; · iexact Hrec
    isplitl [HXc]; · iexact HXc
    isplitl [HXp]; · iexact HXp
    isplitl [HXz]; · iexact HXz
    iexact HO
  iintro ⟨HXc, HXp, HXz, ⟨%W188, HO⟩⟩
  iapply (wp_sy_wait m K c (22 : Fin 64) W188) $$ [HYc HYp HYz HO]
  · isplitr; · iexact Hrec
    isplitl [HYc]; · iexact HYc
    isplitl [HYp]; · iexact HYp
    isplitl [HYz]; · iexact HYz
    iexact HO
  iintro ⟨HYc, HYp, HYz, ⟨%W189, HO⟩⟩
  iapply (wp_sx_wait m K c (23 : Fin 64) W189) $$ [HXc HXp HXz HO]
  · isplitr; · iexact Hrec
    isplitl [HXc]; · iexact HXc
    isplitl [HXp]; · iexact HXp
    isplitl [HXz]; · iexact HXz
    iexact HO
  iintro ⟨HXc, HXp, HXz, ⟨%W190, HO⟩⟩
  iapply (wp_sy_wait m K c (23 : Fin 64) W190) $$ [HYc HYp HYz HO]
  · isplitr; · iexact Hrec
    isplitl [HYc]; · iexact HYc
    isplitl [HYp]; · iexact HYp
    isplitl [HYz]; · iexact HYz
    iexact HO
  iintro ⟨HYc, HYp, HYz, ⟨%W191, HO⟩⟩
  iapply (wp_sx_wait m K c (24 : Fin 64) W191) $$ [HXc HXp HXz HO]
  · isplitr; · iexact Hrec
    isplitl [HXc]; · iexact HXc
    isplitl [HXp]; · iexact HXp
    isplitl [HXz]; · iexact HXz
    iexact HO
  iintro ⟨HXc, HXp, HXz, ⟨%W192, HO⟩⟩
  iapply (wp_sy_wait m K c (24 : Fin 64) W192) $$ [HYc HYp HYz HO]
  · isplitr; · iexact Hrec
    isplitl [HYc]; · iexact HYc
    isplitl [HYp]; · iexact HYp
    isplitl [HYz]; · iexact HYz
    iexact HO
  iintro ⟨HYc, HYp, HYz, ⟨%W193, HO⟩⟩
  iapply (wp_sx_wait m K c (25 : Fin 64) W193) $$ [HXc HXp HXz HO]
  · isplitr; · iexact Hrec
    isplitl [HXc]; · iexact HXc
    isplitl [HXp]; · iexact HXp
    isplitl [HXz]; · iexact HXz
    iexact HO
  iintro ⟨HXc, HXp, HXz, ⟨%W194, HO⟩⟩
  iapply (wp_sy_wait m K c (25 : Fin 64) W194) $$ [HYc HYp HYz HO]
  · isplitr; · iexact Hrec
    isplitl [HYc]; · iexact HYc
    isplitl [HYp]; · iexact HYp
    isplitl [HYz]; · iexact HYz
    iexact HO
  iintro ⟨HYc, HYp, HYz, ⟨%W195, HO⟩⟩
  iapply (wp_sx_wait m K c (26 : Fin 64) W195) $$ [HXc HXp HXz HO]
  · isplitr; · iexact Hrec
    isplitl [HXc]; · iexact HXc
    isplitl [HXp]; · iexact HXp
    isplitl [HXz]; · iexact HXz
    iexact HO
  iintro ⟨HXc, HXp, HXz, ⟨%W196, HO⟩⟩
  iapply (wp_sy_wait m K c (26 : Fin 64) W196) $$ [HYc HYp HYz HO]
  · isplitr; · iexact Hrec
    isplitl [HYc]; · iexact HYc
    isplitl [HYp]; · iexact HYp
    isplitl [HYz]; · iexact HYz
    iexact HO
  iintro ⟨HYc, HYp, HYz, ⟨%W197, HO⟩⟩
  iapply (wp_sx_wait m K c (27 : Fin 64) W197) $$ [HXc HXp HXz HO]
  · isplitr; · iexact Hrec
    isplitl [HXc]; · iexact HXc
    isplitl [HXp]; · iexact HXp
    isplitl [HXz]; · iexact HXz
    iexact HO
  iintro ⟨HXc, HXp, HXz, ⟨%W198, HO⟩⟩
  iapply (wp_sy_wait m K c (27 : Fin 64) W198) $$ [HYc HYp HYz HO]
  · isplitr; · iexact Hrec
    isplitl [HYc]; · iexact HYc
    isplitl [HYp]; · iexact HYp
    isplitl [HYz]; · iexact HYz
    iexact HO
  iintro ⟨HYc, HYp, HYz, ⟨%W199, HO⟩⟩
  iapply (wp_sx_wait m K c (28 : Fin 64) W199) $$ [HXc HXp HXz HO]
  · isplitr; · iexact Hrec
    isplitl [HXc]; · iexact HXc
    isplitl [HXp]; · iexact HXp
    isplitl [HXz]; · iexact HXz
    iexact HO
  iintro ⟨HXc, HXp, HXz, ⟨%W200, HO⟩⟩
  iapply (wp_sy_wait m K c (28 : Fin 64) W200) $$ [HYc HYp HYz HO]
  · isplitr; · iexact Hrec
    isplitl [HYc]; · iexact HYc
    isplitl [HYp]; · iexact HYp
    isplitl [HYz]; · iexact HYz
    iexact HO
  iintro ⟨HYc, HYp, HYz, ⟨%W201, HO⟩⟩
  iapply (wp_sx_wait m K c (29 : Fin 64) W201) $$ [HXc HXp HXz HO]
  · isplitr; · iexact Hrec
    isplitl [HXc]; · iexact HXc
    isplitl [HXp]; · iexact HXp
    isplitl [HXz]; · iexact HXz
    iexact HO
  iintro ⟨HXc, HXp, HXz, ⟨%W202, HO⟩⟩
  iapply (wp_sy_wait m K c (29 : Fin 64) W202) $$ [HYc HYp HYz HO]
  · isplitr; · iexact Hrec
    isplitl [HYc]; · iexact HYc
    isplitl [HYp]; · iexact HYp
    isplitl [HYz]; · iexact HYz
    iexact HO
  iintro ⟨HYc, HYp, HYz, ⟨%W203, HO⟩⟩
  iapply (wp_sx_wait m K c (30 : Fin 64) W203) $$ [HXc HXp HXz HO]
  · isplitr; · iexact Hrec
    isplitl [HXc]; · iexact HXc
    isplitl [HXp]; · iexact HXp
    isplitl [HXz]; · iexact HXz
    iexact HO
  iintro ⟨HXc, HXp, HXz, ⟨%W204, HO⟩⟩
  iapply (wp_sy_wait m K c (30 : Fin 64) W204) $$ [HYc HYp HYz HO]
  · isplitr; · iexact Hrec
    isplitl [HYc]; · iexact HYc
    isplitl [HYp]; · iexact HYp
    isplitl [HYz]; · iexact HYz
    iexact HO
  iintro ⟨HYc, HYp, HYz, ⟨%W205, HO⟩⟩
  iapply (wp_sx_wait m K c (31 : Fin 64) W205) $$ [HXc HXp HXz HO]
  · isplitr; · iexact Hrec
    isplitl [HXc]; · iexact HXc
    isplitl [HXp]; · iexact HXp
    isplitl [HXz]; · iexact HXz
    iexact HO
  iintro ⟨HXc, HXp, HXz, ⟨%W206, HO⟩⟩
  iapply (wp_sy_wait m K c (31 : Fin 64) W206) $$ [HYc HYp HYz HO]
  · isplitr; · iexact Hrec
    isplitl [HYc]; · iexact HYc
    isplitl [HYp]; · iexact HYp
    isplitl [HYz]; · iexact HYz
    iexact HO
  iintro ⟨HYc, HYp, HYz, ⟨%W207, HO⟩⟩
  iapply (wp_sx_wait m K c (32 : Fin 64) W207) $$ [HXc HXp HXz HO]
  · isplitr; · iexact Hrec
    isplitl [HXc]; · iexact HXc
    isplitl [HXp]; · iexact HXp
    isplitl [HXz]; · iexact HXz
    iexact HO
  iintro ⟨HXc, HXp, HXz, ⟨%W208, HO⟩⟩
  iapply (wp_sy_wait m K c (32 : Fin 64) W208) $$ [HYc HYp HYz HO]
  · isplitr; · iexact Hrec
    isplitl [HYc]; · iexact HYc
    isplitl [HYp]; · iexact HYp
    isplitl [HYz]; · iexact HYz
    iexact HO
  iintro ⟨HYc, HYp, HYz, ⟨%W209, HO⟩⟩
  iapply (wp_sx_wait m K c (33 : Fin 64) W209) $$ [HXc HXp HXz HO]
  · isplitr; · iexact Hrec
    isplitl [HXc]; · iexact HXc
    isplitl [HXp]; · iexact HXp
    isplitl [HXz]; · iexact HXz
    iexact HO
  iintro ⟨HXc, HXp, HXz, ⟨%W210, HO⟩⟩
  iapply (wp_sy_wait m K c (33 : Fin 64) W210) $$ [HYc HYp HYz HO]
  · isplitr; · iexact Hrec
    isplitl [HYc]; · iexact HYc
    isplitl [HYp]; · iexact HYp
    isplitl [HYz]; · iexact HYz
    iexact HO
  iintro ⟨HYc, HYp, HYz, ⟨%W211, HO⟩⟩
  iapply (wp_sx_wait m K c (34 : Fin 64) W211) $$ [HXc HXp HXz HO]
  · isplitr; · iexact Hrec
    isplitl [HXc]; · iexact HXc
    isplitl [HXp]; · iexact HXp
    isplitl [HXz]; · iexact HXz
    iexact HO
  iintro ⟨HXc, HXp, HXz, ⟨%W212, HO⟩⟩
  iapply (wp_sy_wait m K c (34 : Fin 64) W212) $$ [HYc HYp HYz HO]
  · isplitr; · iexact Hrec
    isplitl [HYc]; · iexact HYc
    isplitl [HYp]; · iexact HYp
    isplitl [HYz]; · iexact HYz
    iexact HO
  iintro ⟨HYc, HYp, HYz, ⟨%W213, HO⟩⟩
  iapply (wp_sx_wait m K c (35 : Fin 64) W213) $$ [HXc HXp HXz HO]
  · isplitr; · iexact Hrec
    isplitl [HXc]; · iexact HXc
    isplitl [HXp]; · iexact HXp
    isplitl [HXz]; · iexact HXz
    iexact HO
  iintro ⟨HXc, HXp, HXz, ⟨%W214, HO⟩⟩
  iapply (wp_sy_wait m K c (35 : Fin 64) W214) $$ [HYc HYp HYz HO]
  · isplitr; · iexact Hrec
    isplitl [HYc]; · iexact HYc
    isplitl [HYp]; · iexact HYp
    isplitl [HYz]; · iexact HYz
    iexact HO
  iintro ⟨HYc, HYp, HYz, ⟨%W215, HO⟩⟩
  iapply (wp_sx_wait m K c (36 : Fin 64) W215) $$ [HXc HXp HXz HO]
  · isplitr; · iexact Hrec
    isplitl [HXc]; · iexact HXc
    isplitl [HXp]; · iexact HXp
    isplitl [HXz]; · iexact HXz
    iexact HO
  iintro ⟨HXc, HXp, HXz, ⟨%W216, HO⟩⟩
  iapply (wp_sy_wait m K c (36 : Fin 64) W216) $$ [HYc HYp HYz HO]
  · isplitr; · iexact Hrec
    isplitl [HYc]; · iexact HYc
    isplitl [HYp]; · iexact HYp
    isplitl [HYz]; · iexact HYz
    iexact HO
  iintro ⟨HYc, HYp, HYz, ⟨%W217, HO⟩⟩
  iapply (wp_sx_wait m K c (37 : Fin 64) W217) $$ [HXc HXp HXz HO]
  · isplitr; · iexact Hrec
    isplitl [HXc]; · iexact HXc
    isplitl [HXp]; · iexact HXp
    isplitl [HXz]; · iexact HXz
    iexact HO
  iintro ⟨HXc, HXp, HXz, ⟨%W218, HO⟩⟩
  iapply (wp_sy_wait m K c (37 : Fin 64) W218) $$ [HYc HYp HYz HO]
  · isplitr; · iexact Hrec
    isplitl [HYc]; · iexact HYc
    isplitl [HYp]; · iexact HYp
    isplitl [HYz]; · iexact HYz
    iexact HO
  iintro ⟨HYc, HYp, HYz, ⟨%W219, HO⟩⟩
  iapply (wp_sx_wait m K c (38 : Fin 64) W219) $$ [HXc HXp HXz HO]
  · isplitr; · iexact Hrec
    isplitl [HXc]; · iexact HXc
    isplitl [HXp]; · iexact HXp
    isplitl [HXz]; · iexact HXz
    iexact HO
  iintro ⟨HXc, HXp, HXz, ⟨%W220, HO⟩⟩
  iapply (wp_sy_wait m K c (38 : Fin 64) W220) $$ [HYc HYp HYz HO]
  · isplitr; · iexact Hrec
    isplitl [HYc]; · iexact HYc
    isplitl [HYp]; · iexact HYp
    isplitl [HYz]; · iexact HYz
    iexact HO
  iintro ⟨HYc, HYp, HYz, ⟨%W221, HO⟩⟩
  iapply (wp_sx_wait m K c (39 : Fin 64) W221) $$ [HXc HXp HXz HO]
  · isplitr; · iexact Hrec
    isplitl [HXc]; · iexact HXc
    isplitl [HXp]; · iexact HXp
    isplitl [HXz]; · iexact HXz
    iexact HO
  iintro ⟨HXc, HXp, HXz, ⟨%W222, HO⟩⟩
  iapply (wp_sy_wait m K c (39 : Fin 64) W222) $$ [HYc HYp HYz HO]
  · isplitr; · iexact Hrec
    isplitl [HYc]; · iexact HYc
    isplitl [HYp]; · iexact HYp
    isplitl [HYz]; · iexact HYz
    iexact HO
  iintro ⟨HYc, HYp, HYz, ⟨%W223, HO⟩⟩
  iapply (wp_sx_wait m K c (40 : Fin 64) W223) $$ [HXc HXp HXz HO]
  · isplitr; · iexact Hrec
    isplitl [HXc]; · iexact HXc
    isplitl [HXp]; · iexact HXp
    isplitl [HXz]; · iexact HXz
    iexact HO
  iintro ⟨HXc, HXp, HXz, ⟨%W224, HO⟩⟩
  iapply (wp_sy_wait m K c (40 : Fin 64) W224) $$ [HYc HYp HYz HO]
  · isplitr; · iexact Hrec
    isplitl [HYc]; · iexact HYc
    isplitl [HYp]; · iexact HYp
    isplitl [HYz]; · iexact HYz
    iexact HO
  iintro ⟨HYc, HYp, HYz, ⟨%W225, HO⟩⟩
  iapply (wp_sx_wait m K c (41 : Fin 64) W225) $$ [HXc HXp HXz HO]
  · isplitr; · iexact Hrec
    isplitl [HXc]; · iexact HXc
    isplitl [HXp]; · iexact HXp
    isplitl [HXz]; · iexact HXz
    iexact HO
  iintro ⟨HXc, HXp, HXz, ⟨%W226, HO⟩⟩
  iapply (wp_sy_wait m K c (41 : Fin 64) W226) $$ [HYc HYp HYz HO]
  · isplitr; · iexact Hrec
    isplitl [HYc]; · iexact HYc
    isplitl [HYp]; · iexact HYp
    isplitl [HYz]; · iexact HYz
    iexact HO
  iintro ⟨HYc, HYp, HYz, ⟨%W227, HO⟩⟩
  iapply (wp_sx_wait m K c (42 : Fin 64) W227) $$ [HXc HXp HXz HO]
  · isplitr; · iexact Hrec
    isplitl [HXc]; · iexact HXc
    isplitl [HXp]; · iexact HXp
    isplitl [HXz]; · iexact HXz
    iexact HO
  iintro ⟨HXc, HXp, HXz, ⟨%W228, HO⟩⟩
  iapply (wp_sy_wait m K c (42 : Fin 64) W228) $$ [HYc HYp HYz HO]
  · isplitr; · iexact Hrec
    isplitl [HYc]; · iexact HYc
    isplitl [HYp]; · iexact HYp
    isplitl [HYz]; · iexact HYz
    iexact HO
  iintro ⟨HYc, HYp, HYz, ⟨%W229, HO⟩⟩
  iapply (wp_sx_wait m K c (43 : Fin 64) W229) $$ [HXc HXp HXz HO]
  · isplitr; · iexact Hrec
    isplitl [HXc]; · iexact HXc
    isplitl [HXp]; · iexact HXp
    isplitl [HXz]; · iexact HXz
    iexact HO
  iintro ⟨HXc, HXp, HXz, ⟨%W230, HO⟩⟩
  iapply (wp_sy_wait m K c (43 : Fin 64) W230) $$ [HYc HYp HYz HO]
  · isplitr; · iexact Hrec
    isplitl [HYc]; · iexact HYc
    isplitl [HYp]; · iexact HYp
    isplitl [HYz]; · iexact HYz
    iexact HO
  iintro ⟨HYc, HYp, HYz, ⟨%W231, HO⟩⟩
  iapply (wp_sx_wait m K c (44 : Fin 64) W231) $$ [HXc HXp HXz HO]
  · isplitr; · iexact Hrec
    isplitl [HXc]; · iexact HXc
    isplitl [HXp]; · iexact HXp
    isplitl [HXz]; · iexact HXz
    iexact HO
  iintro ⟨HXc, HXp, HXz, ⟨%W232, HO⟩⟩
  iapply (wp_sy_wait m K c (44 : Fin 64) W232) $$ [HYc HYp HYz HO]
  · isplitr; · iexact Hrec
    isplitl [HYc]; · iexact HYc
    isplitl [HYp]; · iexact HYp
    isplitl [HYz]; · iexact HYz
    iexact HO
  iintro ⟨HYc, HYp, HYz, ⟨%W233, HO⟩⟩
  iapply (wp_sx_wait m K c (45 : Fin 64) W233) $$ [HXc HXp HXz HO]
  · isplitr; · iexact Hrec
    isplitl [HXc]; · iexact HXc
    isplitl [HXp]; · iexact HXp
    isplitl [HXz]; · iexact HXz
    iexact HO
  iintro ⟨HXc, HXp, HXz, ⟨%W234, HO⟩⟩
  iapply (wp_sy_wait m K c (45 : Fin 64) W234) $$ [HYc HYp HYz HO]
  · isplitr; · iexact Hrec
    isplitl [HYc]; · iexact HYc
    isplitl [HYp]; · iexact HYp
    isplitl [HYz]; · iexact HYz
    iexact HO
  iintro ⟨HYc, HYp, HYz, ⟨%W235, HO⟩⟩
  iapply (wp_sx_wait m K c (46 : Fin 64) W235) $$ [HXc HXp HXz HO]
  · isplitr; · iexact Hrec
    isplitl [HXc]; · iexact HXc
    isplitl [HXp]; · iexact HXp
    isplitl [HXz]; · iexact HXz
    iexact HO
  iintro ⟨HXc, HXp, HXz, ⟨%W236, HO⟩⟩
  iapply (wp_sy_wait m K c (46 : Fin 64) W236) $$ [HYc HYp HYz HO]
  · isplitr; · iexact Hrec
    isplitl [HYc]; · iexact HYc
    isplitl [HYp]; · iexact HYp
    isplitl [HYz]; · iexact HYz
    iexact HO
  iintro ⟨HYc, HYp, HYz, ⟨%W237, HO⟩⟩
  iapply (wp_sx_wait m K c (47 : Fin 64) W237) $$ [HXc HXp HXz HO]
  · isplitr; · iexact Hrec
    isplitl [HXc]; · iexact HXc
    isplitl [HXp]; · iexact HXp
    isplitl [HXz]; · iexact HXz
    iexact HO
  iintro ⟨HXc, HXp, HXz, ⟨%W238, HO⟩⟩
  iapply (wp_sy_wait m K c (47 : Fin 64) W238) $$ [HYc HYp HYz HO]
  · isplitr; · iexact Hrec
    isplitl [HYc]; · iexact HYc
    isplitl [HYp]; · iexact HYp
    isplitl [HYz]; · iexact HYz
    iexact HO
  iintro ⟨HYc, HYp, HYz, ⟨%W239, HO⟩⟩
  iapply (wp_sx_wait m K c (48 : Fin 64) W239) $$ [HXc HXp HXz HO]
  · isplitr; · iexact Hrec
    isplitl [HXc]; · iexact HXc
    isplitl [HXp]; · iexact HXp
    isplitl [HXz]; · iexact HXz
    iexact HO
  iintro ⟨HXc, HXp, HXz, ⟨%W240, HO⟩⟩
  iapply (wp_sy_wait m K c (48 : Fin 64) W240) $$ [HYc HYp HYz HO]
  · isplitr; · iexact Hrec
    isplitl [HYc]; · iexact HYc
    isplitl [HYp]; · iexact HYp
    isplitl [HYz]; · iexact HYz
    iexact HO
  iintro ⟨HYc, HYp, HYz, ⟨%W241, HO⟩⟩
  iapply (wp_sx_wait m K c (49 : Fin 64) W241) $$ [HXc HXp HXz HO]
  · isplitr; · iexact Hrec
    isplitl [HXc]; · iexact HXc
    isplitl [HXp]; · iexact HXp
    isplitl [HXz]; · iexact HXz
    iexact HO
  iintro ⟨HXc, HXp, HXz, ⟨%W242, HO⟩⟩
  iapply (wp_sy_wait m K c (49 : Fin 64) W242) $$ [HYc HYp HYz HO]
  · isplitr; · iexact Hrec
    isplitl [HYc]; · iexact HYc
    isplitl [HYp]; · iexact HYp
    isplitl [HYz]; · iexact HYz
    iexact HO
  iintro ⟨HYc, HYp, HYz, ⟨%W243, HO⟩⟩
  iapply (wp_sx_wait m K c (50 : Fin 64) W243) $$ [HXc HXp HXz HO]
  · isplitr; · iexact Hrec
    isplitl [HXc]; · iexact HXc
    isplitl [HXp]; · iexact HXp
    isplitl [HXz]; · iexact HXz
    iexact HO
  iintro ⟨HXc, HXp, HXz, ⟨%W244, HO⟩⟩
  iapply (wp_sy_wait m K c (50 : Fin 64) W244) $$ [HYc HYp HYz HO]
  · isplitr; · iexact Hrec
    isplitl [HYc]; · iexact HYc
    isplitl [HYp]; · iexact HYp
    isplitl [HYz]; · iexact HYz
    iexact HO
  iintro ⟨HYc, HYp, HYz, ⟨%W245, HO⟩⟩
  iapply (wp_sx_wait m K c (51 : Fin 64) W245) $$ [HXc HXp HXz HO]
  · isplitr; · iexact Hrec
    isplitl [HXc]; · iexact HXc
    isplitl [HXp]; · iexact HXp
    isplitl [HXz]; · iexact HXz
    iexact HO
  iintro ⟨HXc, HXp, HXz, ⟨%W246, HO⟩⟩
  iapply (wp_sy_wait m K c (51 : Fin 64) W246) $$ [HYc HYp HYz HO]
  · isplitr; · iexact Hrec
    isplitl [HYc]; · iexact HYc
    isplitl [HYp]; · iexact HYp
    isplitl [HYz]; · iexact HYz
    iexact HO
  iintro ⟨HYc, HYp, HYz, ⟨%W247, HO⟩⟩
  iapply (wp_sx_wait m K c (52 : Fin 64) W247) $$ [HXc HXp HXz HO]
  · isplitr; · iexact Hrec
    isplitl [HXc]; · iexact HXc
    isplitl [HXp]; · iexact HXp
    isplitl [HXz]; · iexact HXz
    iexact HO
  iintro ⟨HXc, HXp, HXz, ⟨%W248, HO⟩⟩
  iapply (wp_sy_wait m K c (52 : Fin 64) W248) $$ [HYc HYp HYz HO]
  · isplitr; · iexact Hrec
    isplitl [HYc]; · iexact HYc
    isplitl [HYp]; · iexact HYp
    isplitl [HYz]; · iexact HYz
    iexact HO
  iintro ⟨HYc, HYp, HYz, ⟨%W249, HO⟩⟩
  iapply (wp_sx_wait m K c (53 : Fin 64) W249) $$ [HXc HXp HXz HO]
  · isplitr; · iexact Hrec
    isplitl [HXc]; · iexact HXc
    isplitl [HXp]; · iexact HXp
    isplitl [HXz]; · iexact HXz
    iexact HO
  iintro ⟨HXc, HXp, HXz, ⟨%W250, HO⟩⟩
  iapply (wp_sy_wait m K c (53 : Fin 64) W250) $$ [HYc HYp HYz HO]
  · isplitr; · iexact Hrec
    isplitl [HYc]; · iexact HYc
    isplitl [HYp]; · iexact HYp
    isplitl [HYz]; · iexact HYz
    iexact HO
  iintro ⟨HYc, HYp, HYz, ⟨%W251, HO⟩⟩
  iapply (wp_sx_wait m K c (54 : Fin 64) W251) $$ [HXc HXp HXz HO]
  · isplitr; · iexact Hrec
    isplitl [HXc]; · iexact HXc
    isplitl [HXp]; · iexact HXp
    isplitl [HXz]; · iexact HXz
    iexact HO
  iintro ⟨HXc, HXp, HXz, ⟨%W252, HO⟩⟩
  iapply (wp_sy_wait m K c (54 : Fin 64) W252) $$ [HYc HYp HYz HO]
  · isplitr; · iexact Hrec
    isplitl [HYc]; · iexact HYc
    isplitl [HYp]; · iexact HYp
    isplitl [HYz]; · iexact HYz
    iexact HO
  iintro ⟨HYc, HYp, HYz, ⟨%W253, HO⟩⟩
  iapply (wp_sx_wait m K c (55 : Fin 64) W253) $$ [HXc HXp HXz HO]
  · isplitr; · iexact Hrec
    isplitl [HXc]; · iexact HXc
    isplitl [HXp]; · iexact HXp
    isplitl [HXz]; · iexact HXz
    iexact HO
  iintro ⟨HXc, HXp, HXz, ⟨%W254, HO⟩⟩
  iapply (wp_sy_wait m K c (55 : Fin 64) W254) $$ [HYc HYp HYz HO]
  · isplitr; · iexact Hrec
    isplitl [HYc]; · iexact HYc
    isplitl [HYp]; · iexact HYp
    isplitl [HYz]; · iexact HYz
    iexact HO
  iintro ⟨HYc, HYp, HYz, ⟨%W255, HO⟩⟩
  iapply (wp_sx_wait m K c (56 : Fin 64) W255) $$ [HXc HXp HXz HO]
  · isplitr; · iexact Hrec
    isplitl [HXc]; · iexact HXc
    isplitl [HXp]; · iexact HXp
    isplitl [HXz]; · iexact HXz
    iexact HO
  iintro ⟨HXc, HXp, HXz, ⟨%W256, HO⟩⟩
  iapply (wp_sy_wait m K c (56 : Fin 64) W256) $$ [HYc HYp HYz HO]
  · isplitr; · iexact Hrec
    isplitl [HYc]; · iexact HYc
    isplitl [HYp]; · iexact HYp
    isplitl [HYz]; · iexact HYz
    iexact HO
  iintro ⟨HYc, HYp, HYz, ⟨%W257, HO⟩⟩
  iapply (wp_sx_wait m K c (57 : Fin 64) W257) $$ [HXc HXp HXz HO]
  · isplitr; · iexact Hrec
    isplitl [HXc]; · iexact HXc
    isplitl [HXp]; · iexact HXp
    isplitl [HXz]; · iexact HXz
    iexact HO
  iintro ⟨HXc, HXp, HXz, ⟨%W258, HO⟩⟩
  iapply (wp_sy_wait m K c (57 : Fin 64) W258) $$ [HYc HYp HYz HO]
  · isplitr; · iexact Hrec
    isplitl [HYc]; · iexact HYc
    isplitl [HYp]; · iexact HYp
    isplitl [HYz]; · iexact HYz
    iexact HO
  iintro ⟨HYc, HYp, HYz, ⟨%W259, HO⟩⟩
  iapply (wp_sx_wait m K c (58 : Fin 64) W259) $$ [HXc HXp HXz HO]
  · isplitr; · iexact Hrec
    isplitl [HXc]; · iexact HXc
    isplitl [HXp]; · iexact HXp
    isplitl [HXz]; · iexact HXz
    iexact HO
  iintro ⟨HXc, HXp, HXz, ⟨%W260, HO⟩⟩
  iapply (wp_sy_wait m K c (58 : Fin 64) W260) $$ [HYc HYp HYz HO]
  · isplitr; · iexact Hrec
    isplitl [HYc]; · iexact HYc
    isplitl [HYp]; · iexact HYp
    isplitl [HYz]; · iexact HYz
    iexact HO
  iintro ⟨HYc, HYp, HYz, ⟨%W261, HO⟩⟩
  iapply (wp_sx_wait m K c (59 : Fin 64) W261) $$ [HXc HXp HXz HO]
  · isplitr; · iexact Hrec
    isplitl [HXc]; · iexact HXc
    isplitl [HXp]; · iexact HXp
    isplitl [HXz]; · iexact HXz
    iexact HO
  iintro ⟨HXc, HXp, HXz, ⟨%W262, HO⟩⟩
  iapply (wp_sy_wait m K c (59 : Fin 64) W262) $$ [HYc HYp HYz HO]
  · isplitr; · iexact Hrec
    isplitl [HYc]; · iexact HYc
    isplitl [HYp]; · iexact HYp
    isplitl [HYz]; · iexact HYz
    iexact HO
  iintro ⟨HYc, HYp, HYz, ⟨%W263, HO⟩⟩
  iapply (wp_sx_wait m K c (60 : Fin 64) W263) $$ [HXc HXp HXz HO]
  · isplitr; · iexact Hrec
    isplitl [HXc]; · iexact HXc
    isplitl [HXp]; · iexact HXp
    isplitl [HXz]; · iexact HXz
    iexact HO
  iintro ⟨HXc, HXp, HXz, ⟨%W264, HO⟩⟩
  iapply (wp_sy_wait m K c (60 : Fin 64) W264) $$ [HYc HYp HYz HO]
  · isplitr; · iexact Hrec
    isplitl [HYc]; · iexact HYc
    isplitl [HYp]; · iexact HYp
    isplitl [HYz]; · iexact HYz
    iexact HO
  iintro ⟨HYc, HYp, HYz, ⟨%W265, HO⟩⟩
  iapply (wp_sx_wait m K c (61 : Fin 64) W265) $$ [HXc HXp HXz HO]
  · isplitr; · iexact Hrec
    isplitl [HXc]; · iexact HXc
    isplitl [HXp]; · iexact HXp
    isplitl [HXz]; · iexact HXz
    iexact HO
  iintro ⟨HXc, HXp, HXz, ⟨%W266, HO⟩⟩
  iapply (wp_sy_wait m K c (61 : Fin 64) W266) $$ [HYc HYp HYz HO]
  · isplitr; · iexact Hrec
    isplitl [HYc]; · iexact HYc
    isplitl [HYp]; · iexact HYp
    isplitl [HYz]; · iexact HYz
    iexact HO
  iintro ⟨HYc, HYp, HYz, ⟨%W267, HO⟩⟩
  iapply (wp_sx_wait m K c (62 : Fin 64) W267) $$ [HXc HXp HXz HO]
  · isplitr; · iexact Hrec
    isplitl [HXc]; · iexact HXc
    isplitl [HXp]; · iexact HXp
    isplitl [HXz]; · iexact HXz
    iexact HO
  iintro ⟨HXc, HXp, HXz, ⟨%W268, HO⟩⟩
  iapply (wp_sy_wait m K c (62 : Fin 64) W268) $$ [HYc HYp HYz HO]
  · isplitr; · iexact Hrec
    isplitl [HYc]; · iexact HYc
    isplitl [HYp]; · iexact HYp
    isplitl [HYz]; · iexact HYz
    iexact HO
  iintro ⟨HYc, HYp, HYz, ⟨%W269, HO⟩⟩
  iapply (wp_sx_wait m K c (63 : Fin 64) W269) $$ [HXc HXp HXz HO]
  · isplitr; · iexact Hrec
    isplitl [HXc]; · iexact HXc
    isplitl [HXp]; · iexact HXp
    isplitl [HXz]; · iexact HXz
    iexact HO
  iintro ⟨HXc, HXp, HXz, ⟨%W270, HO⟩⟩
  iapply (wp_sy_wait m K c (63 : Fin 64) W270) $$ [HYc HYp HYz HO]
  · isplitr; · iexact Hrec
    isplitl [HYc]; · iexact HYc
    isplitl [HYp]; · iexact HYp
    isplitl [HYz]; · iexact HYz
    iexact HO
  iintro ⟨HYc, HYp, HYz, ⟨%W271, HO⟩⟩
  iapply (wp_wait_out m K c (6 : Fin 8) (mayWait_lout c (0 : Fin 2) 64 _)) $$ [HS0 HO]
  · isplitr; · iexact Hrec
    isplitr; · iexact Hlev
    isplitl [HS0]; · iexact HS0
    iexists W271; iexact HO
  iintro ⟨HS0, Hout6, ⟨%W272, HO⟩⟩
  iapply (wp_wait_out m K c (7 : Fin 8) (mayWait_lout c (1 : Fin 2) 64 _)) $$ [HS1 HO]
  · isplitr; · iexact Hrec
    isplitr; · iexact Hlev
    isplitl [HS1]; · iexact HS1
    iexists W272; iexact HO
  iintro ⟨HS1, Hout7, ⟨%W273, HO⟩⟩
  -- the two slots' cells close
  iapply (wp_slot_close m K c (0 : Fin 2)) $$ [HS0]
  · isplitr; · iexact Hrec
    iexact HS0
  iintro ⟨Hz0i, Hz0o, Hst0⟩
  iapply (wp_slot_close m K c (1 : Fin 2)) $$ [HS1]
  · isplitr; · iexact Hrec
    iexact HS1
  iintro ⟨Hz1i, Hz1o, Hst1⟩
  rw [wp_ret]; imodintro
  iapply Hk
  unfold bodyPost Φ₁ Dat.owesAt Pipeline.owesWithin
  rw [show (dats m 0 c).owed t₀.succ = 0 from rfl]
  isplitr [HO]
  · isplitl [HXz]; · iexact HXz
    isplitl [HYz]; · iexact HYz
    isplitl [HRXz]; · iexact HRXz
    isplitl [HRYz]; · iexact HRYz
    isplitl [Hsrc0 Hsrc1 Hsrc2 Hsrc3 Hsrc4 Hsrc5 Hsrc6 Hsrc7]
    · rw [GLsrc_eight]
      isplitl [Hsrc0]; · iexact Hsrc0
      isplitl [Hsrc1]; · iexact Hsrc1
      isplitl [Hsrc2]; · iexact Hsrc2
      isplitl [Hsrc3]; · iexact Hsrc3
      isplitl [Hsrc4]; · iexact Hsrc4
      isplitl [Hsrc5]; · iexact Hsrc5
      isplitl [Hsrc6]; · iexact Hsrc6
      iexact Hsrc7
    isplitl [Hout0 Hout1 Hout2 Hout3 Hout4 Hout5 Hout6 Hout7]
    · rw [GLout_eight]
      isplitl [Hout0]; · iexact Hout0
      isplitl [Hout1]; · iexact Hout1
      isplitl [Hout2]; · iexact Hout2
      isplitl [Hout3]; · iexact Hout3
      isplitl [Hout4]; · iexact Hout4
      isplitl [Hout5]; · iexact Hout5
      isplitl [Hout6]; · iexact Hout6
      iexact Hout7
    isplitl [Hz0i Hz0o Hst0]
    · isplitl [Hz0i]; · iexact Hz0i
      isplitl [Hz0o]; · iexact Hz0o
      iexact Hst0
    isplitl [Hz1i Hz1o Hst1]
    · isplitl [Hz1i]; · iexact Hz1i
      isplitl [Hz1o]; · iexact Hz1o
      iexact Hst1
    iexact HRA
  · iexists W273
    isplitr; · (ipureintro; exact fun _ _ => Or.inl trivial)
    rw [← owes_top c]; iexact HO

end Cert.Kernel.A2A

end
-- ==== Proof.Kernel.Run.lean ====
import proofs.«900013_g7700000000000014_dist_a2a_v7x_xy2x2_x_m16384_n1024_f32_1_alg».proof.Proof.Kernel.LaunchMem
import proofs.«900013_g7700000000000014_dist_a2a_v7x_xy2x2_x_m16384_n1024_f32_1_alg».proof.Proof.Kernel.LaunchGhost
import proofs.«900013_g7700000000000014_dist_a2a_v7x_xy2x2_x_m16384_n1024_f32_1_alg».proof.Proof.Kernel.BodyOb
import proofs.«900013_g7700000000000014_dist_a2a_v7x_xy2x2_x_m16384_n1024_f32_1_alg».proof.Proof.Kernel.Body
import proofs.«900013_g7700000000000014_dist_a2a_v7x_xy2x2_x_m16384_n1024_f32_1_alg».proof.Proof.Kernel.Split
import proofs.«900013_g7700000000000014_dist_a2a_v7x_xy2x2_x_m16384_n1024_f32_1_alg».proof.Proof.Kernel.ExitSems

noncomputable section

namespace Cert.Kernel.A2A

open Cert.Kernel Cert.Kernel.Gen
open Idealize.ShloMosaic Idealize.ShloMosaic.TcCoe Idealize.SL.Sem

variable {F : FTy → Type} [FloatOps F]

/-- From any memory, every fair run of the program on the four devices ends, faults nowhere, leaves each argument array
    as it was and each result array holding `outFinal`. -/
theorem run_main (m : (ℓ : Loc nD τ sig) → Buf (Elt F) ℓ) (ρ : Dev nD → PrngReg) :
    θ_run (defs (F := F)) (onTc (τ := τ) (main (F := F))) ⟨m, fun _ => 0, ρ⟩
      (fun r => ∀ c : Dev nD, r.2.mem ((c.tc : Thread nD τ).loc main_v1) = outFinal m c
        ∧ r.2.mem ((c.tc : Thread nD τ).loc main_arg0) = m ((c.tc : Thread nD τ).loc main_arg0)) :=
  run_main_of_body m ρ fun c => body_obligation m (fun K c Kt => sound_body m K c Kt) c

end Cert.Kernel.A2A

end
-- ==== Proof.KernelIdeal.Base.lean ====
import proofs.«900013_g7700000000000014_dist_a2a_v7x_xy2x2_x_m16384_n1024_f32_1_alg».proof.Defs
import proofs.«900013_g7700000000000014_dist_a2a_v7x_xy2x2_x_m16384_n1024_f32_1_alg».proof.Proof.Gen.KernelIdeal
import Idealize.ShloMosaic.Lib.Layout

noncomputable section

namespace Cert.KernelIdeal.A2A

open Cert.KernelIdeal Cert.KernelIdeal.Gen
open Idealize.ShloMosaic Idealize.ShloMosaic.TcCoe

variable {F : FTy → Type} [FloatOps F]

/-! ## The mesh: device `2·x + y` has coordinates `(x, y)`; its two neighbours flip one coordinate -/

/-- The coordinate on mesh axis `x` (the axis both the input's rows and the result's columns are cut along). -/
def px (c : Dev nD) : ℕ := c.val / 2
/-- The coordinate on mesh axis `y`. -/
def py (c : Dev nD) : ℕ := c.val % 2

theorem px_lt (c : Dev nD) : px c < 2 := by revert c; decide
theorem py_lt (c : Dev nD) : py c < 2 := by revert c; decide

/-- The neighbour along `x`: `(1 - x, y)`. -/
def xn (c : Dev nD) : Dev nD := ⟨(c.val % 2 + 2) - 2 * (c.val / 2), by revert c; decide⟩
/-- The neighbour along `y`: `(x, 1 - y)`. -/
def yn (c : Dev nD) : Dev nD := ⟨(2 * (c.val / 2) + 1) - c.val % 2, by revert c; decide⟩

theorem xn_xn (c : Dev nD) : xn (xn c) = c := by revert c; decide
theorem yn_yn (c : Dev nD) : yn (yn c) = c := by revert c; decide
theorem xn_yn (c : Dev nD) : xn (yn c) = yn (xn c) := by revert c; decide
theorem xn_ne (c : Dev nD) : xn c ≠ c := by revert c; decide
theorem yn_ne (c : Dev nD) : yn c ≠ c := by revert c; decide
theorem xn_ne_yn (c : Dev nD) : xn c ≠ yn c := by revert c; decide
theorem px_xn (c : Dev nD) : px (xn c) = 1 - px c := by revert c; decide
theorem py_xn (c : Dev nD) : py (xn c) = py c := by revert c; decide
theorem px_yn (c : Dev nD) : px (yn c) = px c := by revert c; decide
theorem py_yn (c : Dev nD) : py (yn c) = 1 - py c := by revert c; decide

/-! ## The buffers and the pieces the copies move, for a symbolic chunk -/

abbrev A0 : Memref sig .tc .hbm S16384x2048 .f32 := Memref.whole main_arg0
abbrev A1 : Memref sig .tc .hbm S32768x1024 .f32 := Memref.whole main_v1
abbrev A2 : Memref sig .tc .vmem S2x2048x1024 .f32 := Memref.whole cc0_scratch0

theorem inb_sem64 (k : Fin 64) : ∀ a, (![k.val] : Fin 1 → Nat) a + S1.size a ≤ S64.size a := by
  intro a; fin_cases a; show k.val + 1 ≤ 64; omega
theorem inb_sem2 (s : Fin 2) : ∀ a, (![s.val] : Fin 1 → Nat) a + S1.size a ≤ S2.size a := by
  intro a; fin_cases a; show s.val + 1 ≤ 2; omega

/-- Semaphore `k` of a 64-semaphore scratch array, as the body slices and squeezes it. -/
abbrev sem64 (arr : DmaSems sig S64) (k : Fin 64) : DmaSems sig S_ :=
  (arr.slice (Rect.unit (s := S64) ![k.val] S1.size (inb_sem64 k))).squeeze S_ squeezes_S1_S_
abbrev sem2 (arr : DmaSems sig S2) (s : Fin 2) : DmaSems sig S_ :=
  (arr.slice (Rect.unit (s := S2) ![s.val] S1.size (inb_sem2 s))).squeeze S_ squeezes_S1_S_

/-- The local copies' semaphores (into the staging slot; out of it), the row-exchange send and receive semaphores,
    the column-exchange send and receive semaphores. -/
abbrev linS (s : Fin 2) : DmaSems sig S_ := sem2 cc0_scratch1 s
abbrev loutS (s : Fin 2) : DmaSems sig S_ := sem2 cc0_scratch2 s
abbrev sxS (k : Fin 64) : DmaSems sig S_ := sem64 cc0_scratch3 k
abbrev rxS (k : Fin 64) : DmaSems sig S_ := sem64 cc0_scratch4 k
abbrev syS (k : Fin 64) : DmaSems sig S_ := sem64 cc0_scratch5 k
abbrev ryS (k : Fin 64) : DmaSems sig S_ := sem64 cc0_scratch6 k
/-- The runtime's barrier semaphore of collective id 0. -/
abbrev barS : Sem sig := (SemArray.scalar (sig.barrier 0 rfl) : Sems sig S_).sem

/-- Chunk `k` of what device `c` sends its `x`-neighbour: rows `8192·y + 128k …` of its argument array, the
    neighbour's 1024 columns. -/
abbrev xSrc (c : Dev nD) (k : Fin 64) : Memref sig .tc .hbm S128x1024 .f32 :=
  A0.slice (Rect.unit (s := S16384x2048) (k0_off2 c (BitVec.ofNat 32 (128 * k.val))) S128x1024.size (k0_off2_inb c k)) (fun _ => rfl)
/-- Where it lands in the `x`-neighbour's result array: rows `16384·x + 8192·y + 128k …` (the sender's `x`, `y`). -/
abbrev xDst (c : Dev nD) (k : Fin 64) : Memref sig .tc .hbm S128x1024 .f32 :=
  A1.slice (Rect.unit (s := S32768x1024) (k0_off1 c (BitVec.ofNat 32 (128 * k.val))) S128x1024.size (k0_off1_inb c k)) (fun _ => rfl)
/-- Chunk `k` of what device `c` forwards to its `y`-neighbour: rows `16384·(1-x) + 8192·y + 128k …` of its result
    array (what the `x`-neighbour's chunk `k` landed in); the same rows of the `y`-neighbour's result array receive it. -/
abbrev yBuf (c : Dev nD) (k : Fin 64) : Memref sig .tc .hbm S128x1024 .f32 :=
  A1.slice (Rect.unit (s := S32768x1024) (k0_off3 c (BitVec.ofNat 32 (128 * k.val))) S128x1024.size (k0_off3_inb c k)) (fun _ => rfl)
/-- Slot `s` of the staging scratch. -/
abbrev stg : Fin 2 → Memref sig .tc .vmem S2048x1024 .f32
  | ⟨0, _⟩ => (A2.slice (Rect.unit (s := S2x2048x1024) ![0, 0, 0] S1x2048x1024.size inb_S2x2048x1024_S1x2048x1024_0_0_0) (fun _ => rfl)).squeeze S2048x1024 squeezes_S1x2048x1024_S2048x1024
  | ⟨_ + 1, _⟩ => (A2.slice (Rect.unit (s := S2x2048x1024) ![1, 0, 0] S1x2048x1024.size inb_S2x2048x1024_S1x2048x1024_1_0_0) (fun _ => rfl)).squeeze S2048x1024 squeezes_S1x2048x1024_S2048x1024
/-- A 2048-row piece of the argument array at an offset (the local copies' sources: rows `2048·j`, the device's own
    1024 columns; the body names the eight offsets one by one). -/
abbrev lSrc (off : Fin 2 → Nat) (h : ∀ a, off a + S2048x1024.size a ≤ S16384x2048.size a) : Memref sig .tc .hbm S2048x1024 .f32 :=
  A0.slice (Rect.unit (s := S16384x2048) off S2048x1024.size h) (fun _ => rfl)
/-- Where local piece `j` goes: rows `16384·x + 2048·j …` of the result array. -/
abbrev lDst (c : Dev nD) (j : Fin 8) : Memref sig .tc .hbm S2048x1024 .f32 :=
  A1.slice (Rect.unit (s := S32768x1024) (k0_off5 c (BitVec.ofNat 32 (2048 * j.val))) S2048x1024.size (k0_off5_inb c j)) (fun _ => rfl)

/-- The offsets of the eight local sources, in the body's order. -/
def lOff (c : Dev nD) : Fin 8 → (Fin 2 → Nat)
  | ⟨0, _⟩ => k0_off4 c | ⟨1, _⟩ => k0_off6 c | ⟨2, _⟩ => k0_off7 c | ⟨3, _⟩ => k0_off8 c
  | ⟨4, _⟩ => k0_off9 c | ⟨5, _⟩ => k0_off10 c | ⟨6, _⟩ => k0_off11 c | ⟨_ + 7, _⟩ => k0_off12 c
theorem lOff_eq (c : Dev nD) (j : Fin 8) : lOff c j = ![2048 * j.val, 1024 * (c.val / 2)] := by
  revert c j; decide +kernel
theorem lOff_inb (c : Dev nD) (j : Fin 8) : ∀ a, lOff c j a + S2048x1024.size a ≤ S16384x2048.size a := by
  rw [lOff_eq]; intro a; fin_cases a
  · show 2048 * j.val + 2048 ≤ 16384; omega
  · show 1024 * (c.val / 2) + 1024 ≤ 2048; have : c.val < 4 := c.isLt; omega

/-- The device chains the body addresses its copies and signals with: all are one of the two neighbours. -/
theorem dev_xn (c : Dev nD) (n : Nat) (h : n < nD) (e : n = ((c.val % 2) + 2) - 2 * (c.val / 2)) : (⟨n, h⟩ : Dev nD) = xn c := Fin.ext e
theorem dev_yn (c : Dev nD) (n : Nat) (h : n < nD) (e : n = (2 * (c.val / 2) + 1) - (c.val % 2)) : (⟨n, h⟩ : Dev nD) = yn c := Fin.ext e

-- the chunk-generic pieces ARE the printed ones at a literal chunk
example (c : Dev nD) : xSrc c ⟨1, by decide⟩ = (Memref.whole main_arg0 : Memref sig .tc .hbm S16384x2048 .f32).slice (Rect.unit (s := S16384x2048) (k0_off2 c 128#32) S128x1024.size (k0_off2_inb c 1)) (fun _ => rfl) := rfl
example : sxS ⟨63, by decide⟩ = ((cc0_scratch3 : DmaSems sig S64).slice (Rect.unit (s := S64) ![63] S1.size inb_S64_S1_63)).squeeze S_ squeezes_S1_S_ := rfl
example (c : Dev nD) : lSrc (lOff c ⟨0, by decide⟩) (lOff_inb c _) = (Memref.whole main_arg0 : Memref sig .tc .hbm S16384x2048 .f32).slice (Rect.unit (s := S16384x2048) (k0_off4 c) S2048x1024.size (k0_off4_inb c)) (fun _ => rfl) := rfl
example : stg ⟨1, by decide⟩ = ((Memref.whole cc0_scratch0 : Memref sig .tc .vmem S2x2048x1024 .f32).slice (Rect.unit (s := S2x2048x1024) ![1, 0, 0] S1x2048x1024.size inb_S2x2048x1024_S1x2048x1024_1_0_0) (fun _ => rfl)).squeeze S2048x1024 squeezes_S1x2048x1024_S2048x1024 := rfl

/-! ## What each device's result array holds at the end -/

variable (m : (ℓ : Loc nD τ sig) → Buf (Elt F) ℓ)

/-- Device `c`'s argument array (its block of the rows of the whole input), as launched. -/
abbrev inA (c : Dev nD) : Buf (Elt F) ((c : Thread nD τ).loc main_arg0) := m ((c : Thread nD τ).loc main_arg0)

/-- The device whose argument array row `i` of `c`'s result is read from: rows of `c`'s own row block come from `c`
    itself; of the other row block, the half with `c`'s own `y` comes straight from the `x`-neighbour, the other half
    from the `x`-neighbour of the `y`-neighbour (through the `y`-neighbour). -/
def srcDev (c : Dev nD) (i : ℕ) : Dev nD :=
  if i / 16384 = px c then c else if (i % 16384) / 8192 = py c then xn c else xn (yn c)

/-- Device `c`'s result array after the kernel: entry `(i, j)` is entry `(i mod 16384, 1024·x + j)` of the argument
    array of the device row `i` is read from (whose `x` coordinate is `i / 16384`). -/
def outFinal (c : Dev nD) : Buf (Elt F) ((c : Thread nD τ).loc main_v1) := fun idx =>
  inA m (srcDev c (idx 0).val)
    (Shape.pair (⟨(idx 0).val % 16384, Nat.mod_lt _ (by decide)⟩ : Fin 16384)
      (⟨1024 * px c + (idx 1).val, by have h1 := px_lt c; have h2 : (idx 1).val < 1024 := (idx 1).isLt; omega⟩ : Fin 2048))

end Cert.KernelIdeal.A2A

end
-- ==== Proof.KernelIdeal.Sched.lean ====
import proofs.«900013_g7700000000000014_dist_a2a_v7x_xy2x2_x_m16384_n1024_f32_1_alg».proof.Proof.KernelIdeal.Base
import proofs.«900013_g7700000000000014_dist_a2a_v7x_xy2x2_x_m16384_n1024_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's own (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

abbrev barCell (c : Dev nD) : GSem nD τ sig := ((c : Thread nD τ), .reg barS)
abbrev linCell (c : Dev nD) (s : Fin 2) : GSem nD τ sig := ((c : Thread nD τ), .dma (linS s).sem)
abbrev loutCell (c : Dev nD) (s : Fin 2) : GSem nD τ sig := ((c : Thread nD τ), .dma (loutS s).sem)
abbrev sxCell (c : Dev nD) (k : Fin 64) : GSem nD τ sig := ((c : Thread nD τ), .dma (sxS k).sem)
abbrev rxCell (c : Dev nD) (k : Fin 64) : GSem nD τ sig := ((c : Thread nD τ), .dma (rxS k).sem)
abbrev syCell (c : Dev nD) (k : Fin 64) : GSem nD τ sig := ((c : Thread nD τ), .dma (syS k).sem)
abbrev ryCell (c : Dev nD) (k : Fin 64) : GSem nD τ sig := ((c : Thread nD τ), .dma (ryS k).sem)

/-- The DMA semaphores by number: 0–1 into the staging slots, 2–3 out of them, 4–67 the row exchange's sends,
    68–131 its receives, 132–195 the column exchange's sends, 196–259 its receives. -/
theorem linS_val (s : Fin 2) : (linS s).sem.val = s.val := by revert s; decide
theorem loutS_val (s : Fin 2) : (loutS s).sem.val = 2 + s.val := by revert s; decide
theorem sxS_val (k : Fin 64) : (sxS k).sem.val = 4 + k.val := by revert k; decide
theorem rxS_val (k : Fin 64) : (rxS k).sem.val = 68 + k.val := by revert k; decide
theorem syS_val (k : Fin 64) : (syS k).sem.val = 132 + k.val := by revert k; decide
theorem ryS_val (k : Fin 64) : (ryS k).sem.val = 196 + k.val := by revert k; decide

/-! ## Credit amounts: a 128-row chunk of the result array; a staging slot; a 2048-row piece of the result array -/

abbrev N128 : ℕ := (xDst (0 : Dev nD) 0).view.dmaCredit
abbrev NLi : ℕ := (stg 0).view.dmaCredit
abbrev NLo : ℕ := (lDst (0 : Dev nD) 0).view.dmaCredit
theorem N128_pos : 0 < N128 := View.dmaCredit_pos _ (by decide)
theorem NLi_pos : 0 < NLi := View.dmaCredit_pos _ (by decide)
theorem NLo_pos : 0 < NLo := View.dmaCredit_pos _ (by decide)

/-! ## Which cell a semaphore is -/

inductive CK where
  | bar | lin (s : Fin 2) | lout (s : Fin 2) | sx (k : Fin 64) | rx (k : Fin 64) | sy (k : Fin 64) | ry (k : Fin 64)
  deriving DecidableEq

def classify : SemLoc sig → Option CK
  | .reg _ => some .bar
  | .dma q =>
    if h : q.val < 2 then some (.lin ⟨q.val, h⟩)
    else if h : q.val < 4 then some (.lout ⟨q.val - 2, by omega⟩)
    else if h : q.val < 68 then some (.sx ⟨q.val - 4, by omega⟩)
    else if h : q.val < 132 then some (.rx ⟨q.val - 68, by omega⟩)
    else if h : q.val < 196 then some (.sy ⟨q.val - 132, by omega⟩)
    else if h : q.val < 260 then some (.ry ⟨q.val - 196, by omega⟩)
    else none

theorem classify_bar : classify (.reg barS) = some .bar := rfl
theorem classify_lin (s : Fin 2) : classify (.dma (linS s).sem) = some (.lin s) := by revert s; decide
theorem classify_lout (s : Fin 2) : classify (.dma (loutS s).sem) = some (.lout s) := by revert s; decide
theorem classify_sx (k : Fin 64) : classify (.dma (sxS k).sem) = some (.sx k) := by revert k; decide
theorem classify_rx (k : Fin 64) : classify (.dma (rxS k).sem) = some (.rx k) := by revert k; decide
theorem classify_sy (k : Fin 64) : classify (.dma (syS k).sem) = some (.sy k) := by revert k; decide
theorem classify_ry (k : Fin 64) : classify (.dma (ryS k).sem) = some (.ry k) := by revert k; decide

/-! ## What is held of a buffer: the elements under a slice, at some contents -/

/-- Device `d` holds the elements under the slice `P` of one of its buffers, at contents `f` (of which only the values
    under the slice matter). -/
abbrev pts {sp : Space} {s : Shape} {e : EltTy} (d : Dev nD) (P : Memref sig .tc sp s e) (f : Buf (Elt F) (P.view.loc (d : Thread nD τ))) : sProp 𝕄 :=
  P.view.loc (d : Thread nD τ) ↦[P.view.set]{fullShare} f

/-! ## The payloads -/

/-- The `x`-neighbour's entry signal hands device `c` the 64 chunks of the neighbour's result array that `c`'s row
    exchange writes; the `y`-neighbour's the 64 chunks that `c`'s column exchange writes. -/
def barPayX (c : Dev nD) : sProp 𝕄 := bigSep Finset.univ fun k : Fin 64 => iprop(∃ f, pts (xn c) (xDst c k) f)
def barPayY (c : Dev nD) : sProp 𝕄 := bigSep Finset.univ fun k : Fin 64 => iprop(∃ f, pts (yn c) (yBuf c k) f)
/-- Chunk `k` of the row exchange landed on `c`: those rows of `c`'s result array hold what they must. -/
def rxPay (c : Dev nD) (k : Fin 64) : sProp 𝕄 := pts c (xDst (xn c) k) (outFinal m c)
/-- Chunk `k` of the column exchange landed on `c`. -/
def ryPay (c : Dev nD) (k : Fin 64) : sProp 𝕄 := pts c (yBuf (yn c) k) (outFinal m c)
/-- The row exchange's source chunk is `c`'s again; -/
def sxPay (c : Dev nD) (k : Fin 64) : sProp 𝕄 := pts c (xSrc c k) (inA m c)
/-- the column exchange's (the rows chunk `k` of the row exchange landed in). -/
def syPay (c : Dev nD) (k : Fin 64) : sProp 𝕄 := pts c (yBuf c k) (outFinal m c)
/-- Local piece `j` is in its staging slot (read back through the slot it is the piece), its source `c`'s again; -/
def linPay (c : Dev nD) (j : Fin 8) (s : Fin 2) : sProp 𝕄 :=
  iprop((∃ f, pts c (stg s) f ∗ ⌜(stg s).view.read (Elt F) f = (lSrc (lOff c j) (lOff_inb c j)).view.read (Elt F) (inA m c)⌝)
    ∗ pts c (lSrc (lOff c j) (lOff_inb c j)) (inA m c))
/-- it is in the result array, the staging slot `c`'s again. -/
def loutPay (c : Dev nD) (j : Fin 8) (s : Fin 2) : sProp 𝕄 :=
  iprop(pts c (lDst c j) (outFinal m c) ∗ ∃ f, pts c (stg s) f)

/-- The local piece that round `r` of a slot-`s` cell moves: `2r + s` (pieces alternate between the two slots). -/
def pieceOf (r : ℕ) (s : Fin 2) : Fin 8 := ⟨(2 * r + s.val) % 8, Nat.mod_lt _ (by decide)⟩

/-! ## The schedule -/

/-- One round for the barrier cell (two duties of one unit: `false` the `x`-neighbour's signal, `true` the
    `y`-neighbour's) and for each exchange cell (one duty, a chunk's credit); four rounds for each local-copy cell
    (one duty a round, the piece's credit). -/
def a2aRd : Rounds.Schedule (GSem nD τ sig) Bool 𝕄 where
  duties g r :=
    if g.1.2 = .tc then
      match classify g.2 with
      | some .bar => if r = 0 then Finset.univ else ∅
      | some (.lin _) => if r < 4 then {false} else ∅
      | some (.lout _) => if r < 4 then {false} else ∅
      | some _ => if r = 0 then {false} else ∅
      | none => ∅
    else ∅
  unitless _ := False
  amount g _ _ :=
    match classify g.2 with
    | some .bar => 1
    | some (.lin _) => NLi
    | some (.lout _) => NLo
    | _ => N128
  payload g r d :=
    match classify g.2 with
    | some .bar => if d then barPayY g.1.1 else barPayX g.1.1
    | some (.lin s) => linPay m g.1.1 (pieceOf r s) s
    | some (.lout s) => loutPay m g.1.1 (pieceOf r s) s
    | some (.sx k) => sxPay m g.1.1 k
    | some (.rx k) => rxPay m g.1.1 k
    | some (.sy k) => syPay m g.1.1 k
    | some (.ry k) => ryPay m g.1.1 k
    | none => iprop(emp)
  amount_pos g _ _ _ := by
    cases classify g.2 with
    | none => exact N128_pos
    | some ck => cases ck <;> first | exact Nat.one_pos | exact NLi_pos | exact NLo_pos | exact N128_pos

/-! ## The schedule's tables -/

section Tables
variable (c : Dev nD)

omit [FloatOps F] in
theorem duties_bar : (a2aRd (F := F) m).duties (barCell c) 0 = Finset.univ := by
  simp only [a2aRd, classify_bar, if_true]
omit [FloatOps F] in
theorem duties_sx (k : Fin 64) : (a2aRd (F := F) m).duties (sxCell c k) 0 = {false} := by simp only [a2aRd, classify_sx, if_true]
omit [FloatOps F] in
theorem duties_rx (k : Fin 64) : (a2aRd (F := F) m).duties (rxCell c k) 0 = {false} := by simp only [a2aRd, classify_rx, if_true]
omit [FloatOps F] in
theorem duties_sy (k : Fin 64) : (a2aRd (F := F) m).duties (syCell c k) 0 = {false} := by simp only [a2aRd, classify_sy, if_true]
omit [FloatOps F] in
theorem duties_ry (k : Fin 64) : (a2aRd (F := F) m).duties (ryCell c k) 0 = {false} := by simp only [a2aRd, classify_ry, if_true]
omit [FloatOps F] in
theorem duties_lin (s : Fin 2) (r : ℕ) (hr : r < 4) : (a2aRd (F := F) m).duties (linCell c s) r = {false} := by
  simp only [a2aRd, classify_lin, if_true, if_pos hr]
omit [FloatOps F] in
theorem duties_lout (s : Fin 2) (r : ℕ) (hr : r < 4) : (a2aRd (F := F) m).duties (loutCell c s) r = {false} := by
  simp only [a2aRd, classify_lout, if_true, if_pos hr]

omit [FloatOps F] in
theorem amount_bar (d : Bool) : (a2aRd (F := F) m).amount (barCell c) 0 d = 1 := by simp only [a2aRd, classify_bar]
omit [FloatOps F] in
theorem amount_sx (k : Fin 64) (d : Bool) : (a2aRd (F := F) m).amount (sxCell c k) 0 d = N128 := by simp only [a2aRd, classify_sx]
omit [FloatOps F] in
theorem amount_rx (k : Fin 64) (d : Bool) : (a2aRd (F := F) m).amount (rxCell c k) 0 d = N128 := by simp only [a2aRd, classify_rx]
omit [FloatOps F] in
theorem amount_sy (k : Fin 64) (d : Bool) : (a2aRd (F := F) m).amount (syCell c k) 0 d = N128 := by simp only [a2aRd, classify_sy]
omit [FloatOps F] in
theorem amount_ry (k : Fin 64) (d : Bool) : (a2aRd (F := F) m).amount (ryCell c k) 0 d = N128 := by simp only [a2aRd, classify_ry]
omit [FloatOps F] in
theorem amount_lin (s : Fin 2) (r : ℕ) (d : Bool) : (a2aRd (F := F) m).amount (linCell c s) r d = NLi := by simp only [a2aRd, classify_lin]
omit [FloatOps F] in
theorem amount_lout (s : Fin 2) (r : ℕ) (d : Bool) : (a2aRd (F := F) m).amount (loutCell c s) r d = NLo := by simp only [a2aRd, classify_lout]

omit [FloatOps F] in
theorem payload_bar (d : Bool) : (a2aRd (F := F) m).payload (barCell c) 0 d = if d then barPayY c else barPayX c := by simp only [a2aRd, classify_bar]
omit [FloatOps F] in
theorem payload_sx (k : Fin 64) (r : ℕ) (d : Bool) : (a2aRd (F := F) m).payload (sxCell c k) r d = sxPay m c k := by simp only [a2aRd, classify_sx]
omit [FloatOps F] in
theorem payload_rx (k : Fin 64) (r : ℕ) (d : Bool) : (a2aRd (F := F) m).payload (rxCell c k) r d = rxPay m c k := by simp only [a2aRd, classify_rx]
omit [FloatOps F] in
theorem payload_sy (k : Fin 64) (r : ℕ) (d : Bool) : (a2aRd (F := F) m).payload (syCell c k) r d = syPay m c k := by simp only [a2aRd, classify_sy]
omit [FloatOps F] in
theorem payload_ry (k : Fin 64) (r : ℕ) (d : Bool) : (a2aRd (F := F) m).payload (ryCell c k) r d = ryPay m c k := by simp only [a2aRd, classify_ry]
omit [FloatOps F] in
theorem payload_lin (s : Fin 2) (r : ℕ) (d : Bool) : (a2aRd (F := F) m).payload (linCell c s) r d = linPay m c (pieceOf r s) s := by simp only [a2aRd, classify_lin]
omit [FloatOps F] in
theorem payload_lout (s : Fin 2) (r : ℕ) (d : Bool) : (a2aRd (F := F) m).payload (loutCell c s) r d = loutPay m c (pieceOf r s) s := by simp only [a2aRd, classify_lout]

end Tables

end Cert.KernelIdeal.A2A

end
-- ==== Proof.KernelIdeal.State.lean ====
import proofs.«900013_g7700000000000014_dist_a2a_v7x_xy2x2_x_m16384_n1024_f32_1_alg».proof.Proof.KernelIdeal.Sched

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Chunks still to do, chunks done -/

/-- The chunks from `a` on; -/
def seg (a : ℕ) : Finset (Fin 64) := Finset.univ.filter fun k => a ≤ k.val
/-- the chunks before `a`; -/
def pre (a : ℕ) : Finset (Fin 64) := Finset.univ.filter fun k => k.val < a
/-- the chunks from `lo` up to `hi`. -/
def mid (lo hi : ℕ) : Finset (Fin 64) := Finset.univ.filter fun k => lo ≤ k.val ∧ k.val < hi

theorem seg_zero : seg 0 = Finset.univ := by ext k; simp [seg]
theorem seg_top : seg 64 = ∅ := by ext k; simp [seg]
theorem pre_zero : pre 0 = ∅ := by ext k; simp [pre]
theorem pre_top : pre 64 = Finset.univ := by ext k; simp [pre]
theorem mid_self (a : ℕ) : mid a a = ∅ := by ext k; simp [mid]
theorem seg_eq_insert (k : Fin 64) : seg k.val = insert k (seg (k.val + 1)) := by
  ext j; simp only [seg, Finset.mem_filter, Finset.mem_univ, true_and, Finset.mem_insert]
  constructor
  · intro h; by_cases hj : j = k
    · exact .inl hj
    · exact .inr (by have : j.val ≠ k.val := fun h' => hj (Fin.ext h'); omega)
  · rintro (rfl | h) <;> omega
theorem not_mem_seg_succ (k : Fin 64) : k ∉ seg (k.val + 1) := by simp [seg]
theorem pre_succ_eq_insert (k : Fin 64) : pre (k.val + 1) = insert k (pre k.val) := by
  ext j; simp only [pre, Finset.mem_filter, Finset.mem_univ, true_and, Finset.mem_insert]
  constructor
  · intro h; by_cases hj : j = k
    · exact .inl hj
    · exact .inr (by have : j.val ≠ k.val := fun h' => hj (Fin.ext h'); omega)
  · rintro (rfl | h) <;> omega
theorem not_mem_pre (k : Fin 64) : k ∉ pre k.val := by simp [pre]
theorem mid_succ_eq_insert (lo : ℕ) (k : Fin 64) (h : lo ≤ k.val) : mid lo (k.val + 1) = insert k (mid lo k.val) := by
  ext j; simp only [mid, Finset.mem_filter, Finset.mem_univ, true_and, Finset.mem_insert]
  constructor
  · intro h'; by_cases hj : j = k
    · exact .inl hj
    · exact .inr (by have : j.val ≠ k.val := fun h'' => hj (Fin.ext h''); omega)
  · rintro (rfl | h') <;> omega
theorem not_mem_mid (lo : ℕ) (k : Fin 64) : k ∉ mid lo k.val := by simp [mid]
theorem mid_eq_insert_low (k : Fin 64) (hi : ℕ) (h : k.val < hi) : mid k.val hi = insert k (mid (k.val + 1) hi) := by
  ext j; simp only [mid, Finset.mem_filter, Finset.mem_univ, true_and, Finset.mem_insert]
  constructor
  · intro h'; by_cases hj : j = k
    · exact .inl hj
    · exact .inr (by have : j.val ≠ k.val := fun h'' => hj (Fin.ext h''); omega)
  · rintro (rfl | h') <;> omega
theorem not_mem_mid_succ (k : Fin 64) (hi : ℕ) : k ∉ mid (k.val + 1) hi := by simp [mid]

/-! ## Every cell of the exchange, by number; the invariants' names; the persistent records -/

/-- The 261 semaphores a device's exchange runs on: the barrier, then the 260 DMA semaphores in order. -/
abbrev csem : Fin 261 → SemLoc sig := fun i => if h : i.val = 0 then .reg barS else .dma ⟨i.val - 1, by have := i.isLt; show i.val - 1 < 260; omega⟩
abbrev kcell (ck : Dev nD × Fin 261) : GSem nD τ sig := ((ck.1 : Thread nD τ), csem ck.2)

/-- The number of a DMA semaphore's cell. -/
def ixDma (q : DmaSem sig) : Fin 261 := ⟨q.val + 1, by have : q.val < 260 := q.isLt; omega⟩
theorem kcell_dma (c : Dev nD) (q : DmaSem sig) : kcell (c, ixDma q) = ((c : Thread nD τ), .dma q) := by
  show ((c : Thread nD τ), csem (ixDma q)) = _
  congr 1
theorem kcell_bar (c : Dev nD) : kcell (c, (0 : Fin 261)) = barCell c := rfl

/-- Under the names `K` the launch allocated them at: every cell's invariant, and that round 0 of it is reached. -/
def records (K : Dev nD × Fin 261 → ℕ) : sProp 𝕄 :=
  bigSep Finset.univ fun ck : Dev nD × Fin 261 => iprop(cellInv ER (a2aRd m) (K ck) (kcell ck) ∗ reached ER (kcell ck) 0)

instance records_persistent (K : Dev nD × Fin 261 → ℕ) : BI.Persistent (records m K) := by unfold records; infer_instance

/-! ## What a device owes, chunk by chunk -/

/-- What the row exchange still owes the `x`-neighbour's receive cells from chunk `a` on; the column exchange the
    `y`-neighbour's from chunk `b` on. -/
def OX (c : Dev nD) (a : ℕ) : CellTallies nD τ sig Unit := ∑ k ∈ seg a, tallyAt (rxCell (xn c) k) () N128
def OY (c : Dev nD) (b : ℕ) : CellTallies nD τ sig Unit := ∑ k ∈ seg b, tallyAt (ryCell (yn c) k) () N128
/-- At launch: all of both and the two entry signals, summed so that the first signal (to the `x`-neighbour) peels
    the last summand and the second the one before. -/
def O₁ (c : Dev nD) : CellTallies nD τ sig Unit := (OX c 0 + OY c 0) + tallyAt (barCell (yn c)) () 1
def O₀ (c : Dev nD) : CellTallies nD τ sig Unit := O₁ c + tallyAt (barCell (xn c)) () 1

theorem OX_peel (c : Dev nD) (k : Fin 64) : OX c k.val = OX c (k.val + 1) + tallyAt (rxCell (xn c) k) () N128 := by
  unfold OX; rw [seg_eq_insert k, Finset.sum_insert (not_mem_seg_succ k), add_comm]
theorem OY_peel (c : Dev nD) (k : Fin 64) : OY c k.val = OY c (k.val + 1) + tallyAt (ryCell (yn c) k) () N128 := by
  unfold OY; rw [seg_eq_insert k, Finset.sum_insert (not_mem_seg_succ k), add_comm]
theorem OX_top (c : Dev nD) : OX c 64 = 0 := by unfold OX; rw [seg_top, Finset.sum_empty]
theorem OY_top (c : Dev nD) : OY c 64 = 0 := by unfold OY; rw [seg_top, Finset.sum_empty]

/-! ## The levels: the barrier below the row exchange's receives below the column exchange's; everything else lowest -/

def L (g : GSem nD τ sig) : Finset Unit := if g.1.2 = .tc then {()} else ∅
def lv (g : GSem nD τ sig) (_ : Unit) : ℕ :=
  match classify g.2 with
  | some .bar => 1
  | some (.rx _) => 2
  | some (.ry _) => 3
  | _ => 0

theorem L_of_ne (g : GSem nD τ sig) (h : g.1.2 ≠ .tc) : L g = ∅ := if_neg h
theorem L_tc (c : Dev nD) (sm : SemLoc sig) : L ((c : Thread nD τ), sm) = {()} := if_pos rfl

/-! ## The groups of resources a device's body holds, by progress -/

section Groups
variable (c : Dev nD)

/-- Row-exchange chunks not yet sent: both duty tokens and the source chunk; -/
def GXtok (a : ℕ) : sProp 𝕄 := bigSep (seg a) fun k =>
  iprop(dutyTok ER (sxCell c k) 0 false ∗ dutyTok ER (rxCell (xn c) k) 0 false ∗ pts c (xSrc c k) (inA m c))
/-- their destinations in the `x`-neighbour's result array (handed over by its entry signal: `GXdst c 0 = barPayX c`). -/
def GXdst (a : ℕ) : sProp 𝕄 := bigSep (seg a) fun k => iprop(∃ f, pts (xn c) (xDst c k) f)
/-- The send credits of the chunks sent and not yet waited for, and the send cells not yet waited on; -/
def GXcred (lo hi : ℕ) : sProp 𝕄 := bigSep (mid lo hi) fun k => cred (tallyAt (sxCell c k) () N128)
def GXpos (e : ℕ) : sProp 𝕄 := bigSep (seg e) fun k => atPos ER (sxCell c k) 0 ∅ 0
/-- once waited on: the cell closed, the source chunk back. -/
def GXdone (e : ℕ) : sProp 𝕄 := bigSep (pre e) fun k => iprop(semVal (sxCell c k) 0 ∗ pts c (xSrc c k) (inA m c))

/-- The same for the column exchange (its source chunk `k` is what landed from the row exchange, so there is none here). -/
def GYtok (b : ℕ) : sProp 𝕄 := bigSep (seg b) fun k =>
  iprop(dutyTok ER (syCell c k) 0 false ∗ dutyTok ER (ryCell (yn c) k) 0 false)
def GYdst (b : ℕ) : sProp 𝕄 := bigSep (seg b) fun k => iprop(∃ f, pts (yn c) (yBuf c k) f)
def GYcred (lo hi : ℕ) : sProp 𝕄 := bigSep (mid lo hi) fun k => cred (tallyAt (syCell c k) () N128)
def GYpos (e : ℕ) : sProp 𝕄 := bigSep (seg e) fun k => atPos ER (syCell c k) 0 ∅ 0
def GYdone (e : ℕ) : sProp 𝕄 := bigSep (pre e) fun k => iprop(semVal (syCell c k) 0 ∗ pts c (yBuf c k) (outFinal m c))

/-- The row exchange's receive cells not yet waited on (position and the launch's credit); once waited on, closed. -/
def GRXwait (b : ℕ) : sProp 𝕄 := bigSep (seg b) fun k => iprop(atPos ER (rxCell c k) 0 ∅ 0 ∗ cred (tallyAt (rxCell c k) () N128))
def GRXdone (b : ℕ) : sProp 𝕄 := bigSep (pre b) fun k => semVal (rxCell c k) 0
/-- The column exchange's; once waited on, closed and the landed chunk held. -/
def GRYwait (r : ℕ) : sProp 𝕄 := bigSep (seg r) fun k => iprop(atPos ER (ryCell c k) 0 ∅ 0 ∗ cred (tallyAt (ryCell c k) () N128))
def GRYdone (r : ℕ) : sProp 𝕄 := bigSep (pre r) fun k => iprop(semVal (ryCell c k) 0 ∗ pts c (yBuf (yn c) k) (outFinal m c))

/-- The slot and round of local piece `j`. -/
def slotOf (j : Fin 8) : Fin 2 := ⟨j.val % 2, Nat.mod_lt _ (by decide)⟩
def roundOf (j : Fin 8) : ℕ := j.val / 2
/-- Local pieces from `j` on: their two duty tokens, the source piece, the destination piece. -/
def GLtok (j : ℕ) : sProp 𝕄 := bigSep (Finset.univ.filter fun i : Fin 8 => j ≤ i.val) fun i =>
  iprop(dutyTok ER (linCell c (slotOf i)) (roundOf i) false ∗ dutyTok ER (loutCell c (slotOf i)) (roundOf i) false
    ∗ pts c (lSrc (lOff c i) (lOff_inb c i)) (inA m c) ∗ ∃ f, pts c (lDst c i) f)
/-- A slot with `r` pieces through it and none in flight: the slot itself, both cells at round `r`. -/
def SlotIdle (s : Fin 2) (r : ℕ) : sProp 𝕄 :=
  iprop((∃ f, pts c (stg s) f) ∗ atPos ER (linCell c s) r ∅ 0 ∗ atPos ER (loutCell c s) r ∅ 0)
/-- A slot whose piece of round `r` is on its way out: the copy-out's credit, the copy-in cell a round ahead. -/
def SlotBusy (s : Fin 2) (r : ℕ) : sProp 𝕄 :=
  iprop(cred (tallyAt (loutCell c s) () NLo) ∗ atPos ER (linCell c s) (r + 1) ∅ 0 ∗ atPos ER (loutCell c s) r ∅ 0)
/-- Local pieces done: the source piece back (`j` copied in), the result piece written (`j'` copied out). -/
def GLsrc (j : ℕ) : sProp 𝕄 := bigSep (Finset.univ.filter fun i : Fin 8 => i.val < j) fun i => pts c (lSrc (lOff c i) (lOff_inb c i)) (inA m c)
def GLout (j : ℕ) : sProp 𝕄 := bigSep (Finset.univ.filter fun i : Fin 8 => i.val < j) fun i => pts c (lDst c i) (outFinal m c)

end Groups

end Cert.KernelIdeal.A2A

end
-- ==== Proof.KernelIdeal.Body0.lean ====
import proofs.«900013_g7700000000000014_dist_a2a_v7x_xy2x2_x_m16384_n1024_f32_1_alg».proof.Proof.KernelIdeal.State
import proofs.«900013_g7700000000000014_dist_a2a_v7x_xy2x2_x_m16384_n1024_f32_1_alg».proof.Proof.Gen.KernelIdeal.Points

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What a device's body starts from and what it leaves -/

/-- The elements of the argument array that no copy reads: held from entry to exit. -/
def restSetA (c : Dev nD) : Finset (Idx (A0.view.loc (c : Thread nD τ))) :=
  Finset.univ \ ((Finset.univ.biUnion fun k : Fin 64 => (xSrc c k).view.set) ∪ (Finset.univ.biUnion fun j : Fin 8 => (lSrc (lOff c j) (lOff_inb c j)).view.set))
def RestA (c : Dev nD) : sProp 𝕄 := A0.view.loc (c : Thread nD τ) ↦[restSetA c]{fullShare} inA m c

/-- At entry, under the names `K`: the records; the two entry-signal tokens with what they hand over (the chunks of the
    device's OWN result array its two neighbours will write); its barrier cell's position and the launch's credit for
    it; every exchange chunk's tokens, source and cell positions; the receive cells with the launch's credits; the
    local pieces and the two idle slots; the untouched rest of the argument array. -/
def entry (K : Dev nD × Fin 261 → ℕ) (c : Dev nD) : sProp 𝕄 :=
  iprop(records m K ∗ levAts L lv
    ∗ dutyTok ER (barCell (xn c)) 0 false ∗ dutyTok ER (barCell (yn c)) 0 true
    ∗ barPayX (xn c) ∗ barPayY (yn c)
    ∗ atPos ER (barCell c) 0 ∅ 0 ∗ cred (tallyAt (barCell c) () 2)
    ∗ GXtok m c 0 ∗ GXpos c 0 ∗ GYtok c 0 ∗ GYpos c 0
    ∗ GRXwait c 0 ∗ GRYwait c 0
    ∗ GLtok m c 0 ∗ SlotIdle c 0 0 ∗ SlotIdle c 1 0
    ∗ RestA m c)

def Φ₀ (c : Dev nD) : sProp 𝕄 := iprop(∃ K, entry m K c)

/-- At exit: every chunk of the argument array back at its launch contents, every chunk of the result array at
    `outFinal`, every one of the device's 260 DMA semaphores closed at zero, the two staging slots. -/
def Φ₁ (c : Dev nD) : sProp 𝕄 :=
  iprop(GXdone m c 64 ∗ GYdone m c 64 ∗ GRXdone c 64 ∗ GRYdone m c 64
    ∗ GLsrc m c 8 ∗ GLout m c 8
    ∗ (semVal (linCell c 0) 0 ∗ semVal (loutCell c 0) 0 ∗ ∃ f, pts c (stg 0) f)
    ∗ (semVal (linCell c 1) 0 ∗ semVal (loutCell c 1) 0 ∗ ∃ f, pts c (stg 1) f)
    ∗ RestA m c)

/-- The pipeline's proof data: no window; the invariant before and after the one point; what is owed. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the body is run from: the entry resources and what the device owes (all of it, nothing waited yet). -/
def bodyPre (K : Dev nD × Fin 261 → ℕ) (c : Dev nD) : sProp 𝕄 :=
  iprop(entry m K c ∗ (dats m 0 c).owesAt () t₀.castSucc)
/-- What it ends in: the exit resources, nothing owed. -/
def bodyPost (c : Dev nD) : sProp 𝕄 :=
  iprop(Φ₁ m c ∗ (dats m 0 c).owesAt () t₀.succ)

end Cert.KernelIdeal.A2A

end
-- ==== Proof.KernelIdeal.Pieces.lean ====
import proofs.«900013_g7700000000000014_dist_a2a_v7x_xy2x2_x_m16384_n1024_f32_1_alg».proof.Proof.KernelIdeal.Base
import Idealize.ShloMosaic.Lib.Pipeline.Value

/-!
# The pieces of the arrays: what each copy leaves, and how the pieces tile the arrays

Every copy of the exchange moves one rectangular piece of an array onto one rectangular piece of another. This file
states, as equalities of functions and of finite sets of indices only,

* what a destination piece holds after its copy: on the piece's elements, the values the finished result array
  has there (`outFinal`);
* which rows each piece occupies, that the pieces of one result array are pairwise disjoint and together cover it,
  and that the pieces read out of one argument array are pairwise disjoint.
-/

noncomputable section

namespace Cert.KernelIdeal.A2A

open Cert.KernelIdeal Cert.KernelIdeal.Gen
open Idealize.ShloMosaic Idealize.ShloMosaic.TcCoe

variable {F : FTy → Type} [FloatOps F]

/-! ## The neighbours' numbers, and which elements each piece occupies

A piece of the result array spans all 1024 columns, so membership is a condition on the row alone; a piece of the
argument array spans 1024 of the 2048 columns. -/

theorem xn_val (c : Dev nD) : (xn c).val = (c.val % 2 + 2) - 2 * (c.val / 2) := rfl
theorem yn_val (c : Dev nD) : (yn c).val = (2 * (c.val / 2) + 1) - c.val % 2 := rfl

theorem mem_xDst (c : Dev nD) (k : Fin 64) (i : (xDst c k).view.ty.Idx) :
    i ∈ (xDst c k).view.set ↔
      16384 * (c.val / 2) + 8192 * (c.val % 2) + 128 * k.val ≤ (i 0).val
        ∧ (i 0).val < 16384 * (c.val / 2) + 8192 * (c.val % 2) + 128 * k.val + 128 := by
  rw [show (xDst c k).view.set = _ from View.set_slice_whole _ _, Rect.mem_set_unit, k0_off1_eq]
  refine ⟨fun h => h (0 : Fin 2), fun h => Fin.forall_fin_two.mpr ⟨h, Nat.zero_le _, ?_⟩⟩
  have h1 : (i 1).val < 1024 := (i 1).isLt
  show (i 1).val < 0 + 1024
  omega

theorem mem_yBuf (c : Dev nD) (k : Fin 64) (i : (yBuf c k).view.ty.Idx) :
    i ∈ (yBuf c k).view.set ↔
      (8192 * (c.val % 2) + 128 * k.val + 16384) - 16384 * (c.val / 2) ≤ (i 0).val
        ∧ (i 0).val < (8192 * (c.val % 2) + 128 * k.val + 16384) - 16384 * (c.val / 2) + 128 := by
  rw [show (yBuf c k).view.set = _ from View.set_slice_whole _ _, Rect.mem_set_unit, k0_off3_eq]
  refine ⟨fun h => h (0 : Fin 2), fun h => Fin.forall_fin_two.mpr ⟨h, Nat.zero_le _, ?_⟩⟩
  have h1 : (i 1).val < 1024 := (i 1).isLt
  show (i 1).val < 0 + 1024
  omega

theorem mem_lDst (c : Dev nD) (j : Fin 8) (i : (lDst c j).view.ty.Idx) :
    i ∈ (lDst c j).view.set ↔
      16384 * (c.val / 2) + 2048 * j.val ≤ (i 0).val ∧ (i 0).val < 16384 * (c.val / 2) + 2048 * j.val + 2048 := by
  rw [show (lDst c j).view.set = _ from View.set_slice_whole _ _, Rect.mem_set_unit, k0_off5_eq]
  refine ⟨fun h => h (0 : Fin 2), fun h => Fin.forall_fin_two.mpr ⟨h, Nat.zero_le _, ?_⟩⟩
  have h1 : (i 1).val < 1024 := (i 1).isLt
  show (i 1).val < 0 + 1024
  omega

theorem mem_xSrc (c : Dev nD) (k : Fin 64) (i : (xSrc c k).view.ty.Idx) :
    i ∈ (xSrc c k).view.set ↔
      (8192 * (c.val % 2) + 128 * k.val ≤ (i 0).val ∧ (i 0).val < 8192 * (c.val % 2) + 128 * k.val + 128)
        ∧ (1024 - 1024 * (c.val / 2) ≤ (i 1).val ∧ (i 1).val < 1024 - 1024 * (c.val / 2) + 1024) := by
  rw [show (xSrc c k).view.set = _ from View.set_slice_whole _ _, Rect.mem_set_unit, k0_off2_eq]
  exact Fin.forall_fin_two

/-- The offsets of local source `j`: row `2048·j`, the device's own 1024 columns. -/
theorem lOff_zero (c : Dev nD) (j : Fin 8) : lOff c j (0 : Fin 2) = 2048 * j.val := congrFun (lOff_eq c j) 0
theorem lOff_one (c : Dev nD) (j : Fin 8) : lOff c j (1 : Fin 2) = 1024 * (c.val / 2) := congrFun (lOff_eq c j) 1

theorem mem_lSrc (c : Dev nD) (j : Fin 8) (i : (lSrc (lOff c j) (lOff_inb c j)).view.ty.Idx) :
    i ∈ (lSrc (lOff c j) (lOff_inb c j)).view.set ↔
      (2048 * j.val ≤ (i 0).val ∧ (i 0).val < 2048 * j.val + 2048)
        ∧ (1024 * (c.val / 2) ≤ (i 1).val ∧ (i 1).val < 1024 * (c.val / 2) + 1024) := by
  rw [show (lSrc (lOff c j) (lOff_inb c j)).view.set = _ from View.set_slice_whole _ _, Rect.mem_set_unit]
  refine Iff.trans Fin.forall_fin_two ?_
  rw [lOff_zero, lOff_one]
  exact Iff.rfl

/-! ## The pieces tile the arrays

Device `c`'s result array is written in 136 pieces: the 64 chunks its x-neighbour sends it (rows
`16384·(1-x) + 8192·y + 128k …`), the 64 chunks its y-neighbour forwards to it (rows
`16384·(1-x) + 8192·(1-y) + 128k …`), and its own 8 local pieces (rows `16384·x + 2048j …`). -/

/-- Every element of device `c`'s result array is in one of the 136 pieces. -/
theorem result_cover (c : Dev nD) (i : ((c : Thread nD τ).loc main_v1).ty.Idx) :
    (∃ k : Fin 64, i ∈ (xDst (xn c) k).view.set) ∨ (∃ k : Fin 64, i ∈ (yBuf (yn c) k).view.set)
      ∨ (∃ j : Fin 8, i ∈ (lDst c j).view.set) := by
  have hc : c.val < 4 := c.isLt
  have hi : (i 0).val < 32768 := (i 0).isLt
  by_cases h1 : (i 0).val / 16384 = c.val / 2
  · have hj : ((i 0).val - 16384 * (c.val / 2)) / 2048 < 8 := by omega
    refine Or.inr (Or.inr ⟨⟨((i 0).val - 16384 * (c.val / 2)) / 2048, hj⟩,
      (mem_lDst c ⟨((i 0).val - 16384 * (c.val / 2)) / 2048, hj⟩ i).mpr ?_⟩)
    show 16384 * (c.val / 2) + 2048 * (((i 0).val - 16384 * (c.val / 2)) / 2048) ≤ (i 0).val
      ∧ (i 0).val < 16384 * (c.val / 2) + 2048 * (((i 0).val - 16384 * (c.val / 2)) / 2048) + 2048
    omega
  · by_cases h2 : ((i 0).val % 16384) / 8192 = c.val % 2
    · have hk : ((i 0).val % 8192) / 128 < 64 := by omega
      refine Or.inl ⟨⟨((i 0).val % 8192) / 128, hk⟩, (mem_xDst (xn c) ⟨((i 0).val % 8192) / 128, hk⟩ i).mpr ?_⟩
      rw [xn_val]
      show 16384 * (((c.val % 2 + 2) - 2 * (c.val / 2)) / 2) + 8192 * (((c.val % 2 + 2) - 2 * (c.val / 2)) % 2)
            + 128 * (((i 0).val % 8192) / 128) ≤ (i 0).val
        ∧ (i 0).val < 16384 * (((c.val % 2 + 2) - 2 * (c.val / 2)) / 2) + 8192 * (((c.val % 2 + 2) - 2 * (c.val / 2)) % 2)
            + 128 * (((i 0).val % 8192) / 128) + 128
      omega
    · have hk : ((i 0).val % 8192) / 128 < 64 := by omega
      refine Or.inr (Or.inl ⟨⟨((i 0).val % 8192) / 128, hk⟩, (mem_yBuf (yn c) ⟨((i 0).val % 8192) / 128, hk⟩ i).mpr ?_⟩)
      rw [yn_val]
      show (8192 * (((2 * (c.val / 2) + 1) - c.val % 2) % 2) + 128 * (((i 0).val % 8192) / 128) + 16384)
            - 16384 * (((2 * (c.val / 2) + 1) - c.val % 2) / 2) ≤ (i 0).val
        ∧ (i 0).val < (8192 * (((2 * (c.val / 2) + 1) - c.val % 2) % 2) + 128 * (((i 0).val % 8192) / 128) + 16384)
            - 16384 * (((2 * (c.val / 2) + 1) - c.val % 2) / 2) + 128
      omega

/-- Two different chunks sent by one device land on disjoint rows. -/
theorem xDst_disjoint (c : Dev nD) {k k' : Fin 64} (h : k ≠ k') :
    Disjoint (xDst c k).view.set (xDst c k').view.set := by
  rw [Finset.disjoint_left]
  intro i h1 h2
  have h1' := (mem_xDst c k i).mp h1
  have h2' := (mem_xDst c k' i).mp h2
  have hk : k.val ≠ k'.val := fun e => h (Fin.ext e)
  omega

/-- Two different chunks forwarded by one device occupy disjoint rows. -/
theorem yBuf_disjoint (c : Dev nD) {k k' : Fin 64} (h : k ≠ k') :
    Disjoint (yBuf c k).view.set (yBuf c k').view.set := by
  rw [Finset.disjoint_left]
  intro i h1 h2
  have h1' := (mem_yBuf c k i).mp h1
  have h2' := (mem_yBuf c k' i).mp h2
  have hk : k.val ≠ k'.val := fun e => h (Fin.ext e)
  have hc : c.val < 4 := c.isLt
  omega

/-- Two different local pieces occupy disjoint rows of the result. -/
theorem lDst_disjoint (c : Dev nD) {j j' : Fin 8} (h : j ≠ j') :
    Disjoint (lDst c j).view.set (lDst c j').view.set := by
  rw [Finset.disjoint_left]
  intro i h1 h2
  have h1' := (mem_lDst c j i).mp h1
  have h2' := (mem_lDst c j' i).mp h2
  have hj : j.val ≠ j'.val := fun e => h (Fin.ext e)
  omega

/-- What the x-neighbour sends a device and what the y-neighbour forwards to it land in different halves of the
    other row block. -/
theorem xDst_yBuf_disjoint (c : Dev nD) (k k' : Fin 64) :
    Disjoint (xDst (xn c) k).view.set (yBuf (yn c) k').view.set := by
  rw [Finset.disjoint_left]
  intro i h1 h2
  have h1' := (mem_xDst (xn c) k i).mp h1
  have h2' := (mem_yBuf (yn c) k' i).mp h2
  rw [xn_val] at h1'
  rw [yn_val] at h2'
  have hc : c.val < 4 := c.isLt
  have hk : k.val < 64 := k.isLt
  have hk' : k'.val < 64 := k'.isLt
  omega

/-- What the x-neighbour sends a device lands in the other row block than its own local pieces. -/
theorem xDst_lDst_disjoint (c : Dev nD) (k : Fin 64) (j : Fin 8) :
    Disjoint (xDst (xn c) k).view.set (lDst c j).view.set := by
  rw [Finset.disjoint_left]
  intro i h1 h2
  have h1' := (mem_xDst (xn c) k i).mp h1
  have h2' := (mem_lDst c j i).mp h2
  rw [xn_val] at h1'
  have hc : c.val < 4 := c.isLt
  have hk : k.val < 64 := k.isLt
  have hj : j.val < 8 := j.isLt
  omega

/-- What the y-neighbour forwards to a device lands in the other row block than its own local pieces. -/
theorem yBuf_lDst_disjoint (c : Dev nD) (k : Fin 64) (j : Fin 8) :
    Disjoint (yBuf (yn c) k).view.set (lDst c j).view.set := by
  rw [Finset.disjoint_left]
  intro i h1 h2
  have h1' := (mem_yBuf (yn c) k i).mp h1
  have h2' := (mem_lDst c j i).mp h2
  rw [yn_val] at h1'
  have hc : c.val < 4 := c.isLt
  have hk : k.val < 64 := k.isLt
  have hj : j.val < 8 := j.isLt
  omega

/-! The pieces read out of device `c`'s argument array: the 64 chunks it sends (the other device column's 1024
    columns) and its 8 local sources (its own 1024 columns). -/

/-- Two different chunks a device sends are read from disjoint rows of its argument array. -/
theorem xSrc_disjoint (c : Dev nD) {k k' : Fin 64} (h : k ≠ k') :
    Disjoint (xSrc c k).view.set (xSrc c k').view.set := by
  rw [Finset.disjoint_left]
  intro i h1 h2
  have h1' := (mem_xSrc c k i).mp h1
  have h2' := (mem_xSrc c k' i).mp h2
  have hk : k.val ≠ k'.val := fun e => h (Fin.ext e)
  omega

/-- Two different local sources are disjoint rows of the argument array. -/
theorem lSrc_disjoint (c : Dev nD) {j j' : Fin 8} (h : j ≠ j') :
    Disjoint (lSrc (lOff c j) (lOff_inb c j)).view.set (lSrc (lOff c j') (lOff_inb c j')).view.set := by
  rw [Finset.disjoint_left]
  intro i h1 h2
  have h1' := (mem_lSrc c j i).mp h1
  have h2' := (mem_lSrc c j' i).mp h2
  have hj : j.val ≠ j'.val := fun e => h (Fin.ext e)
  omega

/-- A chunk a device sends and a local source of it are in different column halves of its argument array. -/
theorem xSrc_lSrc_disjoint (c : Dev nD) (k : Fin 64) (j : Fin 8) :
    Disjoint (xSrc c k).view.set (lSrc (lOff c j) (lOff_inb c j)).view.set := by
  rw [Finset.disjoint_left]
  intro i h1 h2
  have h1' := (mem_xSrc c k i).mp h1
  have h2' := (mem_lSrc c j i).mp h2
  have hc : c.val < 4 := c.isLt
  omega

/-! ## The pieces as one family, for splitting an array's ownership along them -/

/-- The 136 pieces of device `c`'s result array, as one family: the chunks from the x-neighbour, the chunks from the
    y-neighbour, the local pieces. -/
def resPiece (c : Dev nD) : Fin 64 ⊕ Fin 64 ⊕ Fin 8 → Finset ((c : Thread nD τ).loc main_v1).ty.Idx
  | .inl k => (xDst (xn c) k).view.set
  | .inr (.inl k) => (yBuf (yn c) k).view.set
  | .inr (.inr j) => (lDst c j).view.set

@[simp] theorem resPiece_x (c : Dev nD) (k : Fin 64) : resPiece c (.inl k) = (xDst (xn c) k).view.set := rfl
@[simp] theorem resPiece_y (c : Dev nD) (k : Fin 64) : resPiece c (.inr (.inl k)) = (yBuf (yn c) k).view.set := rfl
@[simp] theorem resPiece_l (c : Dev nD) (j : Fin 8) : resPiece c (.inr (.inr j)) = (lDst c j).view.set := rfl

/-- Different pieces of the result array share no element. -/
theorem resPiece_disjoint (c : Dev nD) (t t' : Fin 64 ⊕ Fin 64 ⊕ Fin 8) (h : t ≠ t') :
    Disjoint (resPiece c t) (resPiece c t') := by
  rcases t with k | k | j <;> rcases t' with k' | k' | j'
  · exact xDst_disjoint (xn c) (fun e => h (by rw [e]))
  · exact xDst_yBuf_disjoint c k k'
  · exact xDst_lDst_disjoint c k j'
  · exact (xDst_yBuf_disjoint c k' k).symm
  · exact yBuf_disjoint (yn c) (fun e => h (by rw [e]))
  · exact yBuf_lDst_disjoint c k j'
  · exact (xDst_lDst_disjoint c k' j).symm
  · exact (yBuf_lDst_disjoint c k' j).symm
  · exact lDst_disjoint c (fun e => h (by rw [e]))

/-- Together the pieces are the whole result array. -/
theorem resPiece_biUnion (c : Dev nD) : Finset.univ.biUnion (resPiece c) = Finset.univ := by
  ext i
  simp only [Finset.mem_biUnion, Finset.mem_univ, true_and, iff_true]
  rcases result_cover c i with ⟨k, hk⟩ | ⟨k, hk⟩ | ⟨j, hj⟩
  · exact ⟨.inl k, hk⟩
  · exact ⟨.inr (.inl k), hk⟩
  · exact ⟨.inr (.inr j), hj⟩

/-- The 72 pieces read out of device `c`'s argument array, as one family: the chunks it sends, its local sources. -/
def argPiece (c : Dev nD) : Fin 64 ⊕ Fin 8 → Finset ((c : Thread nD τ).loc main_arg0).ty.Idx
  | .inl k => (xSrc c k).view.set
  | .inr j => (lSrc (lOff c j) (lOff_inb c j)).view.set

@[simp] theorem argPiece_x (c : Dev nD) (k : Fin 64) : argPiece c (.inl k) = (xSrc c k).view.set := rfl
@[simp] theorem argPiece_l (c : Dev nD) (j : Fin 8) :
    argPiece c (.inr j) = (lSrc (lOff c j) (lOff_inb c j)).view.set := rfl

/-- Different pieces read out of the argument array share no element. -/
theorem argPiece_disjoint (c : Dev nD) (t t' : Fin 64 ⊕ Fin 8) (h : t ≠ t') :
    Disjoint (argPiece c t) (argPiece c t') := by
  rcases t with k | j <;> rcases t' with k' | j'
  · exact xSrc_disjoint c (fun e => h (by rw [e]))
  · exact xSrc_lSrc_disjoint c k j'
  · exact (xSrc_lSrc_disjoint c k' j).symm
  · exact lSrc_disjoint c (fun e => h (by rw [e]))

/-! ## Where a block's coordinate sits: offset plus the coordinate inside the block -/

theorem xDst_emb_row (c : Dev nD) (k : Fin 64) (y : S128x1024.Idx) :
    (((xDst c k).view.emb y) 0).val = 16384 * (c.val / 2) + 8192 * (c.val % 2) + 128 * k.val + (y 0).val := by
  show k0_off1 c (BitVec.ofNat 32 (128 * k.val)) 0 + 1 * (y 0).val = _
  rw [k0_off1_eq, Nat.one_mul]; rfl
theorem xDst_emb_col (c : Dev nD) (k : Fin 64) (y : S128x1024.Idx) :
    (((xDst c k).view.emb y) 1).val = (y 1).val := by
  show k0_off1 c (BitVec.ofNat 32 (128 * k.val)) 1 + 1 * (y 1).val = _
  rw [k0_off1_eq, Nat.one_mul]; exact Nat.zero_add _
theorem xSrc_emb_row (c : Dev nD) (k : Fin 64) (y : S128x1024.Idx) :
    (((xSrc c k).view.emb y) 0).val = 8192 * (c.val % 2) + 128 * k.val + (y 0).val := by
  show k0_off2 c (BitVec.ofNat 32 (128 * k.val)) 0 + 1 * (y 0).val = _
  rw [k0_off2_eq, Nat.one_mul]; rfl
theorem xSrc_emb_col (c : Dev nD) (k : Fin 64) (y : S128x1024.Idx) :
    (((xSrc c k).view.emb y) 1).val = 1024 - 1024 * (c.val / 2) + (y 1).val := by
  show k0_off2 c (BitVec.ofNat 32 (128 * k.val)) 1 + 1 * (y 1).val = _
  rw [k0_off2_eq, Nat.one_mul]; rfl
theorem yBuf_emb_row (c : Dev nD) (k : Fin 64) (y : S128x1024.Idx) :
    (((yBuf c k).view.emb y) 0).val = (8192 * (c.val % 2) + 128 * k.val + 16384) - 16384 * (c.val / 2) + (y 0).val := by
  show k0_off3 c (BitVec.ofNat 32 (128 * k.val)) 0 + 1 * (y 0).val = _
  rw [k0_off3_eq, Nat.one_mul]; rfl
theorem yBuf_emb_col (c : Dev nD) (k : Fin 64) (y : S128x1024.Idx) :
    (((yBuf c k).view.emb y) 1).val = (y 1).val := by
  show k0_off3 c (BitVec.ofNat 32 (128 * k.val)) 1 + 1 * (y 1).val = _
  rw [k0_off3_eq, Nat.one_mul]; exact Nat.zero_add _
theorem lDst_emb_row (c : Dev nD) (j : Fin 8) (y : S2048x1024.Idx) :
    (((lDst c j).view.emb y) 0).val = 16384 * (c.val / 2) + 2048 * j.val + (y 0).val := by
  show k0_off5 c (BitVec.ofNat 32 (2048 * j.val)) 0 + 1 * (y 0).val = _
  rw [k0_off5_eq, Nat.one_mul]; rfl
theorem lDst_emb_col (c : Dev nD) (j : Fin 8) (y : S2048x1024.Idx) :
    (((lDst c j).view.emb y) 1).val = (y 1).val := by
  show k0_off5 c (BitVec.ofNat 32 (2048 * j.val)) 1 + 1 * (y 1).val = _
  rw [k0_off5_eq, Nat.one_mul]; exact Nat.zero_add _
theorem lSrc_emb_row (c : Dev nD) (j : Fin 8) (y : S2048x1024.Idx) :
    (((lSrc (lOff c j) (lOff_inb c j)).view.emb y) 0).val = 2048 * j.val + (y 0).val := by
  show lOff c j 0 + 1 * (y 0).val = _
  rw [lOff_zero, Nat.one_mul]
theorem lSrc_emb_col (c : Dev nD) (j : Fin 8) (y : S2048x1024.Idx) :
    (((lSrc (lOff c j) (lOff_inb c j)).view.emb y) 1).val = 1024 * (c.val / 2) + (y 1).val := by
  show lOff c j 1 + 1 * (y 1).val = _
  rw [lOff_one, Nat.one_mul]

/-! ## What a copy leaves on its destination piece -/

variable (m : (ℓ : Loc nD τ sig) → Buf (Elt F) ℓ)

/-- Contents that agree on a piece read the same through it. -/
theorem read_congr_piece {κ : Kind} {sp : Space} {s : Shape} {e : EltTy} {Val : EltTy → Type}
    (P : Memref sig κ sp s e) {f g : P.view.ty.Contents Val} (h : ∀ i ∈ P.view.set, f i = g i) :
    P.view.read Val f = P.view.read Val g := View.read_congr h

/-- Two entries of argument arrays are the same entry when the devices and both coordinates agree. -/
theorem inA_congr {d d' : Dev nD} (hd : d = d')
    {x : ((d : Thread nD τ).loc main_arg0).ty.Idx} {x' : ((d' : Thread nD τ).loc main_arg0).ty.Idx}
    (h0 : (x 0).val = (x' 0).val) (h1 : (x 1).val = (x' 1).val) : inA m d x = inA m d' x' := by
  subst hd
  have : x = x' := by
    funext a
    apply Fin.ext
    rcases a with ⟨_ | _ | n, ha⟩
    · exact h0
    · exact h1
    · exact absurd (show n + 2 < 2 from ha) (by omega)
  rw [this]

theorem outFinal_apply (c : Dev nD) (idx : ((c : Thread nD τ).loc main_v1).ty.Idx) :
    outFinal m c idx = inA m (srcDev c (idx 0).val)
      (Shape.pair (⟨(idx 0).val % 16384, Nat.mod_lt _ (by decide)⟩ : Fin 16384)
        (⟨1024 * px c + (idx 1).val, by have h1 := px_lt c; have h2 : (idx 1).val < 1024 := (idx 1).isLt; omega⟩ : Fin 2048)) := rfl

/-- Which device a row of the result is read from, by the row's block and half. -/
theorem srcDev_self (c : Dev nD) (r : ℕ) (h : r / 16384 = c.val / 2) : srcDev c r = c := by
  unfold srcDev; rw [if_pos (by show r / 16384 = c.val / 2; exact h)]
theorem srcDev_xn (c : Dev nD) (r : ℕ) (h : r / 16384 ≠ c.val / 2) (h2 : (r % 16384) / 8192 = c.val % 2) :
    srcDev c r = xn c := by
  unfold srcDev; rw [if_neg (by show ¬ r / 16384 = c.val / 2; exact h), if_pos (by show (r % 16384) / 8192 = c.val % 2; exact h2)]
theorem srcDev_xn_yn (c : Dev nD) (r : ℕ) (h : r / 16384 ≠ c.val / 2) (h2 : (r % 16384) / 8192 ≠ c.val % 2) :
    srcDev c r = xn (yn c) := by
  unfold srcDev; rw [if_neg (by show ¬ r / 16384 = c.val / 2; exact h), if_neg (by show ¬ (r % 16384) / 8192 = c.val % 2; exact h2)]

theorem xLanding (c : Dev nD) (k : Fin 64)
    (fd : Buf (Elt F) ((xDst c k).view.loc ((xn c : Dev nD) : Thread nD τ))) :
    ∀ i ∈ (xDst c k).view.set,
      (xDst c k).view.write (Elt F) fd ((xSrc c k).view.read (Elt F) (inA m c)) Finset.univ i = outFinal m (xn c) i := by
  intro i hi
  obtain ⟨y, rfl⟩ := View.exists_emb_of_mem_set _ hi
  rw [View.write_emb_of_mem _ _ (Finset.mem_univ y), View.read_apply]
  show inA m c ((xSrc c k).view.emb y) = outFinal m (xn c) ((xDst c k).view.emb y)
  have hc : c.val < 4 := c.isLt
  have hk : k.val < 64 := k.isLt
  have hy0 : (y 0).val < 128 := (y 0).isLt
  have hy1 : (y 1).val < 1024 := (y 1).isLt
  have er := xDst_emb_row c k y
  have ec := xDst_emb_col c k y
  have sr := xSrc_emb_row c k y
  have sc := xSrc_emb_col c k y
  have hx := xn_val c
  rw [outFinal_apply]
  have hdev : srcDev (xn c) (((xDst c k).view.emb y) 0).val = c := by
    rw [srcDev_xn _ _ (by rw [er, hx]; omega) (by rw [er, hx]; omega), xn_xn]
  refine (inA_congr m hdev ?_ ?_).symm
  · show (((xDst c k).view.emb y) 0).val % 16384 = _
    rw [er, sr]; omega
  · show 1024 * px (xn c) + (((xDst c k).view.emb y) 1).val = _
    rw [ec, sc, px_xn]; show 1024 * (1 - c.val / 2) + _ = _; omega

theorem yLanding (c : Dev nD) (k : Fin 64)
    (fs : Buf (Elt F) ((yBuf c k).view.loc ((c : Dev nD) : Thread nD τ)))
    (hfs : ∀ i ∈ (yBuf c k).view.set, fs i = outFinal m c i)
    (fd : Buf (Elt F) ((yBuf c k).view.loc ((yn c : Dev nD) : Thread nD τ))) :
    ∀ i ∈ (yBuf c k).view.set,
      (yBuf c k).view.write (Elt F) fd ((yBuf c k).view.read (Elt F) fs) Finset.univ i = outFinal m (yn c) i := by
  intro i hi
  have hfi := hfs i hi
  obtain ⟨y, rfl⟩ := View.exists_emb_of_mem_set _ hi
  rw [View.write_emb_of_mem _ _ (Finset.mem_univ y), View.read_apply]
  show fs ((yBuf c k).view.emb y) = outFinal m (yn c) ((yBuf c k).view.emb y)
  rw [hfi]
  have hc : c.val < 4 := c.isLt
  have hk : k.val < 64 := k.isLt
  have hy0 : (y 0).val < 128 := (y 0).isLt
  have er := yBuf_emb_row c k y
  have hyn := yn_val c
  rw [outFinal_apply, outFinal_apply]
  have hdev : srcDev c (((yBuf c k).view.emb y) 0).val = srcDev (yn c) (((yBuf c k).view.emb y) 0).val := by
    rw [srcDev_xn c _ (by rw [er]; omega) (by rw [er]; omega),
      srcDev_xn_yn (yn c) _ (by rw [er, hyn]; omega) (by rw [er, hyn]; omega), yn_yn]
  refine inA_congr m hdev rfl ?_
  show 1024 * px c + _ = 1024 * px (yn c) + _
  rw [px_yn]

/-- The rows the x-neighbour's chunk lands in on a device are the rows that device forwards. -/
theorem off3_eq_off1_xn (c : Dev nD) (k : Fin 64) :
    k0_off3 c (BitVec.ofNat 32 (128 * k.val)) = k0_off1 (xn c) (BitVec.ofNat 32 (128 * k.val)) := by
  rw [k0_off3_eq, k0_off1_eq, xn_val]
  have hc : c.val < 4 := c.isLt
  congr 1
  omega

theorem slice128_congr {off off' : Fin 2 → ℕ} (h : off = off')
    (inb : ∀ a, off a + S128x1024.size a ≤ S32768x1024.size a) (inb' : ∀ a, off' a + S128x1024.size a ≤ S32768x1024.size a) :
    A1.slice (Rect.unit (s := S32768x1024) off S128x1024.size inb) (fun _ => rfl)
      = A1.slice (Rect.unit (s := S32768x1024) off' S128x1024.size inb') (fun _ => rfl) := by
  subst h; rfl

theorem yBuf_eq_xDst (c : Dev nD) (k : Fin 64) : yBuf c k = xDst (xn c) k :=
  slice128_congr (off3_eq_off1_xn c k) _ _

theorem yBuf_set_eq (c : Dev nD) (k : Fin 64) : (yBuf c k).view.set = (xDst (xn c) k).view.set := by
  ext i
  refine (mem_yBuf c k i).trans (Iff.trans ?_ (mem_xDst (xn c) k i).symm)
  rw [xn_val]
  have hc : c.val < 4 := c.isLt
  omega

/-- Every piece of a device's result array lives at that array's location, every piece of its argument array at the
    argument's, the staging slots at the scratch's. -/
theorem xDst_loc (c : Dev nD) (k : Fin 64) (d : Dev nD) :
    (xDst c k).view.loc (d : Thread nD τ) = (d : Thread nD τ).loc main_v1 := rfl
theorem yBuf_loc (c : Dev nD) (k : Fin 64) (d : Dev nD) :
    (yBuf c k).view.loc (d : Thread nD τ) = (d : Thread nD τ).loc main_v1 := rfl
theorem lDst_loc (c : Dev nD) (j : Fin 8) (d : Dev nD) :
    (lDst c j).view.loc (d : Thread nD τ) = (d : Thread nD τ).loc main_v1 := rfl
theorem xSrc_loc (c : Dev nD) (k : Fin 64) (d : Dev nD) :
    (xSrc c k).view.loc (d : Thread nD τ) = (d : Thread nD τ).loc main_arg0 := rfl
theorem lSrc_loc (off : Fin 2 → Nat) (h : ∀ a, off a + S2048x1024.size a ≤ S16384x2048.size a) (d : Dev nD) :
    (lSrc off h).view.loc (d : Thread nD τ) = (d : Thread nD τ).loc main_arg0 := rfl
theorem stg_loc (s : Fin 2) (d : Dev nD) :
    (stg s).view.loc (d : Thread nD τ) = (d : Thread nD τ).loc cc0_scratch0 := by
  rcases s with ⟨_ | _, hs⟩ <;> rfl

theorem yBuf_loc_eq (c : Dev nD) (k : Fin 64) (d : Dev nD) :
    (yBuf c k).view.loc (d : Thread nD τ) = (xDst (xn c) k).view.loc (d : Thread nD τ) :=
  (yBuf_loc c k d).trans (xDst_loc (xn c) k d).symm

/-- The local copy without the staging slot: rows `2048·j …` of the device's own 1024 columns of its argument array,
    written onto rows `16384·x + 2048·j …` of its result array. -/
theorem lLanding_direct (c : Dev nD) (j : Fin 8)
    (fd' : Buf (Elt F) ((lDst c j).view.loc ((c : Dev nD) : Thread nD τ))) :
    ∀ i ∈ (lDst c j).view.set,
      (lDst c j).view.write (Elt F) fd' ((lSrc (lOff c j) (lOff_inb c j)).view.read (Elt F) (inA m c)) Finset.univ i
        = outFinal m c i := by
  intro i hi
  obtain ⟨y, rfl⟩ := View.exists_emb_of_mem_set _ hi
  rw [View.write_emb_of_mem _ _ (Finset.mem_univ y), View.read_apply]
  show inA m c ((lSrc (lOff c j) (lOff_inb c j)).view.emb y) = outFinal m c ((lDst c j).view.emb y)
  have hc : c.val < 4 := c.isLt
  have hj : j.val < 8 := j.isLt
  have hy0 : (y 0).val < 2048 := (y 0).isLt
  have er := lDst_emb_row c j y
  have ec := lDst_emb_col c j y
  have sr := lSrc_emb_row c j y
  have sc := lSrc_emb_col c j y
  rw [outFinal_apply]
  have hdev : srcDev c (((lDst c j).view.emb y) 0).val = c := srcDev_self c _ (by rw [er]; omega)
  refine (inA_congr m hdev ?_ ?_).symm
  · show (((lDst c j).view.emb y) 0).val % 16384 = _
    rw [er, sr]; omega
  · show 1024 * px c + (((lDst c j).view.emb y) 1).val = _
    rw [ec, sc]; rfl

/-- What is written through a staging slot and read back through the same slot is what was written. -/
theorem stg_read_write (s : Fin 2) {d : Dev nD} (fd : Buf (Elt F) ((stg s).view.loc ((d : Dev nD) : Thread nD τ)))
    (w : S2048x1024.Idx → Elt F .f32) :
    (stg s).view.read (Elt F) ((stg s).view.write (Elt F) fd w Finset.univ) = w :=
  View.read_write_univ (v := (stg s).view) (Val := Elt F) fd w

/-- The local copy out of staging slot `s`, the slot reading as the local source does: onto the result's rows. -/
theorem lLanding (c : Dev nD) (j : Fin 8) (s : Fin 2) (f : Buf (Elt F) ((stg s).view.loc (c : Thread nD τ)))
    (hf : (stg s).view.read (Elt F) f = (lSrc (lOff c j) (lOff_inb c j)).view.read (Elt F) (inA m c))
    (fd : Buf (Elt F) ((lDst c j).view.loc (c : Thread nD τ))) :
    ∀ i ∈ (lDst c j).view.set,
      (lDst c j).view.write (Elt F) fd ((stg s).view.read (Elt F) f) Finset.univ i = outFinal m c i := by
  rw [hf]
  exact lLanding_direct m c j fd

/-- The local copy through staging slot `s`: into the slot, then out of it onto the result's rows. -/
theorem lLanding_via (c : Dev nD) (j : Fin 8) (s : Fin 2)
    (fd : Buf (Elt F) ((stg s).view.loc ((c : Dev nD) : Thread nD τ)))
    (fd' : Buf (Elt F) ((lDst c j).view.loc ((c : Dev nD) : Thread nD τ))) :
    ∀ i ∈ (lDst c j).view.set,
      (lDst c j).view.write (Elt F) fd'
        ((stg s).view.read (Elt F)
          ((stg s).view.write (Elt F) fd ((lSrc (lOff c j) (lOff_inb c j)).view.read (Elt F) (inA m c)) Finset.univ))
        Finset.univ i = outFinal m c i := by
  rw [stg_read_write]
  exact lLanding_direct m c j fd'

/-! ## The covers, as the exit state reads them -/

/-- The same cover, the chunks from the x-neighbour named as the rows the device forwards. -/
theorem result_cover_fwd (c : Dev nD) (i : ((c : Thread nD τ).loc main_v1).ty.Idx) :
    (∃ k : Fin 64, i ∈ (yBuf c k).view.set) ∨ (∃ k : Fin 64, i ∈ (yBuf (yn c) k).view.set)
      ∨ (∃ j : Fin 8, i ∈ (lDst c j).view.set) := by
  rcases result_cover c i with ⟨k, hk⟩ | h
  · exact Or.inl ⟨k, by rw [yBuf_set_eq]; exact hk⟩
  · exact Or.inr h

/-- Every element of the argument array is in a chunk the device sends, in a local source, or in neither. -/
theorem arg_cover (c : Dev nD) (i : Idx (A0.view.loc (c : Thread nD τ))) :
    (∃ k : Fin 64, i ∈ (xSrc c k).view.set) ∨ (∃ j : Fin 8, i ∈ (lSrc (lOff c j) (lOff_inb c j)).view.set)
      ∨ i ∈ Finset.univ \ ((Finset.univ.biUnion fun k : Fin 64 => (xSrc c k).view.set)
            ∪ (Finset.univ.biUnion fun j : Fin 8 => (lSrc (lOff c j) (lOff_inb c j)).view.set)) := by
  by_cases h1 : ∃ k : Fin 64, i ∈ (xSrc c k).view.set
  · exact Or.inl h1
  · by_cases h2 : ∃ j : Fin 8, i ∈ (lSrc (lOff c j) (lOff_inb c j)).view.set
    · exact Or.inr (Or.inl h2)
    · refine Or.inr (Or.inr ?_)
      rw [Finset.mem_sdiff, Finset.mem_union, Finset.mem_biUnion, Finset.mem_biUnion]
      refine ⟨Finset.mem_univ _, ?_⟩
      rintro (⟨k, -, hk⟩ | ⟨j, -, hj⟩)
      · exact h1 ⟨k, hk⟩
      · exact h2 ⟨j, hj⟩

end Cert.KernelIdeal.A2A

end
-- ==== Proof.KernelIdeal.EntryG.lean ====
import proofs.«900013_g7700000000000014_dist_a2a_v7x_xy2x2_x_m16384_n1024_f32_1_alg».proof.Proof.KernelIdeal.Body0

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The ghost half of a device's entry resources (the records, the levels, the tokens of the duties it pays, its
    cells' positions, the launch's credits for what the others owe it); the memory half is the pieces of its three
    buffers. -/
def entryG (K : Dev nD × Fin 261 → ℕ) (c : Dev nD) : sProp 𝕄 :=
  iprop(records m K ∗ levAts L lv
    ∗ dutyTok ER (barCell (xn c)) 0 false ∗ dutyTok ER (barCell (yn c)) 0 true
    ∗ atPos ER (barCell c) 0 ∅ 0 ∗ cred (tallyAt (barCell c) () 2)
    ∗ (bigSep Finset.univ fun k : Fin 64 => iprop(dutyTok ER (sxCell c k) 0 false ∗ dutyTok ER (rxCell (xn c) k) 0 false))
    ∗ GXpos c 0 ∗ GYtok c 0 ∗ GYpos c 0 ∗ GRXwait c 0 ∗ GRYwait c 0
    ∗ (bigSep Finset.univ fun i : Fin 8 => iprop(dutyTok ER (linCell c (slotOf i)) (roundOf i) false ∗ dutyTok ER (loutCell c (slotOf i)) (roundOf i) false))
    ∗ (atPos ER (linCell c 0) 0 ∅ 0 ∗ atPos ER (loutCell c 0) 0 ∅ 0)
    ∗ (atPos ER (linCell c 1) 0 ∅ 0 ∗ atPos ER (loutCell c 1) 0 ∅ 0))

end Cert.KernelIdeal.A2A

end
-- ==== Proof.KernelIdeal.Split.lean ====
import proofs.«900013_g7700000000000014_dist_a2a_v7x_xy2x2_x_m16384_n1024_f32_1_alg».proof.Proof.KernelIdeal.Body0
import proofs.«900013_g7700000000000014_dist_a2a_v7x_xy2x2_x_m16384_n1024_f32_1_alg».proof.Proof.KernelIdeal.Pieces

/-!
# The entry split: a device's three buffers, whole, cut into the pieces the copies move

At launch a device holds its argument array, its result array and its staging scratch whole. The argument array is
cut into the 64 chunks the device sends, its 8 local sources, and the rest; the result array into the 64 chunks its
x-neighbour writes, the 64 its y-neighbour writes, and its 8 local pieces; the scratch into its two slots.
-/

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The argument array -/

/-- The elements of the argument array under the chunks a device sends, and under its local sources. -/
def xSetA (c : Dev nD) : Finset (Idx ((c : Thread nD τ).loc main_arg0)) :=
  Finset.univ.biUnion fun k : Fin 64 => (xSrc c k).view.set
def lSetA (c : Dev nD) : Finset (Idx ((c : Thread nD τ).loc main_arg0)) :=
  Finset.univ.biUnion fun j : Fin 8 => (lSrc (lOff c j) (lOff_inb c j)).view.set

theorem xSetA_lSetA_disjoint (c : Dev nD) : Disjoint (xSetA c) (lSetA c) := by
  unfold xSetA lSetA
  rw [Finset.disjoint_biUnion_left]
  intro k _
  rw [Finset.disjoint_biUnion_right]
  intro j _
  exact xSrc_lSrc_disjoint c k j

theorem arg_split (c : Dev nD) :
    ((((c : Thread nD τ).loc main_arg0) ↦{fullShare} inA m c) : sProp 𝕄) ⊢
      iprop((bigSep Finset.univ fun k : Fin 64 => pts c (xSrc c k) (inA m c))
        ∗ (bigSep Finset.univ fun j : Fin 8 => pts c (lSrc (lOff c j) (lOff_inb c j)) (inA m c)) ∗ RestA m c) := by
  have hX : ((((c : Thread nD τ).loc main_arg0) ↦[xSetA c]{fullShare} inA m c) : sProp 𝕄)
      = bigSep Finset.univ fun k : Fin 64 => ((c : Thread nD τ).loc main_arg0) ↦[(xSrc c k).view.set]{fullShare} inA m c :=
    pointsTo_biUnion (ℓ := (c : Thread nD τ).loc main_arg0) Finset.univ (fun k : Fin 64 => (xSrc c k).view.set)
      (fun k _ k' _ h => xSrc_disjoint c h)
  have hL : ((((c : Thread nD τ).loc main_arg0) ↦[lSetA c]{fullShare} inA m c) : sProp 𝕄)
      = bigSep Finset.univ fun j : Fin 8 =>
          ((c : Thread nD τ).loc main_arg0) ↦[(lSrc (lOff c j) (lOff_inb c j)).view.set]{fullShare} inA m c :=
    pointsTo_biUnion (ℓ := (c : Thread nD τ).loc main_arg0) Finset.univ
      (fun j : Fin 8 => (lSrc (lOff c j) (lOff_inb c j)).view.set) (fun j _ j' _ h => lSrc_disjoint c h)
  show _ ⊢ iprop((bigSep Finset.univ fun k : Fin 64 =>
        ((c : Thread nD τ).loc main_arg0) ↦[(xSrc c k).view.set]{fullShare} inA m c)
      ∗ (bigSep Finset.univ fun j : Fin 8 =>
        ((c : Thread nD τ).loc main_arg0) ↦[(lSrc (lOff c j) (lOff_inb c j)).view.set]{fullShare} inA m c)
      ∗ (((c : Thread nD τ).loc main_arg0) ↦[Finset.univ \ (xSetA c ∪ lSetA c)]{fullShare} inA m c))
  rw [← hX, ← hL]
  refine (pointsTo_split_subset (Finset.subset_univ (xSetA c ∪ lSetA c))).1.trans ?_
  refine (sep_mono_left (pointsTo_union (xSetA_lSetA_disjoint c)).1).trans ?_
  exact sep_assoc.1

/-! ## The result array: the 136 pieces -/

def xSetR (c : Dev nD) : Finset (Idx ((c : Thread nD τ).loc main_v1)) :=
  Finset.univ.biUnion fun k : Fin 64 => (xDst (xn c) k).view.set
def ySetR (c : Dev nD) : Finset (Idx ((c : Thread nD τ).loc main_v1)) :=
  Finset.univ.biUnion fun k : Fin 64 => (yBuf (yn c) k).view.set
def lSetR (c : Dev nD) : Finset (Idx ((c : Thread nD τ).loc main_v1)) :=
  Finset.univ.biUnion fun j : Fin 8 => (lDst c j).view.set

theorem ySetR_lSetR_disjoint (c : Dev nD) : Disjoint (ySetR c) (lSetR c) := by
  unfold ySetR lSetR
  rw [Finset.disjoint_biUnion_left]
  intro k _
  rw [Finset.disjoint_biUnion_right]
  intro j _
  exact yBuf_lDst_disjoint c k j

theorem xSetR_disjoint (c : Dev nD) : Disjoint (xSetR c) (ySetR c ∪ lSetR c) := by
  rw [Finset.disjoint_union_right]
  unfold xSetR ySetR lSetR
  constructor
  · rw [Finset.disjoint_biUnion_left]
    intro k _
    rw [Finset.disjoint_biUnion_right]
    intro k' _
    exact xDst_yBuf_disjoint c k k'
  · rw [Finset.disjoint_biUnion_left]
    intro k _
    rw [Finset.disjoint_biUnion_right]
    intro j _
    exact xDst_lDst_disjoint c k j

theorem setR_cover (c : Dev nD) : xSetR c ∪ (ySetR c ∪ lSetR c) = Finset.univ := by
  ext i
  simp only [Finset.mem_union, Finset.mem_univ, iff_true]
  unfold xSetR ySetR lSetR
  simp only [Finset.mem_biUnion, Finset.mem_univ, true_and]
  exact result_cover c i

/-- The payload of the x-neighbour's entry signal is the x-neighbour's chunks' rows of the device's own result array;
    of the y-neighbour's, the y-neighbour's chunks' rows. -/
theorem barPayX_xn (c : Dev nD) :
    (barPayX (xn c) : sProp 𝕄) = bigSep Finset.univ fun k : Fin 64 => iprop(∃ f', pts c (xDst (xn c) k) f') := by
  have h : ∀ d : Dev nD, d = c →
      (bigSep Finset.univ fun k : Fin 64 => iprop(∃ f', pts d (xDst (xn c) k) f') : sProp 𝕄)
        = bigSep Finset.univ fun k : Fin 64 => iprop(∃ f', pts c (xDst (xn c) k) f') := by
    intro d hd; subst hd; rfl
  exact h _ (xn_xn c)
theorem barPayY_yn (c : Dev nD) :
    (barPayY (yn c) : sProp 𝕄) = bigSep Finset.univ fun k : Fin 64 => iprop(∃ f', pts c (yBuf (yn c) k) f') := by
  have h : ∀ d : Dev nD, d = c →
      (bigSep Finset.univ fun k : Fin 64 => iprop(∃ f', pts d (yBuf (yn c) k) f') : sProp 𝕄)
        = bigSep Finset.univ fun k : Fin 64 => iprop(∃ f', pts c (yBuf (yn c) k) f') := by
    intro d hd; subst hd; rfl
  exact h _ (yn_yn c)

theorem res_split (c : Dev nD) (f : Buf (Elt F) ((c : Thread nD τ).loc main_v1)) :
    ((((c : Thread nD τ).loc main_v1) ↦{fullShare} f) : sProp 𝕄) ⊢
      iprop(barPayX (xn c) ∗ barPayY (yn c) ∗ bigSep Finset.univ fun j : Fin 8 => iprop(∃ f', pts c (lDst c j) f')) := by
  have hX : ((((c : Thread nD τ).loc main_v1) ↦[xSetR c]{fullShare} f) : sProp 𝕄)
      = bigSep Finset.univ fun k : Fin 64 => ((c : Thread nD τ).loc main_v1) ↦[(xDst (xn c) k).view.set]{fullShare} f :=
    pointsTo_biUnion (ℓ := (c : Thread nD τ).loc main_v1) Finset.univ (fun k : Fin 64 => (xDst (xn c) k).view.set)
      (fun k _ k' _ h => xDst_disjoint (xn c) h)
  have hY : ((((c : Thread nD τ).loc main_v1) ↦[ySetR c]{fullShare} f) : sProp 𝕄)
      = bigSep Finset.univ fun k : Fin 64 => ((c : Thread nD τ).loc main_v1) ↦[(yBuf (yn c) k).view.set]{fullShare} f :=
    pointsTo_biUnion (ℓ := (c : Thread nD τ).loc main_v1) Finset.univ (fun k : Fin 64 => (yBuf (yn c) k).view.set)
      (fun k _ k' _ h => yBuf_disjoint (yn c) h)
  have hL : ((((c : Thread nD τ).loc main_v1) ↦[lSetR c]{fullShare} f) : sProp 𝕄)
      = bigSep Finset.univ fun j : Fin 8 => ((c : Thread nD τ).loc main_v1) ↦[(lDst c j).view.set]{fullShare} f :=
    pointsTo_biUnion (ℓ := (c : Thread nD τ).loc main_v1) Finset.univ (fun j : Fin 8 => (lDst c j).view.set)
      (fun j _ j' _ h => lDst_disjoint c h)
  rw [barPayX_xn, barPayY_yn, ← setR_cover c]
  refine (pointsTo_union (xSetR_disjoint c)).1.trans ?_
  refine (sep_mono_right (pointsTo_union (ySetR_lSetR_disjoint c)).1).trans ?_
  rw [hX, hY, hL]
  refine sep_mono (bigSep_mono fun k _ => ?_) (sep_mono (bigSep_mono fun k _ => ?_) (bigSep_mono fun j _ => ?_))
  · exact exists_intro (Φ := fun f' => pts c (xDst (xn c) k) f') f
  · exact exists_intro (Φ := fun f' => pts c (yBuf (yn c) k) f') f
  · exact exists_intro (Φ := fun f' => pts c (lDst c j) f') f

/-! ## The staging scratch: its two slots -/

/-- Slot 0 of the staging scratch is the elements whose first coordinate is 0; slot 1, those whose first coordinate is 1. -/
theorem mem_stg0 (c : Dev nD) (i : Idx ((c : Thread nD τ).loc cc0_scratch0)) :
    Iff (i ∈ ((stg 0).view.set : Finset (Idx ((c : Thread nD τ).loc cc0_scratch0)))) ((i 0).val = 0) := by
  have h1 : (i 1).val < 2048 := (i 1).isLt
  have h2 : (i 2).val < 1024 := (i 2).isLt
  show Iff (i ∈ ((A2.view.slice (Rect.unit (s := S2x2048x1024) ![0, 0, 0] S1x2048x1024.size
      inb_S2x2048x1024_S1x2048x1024_0_0_0)).reshape S2048x1024 squeezes_S1x2048x1024_S2048x1024.numel_eq).set) _
  rw [View.set_reshape, show ((A2.view.slice _).set) = _ from View.set_slice_whole _ _, Rect.mem_set_unit]
  constructor
  · intro h
    have h0 := h (0 : Fin 3)
    have : (i 0).val < 0 + 1 := h0.2
    omega
  · intro h a
    rcases a with ⟨_ | _ | _ | n, ha⟩
    · exact ⟨Nat.zero_le _, by show (i 0).val < 0 + 1; omega⟩
    · exact ⟨Nat.zero_le _, by show (i 1).val < 0 + 2048; omega⟩
    · exact ⟨Nat.zero_le _, by show (i 2).val < 0 + 1024; omega⟩
    · exact absurd (show n + 3 < 3 from ha) (by omega)
theorem mem_stg1 (c : Dev nD) (i : Idx ((c : Thread nD τ).loc cc0_scratch0)) :
    Iff (i ∈ ((stg 1).view.set : Finset (Idx ((c : Thread nD τ).loc cc0_scratch0)))) ((i 0).val = 1) := by
  have h1 : (i 1).val < 2048 := (i 1).isLt
  have h2 : (i 2).val < 1024 := (i 2).isLt
  show Iff (i ∈ ((A2.view.slice (Rect.unit (s := S2x2048x1024) ![1, 0, 0] S1x2048x1024.size
      inb_S2x2048x1024_S1x2048x1024_1_0_0)).reshape S2048x1024 squeezes_S1x2048x1024_S2048x1024.numel_eq).set) _
  rw [View.set_reshape, show ((A2.view.slice _).set) = _ from View.set_slice_whole _ _, Rect.mem_set_unit]
  constructor
  · intro h
    have h0 := h (0 : Fin 3)
    have hlo : 1 ≤ (i 0).val := h0.1
    have hhi : (i 0).val < 1 + 1 := h0.2
    omega
  · intro h a
    rcases a with ⟨_ | _ | _ | n, ha⟩
    · exact ⟨by show 1 ≤ (i 0).val; omega, by show (i 0).val < 1 + 1; omega⟩
    · exact ⟨Nat.zero_le _, by show (i 1).val < 0 + 2048; omega⟩
    · exact ⟨Nat.zero_le _, by show (i 2).val < 0 + 1024; omega⟩
    · exact absurd (show n + 3 < 3 from ha) (by omega)

theorem stg_disjoint (c : Dev nD) :
    Disjoint ((stg 0).view.set : Finset (Idx ((c : Thread nD τ).loc cc0_scratch0))) (stg 1).view.set := by
  rw [Finset.disjoint_left]
  intro i h0 h1
  have e0 := (mem_stg0 c i).mp h0
  have e1 := (mem_stg1 c i).mp h1
  omega

theorem stg_cover (c : Dev nD) :
    ((stg 0).view.set : Finset (Idx ((c : Thread nD τ).loc cc0_scratch0))) ∪ (stg 1).view.set = Finset.univ := by
  ext i
  simp only [Finset.mem_union, Finset.mem_univ, iff_true]
  have hi : (i 0).val < 2 := (i 0).isLt
  by_cases h : (i 0).val = 0
  · exact Or.inl ((mem_stg0 c i).mpr h)
  · exact Or.inr ((mem_stg1 c i).mpr (by omega))

theorem stg_split (c : Dev nD) (f : Buf (Elt F) ((c : Thread nD τ).loc cc0_scratch0)) :
    ((((c : Thread nD τ).loc cc0_scratch0) ↦{fullShare} f) : sProp 𝕄) ⊢
      iprop((∃ f', pts c (stg 0) f') ∗ (∃ f', pts c (stg 1) f')) := by
  rw [← stg_cover c]
  refine (pointsTo_union (stg_disjoint c)).1.trans ?_
  exact (sep_mono_left (exists_intro (Φ := fun f' => pts c (stg 0) f') f)).trans
    (sep_mono_right (exists_intro (Φ := fun f' => pts c (stg 1) f') f))

theorem stg_join (c : Dev nD) :
    (iprop((∃ f', pts c (stg 0) f') ∗ (∃ f', pts c (stg 1) f')) : sProp 𝕄) ⊢
      ∃ f, ((c : Thread nD τ).loc cc0_scratch0) ↦{fullShare} f := by
  iintro ⟨⟨%f0, H0⟩, ⟨%f1, H1⟩⟩
  iexists (Finset.piecewise ((stg 1).view.set : Finset (Idx ((c : Thread nD τ).loc cc0_scratch0))) f1 f0)
  rw [← stg_cover c]
  iapply (pointsTo_join (stg_disjoint c))
  isplitl [H0]
  · iexact H0
  · iexact H1

end Cert.KernelIdeal.A2A

end
-- ==== Proof.KernelIdeal.ExitSems.lean ====
import proofs.«900013_g7700000000000014_dist_a2a_v7x_xy2x2_x_m16384_n1024_f32_1_alg».proof.Proof.KernelIdeal.Body0
import Mathlib.Logic.Equiv.Fin.Basic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The device's 260 transfer semaphores, by number -/

abbrev C_osem : Fin 260 → SemLoc sig := fun i => .dma i

/-- A family over the first `a + b` numbers is one over the first `a` and one over the next `b`. -/
theorem C_bigSep_fin_add (a b : ℕ) (Ψ : Fin (a + b) → sProp 𝕄) :
    bigSep Finset.univ Ψ
      = iprop((bigSep Finset.univ fun i : Fin a => Ψ (Fin.castAdd b i)) ∗ bigSep Finset.univ fun j : Fin b => Ψ (Fin.natAdd a j)) := by
  rw [bigSep_univ_equiv finSumFinEquiv Ψ, bigSep_univ_sum]
  rfl

/-- Split five times: a family over the first `2 + (2 + (64 + (64 + (64 + 64))))` numbers is six families. -/
theorem C_bigSep_split6 (Ψ : Fin (2 + (2 + (64 + (64 + (64 + 64))))) → sProp 𝕄) :
    bigSep Finset.univ Ψ
      = iprop((bigSep Finset.univ fun s : Fin 2 => Ψ (Fin.castAdd _ s))
          ∗ (bigSep Finset.univ fun s : Fin 2 => Ψ (Fin.natAdd 2 (Fin.castAdd _ s)))
          ∗ (bigSep Finset.univ fun k : Fin 64 => Ψ (Fin.natAdd 2 (Fin.natAdd 2 (Fin.castAdd _ k))))
          ∗ (bigSep Finset.univ fun k : Fin 64 => Ψ (Fin.natAdd 2 (Fin.natAdd 2 (Fin.natAdd 64 (Fin.castAdd _ k)))))
          ∗ (bigSep Finset.univ fun k : Fin 64 => Ψ (Fin.natAdd 2 (Fin.natAdd 2 (Fin.natAdd 64 (Fin.natAdd 64 (Fin.castAdd 64 k))))))
          ∗ (bigSep Finset.univ fun k : Fin 64 => Ψ (Fin.natAdd 2 (Fin.natAdd 2 (Fin.natAdd 64 (Fin.natAdd 64 (Fin.natAdd 64 k))))))) := by
  rw [C_bigSep_fin_add 2 _ Ψ,
    C_bigSep_fin_add 2 _ (fun j => Ψ (Fin.natAdd 2 j)),
    C_bigSep_fin_add 64 _ (fun j => Ψ (Fin.natAdd 2 (Fin.natAdd 2 j))),
    C_bigSep_fin_add 64 _ (fun j => Ψ (Fin.natAdd 2 (Fin.natAdd 2 (Fin.natAdd 64 j)))),
    C_bigSep_fin_add 64 64 (fun j => Ψ (Fin.natAdd 2 (Fin.natAdd 2 (Fin.natAdd 64 (Fin.natAdd 64 j)))))]

/-- The 260 numbers are: two, two, and four times 64. -/
theorem C_bigSep_260 (Ψ : Fin 260 → sProp 𝕄) :
    bigSep Finset.univ Ψ
      = iprop((bigSep Finset.univ fun s : Fin 2 => Ψ ⟨s.val, by omega⟩)
          ∗ (bigSep Finset.univ fun s : Fin 2 => Ψ ⟨2 + s.val, by omega⟩)
          ∗ (bigSep Finset.univ fun k : Fin 64 => Ψ ⟨4 + k.val, by omega⟩)
          ∗ (bigSep Finset.univ fun k : Fin 64 => Ψ ⟨68 + k.val, by omega⟩)
          ∗ (bigSep Finset.univ fun k : Fin 64 => Ψ ⟨132 + k.val, by omega⟩)
          ∗ (bigSep Finset.univ fun k : Fin 64 => Ψ ⟨196 + k.val, by omega⟩)) := by
  refine (C_bigSep_split6 Ψ).trans ?_
  have e (a : Fin (2 + (2 + (64 + (64 + (64 + 64)))))) (b : Fin 260) (h : a.val = b.val) : Ψ a = Ψ b := congrArg Ψ (Fin.ext h)
  have h1 : (bigSep Finset.univ fun s : Fin 2 => Ψ (Fin.castAdd (2 + (64 + (64 + (64 + 64)))) s))
      = bigSep Finset.univ fun s : Fin 2 => Ψ ⟨s.val, by omega⟩ := bigSep_congr fun s _ => e _ _ rfl
  have h2 : (bigSep Finset.univ fun s : Fin 2 => Ψ (Fin.natAdd 2 (Fin.castAdd (64 + (64 + (64 + 64))) s)))
      = bigSep Finset.univ fun s : Fin 2 => Ψ ⟨2 + s.val, by omega⟩ := bigSep_congr fun s _ => e _ _ rfl
  have h3 : (bigSep Finset.univ fun k : Fin 64 => Ψ (Fin.natAdd 2 (Fin.natAdd 2 (Fin.castAdd (64 + (64 + 64)) k))))
      = bigSep Finset.univ fun k : Fin 64 => Ψ ⟨4 + k.val, by omega⟩ :=
    bigSep_congr fun k _ => e _ _ (by simp only [Fin.coe_natAdd, Fin.coe_castAdd]; omega)
  have h4 : (bigSep Finset.univ fun k : Fin 64 => Ψ (Fin.natAdd 2 (Fin.natAdd 2 (Fin.natAdd 64 (Fin.castAdd (64 + 64) k)))))
      = bigSep Finset.univ fun k : Fin 64 => Ψ ⟨68 + k.val, by omega⟩ :=
    bigSep_congr fun k _ => e _ _ (by simp only [Fin.coe_natAdd, Fin.coe_castAdd]; omega)
  have h5 : (bigSep Finset.univ fun k : Fin 64 => Ψ (Fin.natAdd 2 (Fin.natAdd 2 (Fin.natAdd 64 (Fin.natAdd 64 (Fin.castAdd 64 k))))))
      = bigSep Finset.univ fun k : Fin 64 => Ψ ⟨132 + k.val, by omega⟩ :=
    bigSep_congr fun k _ => e _ _ (by simp only [Fin.coe_natAdd, Fin.coe_castAdd]; omega)
  have h6 : (bigSep Finset.univ fun k : Fin 64 => Ψ (Fin.natAdd 2 (Fin.natAdd 2 (Fin.natAdd 64 (Fin.natAdd 64 (Fin.natAdd 64 k))))))
      = bigSep Finset.univ fun k : Fin 64 => Ψ ⟨196 + k.val, by omega⟩ :=
    bigSep_congr fun k _ => e _ _ (by simp only [Fin.coe_natAdd]; omega)
  rw [h1, h2, h3, h4, h5, h6]

omit [FloatOps F] in
/-- A semaphore named by its number. -/
theorem C_sem_eq (c : Dev nD) (q : DmaSem sig) (n : ℕ) (hn : n < 260) (h : q.val = n) :
    (semVal ((c : Thread nD τ), C_osem ⟨n, hn⟩) 0 : sProp 𝕄) = semVal ((c : Thread nD τ), SemLoc.dma q) 0 := by
  subst h; rfl

/-- All of the device's own transfer semaphores at zero: the four of the staging slots and the 256 of the two exchanges. -/
theorem C_ownSems0_eq (c : Dev nD) :
    (Pipeline.ownSems0 (Ix := Unit) (Name := ℕ) (U := UU) (Lvl := ℕ) (Val := Elt F) (τ := τ) C_osem c : sProp 𝕄)
      = iprop((bigSep Finset.univ fun s : Fin 2 => semVal (linCell c s) 0)
          ∗ (bigSep Finset.univ fun s : Fin 2 => semVal (loutCell c s) 0)
          ∗ (bigSep Finset.univ fun k : Fin 64 => semVal (sxCell c k) 0)
          ∗ (bigSep Finset.univ fun k : Fin 64 => semVal (rxCell c k) 0)
          ∗ (bigSep Finset.univ fun k : Fin 64 => semVal (syCell c k) 0)
          ∗ (bigSep Finset.univ fun k : Fin 64 => semVal (ryCell c k) 0)) := by
  unfold Pipeline.ownSems0
  refine (C_bigSep_260 (fun i : Fin 260 => (semVal ((c : Thread nD τ), C_osem i) 0 : sProp 𝕄))).trans ?_
  have h1 : (bigSep Finset.univ fun s : Fin 2 => (semVal ((c : Thread nD τ), C_osem ⟨s.val, by omega⟩) 0 : sProp 𝕄))
      = bigSep Finset.univ fun s : Fin 2 => semVal (linCell c s) 0 := bigSep_congr fun s _ => C_sem_eq c (linS s).sem s.val _ (linS_val s)
  have h2 : (bigSep Finset.univ fun s : Fin 2 => (semVal ((c : Thread nD τ), C_osem ⟨2 + s.val, by omega⟩) 0 : sProp 𝕄))
      = bigSep Finset.univ fun s : Fin 2 => semVal (loutCell c s) 0 := bigSep_congr fun s _ => C_sem_eq c (loutS s).sem (2 + s.val) _ (loutS_val s)
  have h3 : (bigSep Finset.univ fun k : Fin 64 => (semVal ((c : Thread nD τ), C_osem ⟨4 + k.val, by omega⟩) 0 : sProp 𝕄))
      = bigSep Finset.univ fun k : Fin 64 => semVal (sxCell c k) 0 := bigSep_congr fun k _ => C_sem_eq c (sxS k).sem (4 + k.val) _ (sxS_val k)
  have h4 : (bigSep Finset.univ fun k : Fin 64 => (semVal ((c : Thread nD τ), C_osem ⟨68 + k.val, by omega⟩) 0 : sProp 𝕄))
      = bigSep Finset.univ fun k : Fin 64 => semVal (rxCell c k) 0 := bigSep_congr fun k _ => C_sem_eq c (rxS k).sem (68 + k.val) _ (rxS_val k)
  have h5 : (bigSep Finset.univ fun k : Fin 64 => (semVal ((c : Thread nD τ), C_osem ⟨132 + k.val, by omega⟩) 0 : sProp 𝕄))
      = bigSep Finset.univ fun k : Fin 64 => semVal (syCell c k) 0 := bigSep_congr fun k _ => C_sem_eq c (syS k).sem (132 + k.val) _ (syS_val k)
  have h6 : (bigSep Finset.univ fun k : Fin 64 => (semVal ((c : Thread nD τ), C_osem ⟨196 + k.val, by omega⟩) 0 : sProp 𝕄))
      = bigSep Finset.univ fun k : Fin 64 => semVal (ryCell c k) 0 := bigSep_congr fun k _ => C_sem_eq c (ryS k).sem (196 + k.val) _ (ryS_val k)
  rw [h1, h2, h3, h4, h5, h6]

/-- What the device leaves holds its 260 transfer semaphores at zero, and beside them every piece of its two arrays
    and its two staging slots. -/
theorem exit_sems (c : Dev nD) :
    Φ₁ m c ⊢ iprop(Pipeline.ownSems0 (Ix := Unit) (Name := ℕ) (U := UU) (Lvl := ℕ) (Val := Elt F) (τ := τ) C_osem c
      ∗ (bigSep Finset.univ fun k : Fin 64 => pts c (xSrc c k) (inA m c))
      ∗ (bigSep Finset.univ fun k : Fin 64 => pts c (yBuf c k) (outFinal m c))
      ∗ (bigSep Finset.univ fun k : Fin 64 => pts c (yBuf (yn c) k) (outFinal m c))
      ∗ GLsrc m c 8 ∗ GLout m c 8
      ∗ (∃ f, pts c (stg 0) f) ∗ (∃ f, pts c (stg 1) f)
      ∗ RestA m c) := by
  have hX : GXdone m c 64 = iprop((bigSep Finset.univ fun k : Fin 64 => semVal (sxCell c k) 0)
      ∗ bigSep Finset.univ fun k : Fin 64 => pts c (xSrc c k) (inA m c)) := by
    unfold GXdone; rw [pre_top]; exact bigSep_sep _ _ _
  have hY : GYdone m c 64 = iprop((bigSep Finset.univ fun k : Fin 64 => semVal (syCell c k) 0)
      ∗ bigSep Finset.univ fun k : Fin 64 => pts c (yBuf c k) (outFinal m c)) := by
    unfold GYdone; rw [pre_top]; exact bigSep_sep _ _ _
  have hRX : GRXdone (F := F) c 64 = bigSep Finset.univ fun k : Fin 64 => semVal (rxCell c k) 0 := by
    unfold GRXdone; rw [pre_top]
  have hRY : GRYdone m c 64 = iprop((bigSep Finset.univ fun k : Fin 64 => semVal (ryCell c k) 0)
      ∗ bigSep Finset.univ fun k : Fin 64 => pts c (yBuf (yn c) k) (outFinal m c)) := by
    unfold GRYdone; rw [pre_top]; exact bigSep_sep _ _ _
  have hLi : (bigSep Finset.univ fun s : Fin 2 => (semVal (linCell c s) 0 : sProp 𝕄))
      = iprop(semVal (linCell c 0) 0 ∗ semVal (linCell c 1) 0) := bigSep_fin_two _
  have hLo : (bigSep Finset.univ fun s : Fin 2 => (semVal (loutCell c s) 0 : sProp 𝕄))
      = iprop(semVal (loutCell c 0) 0 ∗ semVal (loutCell c 1) 0) := bigSep_fin_two _
  rw [C_ownSems0_eq c, hLi, hLo]
  unfold Φ₁
  rw [hX, hY, hRX, hRY]
  iintro ⟨⟨HsX, HpX⟩, ⟨HsY, HpY⟩, HsRX, ⟨HsRY, HpRY⟩, HLs, HLo, ⟨Hli0, Hlo0, Hst0⟩, ⟨Hli1, Hlo1, Hst1⟩, HR⟩
  isplitl [Hli0 Hli1 Hlo0 Hlo1 HsX HsRX HsY HsRY]
  · isplitl [Hli0 Hli1]
    · isplitl [Hli0]; · iexact Hli0
      iexact Hli1
    isplitl [Hlo0 Hlo1]
    · isplitl [Hlo0]; · iexact Hlo0
      iexact Hlo1
    isplitl [HsX]; · iexact HsX
    isplitl [HsRX]; · iexact HsRX
    isplitl [HsY]; · iexact HsY
    iexact HsRY
  isplitl [HpX]; · iexact HpX
  isplitl [HpY]; · iexact HpY
  isplitl [HpRY]; · iexact HpRY
  isplitl [HLs]; · iexact HLs
  isplitl [HLo]; · iexact HLo
  isplitl [Hst0]; · iexact Hst0
  isplitl [Hst1]; · iexact Hst1
  iexact HR

/-- info: 'Cert.KernelIdeal.A2A.C_ownSems0_eq' depends on axioms: [propext, Classical.choice, Quot.sound] -/
#guard_msgs in #print axioms C_ownSems0_eq

/-- info: 'Cert.KernelIdeal.A2A.exit_sems' depends on axioms: [propext, Classical.choice, Quot.sound] -/
#guard_msgs in #print axioms exit_sems

end Cert.KernelIdeal.A2A

end
-- ==== Proof.KernelIdeal.LaunchGhost.lean ====
import proofs.«900013_g7700000000000014_dist_a2a_v7x_xy2x2_x_m16384_n1024_f32_1_alg».proof.Proof.KernelIdeal.Body0
import proofs.«900013_g7700000000000014_dist_a2a_v7x_xy2x2_x_m16384_n1024_f32_1_alg».proof.Proof.KernelIdeal.EntryG
import Mathlib.Data.Fintype.Sum
import Mathlib.Data.Fintype.Prod
import Mathlib.Data.Fintype.Card

/-!
  The ghost side of the launch.

  Every device has 261 cells: the barrier cell and the 260 copy cells. At launch the exchange's algebra holds, for every
  cell, its round state at counter zero, its owner's position at the start of round 0 and the record that round 0 is
  reached; and, for every duty of every round of every cell, the one-shot token its payer presents. The tokens are
  minted at the cell's owner and then dealt to the payers: a device pays the two entry signals of its neighbours'
  barrier cells, its own send cells, its neighbours' receive cells and its own local-copy cells. The units the
  neighbours owe a device at launch come back to it as credit on its own barrier and receive cells.
-/

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores; the cells by number -/

/-- The kernel's own (scoped) semaphores: the 260 copy semaphores. -/
abbrev osem : Fin 260 → SemLoc sig := fun i => .dma i

theorem ownSemFacts : Pipeline.OwnSemFacts cfg0.spec osem :=
  ⟨fun k => by revert k; decide, fun i j h => SemLoc.dma.inj h, fun k w s => w.elim0⟩

theorem csem_injective : Function.Injective csem := by
  intro i j h
  unfold csem at h
  by_cases hi : i.val = 0
  · by_cases hj : j.val = 0
    · exact Fin.ext (hi.trans hj.symm)
    · rw [dif_pos hi, dif_neg hj] at h; exact absurd h (fun h' => by cases h')
  · by_cases hj : j.val = 0
    · rw [dif_neg hi, dif_pos hj] at h; exact absurd h (fun h' => by cases h')
    · rw [dif_neg hi, dif_neg hj] at h
      have h' : i.val - 1 = j.val - 1 := congrArg Fin.val (SemLoc.dma.inj h)
      exact Fin.ext (by omega)

theorem kcell_injective : Function.Injective (kcell : Dev nD × Fin 261 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The number of a semaphore's cell: 0 the barrier, `q + 1` copy semaphore `q`. -/
def semNo : SemLoc sig → ℕ
  | .reg _ => 0
  | .dma q => q.val + 1

theorem semNo_csem (i : Fin 261) : semNo (csem i) = i.val := by
  unfold csem
  by_cases hi : i.val = 0
  · rw [dif_pos hi]; exact hi.symm
  · rw [dif_neg hi]; show i.val - 1 + 1 = i.val; omega

/-! ## The cells of a device by kind -/

/-- The cells of a device listed by kind: the barrier; local copy `(w, s)` (`w = 0` into staging slot `s`, `w = 1` out
    of it); exchange cell `(q, k)` of chunk `k` (`q = 0, 1` the row exchange's send and receive, `q = 2, 3` the column
    exchange's). -/
abbrev CIx : Type := Unit ⊕ (Fin 2 × Fin 2) ⊕ (Fin 4 × Fin 64)

/-- The local-copy semaphores and the exchange semaphores by kind. -/
def lsem (w s : Fin 2) : DmaSem sig := if w.val = 0 then (linS s).sem else (loutS s).sem
def xsem (q : Fin 4) (k : Fin 64) : DmaSem sig :=
  if q.val = 0 then (sxS k).sem else if q.val = 1 then (rxS k).sem else if q.val = 2 then (syS k).sem else (ryS k).sem

theorem lsem_val (w s : Fin 2) : (lsem w s).val = 2 * w.val + s.val := by
  unfold lsem
  by_cases h : w.val = 0
  · rw [if_pos h, linS_val, h]; omega
  · rw [if_neg h, loutS_val]; have := w.isLt; omega
theorem xsem_val (q : Fin 4) (k : Fin 64) : (xsem q k).val = 4 + 64 * q.val + k.val := by
  unfold xsem
  by_cases h0 : q.val = 0
  · rw [if_pos h0, sxS_val, h0]
  · rw [if_neg h0]
    by_cases h1 : q.val = 1
    · rw [if_pos h1, rxS_val, h1]
    · rw [if_neg h1]
      by_cases h2 : q.val = 2
      · rw [if_pos h2, syS_val, h2]
      · rw [if_neg h2, ryS_val]; have := q.isLt; omega

/-- The semaphore of a cell given by kind. -/
def cixSem : CIx → SemLoc sig
  | .inl _ => .reg barS
  | .inr (.inl ws) => .dma (lsem ws.1 ws.2)
  | .inr (.inr qk) => .dma (xsem qk.1 qk.2)

/-- Its number among the device's 261 cells. -/
def cixNo : CIx → ℕ
  | .inl _ => 0
  | .inr (.inl ws) => 1 + 2 * ws.1.val + ws.2.val
  | .inr (.inr qk) => 5 + 64 * qk.1.val + qk.2.val

theorem semNo_cixSem (t : CIx) : semNo (cixSem t) = cixNo t := by
  rcases t with _ | ws | qk
  · rfl
  · show (lsem ws.1 ws.2).val + 1 = 1 + 2 * ws.1.val + ws.2.val; rw [lsem_val]; omega
  · show (xsem qk.1 qk.2).val + 1 = 5 + 64 * qk.1.val + qk.2.val; rw [xsem_val]; omega

theorem cixNo_lt (t : CIx) : cixNo t < 261 := by
  rcases t with _ | ⟨w, s⟩ | ⟨q, k⟩
  · exact Nat.succ_pos _
  · have := w.isLt; have := s.isLt; show 1 + 2 * w.val + s.val < 261; omega
  · have := q.isLt; have := k.isLt; show 5 + 64 * q.val + k.val < 261; omega

theorem cixNo_injective : Function.Injective cixNo := by
  intro t t' h
  rcases t with _ | ⟨w, s⟩ | ⟨q, k⟩ <;> rcases t' with _ | ⟨w', s'⟩ | ⟨q', k'⟩ <;> simp only [cixNo] at h
  · rfl
  · omega
  · omega
  · omega
  · have := s.isLt; have := s'.isLt
    have hw : w = w' := Fin.ext (by omega)
    have hs : s = s' := Fin.ext (by omega)
    rw [hw, hs]
  · have := w.isLt; have := s.isLt; omega
  · omega
  · have := w'.isLt; have := s'.isLt; omega
  · have := k.isLt; have := k'.isLt
    have hq : q = q' := Fin.ext (by omega)
    have hk : k = k' := Fin.ext (by omega)
    rw [hq, hk]

/-- A cell given by kind, as one of the 261. -/
def cix (t : CIx) : Fin 261 := ⟨cixNo t, cixNo_lt t⟩

theorem csem_cix (t : CIx) : csem (cix t) = cixSem t := by
  rcases t with _ | ⟨w, s⟩ | ⟨q, k⟩
  · rfl
  · have hne : ¬ (cix (.inr (.inl (w, s)))).val = 0 := by show ¬ (1 + 2 * w.val + s.val = 0); omega
    unfold csem; rw [dif_neg hne]
    refine congrArg SemLoc.dma (Fin.ext ?_)
    show 1 + 2 * w.val + s.val - 1 = (lsem w s).val
    rw [lsem_val]; omega
  · have hne : ¬ (cix (.inr (.inr (q, k)))).val = 0 := by show ¬ (5 + 64 * q.val + k.val = 0); omega
    unfold csem; rw [dif_neg hne]
    refine congrArg SemLoc.dma (Fin.ext ?_)
    show 5 + 64 * q.val + k.val - 1 = (xsem q k).val
    rw [xsem_val]; omega

theorem cix_bijective : Function.Bijective cix := by
  refine (Fintype.bijective_iff_injective_and_card cix).mpr ⟨fun t t' h => cixNo_injective (congrArg Fin.val h), ?_⟩
  simp only [Fintype.card_sum, Fintype.card_prod, Fintype.card_fin, Fintype.card_unit]

/-- The 261 cells are the cells listed by kind. -/
def cixEquiv : CIx ≃ Fin 261 := Equiv.ofBijective cix cix_bijective

/-- The cell of device `c` given by kind. -/
abbrev ccell (c : Dev nD) (t : CIx) : GSem nD τ sig := ((c : Thread nD τ), cixSem t)

theorem kcell_cix (c : Dev nD) (t : CIx) : kcell (c, cix t) = ccell c t := by
  show ((c : Thread nD τ), csem (cix t)) = _; rw [csem_cix]

/-! ## The duty tokens minted for a device's own cells -/

/-- The duties of a device's own cells: the barrier's two (`false` the `x`-neighbour's signal, `true` the
    `y`-neighbour's); the one of round 0 of exchange cell `(q, k)`; for the local copy `w` of piece `i`, the one of round
    `i / 2` of the cell of slot `i % 2`. -/
abbrev TIx : Type := Bool ⊕ (Fin 4 × Fin 64) ⊕ (Fin 2 × Fin 8)

def tokCell : TIx → CIx
  | .inl _ => .inl ()
  | .inr (.inl qk) => .inr (.inr qk)
  | .inr (.inr wi) => .inr (.inl (wi.1, slotOf wi.2))
def tokRound : TIx → ℕ
  | .inl _ => 0
  | .inr (.inl _) => 0
  | .inr (.inr wi) => roundOf wi.2
def tokDuty : TIx → Bool
  | .inl b => b
  | .inr _ => false

abbrev tokOf (ct : Dev nD × TIx) : GSem nD τ sig × ℕ × Bool := (ccell ct.1 (tokCell ct.2), tokRound ct.2, tokDuty ct.2)

theorem cixSem_injective : Function.Injective cixSem := fun t t' h =>
  cixNo_injective (by rw [← semNo_cixSem, ← semNo_cixSem, h])

theorem tokOf_injective : Function.Injective (tokOf : Dev nD × TIx → GSem nD τ sig × ℕ × Bool) := by
  rintro ⟨c, t⟩ ⟨c', t'⟩ h
  have h1 : c = c' := by have := congrArg (fun x : GSem nD τ sig × ℕ × Bool => x.1.1.1) h; exact this
  subst h1
  have hc : tokCell t = tokCell t' := cixSem_injective (congrArg (fun x : GSem nD τ sig × ℕ × Bool => x.1.2) h)
  have hr : tokRound t = tokRound t' := congrArg (fun x : GSem nD τ sig × ℕ × Bool => x.2.1) h
  have hd : tokDuty t = tokDuty t' := congrArg (fun x : GSem nD τ sig × ℕ × Bool => x.2.2) h
  have : t = t' := by
    rcases t with b | qk | ⟨w, i⟩ <;> rcases t' with b' | qk' | ⟨w', i'⟩ <;> simp only [tokCell, tokRound, tokDuty] at hc hr hd
    · rw [hd]
    · cases hc
    · cases hc
    · cases hc
    · cases hc; rfl
    · cases hc
    · cases hc
    · cases hc
    · have hw : w = w' := by injection hc with hc; injection hc with hc; exact (Prod.mk.inj hc).1
      have hs : slotOf i = slotOf i' := by injection hc with hc; injection hc with hc; exact (Prod.mk.inj hc).2
      have hs' : i.val % 2 = i'.val % 2 := congrArg Fin.val hs
      have hr' : i.val / 2 = i'.val / 2 := hr
      have hi : i = i' := Fin.ext (by omega)
      rw [hw, hi]
  subst this; rfl

/-- The cells and the tokens the exchange's algebra is launched with. -/
def a2aCells : Finset (GSem nD τ sig) := Finset.univ.map ⟨kcell, kcell_injective⟩
def a2aToks : Finset (GSem nD τ sig × ℕ × Bool) := Finset.univ.map ⟨tokOf, tokOf_injective⟩

/-- The launch element: the pipeline library's copy (no window: no staging cell) and the exchange's. -/
def u₀ : UU := (initOf (Pipeline.cells cfgs cellOf_inj) (Pipeline.launchToks cfgs cellOf_inj), initOf a2aCells a2aToks)

/-- The duty tokens of device `c`'s own cells. -/
def toks (c : Dev nD) : sProp 𝕄 :=
  bigSep Finset.univ fun t : TIx => dutyTok ER (ccell c (tokCell t)) (tokRound t) (tokDuty t)

/-- What the launch element deals device `c`: of each of its 261 cells the round state at counter zero, the owner's
    position at the start of round 0 and that round 0 is reached; and its own cells' duty tokens. -/
def G (c : Dev nD) : sProp 𝕄 :=
  iprop((bigSep Finset.univ fun i : Fin 261 => roundState ER (a2aRd m) (kcell (c, i)) 0)
    ∗ (bigSep Finset.univ fun i : Fin 261 => iprop(atPos ER (kcell (c, i)) 0 ∅ 0 ∗ reached ER (kcell (c, i)) 0)) ∗ toks c)

omit [FloatOps F] in
theorem fund_a2a : BI.own (ER (initOf a2aCells a2aToks)) ⊢ (|==> bigSep Finset.univ (G m) : sProp 𝕄) := by
  have hX (Φ : GSem nD τ sig → sProp 𝕄) : bigSep a2aCells Φ = bigSep Finset.univ fun c : Dev nD => bigSep Finset.univ fun i : Fin 261 => Φ (kcell (c, i)) := by
    unfold a2aCells; rw [bigSep_map, bigSep_univ_prod]; rfl
  have hT : bigSep a2aToks (fun x => (dutyTok ER x.1 x.2.1 x.2.2 : sProp 𝕄)) = bigSep Finset.univ fun c : Dev nD => toks c := by
    unfold a2aToks; rw [bigSep_map, bigSep_univ_prod]; rfl
  iintro HX
  imod (Rounds.fund ER (a2aRd m) a2aCells a2aToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The credits: what the neighbours owe a device at launch -/

omit [FloatOps F] in
/-- The `x`-neighbour owes device `c` an entry signal and the 64 chunks of the row exchange, the `y`-neighbour an entry
    signal and the 64 chunks of the column exchange: the launch hands `c` the matching credit on its own barrier cell
    and receive cells. -/
theorem creds (c : Dev nD) :
    (Pipeline.launchCred O₀ c : sProp 𝕄)
      ⊢ iprop(cred (tallyAt (barCell c) () 2) ∗ (bigSep Finset.univ fun k : Fin 64 => cred (tallyAt (rxCell c k) () N128))
          ∗ (bigSep Finset.univ fun k : Fin 64 => cred (tallyAt (ryCell c k) () N128))) := by
  have hX : (Pipeline.launchCred (fun d => OX d 0) c : sProp 𝕄) ⊢ bigSep Finset.univ fun k : Fin 64 => cred (tallyAt (rxCell c k) () N128) := by
    unfold OX; rw [Pipeline.launchCred_sum, seg_zero]
    exact bigSep_mono fun k _ => Pipeline.launchCred_tallyAt (.dma (rxS k).sem) xn xn xn_xn xn_xn () N128 c
  have hY : (Pipeline.launchCred (fun d => OY d 0) c : sProp 𝕄) ⊢ bigSep Finset.univ fun k : Fin 64 => cred (tallyAt (ryCell c k) () N128) := by
    unfold OY; rw [Pipeline.launchCred_sum, seg_zero]
    exact bigSep_mono fun k _ => Pipeline.launchCred_tallyAt (.dma (ryS k).sem) yn yn yn_yn yn_yn () N128 c
  have hbX : (Pipeline.launchCred (fun d => tallyAt (barCell (xn d)) () 1) c : sProp 𝕄) ⊢ cred (tallyAt (barCell c) () 1) :=
    Pipeline.launchCred_tallyAt (.reg barS) xn xn xn_xn xn_xn () 1 c
  have hbY : (Pipeline.launchCred (fun d => tallyAt (barCell (yn d)) () 1) c : sProp 𝕄) ⊢ cred (tallyAt (barCell c) () 1) :=
    Pipeline.launchCred_tallyAt (.reg barS) yn yn yn_yn yn_yn () 1 c
  have h2 : (iprop(cred (tallyAt (barCell c) () 1) ∗ cred (tallyAt (barCell c) () 1)) : sProp 𝕄) ⊢ cred (tallyAt (barCell c) () 2) := by
    rw [show (2 : ℕ) = 1 + 1 from rfl, ← tallyAt_add]; exact (cred_add _ _).2
  have hO : (O₀ : Dev nD → CellTallies nD τ sig Unit)
      = fun d => ((OX d 0 + OY d 0) + tallyAt (barCell (yn d)) () 1) + tallyAt (barCell (xn d)) () 1 := rfl
  rw [hO, Pipeline.launchCred_add (fun d => (OX d 0 + OY d 0) + tallyAt (barCell (yn d)) () 1) (fun d => tallyAt (barCell (xn d)) () 1),
    Pipeline.launchCred_add (fun d => OX d 0 + OY d 0) (fun d => tallyAt (barCell (yn d)) () 1),
    Pipeline.launchCred_add (fun d => OX d 0) (fun d => OY d 0)]
  iintro ⟨⟨⟨HX, HY⟩, HbY⟩, HbX⟩
  isplitl [HbX HbY]
  · iapply h2
    isplitl [HbX]
    · iapply hbX; iexact HbX
    · iapply hbY; iexact HbY
  isplitl [HX]
  · iapply hX; iexact HX
  · iapply hY; iexact HY

/-! ## A device's cells and tokens, kind by kind -/

omit [FloatOps F] in
theorem bigSep_bool (Φ : Bool → sProp 𝕄) : bigSep Finset.univ Φ = iprop(Φ false ∗ Φ true) :=
  bigSep_univ_eq_bigSepL [false, true] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- Something held of each of a device's 261 cells, kind by kind. -/
theorem cells_split (c : Dev nD) (Φ : GSem nD τ sig → sProp 𝕄) :
    (bigSep Finset.univ fun i : Fin 261 => Φ (kcell (c, i)))
      = iprop(Φ (barCell c)
          ∗ ((Φ (linCell c 0) ∗ Φ (linCell c 1)) ∗ (Φ (loutCell c 0) ∗ Φ (loutCell c 1)))
          ∗ ((bigSep Finset.univ fun k : Fin 64 => Φ (sxCell c k)) ∗ (bigSep Finset.univ fun k : Fin 64 => Φ (rxCell c k))
            ∗ (bigSep Finset.univ fun k : Fin 64 => Φ (syCell c k)) ∗ (bigSep Finset.univ fun k : Fin 64 => Φ (ryCell c k)))) := by
  rw [bigSep_univ_equiv cixEquiv (fun i : Fin 261 => Φ (kcell (c, i))),
    bigSep_congr (s := Finset.univ) (Φ := fun t : CIx => Φ (kcell (c, cixEquiv t))) (Ψ := fun t : CIx => Φ (ccell c t))
      (fun t _ => congrArg Φ (kcell_cix c t)),
    bigSep_univ_sum, bigSep_univ_sum, bigSep_univ_of_subsingleton (), bigSep_univ_prod, bigSep_univ_two, bigSep_univ_two, bigSep_univ_two,
    bigSep_univ_prod, bigSep_fin4]
  rfl

omit [FloatOps F] in
/-- A device's own cells' tokens, kind by kind. -/
theorem toks_split (c : Dev nD) :
    (toks c : sProp 𝕄)
      = iprop((dutyTok ER (barCell c) 0 false ∗ dutyTok ER (barCell c) 0 true)
          ∗ ((bigSep Finset.univ fun k : Fin 64 => dutyTok ER (sxCell c k) 0 false) ∗ (bigSep Finset.univ fun k : Fin 64 => dutyTok ER (rxCell c k) 0 false)
            ∗ (bigSep Finset.univ fun k : Fin 64 => dutyTok ER (syCell c k) 0 false) ∗ (bigSep Finset.univ fun k : Fin 64 => dutyTok ER (ryCell c k) 0 false))
          ∗ ((bigSep Finset.univ fun i : Fin 8 => dutyTok ER (linCell c (slotOf i)) (roundOf i) false)
            ∗ (bigSep Finset.univ fun i : Fin 8 => dutyTok ER (loutCell c (slotOf i)) (roundOf i) false))) := by
  unfold toks
  rw [bigSep_univ_sum, bigSep_univ_sum, bigSep_bool, bigSep_univ_prod, bigSep_fin4, bigSep_univ_prod, bigSep_univ_two]
  rfl

/-! ## The counters at zero; every cell's invariant allocated -/

omit [FloatOps F] in
/-- The barrier semaphore is the core's one unscoped semaphore. -/
theorem unscopedSems0_eq (c : Dev nD) : (unscopedSems0 c : sProp 𝕄) = semVal (barCell c) 0 := by
  unfold unscopedSems0
  have h : (Finset.univ.filter fun sm : SemLoc sig => ¬ sm.isScoped .tc) = {SemLoc.reg barS} := by
    ext sm; rw [Finset.mem_filter, Finset.mem_singleton]
    constructor
    · rintro ⟨-, h⟩
      rcases sm with s | q
      · exact congrArg SemLoc.reg (Subsingleton.elim (α := Fin 1) s barS)
      · exact absurd (ownSemFacts.isScoped q) h
    · rintro rfl; exact ⟨Finset.mem_univ _, by decide⟩
  rw [h, bigSep_singleton]

omit [FloatOps F] in
/-- The 261 counters: the barrier's, then the 260 copy semaphores'. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 261 => semVal (kcell (c, i)) 0 : sProp 𝕄) := by
  have h0 : (0 : Fin 261) ∉ (Finset.univ : Finset (Fin 260)).map ⟨Fin.succ, Fin.succ_injective _⟩ := by
    simp [Fin.succ_ne_zero]
  have h : (bigSep Finset.univ fun i : Fin 261 => (semVal (kcell (c, i)) 0 : sProp 𝕄))
      = iprop(semVal (barCell c) 0 ∗ bigSep Finset.univ fun q : Fin 260 => semVal (((c : Thread nD τ), SemLoc.dma q) : GSem nD τ sig) 0) := by
    rw [Fin.univ_succ, Finset.cons_eq_insert, bigSep_insert h0, bigSep_map]
    refine congrArg (fun X : sProp 𝕄 => iprop(semVal (barCell c) 0 ∗ X)) (bigSep_congr fun q _ => ?_)
    exact congrArg (fun g : GSem nD τ sig => (semVal g 0 : sProp 𝕄)) (kcell_dma c q)
  rw [h, unscopedSems0_eq]
  unfold Pipeline.ownSems0
  iintro ⟨Ho, Hb⟩
  isplitl [Hb]; · iexact Hb
  iexact Ho

/-- Every payload of the schedule can be stored in an invariant. -/
instance a2aRd_payload_storable (g : GSem nD τ sig) (r : ℕ) (d : Bool) :
    BI.Storable (upEmb : UEmb _ 𝕄) ((a2aRd (F := F) m).payload g r d) := by
  show BI.Storable upEmb (match classify g.2 with
    | some .bar => if d then barPayY g.1.1 else barPayX g.1.1
    | some (.lin s) => linPay m g.1.1 (pieceOf r s) s
    | some (.lout s) => loutPay m g.1.1 (pieceOf r s) s
    | some (.sx k) => sxPay m g.1.1 k
    | some (.rx k) => rxPay m g.1.1 k
    | some (.sy k) => syPay m g.1.1 k
    | some (.ry k) => ryPay m g.1.1 k
    | none => iprop(emp))
  unfold barPayX barPayY linPay loutPay sxPay rxPay syPay ryPay
  (repeat' split) <;> infer_instance

omit [FloatOps F] in
/-- From its counters at zero and its cells' round states at zero, a device allocates every cell's invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 261 => iprop(∃ κ : ℕ, cellInv ER (a2aRd m) κ (kcell (c, i))))
          ∗ (bigSep Finset.univ fun i : Fin 261 => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Fin 261 => semVal (kcell (c, i)) 0) ∗ bigSep Finset.univ fun i : Fin 261 => roundState ER (a2aRd m) (kcell (c, i)) 0)
      ⊢ (|={Set.univ}=> bigSep Finset.univ fun i : Fin 261 => iprop(∃ κ : ℕ, cellInv ER (a2aRd m) κ (kcell (c, i))) : sProp 𝕄) from by
        rw [← bigSep_sep']
        exact (bigSep_mono fun i _ => (Rounds.body_intro ER (a2aRd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to their payers; the positions and tokens a device starts from -/

/-- The two neighbour maps as permutations of the devices. -/
def xnE : Dev nD ≃ Dev nD := ⟨xn, xn, xn_xn, xn_xn⟩
def ynE : Dev nD ≃ Dev nD := ⟨yn, yn, yn_yn, yn_yn⟩

/-- The tokens of the duties device `c` pays in the row exchange (its own send cells', the `x`-neighbour's receive
    cells'), in the column exchange, and in the local copies. -/
def GXtokT (c : Dev nD) : sProp 𝕄 :=
  iprop((bigSep Finset.univ fun k : Fin 64 => dutyTok ER (sxCell c k) 0 false) ∗ (bigSep Finset.univ fun k : Fin 64 => dutyTok ER (rxCell (xn c) k) 0 false))
def GYtokT (c : Dev nD) : sProp 𝕄 :=
  iprop((bigSep Finset.univ fun k : Fin 64 => dutyTok ER (syCell c k) 0 false) ∗ (bigSep Finset.univ fun k : Fin 64 => dutyTok ER (ryCell (yn c) k) 0 false))
def GLtokT (c : Dev nD) : sProp 𝕄 :=
  iprop((bigSep Finset.univ fun i : Fin 8 => dutyTok ER (linCell c (slotOf i)) (roundOf i) false)
    ∗ (bigSep Finset.univ fun i : Fin 8 => dutyTok ER (loutCell c (slotOf i)) (roundOf i) false))

/-- The tokens of all the duties device `c` pays: the two entry signals (to the `x`-neighbour's barrier cell, duty
    `false`; to the `y`-neighbour's, duty `true`), the two exchanges, the local copies. -/
def payToks (c : Dev nD) : sProp 𝕄 :=
  iprop(dutyTok ER (barCell (xn c)) 0 false ∗ dutyTok ER (barCell (yn c)) 0 true ∗ GXtokT c ∗ GYtokT c ∗ GLtokT c)

/-- Device `c`'s position at the start of round 0 of each of its cells, kind by kind. -/
def posns (c : Dev nD) : sProp 𝕄 :=
  iprop(atPos ER (barCell c) 0 ∅ 0
    ∗ ((atPos ER (linCell c 0) 0 ∅ 0 ∗ atPos ER (linCell c 1) 0 ∅ 0) ∗ (atPos ER (loutCell c 0) 0 ∅ 0 ∗ atPos ER (loutCell c 1) 0 ∅ 0))
    ∗ ((bigSep Finset.univ fun k : Fin 64 => atPos ER (sxCell c k) 0 ∅ 0) ∗ (bigSep Finset.univ fun k : Fin 64 => atPos ER (rxCell c k) 0 ∅ 0)
      ∗ (bigSep Finset.univ fun k : Fin 64 => atPos ER (syCell c k) 0 ∅ 0) ∗ (bigSep Finset.univ fun k : Fin 64 => atPos ER (ryCell c k) 0 ∅ 0)))

/-- The ghost part of what device `c`'s body starts from, under the names `K`: the records, its positions, the tokens
    of the duties it pays. -/
def ghostEntry (K : Dev nD × Fin 261 → ℕ) (c : Dev nD) : sProp 𝕄 := iprop(records m K ∗ posns c ∗ payToks c)

/-- What the global step leaves each device. -/
def G' (c : Dev nD) : sProp 𝕄 := iprop(∃ K, ghostEntry m K c)

omit [FloatOps F] in
/-- The tokens minted at a device for its barrier's duty `false` and for its row-receive cells go to its
    `x`-neighbour, those for its barrier's duty `true` and its column-receive cells to its `y`-neighbour; the rest stay. -/
theorem toks_around : (bigSep Finset.univ fun c : Dev nD => (toks c : sProp 𝕄)) ⊢ bigSep Finset.univ fun c : Dev nD => payToks c := by
  have e1 := bigSep_univ_equiv xnE (fun c : Dev nD => (dutyTok ER (barCell c) 0 false : sProp 𝕄))
  have e2 := bigSep_univ_equiv ynE (fun c : Dev nD => (dutyTok ER (barCell c) 0 true : sProp 𝕄))
  have e3 := bigSep_univ_equiv xnE (fun c : Dev nD => (bigSep Finset.univ fun k : Fin 64 => dutyTok ER (rxCell c k) 0 false : sProp 𝕄))
  have e4 := bigSep_univ_equiv ynE (fun c : Dev nD => (bigSep Finset.univ fun k : Fin 64 => dutyTok ER (ryCell c k) 0 false : sProp 𝕄))
  unfold payToks GXtokT GYtokT GLtokT
  rw [bigSep_congr (s := Finset.univ) (fun (c : Dev nD) _ => toks_split (F := F) c)]
  simp only [bigSep_sep']
  rw [e1, e2, e3, e4]
  iintro ⟨⟨Hbf, Hbt⟩, ⟨Hsx, Hrx, Hsy, Hry⟩, ⟨Hli, Hlo⟩⟩
  isplitl [Hbf]; · iexact Hbf
  isplitl [Hbt]; · iexact Hbt
  isplitl [Hsx Hrx]
  · isplitl [Hsx]; · iexact Hsx
    iexact Hrx
  isplitl [Hsy Hry]
  · isplitl [Hsy]; · iexact Hsy
    iexact Hry
  isplitl [Hli]; · iexact Hli
  iexact Hlo

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem ghost_intro (K : Dev nD × Fin 261 → ℕ) (c : Dev nD) :
    iprop(records m K ∗ (bigSep Finset.univ fun i : Fin 261 => atPos ER (kcell (c, i)) 0 ∅ 0) ∗ payToks c) ⊢ G' m c := by
  rw [cells_split c (fun g => (atPos ER g 0 ∅ 0 : sProp 𝕄))]
  unfold G' ghostEntry posns
  iintro ⟨HR, Hp, Ht⟩
  iexists K
  isplitl [HR]; · iexact HR
  isplitl [Hp]; · iexact Hp
  iexact Ht

omit [FloatOps F] in
theorem regroup :
    (bigSep Finset.univ fun c : Dev nD => iprop((bigSep Finset.univ fun i : Fin 261 => iprop(∃ κ : ℕ, cellInv ER (a2aRd m) κ (kcell (c, i))))
          ∗ (bigSep Finset.univ fun i : Fin 261 => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × Fin 261 => iprop(∃ κ : ℕ, cellInv ER (a2aRd m) κ (kcell ck))),
    bigSep_congr (s := Finset.univ) (fun (c : Dev nD) _ => bigSep_sep' Finset.univ (fun i : Fin 261 => (atPos ER (kcell (c, i)) 0 ∅ 0 : sProp 𝕄)) (fun i => reached ER (kcell (c, i)) 0)),
    bigSep_sep', ← bigSep_univ_prod (fun ck : Dev nD × Fin 261 => (reached ER (kcell ck) 0 : sProp 𝕄))]
  iintro ⟨HI, ⟨Hat, #HR⟩, Htok⟩
  ihave HK := (BI.bigSep_exists_pi Finset.univ (fun (ck : Dev nD × Fin 261) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; rw [bigSep_sep']
    isplitl; · iexact HI
    iexact HR
  · iapply (Entails.of_eq (bigSep_sep' Finset.univ (fun c : Dev nD => bigSep Finset.univ fun i : Fin 261 => (atPos ER (kcell (c, i)) 0 ∅ 0 : sProp 𝕄)) payToks).symm)
    isplitl [Hat]; · iexact Hat
    iexact Htk

omit [FloatOps F] in
/-- The global step: every device's own and unscoped counters at zero and its share of the launch element become, for
    every device, the records of ALL devices' cells, its positions and the tokens of the duties it pays. -/
theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

/-! ## The entry resources reassembled from the ghost part, the levels, the credits and the memory -/

/-- The credits the launch hands device `c` (what `creds` reads off the launch credit). -/
def credEntry (c : Dev nD) : sProp 𝕄 :=
  iprop(cred (tallyAt (barCell c) () 2) ∗ (bigSep Finset.univ fun k : Fin 64 => cred (tallyAt (rxCell c k) () N128))
    ∗ (bigSep Finset.univ fun k : Fin 64 => cred (tallyAt (ryCell c k) () N128)))

/-- The memory a device's body starts from: the chunks of its neighbours' result arrays its two exchanges write (what
    the neighbours' entry signals hand it), the 64 source chunks of the row exchange, the eight local pieces (source and
    destination), the two staging slots, and the untouched rest of the argument array. -/
def memEntry (c : Dev nD) : sProp 𝕄 :=
  iprop(barPayX (xn c) ∗ barPayY (yn c)
    ∗ (bigSep Finset.univ fun k : Fin 64 => pts c (xSrc c k) (inA m c))
    ∗ (bigSep Finset.univ fun i : Fin 8 => iprop(pts c (lSrc (lOff c i) (lOff_inb c i)) (inA m c) ∗ ∃ f, pts c (lDst c i) f))
    ∗ (∃ f, pts c (stg 0) f) ∗ (∃ f, pts c (stg 1) f) ∗ RestA m c)

theorem entry_intro (K : Dev nD × Fin 261 → ℕ) (c : Dev nD) :
    iprop(ghostEntry m K c ∗ levAts L lv ∗ credEntry c ∗ memEntry m c) ⊢ entry m K c := by
  unfold ghostEntry posns payToks GXtokT GYtokT GLtokT credEntry memEntry entry GXtok GXpos GYtok GYpos GRXwait GRYwait GLtok SlotIdle
  rw [seg_zero, show (Finset.univ.filter fun i : Fin 8 => 0 ≤ i.val) = Finset.univ from Finset.filter_true_of_mem fun i _ => Nat.zero_le _]
  simp only [bigSep_sep']
  iintro ⟨⟨HR, ⟨Hpb, ⟨⟨Hli0, Hli1⟩, ⟨Hlo0, Hlo1⟩⟩, ⟨Hpsx, Hprx, Hpsy, Hpry⟩⟩, ⟨Htbx, Htby, ⟨Htsx, Htrx⟩, ⟨Htsy, Htry⟩, ⟨Htli, Htlo⟩⟩⟩, Hlev, ⟨Hcb, Hcrx, Hcry⟩,
    ⟨HpX, HpY, Hxs, ⟨Hls, Hld⟩, Hs0, Hs1, Hrest⟩⟩
  isplitl [HR]; · iexact HR
  isplitl [Hlev]; · iexact Hlev
  isplitl [Htbx]; · iexact Htbx
  isplitl [Htby]; · iexact Htby
  isplitl [HpX]; · iexact HpX
  isplitl [HpY]; · iexact HpY
  isplitl [Hpb]; · iexact Hpb
  isplitl [Hcb]; · iexact Hcb
  isplitl [Htsx Htrx Hxs]
  · isplitl [Htsx]; · iexact Htsx
    isplitl [Htrx]; · iexact Htrx
    iexact Hxs
  isplitl [Hpsx]; · iexact Hpsx
  isplitl [Htsy Htry]
  · isplitl [Htsy]; · iexact Htsy
    iexact Htry
  isplitl [Hpsy]; · iexact Hpsy
  isplitl [Hprx Hcrx]
  · isplitl [Hprx]; · iexact Hprx
    iexact Hcrx
  isplitl [Hpry Hcry]
  · isplitl [Hpry]; · iexact Hpry
    iexact Hcry
  isplitl [Htli Htlo Hls Hld]
  · isplitl [Htli]; · iexact Htli
    isplitl [Htlo]; · iexact Htlo
    isplitl [Hls]; · iexact Hls
    iexact Hld
  isplitl [Hs0 Hli0 Hlo0]
  · isplitl [Hs0]; · iexact Hs0
    isplitl [Hli0]; · iexact Hli0
    iexact Hlo0
  isplitl [Hs1 Hli1 Hlo1]
  · isplitl [Hs1]; · iexact Hs1
    isplitl [Hli1]; · iexact Hli1
    iexact Hlo1
  iexact Hrest

/-- What the body's first point asks, from what the global step left the device, the levels, the credits and the memory. -/
theorem phi0_of_parts (c : Dev nD) : iprop(G' m c ∗ levAts L lv ∗ credEntry c ∗ memEntry m c) ⊢ Φ₀ m c := by
  unfold G' Φ₀
  iintro ⟨⟨%K, HG⟩, Hrest⟩
  iexists K
  iapply (entry_intro m K c)
  isplitl [HG]; · iexact HG
  iexact Hrest

/-- info: 'Cert.KernelIdeal.A2A.glob' depends on axioms: [propext, Classical.choice, Quot.sound] -/
#guard_msgs in #print axioms glob
/-- info: 'Cert.KernelIdeal.A2A.fund_a2a' depends on axioms: [propext, Classical.choice, Quot.sound] -/
#guard_msgs in #print axioms fund_a2a
/-- info: 'Cert.KernelIdeal.A2A.creds' depends on axioms: [propext, Classical.choice, Quot.sound] -/
#guard_msgs in #print axioms creds
/-- info: 'Cert.KernelIdeal.A2A.phi0_of_parts' depends on axioms: [propext, Classical.choice, Quot.sound] -/
#guard_msgs in #print axioms phi0_of_parts

/-! ## The ghost half of the entry resources -/

omit [FloatOps F] in
theorem entryG_intro (K : Dev nD × Fin 261 → ℕ) (c : Dev nD) :
    iprop(ghostEntry m K c ∗ levAts L lv ∗ credEntry c) ⊢ entryG m K c := by
  unfold ghostEntry posns payToks GXtokT GYtokT GLtokT credEntry entryG GXpos GYtok GYpos GRXwait GRYwait
  rw [seg_zero]
  simp only [bigSep_sep']
  iintro ⟨⟨HR, ⟨Hpb, ⟨⟨Hli0, Hli1⟩, ⟨Hlo0, Hlo1⟩⟩, ⟨Hpsx, Hprx, Hpsy, Hpry⟩⟩, ⟨Htbx, Htby, ⟨Htsx, Htrx⟩, ⟨Htsy, Htry⟩, ⟨Htli, Htlo⟩⟩⟩, Hlev, ⟨Hcb, Hcrx, Hcry⟩⟩
  isplitl [HR]; · iexact HR
  isplitl [Hlev]; · iexact Hlev
  isplitl [Htbx]; · iexact Htbx
  isplitl [Htby]; · iexact Htby
  isplitl [Hpb]; · iexact Hpb
  isplitl [Hcb]; · iexact Hcb
  isplitl [Htsx Htrx]
  · isplitl [Htsx]; · iexact Htsx
    iexact Htrx
  isplitl [Hpsx]; · iexact Hpsx
  isplitl [Htsy Htry]
  · isplitl [Htsy]; · iexact Htsy
    iexact Htry
  isplitl [Hpsy]; · iexact Hpsy
  isplitl [Hprx Hcrx]
  · isplitl [Hprx]; · iexact Hprx
    iexact Hcrx
  isplitl [Hpry Hcry]
  · isplitl [Hpry]; · iexact Hpry
    iexact Hcry
  isplitl [Htli Htlo]
  · isplitl [Htli]; · iexact Htli
    iexact Htlo
  isplitl [Hli0 Hlo0]
  · isplitl [Hli0]; · iexact Hli0
    iexact Hlo0
  isplitl [Hli1]; · iexact Hli1
  iexact Hlo1

omit [FloatOps F] in
/-- From the levels, the launch credit and what the global step left it, a device has the ghost half of its entry
    resources under some names. -/
theorem ghost_start (c : Dev nD) :
    iprop(levAts L lv ∗ Pipeline.launchCred O₀ c ∗ G' m c) ⊢ iprop(∃ K, entryG m K c) := by
  unfold G'
  iintro ⟨Hlev, Hcr, ⟨%K, HG⟩⟩
  ihave Hc := (show (Pipeline.launchCred O₀ c : sProp 𝕄) ⊢ credEntry c from creds c) $$ Hcr
  iexists K
  iapply (entryG_intro m K c)
  isplitl [HG]; · iexact HG
  isplitl [Hlev]; · iexact Hlev
  iexact Hc

/-- info: 'Cert.KernelIdeal.A2A.ghost_start' depends on axioms: [propext, Classical.choice, Quot.sound] -/
#guard_msgs in #print axioms ghost_start

omit [FloatOps F] in
/-- The launch element splits into the pipeline library's copy and every device's share of the exchange's. -/
theorem launch_u₀ :
    (ownU u₀ : sProp 𝕄)
      ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_a2a m) $$ HX with HG
  imodintro
  isplitl [HP] <;> iassumption

end Cert.KernelIdeal.A2A

end
-- ==== Proof.KernelIdeal.LaunchMem.lean ====
import proofs.«900013_g7700000000000014_dist_a2a_v7x_xy2x2_x_m16384_n1024_f32_1_alg».proof.Proof.KernelIdeal.Body0
import proofs.«900013_g7700000000000014_dist_a2a_v7x_xy2x2_x_m16384_n1024_f32_1_alg».proof.Proof.KernelIdeal.Pieces
import proofs.«900013_g7700000000000014_dist_a2a_v7x_xy2x2_x_m16384_n1024_f32_1_alg».proof.Proof.KernelIdeal.EntryG
import proofs.«900013_g7700000000000014_dist_a2a_v7x_xy2x2_x_m16384_n1024_f32_1_alg».proof.Proof.KernelIdeal.Split
import proofs.«900013_g7700000000000014_dist_a2a_v7x_xy2x2_x_m16384_n1024_f32_1_alg».proof.Proof.KernelIdeal.ExitSems
import proofs.«900013_g7700000000000014_dist_a2a_v7x_xy2x2_x_m16384_n1024_f32_1_alg».proof.Proof.KernelIdeal.LaunchGhost
import Idealize.ShloMosaic.Rules.PointsTo

/-!
# The memory side of the launch, and the final reading

Each device's argument array, result array and staging scratch are handed to its body as one whole buffer each. The body
works on rectangular pieces of them. This file cuts the three buffers into the pieces the body starts from, puts the
pieces it ends with back together, and reads the final contents of the two arrays off the pieces.
-/

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading a family of pieces of one buffer against the memory -/

/-- Under the state interpretation, pieces of one buffer pin the memory's contents on each piece's elements. -/
theorem SI_bigSep_pointsTo_agree {st : Phys nD τ sig (Elt F)} {ℓ : Loc nD τ sig} {q : PosShare TreeShare}
    {T : Type} [DecidableEq T] (S : Finset T) (K : T → Finset (Idx ℓ)) (f : T → Buf (Elt F) ℓ) :
    iprop(SI st ∗ bigSep S fun t => ℓ ↦[K t]{q} f t) ⊢ (⌜∀ t ∈ S, ∀ i ∈ K t, st.mem.mem ℓ i = f t i⌝ : sProp 𝕄) := by
  induction S using Finset.induction_on with
  | empty => iintro -; ipureintro; intro t ht; exact absurd ht (Finset.notMem_empty _)
  | insert t S ht ih =>
    rw [bigSep_insert ht]
    refine (show iprop(SI st ∗ ((ℓ ↦[K t]{q} f t) ∗ bigSep S fun t => ℓ ↦[K t]{q} f t)) ⊢ _ from ?_)
    iintro ⟨HSI, Ht, HS⟩
    icombine HSI Ht gives %h
    ihave %hS := ih $$ [HSI HS]
    · isplitl [HSI] <;> iassumption
    ipureintro
    intro t' ht' i hi
    rcases Finset.mem_insert.mp ht' with rfl | ht'
    · exact h i hi
    · exact hS t' ht' i hi

/-- The same, keeping what was read. -/
theorem SI_bigSep_pointsTo_read {st : Phys nD τ sig (Elt F)} {ℓ : Loc nD τ sig} {q : PosShare TreeShare}
    {T : Type} [DecidableEq T] (S : Finset T) (K : T → Finset (Idx ℓ)) (f : T → Buf (Elt F) ℓ) :
    iprop(SI st ∗ bigSep S fun t => ℓ ↦[K t]{q} f t)
      ⊢ (iprop(⌜∀ t ∈ S, ∀ i ∈ K t, st.mem.mem ℓ i = f t i⌝ ∗ (SI st ∗ bigSep S fun t => ℓ ↦[K t]{q} f t)) : sProp 𝕄) :=
  persistent_entails_right (SI_bigSep_pointsTo_agree S K f)

/-! ## The final reading

When a device's body is done it holds every piece of its two arrays: of the argument array the 64 chunks it sent, the
8 local sources and the untouched rest, all at the launch contents; of the result array the 64 chunks landed from the
x-neighbour, the 64 landed from the y-neighbour and the 8 local pieces, all at the final contents. The pieces cover
both arrays, so the memory holds the final contents everywhere. -/

abbrev locA (c : Dev nD) : Loc nD τ sig := (c : Thread nD τ).loc main_arg0
abbrev locR (c : Dev nD) : Loc nD τ sig := (c : Thread nD τ).loc main_v1
abbrev locS (c : Dev nD) : Loc nD τ sig := (c : Thread nD τ).loc cc0_scratch0

/-- What a device holds of its two arrays when its body is done. -/
def Yc (c : Dev nD) : sProp 𝕄 :=
  iprop((bigSep Finset.univ fun k : Fin 64 => pts c (xSrc c k) (inA m c))
    ∗ (bigSep Finset.univ fun k : Fin 64 => pts c (yBuf c k) (outFinal m c))
    ∗ (bigSep Finset.univ fun k : Fin 64 => pts c (yBuf (yn c) k) (outFinal m c))
    ∗ GLsrc m c 8 ∗ GLout m c 8 ∗ RestA m c)

/-- The post of one device: its result array holds the final contents, its argument array what it held at launch. -/
def QY (c : Dev nD) (s : MemSt nD τ sig (Elt F)) : Prop :=
  s.mem (locR c) = outFinal m c ∧ s.mem (locA c) = m (locA c)

/-- The pieces of the argument array pin it to its launch contents. -/
theorem read_arg (c : Dev nD) (st : Phys nD τ sig (Elt F)) :
    iprop(SI st ∗ (bigSep Finset.univ fun k : Fin 64 => pts c (xSrc c k) (inA m c)) ∗ GLsrc m c 8 ∗ RestA m c)
      ⊢ (⌜st.mem.mem (locA c) = m (locA c)⌝ : sProp 𝕄) := by
  unfold GLsrc
  iintro ⟨HSI, HX, HL, HR⟩
  ihave H := (SI_bigSep_pointsTo_read (st := st) (ℓ := locA c) (q := fullShare) Finset.univ
    (fun k : Fin 64 => (xSrc c k).view.set) (fun _ => inA m c)) $$ [HSI HX]
  · isplitl [HSI] <;> iassumption
  icases H with ⟨%h1, HSI, -⟩
  ihave H := (SI_bigSep_pointsTo_read (st := st) (ℓ := locA c) (q := fullShare) (Finset.univ.filter fun i : Fin 8 => i.val < 8)
    (fun j : Fin 8 => (lSrc (lOff c j) (lOff_inb c j)).view.set) (fun _ => inA m c)) $$ [HSI HL]
  · isplitl [HSI] <;> iassumption
  icases H with ⟨%h2, HSI, -⟩
  unfold RestA
  icombine HSI HR gives %h3
  ipureintro
  funext i
  rcases arg_cover c i with ⟨k, hk⟩ | ⟨j, hj⟩ | hr
  · exact h1 k (Finset.mem_univ _) i hk
  · exact h2 j (Finset.mem_filter.mpr ⟨Finset.mem_univ _, j.isLt⟩) i hj
  · exact h3 i hr

/-- The pieces of the result array pin it to the final contents. -/
theorem read_res (c : Dev nD) (st : Phys nD τ sig (Elt F)) :
    iprop(SI st ∗ (bigSep Finset.univ fun k : Fin 64 => pts c (yBuf c k) (outFinal m c))
        ∗ (bigSep Finset.univ fun k : Fin 64 => pts c (yBuf (yn c) k) (outFinal m c)) ∗ GLout m c 8)
      ⊢ (⌜st.mem.mem (locR c) = outFinal m c⌝ : sProp 𝕄) := by
  unfold GLout
  iintro ⟨HSI, HX, HY, HL⟩
  ihave H := (SI_bigSep_pointsTo_read (st := st) (ℓ := locR c) (q := fullShare) Finset.univ
    (fun k : Fin 64 => (yBuf c k).view.set) (fun _ => outFinal m c)) $$ [HSI HX]
  · isplitl [HSI] <;> iassumption
  icases H with ⟨%h1, HSI, -⟩
  ihave H := (SI_bigSep_pointsTo_read (st := st) (ℓ := locR c) (q := fullShare) Finset.univ
    (fun k : Fin 64 => (yBuf (yn c) k).view.set) (fun _ => outFinal m c)) $$ [HSI HY]
  · isplitl [HSI] <;> iassumption
  icases H with ⟨%h2, HSI, -⟩
  ihave %h3 := (SI_bigSep_pointsTo_agree (st := st) (ℓ := locR c) (q := fullShare) (Finset.univ.filter fun i : Fin 8 => i.val < 8)
    (fun j : Fin 8 => (lDst c j).view.set) (fun _ => outFinal m c)) $$ [HSI HL]
  · isplitl [HSI] <;> iassumption
  ipureintro
  funext i
  rcases result_cover_fwd c i with ⟨k, hk⟩ | ⟨k, hk⟩ | ⟨j, hj⟩
  · exact h1 k (Finset.mem_univ _) i hk
  · exact h2 k (Finset.mem_univ _) i hk
  · exact h3 j (Finset.mem_filter.mpr ⟨Finset.mem_univ _, j.isLt⟩) i hj

/-- The launch theorem's reading step: what a device holds at the end, read against the final memory. -/
theorem read_Y (c : Dev nD) (s' : Phys nD τ sig (Elt F)) :
    iprop(Yc m c ∗ emp ∗ SI s') ⊢ (|={Set.univ}=> iprop(⌜QY m c s'.mem⌝ ∗ SI s') : sProp 𝕄) := by
  unfold Yc
  iintro ⟨⟨HX, HY1, HY2, HL, HLo, HR⟩, -, HSI⟩
  ihave H := (persistent_entails_right (read_arg m c s')) $$ [HSI HX HL HR]
  · isplitl [HSI]; · iexact HSI
    isplitl [HX]; · iexact HX
    isplitl [HL] <;> iassumption
  icases H with ⟨%ha, HSI, -⟩
  ihave H := (persistent_entails_right (read_res m c s')) $$ [HSI HY1 HY2 HLo]
  · isplitl [HSI]; · iexact HSI
    isplitl [HY1]; · iexact HY1
    isplitl [HY2] <;> iassumption
  icases H with ⟨%hr, HSI, -⟩
  imodintro
  isplitr
  · ipureintro; exact ⟨hr, ha⟩
  · iexact HSI

/-! ## Entry: the ghost half and the memory half together

The memory half of a device's entry resources: the pieces of its argument array at the launch contents, the pieces of
its result array (the chunks its two neighbours will write, handed over with its entry signals; the destinations of its
own local copies) at whatever they hold, and the two staging slots. -/

def entryM (c : Dev nD) : sProp 𝕄 :=
  iprop(((bigSep Finset.univ fun k : Fin 64 => pts c (xSrc c k) (inA m c))
      ∗ (bigSep Finset.univ fun j : Fin 8 => pts c (lSrc (lOff c j) (lOff_inb c j)) (inA m c)) ∗ RestA m c)
    ∗ (barPayX (xn c) ∗ barPayY (yn c) ∗ bigSep Finset.univ fun j : Fin 8 => iprop(∃ f, pts c (lDst c j) f))
    ∗ ((∃ f, pts c (stg 0) f) ∗ (∃ f, pts c (stg 1) f)))

omit [FloatOps F] in
theorem sep_assoc3 (A B C : sProp 𝕄) : iprop((A ∗ B) ∗ C) ⊢ iprop(A ∗ B ∗ C) := by
  iintro ⟨⟨H1, H2⟩, H3⟩
  isplitl [H1]; · iexact H1
  isplitl [H2] <;> iassumption

omit [FloatOps F] in
theorem sep_assoc4 (A B C D : sProp 𝕄) : iprop((A ∗ B) ∗ C ∗ D) ⊢ iprop(A ∗ B ∗ C ∗ D) := by
  iintro ⟨⟨H1, H2⟩, H3, H4⟩
  isplitl [H1]; · iexact H1
  isplitl [H2]; · iexact H2
  isplitl [H3] <;> iassumption

theorem filter_zero_le : (Finset.univ.filter fun i : Fin 8 => 0 ≤ i.val) = Finset.univ :=
  Finset.filter_true_of_mem fun i _ => Nat.zero_le _

theorem entry_of_halves (K : Dev nD × Fin 261 → ℕ) (c : Dev nD) : iprop(entryG m K c ∗ entryM m c) ⊢ entry m K c := by
  have hGX : iprop((bigSep Finset.univ fun k : Fin 64 => iprop(dutyTok ER (sxCell c k) 0 false ∗ dutyTok ER (rxCell (xn c) k) 0 false))
      ∗ (bigSep Finset.univ fun k : Fin 64 => pts c (xSrc c k) (inA m c))) ⊢ GXtok m c 0 := by
    unfold GXtok
    rw [seg_zero, ← bigSep_sep']
    exact bigSep_mono fun k _ => sep_assoc3 _ _ _
  have hGL : iprop((bigSep Finset.univ fun i : Fin 8 => iprop(dutyTok ER (linCell c (slotOf i)) (roundOf i) false ∗ dutyTok ER (loutCell c (slotOf i)) (roundOf i) false))
      ∗ (bigSep Finset.univ fun j : Fin 8 => pts c (lSrc (lOff c j) (lOff_inb c j)) (inA m c))
      ∗ (bigSep Finset.univ fun j : Fin 8 => iprop(∃ f, pts c (lDst c j) f))) ⊢ GLtok m c 0 := by
    unfold GLtok
    rw [filter_zero_le, ← bigSep_sep', ← bigSep_sep']
    exact bigSep_mono fun i _ => sep_assoc4 _ _ _ _
  unfold entryG entryM entry SlotIdle
  iintro ⟨⟨Hrec, Hlev, HtX, HtY, HaB, HcB, HtokX, HposX, HtokY, HposY, HRX, HRY, HtokL, ⟨Hl0, Ho0⟩, ⟨Hl1, Ho1⟩⟩, ⟨HpX, HpL, HRest⟩, ⟨HbX, HbY, HdL⟩, ⟨Hs0, Hs1⟩⟩
  isplitl [Hrec]; · iexact Hrec
  isplitl [Hlev]; · iexact Hlev
  isplitl [HtX]; · iexact HtX
  isplitl [HtY]; · iexact HtY
  isplitl [HbX]; · iexact HbX
  isplitl [HbY]; · iexact HbY
  isplitl [HaB]; · iexact HaB
  isplitl [HcB]; · iexact HcB
  isplitl [HtokX HpX]
  · iapply hGX; isplitl [HtokX] <;> iassumption
  isplitl [HposX]; · iexact HposX
  isplitl [HtokY]; · iexact HtokY
  isplitl [HposY]; · iexact HposY
  isplitl [HRX]; · iexact HRX
  isplitl [HRY]; · iexact HRY
  isplitl [HtokL HpL HdL]
  · iapply hGL
    isplitl [HtokL]; · iexact HtokL
    isplitl [HpL] <;> iassumption
  isplitl [Hs0 Hl0 Ho0]
  · isplitl [Hs0]; · iexact Hs0
    isplitl [Hl0] <;> iassumption
  isplitl [Hs1 Hl1 Ho1]
  · isplitl [Hs1]; · iexact Hs1
    isplitl [Hl1] <;> iassumption
  iexact HRest

/-! ## The launch theorem's memory steps

At the launch each device is handed its two arrays whole at the launch contents, its staging scratch whole at some
contents, and (from the ghost side) the ghost half of its entry resources. The arrays are cut into the pieces before
the body, the scratch when the body is entered; at the exit the scratch is put back together and the pieces of the two
arrays are kept for the final reading. -/

/-- The kernel's own (scoped) semaphores: the 260 copy semaphores. -/
abbrev osem' : Fin 260 → SemLoc sig := fun i => .dma i

/-- What a device holds between the launch and its body: the ghost half of its entry resources and the pieces of its
    two arrays. -/
def Xc (c : Dev nD) : sProp 𝕄 :=
  iprop((∃ K, entryG m K c)
    ∗ ((bigSep Finset.univ fun k : Fin 64 => pts c (xSrc c k) (inA m c))
      ∗ (bigSep Finset.univ fun j : Fin 8 => pts c (lSrc (lOff c j) (lOff_inb c j)) (inA m c)) ∗ RestA m c)
    ∗ (barPayX (xn c) ∗ barPayY (yn c) ∗ bigSep Finset.univ fun j : Fin 8 => iprop(∃ f, pts c (lDst c j) f)))

theorem start_intro (G' : Dev nD → sProp 𝕄)
    (ghost_start : ∀ c : Dev nD, iprop(levAts L lv ∗ Pipeline.launchCred O₀ c ∗ G' c) ⊢ (iprop(∃ K, entryG m K c) : sProp 𝕄))
    (arg_split : ∀ c : Dev nD, (((c : Thread nD τ).loc main_arg0) ↦{fullShare} inA m c : sProp 𝕄)
      ⊢ iprop((bigSep Finset.univ fun k : Fin 64 => pts c (xSrc c k) (inA m c))
          ∗ (bigSep Finset.univ fun j : Fin 8 => pts c (lSrc (lOff c j) (lOff_inb c j)) (inA m c)) ∗ RestA m c))
    (res_split : ∀ (c : Dev nD) (f : Buf (Elt F) ((c : Thread nD τ).loc main_v1)), (((c : Thread nD τ).loc main_v1) ↦{fullShare} f : sProp 𝕄)
      ⊢ iprop(barPayX (xn c) ∗ barPayY (yn c) ∗ bigSep Finset.univ fun j : Fin 8 => iprop(∃ f', pts c (lDst c j) f')))
    (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' c)
      ⊢ |={Set.univ}=> iprop(Xc m c ∗ emp) := by
  rw [Pipeline.unscopedRestP_none, unscopedRest0_eq]
  iintro ⟨⟨HA, HR⟩, Hlev, Hcr, -, HG⟩
  ihave HE := (ghost_start c) $$ [Hlev Hcr HG]
  · isplitl [Hlev]; · iexact Hlev
    isplitl [Hcr] <;> iassumption
  ihave HA' := (arg_split c) $$ HA
  ihave HR' := (res_split c (m ((c : Thread nD τ).loc main_v1))) $$ HR
  imodintro
  unfold Xc
  isplitl
  · isplitl [HE]; · iexact HE
    isplitl [HA'] <;> iassumption
  · iempintro

theorem phi0_intro
    (stg_split : ∀ (c : Dev nD) (f : Buf (Elt F) ((c : Thread nD τ).loc cc0_scratch0)), (((c : Thread nD τ).loc cc0_scratch0) ↦{fullShare} f : sProp 𝕄)
      ⊢ iprop((∃ f', pts c (stg 0) f') ∗ (∃ f', pts c (stg 1) f')))
    (c : Dev nD) :
    iprop(Xc m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Xc
  iintro ⟨⟨⟨%K, HG⟩, HA, HR⟩, -, ⟨%f, Hs⟩⟩
  ihave Hs' := (stg_split c f) $$ Hs
  iexists K
  iapply (entry_of_halves m K c)
  unfold entryM
  isplitl [HG]; · iexact HG
  isplitl [HA]; · iexact HA
  isplitl [HR] <;> iassumption

theorem phi1_exit
    (exit_sems : ∀ c : Dev nD, Φ₁ m c ⊢ iprop(Pipeline.ownSems0 (Ix := Unit) (Name := ℕ) (U := UU) (Lvl := ℕ) (Val := Elt F) (τ := τ) osem' c
        ∗ (bigSep Finset.univ fun k : Fin 64 => pts c (xSrc c k) (inA m c))
        ∗ (bigSep Finset.univ fun k : Fin 64 => pts c (yBuf c k) (outFinal m c))
        ∗ (bigSep Finset.univ fun k : Fin 64 => pts c (yBuf (yn c) k) (outFinal m c))
        ∗ GLsrc m c 8 ∗ GLout m c 8 ∗ (∃ f, pts c (stg 0) f) ∗ (∃ f, pts c (stg 1) f) ∗ RestA m c))
    (stg_join : ∀ c : Dev nD, iprop((∃ f', pts c (stg 0) f') ∗ (∃ f', pts c (stg 1) f'))
      ⊢ (iprop(∃ f : Buf (Elt F) ((c : Thread nD τ).loc cc0_scratch0), ((c : Thread nD τ).loc cc0_scratch0) ↦{fullShare} f) : sProp 𝕄))
    (c : Dev nD) :
    (dats m 0 c).Φ (Fin.last cfg0.N) ⊢ iprop(Yc m c ∗ Pipeline.ownSems0 osem' c ∗ Pipeline.scopedRest cfg0.spec c) := by
  rw [show (dats m 0 c).Φ (Fin.last cfg0.N) = Φ₁ m c from rfl, scopedRest0_eq]
  refine (exit_sems c).trans ?_
  unfold Yc
  iintro ⟨Hsem, HX, HY1, HY2, HLs, HLo, Hs0, Hs1, HR⟩
  isplitl [HX HY1 HY2 HLs HLo HR]
  · isplitl [HX]; · iexact HX
    isplitl [HY1]; · iexact HY1
    isplitl [HY2]; · iexact HY2
    isplitl [HLs]; · iexact HLs
    isplitl [HLo] <;> iassumption
  isplitl [Hsem]; · iexact Hsem
  iapply (stg_join c)
  isplitl [Hs0] <;> iassumption

/-! ## The run -/

set_option maxRecDepth 8000 in
/-- From any memory with zero counters, every fair run of the program on the four devices ends, faults nowhere, leaves
    each argument array as it was and each result array holding the final contents — given the body obligation, the
    ghost side of the launch, the cuts of the three buffers and the regrouping of the exit's counters. -/
theorem run_main_of
    (hbody : ∀ c : Dev nD, BodyObligation (dats (F := F) m 0 c) (defs₀ (F := F)) 𝒱₀ () Set.univ)
    (ownSemFacts' : Pipeline.OwnSemFacts cfg0.spec osem')
    (G G' : Dev nD → sProp 𝕄) (u₂ : UB)
    (hfund : BI.own (ER u₂) ⊢ (|==> bigSep Finset.univ G : sProp 𝕄))
    (hglob : (bigSep Finset.univ fun c : Dev nD => iprop(Pipeline.ownSems0 (Ix := Unit) (Name := ℕ) (U := UU) (Lvl := ℕ) (Val := Elt F) (τ := τ) osem' c
        ∗ unscopedSems0 c ∗ G c) : sProp 𝕄) ⊢ |={Set.univ}=> bigSep Finset.univ G')
    (ghost_start : ∀ c : Dev nD, iprop(levAts L lv ∗ Pipeline.launchCred O₀ c ∗ G' c) ⊢ (iprop(∃ K, entryG m K c) : sProp 𝕄))
        (arg_split : ∀ c : Dev nD, (((c : Thread nD τ).loc main_arg0) ↦{fullShare} inA m c : sProp 𝕄)
      ⊢ iprop((bigSep Finset.univ fun k : Fin 64 => pts c (xSrc c k) (inA m c))
          ∗ (bigSep Finset.univ fun j : Fin 8 => pts c (lSrc (lOff c j) (lOff_inb c j)) (inA m c)) ∗ RestA m c))
    (res_split : ∀ (c : Dev nD) (f : Buf (Elt F) ((c : Thread nD τ).loc main_v1)), (((c : Thread nD τ).loc main_v1) ↦{fullShare} f : sProp 𝕄)
      ⊢ iprop(barPayX (xn c) ∗ barPayY (yn c) ∗ bigSep Finset.univ fun j : Fin 8 => iprop(∃ f', pts c (lDst c j) f')))
    (stg_split : ∀ (c : Dev nD) (f : Buf (Elt F) ((c : Thread nD τ).loc cc0_scratch0)), (((c : Thread nD τ).loc cc0_scratch0) ↦{fullShare} f : sProp 𝕄)
      ⊢ iprop((∃ f', pts c (stg 0) f') ∗ (∃ f', pts c (stg 1) f')))
    (stg_join : ∀ c : Dev nD, iprop((∃ f', pts c (stg 0) f') ∗ (∃ f', pts c (stg 1) f'))
      ⊢ (iprop(∃ f : Buf (Elt F) ((c : Thread nD τ).loc cc0_scratch0), ((c : Thread nD τ).loc cc0_scratch0) ↦{fullShare} f) : sProp 𝕄))
    (exit_sems : ∀ c : Dev nD, Φ₁ m c ⊢ iprop(Pipeline.ownSems0 (Ix := Unit) (Name := ℕ) (U := UU) (Lvl := ℕ) (Val := Elt F) (τ := τ) osem' c
        ∗ (bigSep Finset.univ fun k : Fin 64 => pts c (xSrc c k) (inA m c))
        ∗ (bigSep Finset.univ fun k : Fin 64 => pts c (yBuf c k) (outFinal m c))
        ∗ (bigSep Finset.univ fun k : Fin 64 => pts c (yBuf (yn c) k) (outFinal m c))
        ∗ GLsrc m c 8 ∗ GLout m c 8 ∗ (∃ f, pts c (stg 0) f) ∗ (∃ f, pts c (stg 1) f) ∗ RestA m c)) :
    θ_run (defs (F := F)) (onTc (τ := τ) (main (F := F))) ⟨m, fun _ => 0, ρ⟩
      (fun r => ∀ c : Dev nD, r.2.mem ((c.tc : Thread nD τ).loc main_v1) = outFinal m c
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts' (Pipeline.PreFacts.none _) EP defs₀ 𝒱₀ m ρ main
    (hmain := fun c => (main_chain c).trans rfl)
    (hbody := fun c => (hbody c).loose) (hne := block_pos0) (harr := arr_whole0) (hstage := stage_whole0)
    (hshare := fun c w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w s t => w.elim0)
    (G := G) (G' := G') (u₀ := (initOf (Pipeline.cells cfgs cellOf_inj) (Pipeline.launchToks cfgs cellOf_inj), u₂))
    (hu₀ := by
      iintro Hu
      ihave H := (ownU_pair _ _) $$ Hu
      icases H with ⟨HP, HX⟩
      imod hfund $$ HX with HG
      imodintro
      isplitl [HP] <;> iassumption)
    (hglob := hglob)
    (hA := fun _ w => w.elim0) (hpf := fun _ k => k.elim0)
    (X := Xc m) (Y := Yc m) (Z := fun _ => iprop(emp))
    (hX := start_intro m ρ G' ghost_start arg_split res_split) (hin := phi0_intro m stg_split) (hout := phi1_exit m exit_sems stg_join)
    (QY := QY m)
    (hY := read_Y m)
    (hQ := fun s h c => (h c).2.2)

/-- The same with the cuts of the three buffers and the exit's counters filled in: what remains is the body obligation
    and the ghost side of the launch. -/
theorem run_main_of_ghost
    (hbody : ∀ c : Dev nD, BodyObligation (dats (F := F) m 0 c) (defs₀ (F := F)) 𝒱₀ () Set.univ)
    (ownSemFacts' : Pipeline.OwnSemFacts cfg0.spec osem')
    (G G' : Dev nD → sProp 𝕄) (u₂ : UB)
    (hfund : BI.own (ER u₂) ⊢ (|==> bigSep Finset.univ G : sProp 𝕄))
    (hglob : (bigSep Finset.univ fun c : Dev nD => iprop(Pipeline.ownSems0 (Ix := Unit) (Name := ℕ) (U := UU) (Lvl := ℕ) (Val := Elt F) (τ := τ) osem' c
        ∗ unscopedSems0 c ∗ G c) : sProp 𝕄) ⊢ |={Set.univ}=> bigSep Finset.univ G')
    (ghost_start : ∀ c : Dev nD, iprop(levAts L lv ∗ Pipeline.launchCred O₀ c ∗ G' c) ⊢ (iprop(∃ K, entryG m K c) : sProp 𝕄)) :
    θ_run (defs (F := F)) (onTc (τ := τ) (main (F := F))) ⟨m, fun _ => 0, ρ⟩
      (fun r => ∀ c : Dev nD, r.2.mem ((c.tc : Thread nD τ).loc main_v1) = outFinal m c
        ∧ r.2.mem ((c.tc : Thread nD τ).loc main_arg0) = m ((c.tc : Thread nD τ).loc main_arg0)) :=
  run_main_of m ρ hbody ownSemFacts' G G' u₂ hfund hglob ghost_start (arg_split m) res_split stg_split stg_join (exit_sems m)

/-- The same with the ghost side of the launch filled in: what remains is the body obligation. -/
theorem run_main_of_body
    (hbody : ∀ c : Dev nD, BodyObligation (dats (F := F) m 0 c) (defs₀ (F := F)) 𝒱₀ () Set.univ) :
    θ_run (defs (F := F)) (onTc (τ := τ) (main (F := F))) ⟨m, fun _ => 0, ρ⟩
      (fun r => ∀ c : Dev nD, r.2.mem ((c.tc : Thread nD τ).loc main_v1) = outFinal m c
        ∧ r.2.mem ((c.tc : Thread nD τ).loc main_arg0) = m ((c.tc : Thread nD τ).loc main_arg0)) :=
  run_main_of_ghost m ρ hbody ownSemFacts (G m) (G' m) (initOf a2aCells a2aToks) (fund_a2a m) (glob m) (ghost_start m)

/-- info: 'Cert.KernelIdeal.A2A.read_Y' depends on axioms: [propext, Classical.choice, Quot.sound] -/
#guard_msgs in #print axioms read_Y

/-- info: 'Cert.KernelIdeal.A2A.run_main_of' depends on axioms: [propext, Classical.choice, Quot.sound] -/
#guard_msgs in #print axioms run_main_of
/-- info: 'Cert.KernelIdeal.A2A.run_main_of_ghost' depends on axioms: [propext, Classical.choice, Quot.sound] -/
#guard_msgs in #print axioms run_main_of_ghost
/-- info: 'Cert.KernelIdeal.A2A.run_main_of_body' depends on axioms: [propext, Classical.choice, Quot.sound] -/
#guard_msgs in #print axioms run_main_of_body

end Cert.KernelIdeal.A2A

end
-- ==== Proof.KernelIdeal.BodyOb.lean ====
import proofs.«900013_g7700000000000014_dist_a2a_v7x_xy2x2_x_m16384_n1024_f32_1_alg».proof.Proof.KernelIdeal.Body0

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The body obligation: the pipeline has no window, so it is the body's run from the entry resources -/

omit [FloatOps F] in
/-- There is no window: a separating conjunction over the windows is empty. -/
theorem AO_bigSep_W (Φ : Fin cfg0.W → sProp 𝕄) : bigSep Finset.univ Φ = iprop(emp) := by
  haveI : IsEmpty (Fin cfg0.W) := (inferInstance : IsEmpty (Fin 0))
  rw [Finset.univ_eq_empty]; rfl

omit [FloatOps F] in
theorem AO_Φ_pre (m : (ℓ : Loc nD τ sig) → Buf (Elt F) ℓ) (c : Dev nD) : (dats m 0 c).Φ t₀.castSucc = Φ₀ m c := rfl
omit [FloatOps F] in
theorem AO_Φ_post (m : (ℓ : Loc nD τ sig) → Buf (Elt F) ℓ) (c : Dev nD) : (dats m 0 c).Φ t₀.succ = Φ₁ m c := rfl
/-- The body as the pipeline calls it at the one point. -/
theorem AO_body : (defs₀ (F := F)) .tc cfg0.body (cfg0.bodyArgs t₀ (cfg0.slots t₀))
    = cc0_body (Memref.whole main_arg0) (Memref.isWhole_whole _) (Memref.whole main_v1) (Memref.isWhole_whole _)
        (Memref.whole cc0_scratch0) (Memref.isWhole_whole _) cc0_scratch1 cc0_scratch2 cc0_scratch3 cc0_scratch4 cc0_scratch5 cc0_scratch6 := rfl

set_option maxRecDepth 8000 in
/-- The library's body obligation on device `c`, from the body's run. -/
theorem body_obligation (m : (ℓ : Loc nD τ sig) → Buf (Elt F) ℓ)
    (hsound : ∀ (K : Dev nD × Fin 261 → ℕ) (c : Dev nD) (Kt : PUnit → sProp 𝕄),
      iprop(bodyPre m K c ∗ (bodyPost m c -∗ Kt ⟨⟩))
        ⊢ wp frame (wpE (defs₀ (F := F)) 𝒱₀ (c : Thread nD τ) none) Set.univ
            (cc0_body (Memref.whole main_arg0) (Memref.isWhole_whole _) (Memref.whole main_v1) (Memref.isWhole_whole _)
              (Memref.whole cc0_scratch0) (Memref.isWhole_whole _) cc0_scratch1 cc0_scratch2 cc0_scratch3 cc0_scratch4 cc0_scratch5 cc0_scratch6) Kt)
    (c : Dev nD) : BodyObligation (dats (F := F) m 0 c) (defs₀ (F := F)) 𝒱₀ () Set.univ := fun t => by
  rw [fin_N t]
  rw [AO_bigSep_W, AO_bigSep_W, AO_Φ_pre, AO_Φ_post, AO_body]
  unfold Φ₀
  iintro ⟨⟨%K, He⟩, Ho, -⟩
  iapply (hsound K c fun _ => iprop(Φ₁ m c ∗ (dats m 0 c).owesAt () t₀.succ ∗ emp))
  unfold bodyPre bodyPost
  isplitl [He Ho]
  · isplitl [He]; · iexact He
    iexact Ho
  · iintro ⟨H1, H2⟩
    isplitl [H1]; · iexact H1
    isplitl [H2]; · iexact H2
    iempintro

/-- info: 'Cert.KernelIdeal.A2A.body_obligation' depends on axioms: [propext, Classical.choice, Quot.sound] -/
#guard_msgs in #print axioms body_obligation

end Cert.KernelIdeal.A2A

end
-- ==== Proof.KernelIdeal.Levels.lean ====
import proofs.«900013_g7700000000000014_dist_a2a_v7x_xy2x2_x_m16384_n1024_f32_1_alg».proof.Proof.KernelIdeal.Body0

/-!
  Why no wait of the exchange can deadlock: the levels.

  A device may wait on one of its cells only if that cell lies strictly below, in level, every cell it still owes
  units to. What a device owes, at any moment, is receive credit of its two neighbours: chunks of the row exchange to
  the `x`-neighbour's row-receive cells (level 2) and chunks of the column exchange to the `y`-neighbour's
  column-receive cells (level 3). So the entry wait on the barrier cell (level 1) is below all of it; a wait on an own
  row-receive cell (level 2) is allowed once every row chunk has been sent, when only column chunks (level 3) are
  owed; and every other cell (level 0: the local copies' and the two exchanges' send cells) may be waited on whatever
  is still owed.
-/

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The level of each kind of cell -/

theorem lv_bar (c : Dev nD) (u : Unit) : lv (barCell c) u = 1 := by simp only [lv, classify_bar]
theorem lv_rx (c : Dev nD) (k : Fin 64) (u : Unit) : lv (rxCell c k) u = 2 := by simp only [lv, classify_rx]
theorem lv_ry (c : Dev nD) (k : Fin 64) (u : Unit) : lv (ryCell c k) u = 3 := by simp only [lv, classify_ry]
theorem lv_lin (c : Dev nD) (s : Fin 2) (u : Unit) : lv (linCell c s) u = 0 := by simp only [lv, classify_lin]
theorem lv_lout (c : Dev nD) (s : Fin 2) (u : Unit) : lv (loutCell c s) u = 0 := by simp only [lv, classify_lout]
theorem lv_sx (c : Dev nD) (k : Fin 64) (u : Unit) : lv (sxCell c k) u = 0 := by simp only [lv, classify_sx]
theorem lv_sy (c : Dev nD) (k : Fin 64) (u : Unit) : lv (syCell c k) u = 0 := by simp only [lv, classify_sy]

/-- Every cell of a device's core carries the one index. -/
theorem mem_L (c : Dev nD) (sm : SemLoc sig) (u : Unit) : u ∈ L ((c : Thread nD τ), sm) := by
  rw [L_tc]; exact Finset.mem_singleton.mpr rfl

/-! ## Where what is owed is positive: only at a neighbour's receive cell -/

/-- What the row exchange still owes is positive only at a row-receive cell of the `x`-neighbour; -/
theorem OX_pos {c : Dev nD} {a : ℕ} {g : GSem nD τ sig} {u : Unit} (h : 0 < OX c a g u) :
    ∃ k : Fin 64, g = rxCell (xn c) k := by
  unfold OX at h
  obtain ⟨k, _, hk⟩ := Pipeline.sum_pos_exists h
  exact ⟨k, (Pipeline.tallyAt_pos hk).1⟩

/-- what the column exchange still owes, only at a column-receive cell of the `y`-neighbour. -/
theorem OY_pos {c : Dev nD} {b : ℕ} {g : GSem nD τ sig} {u : Unit} (h : 0 < OY c b g u) :
    ∃ k : Fin 64, g = ryCell (yn c) k := by
  unfold OY at h
  obtain ⟨k, _, hk⟩ := Pipeline.sum_pos_exists h
  exact ⟨k, (Pipeline.tallyAt_pos hk).1⟩

/-- With every chunk of both exchanges sent, nothing is owed. -/
theorem owes_top (c : Dev nD) : OX c 64 + OY c 64 = 0 := by rw [OX_top, OY_top, add_zero]

/-! ## The waits -/

omit [FloatOps F] in
/-- The entry wait: the barrier cell (level 1) is below every receive cell of either exchange (levels 2 and 3). -/
theorem mayWait_bar (c : Dev nD) :
    (levAts L lv : sProp 𝕄) ⊢ MayWait (c : Thread nD τ) (.reg barS) () (OX c 0 + OY c 0) :=
  Pipeline.mayWait_of_levAts (mem_L c _ _) fun g u hg => by
    rcases Pipeline.add_pos_cases hg with h | h
    · obtain ⟨k, rfl⟩ := OX_pos h
      refine ⟨mem_L _ _ _, ?_⟩
      show lv (barCell c) () < lv (rxCell (xn c) k) u
      rw [lv_bar, lv_rx]; decide
    · obtain ⟨k, rfl⟩ := OY_pos h
      refine ⟨mem_L _ _ _, ?_⟩
      show lv (barCell c) () < lv (ryCell (yn c) k) u
      rw [lv_bar, lv_ry]; decide

omit [FloatOps F] in
/-- A wait on an own row-receive cell (level 2), every row chunk sent: only column chunks are owed, to column-receive
    cells (level 3). -/
theorem mayWait_rx (c : Dev nD) (k : Fin 64) (b : ℕ) :
    (levAts L lv : sProp 𝕄) ⊢ MayWait (c : Thread nD τ) (.dma (rxS k).sem) () (OX c 64 + OY c b) := by
  rw [OX_top, zero_add]
  exact Pipeline.mayWait_of_levAts (mem_L c _ _) fun g u hg => by
    obtain ⟨j, rfl⟩ := OY_pos hg
    refine ⟨mem_L _ _ _, ?_⟩
    show lv (rxCell c k) () < lv (ryCell (yn c) j) u
    rw [lv_rx, lv_ry]; decide

omit [FloatOps F] in
/-- A wait on a cell of the lowest level, whatever of the two exchanges is still owed. -/
theorem mayWait_low (c : Dev nD) (q : DmaSem sig) (hq : lv ((c : Thread nD τ), .dma q) () = 0) (a b : ℕ) :
    (levAts L lv : sProp 𝕄) ⊢ MayWait (c : Thread nD τ) (.dma q) () (OX c a + OY c b) :=
  Pipeline.mayWait_of_levAts (mem_L c _ _) fun g u hg => by
    rcases Pipeline.add_pos_cases hg with h | h
    · obtain ⟨k, rfl⟩ := OX_pos h
      refine ⟨mem_L _ _ _, ?_⟩
      rw [hq, lv_rx]; decide
    · obtain ⟨k, rfl⟩ := OY_pos h
      refine ⟨mem_L _ _ _, ?_⟩
      rw [hq, lv_ry]; decide

omit [FloatOps F] in
/-- Its instances: the local copies' cells and the two exchanges' send cells. -/
theorem mayWait_lin (c : Dev nD) (s : Fin 2) (a b : ℕ) :
    (levAts L lv : sProp 𝕄) ⊢ MayWait (c : Thread nD τ) (.dma (linS s).sem) () (OX c a + OY c b) :=
  mayWait_low c _ (lv_lin c s ()) a b
omit [FloatOps F] in
theorem mayWait_lout (c : Dev nD) (s : Fin 2) (a b : ℕ) :
    (levAts L lv : sProp 𝕄) ⊢ MayWait (c : Thread nD τ) (.dma (loutS s).sem) () (OX c a + OY c b) :=
  mayWait_low c _ (lv_lout c s ()) a b
omit [FloatOps F] in
theorem mayWait_sx (c : Dev nD) (k : Fin 64) (a b : ℕ) :
    (levAts L lv : sProp 𝕄) ⊢ MayWait (c : Thread nD τ) (.dma (sxS k).sem) () (OX c a + OY c b) :=
  mayWait_low c _ (lv_sx c k ()) a b
omit [FloatOps F] in
theorem mayWait_sy (c : Dev nD) (k : Fin 64) (a b : ℕ) :
    (levAts L lv : sProp 𝕄) ⊢ MayWait (c : Thread nD τ) (.dma (syS k).sem) () (OX c a + OY c b) :=
  mayWait_low c _ (lv_sy c k ()) a b

/-! ## The pipeline's own waits

  The kernel's one region stages no array through a window, so the pipeline around the body waits on no cell of its
  own: the evidence asked for every window, slot and point ranges over no window at all. -/

omit [FloatOps F] in
theorem hwaits (m : (ℓ : Loc nD τ sig) → Buf (Elt F) ℓ) (c : Dev nD) :
    (levAts L lv : sProp 𝕄) ⊢ Pipeline.cellsWaits cfgs (dats m) () 0 c :=
  Pipeline.cellsWaits_intro cfgs (dats m) () 0 c fun w => w.elim0

end Cert.KernelIdeal.A2A

end

/-- info: 'Cert.KernelIdeal.A2A.mayWait_bar' depends on axioms: [propext, Classical.choice, Quot.sound] -/
#guard_msgs in #print axioms Cert.KernelIdeal.A2A.mayWait_bar
/-- info: 'Cert.KernelIdeal.A2A.mayWait_rx' depends on axioms: [propext, Classical.choice, Quot.sound] -/
#guard_msgs in #print axioms Cert.KernelIdeal.A2A.mayWait_rx
/-- info: 'Cert.KernelIdeal.A2A.mayWait_low' depends on axioms: [propext, Classical.choice, Quot.sound] -/
#guard_msgs in #print axioms Cert.KernelIdeal.A2A.mayWait_low
/-- info: 'Cert.KernelIdeal.A2A.hwaits' depends on axioms: [propext, Classical.choice, Quot.sound] -/
#guard_msgs in #print axioms Cert.KernelIdeal.A2A.hwaits
-- ==== Proof.KernelIdeal.Common.lean ====
import proofs.«900013_g7700000000000014_dist_a2a_v7x_xy2x2_x_m16384_n1024_f32_1_alg».proof.Proof.KernelIdeal.State

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## After round 0 an exchange cell has no duty -/

omit [FloatOps F] in
theorem duties_later_sx (c : Dev nD) (k : Fin 64) (r : ℕ) (hr : 1 ≤ r) : (a2aRd (F := F) m).duties (sxCell c k) r = ∅ := by
  have h0 : r ≠ 0 := by omega
  simp only [a2aRd, classify_sx, if_true, if_neg h0]
omit [FloatOps F] in
theorem duties_later_rx (c : Dev nD) (k : Fin 64) (r : ℕ) (hr : 1 ≤ r) : (a2aRd (F := F) m).duties (rxCell c k) r = ∅ := by
  have h0 : r ≠ 0 := by omega
  simp only [a2aRd, classify_rx, if_true, if_neg h0]
omit [FloatOps F] in
theorem duties_later_sy (c : Dev nD) (k : Fin 64) (r : ℕ) (hr : 1 ≤ r) : (a2aRd (F := F) m).duties (syCell c k) r = ∅ := by
  have h0 : r ≠ 0 := by omega
  simp only [a2aRd, classify_sy, if_true, if_neg h0]
omit [FloatOps F] in
theorem duties_later_ry (c : Dev nD) (k : Fin 64) (r : ℕ) (hr : 1 ≤ r) : (a2aRd (F := F) m).duties (ryCell c k) r = ∅ := by
  have h0 : r ≠ 0 := by omega
  simp only [a2aRd, classify_ry, if_true, if_neg h0]

/-! ## What round 0 of an exchange cell delivers in all: one chunk's credit -/

omit [FloatOps F] in
theorem expect_sx (c : Dev nD) (k : Fin 64) : (a2aRd (F := F) m).expect (sxCell c k) 0 = N128 := by
  unfold Schedule.expect Schedule.amountOf; rw [duties_sx, Finset.sum_singleton, amount_sx]
omit [FloatOps F] in
theorem expect_rx (c : Dev nD) (k : Fin 64) : (a2aRd (F := F) m).expect (rxCell c k) 0 = N128 := by
  unfold Schedule.expect Schedule.amountOf; rw [duties_rx, Finset.sum_singleton, amount_rx]
omit [FloatOps F] in
theorem expect_sy (c : Dev nD) (k : Fin 64) : (a2aRd (F := F) m).expect (syCell c k) 0 = N128 := by
  unfold Schedule.expect Schedule.amountOf; rw [duties_sy, Finset.sum_singleton, amount_sy]
omit [FloatOps F] in
theorem expect_ry (c : Dev nD) (k : Fin 64) : (a2aRd (F := F) m).expect (ryCell c k) 0 = N128 := by
  unfold Schedule.expect Schedule.amountOf; rw [duties_ry, Finset.sum_singleton, amount_ry]

/-! ## The payloads of the whole of round 0 of an exchange cell: its one duty's -/

omit [FloatOps F] in
theorem rest_sx (c : Dev nD) (k : Fin 64) :
    bigSep ((a2aRd (F := F) m).duties (sxCell c k) 0 \ ∅) (fun d => (a2aRd (F := F) m).payload (sxCell c k) 0 d) = sxPay m c k := by
  rw [Finset.sdiff_empty, duties_sx, bigSep_singleton, payload_sx]
omit [FloatOps F] in
theorem rest_rx (c : Dev nD) (k : Fin 64) :
    bigSep ((a2aRd (F := F) m).duties (rxCell c k) 0 \ ∅) (fun d => (a2aRd (F := F) m).payload (rxCell c k) 0 d) = rxPay m c k := by
  rw [Finset.sdiff_empty, duties_rx, bigSep_singleton, payload_rx]
omit [FloatOps F] in
theorem rest_sy (c : Dev nD) (k : Fin 64) :
    bigSep ((a2aRd (F := F) m).duties (syCell c k) 0 \ ∅) (fun d => (a2aRd (F := F) m).payload (syCell c k) 0 d) = syPay m c k := by
  rw [Finset.sdiff_empty, duties_sy, bigSep_singleton, payload_sy]
omit [FloatOps F] in
theorem rest_ry (c : Dev nD) (k : Fin 64) :
    bigSep ((a2aRd (F := F) m).duties (ryCell c k) 0 \ ∅) (fun d => (a2aRd (F := F) m).payload (ryCell c k) 0 d) = ryPay m c k := by
  rw [Finset.sdiff_empty, duties_ry, bigSep_singleton, payload_ry]

/-! ## A cell's invariant and its reached round 0, out of the records -/

omit [FloatOps F] in
theorem inv_at (K : Dev nD × Fin 261 → ℕ) (ck : Dev nD × Fin 261) :
    records m K ⊢ cellInv ER (a2aRd m) (K ck) (kcell ck) := by
  unfold records
  have h : (bigSep Finset.univ fun ck : Dev nD × Fin 261 => iprop(cellInv ER (a2aRd m) (K ck) (kcell ck) ∗ reached ER (kcell ck) 0) : sProp 𝕄)
      ⊢ iprop(cellInv ER (a2aRd m) (K ck) (kcell ck) ∗ reached ER (kcell ck) 0) := bigSep_elim (Finset.mem_univ ck)
  exact h.trans sep_elim_left
omit [FloatOps F] in
theorem reached_at (K : Dev nD × Fin 261 → ℕ) (ck : Dev nD × Fin 261) :
    records m K ⊢ reached ER (kcell ck) 0 := by
  unfold records
  have h : (bigSep Finset.univ fun ck : Dev nD × Fin 261 => iprop(cellInv ER (a2aRd m) (K ck) (kcell ck) ∗ reached ER (kcell ck) 0) : sProp 𝕄)
      ⊢ iprop(cellInv ER (a2aRd m) (K ck) (kcell ck) ∗ reached ER (kcell ck) 0) := bigSep_elim (Finset.mem_univ ck)
  exact h.trans sep_elim_right

omit [FloatOps F] in
/-- The same at a DMA semaphore's cell, spelt as the rules spell it. -/
theorem inv_dma (K : Dev nD × Fin 261 → ℕ) (c : Dev nD) (q : DmaSem sig) :
    records m K ⊢ cellInv ER (a2aRd m) (K (c, ixDma q)) ((c : Thread nD τ), .dma q) := by
  have h := inv_at m K (c, ixDma q); rwa [kcell_dma] at h
omit [FloatOps F] in
theorem reached_dma (K : Dev nD × Fin 261 → ℕ) (c : Dev nD) (q : DmaSem sig) :
    records m K ⊢ reached ER ((c : Thread nD τ), .dma q) 0 := by
  have h := reached_at m K (c, ixDma q); rwa [kcell_dma] at h
omit [FloatOps F] in
/-- At the barrier's cell. -/
theorem inv_bar (K : Dev nD × Fin 261 → ℕ) (c : Dev nD) :
    records m K ⊢ cellInv ER (a2aRd m) (K (c, (0 : Fin 261))) (barCell c) := inv_at m K (c, 0)
omit [FloatOps F] in
theorem reached_bar (K : Dev nD × Fin 261 → ℕ) (c : Dev nD) :
    records m K ⊢ reached ER (barCell c) 0 := reached_at m K (c, 0)

end Cert.KernelIdeal.A2A

end
-- ==== Proof.KernelIdeal.Groups.lean ====
import proofs.«900013_g7700000000000014_dist_a2a_v7x_xy2x2_x_m16384_n1024_f32_1_alg».proof.Proof.KernelIdeal.State

/-!
  The groups of resources a device's body holds, at the ends of their ranges.

  Each group is a separating conjunction over a range of chunks (or of local pieces). Before any chunk is done the
  groups "done" and "in flight" range over no chunk, and after the last chunk the groups "still to do" range over none:
  there they are the empty resource. With all eight local pieces done, the two groups of finished pieces are the
  eight pieces one after the other.
-/

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Nothing in flight, nothing done: before the first chunk -/

omit [FloatOps F] in
theorem GXcred_self (a : ℕ) : (GXcred c a a : sProp 𝕄) = iprop(emp) := by unfold GXcred; rw [mid_self, bigSep_empty]; rfl
omit [FloatOps F] in
theorem GYcred_self (a : ℕ) : (GYcred c a a : sProp 𝕄) = iprop(emp) := by unfold GYcred; rw [mid_self, bigSep_empty]; rfl
omit [FloatOps F] in
theorem GXdone_zero : GXdone m c 0 = iprop(emp) := by unfold GXdone; rw [pre_zero, bigSep_empty]; rfl
omit [FloatOps F] in
theorem GYdone_zero : GYdone m c 0 = iprop(emp) := by unfold GYdone; rw [pre_zero, bigSep_empty]; rfl
omit [FloatOps F] in
theorem GRXdone_zero : (GRXdone c 0 : sProp 𝕄) = iprop(emp) := by unfold GRXdone; rw [pre_zero, bigSep_empty]; rfl
omit [FloatOps F] in
theorem GRYdone_zero : GRYdone m c 0 = iprop(emp) := by unfold GRYdone; rw [pre_zero, bigSep_empty]; rfl

/-! ## Nothing left to do: after the last chunk -/

omit [FloatOps F] in
theorem GXtok_top : GXtok m c 64 = iprop(emp) := by unfold GXtok; rw [seg_top, bigSep_empty]; rfl
omit [FloatOps F] in
theorem GXdst_top : (GXdst c 64 : sProp 𝕄) = iprop(emp) := by unfold GXdst; rw [seg_top, bigSep_empty]; rfl
omit [FloatOps F] in
theorem GXpos_top : (GXpos c 64 : sProp 𝕄) = iprop(emp) := by unfold GXpos; rw [seg_top, bigSep_empty]; rfl
omit [FloatOps F] in
theorem GYtok_top : (GYtok c 64 : sProp 𝕄) = iprop(emp) := by unfold GYtok; rw [seg_top, bigSep_empty]; rfl
omit [FloatOps F] in
theorem GYdst_top : (GYdst c 64 : sProp 𝕄) = iprop(emp) := by unfold GYdst; rw [seg_top, bigSep_empty]; rfl
omit [FloatOps F] in
theorem GYpos_top : (GYpos c 64 : sProp 𝕄) = iprop(emp) := by unfold GYpos; rw [seg_top, bigSep_empty]; rfl
omit [FloatOps F] in
theorem GRXwait_top : (GRXwait c 64 : sProp 𝕄) = iprop(emp) := by unfold GRXwait; rw [seg_top, bigSep_empty]; rfl
omit [FloatOps F] in
theorem GRYwait_top : (GRYwait c 64 : sProp 𝕄) = iprop(emp) := by unfold GRYwait; rw [seg_top, bigSep_empty]; rfl

/-! ## All eight local pieces done: the pieces one by one -/

omit [FloatOps F] in
/-- The eight source pieces of the argument array, each back at its launch contents. -/
theorem GLsrc_eight : GLsrc m c 8
    = iprop(pts c (lSrc (lOff c 0) (lOff_inb c 0)) (inA m c)
      ∗ pts c (lSrc (lOff c 1) (lOff_inb c 1)) (inA m c)
      ∗ pts c (lSrc (lOff c 2) (lOff_inb c 2)) (inA m c)
      ∗ pts c (lSrc (lOff c 3) (lOff_inb c 3)) (inA m c)
      ∗ pts c (lSrc (lOff c 4) (lOff_inb c 4)) (inA m c)
      ∗ pts c (lSrc (lOff c 5) (lOff_inb c 5)) (inA m c)
      ∗ pts c (lSrc (lOff c 6) (lOff_inb c 6)) (inA m c)
      ∗ pts c (lSrc (lOff c 7) (lOff_inb c 7)) (inA m c)) := by
  unfold GLsrc
  exact bigSep_eq_bigSepL_of_eq [0, 1, 2, 3, 4, 5, 6, 7] (by decide) (by decide) _

omit [FloatOps F] in
/-- The eight pieces of the result array the local copies write, each at its final contents. -/
theorem GLout_eight : GLout m c 8
    = iprop(pts c (lDst c 0) (outFinal m c)
      ∗ pts c (lDst c 1) (outFinal m c)
      ∗ pts c (lDst c 2) (outFinal m c)
      ∗ pts c (lDst c 3) (outFinal m c)
      ∗ pts c (lDst c 4) (outFinal m c)
      ∗ pts c (lDst c 5) (outFinal m c)
      ∗ pts c (lDst c 6) (outFinal m c)
      ∗ pts c (lDst c 7) (outFinal m c)) := by
  unfold GLout
  exact bigSep_eq_bigSepL_of_eq [0, 1, 2, 3, 4, 5, 6, 7] (by decide) (by decide) _

end Cert.KernelIdeal.A2A

end

/-- info: 'Cert.KernelIdeal.A2A.GLsrc_eight' depends on axioms: [propext, Classical.choice, Quot.sound] -/
#guard_msgs in #print axioms Cert.KernelIdeal.A2A.GLsrc_eight
/-- info: 'Cert.KernelIdeal.A2A.GLout_eight' depends on axioms: [propext, Classical.choice, Quot.sound] -/
#guard_msgs in #print axioms Cert.KernelIdeal.A2A.GLout_eight
/-- info: 'Cert.KernelIdeal.A2A.GXtok_top' depends on axioms: [propext, Classical.choice, Quot.sound] -/
#guard_msgs in #print axioms Cert.KernelIdeal.A2A.GXtok_top
-- ==== Proof.KernelIdeal.StanzaA.lean ====
import proofs.«900013_g7700000000000014_dist_a2a_v7x_xy2x2_x_m16384_n1024_f32_1_alg».proof.Proof.KernelIdeal.Common

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Peeling chunk `k` off the row exchange's groups -/

omit [FloatOps F] in
theorem A_GXtok_peel (m : (ℓ : Loc nD τ sig) → Buf (Elt F) ℓ) (c : Dev nD) (k : Fin 64) :
    GXtok m c k.val = iprop((dutyTok ER (sxCell c k) 0 false ∗ dutyTok ER (rxCell (xn c) k) 0 false ∗ pts c (xSrc c k) (inA m c)) ∗ GXtok m c (k.val + 1)) := by
  unfold GXtok; conv_lhs => rw [seg_eq_insert k, bigSep_insert (not_mem_seg_succ k)]
  rfl
omit [FloatOps F] in
theorem A_GXdst_peel (c : Dev nD) (k : Fin 64) :
    (GXdst c k.val : sProp 𝕄) = iprop((∃ f, pts (xn c) (xDst c k) f) ∗ GXdst c (k.val + 1)) := by
  unfold GXdst; conv_lhs => rw [seg_eq_insert k, bigSep_insert (not_mem_seg_succ k)]
  rfl
omit [FloatOps F] in
theorem A_GXcred_push (c : Dev nD) (k : Fin 64) :
    (GXcred c 0 (k.val + 1) : sProp 𝕄) = iprop(cred (tallyAt (sxCell c k) () N128) ∗ GXcred c 0 k.val) := by
  unfold GXcred; conv_lhs => rw [mid_succ_eq_insert 0 k (Nat.zero_le _), bigSep_insert (not_mem_mid 0 k)]
  rfl

/-! ## The row exchange's send of chunk `k` -/

theorem wp_xsend (m : (ℓ : Loc nD τ sig) → Buf (Elt F) ℓ) (K : Dev nD × Fin 261 → ℕ) (c n : Dev nD) (hn : n = xn c) (k : Fin 64) (b : ℕ)
    {hsc : (xDst c k : Memref sig (Dev.tc n : Thread nD τ).2.kind .hbm S128x1024 .f32).view.ref.isScScratch = false}
    {hsrc : (xSrc c k).view.WordExact} {hdst : (xDst c k).view.WordExact}
    {hsem : DmaTarget.Typed .hbm (.dma (rxS k).sem) (.remote (Dev.tc n : Thread nD τ) (xDst c k) (.dma (sxS k).sem) hsc)}
    {α : Type} {Q : α → sProp 𝕄} {kont : PUnit → Prog (TpuEff nD τ sig (Elt F) Λ₀ .tc) α}
    (W : Waits sig Unit)
    (hval : ∀ (fd : Buf (Elt F) ((xDst c k).view.loc (xn c : Thread nD τ))), ∀ i ∈ (xDst c k).view.set,
      (xDst c k).view.write (Elt F) fd ((xSrc c k).view.read (Elt F) (inA m c)) Finset.univ i = outFinal m (xn c) i) :
    iprop(records m K ∗ GXtok m c k.val ∗ GXdst c k.val ∗ GXcred c 0 k.val ∗ owes (c : Thread nD τ) (OX c k.val + OY c b) W)
      ⊢ iprop((iprop(GXtok m c (k.val + 1) ∗ GXdst c (k.val + 1) ∗ GXcred c 0 (k.val + 1) ∗ owes (c : Thread nD τ) (OX c (k.val + 1) + OY c b) W)
            -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.enqueueDma (xSrc c k) (DmaTarget.remote (Dev.tc n) (xDst c k) (SemLoc.dma (sxS k).sem) hsc) (SemLoc.dma (rxS k).sem) hsrc hdst hsem) kont) Q) := by
  subst hn
  rw [A_GXtok_peel, A_GXdst_peel, A_GXcred_push]
  iintro ⟨#Hrec, ⟨⟨HtS, HtR, Hsrc⟩, Htok⟩, ⟨⟨%fd, Hdst⟩, Hdsts⟩, Hcred, HO⟩ Hk
  ihave #HIs := (inv_dma m K c (sxS k).sem) $$ Hrec
  ihave #HIr := (inv_dma m K (xn c) (rxS k).sem) $$ Hrec
  ihave #HRs := (reached_dma m K c (sxS k).sem) $$ Hrec
  ihave #HRr := (reached_dma m K (xn c) (rxS k).sem) $$ Hrec
  iapply (Rounds.wp_send_pointsTo Variants.none ER (a2aRd m) (c : Thread nD τ) none (c' := (xn c : Thread nD τ))
      (src := xSrc c k) (dst := xDst c k) (q := fullShare) (fs := inA m c) (fd := fd)
      (κ₁ := K (c, ixDma (sxS k).sem)) (κ₂ := K (xn c, ixDma (rxS k).sem))
      (r₁ := 0) (r₂ := 0) (d₁ := false) (d₂ := false)
      (by rw [duties_sx]; exact Finset.mem_singleton_self _) (by rw [duties_rx]; exact Finset.mem_singleton_self _)
      () () N128 rfl (amount_sx m c k false) (amount_rx m (xn c) k false)
      (O₀ := OX c k.val + OY c b) (OX c (k.val + 1) + OY c b) (by rw [OX_peel c k, add_right_comm]) (W := W)
      (by rw [payload_sx]; exact BI.Entails.refl _)
      (by rw [payload_rx]; unfold rxPay pts; rw [xn_xn]; exact Entails.of_eq (pointsTo_congr (hval fd))))
    $$ [HtS HtR Hsrc Hdst HO]
  · isplitr; · iexact HIs
    isplitr; · iexact HIr
    isplitl [Hsrc]; · iexact Hsrc
    isplitl [Hdst]; · iexact Hdst
    isplitl [HO]; · iexact HO
    isplitl [HtS]; · iexact HtS
    isplitr; · iexact HRs
    isplitl [HtR]; · iexact HtR
    iexact HRr
  iintro ⟨Hc, HO⟩
  iapply Hk
  isplitl [Htok]; · iexact Htok
  isplitl [Hdsts]; · iexact Hdsts
  isplitl [Hc Hcred]
  · isplitl [Hc]; · iexact Hc
    iexact Hcred
  iexact HO

/-! ## The entry handshake on the barrier cell -/

omit [FloatOps F] in
theorem A_payload_bar_false (m : (ℓ : Loc nD τ sig) → Buf (Elt F) ℓ) (c : Dev nD) :
    (a2aRd (F := F) m).payload (barCell c) 0 false = barPayX c := by rw [payload_bar]; rfl
omit [FloatOps F] in
theorem A_payload_bar_true (m : (ℓ : Loc nD τ sig) → Buf (Elt F) ℓ) (c : Dev nD) :
    (a2aRd (F := F) m).payload (barCell c) 0 true = barPayY c := by rw [payload_bar]; rfl
omit [FloatOps F] in
theorem A_expect_bar (m : (ℓ : Loc nD τ sig) → Buf (Elt F) ℓ) (c : Dev nD) : (a2aRd (F := F) m).expect (barCell c) 0 = 2 := by
  unfold Schedule.expect Schedule.amountOf
  rw [duties_bar, Finset.sum_congr rfl (fun d _ => amount_bar m c d)]
  rfl
omit [FloatOps F] in
theorem A_rest_bar (m : (ℓ : Loc nD τ sig) → Buf (Elt F) ℓ) (c : Dev nD) :
    bigSep ((a2aRd (F := F) m).duties (barCell c) 0 \ ∅) (fun d => (a2aRd (F := F) m).payload (barCell c) 0 d)
      = iprop(barPayX c ∗ barPayY c) := by
  rw [duties_bar, Finset.sdiff_empty, show (Finset.univ : Finset Bool) = insert false {true} from by decide,
    bigSep_insert (by decide), bigSep_singleton, A_payload_bar_false, A_payload_bar_true]
  rfl
omit [FloatOps F] in
theorem A_GXdst_zero (c : Dev nD) : (GXdst c 0 : sProp 𝕄) = barPayX c := by unfold GXdst barPayX; rw [seg_zero]
omit [FloatOps F] in
theorem A_GYdst_zero (c : Dev nD) : (GYdst c 0 : sProp 𝕄) = barPayY c := by unfold GYdst barPayY; rw [seg_zero]

/-- The first entry signal, to the `x`-neighbour's barrier cell: its duty `false`, handing over the 64 chunks of this
    device's result array that the neighbour's row exchange writes. -/
theorem wp_sig_x (m : (ℓ : Loc nD τ sig) → Buf (Elt F) ℓ) (K : Dev nD × Fin 261 → ℕ) (c n : Dev nD) (hn : n = xn c)
    {α : Type} {Q : α → sProp 𝕄} {kont : PUnit → Prog (TpuEff nD τ sig (Elt F) Λ₀ .tc) α} (W : Waits sig Unit) :
    iprop(records m K ∗ dutyTok ER (barCell (xn c)) 0 false ∗ barPayX (xn c) ∗ owes (c : Thread nD τ) (O₀ c) W)
      ⊢ iprop((owes (c : Thread nD τ) (O₁ c) W -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.semSignal ((n, Proc.tc) : Thread nD τ) barS (1#32).toNat) kont) Q) := by
  subst hn
  iintro ⟨#Hrec, Htok, Hpay, HO⟩ Hk
  ihave #HI := (inv_bar m K (xn c)) $$ Hrec
  ihave #HR := (reached_bar m K (xn c)) $$ Hrec
  iapply (Rounds.wp_signal Variants.none ER (a2aRd m) (c : Thread nD τ) none (dst := (xn c : Thread nD τ)) (sem := barS)
      (κ := K (xn c, 0)) (r := 0) (d := false) (k' := (1#32).toNat)
      (by rw [duties_bar]; exact Finset.mem_univ _) ((amount_bar m (xn c) false).trans (by decide)) ()
      (O₀ := O₀ c) (O₁ c) rfl (W := W))
    $$ [HO Htok Hpay]
  · isplitr; · iexact HI
    isplitl [HO]; · iexact HO
    isplitl [Htok]; · iexact Htok
    isplitl [Hpay]; · rw [A_payload_bar_false]; iexact Hpay
    iexact HR
  iexact Hk

/-- The second entry signal, to the `y`-neighbour's barrier cell: its duty `true`, handing over the 64 chunks of this
    device's result array that the neighbour's column exchange writes. -/
theorem wp_sig_y (m : (ℓ : Loc nD τ sig) → Buf (Elt F) ℓ) (K : Dev nD × Fin 261 → ℕ) (c n : Dev nD) (hn : n = yn c)
    {α : Type} {Q : α → sProp 𝕄} {kont : PUnit → Prog (TpuEff nD τ sig (Elt F) Λ₀ .tc) α} (W : Waits sig Unit) :
    iprop(records m K ∗ dutyTok ER (barCell (yn c)) 0 true ∗ barPayY (yn c) ∗ owes (c : Thread nD τ) (O₁ c) W)
      ⊢ iprop((owes (c : Thread nD τ) (OX c 0 + OY c 0) W -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.semSignal ((n, Proc.tc) : Thread nD τ) barS (1#32).toNat) kont) Q) := by
  subst hn
  iintro ⟨#Hrec, Htok, Hpay, HO⟩ Hk
  ihave #HI := (inv_bar m K (yn c)) $$ Hrec
  ihave #HR := (reached_bar m K (yn c)) $$ Hrec
  iapply (Rounds.wp_signal Variants.none ER (a2aRd m) (c : Thread nD τ) none (dst := (yn c : Thread nD τ)) (sem := barS)
      (κ := K (yn c, 0)) (r := 0) (d := true) (k' := (1#32).toNat)
      (by rw [duties_bar]; exact Finset.mem_univ _) ((amount_bar m (yn c) true).trans (by decide)) ()
      (O₀ := O₁ c) (OX c 0 + OY c 0) rfl (W := W))
    $$ [HO Htok Hpay]
  · isplitr; · iexact HI
    isplitl [HO]; · iexact HO
    isplitl [Htok]; · iexact Htok
    isplitl [Hpay]; · rw [A_payload_bar_true]; iexact Hpay
    iexact HR
  iexact Hk

/-- The wait for both neighbours' entry signals: the chunks of their result arrays that this device's two exchanges
    write come with it. -/
theorem wp_bar_wait (m : (ℓ : Loc nD τ sig) → Buf (Elt F) ℓ) (K : Dev nD × Fin 261 → ℕ) (c : Dev nD)
    {α : Type} {Q : α → sProp 𝕄} {kont : PUnit → Prog (TpuEff nD τ sig (Elt F) Λ₀ .tc) α} (W : Waits sig Unit)
    (hmw : (levAts L lv : sProp 𝕄) ⊢ MayWait (c : Thread nD τ) (.reg barS) () (OX c 0 + OY c 0)) :
    iprop(records m K ∗ levAts L lv ∗ atPos ER (barCell c) 0 ∅ 0 ∗ cred (tallyAt (barCell c) () 2)
        ∗ owes (c : Thread nD τ) (OX c 0 + OY c 0) W)
      ⊢ iprop((iprop(GXdst c 0 ∗ GYdst c 0 ∗ ∃ W', owes (c : Thread nD τ) (OX c 0 + OY c 0) W')
            -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.semWait barS (2#32).toNat) kont) Q) := by
  iintro ⟨#Hrec, #Hlev, Hat, Hc, HO⟩ Hk
  ihave #HI := (inv_bar m K c) $$ Hrec
  iapply (Rounds.wp_wait_rest_token Variants.none ER (a2aRd m) (c : Thread nD τ) none (κ := K (c, 0)) (sm := .reg barS) (k' := (2#32).toNat)
      (wpE_semWait_eq Variants.none (c : Thread nD τ) none Set.univ) (Set.mem_univ _) () (O := OX c 0 + OY c 0) (W := W)
      (R := 0) (m := 0) (T := ∅) (by rw [A_expect_bar]; decide)) $$ [Hc HO Hat]
  · isplitr; · iexact HI
    isplitl [Hc]; · iexact Hc
    isplitl [HO]; · iexact HO
    isplitr; · iapply hmw; iexact Hlev
    iexact Hat
  iintro ⟨HO, -, -, Hpay⟩
  ihave Hp := (Entails.of_eq (A_rest_bar m c)) $$ Hpay
  icases Hp with ⟨HX, HY⟩
  iapply Hk
  isplitl [HX]; · rw [A_GXdst_zero]; iexact HX
  isplitl [HY]; · rw [A_GYdst_zero]; iexact HY
  iexists (insert (SemLoc.reg barS, ()) W)
  iexact HO

/-- info: 'Cert.KernelIdeal.A2A.wp_xsend' depends on axioms: [propext, Classical.choice, Quot.sound] -/
#guard_msgs in #print axioms wp_xsend

/-- info: 'Cert.KernelIdeal.A2A.wp_sig_x' depends on axioms: [propext, Classical.choice, Quot.sound] -/
#guard_msgs in #print axioms wp_sig_x

/-- info: 'Cert.KernelIdeal.A2A.wp_sig_y' depends on axioms: [propext, Classical.choice, Quot.sound] -/
#guard_msgs in #print axioms wp_sig_y

/-- info: 'Cert.KernelIdeal.A2A.wp_bar_wait' depends on axioms: [propext, Classical.choice, Quot.sound] -/
#guard_msgs in #print axioms wp_bar_wait

end Cert.KernelIdeal.A2A

end
-- ==== Proof.KernelIdeal.StanzaB.lean ====
import proofs.«900013_g7700000000000014_dist_a2a_v7x_xy2x2_x_m16384_n1024_f32_1_alg».proof.Proof.KernelIdeal.Common

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## One chunk out of a group, one chunk into a group -/

omit [FloatOps F] in
private theorem GRXwait_peel (c : Dev nD) (k : Fin 64) :
    (GRXwait c k.val : sProp 𝕄) = iprop((atPos ER (rxCell c k) 0 ∅ 0 ∗ cred (tallyAt (rxCell c k) () N128)) ∗ GRXwait c (k.val + 1)) := by
  unfold GRXwait; rw [seg_eq_insert k, bigSep_insert (not_mem_seg_succ k)]; rfl
omit [FloatOps F] in
private theorem GRXdone_push (c : Dev nD) (k : Fin 64) :
    (GRXdone c (k.val + 1) : sProp 𝕄) = iprop(semVal (rxCell c k) 0 ∗ GRXdone c k.val) := by
  unfold GRXdone; rw [pre_succ_eq_insert k, bigSep_insert (not_mem_pre k)]; rfl
omit [FloatOps F] in
private theorem GYtok_peel (c : Dev nD) (k : Fin 64) :
    (GYtok c k.val : sProp 𝕄) = iprop((dutyTok ER (syCell c k) 0 false ∗ dutyTok ER (ryCell (yn c) k) 0 false) ∗ GYtok c (k.val + 1)) := by
  unfold GYtok; rw [seg_eq_insert k, bigSep_insert (not_mem_seg_succ k)]; rfl
private theorem GYdst_peel (c : Dev nD) (k : Fin 64) :
    (GYdst c k.val : sProp 𝕄) = iprop((∃ f, pts (yn c) (yBuf c k) f) ∗ GYdst c (k.val + 1)) := by
  unfold GYdst; rw [seg_eq_insert k, bigSep_insert (not_mem_seg_succ k)]; rfl
omit [FloatOps F] in
private theorem GYcred_push (c : Dev nD) (k : Fin 64) :
    (GYcred c 0 (k.val + 1) : sProp 𝕄) = iprop(cred (tallyAt (syCell c k) () N128) ∗ GYcred c 0 k.val) := by
  unfold GYcred; rw [mid_succ_eq_insert 0 k (Nat.zero_le _), bigSep_insert (not_mem_mid 0 k)]; rfl

/-! ## The receive wait of the row exchange, chunk `k`: the landed chunk comes, the cell closes -/

theorem wp_rxwait (K : Dev nD × Fin 261 → ℕ) (c : Dev nD) (k : Fin 64)
    {h1 : (xSrc c k).view.WordExact} {h2 : (xDst c k).view.WordExact}
    {α : Type} {Q : α → sProp 𝕄} {kont : PUnit → Prog (TpuEff nD τ sig (Elt F) Λ₀ .tc) α}
    (W : Waits sig Unit)
    (hmw : (levAts L lv : sProp 𝕄) ⊢ MayWait (c : Thread nD τ) (.dma (rxS k).sem) () (OX c 64 + OY c k.val)) :
    iprop(records m K ∗ levAts L lv ∗ GRXwait c k.val ∗ GRXdone c k.val ∗ owes (c : Thread nD τ) (OX c 64 + OY c k.val) W)
      ⊢ iprop((iprop(GRXwait c (k.val + 1) ∗ GRXdone c (k.val + 1) ∗ rxPay m c k ∗ ∃ W', owes (c : Thread nD τ) (OX c 64 + OY c k.val) W')
            -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.waitDma2 (rxS k).sem (xSrc c k) (xDst c k) h1 h2) kont) Q) := by
  rw [GRXwait_peel c k, GRXdone_push c k]
  iintro ⟨#Hrec, #Hlev, ⟨⟨Hat, Hc⟩, Hw⟩, Hd, HO⟩ Hk
  -- the wait for the whole of round 0: one chunk's credit
  iapply (Rounds.wp_wait_rest_token Variants.none ER (a2aRd m) (c : Thread nD τ) none (κ := K (c, ixDma (rxS k).sem))
      (w := .waitDma2 (rxS k).sem (xSrc c k) (xDst c k) h1 h2)
      (wpE_waitDma2_eq Variants.none (c : Thread nD τ) none Set.univ) (Set.mem_univ _) () (O := OX c 64 + OY c k.val) (W := W) (R := 0) (m := 0) (T := ∅)
      (by rw [Nat.zero_add, expect_rx])) $$ [Hc HO Hat]
  · isplitr; · iapply (inv_dma m K c (rxS k).sem); iexact Hrec
    isplitl [Hc]; · iexact Hc
    isplitl [HO]; · iexact HO
    isplitr; · iapply hmw; iexact Hlev
    iexact Hat
  iintro ⟨HO, Hat, -, Hpay⟩
  ihave Hp := (Entails.of_eq (rest_rx m c k)) $$ Hpay
  -- no later round has a duty: the cell closes, its counter at zero
  imod (Rounds.cell_close ER (a2aRd m) (Set.mem_univ (K (c, ixDma (rxS k).sem))) (fun h => h) (R := 0 + 1) (duties_later_rx m c k)) $$ [Hat] with Hz
  · isplitr; · iapply (inv_dma m K c (rxS k).sem); iexact Hrec
    iexact Hat
  iapply Hk
  isplitl [Hw]; · iexact Hw
  isplitl [Hz Hd]
  · isplitl [Hz]; · iexact Hz
    iexact Hd
  isplitl [Hp]; · iexact Hp
  iexists (insert (SemLoc.dma (rxS k).sem, ()) W)
  iexact HO

/-! ## The send of the column exchange, chunk `k` -/

omit [FloatOps F] in
/-- The chunk that landed from the row exchange is the column exchange's source chunk. -/
theorem rxPay_eq_syPay (c : Dev nD) (k : Fin 64) (hset : (yBuf c k).view.set = (xDst (xn c) k).view.set) :
    rxPay m c k = syPay m c k := by
  unfold rxPay syPay pts; rw [hset]

theorem wp_ysend (K : Dev nD × Fin 261 → ℕ) (c n : Dev nD) (hn : n = yn c) (k : Fin 64)
    {hsc : (yBuf c k : Memref sig (Dev.tc n : Thread nD τ).2.kind .hbm S128x1024 .f32).view.ref.isScScratch = false}
    {hsrc : (yBuf c k).view.WordExact} {hdst : (yBuf c k).view.WordExact}
    {hsem : DmaTarget.Typed .hbm (.dma (ryS k).sem) (.remote (Dev.tc n : Thread nD τ) (yBuf c k) (.dma (syS k).sem) hsc)}
    {α : Type} {Q : α → sProp 𝕄} {kont : PUnit → Prog (TpuEff nD τ sig (Elt F) Λ₀ .tc) α}
    (W : Waits sig Unit)
    (hset : (yBuf c k).view.set = (xDst (xn c) k).view.set)
    (hval : ∀ fd : Buf (Elt F) ((yBuf c k).view.loc (yn c : Thread nD τ)), ∀ i ∈ (yBuf c k).view.set,
      (yBuf c k).view.write (Elt F) fd ((yBuf c k).view.read (Elt F) (outFinal m c)) Finset.univ i = outFinal m (yn c) i) :
    iprop(records m K ∗ GYtok c k.val ∗ GYdst c k.val ∗ GYcred c 0 k.val ∗ rxPay m c k ∗ owes (c : Thread nD τ) (OX c 64 + OY c k.val) W)
      ⊢ iprop((iprop(GYtok c (k.val + 1) ∗ GYdst c (k.val + 1) ∗ GYcred c 0 (k.val + 1) ∗ owes (c : Thread nD τ) (OX c 64 + OY c (k.val + 1)) W)
            -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.enqueueDma (yBuf c k) (DmaTarget.remote (Dev.tc n) (yBuf c k) (SemLoc.dma (syS k).sem) hsc) (SemLoc.dma (ryS k).sem) hsrc hdst hsem) kont) Q) := by
  subst hn
  rw [rxPay_eq_syPay m c k hset]
  rw [GYtok_peel c k, GYdst_peel c k, GYcred_push c k, OY_peel c k]
  iintro ⟨#Hrec, ⟨⟨Hts, Htr⟩, Htok⟩, ⟨⟨%fd, Hdst⟩, Hdsts⟩, Hcred, Hsrc, HO⟩ Hk
  unfold syPay
  iapply (Rounds.wp_send_pointsTo Variants.none ER (a2aRd m) (c : Thread nD τ) none
      (c' := (yn c : Thread nD τ)) (src := yBuf c k) (dst := yBuf c k) (sS := .dma (syS k).sem) (sem := .dma (ryS k).sem)
      (q := fullShare) (fs := outFinal m c) (fd := fd)
      (κ₁ := K (c, ixDma (syS k).sem)) (κ₂ := K (yn c, ixDma (ryS k).sem))
      (r₁ := 0) (r₂ := 0) (d₁ := false) (d₂ := false)
      (by rw [duties_sy]; exact Finset.mem_singleton_self _) (by rw [duties_ry]; exact Finset.mem_singleton_self _)
      () () N128 rfl (amount_sy m c k false) (amount_ry m (yn c) k false)
      (OX c 64 + OY c (k.val + 1)) (add_assoc _ _ _).symm (W := W)
      (by rw [payload_sy]; exact BI.Entails.refl _)
      (by rw [payload_ry]; unfold ryPay pts; rw [yn_yn]; exact Entails.of_eq (pointsTo_congr (hval fd))))
    $$ [Hsrc Hdst HO Hts Htr]
  · isplitr; · iapply (inv_dma m K c (syS k).sem); iexact Hrec
    isplitr; · iapply (inv_dma m K (yn c) (ryS k).sem); iexact Hrec
    isplitl [Hsrc]; · iexact Hsrc
    isplitl [Hdst]; · iexact Hdst
    isplitl [HO]; · iexact HO
    isplitl [Hts]; · iexact Hts
    isplitr; · iapply (reached_dma m K c (syS k).sem); iexact Hrec
    isplitl [Htr]; · iexact Htr
    iapply (reached_dma m K (yn c) (ryS k).sem); iexact Hrec
  iintro ⟨Hc, HO⟩
  iapply Hk
  isplitl [Htok]; · iexact Htok
  isplitl [Hdsts]; · iexact Hdsts
  isplitl [Hc Hcred]
  · isplitl [Hc]; · iexact Hc
    iexact Hcred
  iexact HO

/-- info: 'Cert.KernelIdeal.A2A.wp_rxwait' depends on axioms: [propext, Classical.choice, Quot.sound] -/
#guard_msgs in #print axioms wp_rxwait

/-- info: 'Cert.KernelIdeal.A2A.wp_ysend' depends on axioms: [propext, Classical.choice, Quot.sound] -/
#guard_msgs in #print axioms wp_ysend

end Cert.KernelIdeal.A2A

end
-- ==== Proof.KernelIdeal.StanzaC.lean ====
import proofs.«900013_g7700000000000014_dist_a2a_v7x_xy2x2_x_m16384_n1024_f32_1_alg».proof.Proof.KernelIdeal.State

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule at the exchange's send and receive cells: one round, one duty, a chunk's credit -/

omit [FloatOps F] in
theorem C_duties_later_sx (c : Dev nD) (k : Fin 64) (r : ℕ) (hr : 0 + 1 ≤ r) : (a2aRd (F := F) m).duties (sxCell c k) r = ∅ := by
  have h0 : r ≠ 0 := by omega
  simp only [a2aRd, classify_sx, if_true, if_neg h0]
omit [FloatOps F] in
theorem C_duties_later_sy (c : Dev nD) (k : Fin 64) (r : ℕ) (hr : 0 + 1 ≤ r) : (a2aRd (F := F) m).duties (syCell c k) r = ∅ := by
  have h0 : r ≠ 0 := by omega
  simp only [a2aRd, classify_sy, if_true, if_neg h0]
omit [FloatOps F] in
theorem C_duties_later_ry (c : Dev nD) (k : Fin 64) (r : ℕ) (hr : 0 + 1 ≤ r) : (a2aRd (F := F) m).duties (ryCell c k) r = ∅ := by
  have h0 : r ≠ 0 := by omega
  simp only [a2aRd, classify_ry, if_true, if_neg h0]

omit [FloatOps F] in
theorem C_expect_sx (c : Dev nD) (k : Fin 64) : (a2aRd (F := F) m).expect (sxCell c k) 0 = N128 := by
  unfold Schedule.expect Schedule.amountOf
  rw [duties_sx, Finset.sum_singleton, amount_sx]
omit [FloatOps F] in
theorem C_expect_sy (c : Dev nD) (k : Fin 64) : (a2aRd (F := F) m).expect (syCell c k) 0 = N128 := by
  unfold Schedule.expect Schedule.amountOf
  rw [duties_sy, Finset.sum_singleton, amount_sy]
omit [FloatOps F] in
theorem C_expect_ry (c : Dev nD) (k : Fin 64) : (a2aRd (F := F) m).expect (ryCell c k) 0 = N128 := by
  unfold Schedule.expect Schedule.amountOf
  rw [duties_ry, Finset.sum_singleton, amount_ry]

/-- The one payload of round 0 of a send or receive cell. -/
theorem C_rest_sx (c : Dev nD) (k : Fin 64) :
    bigSep ((a2aRd m).duties (sxCell c k) 0 \ ∅) (fun d => (a2aRd m).payload (sxCell c k) 0 d) = sxPay m c k := by
  rw [Finset.sdiff_empty, duties_sx, bigSep_singleton, payload_sx]
theorem C_rest_sy (c : Dev nD) (k : Fin 64) :
    bigSep ((a2aRd m).duties (syCell c k) 0 \ ∅) (fun d => (a2aRd m).payload (syCell c k) 0 d) = syPay m c k := by
  rw [Finset.sdiff_empty, duties_sy, bigSep_singleton, payload_sy]
theorem C_rest_ry (c : Dev nD) (k : Fin 64) :
    bigSep ((a2aRd m).duties (ryCell c k) 0 \ ∅) (fun d => (a2aRd m).payload (ryCell c k) 0 d) = ryPay m c k := by
  rw [Finset.sdiff_empty, duties_ry, bigSep_singleton, payload_ry]

/-- A wait names its second piece; every 128-row piece of either array counts the same credit. -/
theorem C_credit_xSrc (c : Dev nD) (k : Fin 64) : (xSrc c k).view.dmaCredit = N128 := rfl
theorem C_credit_yBuf (c : Dev nD) (k : Fin 64) : (yBuf c k).view.dmaCredit = N128 := rfl

/-- A cell's invariant out of the records. -/
theorem C_inv_dma (K : Dev nD × Fin 261 → ℕ) (c : Dev nD) (q : DmaSem sig) :
    records m K ⊢ cellInv ER (a2aRd m) (K (c, ixDma q)) ((c : Thread nD τ), SemLoc.dma q) := by
  have h : records m K ⊢ iprop(cellInv ER (a2aRd m) (K (c, ixDma q)) (kcell (c, ixDma q)) ∗ reached ER (kcell (c, ixDma q)) 0) :=
    bigSep_elim (Finset.mem_univ (c, ixDma q))
  rw [kcell_dma] at h
  exact h.trans sep_elim_left

/-! ## Peeling chunk `k` off the groups -/

omit [FloatOps F] in
theorem C_GXcred_peel (c : Dev nD) (k : Fin 64) :
    (GXcred (F := F) c k.val 64) = iprop(cred (tallyAt (sxCell c k) () N128) ∗ GXcred (F := F) c (k.val + 1) 64) := by
  unfold GXcred; rw [mid_eq_insert_low k 64 k.isLt, bigSep_insert (not_mem_mid_succ k 64)]; rfl
omit [FloatOps F] in
theorem C_GXpos_peel (c : Dev nD) (k : Fin 64) :
    (GXpos (F := F) c k.val) = iprop(atPos ER (sxCell c k) 0 ∅ 0 ∗ GXpos (F := F) c (k.val + 1)) := by
  unfold GXpos; rw [seg_eq_insert k, bigSep_insert (not_mem_seg_succ k)]; rfl
theorem C_GXdone_peel (c : Dev nD) (k : Fin 64) :
    GXdone m c (k.val + 1) = iprop((semVal (sxCell c k) 0 ∗ pts c (xSrc c k) (inA m c)) ∗ GXdone m c k.val) := by
  unfold GXdone; rw [pre_succ_eq_insert k, bigSep_insert (not_mem_pre k)]; rfl

/-! ## The wait for the row exchange's send `k` -/

/-- The wait for the row exchange's send of chunk `k` to have left: the device, which owes nothing any more, pays the
    credit the send returned, gets its source chunk back and closes the send's cell, the counter at zero its own. -/
theorem wp_sx_wait (K : Dev nD × Fin 261 → ℕ) (c : Dev nD) (k : Fin 64)
    {h1 : (xDst c k).view.WordExact} {h2 : (xSrc c k).view.WordExact}
    {α : Type} {Q : α → sProp 𝕄} {kont : PUnit → Prog (TpuEff nD τ sig (Elt F) Λ₀ .tc) α} (W : Waits sig Unit) :
    iprop(records m K ∗ GXcred c k.val 64 ∗ GXpos c k.val ∗ GXdone m c k.val ∗ owes (c : Thread nD τ) (OX c 64 + OY c 64) W)
      ⊢ iprop((iprop(GXcred c (k.val + 1) 64 ∗ GXpos c (k.val + 1) ∗ GXdone m c (k.val + 1) ∗ ∃ W', owes (c : Thread nD τ) (OX c 64 + OY c 64) W')
            -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.waitDma2 (sxS k).sem (xDst c k) (xSrc c k) h1 h2) kont) Q) := by
  rw [OX_top, OY_top, add_zero, C_GXcred_peel c k, C_GXpos_peel c k, C_GXdone_peel m c k]
  iintro ⟨#HR, ⟨Hc, Hcs⟩, ⟨Hat, Hats⟩, Hdone, HO⟩ Hk
  ihave #HI := (C_inv_dma m K c (sxS k).sem) $$ HR
  iapply (Rounds.wp_wait_rest_token Variants.none ER (a2aRd m) (c : Thread nD τ) none (κ := K (c, ixDma (sxS k).sem))
      (wpE_waitDma2_eq Variants.none (c : Thread nD τ) none Set.univ) (Set.mem_univ _) () (O := 0) (W := W) (R := 0) (m := 0) (T := ∅)
      (by rw [Nat.zero_add, C_expect_sx])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq (C_rest_sx m c k)) $$ Hpay
  imod (Rounds.cell_close ER (a2aRd m) (Set.mem_univ (K (c, ixDma (sxS k).sem))) (fun h => h) (R := 0 + 1) (C_duties_later_sx m c k)) $$ [Hat] with Hz
  · isplitr; · iexact HI
    iexact Hat
  iapply Hk
  isplitl [Hcs]; · iexact Hcs
  isplitl [Hats]; · iexact Hats
  isplitl [Hz Hpay Hdone]
  · isplitl [Hz Hpay]
    · isplitl [Hz]; · iexact Hz
      unfold sxPay; iexact Hpay
    iexact Hdone
  iexists _
  iexact HO

/-! ## The wait for the column exchange's send `k` -/

omit [FloatOps F] in
theorem C_GYcred_peel (c : Dev nD) (k : Fin 64) :
    (GYcred (F := F) c k.val 64) = iprop(cred (tallyAt (syCell c k) () N128) ∗ GYcred (F := F) c (k.val + 1) 64) := by
  unfold GYcred; rw [mid_eq_insert_low k 64 k.isLt, bigSep_insert (not_mem_mid_succ k 64)]; rfl
omit [FloatOps F] in
theorem C_GYpos_peel (c : Dev nD) (k : Fin 64) :
    (GYpos (F := F) c k.val) = iprop(atPos ER (syCell c k) 0 ∅ 0 ∗ GYpos (F := F) c (k.val + 1)) := by
  unfold GYpos; rw [seg_eq_insert k, bigSep_insert (not_mem_seg_succ k)]; rfl
theorem C_GYdone_peel (c : Dev nD) (k : Fin 64) :
    GYdone m c (k.val + 1) = iprop((semVal (syCell c k) 0 ∗ pts c (yBuf c k) (outFinal m c)) ∗ GYdone m c k.val) := by
  unfold GYdone; rw [pre_succ_eq_insert k, bigSep_insert (not_mem_pre k)]; rfl

/-- The same for the column exchange's send of chunk `k`: the rows it forwarded are the device's again, holding what
    the result must hold there. -/
theorem wp_sy_wait (K : Dev nD × Fin 261 → ℕ) (c : Dev nD) (k : Fin 64)
    {h1 : (yBuf c k).view.WordExact} {h2 : (yBuf c k).view.WordExact}
    {α : Type} {Q : α → sProp 𝕄} {kont : PUnit → Prog (TpuEff nD τ sig (Elt F) Λ₀ .tc) α} (W : Waits sig Unit) :
    iprop(records m K ∗ GYcred c k.val 64 ∗ GYpos c k.val ∗ GYdone m c k.val ∗ owes (c : Thread nD τ) (OX c 64 + OY c 64) W)
      ⊢ iprop((iprop(GYcred c (k.val + 1) 64 ∗ GYpos c (k.val + 1) ∗ GYdone m c (k.val + 1) ∗ ∃ W', owes (c : Thread nD τ) (OX c 64 + OY c 64) W')
            -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.waitDma2 (syS k).sem (yBuf c k) (yBuf c k) h1 h2) kont) Q) := by
  rw [OX_top, OY_top, add_zero, C_GYcred_peel c k, C_GYpos_peel c k, C_GYdone_peel m c k]
  iintro ⟨#HR, ⟨Hc, Hcs⟩, ⟨Hat, Hats⟩, Hdone, HO⟩ Hk
  ihave #HI := (C_inv_dma m K c (syS k).sem) $$ HR
  iapply (Rounds.wp_wait_rest_token Variants.none ER (a2aRd m) (c : Thread nD τ) none (κ := K (c, ixDma (syS k).sem))
      (wpE_waitDma2_eq Variants.none (c : Thread nD τ) none Set.univ) (Set.mem_univ _) () (O := 0) (W := W) (R := 0) (m := 0) (T := ∅)
      (by rw [Nat.zero_add, C_expect_sy])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq (C_rest_sy m c k)) $$ Hpay
  imod (Rounds.cell_close ER (a2aRd m) (Set.mem_univ (K (c, ixDma (syS k).sem))) (fun h => h) (R := 0 + 1) (C_duties_later_sy m c k)) $$ [Hat] with Hz
  · isplitr; · iexact HI
    iexact Hat
  iapply Hk
  isplitl [Hcs]; · iexact Hcs
  isplitl [Hats]; · iexact Hats
  isplitl [Hz Hpay Hdone]
  · isplitl [Hz Hpay]
    · isplitl [Hz]; · iexact Hz
      unfold syPay; iexact Hpay
    iexact Hdone
  iexists _
  iexact HO

/-! ## The wait for chunk `k` of the column exchange to land -/

omit [FloatOps F] in
theorem C_GRYwait_peel (c : Dev nD) (k : Fin 64) :
    (GRYwait (F := F) c k.val) = iprop((atPos ER (ryCell c k) 0 ∅ 0 ∗ cred (tallyAt (ryCell c k) () N128)) ∗ GRYwait (F := F) c (k.val + 1)) := by
  unfold GRYwait; rw [seg_eq_insert k, bigSep_insert (not_mem_seg_succ k)]; rfl
theorem C_GRYdone_peel (c : Dev nD) (k : Fin 64) :
    GRYdone m c (k.val + 1) = iprop((semVal (ryCell c k) 0 ∗ pts c (yBuf (yn c) k) (outFinal m c)) ∗ GRYdone m c k.val) := by
  unfold GRYdone; rw [pre_succ_eq_insert k, bigSep_insert (not_mem_pre k)]; rfl

/-- The wait for chunk `k` of the column exchange to have landed: the device pays the credit it was dealt at launch,
    receives those rows of its result array holding what they must, and closes the receive's cell. -/
theorem wp_ry_wait (K : Dev nD × Fin 261 → ℕ) (c : Dev nD) (k : Fin 64)
    {h1 : (yBuf c k).view.WordExact} {h2 : (yBuf c k).view.WordExact}
    {α : Type} {Q : α → sProp 𝕄} {kont : PUnit → Prog (TpuEff nD τ sig (Elt F) Λ₀ .tc) α} (W : Waits sig Unit) :
    iprop(records m K ∗ GRYwait c k.val ∗ GRYdone m c k.val ∗ owes (c : Thread nD τ) (OX c 64 + OY c 64) W)
      ⊢ iprop((iprop(GRYwait c (k.val + 1) ∗ GRYdone m c (k.val + 1) ∗ ∃ W', owes (c : Thread nD τ) (OX c 64 + OY c 64) W')
            -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.waitDma2 (ryS k).sem (yBuf c k) (yBuf c k) h1 h2) kont) Q) := by
  rw [OX_top, OY_top, add_zero, C_GRYwait_peel c k, C_GRYdone_peel m c k]
  iintro ⟨#HR, ⟨⟨Hat, Hc⟩, Hws⟩, Hdone, HO⟩ Hk
  ihave #HI := (C_inv_dma m K c (ryS k).sem) $$ HR
  iapply (Rounds.wp_wait_rest_token Variants.none ER (a2aRd m) (c : Thread nD τ) none (κ := K (c, ixDma (ryS k).sem))
      (wpE_waitDma2_eq Variants.none (c : Thread nD τ) none Set.univ) (Set.mem_univ _) () (O := 0) (W := W) (R := 0) (m := 0) (T := ∅)
      (by rw [Nat.zero_add, C_expect_ry])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq (C_rest_ry m c k)) $$ Hpay
  imod (Rounds.cell_close ER (a2aRd m) (Set.mem_univ (K (c, ixDma (ryS k).sem))) (fun h => h) (R := 0 + 1) (C_duties_later_ry m c k)) $$ [Hat] with Hz
  · isplitr; · iexact HI
    iexact Hat
  iapply Hk
  isplitl [Hws]; · iexact Hws
  isplitl [Hz Hpay Hdone]
  · isplitl [Hz Hpay]
    · isplitl [Hz]; · iexact Hz
      unfold ryPay; iexact Hpay
    iexact Hdone
  iexists _
  iexact HO

/-- info: 'Cert.KernelIdeal.A2A.wp_sx_wait' depends on axioms: [propext, Classical.choice, Quot.sound] -/
#guard_msgs in #print axioms wp_sx_wait

/-- info: 'Cert.KernelIdeal.A2A.wp_sy_wait' depends on axioms: [propext, Classical.choice, Quot.sound] -/
#guard_msgs in #print axioms wp_sy_wait

/-- info: 'Cert.KernelIdeal.A2A.wp_ry_wait' depends on axioms: [propext, Classical.choice, Quot.sound] -/
#guard_msgs in #print axioms wp_ry_wait

end Cert.KernelIdeal.A2A

end
-- ==== Proof.KernelIdeal.StanzaD.lean ====
import proofs.«900013_g7700000000000014_dist_a2a_v7x_xy2x2_x_m16384_n1024_f32_1_alg».proof.Proof.KernelIdeal.Common
import proofs.«900013_g7700000000000014_dist_a2a_v7x_xy2x2_x_m16384_n1024_f32_1_alg».proof.Proof.KernelIdeal.Pieces

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The local copies through the two staging slots -/

/-- Piece `j` is the piece that round `roundOf j` of slot `slotOf j` moves. -/
theorem pieceOf_round_slot (j : Fin 8) : pieceOf (roundOf j) (slotOf j) = j := by revert j; decide
theorem roundOf_lt (j : Fin 8) : roundOf j < 4 := by revert j; decide

omit [FloatOps F] in
theorem D_credit_stg (s : Fin 2) : (stg s).view.amount (.dma (linS s).sem) = NLi := by revert s; decide
omit [FloatOps F] in
theorem D_credit_lDst (c : Dev nD) (j : Fin 8) (s : Fin 2) : (lDst c j).view.amount (.dma (loutS s).sem) = NLo := rfl

omit [FloatOps F] in
theorem D_dmaCredit_stg (s : Fin 2) : (stg s).view.dmaCredit = NLi := D_credit_stg s
omit [FloatOps F] in
theorem D_dmaCredit_lDst (c : Dev nD) (j : Fin 8) : (lDst c j).view.dmaCredit = NLo := rfl

omit [FloatOps F] in
theorem D_rest_lin (c : Dev nD) (j : Fin 8) :
    bigSep ((a2aRd (F := F) m).duties (linCell c (slotOf j)) (roundOf j) \ ∅) (fun d => (a2aRd (F := F) m).payload (linCell c (slotOf j)) (roundOf j) d)
      = linPay m c j (slotOf j) := by
  rw [Finset.sdiff_empty, duties_lin m c _ _ (roundOf_lt j), bigSep_singleton, payload_lin, pieceOf_round_slot]
omit [FloatOps F] in
theorem D_rest_lout (c : Dev nD) (j : Fin 8) :
    bigSep ((a2aRd (F := F) m).duties (loutCell c (slotOf j)) (roundOf j) \ ∅) (fun d => (a2aRd (F := F) m).payload (loutCell c (slotOf j)) (roundOf j) d)
      = loutPay m c j (slotOf j) := by
  rw [Finset.sdiff_empty, duties_lout m c _ _ (roundOf_lt j), bigSep_singleton, payload_lout, pieceOf_round_slot]

omit [FloatOps F] in
theorem D_expect_lin (c : Dev nD) (s : Fin 2) (r : ℕ) (hr : r < 4) : (a2aRd (F := F) m).expect (linCell c s) r = NLi := by
  unfold Schedule.expect Schedule.amountOf; rw [duties_lin m c s r hr, Finset.sum_singleton, amount_lin]
omit [FloatOps F] in
theorem D_expect_lout (c : Dev nD) (s : Fin 2) (r : ℕ) (hr : r < 4) : (a2aRd (F := F) m).expect (loutCell c s) r = NLo := by
  unfold Schedule.expect Schedule.amountOf; rw [duties_lout m c s r hr, Finset.sum_singleton, amount_lout]

section Slots
variable (c : Dev nD)

/-- A slot with `r` pieces through it, none in flight, and both its cells known to have reached round `r`. -/
def SlotIdleR (s : Fin 2) (r : ℕ) : sProp 𝕄 :=
  iprop(SlotIdle c s r ∗ reached ER (linCell c s) r ∗ reached ER (loutCell c s) r)
/-- A slot whose piece of round `r` is on its way in: the copy-in's credit, both cells still at round `r`. -/
def SlotIn (s : Fin 2) (r : ℕ) : sProp 𝕄 :=
  iprop(cred (tallyAt (linCell c s) () NLi) ∗ atPos ER (linCell c s) r ∅ 0 ∗ atPos ER (loutCell c s) r ∅ 0
    ∗ reached ER (loutCell c s) r)
/-- A slot holding piece `j` (read back through the slot it is the piece): the copy-in cell a round ahead. -/
def SlotFull (j : Fin 8) : sProp 𝕄 :=
  iprop((∃ f, pts c (stg (slotOf j)) f ∗ ⌜(stg (slotOf j)).view.read (Elt F) f = (lSrc (lOff c j) (lOff_inb c j)).view.read (Elt F) (inA m c)⌝)
    ∗ atPos ER (linCell c (slotOf j)) (roundOf j + 1) ∅ 0 ∗ atPos ER (loutCell c (slotOf j)) (roundOf j) ∅ 0
    ∗ reached ER (linCell c (slotOf j)) (roundOf j + 1) ∗ reached ER (loutCell c (slotOf j)) (roundOf j))
/-- A slot whose piece of round `r` is on its way out, the copy-in cell known to have reached round `r + 1`. -/
def SlotBusyR (s : Fin 2) (r : ℕ) : sProp 𝕄 :=
  iprop(SlotBusy c s r ∗ reached ER (linCell c s) (r + 1))
end Slots

/-- The copy of local piece `j` into its staging slot. -/
theorem wp_copy_in (K : Dev nD × Fin 261 → ℕ) (c : Dev nD) (j : Fin 8)
    {h1 : (lSrc (lOff c j) (lOff_inb c j)).view.WordExact} {h2 : (stg (slotOf j)).view.WordExact}
    {h3 : DmaTarget.Typed (nD := nD) (τ := τ) (p := Proc.tc) .hbm (.dma (linS (slotOf j)).sem) (.here (stg (slotOf j)))}
    {α : Type} {Q : α → sProp 𝕄} {kont : PUnit → Prog (TpuEff nD τ sig (Elt F) Λ₀ .tc) α} :
    iprop(records m K ∗ dutyTok ER (linCell c (slotOf j)) (roundOf j) false
        ∗ pts c (lSrc (lOff c j) (lOff_inb c j)) (inA m c) ∗ SlotIdleR c (slotOf j) (roundOf j))
      ⊢ iprop((SlotIn c (slotOf j) (roundOf j) -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.enqueueDma (lSrc (lOff c j) (lOff_inb c j)) (DmaTarget.here (stg (slotOf j))) (SemLoc.dma (linS (slotOf j)).sem) h1 h2 h3) kont) Q) := by
  unfold SlotIdleR SlotIdle SlotIn
  iintro ⟨#Hrec, Htok, Hsrc, ⟨⟨%f, Hslot⟩, HatI, HatO⟩, #HrI, #HrO⟩ Hk
  ihave #Hinv := (inv_dma m K c (linS (slotOf j)).sem) $$ Hrec
  iapply (Rounds.wp_copy_pointsTo Variants.none ER (a2aRd m) (c : Thread nD τ) none (κ := K (c, ixDma (linS (slotOf j)).sem))
      (src := lSrc (lOff c j) (lOff_inb c j)) (dst := stg (slotOf j)) (q := fullShare) (fs := inA m c) (fd := f)
      (r := roundOf j) (d := false)
      (by rw [duties_lin m c _ _ (roundOf_lt j)]; exact Finset.mem_singleton_self _) () NLi (D_credit_stg _) (amount_lin m c _ _ false)
      (by
        rw [payload_lin, pieceOf_round_slot]; unfold linPay
        iintro ⟨Hd, Hs⟩
        isplitl [Hd]
        · iexists _
          isplitl [Hd]; · iexact Hd
          ipureintro; exact View.read_write_univ _ _
        · iexact Hs)) $$ [Htok Hsrc Hslot]
  · isplitr; · iexact Hinv
    isplitl [Hsrc]; · iexact Hsrc
    isplitl [Hslot]; · iexact Hslot
    isplitl [Htok]; · iexact Htok
    iexact HrI
  iintro Hc
  iapply Hk
  isplitl [Hc]; · iexact Hc
  isplitl [HatI]; · iexact HatI
  isplitl [HatO]; · iexact HatO
  iexact HrO

/-- The wait for that copy. -/
theorem wp_wait_in (K : Dev nD × Fin 261 → ℕ) (c : Dev nD) (j : Fin 8) {O : CellTallies nD τ sig Unit}
    (hmw : (levAts L lv : sProp 𝕄) ⊢ MayWait (c : Thread nD τ) (.dma (linS (slotOf j)).sem) () O)
    {h1 : (lSrc (lOff c j) (lOff_inb c j)).view.WordExact} {h2 : (stg (slotOf j)).view.WordExact}
    {α : Type} {Q : α → sProp 𝕄} {kont : PUnit → Prog (TpuEff nD τ sig (Elt F) Λ₀ .tc) α} :
    iprop(records m K ∗ levAts L lv ∗ SlotIn c (slotOf j) (roundOf j) ∗ (∃ W, owes (c : Thread nD τ) O W))
      ⊢ iprop(((SlotFull m c j ∗ pts c (lSrc (lOff c j) (lOff_inb c j)) (inA m c) ∗ (∃ W, owes (c : Thread nD τ) O W))
            -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.waitDma2 (linS (slotOf j)).sem (lSrc (lOff c j) (lOff_inb c j)) (stg (slotOf j)) h1 h2) kont) Q) := by
  unfold SlotIn SlotFull
  iintro ⟨#Hrec, #Hlev, ⟨Hc, HatI, HatO, #HrO⟩, ⟨%W, HO⟩⟩ Hk
  ihave #Hinv := (inv_dma m K c (linS (slotOf j)).sem) $$ Hrec
  iapply (Rounds.wp_wait_rest_token Variants.none ER (a2aRd m) (c : Thread nD τ) none (κ := K (c, ixDma (linS (slotOf j)).sem))
      (w := .waitDma2 (linS (slotOf j)).sem (lSrc (lOff c j) (lOff_inb c j)) (stg (slotOf j)) h1 h2)
      (wpE_waitDma2_eq Variants.none (c : Thread nD τ) none Set.univ) (Set.mem_univ _) () (O := O) (W := W)
      (R := roundOf j) (m := 0) (T := ∅)
      (by rw [D_expect_lin m c _ _ (roundOf_lt j), zero_add, D_dmaCredit_stg])) $$ [Hc HO HatI]
  · isplitr; · iexact Hinv
    isplitl [Hc]; · rw [D_dmaCredit_stg]; iexact Hc
    isplitl [HO]; · iexact HO
    isplitr; · iapply hmw; iexact Hlev
    iexact HatI
  iintro ⟨HO, HatI, #HrI, Hpay⟩
  ihave Hp := (Entails.of_eq (D_rest_lin m c j)) $$ Hpay
  unfold linPay
  icases Hp with ⟨Hslot, Hsrc⟩
  iapply Hk
  isplitl [Hslot HatI HatO]
  · isplitl [Hslot]; · iexact Hslot
    isplitl [HatI]; · iexact HatI
    isplitl [HatO]; · iexact HatO
    isplitr; · iexact HrI
    iexact HrO
  isplitl [Hsrc]; · iexact Hsrc
  iexists _; iexact HO

/-- The copy of piece `j` out of its staging slot into its rows of the result array. -/
theorem wp_copy_out (K : Dev nD × Fin 261 → ℕ) (c : Dev nD) (j : Fin 8)
    {h1 : (stg (slotOf j)).view.WordExact} {h2 : (lDst c j).view.WordExact}
    {h3 : DmaTarget.Typed (nD := nD) (τ := τ) (p := Proc.tc) .vmem (.dma (loutS (slotOf j)).sem) (.here (lDst c j))}
    {α : Type} {Q : α → sProp 𝕄} {kont : PUnit → Prog (TpuEff nD τ sig (Elt F) Λ₀ .tc) α} :
    iprop(records m K ∗ dutyTok ER (loutCell c (slotOf j)) (roundOf j) false ∗ (∃ f, pts c (lDst c j) f) ∗ SlotFull m c j)
      ⊢ iprop((SlotBusyR c (slotOf j) (roundOf j) -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.enqueueDma (stg (slotOf j)) (DmaTarget.here (lDst c j)) (SemLoc.dma (loutS (slotOf j)).sem) h1 h2 h3) kont) Q) := by
  unfold SlotFull SlotBusyR SlotBusy
  iintro ⟨#Hrec, Htok, ⟨%fd, Hdst⟩, ⟨%f, Hslot, %hf⟩, HatI, HatO, #HrI, #HrO⟩ Hk
  ihave #Hinv := (inv_dma m K c (loutS (slotOf j)).sem) $$ Hrec
  iapply (Rounds.wp_copy_pointsTo Variants.none ER (a2aRd m) (c : Thread nD τ) none (κ := K (c, ixDma (loutS (slotOf j)).sem))
      (src := stg (slotOf j)) (dst := lDst c j) (q := fullShare) (fs := f) (fd := fd)
      (r := roundOf j) (d := false)
      (by rw [duties_lout m c _ _ (roundOf_lt j)]; exact Finset.mem_singleton_self _) () NLo (D_credit_lDst c j _) (amount_lout m c _ _ false)
      (by
        rw [payload_lout, pieceOf_round_slot]; unfold loutPay
        iintro ⟨Hd, Hs⟩
        isplitl [Hd]
        · iapply (Entails.of_eq (pointsTo_congr (lLanding m c j (slotOf j) f hf fd)))
          iexact Hd
        · iexists f
          iexact Hs)) $$ [Htok Hdst Hslot]
  · isplitr; · iexact Hinv
    isplitl [Hslot]; · iexact Hslot
    isplitl [Hdst]; · iexact Hdst
    isplitl [Htok]; · iexact Htok
    iexact HrO
  iintro Hc
  iapply Hk
  isplitl [Hc HatI HatO]
  · isplitl [Hc]; · iexact Hc
    isplitl [HatI]; · iexact HatI
    iexact HatO
  iexact HrI

/-- The wait for that copy: the piece is in the result array, the slot idle again, a round further. -/
theorem wp_wait_out (K : Dev nD × Fin 261 → ℕ) (c : Dev nD) (j : Fin 8) {O : CellTallies nD τ sig Unit}
    (hmw : (levAts L lv : sProp 𝕄) ⊢ MayWait (c : Thread nD τ) (.dma (loutS (slotOf j)).sem) () O)
    {h1 : (stg (slotOf j)).view.WordExact} {h2 : (lDst c j).view.WordExact}
    {α : Type} {Q : α → sProp 𝕄} {kont : PUnit → Prog (TpuEff nD τ sig (Elt F) Λ₀ .tc) α} :
    iprop(records m K ∗ levAts L lv ∗ SlotBusyR c (slotOf j) (roundOf j) ∗ (∃ W, owes (c : Thread nD τ) O W))
      ⊢ iprop(((SlotIdleR c (slotOf j) (roundOf j + 1) ∗ pts c (lDst c j) (outFinal m c) ∗ (∃ W, owes (c : Thread nD τ) O W))
            -∗ wp frame (wpE (defs₀ (F := F)) Variants.none (c : Thread nD τ) none) Set.univ (kont ⟨⟩) Q)
          -∗ wp frame (wpE (defs₀ (F := F)) Variants.none (c : Thread nD τ) none) Set.univ
              (Prog.op (TpuEff.waitDma2 (loutS (slotOf j)).sem (stg (slotOf j)) (lDst c j) h1 h2) kont) Q) := by
  unfold SlotBusyR SlotBusy SlotIdleR SlotIdle
  iintro ⟨#Hrec, #Hlev, ⟨⟨Hc, HatI, HatO⟩, #HrI⟩, ⟨%W, HO⟩⟩ Hk
  ihave #Hinv := (inv_dma m K c (loutS (slotOf j)).sem) $$ Hrec
  iapply (Rounds.wp_wait_rest_token Variants.none ER (a2aRd m) (c : Thread nD τ) none (κ := K (c, ixDma (loutS (slotOf j)).sem))
      (w := .waitDma2 (loutS (slotOf j)).sem (stg (slotOf j)) (lDst c j) h1 h2)
      (wpE_waitDma2_eq Variants.none (c : Thread nD τ) none Set.univ) (Set.mem_univ _) () (O := O) (W := W)
      (R := roundOf j) (m := 0) (T := ∅)
      (by rw [D_expect_lout m c _ _ (roundOf_lt j), zero_add, D_dmaCredit_lDst])) $$ [Hc HO HatO]
  · isplitr; · iexact Hinv
    isplitl [Hc]; · rw [D_dmaCredit_lDst]; iexact Hc
    isplitl [HO]; · iexact HO
    isplitr; · iapply hmw; iexact Hlev
    iexact HatO
  iintro ⟨HO, HatO, #HrO, Hpay⟩
  ihave Hp := (Entails.of_eq (D_rest_lout m c j)) $$ Hpay
  unfold loutPay
  icases Hp with ⟨Hdst, Hslot⟩
  iapply Hk
  isplitl [Hslot HatI HatO]
  · isplitl [Hslot HatI HatO]
    · isplitl [Hslot]; · iexact Hslot
      isplitl [HatI]; · iexact HatI
      iexact HatO
    isplitr; · iexact HrI
    iexact HrO
  isplitl [Hdst]; · iexact Hdst
  iexists _; iexact HO

/-- At the start a slot's cells have reached round 0. -/
theorem slotIdleR_start (K : Dev nD × Fin 261 → ℕ) (c : Dev nD) (s : Fin 2) :
    iprop(records m K ∗ SlotIdle c s 0) ⊢ SlotIdleR c s 0 := by
  unfold SlotIdleR
  iintro ⟨#Hrec, H⟩
  isplitl [H]; · iexact H
  isplitr
  · iapply (reached_dma m K c (linS s).sem); iexact Hrec
  · iapply (reached_dma m K c (loutS s).sem); iexact Hrec

omit [FloatOps F] in
theorem D_duties_later_lin (c : Dev nD) (s : Fin 2) (r : ℕ) (hr : 4 ≤ r) : (a2aRd (F := F) m).duties (linCell c s) r = ∅ := by
  have h4 : ¬ r < 4 := by omega
  simp only [a2aRd, classify_lin, if_true, if_neg h4]
omit [FloatOps F] in
theorem D_duties_later_lout (c : Dev nD) (s : Fin 2) (r : ℕ) (hr : 4 ≤ r) : (a2aRd (F := F) m).duties (loutCell c s) r = ∅ := by
  have h4 : ¬ r < 4 := by omega
  simp only [a2aRd, classify_lout, if_true, if_neg h4]

/-- After its four rounds a slot's two cells close, before any continuation: their counters at zero and the slot
    itself are the device's again. -/
theorem wp_slot_close (K : Dev nD × Fin 261 → ℕ) (c : Dev nD) (s : Fin 2)
    {α : Type} {Q : α → sProp 𝕄} {p : Prog (TpuEff nD τ sig (Elt F) Λ₀ .tc) α} :
    iprop(records m K ∗ SlotIdleR c s 4)
      ⊢ iprop(((semVal (linCell c s) 0 ∗ semVal (loutCell c s) 0 ∗ ∃ f, pts c (stg s) f)
            -∗ wp frame (wpE (defs₀ (F := F)) Variants.none (c : Thread nD τ) none) Set.univ p Q)
          -∗ wp frame (wpE (defs₀ (F := F)) Variants.none (c : Thread nD τ) none) Set.univ p Q) := by
  unfold SlotIdleR SlotIdle
  iintro ⟨#Hrec, ⟨Hslot, HatI, HatO⟩, -⟩ Hk
  ihave #HinvI := (inv_dma m K c (linS s).sem) $$ Hrec
  ihave #HinvO := (inv_dma m K c (loutS s).sem) $$ Hrec
  imod (Rounds.cell_close ER (a2aRd m) (Set.mem_univ (K (c, ixDma (linS s).sem))) (fun h => h) (R := 4) (D_duties_later_lin m c s)) $$ [HatI] with HzI
  · isplitr; · iexact HinvI
    iexact HatI
  imod (Rounds.cell_close ER (a2aRd m) (Set.mem_univ (K (c, ixDma (loutS s).sem))) (fun h => h) (R := 4) (D_duties_later_lout m c s)) $$ [HatO] with HzO
  · isplitr; · iexact HinvO
    iexact HatO
  iapply Hk
  isplitl [HzI]; · iexact HzI
  isplitl [HzO]; · iexact HzO
  iexact Hslot

/-! ## Peeling a piece off the groups of local pieces -/

omit [FloatOps F] in
theorem D_from_eq_insert (j : Fin 8) :
    (Finset.univ.filter fun i : Fin 8 => j.val ≤ i.val) = insert j (Finset.univ.filter fun i : Fin 8 => j.val + 1 ≤ i.val) := by
  revert j; decide
omit [FloatOps F] in
theorem D_not_mem_from (j : Fin 8) : j ∉ Finset.univ.filter fun i : Fin 8 => j.val + 1 ≤ i.val := by
  revert j; decide

/-- The pieces from `j` on are piece `j` and the pieces from `j + 1` on. -/
theorem D_GLtok_peel (c : Dev nD) (j : Fin 8) :
    GLtok m c j.val = iprop((dutyTok ER (linCell c (slotOf j)) (roundOf j) false ∗ dutyTok ER (loutCell c (slotOf j)) (roundOf j) false
        ∗ pts c (lSrc (lOff c j) (lOff_inb c j)) (inA m c) ∗ ∃ f, pts c (lDst c j) f) ∗ GLtok m c (j.val + 1)) := by
  unfold GLtok; rw [D_from_eq_insert j, bigSep_insert (D_not_mem_from j)]; rfl
theorem D_GLtok_top (c : Dev nD) : GLtok m c 8 = iprop(emp) := by
  unfold GLtok; rw [show (Finset.univ.filter fun i : Fin 8 => 8 ≤ i.val) = ∅ by decide]; rfl

/-- info: 'Cert.KernelIdeal.A2A.wp_copy_in' depends on axioms: [propext, Classical.choice, Quot.sound] -/
#guard_msgs in #print axioms wp_copy_in

/-- info: 'Cert.KernelIdeal.A2A.wp_wait_in' depends on axioms: [propext, Classical.choice, Quot.sound] -/
#guard_msgs in #print axioms wp_wait_in

/-- info: 'Cert.KernelIdeal.A2A.wp_copy_out' depends on axioms: [propext, Classical.choice, Quot.sound] -/
#guard_msgs in #print axioms wp_copy_out

/-- info: 'Cert.KernelIdeal.A2A.wp_wait_out' depends on axioms: [propext, Classical.choice, Quot.sound] -/
#guard_msgs in #print axioms wp_wait_out

/-- info: 'Cert.KernelIdeal.A2A.slotIdleR_start' depends on axioms: [propext, Classical.choice, Quot.sound] -/
#guard_msgs in #print axioms slotIdleR_start

/-- info: 'Cert.KernelIdeal.A2A.wp_slot_close' depends on axioms: [propext, Classical.choice, Quot.sound] -/
#guard_msgs in #print axioms wp_slot_close

/-- info: 'Cert.KernelIdeal.A2A.D_GLtok_peel' depends on axioms: [propext, Classical.choice, Quot.sound] -/
#guard_msgs in #print axioms D_GLtok_peel

/-- info: 'Cert.KernelIdeal.A2A.D_GLtok_top' depends on axioms: [propext, Classical.choice, Quot.sound] -/
#guard_msgs in #print axioms D_GLtok_top

end Cert.KernelIdeal.A2A

end
-- ==== Proof.KernelIdeal.Body.lean ====
import proofs.«900013_g7700000000000014_dist_a2a_v7x_xy2x2_x_m16384_n1024_f32_1_alg».proof.Proof.KernelIdeal.Body0
import proofs.«900013_g7700000000000014_dist_a2a_v7x_xy2x2_x_m16384_n1024_f32_1_alg».proof.Proof.KernelIdeal.Levels
import proofs.«900013_g7700000000000014_dist_a2a_v7x_xy2x2_x_m16384_n1024_f32_1_alg».proof.Proof.KernelIdeal.Pieces
import proofs.«900013_g7700000000000014_dist_a2a_v7x_xy2x2_x_m16384_n1024_f32_1_alg».proof.Proof.KernelIdeal.Common
import proofs.«900013_g7700000000000014_dist_a2a_v7x_xy2x2_x_m16384_n1024_f32_1_alg».proof.Proof.KernelIdeal.Groups
import proofs.«900013_g7700000000000014_dist_a2a_v7x_xy2x2_x_m16384_n1024_f32_1_alg».proof.Proof.KernelIdeal.StanzaA
import proofs.«900013_g7700000000000014_dist_a2a_v7x_xy2x2_x_m16384_n1024_f32_1_alg».proof.Proof.KernelIdeal.StanzaB
import proofs.«900013_g7700000000000014_dist_a2a_v7x_xy2x2_x_m16384_n1024_f32_1_alg».proof.Proof.KernelIdeal.StanzaC
import proofs.«900013_g7700000000000014_dist_a2a_v7x_xy2x2_x_m16384_n1024_f32_1_alg».proof.Proof.KernelIdeal.StanzaD
import proofs.«900013_g7700000000000014_dist_a2a_v7x_xy2x2_x_m16384_n1024_f32_1_alg».proof.Proof.Gen.KernelIdeal.Skeleton

set_option maxRecDepth 200000
set_option maxHeartbeats 8000000

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Local piece `j`'s resources taken out of the pieces still to do, before any goal. -/
theorem GLtok_open (m : (ℓ : Loc nD τ sig) → Buf (Elt F) ℓ) (c : Dev nD) (j : Fin 8) (R : sProp 𝕄) :
    iprop(GLtok m c j.val)
      ⊢ iprop((iprop((dutyTok ER (linCell c (slotOf j)) (roundOf j) false ∗ dutyTok ER (loutCell c (slotOf j)) (roundOf j) false
            ∗ pts c (lSrc (lOff c j) (lOff_inb c j)) (inA m c) ∗ ∃ f, pts c (lDst c j) f) ∗ GLtok m c (j.val + 1)) -∗ R) -∗ R) := by
  rw [D_GLtok_peel m c j]
  iintro H Hk
  iapply Hk
  iexact H

/-- One device's body, run effect by effect in program order from its entry resources: the two entry signals and the
    wait for both neighbours'; the 64 row-exchange sends; for each chunk the wait for the row neighbour's and its
    forwarding to the column neighbour, the eight local pieces through the two staging slots in between; the waits for
    the column neighbour's chunks; the waits for every send; the last two local pieces. Each landing states what the
    chunk holds, so the exit resources hold every chunk of the result array at `outFinal`. -/
theorem sound_body (m : (ℓ : Loc nD τ sig) → Buf (Elt F) ℓ) (K : Dev nD × Fin 261 → ℕ) (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6) Kt := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel, k0_part84_eq_skeleton, k0_part84_skel, k0_part85_eq_skeleton, k0_part85_skel, k0_part86_eq_skeleton, k0_part86_skel, k0_part87_eq_skeleton, k0_part87_skel, k0_part88_eq_skeleton, k0_part88_skel, k0_part89_eq_skeleton, k0_part89_skel, k0_part90_eq_skeleton, k0_part90_skel, k0_part91_eq_skeleton, k0_part91_skel, k0_part92_eq_skeleton, k0_part92_skel, k0_part93_eq_skeleton, k0_part93_skel, k0_part94_eq_skeleton, k0_part94_skel, k0_part95_eq_skeleton, k0_part95_skel, k0_part96_eq_skeleton, k0_part96_skel, k0_part97_eq_skeleton, k0_part97_skel, k0_part98_eq_skeleton, k0_part98_skel, k0_part99_eq_skeleton, k0_part99_skel, k0_part100_eq_skeleton, k0_part100_skel, k0_part101_eq_skeleton, k0_part101_skel, k0_part102_eq_skeleton, k0_part102_skel, k0_part103_eq_skeleton, k0_part103_skel, k0_part104_eq_skeleton, k0_part104_skel, k0_part105_eq_skeleton, k0_part105_skel, k0_part106_eq_skeleton, k0_part106_skel, k0_part107_eq_skeleton, k0_part107_skel, k0_part108_eq_skeleton, k0_part108_skel, k0_part109_eq_skeleton, k0_part109_skel, k0_part110_eq_skeleton, k0_part110_skel, k0_part111_eq_skeleton, k0_part111_skel, k0_part112_eq_skeleton, k0_part112_skel, k0_part113_eq_skeleton, k0_part113_skel, k0_part114_eq_skeleton, k0_part114_skel, k0_part115_eq_skeleton, k0_part115_skel, k0_part116_eq_skeleton, k0_part116_skel, k0_part117_eq_skeleton, k0_part117_skel, k0_part118_eq_skeleton, k0_part118_skel, k0_part119_eq_skeleton, k0_part119_skel, k0_part120_eq_skeleton, k0_part120_skel, k0_part121_eq_skeleton, k0_part121_skel, k0_part122_eq_skeleton, k0_part122_skel, k0_part123_eq_skeleton, k0_part123_skel, k0_part124_eq_skeleton, k0_part124_skel, k0_part125_eq_skeleton, k0_part125_skel, k0_part126_eq_skeleton, k0_part126_skel, k0_part127_eq_skeleton, k0_part127_skel, k0_part128_eq_skeleton, k0_part128_skel,
    semSignalWord, semWaitWord, Prog.lift, Prog.bind_op, Prog.bind_ret, Prog.pure_eq_ret, wp_deviceId, Prog.bind_assoc]
  unfold bodyPre entry
  iintro ⟨⟨⟨#Hrec, #Hlev, Ht1, Ht2, Hp1, Hp2, Hat, Hcr, HXt, HXp, HYt, HYp, HRXw, HRYw, HLt, HS0, HS1, HRA⟩, Ho⟩, Hk⟩
  unfold Dat.owesAt Pipeline.owesWithin
  icases Ho with ⟨%W, %hW, HO⟩
  rw [show (dats m 0 c).owed t₀.castSucc = O₀ c from rfl]
  iapply (wp_sig_x m K c _ (dev_xn c _ _ (k0_dev1_eq c)) W) $$ [Ht1 Hp1 HO]
  · isplitr; · iexact Hrec
    isplitl [Ht1]; · iexact Ht1
    isplitl [Hp1]; · iexact Hp1
    iexact HO
  iintro HO
  iapply (wp_sig_y m K c _ (dev_yn c _ _ (k0_dev2_eq c)) W) $$ [Ht2 Hp2 HO]
  · isplitr; · iexact Hrec
    isplitl [Ht2]; · iexact Ht2
    isplitl [Hp2]; · iexact Hp2
    iexact HO
  iintro HO
  iapply (wp_bar_wait m K c W (mayWait_bar c)) $$ [Hat Hcr HO]
  · isplitr; · iexact Hrec
    isplitr; · iexact Hlev
    isplitl [Hat]; · iexact Hat
    isplitl [Hcr]; · iexact Hcr
    iexact HO
  iintro ⟨HXd, HYd, ⟨%W1, HO⟩⟩
  iapply (wp_xsend m K c _ (dev_xn c _ _ (k0_dev3_eq c)) (0 : Fin 64) 0 W1 (xLanding m c (0 : Fin 64))) $$ [HXt HXd HO]
  · isplitr; · iexact Hrec
    isplitl [HXt]; · iexact HXt
    isplitl [HXd]; · iexact HXd
    isplitl []; · (iapply (Entails.of_eq (GXcred_self (F := F) c 0).symm); iempintro)
    iexact HO
  iintro ⟨HXt, HXd, HXc, HO⟩
  iapply (wp_xsend m K c _ (dev_xn c _ _ (k0_dev4_eq c)) (1 : Fin 64) 0 W1 (xLanding m c (1 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev5_eq c)) (2 : Fin 64) 0 W1 (xLanding m c (2 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev6_eq c)) (3 : Fin 64) 0 W1 (xLanding m c (3 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev7_eq c)) (4 : Fin 64) 0 W1 (xLanding m c (4 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev8_eq c)) (5 : Fin 64) 0 W1 (xLanding m c (5 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev9_eq c)) (6 : Fin 64) 0 W1 (xLanding m c (6 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev10_eq c)) (7 : Fin 64) 0 W1 (xLanding m c (7 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev11_eq c)) (8 : Fin 64) 0 W1 (xLanding m c (8 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev12_eq c)) (9 : Fin 64) 0 W1 (xLanding m c (9 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev13_eq c)) (10 : Fin 64) 0 W1 (xLanding m c (10 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev14_eq c)) (11 : Fin 64) 0 W1 (xLanding m c (11 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev15_eq c)) (12 : Fin 64) 0 W1 (xLanding m c (12 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev16_eq c)) (13 : Fin 64) 0 W1 (xLanding m c (13 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev17_eq c)) (14 : Fin 64) 0 W1 (xLanding m c (14 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev18_eq c)) (15 : Fin 64) 0 W1 (xLanding m c (15 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev19_eq c)) (16 : Fin 64) 0 W1 (xLanding m c (16 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev20_eq c)) (17 : Fin 64) 0 W1 (xLanding m c (17 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev21_eq c)) (18 : Fin 64) 0 W1 (xLanding m c (18 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev22_eq c)) (19 : Fin 64) 0 W1 (xLanding m c (19 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev23_eq c)) (20 : Fin 64) 0 W1 (xLanding m c (20 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev24_eq c)) (21 : Fin 64) 0 W1 (xLanding m c (21 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev25_eq c)) (22 : Fin 64) 0 W1 (xLanding m c (22 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev26_eq c)) (23 : Fin 64) 0 W1 (xLanding m c (23 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev27_eq c)) (24 : Fin 64) 0 W1 (xLanding m c (24 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev28_eq c)) (25 : Fin 64) 0 W1 (xLanding m c (25 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev29_eq c)) (26 : Fin 64) 0 W1 (xLanding m c (26 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev30_eq c)) (27 : Fin 64) 0 W1 (xLanding m c (27 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev31_eq c)) (28 : Fin 64) 0 W1 (xLanding m c (28 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev32_eq c)) (29 : Fin 64) 0 W1 (xLanding m c (29 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev33_eq c)) (30 : Fin 64) 0 W1 (xLanding m c (30 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev34_eq c)) (31 : Fin 64) 0 W1 (xLanding m c (31 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev35_eq c)) (32 : Fin 64) 0 W1 (xLanding m c (32 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev36_eq c)) (33 : Fin 64) 0 W1 (xLanding m c (33 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev37_eq c)) (34 : Fin 64) 0 W1 (xLanding m c (34 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev38_eq c)) (35 : Fin 64) 0 W1 (xLanding m c (35 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev39_eq c)) (36 : Fin 64) 0 W1 (xLanding m c (36 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev40_eq c)) (37 : Fin 64) 0 W1 (xLanding m c (37 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev41_eq c)) (38 : Fin 64) 0 W1 (xLanding m c (38 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev42_eq c)) (39 : Fin 64) 0 W1 (xLanding m c (39 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev43_eq c)) (40 : Fin 64) 0 W1 (xLanding m c (40 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev44_eq c)) (41 : Fin 64) 0 W1 (xLanding m c (41 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev45_eq c)) (42 : Fin 64) 0 W1 (xLanding m c (42 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev46_eq c)) (43 : Fin 64) 0 W1 (xLanding m c (43 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev47_eq c)) (44 : Fin 64) 0 W1 (xLanding m c (44 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev48_eq c)) (45 : Fin 64) 0 W1 (xLanding m c (45 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev49_eq c)) (46 : Fin 64) 0 W1 (xLanding m c (46 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev50_eq c)) (47 : Fin 64) 0 W1 (xLanding m c (47 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev51_eq c)) (48 : Fin 64) 0 W1 (xLanding m c (48 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev52_eq c)) (49 : Fin 64) 0 W1 (xLanding m c (49 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev53_eq c)) (50 : Fin 64) 0 W1 (xLanding m c (50 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev54_eq c)) (51 : Fin 64) 0 W1 (xLanding m c (51 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev55_eq c)) (52 : Fin 64) 0 W1 (xLanding m c (52 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev56_eq c)) (53 : Fin 64) 0 W1 (xLanding m c (53 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev57_eq c)) (54 : Fin 64) 0 W1 (xLanding m c (54 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev58_eq c)) (55 : Fin 64) 0 W1 (xLanding m c (55 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev59_eq c)) (56 : Fin 64) 0 W1 (xLanding m c (56 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev60_eq c)) (57 : Fin 64) 0 W1 (xLanding m c (57 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev61_eq c)) (58 : Fin 64) 0 W1 (xLanding m c (58 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev62_eq c)) (59 : Fin 64) 0 W1 (xLanding m c (59 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev63_eq c)) (60 : Fin 64) 0 W1 (xLanding m c (60 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev64_eq c)) (61 : Fin 64) 0 W1 (xLanding m c (61 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev65_eq c)) (62 : Fin 64) 0 W1 (xLanding m c (62 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_xsend m K c _ (dev_xn c _ _ (k0_dev66_eq c)) (63 : Fin 64) 0 W1 (xLanding m c (63 : Fin 64))) $$ [HXt HXd HXc HO]
  · isplitr; · iexact Hrec
    isplitl [HXt]; · iexact HXt
    isplitl [HXd]; · iexact HXd
    isplitl [HXc]; · iexact HXc
    iexact HO
  iintro ⟨HXt, HXd, HXc, HO⟩
  iapply (wp_rxwait m K c (0 : Fin 64) W1 (mayWait_rx c (0 : Fin 64) 0)) $$ [HRXw HO]
  · isplitr; · iexact Hrec
    isplitr; · iexact Hlev
    isplitl [HRXw]; · iexact HRXw
    isplitl []; · (iapply (Entails.of_eq (GRXdone_zero (F := F) c).symm); iempintro)
    iexact HO
  iintro ⟨HRXw, HRXz, Hland, ⟨%W2, HO⟩⟩
  iapply (wp_ysend m K c _ (dev_yn c _ _ (k0_dev67_eq c)) (0 : Fin 64) W2 (yBuf_set_eq c (0 : Fin 64)) (fun fd => yLanding m c (0 : Fin 64) (outFinal m c) (fun _ _ => rfl) fd)) $$ [HYt HYd Hland HO]
  · isplitr; · iexact Hrec
    isplitl [HYt]; · iexact HYt
    isplitl [HYd]; · iexact HYd
    isplitl []; · (iapply (Entails.of_eq (GYcred_self (F := F) c 0).symm); iempintro)
    isplitl [Hland]; · iexact Hland
    iexact HO
  iintro ⟨HYt, HYd, HYc, HO⟩
  iapply (wp_rxwait m K c (1 : Fin 64) W2 (mayWait_rx c (1 : Fin 64) 1)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W3, HO⟩⟩
  iapply (wp_ysend m K c _ (dev_yn c _ _ (k0_dev68_eq c)) (1 : Fin 64) W3 (yBuf_set_eq c (1 : Fin 64)) (fun fd => yLanding m c (1 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (2 : Fin 64) W3 (mayWait_rx c (2 : Fin 64) 2)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W4, HO⟩⟩
  iapply (wp_ysend m K c _ (dev_yn c _ _ (k0_dev69_eq c)) (2 : Fin 64) W4 (yBuf_set_eq c (2 : Fin 64)) (fun fd => yLanding m c (2 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (3 : Fin 64) W4 (mayWait_rx c (3 : Fin 64) 3)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W5, HO⟩⟩
  iapply (wp_ysend m K c _ (dev_yn c _ _ (k0_dev70_eq c)) (3 : Fin 64) W5 (yBuf_set_eq c (3 : Fin 64)) (fun fd => yLanding m c (3 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (GLtok_open m c (0 : Fin 8)) $$ [HLt]
  · iexact HLt
  iintro ⟨⟨Hli, Hlo, Hsrc, Hdst⟩, HLt⟩
  ihave HS0 := (slotIdleR_start m K c (0 : Fin 2)) $$ [HS0]
  · isplitr; · iexact Hrec
    iexact HS0
  iapply (wp_copy_in m K c (0 : Fin 8)) $$ [Hli Hsrc HS0]
  · isplitr; · iexact Hrec
    isplitl [Hli]; · iexact Hli
    isplitl [Hsrc]; · iexact Hsrc
    iexact HS0
  iintro HS0
  iapply (wp_wait_in m K c (0 : Fin 8) (mayWait_lin c (0 : Fin 2) 64 _)) $$ [HS0 HO]
  · isplitr; · iexact Hrec
    isplitr; · iexact Hlev
    isplitl [HS0]; · iexact HS0
    iexists W5; iexact HO
  iintro ⟨HS0, Hsrc0, ⟨%W6, HO⟩⟩
  iapply (wp_copy_out m K c (0 : Fin 8)) $$ [Hlo Hdst HS0]
  · isplitr; · iexact Hrec
    isplitl [Hlo]; · iexact Hlo
    isplitl [Hdst]; · iexact Hdst
    iexact HS0
  iintro HS0
  iapply (wp_rxwait m K c (4 : Fin 64) W6 (mayWait_rx c (4 : Fin 64) 4)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W7, HO⟩⟩
  iapply (wp_ysend m K c _ (dev_yn c _ _ (k0_dev71_eq c)) (4 : Fin 64) W7 (yBuf_set_eq c (4 : Fin 64)) (fun fd => yLanding m c (4 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (5 : Fin 64) W7 (mayWait_rx c (5 : Fin 64) 5)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W8, HO⟩⟩
  iapply (wp_ysend m K c _ (dev_yn c _ _ (k0_dev72_eq c)) (5 : Fin 64) W8 (yBuf_set_eq c (5 : Fin 64)) (fun fd => yLanding m c (5 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (6 : Fin 64) W8 (mayWait_rx c (6 : Fin 64) 6)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W9, HO⟩⟩
  iapply (wp_ysend m K c _ (dev_yn c _ _ (k0_dev73_eq c)) (6 : Fin 64) W9 (yBuf_set_eq c (6 : Fin 64)) (fun fd => yLanding m c (6 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (7 : Fin 64) W9 (mayWait_rx c (7 : Fin 64) 7)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W10, HO⟩⟩
  iapply (wp_ysend m K c _ (dev_yn c _ _ (k0_dev74_eq c)) (7 : Fin 64) W10 (yBuf_set_eq c (7 : Fin 64)) (fun fd => yLanding m c (7 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (GLtok_open m c (1 : Fin 8)) $$ [HLt]
  · iexact HLt
  iintro ⟨⟨Hli, Hlo, Hsrc, Hdst⟩, HLt⟩
  ihave HS1 := (slotIdleR_start m K c (1 : Fin 2)) $$ [HS1]
  · isplitr; · iexact Hrec
    iexact HS1
  iapply (wp_copy_in m K c (1 : Fin 8)) $$ [Hli Hsrc HS1]
  · isplitr; · iexact Hrec
    isplitl [Hli]; · iexact Hli
    isplitl [Hsrc]; · iexact Hsrc
    iexact HS1
  iintro HS1
  iapply (wp_wait_in m K c (1 : Fin 8) (mayWait_lin c (1 : Fin 2) 64 _)) $$ [HS1 HO]
  · isplitr; · iexact Hrec
    isplitr; · iexact Hlev
    isplitl [HS1]; · iexact HS1
    iexists W10; iexact HO
  iintro ⟨HS1, Hsrc1, ⟨%W11, HO⟩⟩
  iapply (wp_copy_out m K c (1 : Fin 8)) $$ [Hlo Hdst HS1]
  · isplitr; · iexact Hrec
    isplitl [Hlo]; · iexact Hlo
    isplitl [Hdst]; · iexact Hdst
    iexact HS1
  iintro HS1
  iapply (wp_rxwait m K c (8 : Fin 64) W11 (mayWait_rx c (8 : Fin 64) 8)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W12, HO⟩⟩
  iapply (wp_ysend m K c _ (dev_yn c _ _ (k0_dev75_eq c)) (8 : Fin 64) W12 (yBuf_set_eq c (8 : Fin 64)) (fun fd => yLanding m c (8 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (9 : Fin 64) W12 (mayWait_rx c (9 : Fin 64) 9)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W13, HO⟩⟩
  iapply (wp_ysend m K c _ (dev_yn c _ _ (k0_dev76_eq c)) (9 : Fin 64) W13 (yBuf_set_eq c (9 : Fin 64)) (fun fd => yLanding m c (9 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (10 : Fin 64) W13 (mayWait_rx c (10 : Fin 64) 10)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W14, HO⟩⟩
  iapply (wp_ysend m K c _ (dev_yn c _ _ (k0_dev77_eq c)) (10 : Fin 64) W14 (yBuf_set_eq c (10 : Fin 64)) (fun fd => yLanding m c (10 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (11 : Fin 64) W14 (mayWait_rx c (11 : Fin 64) 11)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W15, HO⟩⟩
  iapply (wp_ysend m K c _ (dev_yn c _ _ (k0_dev78_eq c)) (11 : Fin 64) W15 (yBuf_set_eq c (11 : Fin 64)) (fun fd => yLanding m c (11 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_wait_out m K c (0 : Fin 8) (mayWait_lout c (0 : Fin 2) 64 _)) $$ [HS0 HO]
  · isplitr; · iexact Hrec
    isplitr; · iexact Hlev
    isplitl [HS0]; · iexact HS0
    iexists W15; iexact HO
  iintro ⟨HS0, Hout0, ⟨%W16, HO⟩⟩
  iapply (GLtok_open m c (2 : Fin 8)) $$ [HLt]
  · iexact HLt
  iintro ⟨⟨Hli, Hlo, Hsrc, Hdst⟩, HLt⟩
  iapply (wp_copy_in m K c (2 : Fin 8)) $$ [Hli Hsrc HS0]
  · isplitr; · iexact Hrec
    isplitl [Hli]; · iexact Hli
    isplitl [Hsrc]; · iexact Hsrc
    iexact HS0
  iintro HS0
  iapply (wp_wait_in m K c (2 : Fin 8) (mayWait_lin c (0 : Fin 2) 64 _)) $$ [HS0 HO]
  · isplitr; · iexact Hrec
    isplitr; · iexact Hlev
    isplitl [HS0]; · iexact HS0
    iexists W16; iexact HO
  iintro ⟨HS0, Hsrc2, ⟨%W17, HO⟩⟩
  iapply (wp_copy_out m K c (2 : Fin 8)) $$ [Hlo Hdst HS0]
  · isplitr; · iexact Hrec
    isplitl [Hlo]; · iexact Hlo
    isplitl [Hdst]; · iexact Hdst
    iexact HS0
  iintro HS0
  iapply (wp_rxwait m K c (12 : Fin 64) W17 (mayWait_rx c (12 : Fin 64) 12)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W18, HO⟩⟩
  iapply (wp_ysend m K c _ (dev_yn c _ _ (k0_dev79_eq c)) (12 : Fin 64) W18 (yBuf_set_eq c (12 : Fin 64)) (fun fd => yLanding m c (12 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (13 : Fin 64) W18 (mayWait_rx c (13 : Fin 64) 13)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W19, HO⟩⟩
  iapply (wp_ysend m K c _ (dev_yn c _ _ (k0_dev80_eq c)) (13 : Fin 64) W19 (yBuf_set_eq c (13 : Fin 64)) (fun fd => yLanding m c (13 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (14 : Fin 64) W19 (mayWait_rx c (14 : Fin 64) 14)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W20, HO⟩⟩
  iapply (wp_ysend m K c _ (dev_yn c _ _ (k0_dev81_eq c)) (14 : Fin 64) W20 (yBuf_set_eq c (14 : Fin 64)) (fun fd => yLanding m c (14 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (15 : Fin 64) W20 (mayWait_rx c (15 : Fin 64) 15)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W21, HO⟩⟩
  iapply (wp_ysend m K c _ (dev_yn c _ _ (k0_dev82_eq c)) (15 : Fin 64) W21 (yBuf_set_eq c (15 : Fin 64)) (fun fd => yLanding m c (15 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_wait_out m K c (1 : Fin 8) (mayWait_lout c (1 : Fin 2) 64 _)) $$ [HS1 HO]
  · isplitr; · iexact Hrec
    isplitr; · iexact Hlev
    isplitl [HS1]; · iexact HS1
    iexists W21; iexact HO
  iintro ⟨HS1, Hout1, ⟨%W22, HO⟩⟩
  iapply (GLtok_open m c (3 : Fin 8)) $$ [HLt]
  · iexact HLt
  iintro ⟨⟨Hli, Hlo, Hsrc, Hdst⟩, HLt⟩
  iapply (wp_copy_in m K c (3 : Fin 8)) $$ [Hli Hsrc HS1]
  · isplitr; · iexact Hrec
    isplitl [Hli]; · iexact Hli
    isplitl [Hsrc]; · iexact Hsrc
    iexact HS1
  iintro HS1
  iapply (wp_wait_in m K c (3 : Fin 8) (mayWait_lin c (1 : Fin 2) 64 _)) $$ [HS1 HO]
  · isplitr; · iexact Hrec
    isplitr; · iexact Hlev
    isplitl [HS1]; · iexact HS1
    iexists W22; iexact HO
  iintro ⟨HS1, Hsrc3, ⟨%W23, HO⟩⟩
  iapply (wp_copy_out m K c (3 : Fin 8)) $$ [Hlo Hdst HS1]
  · isplitr; · iexact Hrec
    isplitl [Hlo]; · iexact Hlo
    isplitl [Hdst]; · iexact Hdst
    iexact HS1
  iintro HS1
  iapply (wp_rxwait m K c (16 : Fin 64) W23 (mayWait_rx c (16 : Fin 64) 16)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W24, HO⟩⟩
  iapply (wp_ysend m K c _ (dev_yn c _ _ (k0_dev83_eq c)) (16 : Fin 64) W24 (yBuf_set_eq c (16 : Fin 64)) (fun fd => yLanding m c (16 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (17 : Fin 64) W24 (mayWait_rx c (17 : Fin 64) 17)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W25, HO⟩⟩
  iapply (wp_ysend m K c _ (dev_yn c _ _ (k0_dev84_eq c)) (17 : Fin 64) W25 (yBuf_set_eq c (17 : Fin 64)) (fun fd => yLanding m c (17 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (18 : Fin 64) W25 (mayWait_rx c (18 : Fin 64) 18)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W26, HO⟩⟩
  iapply (wp_ysend m K c _ (dev_yn c _ _ (k0_dev85_eq c)) (18 : Fin 64) W26 (yBuf_set_eq c (18 : Fin 64)) (fun fd => yLanding m c (18 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (19 : Fin 64) W26 (mayWait_rx c (19 : Fin 64) 19)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W27, HO⟩⟩
  iapply (wp_ysend m K c _ (dev_yn c _ _ (k0_dev86_eq c)) (19 : Fin 64) W27 (yBuf_set_eq c (19 : Fin 64)) (fun fd => yLanding m c (19 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_wait_out m K c (2 : Fin 8) (mayWait_lout c (0 : Fin 2) 64 _)) $$ [HS0 HO]
  · isplitr; · iexact Hrec
    isplitr; · iexact Hlev
    isplitl [HS0]; · iexact HS0
    iexists W27; iexact HO
  iintro ⟨HS0, Hout2, ⟨%W28, HO⟩⟩
  iapply (GLtok_open m c (4 : Fin 8)) $$ [HLt]
  · iexact HLt
  iintro ⟨⟨Hli, Hlo, Hsrc, Hdst⟩, HLt⟩
  iapply (wp_copy_in m K c (4 : Fin 8)) $$ [Hli Hsrc HS0]
  · isplitr; · iexact Hrec
    isplitl [Hli]; · iexact Hli
    isplitl [Hsrc]; · iexact Hsrc
    iexact HS0
  iintro HS0
  iapply (wp_wait_in m K c (4 : Fin 8) (mayWait_lin c (0 : Fin 2) 64 _)) $$ [HS0 HO]
  · isplitr; · iexact Hrec
    isplitr; · iexact Hlev
    isplitl [HS0]; · iexact HS0
    iexists W28; iexact HO
  iintro ⟨HS0, Hsrc4, ⟨%W29, HO⟩⟩
  iapply (wp_copy_out m K c (4 : Fin 8)) $$ [Hlo Hdst HS0]
  · isplitr; · iexact Hrec
    isplitl [Hlo]; · iexact Hlo
    isplitl [Hdst]; · iexact Hdst
    iexact HS0
  iintro HS0
  iapply (wp_rxwait m K c (20 : Fin 64) W29 (mayWait_rx c (20 : Fin 64) 20)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W30, HO⟩⟩
  iapply (wp_ysend m K c _ (dev_yn c _ _ (k0_dev87_eq c)) (20 : Fin 64) W30 (yBuf_set_eq c (20 : Fin 64)) (fun fd => yLanding m c (20 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (21 : Fin 64) W30 (mayWait_rx c (21 : Fin 64) 21)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W31, HO⟩⟩
  iapply (wp_ysend m K c _ (dev_yn c _ _ (k0_dev88_eq c)) (21 : Fin 64) W31 (yBuf_set_eq c (21 : Fin 64)) (fun fd => yLanding m c (21 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (22 : Fin 64) W31 (mayWait_rx c (22 : Fin 64) 22)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W32, HO⟩⟩
  iapply (wp_ysend m K c _ (dev_yn c _ _ (k0_dev89_eq c)) (22 : Fin 64) W32 (yBuf_set_eq c (22 : Fin 64)) (fun fd => yLanding m c (22 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (23 : Fin 64) W32 (mayWait_rx c (23 : Fin 64) 23)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W33, HO⟩⟩
  iapply (wp_ysend m K c _ (dev_yn c _ _ (k0_dev90_eq c)) (23 : Fin 64) W33 (yBuf_set_eq c (23 : Fin 64)) (fun fd => yLanding m c (23 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_wait_out m K c (3 : Fin 8) (mayWait_lout c (1 : Fin 2) 64 _)) $$ [HS1 HO]
  · isplitr; · iexact Hrec
    isplitr; · iexact Hlev
    isplitl [HS1]; · iexact HS1
    iexists W33; iexact HO
  iintro ⟨HS1, Hout3, ⟨%W34, HO⟩⟩
  iapply (GLtok_open m c (5 : Fin 8)) $$ [HLt]
  · iexact HLt
  iintro ⟨⟨Hli, Hlo, Hsrc, Hdst⟩, HLt⟩
  iapply (wp_copy_in m K c (5 : Fin 8)) $$ [Hli Hsrc HS1]
  · isplitr; · iexact Hrec
    isplitl [Hli]; · iexact Hli
    isplitl [Hsrc]; · iexact Hsrc
    iexact HS1
  iintro HS1
  iapply (wp_wait_in m K c (5 : Fin 8) (mayWait_lin c (1 : Fin 2) 64 _)) $$ [HS1 HO]
  · isplitr; · iexact Hrec
    isplitr; · iexact Hlev
    isplitl [HS1]; · iexact HS1
    iexists W34; iexact HO
  iintro ⟨HS1, Hsrc5, ⟨%W35, HO⟩⟩
  iapply (wp_copy_out m K c (5 : Fin 8)) $$ [Hlo Hdst HS1]
  · isplitr; · iexact Hrec
    isplitl [Hlo]; · iexact Hlo
    isplitl [Hdst]; · iexact Hdst
    iexact HS1
  iintro HS1
  iapply (wp_rxwait m K c (24 : Fin 64) W35 (mayWait_rx c (24 : Fin 64) 24)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W36, HO⟩⟩
  iapply (wp_ysend m K c _ (dev_yn c _ _ (k0_dev91_eq c)) (24 : Fin 64) W36 (yBuf_set_eq c (24 : Fin 64)) (fun fd => yLanding m c (24 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (25 : Fin 64) W36 (mayWait_rx c (25 : Fin 64) 25)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W37, HO⟩⟩
  iapply (wp_ysend m K c _ (dev_yn c _ _ (k0_dev92_eq c)) (25 : Fin 64) W37 (yBuf_set_eq c (25 : Fin 64)) (fun fd => yLanding m c (25 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (26 : Fin 64) W37 (mayWait_rx c (26 : Fin 64) 26)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W38, HO⟩⟩
  iapply (wp_ysend m K c _ (dev_yn c _ _ (k0_dev93_eq c)) (26 : Fin 64) W38 (yBuf_set_eq c (26 : Fin 64)) (fun fd => yLanding m c (26 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (27 : Fin 64) W38 (mayWait_rx c (27 : Fin 64) 27)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W39, HO⟩⟩
  iapply (wp_ysend m K c _ (dev_yn c _ _ (k0_dev94_eq c)) (27 : Fin 64) W39 (yBuf_set_eq c (27 : Fin 64)) (fun fd => yLanding m c (27 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_wait_out m K c (4 : Fin 8) (mayWait_lout c (0 : Fin 2) 64 _)) $$ [HS0 HO]
  · isplitr; · iexact Hrec
    isplitr; · iexact Hlev
    isplitl [HS0]; · iexact HS0
    iexists W39; iexact HO
  iintro ⟨HS0, Hout4, ⟨%W40, HO⟩⟩
  iapply (GLtok_open m c (6 : Fin 8)) $$ [HLt]
  · iexact HLt
  iintro ⟨⟨Hli, Hlo, Hsrc, Hdst⟩, HLt⟩
  iapply (wp_copy_in m K c (6 : Fin 8)) $$ [Hli Hsrc HS0]
  · isplitr; · iexact Hrec
    isplitl [Hli]; · iexact Hli
    isplitl [Hsrc]; · iexact Hsrc
    iexact HS0
  iintro HS0
  iapply (wp_wait_in m K c (6 : Fin 8) (mayWait_lin c (0 : Fin 2) 64 _)) $$ [HS0 HO]
  · isplitr; · iexact Hrec
    isplitr; · iexact Hlev
    isplitl [HS0]; · iexact HS0
    iexists W40; iexact HO
  iintro ⟨HS0, Hsrc6, ⟨%W41, HO⟩⟩
  iapply (wp_copy_out m K c (6 : Fin 8)) $$ [Hlo Hdst HS0]
  · isplitr; · iexact Hrec
    isplitl [Hlo]; · iexact Hlo
    isplitl [Hdst]; · iexact Hdst
    iexact HS0
  iintro HS0
  iapply (wp_rxwait m K c (28 : Fin 64) W41 (mayWait_rx c (28 : Fin 64) 28)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W42, HO⟩⟩
  iapply (wp_ysend m K c _ (dev_yn c _ _ (k0_dev95_eq c)) (28 : Fin 64) W42 (yBuf_set_eq c (28 : Fin 64)) (fun fd => yLanding m c (28 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (29 : Fin 64) W42 (mayWait_rx c (29 : Fin 64) 29)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W43, HO⟩⟩
  iapply (wp_ysend m K c _ (dev_yn c _ _ (k0_dev96_eq c)) (29 : Fin 64) W43 (yBuf_set_eq c (29 : Fin 64)) (fun fd => yLanding m c (29 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (30 : Fin 64) W43 (mayWait_rx c (30 : Fin 64) 30)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W44, HO⟩⟩
  iapply (wp_ysend m K c _ (dev_yn c _ _ (k0_dev97_eq c)) (30 : Fin 64) W44 (yBuf_set_eq c (30 : Fin 64)) (fun fd => yLanding m c (30 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (31 : Fin 64) W44 (mayWait_rx c (31 : Fin 64) 31)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W45, HO⟩⟩
  iapply (wp_ysend m K c _ (dev_yn c _ _ (k0_dev98_eq c)) (31 : Fin 64) W45 (yBuf_set_eq c (31 : Fin 64)) (fun fd => yLanding m c (31 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_wait_out m K c (5 : Fin 8) (mayWait_lout c (1 : Fin 2) 64 _)) $$ [HS1 HO]
  · isplitr; · iexact Hrec
    isplitr; · iexact Hlev
    isplitl [HS1]; · iexact HS1
    iexists W45; iexact HO
  iintro ⟨HS1, Hout5, ⟨%W46, HO⟩⟩
  iapply (GLtok_open m c (7 : Fin 8)) $$ [HLt]
  · iexact HLt
  iintro ⟨⟨Hli, Hlo, Hsrc, Hdst⟩, HLt⟩
  iapply (wp_copy_in m K c (7 : Fin 8)) $$ [Hli Hsrc HS1]
  · isplitr; · iexact Hrec
    isplitl [Hli]; · iexact Hli
    isplitl [Hsrc]; · iexact Hsrc
    iexact HS1
  iintro HS1
  iapply (wp_wait_in m K c (7 : Fin 8) (mayWait_lin c (1 : Fin 2) 64 _)) $$ [HS1 HO]
  · isplitr; · iexact Hrec
    isplitr; · iexact Hlev
    isplitl [HS1]; · iexact HS1
    iexists W46; iexact HO
  iintro ⟨HS1, Hsrc7, ⟨%W47, HO⟩⟩
  iapply (wp_copy_out m K c (7 : Fin 8)) $$ [Hlo Hdst HS1]
  · isplitr; · iexact Hrec
    isplitl [Hlo]; · iexact Hlo
    isplitl [Hdst]; · iexact Hdst
    iexact HS1
  iintro HS1
  iapply (wp_rxwait m K c (32 : Fin 64) W47 (mayWait_rx c (32 : Fin 64) 32)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W48, HO⟩⟩
  iapply (wp_ysend m K c _ (dev_yn c _ _ (k0_dev99_eq c)) (32 : Fin 64) W48 (yBuf_set_eq c (32 : Fin 64)) (fun fd => yLanding m c (32 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (33 : Fin 64) W48 (mayWait_rx c (33 : Fin 64) 33)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W49, HO⟩⟩
  iapply (wp_ysend m K c _ (dev_yn c _ _ (k0_dev100_eq c)) (33 : Fin 64) W49 (yBuf_set_eq c (33 : Fin 64)) (fun fd => yLanding m c (33 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (34 : Fin 64) W49 (mayWait_rx c (34 : Fin 64) 34)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W50, HO⟩⟩
  iapply (wp_ysend m K c _ (dev_yn c _ _ (k0_dev101_eq c)) (34 : Fin 64) W50 (yBuf_set_eq c (34 : Fin 64)) (fun fd => yLanding m c (34 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (35 : Fin 64) W50 (mayWait_rx c (35 : Fin 64) 35)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W51, HO⟩⟩
  iapply (wp_ysend m K c _ (dev_yn c _ _ (k0_dev102_eq c)) (35 : Fin 64) W51 (yBuf_set_eq c (35 : Fin 64)) (fun fd => yLanding m c (35 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (36 : Fin 64) W51 (mayWait_rx c (36 : Fin 64) 36)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W52, HO⟩⟩
  iapply (wp_ysend m K c _ (dev_yn c _ _ (k0_dev103_eq c)) (36 : Fin 64) W52 (yBuf_set_eq c (36 : Fin 64)) (fun fd => yLanding m c (36 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (37 : Fin 64) W52 (mayWait_rx c (37 : Fin 64) 37)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W53, HO⟩⟩
  iapply (wp_ysend m K c _ (dev_yn c _ _ (k0_dev104_eq c)) (37 : Fin 64) W53 (yBuf_set_eq c (37 : Fin 64)) (fun fd => yLanding m c (37 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (38 : Fin 64) W53 (mayWait_rx c (38 : Fin 64) 38)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W54, HO⟩⟩
  iapply (wp_ysend m K c _ (dev_yn c _ _ (k0_dev105_eq c)) (38 : Fin 64) W54 (yBuf_set_eq c (38 : Fin 64)) (fun fd => yLanding m c (38 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (39 : Fin 64) W54 (mayWait_rx c (39 : Fin 64) 39)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W55, HO⟩⟩
  iapply (wp_ysend m K c _ (dev_yn c _ _ (k0_dev106_eq c)) (39 : Fin 64) W55 (yBuf_set_eq c (39 : Fin 64)) (fun fd => yLanding m c (39 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (40 : Fin 64) W55 (mayWait_rx c (40 : Fin 64) 40)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W56, HO⟩⟩
  iapply (wp_ysend m K c _ (dev_yn c _ _ (k0_dev107_eq c)) (40 : Fin 64) W56 (yBuf_set_eq c (40 : Fin 64)) (fun fd => yLanding m c (40 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (41 : Fin 64) W56 (mayWait_rx c (41 : Fin 64) 41)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W57, HO⟩⟩
  iapply (wp_ysend m K c _ (dev_yn c _ _ (k0_dev108_eq c)) (41 : Fin 64) W57 (yBuf_set_eq c (41 : Fin 64)) (fun fd => yLanding m c (41 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (42 : Fin 64) W57 (mayWait_rx c (42 : Fin 64) 42)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W58, HO⟩⟩
  iapply (wp_ysend m K c _ (dev_yn c _ _ (k0_dev109_eq c)) (42 : Fin 64) W58 (yBuf_set_eq c (42 : Fin 64)) (fun fd => yLanding m c (42 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (43 : Fin 64) W58 (mayWait_rx c (43 : Fin 64) 43)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W59, HO⟩⟩
  iapply (wp_ysend m K c _ (dev_yn c _ _ (k0_dev110_eq c)) (43 : Fin 64) W59 (yBuf_set_eq c (43 : Fin 64)) (fun fd => yLanding m c (43 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (44 : Fin 64) W59 (mayWait_rx c (44 : Fin 64) 44)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W60, HO⟩⟩
  iapply (wp_ysend m K c _ (dev_yn c _ _ (k0_dev111_eq c)) (44 : Fin 64) W60 (yBuf_set_eq c (44 : Fin 64)) (fun fd => yLanding m c (44 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (45 : Fin 64) W60 (mayWait_rx c (45 : Fin 64) 45)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W61, HO⟩⟩
  iapply (wp_ysend m K c _ (dev_yn c _ _ (k0_dev112_eq c)) (45 : Fin 64) W61 (yBuf_set_eq c (45 : Fin 64)) (fun fd => yLanding m c (45 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (46 : Fin 64) W61 (mayWait_rx c (46 : Fin 64) 46)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W62, HO⟩⟩
  iapply (wp_ysend m K c _ (dev_yn c _ _ (k0_dev113_eq c)) (46 : Fin 64) W62 (yBuf_set_eq c (46 : Fin 64)) (fun fd => yLanding m c (46 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (47 : Fin 64) W62 (mayWait_rx c (47 : Fin 64) 47)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W63, HO⟩⟩
  iapply (wp_ysend m K c _ (dev_yn c _ _ (k0_dev114_eq c)) (47 : Fin 64) W63 (yBuf_set_eq c (47 : Fin 64)) (fun fd => yLanding m c (47 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (48 : Fin 64) W63 (mayWait_rx c (48 : Fin 64) 48)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W64, HO⟩⟩
  iapply (wp_ysend m K c _ (dev_yn c _ _ (k0_dev115_eq c)) (48 : Fin 64) W64 (yBuf_set_eq c (48 : Fin 64)) (fun fd => yLanding m c (48 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (49 : Fin 64) W64 (mayWait_rx c (49 : Fin 64) 49)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W65, HO⟩⟩
  iapply (wp_ysend m K c _ (dev_yn c _ _ (k0_dev116_eq c)) (49 : Fin 64) W65 (yBuf_set_eq c (49 : Fin 64)) (fun fd => yLanding m c (49 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (50 : Fin 64) W65 (mayWait_rx c (50 : Fin 64) 50)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W66, HO⟩⟩
  iapply (wp_ysend m K c _ (dev_yn c _ _ (k0_dev117_eq c)) (50 : Fin 64) W66 (yBuf_set_eq c (50 : Fin 64)) (fun fd => yLanding m c (50 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (51 : Fin 64) W66 (mayWait_rx c (51 : Fin 64) 51)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W67, HO⟩⟩
  iapply (wp_ysend m K c _ (dev_yn c _ _ (k0_dev118_eq c)) (51 : Fin 64) W67 (yBuf_set_eq c (51 : Fin 64)) (fun fd => yLanding m c (51 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (52 : Fin 64) W67 (mayWait_rx c (52 : Fin 64) 52)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W68, HO⟩⟩
  iapply (wp_ysend m K c _ (dev_yn c _ _ (k0_dev119_eq c)) (52 : Fin 64) W68 (yBuf_set_eq c (52 : Fin 64)) (fun fd => yLanding m c (52 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (53 : Fin 64) W68 (mayWait_rx c (53 : Fin 64) 53)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W69, HO⟩⟩
  iapply (wp_ysend m K c _ (dev_yn c _ _ (k0_dev120_eq c)) (53 : Fin 64) W69 (yBuf_set_eq c (53 : Fin 64)) (fun fd => yLanding m c (53 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (54 : Fin 64) W69 (mayWait_rx c (54 : Fin 64) 54)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W70, HO⟩⟩
  iapply (wp_ysend m K c _ (dev_yn c _ _ (k0_dev121_eq c)) (54 : Fin 64) W70 (yBuf_set_eq c (54 : Fin 64)) (fun fd => yLanding m c (54 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (55 : Fin 64) W70 (mayWait_rx c (55 : Fin 64) 55)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W71, HO⟩⟩
  iapply (wp_ysend m K c _ (dev_yn c _ _ (k0_dev122_eq c)) (55 : Fin 64) W71 (yBuf_set_eq c (55 : Fin 64)) (fun fd => yLanding m c (55 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (56 : Fin 64) W71 (mayWait_rx c (56 : Fin 64) 56)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W72, HO⟩⟩
  iapply (wp_ysend m K c _ (dev_yn c _ _ (k0_dev123_eq c)) (56 : Fin 64) W72 (yBuf_set_eq c (56 : Fin 64)) (fun fd => yLanding m c (56 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (57 : Fin 64) W72 (mayWait_rx c (57 : Fin 64) 57)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W73, HO⟩⟩
  iapply (wp_ysend m K c _ (dev_yn c _ _ (k0_dev124_eq c)) (57 : Fin 64) W73 (yBuf_set_eq c (57 : Fin 64)) (fun fd => yLanding m c (57 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (58 : Fin 64) W73 (mayWait_rx c (58 : Fin 64) 58)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W74, HO⟩⟩
  iapply (wp_ysend m K c _ (dev_yn c _ _ (k0_dev125_eq c)) (58 : Fin 64) W74 (yBuf_set_eq c (58 : Fin 64)) (fun fd => yLanding m c (58 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (59 : Fin 64) W74 (mayWait_rx c (59 : Fin 64) 59)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W75, HO⟩⟩
  iapply (wp_ysend m K c _ (dev_yn c _ _ (k0_dev126_eq c)) (59 : Fin 64) W75 (yBuf_set_eq c (59 : Fin 64)) (fun fd => yLanding m c (59 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (60 : Fin 64) W75 (mayWait_rx c (60 : Fin 64) 60)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W76, HO⟩⟩
  iapply (wp_ysend m K c _ (dev_yn c _ _ (k0_dev127_eq c)) (60 : Fin 64) W76 (yBuf_set_eq c (60 : Fin 64)) (fun fd => yLanding m c (60 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (61 : Fin 64) W76 (mayWait_rx c (61 : Fin 64) 61)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W77, HO⟩⟩
  iapply (wp_ysend m K c _ (dev_yn c _ _ (k0_dev128_eq c)) (61 : Fin 64) W77 (yBuf_set_eq c (61 : Fin 64)) (fun fd => yLanding m c (61 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (62 : Fin 64) W77 (mayWait_rx c (62 : Fin 64) 62)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W78, HO⟩⟩
  iapply (wp_ysend m K c _ (dev_yn c _ _ (k0_dev129_eq c)) (62 : Fin 64) W78 (yBuf_set_eq c (62 : Fin 64)) (fun fd => yLanding m c (62 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_rxwait m K c (63 : Fin 64) W78 (mayWait_rx c (63 : Fin 64) 63)) $$ [HRXw HRXz HO]
  · isplitr; · iexact Hrec
    isplitr; · iexact Hlev
    isplitl [HRXw]; · iexact HRXw
    isplitl [HRXz]; · iexact HRXz
    iexact HO
  iintro ⟨HRXw, HRXz, Hland, ⟨%W79, HO⟩⟩
  iapply (wp_ysend m K c _ (dev_yn c _ _ (k0_dev130_eq c)) (63 : Fin 64) W79 (yBuf_set_eq c (63 : Fin 64)) (fun fd => yLanding m c (63 : Fin 64) (outFinal m c) (fun _ _ => rfl) fd)) $$ [HYt HYd HYc Hland HO]
  · isplitr; · iexact Hrec
    isplitl [HYt]; · iexact HYt
    isplitl [HYd]; · iexact HYd
    isplitl [HYc]; · iexact HYc
    isplitl [Hland]; · iexact Hland
    iexact HO
  iintro ⟨HYt, HYd, HYc, HO⟩
  iapply (wp_ry_wait m K c (0 : Fin 64) W79) $$ [HRYw HO]
  · isplitr; · iexact Hrec
    isplitl [HRYw]; · iexact HRYw
    isplitl []; · (iapply (Entails.of_eq (GRYdone_zero m c).symm); iempintro)
    iexact HO
  iintro ⟨HRYw, HRYz, ⟨%W80, HO⟩⟩
  iapply (wp_ry_wait m K c (1 : Fin 64) W80) $$ [HRYw HRYz HO]
  · isplitr; · iexact Hrec
    isplitl [HRYw]; · iexact HRYw
    isplitl [HRYz]; · iexact HRYz
    iexact HO
  iintro ⟨HRYw, HRYz, ⟨%W81, HO⟩⟩
  iapply (wp_ry_wait m K c (2 : Fin 64) W81) $$ [HRYw HRYz HO]
  · isplitr; · iexact Hrec
    isplitl [HRYw]; · iexact HRYw
    isplitl [HRYz]; · iexact HRYz
    iexact HO
  iintro ⟨HRYw, HRYz, ⟨%W82, HO⟩⟩
  iapply (wp_ry_wait m K c (3 : Fin 64) W82) $$ [HRYw HRYz HO]
  · isplitr; · iexact Hrec
    isplitl [HRYw]; · iexact HRYw
    isplitl [HRYz]; · iexact HRYz
    iexact HO
  iintro ⟨HRYw, HRYz, ⟨%W83, HO⟩⟩
  iapply (wp_ry_wait m K c (4 : Fin 64) W83) $$ [HRYw HRYz HO]
  · isplitr; · iexact Hrec
    isplitl [HRYw]; · iexact HRYw
    isplitl [HRYz]; · iexact HRYz
    iexact HO
  iintro ⟨HRYw, HRYz, ⟨%W84, HO⟩⟩
  iapply (wp_ry_wait m K c (5 : Fin 64) W84) $$ [HRYw HRYz HO]
  · isplitr; · iexact Hrec
    isplitl [HRYw]; · iexact HRYw
    isplitl [HRYz]; · iexact HRYz
    iexact HO
  iintro ⟨HRYw, HRYz, ⟨%W85, HO⟩⟩
  iapply (wp_ry_wait m K c (6 : Fin 64) W85) $$ [HRYw HRYz HO]
  · isplitr; · iexact Hrec
    isplitl [HRYw]; · iexact HRYw
    isplitl [HRYz]; · iexact HRYz
    iexact HO
  iintro ⟨HRYw, HRYz, ⟨%W86, HO⟩⟩
  iapply (wp_ry_wait m K c (7 : Fin 64) W86) $$ [HRYw HRYz HO]
  · isplitr; · iexact Hrec
    isplitl [HRYw]; · iexact HRYw
    isplitl [HRYz]; · iexact HRYz
    iexact HO
  iintro ⟨HRYw, HRYz, ⟨%W87, HO⟩⟩
  iapply (wp_ry_wait m K c (8 : Fin 64) W87) $$ [HRYw HRYz HO]
  · isplitr; · iexact Hrec
    isplitl [HRYw]; · iexact HRYw
    isplitl [HRYz]; · iexact HRYz
    iexact HO
  iintro ⟨HRYw, HRYz, ⟨%W88, HO⟩⟩
  iapply (wp_ry_wait m K c (9 : Fin 64) W88) $$ [HRYw HRYz HO]
  · isplitr; · iexact Hrec
    isplitl [HRYw]; · iexact HRYw
    isplitl [HRYz]; · iexact HRYz
    iexact HO
  iintro ⟨HRYw, HRYz, ⟨%W89, HO⟩⟩
  iapply (wp_ry_wait m K c (10 : Fin 64) W89) $$ [HRYw HRYz HO]
  · isplitr; · iexact Hrec
    isplitl [HRYw]; · iexact HRYw
    isplitl [HRYz]; · iexact HRYz
    iexact HO
  iintro ⟨HRYw, HRYz, ⟨%W90, HO⟩⟩
  iapply (wp_ry_wait m K c (11 : Fin 64) W90) $$ [HRYw HRYz HO]
  · isplitr; · iexact Hrec
    isplitl [HRYw]; · iexact HRYw
    isplitl [HRYz]; · iexact HRYz
    iexact HO
  iintro ⟨HRYw, HRYz, ⟨%W91, HO⟩⟩
  iapply (wp_ry_wait m K c (12 : Fin 64) W91) $$ [HRYw HRYz HO]
  · isplitr; · iexact Hrec
    isplitl [HRYw]; · iexact HRYw
    isplitl [HRYz]; · iexact HRYz
    iexact HO
  iintro ⟨HRYw, HRYz, ⟨%W92, HO⟩⟩
  iapply (wp_ry_wait m K c (13 : Fin 64) W92) $$ [HRYw HRYz HO]
  · isplitr; · iexact Hrec
    isplitl [HRYw]; · iexact HRYw
    isplitl [HRYz]; · iexact HRYz
    iexact HO
  iintro ⟨HRYw, HRYz, ⟨%W93, HO⟩⟩
  iapply (wp_ry_wait m K c (14 : Fin 64) W93) $$ [HRYw HRYz HO]
  · isplitr; · iexact Hrec
    isplitl [HRYw]; · iexact HRYw
    isplitl [HRYz]; · iexact HRYz
    iexact HO
  iintro ⟨HRYw, HRYz, ⟨%W94, HO⟩⟩
  iapply (wp_ry_wait m K c (15 : Fin 64) W94) $$ [HRYw HRYz HO]
  · isplitr; · iexact Hrec
    isplitl [HRYw]; · iexact HRYw
    isplitl [HRYz]; · iexact HRYz
    iexact HO
  iintro ⟨HRYw, HRYz, ⟨%W95, HO⟩⟩
  iapply (wp_ry_wait m K c (16 : Fin 64) W95) $$ [HRYw HRYz HO]
  · isplitr; · iexact Hrec
    isplitl [HRYw]; · iexact HRYw
    isplitl [HRYz]; · iexact HRYz
    iexact HO
  iintro ⟨HRYw, HRYz, ⟨%W96, HO⟩⟩
  iapply (wp_ry_wait m K c (17 : Fin 64) W96) $$ [HRYw HRYz HO]
  · isplitr; · iexact Hrec
    isplitl [HRYw]; · iexact HRYw
    isplitl [HRYz]; · iexact HRYz
    iexact HO
  iintro ⟨HRYw, HRYz, ⟨%W97, HO⟩⟩
  iapply (wp_ry_wait m K c (18 : Fin 64) W97) $$ [HRYw HRYz HO]
  · isplitr; · iexact Hrec
    isplitl [HRYw]; · iexact HRYw
    isplitl [HRYz]; · iexact HRYz
    iexact HO
  iintro ⟨HRYw, HRYz, ⟨%W98, HO⟩⟩
  iapply (wp_ry_wait m K c (19 : Fin 64) W98) $$ [HRYw HRYz HO]
  · isplitr; · iexact Hrec
    isplitl [HRYw]; · iexact HRYw
    isplitl [HRYz]; · iexact HRYz
    iexact HO
  iintro ⟨HRYw, HRYz, ⟨%W99, HO⟩⟩
  iapply (wp_ry_wait m K c (20 : Fin 64) W99) $$ [HRYw HRYz HO]
  · isplitr; · iexact Hrec
    isplitl [HRYw]; · iexact HRYw
    isplitl [HRYz]; · iexact HRYz
    iexact HO
  iintro ⟨HRYw, HRYz, ⟨%W100, HO⟩⟩
  iapply (wp_ry_wait m K c (21 : Fin 64) W100) $$ [HRYw HRYz HO]
  · isplitr; · iexact Hrec
    isplitl [HRYw]; · iexact HRYw
    isplitl [HRYz]; · iexact HRYz
    iexact HO
  iintro ⟨HRYw, HRYz, ⟨%W101, HO⟩⟩
  iapply (wp_ry_wait m K c (22 : Fin 64) W101) $$ [HRYw HRYz HO]
  · isplitr; · iexact Hrec
    isplitl [HRYw]; · iexact HRYw
    isplitl [HRYz]; · iexact HRYz
    iexact HO
  iintro ⟨HRYw, HRYz, ⟨%W102, HO⟩⟩
  iapply (wp_ry_wait m K c (23 : Fin 64) W102) $$ [HRYw HRYz HO]
  · isplitr; · iexact Hrec
    isplitl [HRYw]; · iexact HRYw
    isplitl [HRYz]; · iexact HRYz
    iexact HO
  iintro ⟨HRYw, HRYz, ⟨%W103, HO⟩⟩
  iapply (wp_ry_wait m K c (24 : Fin 64) W103) $$ [HRYw HRYz HO]
  · isplitr; · iexact Hrec
    isplitl [HRYw]; · iexact HRYw
    isplitl [HRYz]; · iexact HRYz
    iexact HO
  iintro ⟨HRYw, HRYz, ⟨%W104, HO⟩⟩
  iapply (wp_ry_wait m K c (25 : Fin 64) W104) $$ [HRYw HRYz HO]
  · isplitr; · iexact Hrec
    isplitl [HRYw]; · iexact HRYw
    isplitl [HRYz]; · iexact HRYz
    iexact HO
  iintro ⟨HRYw, HRYz, ⟨%W105, HO⟩⟩
  iapply (wp_ry_wait m K c (26 : Fin 64) W105) $$ [HRYw HRYz HO]
  · isplitr; · iexact Hrec
    isplitl [HRYw]; · iexact HRYw
    isplitl [HRYz]; · iexact HRYz
    iexact HO
  iintro ⟨HRYw, HRYz, ⟨%W106, HO⟩⟩
  iapply (wp_ry_wait m K c (27 : Fin 64) W106) $$ [HRYw HRYz HO]
  · isplitr; · iexact Hrec
    isplitl [HRYw]; · iexact HRYw
    isplitl [HRYz]; · iexact HRYz
    iexact HO
  iintro ⟨HRYw, HRYz, ⟨%W107, HO⟩⟩
  iapply (wp_ry_wait m K c (28 : Fin 64) W107) $$ [HRYw HRYz HO]
  · isplitr; · iexact Hrec
    isplitl [HRYw]; · iexact HRYw
    isplitl [HRYz]; · iexact HRYz
    iexact HO
  iintro ⟨HRYw, HRYz, ⟨%W108, HO⟩⟩
  iapply (wp_ry_wait m K c (29 : Fin 64) W108) $$ [HRYw HRYz HO]
  · isplitr; · iexact Hrec
    isplitl [HRYw]; · iexact HRYw
    isplitl [HRYz]; · iexact HRYz
    iexact HO
  iintro ⟨HRYw, HRYz, ⟨%W109, HO⟩⟩
  iapply (wp_ry_wait m K c (30 : Fin 64) W109) $$ [HRYw HRYz HO]
  · isplitr; · iexact Hrec
    isplitl [HRYw]; · iexact HRYw
    isplitl [HRYz]; · iexact HRYz
    iexact HO
  iintro ⟨HRYw, HRYz, ⟨%W110, HO⟩⟩
  iapply (wp_ry_wait m K c (31 : Fin 64) W110) $$ [HRYw HRYz HO]
  · isplitr; · iexact Hrec
    isplitl [HRYw]; · iexact HRYw
    isplitl [HRYz]; · iexact HRYz
    iexact HO
  iintro ⟨HRYw, HRYz, ⟨%W111, HO⟩⟩
  iapply (wp_ry_wait m K c (32 : Fin 64) W111) $$ [HRYw HRYz HO]
  · isplitr; · iexact Hrec
    isplitl [HRYw]; · iexact HRYw
    isplitl [HRYz]; · iexact HRYz
    iexact HO
  iintro ⟨HRYw, HRYz, ⟨%W112, HO⟩⟩
  iapply (wp_ry_wait m K c (33 : Fin 64) W112) $$ [HRYw HRYz HO]
  · isplitr; · iexact Hrec
    isplitl [HRYw]; · iexact HRYw
    isplitl [HRYz]; · iexact HRYz
    iexact HO
  iintro ⟨HRYw, HRYz, ⟨%W113, HO⟩⟩
  iapply (wp_ry_wait m K c (34 : Fin 64) W113) $$ [HRYw HRYz HO]
  · isplitr; · iexact Hrec
    isplitl [HRYw]; · iexact HRYw
    isplitl [HRYz]; · iexact HRYz
    iexact HO
  iintro ⟨HRYw, HRYz, ⟨%W114, HO⟩⟩
  iapply (wp_ry_wait m K c (35 : Fin 64) W114) $$ [HRYw HRYz HO]
  · isplitr; · iexact Hrec
    isplitl [HRYw]; · iexact HRYw
    isplitl [HRYz]; · iexact HRYz
    iexact HO
  iintro ⟨HRYw, HRYz, ⟨%W115, HO⟩⟩
  iapply (wp_ry_wait m K c (36 : Fin 64) W115) $$ [HRYw HRYz HO]
  · isplitr; · iexact Hrec
    isplitl [HRYw]; · iexact HRYw
    isplitl [HRYz]; · iexact HRYz
    iexact HO
  iintro ⟨HRYw, HRYz, ⟨%W116, HO⟩⟩
  iapply (wp_ry_wait m K c (37 : Fin 64) W116) $$ [HRYw HRYz HO]
  · isplitr; · iexact Hrec
    isplitl [HRYw]; · iexact HRYw
    isplitl [HRYz]; · iexact HRYz
    iexact HO
  iintro ⟨HRYw, HRYz, ⟨%W117, HO⟩⟩
  iapply (wp_ry_wait m K c (38 : Fin 64) W117) $$ [HRYw HRYz HO]
  · isplitr; · iexact Hrec
    isplitl [HRYw]; · iexact HRYw
    isplitl [HRYz]; · iexact HRYz
    iexact HO
  iintro ⟨HRYw, HRYz, ⟨%W118, HO⟩⟩
  iapply (wp_ry_wait m K c (39 : Fin 64) W118) $$ [HRYw HRYz HO]
  · isplitr; · iexact Hrec
    isplitl [HRYw]; · iexact HRYw
    isplitl [HRYz]; · iexact HRYz
    iexact HO
  iintro ⟨HRYw, HRYz, ⟨%W119, HO⟩⟩
  iapply (wp_ry_wait m K c (40 : Fin 64) W119) $$ [HRYw HRYz HO]
  · isplitr; · iexact Hrec
    isplitl [HRYw]; · iexact HRYw
    isplitl [HRYz]; · iexact HRYz
    iexact HO
  iintro ⟨HRYw, HRYz, ⟨%W120, HO⟩⟩
  iapply (wp_ry_wait m K c (41 : Fin 64) W120) $$ [HRYw HRYz HO]
  · isplitr; · iexact Hrec
    isplitl [HRYw]; · iexact HRYw
    isplitl [HRYz]; · iexact HRYz
    iexact HO
  iintro ⟨HRYw, HRYz, ⟨%W121, HO⟩⟩
  iapply (wp_ry_wait m K c (42 : Fin 64) W121) $$ [HRYw HRYz HO]
  · isplitr; · iexact Hrec
    isplitl [HRYw]; · iexact HRYw
    isplitl [HRYz]; · iexact HRYz
    iexact HO
  iintro ⟨HRYw, HRYz, ⟨%W122, HO⟩⟩
  iapply (wp_ry_wait m K c (43 : Fin 64) W122) $$ [HRYw HRYz HO]
  · isplitr; · iexact Hrec
    isplitl [HRYw]; · iexact HRYw
    isplitl [HRYz]; · iexact HRYz
    iexact HO
  iintro ⟨HRYw, HRYz, ⟨%W123, HO⟩⟩
  iapply (wp_ry_wait m K c (44 : Fin 64) W123) $$ [HRYw HRYz HO]
  · isplitr; · iexact Hrec
    isplitl [HRYw]; · iexact HRYw
    isplitl [HRYz]; · iexact HRYz
    iexact HO
  iintro ⟨HRYw, HRYz, ⟨%W124, HO⟩⟩
  iapply (wp_ry_wait m K c (45 : Fin 64) W124) $$ [HRYw HRYz HO]
  · isplitr; · iexact Hrec
    isplitl [HRYw]; · iexact HRYw
    isplitl [HRYz]; · iexact HRYz
    iexact HO
  iintro ⟨HRYw, HRYz, ⟨%W125, HO⟩⟩
  iapply (wp_ry_wait m K c (46 : Fin 64) W125) $$ [HRYw HRYz HO]
  · isplitr; · iexact Hrec
    isplitl [HRYw]; · iexact HRYw
    isplitl [HRYz]; · iexact HRYz
    iexact HO
  iintro ⟨HRYw, HRYz, ⟨%W126, HO⟩⟩
  iapply (wp_ry_wait m K c (47 : Fin 64) W126) $$ [HRYw HRYz HO]
  · isplitr; · iexact Hrec
    isplitl [HRYw]; · iexact HRYw
    isplitl [HRYz]; · iexact HRYz
    iexact HO
  iintro ⟨HRYw, HRYz, ⟨%W127, HO⟩⟩
  iapply (wp_ry_wait m K c (48 : Fin 64) W127) $$ [HRYw HRYz HO]
  · isplitr; · iexact Hrec
    isplitl [HRYw]; · iexact HRYw
    isplitl [HRYz]; · iexact HRYz
    iexact HO
  iintro ⟨HRYw, HRYz, ⟨%W128, HO⟩⟩
  iapply (wp_ry_wait m K c (49 : Fin 64) W128) $$ [HRYw HRYz HO]
  · isplitr; · iexact Hrec
    isplitl [HRYw]; · iexact HRYw
    isplitl [HRYz]; · iexact HRYz
    iexact HO
  iintro ⟨HRYw, HRYz, ⟨%W129, HO⟩⟩
  iapply (wp_ry_wait m K c (50 : Fin 64) W129) $$ [HRYw HRYz HO]
  · isplitr; · iexact Hrec
    isplitl [HRYw]; · iexact HRYw
    isplitl [HRYz]; · iexact HRYz
    iexact HO
  iintro ⟨HRYw, HRYz, ⟨%W130, HO⟩⟩
  iapply (wp_ry_wait m K c (51 : Fin 64) W130) $$ [HRYw HRYz HO]
  · isplitr; · iexact Hrec
    isplitl [HRYw]; · iexact HRYw
    isplitl [HRYz]; · iexact HRYz
    iexact HO
  iintro ⟨HRYw, HRYz, ⟨%W131, HO⟩⟩
  iapply (wp_ry_wait m K c (52 : Fin 64) W131) $$ [HRYw HRYz HO]
  · isplitr; · iexact Hrec
    isplitl [HRYw]; · iexact HRYw
    isplitl [HRYz]; · iexact HRYz
    iexact HO
  iintro ⟨HRYw, HRYz, ⟨%W132, HO⟩⟩
  iapply (wp_ry_wait m K c (53 : Fin 64) W132) $$ [HRYw HRYz HO]
  · isplitr; · iexact Hrec
    isplitl [HRYw]; · iexact HRYw
    isplitl [HRYz]; · iexact HRYz
    iexact HO
  iintro ⟨HRYw, HRYz, ⟨%W133, HO⟩⟩
  iapply (wp_ry_wait m K c (54 : Fin 64) W133) $$ [HRYw HRYz HO]
  · isplitr; · iexact Hrec
    isplitl [HRYw]; · iexact HRYw
    isplitl [HRYz]; · iexact HRYz
    iexact HO
  iintro ⟨HRYw, HRYz, ⟨%W134, HO⟩⟩
  iapply (wp_ry_wait m K c (55 : Fin 64) W134) $$ [HRYw HRYz HO]
  · isplitr; · iexact Hrec
    isplitl [HRYw]; · iexact HRYw
    isplitl [HRYz]; · iexact HRYz
    iexact HO
  iintro ⟨HRYw, HRYz, ⟨%W135, HO⟩⟩
  iapply (wp_ry_wait m K c (56 : Fin 64) W135) $$ [HRYw HRYz HO]
  · isplitr; · iexact Hrec
    isplitl [HRYw]; · iexact HRYw
    isplitl [HRYz]; · iexact HRYz
    iexact HO
  iintro ⟨HRYw, HRYz, ⟨%W136, HO⟩⟩
  iapply (wp_ry_wait m K c (57 : Fin 64) W136) $$ [HRYw HRYz HO]
  · isplitr; · iexact Hrec
    isplitl [HRYw]; · iexact HRYw
    isplitl [HRYz]; · iexact HRYz
    iexact HO
  iintro ⟨HRYw, HRYz, ⟨%W137, HO⟩⟩
  iapply (wp_ry_wait m K c (58 : Fin 64) W137) $$ [HRYw HRYz HO]
  · isplitr; · iexact Hrec
    isplitl [HRYw]; · iexact HRYw
    isplitl [HRYz]; · iexact HRYz
    iexact HO
  iintro ⟨HRYw, HRYz, ⟨%W138, HO⟩⟩
  iapply (wp_ry_wait m K c (59 : Fin 64) W138) $$ [HRYw HRYz HO]
  · isplitr; · iexact Hrec
    isplitl [HRYw]; · iexact HRYw
    isplitl [HRYz]; · iexact HRYz
    iexact HO
  iintro ⟨HRYw, HRYz, ⟨%W139, HO⟩⟩
  iapply (wp_ry_wait m K c (60 : Fin 64) W139) $$ [HRYw HRYz HO]
  · isplitr; · iexact Hrec
    isplitl [HRYw]; · iexact HRYw
    isplitl [HRYz]; · iexact HRYz
    iexact HO
  iintro ⟨HRYw, HRYz, ⟨%W140, HO⟩⟩
  iapply (wp_ry_wait m K c (61 : Fin 64) W140) $$ [HRYw HRYz HO]
  · isplitr; · iexact Hrec
    isplitl [HRYw]; · iexact HRYw
    isplitl [HRYz]; · iexact HRYz
    iexact HO
  iintro ⟨HRYw, HRYz, ⟨%W141, HO⟩⟩
  iapply (wp_ry_wait m K c (62 : Fin 64) W141) $$ [HRYw HRYz HO]
  · isplitr; · iexact Hrec
    isplitl [HRYw]; · iexact HRYw
    isplitl [HRYz]; · iexact HRYz
    iexact HO
  iintro ⟨HRYw, HRYz, ⟨%W142, HO⟩⟩
  iapply (wp_ry_wait m K c (63 : Fin 64) W142) $$ [HRYw HRYz HO]
  · isplitr; · iexact Hrec
    isplitl [HRYw]; · iexact HRYw
    isplitl [HRYz]; · iexact HRYz
    iexact HO
  iintro ⟨HRYw, HRYz, ⟨%W143, HO⟩⟩
  iapply (wp_sx_wait m K c (0 : Fin 64) W143) $$ [HXc HXp HO]
  · isplitr; · iexact Hrec
    isplitl [HXc]; · iexact HXc
    isplitl [HXp]; · iexact HXp
    isplitl []; · (iapply (Entails.of_eq (GXdone_zero m c).symm); iempintro)
    iexact HO
  iintro ⟨HXc, HXp, HXz, ⟨%W144, HO⟩⟩
  iapply (wp_sy_wait m K c (0 : Fin 64) W144) $$ [HYc HYp HO]
  · isplitr; · iexact Hrec
    isplitl [HYc]; · iexact HYc
    isplitl [HYp]; · iexact HYp
    isplitl []; · (iapply (Entails.of_eq (GYdone_zero m c).symm); iempintro)
    iexact HO
  iintro ⟨HYc, HYp, HYz, ⟨%W145, HO⟩⟩
  iapply (wp_sx_wait m K c (1 : Fin 64) W145) $$ [HXc HXp HXz HO]
  · isplitr; · iexact Hrec
    isplitl [HXc]; · iexact HXc
    isplitl [HXp]; · iexact HXp
    isplitl [HXz]; · iexact HXz
    iexact HO
  iintro ⟨HXc, HXp, HXz, ⟨%W146, HO⟩⟩
  iapply (wp_sy_wait m K c (1 : Fin 64) W146) $$ [HYc HYp HYz HO]
  · isplitr; · iexact Hrec
    isplitl [HYc]; · iexact HYc
    isplitl [HYp]; · iexact HYp
    isplitl [HYz]; · iexact HYz
    iexact HO
  iintro ⟨HYc, HYp, HYz, ⟨%W147, HO⟩⟩
  iapply (wp_sx_wait m K c (2 : Fin 64) W147) $$ [HXc HXp HXz HO]
  · isplitr; · iexact Hrec
    isplitl [HXc]; · iexact HXc
    isplitl [HXp]; · iexact HXp
    isplitl [HXz]; · iexact HXz
    iexact HO
  iintro ⟨HXc, HXp, HXz, ⟨%W148, HO⟩⟩
  iapply (wp_sy_wait m K c (2 : Fin 64) W148) $$ [HYc HYp HYz HO]
  · isplitr; · iexact Hrec
    isplitl [HYc]; · iexact HYc
    isplitl [HYp]; · iexact HYp
    isplitl [HYz]; · iexact HYz
    iexact HO
  iintro ⟨HYc, HYp, HYz, ⟨%W149, HO⟩⟩
  iapply (wp_sx_wait m K c (3 : Fin 64) W149) $$ [HXc HXp HXz HO]
  · isplitr; · iexact Hrec
    isplitl [HXc]; · iexact HXc
    isplitl [HXp]; · iexact HXp
    isplitl [HXz]; · iexact HXz
    iexact HO
  iintro ⟨HXc, HXp, HXz, ⟨%W150, HO⟩⟩
  iapply (wp_sy_wait m K c (3 : Fin 64) W150) $$ [HYc HYp HYz HO]
  · isplitr; · iexact Hrec
    isplitl [HYc]; · iexact HYc
    isplitl [HYp]; · iexact HYp
    isplitl [HYz]; · iexact HYz
    iexact HO
  iintro ⟨HYc, HYp, HYz, ⟨%W151, HO⟩⟩
  iapply (wp_sx_wait m K c (4 : Fin 64) W151) $$ [HXc HXp HXz HO]
  · isplitr; · iexact Hrec
    isplitl [HXc]; · iexact HXc
    isplitl [HXp]; · iexact HXp
    isplitl [HXz]; · iexact HXz
    iexact HO
  iintro ⟨HXc, HXp, HXz, ⟨%W152, HO⟩⟩
  iapply (wp_sy_wait m K c (4 : Fin 64) W152) $$ [HYc HYp HYz HO]
  · isplitr; · iexact Hrec
    isplitl [HYc]; · iexact HYc
    isplitl [HYp]; · iexact HYp
    isplitl [HYz]; · iexact HYz
    iexact HO
  iintro ⟨HYc, HYp, HYz, ⟨%W153, HO⟩⟩
  iapply (wp_sx_wait m K c (5 : Fin 64) W153) $$ [HXc HXp HXz HO]
  · isplitr; · iexact Hrec
    isplitl [HXc]; · iexact HXc
    isplitl [HXp]; · iexact HXp
    isplitl [HXz]; · iexact HXz
    iexact HO
  iintro ⟨HXc, HXp, HXz, ⟨%W154, HO⟩⟩
  iapply (wp_sy_wait m K c (5 : Fin 64) W154) $$ [HYc HYp HYz HO]
  · isplitr; · iexact Hrec
    isplitl [HYc]; · iexact HYc
    isplitl [HYp]; · iexact HYp
    isplitl [HYz]; · iexact HYz
    iexact HO
  iintro ⟨HYc, HYp, HYz, ⟨%W155, HO⟩⟩
  iapply (wp_sx_wait m K c (6 : Fin 64) W155) $$ [HXc HXp HXz HO]
  · isplitr; · iexact Hrec
    isplitl [HXc]; · iexact HXc
    isplitl [HXp]; · iexact HXp
    isplitl [HXz]; · iexact HXz
    iexact HO
  iintro ⟨HXc, HXp, HXz, ⟨%W156, HO⟩⟩
  iapply (wp_sy_wait m K c (6 : Fin 64) W156) $$ [HYc HYp HYz HO]
  · isplitr; · iexact Hrec
    isplitl [HYc]; · iexact HYc
    isplitl [HYp]; · iexact HYp
    isplitl [HYz]; · iexact HYz
    iexact HO
  iintro ⟨HYc, HYp, HYz, ⟨%W157, HO⟩⟩
  iapply (wp_sx_wait m K c (7 : Fin 64) W157) $$ [HXc HXp HXz HO]
  · isplitr; · iexact Hrec
    isplitl [HXc]; · iexact HXc
    isplitl [HXp]; · iexact HXp
    isplitl [HXz]; · iexact HXz
    iexact HO
  iintro ⟨HXc, HXp, HXz, ⟨%W158, HO⟩⟩
  iapply (wp_sy_wait m K c (7 : Fin 64) W158) $$ [HYc HYp HYz HO]
  · isplitr; · iexact Hrec
    isplitl [HYc]; · iexact HYc
    isplitl [HYp]; · iexact HYp
    isplitl [HYz]; · iexact HYz
    iexact HO
  iintro ⟨HYc, HYp, HYz, ⟨%W159, HO⟩⟩
  iapply (wp_sx_wait m K c (8 : Fin 64) W159) $$ [HXc HXp HXz HO]
  · isplitr; · iexact Hrec
    isplitl [HXc]; · iexact HXc
    isplitl [HXp]; · iexact HXp
    isplitl [HXz]; · iexact HXz
    iexact HO
  iintro ⟨HXc, HXp, HXz, ⟨%W160, HO⟩⟩
  iapply (wp_sy_wait m K c (8 : Fin 64) W160) $$ [HYc HYp HYz HO]
  · isplitr; · iexact Hrec
    isplitl [HYc]; · iexact HYc
    isplitl [HYp]; · iexact HYp
    isplitl [HYz]; · iexact HYz
    iexact HO
  iintro ⟨HYc, HYp, HYz, ⟨%W161, HO⟩⟩
  iapply (wp_sx_wait m K c (9 : Fin 64) W161) $$ [HXc HXp HXz HO]
  · isplitr; · iexact Hrec
    isplitl [HXc]; · iexact HXc
    isplitl [HXp]; · iexact HXp
    isplitl [HXz]; · iexact HXz
    iexact HO
  iintro ⟨HXc, HXp, HXz, ⟨%W162, HO⟩⟩
  iapply (wp_sy_wait m K c (9 : Fin 64) W162) $$ [HYc HYp HYz HO]
  · isplitr; · iexact Hrec
    isplitl [HYc]; · iexact HYc
    isplitl [HYp]; · iexact HYp
    isplitl [HYz]; · iexact HYz
    iexact HO
  iintro ⟨HYc, HYp, HYz, ⟨%W163, HO⟩⟩
  iapply (wp_sx_wait m K c (10 : Fin 64) W163) $$ [HXc HXp HXz HO]
  · isplitr; · iexact Hrec
    isplitl [HXc]; · iexact HXc
    isplitl [HXp]; · iexact HXp
    isplitl [HXz]; · iexact HXz
    iexact HO
  iintro ⟨HXc, HXp, HXz, ⟨%W164, HO⟩⟩
  iapply (wp_sy_wait m K c (10 : Fin 64) W164) $$ [HYc HYp HYz HO]
  · isplitr; · iexact Hrec
    isplitl [HYc]; · iexact HYc
    isplitl [HYp]; · iexact HYp
    isplitl [HYz]; · iexact HYz
    iexact HO
  iintro ⟨HYc, HYp, HYz, ⟨%W165, HO⟩⟩
  iapply (wp_sx_wait m K c (11 : Fin 64) W165) $$ [HXc HXp HXz HO]
  · isplitr; · iexact Hrec
    isplitl [HXc]; · iexact HXc
    isplitl [HXp]; · iexact HXp
    isplitl [HXz]; · iexact HXz
    iexact HO
  iintro ⟨HXc, HXp, HXz, ⟨%W166, HO⟩⟩
  iapply (wp_sy_wait m K c (11 : Fin 64) W166) $$ [HYc HYp HYz HO]
  · isplitr; · iexact Hrec
    isplitl [HYc]; · iexact HYc
    isplitl [HYp]; · iexact HYp
    isplitl [HYz]; · iexact HYz
    iexact HO
  iintro ⟨HYc, HYp, HYz, ⟨%W167, HO⟩⟩
  iapply (wp_sx_wait m K c (12 : Fin 64) W167) $$ [HXc HXp HXz HO]
  · isplitr; · iexact Hrec
    isplitl [HXc]; · iexact HXc
    isplitl [HXp]; · iexact HXp
    isplitl [HXz]; · iexact HXz
    iexact HO
  iintro ⟨HXc, HXp, HXz, ⟨%W168, HO⟩⟩
  iapply (wp_sy_wait m K c (12 : Fin 64) W168) $$ [HYc HYp HYz HO]
  · isplitr; · iexact Hrec
    isplitl [HYc]; · iexact HYc
    isplitl [HYp]; · iexact HYp
    isplitl [HYz]; · iexact HYz
    iexact HO
  iintro ⟨HYc, HYp, HYz, ⟨%W169, HO⟩⟩
  iapply (wp_sx_wait m K c (13 : Fin 64) W169) $$ [HXc HXp HXz HO]
  · isplitr; · iexact Hrec
    isplitl [HXc]; · iexact HXc
    isplitl [HXp]; · iexact HXp
    isplitl [HXz]; · iexact HXz
    iexact HO
  iintro ⟨HXc, HXp, HXz, ⟨%W170, HO⟩⟩
  iapply (wp_sy_wait m K c (13 : Fin 64) W170) $$ [HYc HYp HYz HO]
  · isplitr; · iexact Hrec
    isplitl [HYc]; · iexact HYc
    isplitl [HYp]; · iexact HYp
    isplitl [HYz]; · iexact HYz
    iexact HO
  iintro ⟨HYc, HYp, HYz, ⟨%W171, HO⟩⟩
  iapply (wp_sx_wait m K c (14 : Fin 64) W171) $$ [HXc HXp HXz HO]
  · isplitr; · iexact Hrec
    isplitl [HXc]; · iexact HXc
    isplitl [HXp]; · iexact HXp
    isplitl [HXz]; · iexact HXz
    iexact HO
  iintro ⟨HXc, HXp, HXz, ⟨%W172, HO⟩⟩
  iapply (wp_sy_wait m K c (14 : Fin 64) W172) $$ [HYc HYp HYz HO]
  · isplitr; · iexact Hrec
    isplitl [HYc]; · iexact HYc
    isplitl [HYp]; · iexact HYp
    isplitl [HYz]; · iexact HYz
    iexact HO
  iintro ⟨HYc, HYp, HYz, ⟨%W173, HO⟩⟩
  iapply (wp_sx_wait m K c (15 : Fin 64) W173) $$ [HXc HXp HXz HO]
  · isplitr; · iexact Hrec
    isplitl [HXc]; · iexact HXc
    isplitl [HXp]; · iexact HXp
    isplitl [HXz]; · iexact HXz
    iexact HO
  iintro ⟨HXc, HXp, HXz, ⟨%W174, HO⟩⟩
  iapply (wp_sy_wait m K c (15 : Fin 64) W174) $$ [HYc HYp HYz HO]
  · isplitr; · iexact Hrec
    isplitl [HYc]; · iexact HYc
    isplitl [HYp]; · iexact HYp
    isplitl [HYz]; · iexact HYz
    iexact HO
  iintro ⟨HYc, HYp, HYz, ⟨%W175, HO⟩⟩
  iapply (wp_sx_wait m K c (16 : Fin 64) W175) $$ [HXc HXp HXz HO]
  · isplitr; · iexact Hrec
    isplitl [HXc]; · iexact HXc
    isplitl [HXp]; · iexact HXp
    isplitl [HXz]; · iexact HXz
    iexact HO
  iintro ⟨HXc, HXp, HXz, ⟨%W176, HO⟩⟩
  iapply (wp_sy_wait m K c (16 : Fin 64) W176) $$ [HYc HYp HYz HO]
  · isplitr; · iexact Hrec
    isplitl [HYc]; · iexact HYc
    isplitl [HYp]; · iexact HYp
    isplitl [HYz]; · iexact HYz
    iexact HO
  iintro ⟨HYc, HYp, HYz, ⟨%W177, HO⟩⟩
  iapply (wp_sx_wait m K c (17 : Fin 64) W177) $$ [HXc HXp HXz HO]
  · isplitr; · iexact Hrec
    isplitl [HXc]; · iexact HXc
    isplitl [HXp]; · iexact HXp
    isplitl [HXz]; · iexact HXz
    iexact HO
  iintro ⟨HXc, HXp, HXz, ⟨%W178, HO⟩⟩
  iapply (wp_sy_wait m K c (17 : Fin 64) W178) $$ [HYc HYp HYz HO]
  · isplitr; · iexact Hrec
    isplitl [HYc]; · iexact HYc
    isplitl [HYp]; · iexact HYp
    isplitl [HYz]; · iexact HYz
    iexact HO
  iintro ⟨HYc, HYp, HYz, ⟨%W179, HO⟩⟩
  iapply (wp_sx_wait m K c (18 : Fin 64) W179) $$ [HXc HXp HXz HO]
  · isplitr; · iexact Hrec
    isplitl [HXc]; · iexact HXc
    isplitl [HXp]; · iexact HXp
    isplitl [HXz]; · iexact HXz
    iexact HO
  iintro ⟨HXc, HXp, HXz, ⟨%W180, HO⟩⟩
  iapply (wp_sy_wait m K c (18 : Fin 64) W180) $$ [HYc HYp HYz HO]
  · isplitr; · iexact Hrec
    isplitl [HYc]; · iexact HYc
    isplitl [HYp]; · iexact HYp
    isplitl [HYz]; · iexact HYz
    iexact HO
  iintro ⟨HYc, HYp, HYz, ⟨%W181, HO⟩⟩
  iapply (wp_sx_wait m K c (19 : Fin 64) W181) $$ [HXc HXp HXz HO]
  · isplitr; · iexact Hrec
    isplitl [HXc]; · iexact HXc
    isplitl [HXp]; · iexact HXp
    isplitl [HXz]; · iexact HXz
    iexact HO
  iintro ⟨HXc, HXp, HXz, ⟨%W182, HO⟩⟩
  iapply (wp_sy_wait m K c (19 : Fin 64) W182) $$ [HYc HYp HYz HO]
  · isplitr; · iexact Hrec
    isplitl [HYc]; · iexact HYc
    isplitl [HYp]; · iexact HYp
    isplitl [HYz]; · iexact HYz
    iexact HO
  iintro ⟨HYc, HYp, HYz, ⟨%W183, HO⟩⟩
  iapply (wp_sx_wait m K c (20 : Fin 64) W183) $$ [HXc HXp HXz HO]
  · isplitr; · iexact Hrec
    isplitl [HXc]; · iexact HXc
    isplitl [HXp]; · iexact HXp
    isplitl [HXz]; · iexact HXz
    iexact HO
  iintro ⟨HXc, HXp, HXz, ⟨%W184, HO⟩⟩
  iapply (wp_sy_wait m K c (20 : Fin 64) W184) $$ [HYc HYp HYz HO]
  · isplitr; · iexact Hrec
    isplitl [HYc]; · iexact HYc
    isplitl [HYp]; · iexact HYp
    isplitl [HYz]; · iexact HYz
    iexact HO
  iintro ⟨HYc, HYp, HYz, ⟨%W185, HO⟩⟩
  iapply (wp_sx_wait m K c (21 : Fin 64) W185) $$ [HXc HXp HXz HO]
  · isplitr; · iexact Hrec
    isplitl [HXc]; · iexact HXc
    isplitl [HXp]; · iexact HXp
    isplitl [HXz]; · iexact HXz
    iexact HO
  iintro ⟨HXc, HXp, HXz, ⟨%W186, HO⟩⟩
  iapply (wp_sy_wait m K c (21 : Fin 64) W186) $$ [HYc HYp HYz HO]
  · isplitr; · iexact Hrec
    isplitl [HYc]; · iexact HYc
    isplitl [HYp]; · iexact HYp
    isplitl [HYz]; · iexact HYz
    iexact HO
  iintro ⟨HYc, HYp, HYz, ⟨%W187, HO⟩⟩
  iapply (wp_sx_wait m K c (22 : Fin 64) W187) $$ [HXc HXp HXz HO]
  · isplitr; · iexact Hrec
    isplitl [HXc]; · iexact HXc
    isplitl [HXp]; · iexact HXp
    isplitl [HXz]; · iexact HXz
    iexact HO
  iintro ⟨HXc, HXp, HXz, ⟨%W188, HO⟩⟩
  iapply (wp_sy_wait m K c (22 : Fin 64) W188) $$ [HYc HYp HYz HO]
  · isplitr; · iexact Hrec
    isplitl [HYc]; · iexact HYc
    isplitl [HYp]; · iexact HYp
    isplitl [HYz]; · iexact HYz
    iexact HO
  iintro ⟨HYc, HYp, HYz, ⟨%W189, HO⟩⟩
  iapply (wp_sx_wait m K c (23 : Fin 64) W189) $$ [HXc HXp HXz HO]
  · isplitr; · iexact Hrec
    isplitl [HXc]; · iexact HXc
    isplitl [HXp]; · iexact HXp
    isplitl [HXz]; · iexact HXz
    iexact HO
  iintro ⟨HXc, HXp, HXz, ⟨%W190, HO⟩⟩
  iapply (wp_sy_wait m K c (23 : Fin 64) W190) $$ [HYc HYp HYz HO]
  · isplitr; · iexact Hrec
    isplitl [HYc]; · iexact HYc
    isplitl [HYp]; · iexact HYp
    isplitl [HYz]; · iexact HYz
    iexact HO
  iintro ⟨HYc, HYp, HYz, ⟨%W191, HO⟩⟩
  iapply (wp_sx_wait m K c (24 : Fin 64) W191) $$ [HXc HXp HXz HO]
  · isplitr; · iexact Hrec
    isplitl [HXc]; · iexact HXc
    isplitl [HXp]; · iexact HXp
    isplitl [HXz]; · iexact HXz
    iexact HO
  iintro ⟨HXc, HXp, HXz, ⟨%W192, HO⟩⟩
  iapply (wp_sy_wait m K c (24 : Fin 64) W192) $$ [HYc HYp HYz HO]
  · isplitr; · iexact Hrec
    isplitl [HYc]; · iexact HYc
    isplitl [HYp]; · iexact HYp
    isplitl [HYz]; · iexact HYz
    iexact HO
  iintro ⟨HYc, HYp, HYz, ⟨%W193, HO⟩⟩
  iapply (wp_sx_wait m K c (25 : Fin 64) W193) $$ [HXc HXp HXz HO]
  · isplitr; · iexact Hrec
    isplitl [HXc]; · iexact HXc
    isplitl [HXp]; · iexact HXp
    isplitl [HXz]; · iexact HXz
    iexact HO
  iintro ⟨HXc, HXp, HXz, ⟨%W194, HO⟩⟩
  iapply (wp_sy_wait m K c (25 : Fin 64) W194) $$ [HYc HYp HYz HO]
  · isplitr; · iexact Hrec
    isplitl [HYc]; · iexact HYc
    isplitl [HYp]; · iexact HYp
    isplitl [HYz]; · iexact HYz
    iexact HO
  iintro ⟨HYc, HYp, HYz, ⟨%W195, HO⟩⟩
  iapply (wp_sx_wait m K c (26 : Fin 64) W195) $$ [HXc HXp HXz HO]
  · isplitr; · iexact Hrec
    isplitl [HXc]; · iexact HXc
    isplitl [HXp]; · iexact HXp
    isplitl [HXz]; · iexact HXz
    iexact HO
  iintro ⟨HXc, HXp, HXz, ⟨%W196, HO⟩⟩
  iapply (wp_sy_wait m K c (26 : Fin 64) W196) $$ [HYc HYp HYz HO]
  · isplitr; · iexact Hrec
    isplitl [HYc]; · iexact HYc
    isplitl [HYp]; · iexact HYp
    isplitl [HYz]; · iexact HYz
    iexact HO
  iintro ⟨HYc, HYp, HYz, ⟨%W197, HO⟩⟩
  iapply (wp_sx_wait m K c (27 : Fin 64) W197) $$ [HXc HXp HXz HO]
  · isplitr; · iexact Hrec
    isplitl [HXc]; · iexact HXc
    isplitl [HXp]; · iexact HXp
    isplitl [HXz]; · iexact HXz
    iexact HO
  iintro ⟨HXc, HXp, HXz, ⟨%W198, HO⟩⟩
  iapply (wp_sy_wait m K c (27 : Fin 64) W198) $$ [HYc HYp HYz HO]
  · isplitr; · iexact Hrec
    isplitl [HYc]; · iexact HYc
    isplitl [HYp]; · iexact HYp
    isplitl [HYz]; · iexact HYz
    iexact HO
  iintro ⟨HYc, HYp, HYz, ⟨%W199, HO⟩⟩
  iapply (wp_sx_wait m K c (28 : Fin 64) W199) $$ [HXc HXp HXz HO]
  · isplitr; · iexact Hrec
    isplitl [HXc]; · iexact HXc
    isplitl [HXp]; · iexact HXp
    isplitl [HXz]; · iexact HXz
    iexact HO
  iintro ⟨HXc, HXp, HXz, ⟨%W200, HO⟩⟩
  iapply (wp_sy_wait m K c (28 : Fin 64) W200) $$ [HYc HYp HYz HO]
  · isplitr; · iexact Hrec
    isplitl [HYc]; · iexact HYc
    isplitl [HYp]; · iexact HYp
    isplitl [HYz]; · iexact HYz
    iexact HO
  iintro ⟨HYc, HYp, HYz, ⟨%W201, HO⟩⟩
  iapply (wp_sx_wait m K c (29 : Fin 64) W201) $$ [HXc HXp HXz HO]
  · isplitr; · iexact Hrec
    isplitl [HXc]; · iexact HXc
    isplitl [HXp]; · iexact HXp
    isplitl [HXz]; · iexact HXz
    iexact HO
  iintro ⟨HXc, HXp, HXz, ⟨%W202, HO⟩⟩
  iapply (wp_sy_wait m K c (29 : Fin 64) W202) $$ [HYc HYp HYz HO]
  · isplitr; · iexact Hrec
    isplitl [HYc]; · iexact HYc
    isplitl [HYp]; · iexact HYp
    isplitl [HYz]; · iexact HYz
    iexact HO
  iintro ⟨HYc, HYp, HYz, ⟨%W203, HO⟩⟩
  iapply (wp_sx_wait m K c (30 : Fin 64) W203) $$ [HXc HXp HXz HO]
  · isplitr; · iexact Hrec
    isplitl [HXc]; · iexact HXc
    isplitl [HXp]; · iexact HXp
    isplitl [HXz]; · iexact HXz
    iexact HO
  iintro ⟨HXc, HXp, HXz, ⟨%W204, HO⟩⟩
  iapply (wp_sy_wait m K c (30 : Fin 64) W204) $$ [HYc HYp HYz HO]
  · isplitr; · iexact Hrec
    isplitl [HYc]; · iexact HYc
    isplitl [HYp]; · iexact HYp
    isplitl [HYz]; · iexact HYz
    iexact HO
  iintro ⟨HYc, HYp, HYz, ⟨%W205, HO⟩⟩
  iapply (wp_sx_wait m K c (31 : Fin 64) W205) $$ [HXc HXp HXz HO]
  · isplitr; · iexact Hrec
    isplitl [HXc]; · iexact HXc
    isplitl [HXp]; · iexact HXp
    isplitl [HXz]; · iexact HXz
    iexact HO
  iintro ⟨HXc, HXp, HXz, ⟨%W206, HO⟩⟩
  iapply (wp_sy_wait m K c (31 : Fin 64) W206) $$ [HYc HYp HYz HO]
  · isplitr; · iexact Hrec
    isplitl [HYc]; · iexact HYc
    isplitl [HYp]; · iexact HYp
    isplitl [HYz]; · iexact HYz
    iexact HO
  iintro ⟨HYc, HYp, HYz, ⟨%W207, HO⟩⟩
  iapply (wp_sx_wait m K c (32 : Fin 64) W207) $$ [HXc HXp HXz HO]
  · isplitr; · iexact Hrec
    isplitl [HXc]; · iexact HXc
    isplitl [HXp]; · iexact HXp
    isplitl [HXz]; · iexact HXz
    iexact HO
  iintro ⟨HXc, HXp, HXz, ⟨%W208, HO⟩⟩
  iapply (wp_sy_wait m K c (32 : Fin 64) W208) $$ [HYc HYp HYz HO]
  · isplitr; · iexact Hrec
    isplitl [HYc]; · iexact HYc
    isplitl [HYp]; · iexact HYp
    isplitl [HYz]; · iexact HYz
    iexact HO
  iintro ⟨HYc, HYp, HYz, ⟨%W209, HO⟩⟩
  iapply (wp_sx_wait m K c (33 : Fin 64) W209) $$ [HXc HXp HXz HO]
  · isplitr; · iexact Hrec
    isplitl [HXc]; · iexact HXc
    isplitl [HXp]; · iexact HXp
    isplitl [HXz]; · iexact HXz
    iexact HO
  iintro ⟨HXc, HXp, HXz, ⟨%W210, HO⟩⟩
  iapply (wp_sy_wait m K c (33 : Fin 64) W210) $$ [HYc HYp HYz HO]
  · isplitr; · iexact Hrec
    isplitl [HYc]; · iexact HYc
    isplitl [HYp]; · iexact HYp
    isplitl [HYz]; · iexact HYz
    iexact HO
  iintro ⟨HYc, HYp, HYz, ⟨%W211, HO⟩⟩
  iapply (wp_sx_wait m K c (34 : Fin 64) W211) $$ [HXc HXp HXz HO]
  · isplitr; · iexact Hrec
    isplitl [HXc]; · iexact HXc
    isplitl [HXp]; · iexact HXp
    isplitl [HXz]; · iexact HXz
    iexact HO
  iintro ⟨HXc, HXp, HXz, ⟨%W212, HO⟩⟩
  iapply (wp_sy_wait m K c (34 : Fin 64) W212) $$ [HYc HYp HYz HO]
  · isplitr; · iexact Hrec
    isplitl [HYc]; · iexact HYc
    isplitl [HYp]; · iexact HYp
    isplitl [HYz]; · iexact HYz
    iexact HO
  iintro ⟨HYc, HYp, HYz, ⟨%W213, HO⟩⟩
  iapply (wp_sx_wait m K c (35 : Fin 64) W213) $$ [HXc HXp HXz HO]
  · isplitr; · iexact Hrec
    isplitl [HXc]; · iexact HXc
    isplitl [HXp]; · iexact HXp
    isplitl [HXz]; · iexact HXz
    iexact HO
  iintro ⟨HXc, HXp, HXz, ⟨%W214, HO⟩⟩
  iapply (wp_sy_wait m K c (35 : Fin 64) W214) $$ [HYc HYp HYz HO]
  · isplitr; · iexact Hrec
    isplitl [HYc]; · iexact HYc
    isplitl [HYp]; · iexact HYp
    isplitl [HYz]; · iexact HYz
    iexact HO
  iintro ⟨HYc, HYp, HYz, ⟨%W215, HO⟩⟩
  iapply (wp_sx_wait m K c (36 : Fin 64) W215) $$ [HXc HXp HXz HO]
  · isplitr; · iexact Hrec
    isplitl [HXc]; · iexact HXc
    isplitl [HXp]; · iexact HXp
    isplitl [HXz]; · iexact HXz
    iexact HO
  iintro ⟨HXc, HXp, HXz, ⟨%W216, HO⟩⟩
  iapply (wp_sy_wait m K c (36 : Fin 64) W216) $$ [HYc HYp HYz HO]
  · isplitr; · iexact Hrec
    isplitl [HYc]; · iexact HYc
    isplitl [HYp]; · iexact HYp
    isplitl [HYz]; · iexact HYz
    iexact HO
  iintro ⟨HYc, HYp, HYz, ⟨%W217, HO⟩⟩
  iapply (wp_sx_wait m K c (37 : Fin 64) W217) $$ [HXc HXp HXz HO]
  · isplitr; · iexact Hrec
    isplitl [HXc]; · iexact HXc
    isplitl [HXp]; · iexact HXp
    isplitl [HXz]; · iexact HXz
    iexact HO
  iintro ⟨HXc, HXp, HXz, ⟨%W218, HO⟩⟩
  iapply (wp_sy_wait m K c (37 : Fin 64) W218) $$ [HYc HYp HYz HO]
  · isplitr; · iexact Hrec
    isplitl [HYc]; · iexact HYc
    isplitl [HYp]; · iexact HYp
    isplitl [HYz]; · iexact HYz
    iexact HO
  iintro ⟨HYc, HYp, HYz, ⟨%W219, HO⟩⟩
  iapply (wp_sx_wait m K c (38 : Fin 64) W219) $$ [HXc HXp HXz HO]
  · isplitr; · iexact Hrec
    isplitl [HXc]; · iexact HXc
    isplitl [HXp]; · iexact HXp
    isplitl [HXz]; · iexact HXz
    iexact HO
  iintro ⟨HXc, HXp, HXz, ⟨%W220, HO⟩⟩
  iapply (wp_sy_wait m K c (38 : Fin 64) W220) $$ [HYc HYp HYz HO]
  · isplitr; · iexact Hrec
    isplitl [HYc]; · iexact HYc
    isplitl [HYp]; · iexact HYp
    isplitl [HYz]; · iexact HYz
    iexact HO
  iintro ⟨HYc, HYp, HYz, ⟨%W221, HO⟩⟩
  iapply (wp_sx_wait m K c (39 : Fin 64) W221) $$ [HXc HXp HXz HO]
  · isplitr; · iexact Hrec
    isplitl [HXc]; · iexact HXc
    isplitl [HXp]; · iexact HXp
    isplitl [HXz]; · iexact HXz
    iexact HO
  iintro ⟨HXc, HXp, HXz, ⟨%W222, HO⟩⟩
  iapply (wp_sy_wait m K c (39 : Fin 64) W222) $$ [HYc HYp HYz HO]
  · isplitr; · iexact Hrec
    isplitl [HYc]; · iexact HYc
    isplitl [HYp]; · iexact HYp
    isplitl [HYz]; · iexact HYz
    iexact HO
  iintro ⟨HYc, HYp, HYz, ⟨%W223, HO⟩⟩
  iapply (wp_sx_wait m K c (40 : Fin 64) W223) $$ [HXc HXp HXz HO]
  · isplitr; · iexact Hrec
    isplitl [HXc]; · iexact HXc
    isplitl [HXp]; · iexact HXp
    isplitl [HXz]; · iexact HXz
    iexact HO
  iintro ⟨HXc, HXp, HXz, ⟨%W224, HO⟩⟩
  iapply (wp_sy_wait m K c (40 : Fin 64) W224) $$ [HYc HYp HYz HO]
  · isplitr; · iexact Hrec
    isplitl [HYc]; · iexact HYc
    isplitl [HYp]; · iexact HYp
    isplitl [HYz]; · iexact HYz
    iexact HO
  iintro ⟨HYc, HYp, HYz, ⟨%W225, HO⟩⟩
  iapply (wp_sx_wait m K c (41 : Fin 64) W225) $$ [HXc HXp HXz HO]
  · isplitr; · iexact Hrec
    isplitl [HXc]; · iexact HXc
    isplitl [HXp]; · iexact HXp
    isplitl [HXz]; · iexact HXz
    iexact HO
  iintro ⟨HXc, HXp, HXz, ⟨%W226, HO⟩⟩
  iapply (wp_sy_wait m K c (41 : Fin 64) W226) $$ [HYc HYp HYz HO]
  · isplitr; · iexact Hrec
    isplitl [HYc]; · iexact HYc
    isplitl [HYp]; · iexact HYp
    isplitl [HYz]; · iexact HYz
    iexact HO
  iintro ⟨HYc, HYp, HYz, ⟨%W227, HO⟩⟩
  iapply (wp_sx_wait m K c (42 : Fin 64) W227) $$ [HXc HXp HXz HO]
  · isplitr; · iexact Hrec
    isplitl [HXc]; · iexact HXc
    isplitl [HXp]; · iexact HXp
    isplitl [HXz]; · iexact HXz
    iexact HO
  iintro ⟨HXc, HXp, HXz, ⟨%W228, HO⟩⟩
  iapply (wp_sy_wait m K c (42 : Fin 64) W228) $$ [HYc HYp HYz HO]
  · isplitr; · iexact Hrec
    isplitl [HYc]; · iexact HYc
    isplitl [HYp]; · iexact HYp
    isplitl [HYz]; · iexact HYz
    iexact HO
  iintro ⟨HYc, HYp, HYz, ⟨%W229, HO⟩⟩
  iapply (wp_sx_wait m K c (43 : Fin 64) W229) $$ [HXc HXp HXz HO]
  · isplitr; · iexact Hrec
    isplitl [HXc]; · iexact HXc
    isplitl [HXp]; · iexact HXp
    isplitl [HXz]; · iexact HXz
    iexact HO
  iintro ⟨HXc, HXp, HXz, ⟨%W230, HO⟩⟩
  iapply (wp_sy_wait m K c (43 : Fin 64) W230) $$ [HYc HYp HYz HO]
  · isplitr; · iexact Hrec
    isplitl [HYc]; · iexact HYc
    isplitl [HYp]; · iexact HYp
    isplitl [HYz]; · iexact HYz
    iexact HO
  iintro ⟨HYc, HYp, HYz, ⟨%W231, HO⟩⟩
  iapply (wp_sx_wait m K c (44 : Fin 64) W231) $$ [HXc HXp HXz HO]
  · isplitr; · iexact Hrec
    isplitl [HXc]; · iexact HXc
    isplitl [HXp]; · iexact HXp
    isplitl [HXz]; · iexact HXz
    iexact HO
  iintro ⟨HXc, HXp, HXz, ⟨%W232, HO⟩⟩
  iapply (wp_sy_wait m K c (44 : Fin 64) W232) $$ [HYc HYp HYz HO]
  · isplitr; · iexact Hrec
    isplitl [HYc]; · iexact HYc
    isplitl [HYp]; · iexact HYp
    isplitl [HYz]; · iexact HYz
    iexact HO
  iintro ⟨HYc, HYp, HYz, ⟨%W233, HO⟩⟩
  iapply (wp_sx_wait m K c (45 : Fin 64) W233) $$ [HXc HXp HXz HO]
  · isplitr; · iexact Hrec
    isplitl [HXc]; · iexact HXc
    isplitl [HXp]; · iexact HXp
    isplitl [HXz]; · iexact HXz
    iexact HO
  iintro ⟨HXc, HXp, HXz, ⟨%W234, HO⟩⟩
  iapply (wp_sy_wait m K c (45 : Fin 64) W234) $$ [HYc HYp HYz HO]
  · isplitr; · iexact Hrec
    isplitl [HYc]; · iexact HYc
    isplitl [HYp]; · iexact HYp
    isplitl [HYz]; · iexact HYz
    iexact HO
  iintro ⟨HYc, HYp, HYz, ⟨%W235, HO⟩⟩
  iapply (wp_sx_wait m K c (46 : Fin 64) W235) $$ [HXc HXp HXz HO]
  · isplitr; · iexact Hrec
    isplitl [HXc]; · iexact HXc
    isplitl [HXp]; · iexact HXp
    isplitl [HXz]; · iexact HXz
    iexact HO
  iintro ⟨HXc, HXp, HXz, ⟨%W236, HO⟩⟩
  iapply (wp_sy_wait m K c (46 : Fin 64) W236) $$ [HYc HYp HYz HO]
  · isplitr; · iexact Hrec
    isplitl [HYc]; · iexact HYc
    isplitl [HYp]; · iexact HYp
    isplitl [HYz]; · iexact HYz
    iexact HO
  iintro ⟨HYc, HYp, HYz, ⟨%W237, HO⟩⟩
  iapply (wp_sx_wait m K c (47 : Fin 64) W237) $$ [HXc HXp HXz HO]
  · isplitr; · iexact Hrec
    isplitl [HXc]; · iexact HXc
    isplitl [HXp]; · iexact HXp
    isplitl [HXz]; · iexact HXz
    iexact HO
  iintro ⟨HXc, HXp, HXz, ⟨%W238, HO⟩⟩
  iapply (wp_sy_wait m K c (47 : Fin 64) W238) $$ [HYc HYp HYz HO]
  · isplitr; · iexact Hrec
    isplitl [HYc]; · iexact HYc
    isplitl [HYp]; · iexact HYp
    isplitl [HYz]; · iexact HYz
    iexact HO
  iintro ⟨HYc, HYp, HYz, ⟨%W239, HO⟩⟩
  iapply (wp_sx_wait m K c (48 : Fin 64) W239) $$ [HXc HXp HXz HO]
  · isplitr; · iexact Hrec
    isplitl [HXc]; · iexact HXc
    isplitl [HXp]; · iexact HXp
    isplitl [HXz]; · iexact HXz
    iexact HO
  iintro ⟨HXc, HXp, HXz, ⟨%W240, HO⟩⟩
  iapply (wp_sy_wait m K c (48 : Fin 64) W240) $$ [HYc HYp HYz HO]
  · isplitr; · iexact Hrec
    isplitl [HYc]; · iexact HYc
    isplitl [HYp]; · iexact HYp
    isplitl [HYz]; · iexact HYz
    iexact HO
  iintro ⟨HYc, HYp, HYz, ⟨%W241, HO⟩⟩
  iapply (wp_sx_wait m K c (49 : Fin 64) W241) $$ [HXc HXp HXz HO]
  · isplitr; · iexact Hrec
    isplitl [HXc]; · iexact HXc
    isplitl [HXp]; · iexact HXp
    isplitl [HXz]; · iexact HXz
    iexact HO
  iintro ⟨HXc, HXp, HXz, ⟨%W242, HO⟩⟩
  iapply (wp_sy_wait m K c (49 : Fin 64) W242) $$ [HYc HYp HYz HO]
  · isplitr; · iexact Hrec
    isplitl [HYc]; · iexact HYc
    isplitl [HYp]; · iexact HYp
    isplitl [HYz]; · iexact HYz
    iexact HO
  iintro ⟨HYc, HYp, HYz, ⟨%W243, HO⟩⟩
  iapply (wp_sx_wait m K c (50 : Fin 64) W243) $$ [HXc HXp HXz HO]
  · isplitr; · iexact Hrec
    isplitl [HXc]; · iexact HXc
    isplitl [HXp]; · iexact HXp
    isplitl [HXz]; · iexact HXz
    iexact HO
  iintro ⟨HXc, HXp, HXz, ⟨%W244, HO⟩⟩
  iapply (wp_sy_wait m K c (50 : Fin 64) W244) $$ [HYc HYp HYz HO]
  · isplitr; · iexact Hrec
    isplitl [HYc]; · iexact HYc
    isplitl [HYp]; · iexact HYp
    isplitl [HYz]; · iexact HYz
    iexact HO
  iintro ⟨HYc, HYp, HYz, ⟨%W245, HO⟩⟩
  iapply (wp_sx_wait m K c (51 : Fin 64) W245) $$ [HXc HXp HXz HO]
  · isplitr; · iexact Hrec
    isplitl [HXc]; · iexact HXc
    isplitl [HXp]; · iexact HXp
    isplitl [HXz]; · iexact HXz
    iexact HO
  iintro ⟨HXc, HXp, HXz, ⟨%W246, HO⟩⟩
  iapply (wp_sy_wait m K c (51 : Fin 64) W246) $$ [HYc HYp HYz HO]
  · isplitr; · iexact Hrec
    isplitl [HYc]; · iexact HYc
    isplitl [HYp]; · iexact HYp
    isplitl [HYz]; · iexact HYz
    iexact HO
  iintro ⟨HYc, HYp, HYz, ⟨%W247, HO⟩⟩
  iapply (wp_sx_wait m K c (52 : Fin 64) W247) $$ [HXc HXp HXz HO]
  · isplitr; · iexact Hrec
    isplitl [HXc]; · iexact HXc
    isplitl [HXp]; · iexact HXp
    isplitl [HXz]; · iexact HXz
    iexact HO
  iintro ⟨HXc, HXp, HXz, ⟨%W248, HO⟩⟩
  iapply (wp_sy_wait m K c (52 : Fin 64) W248) $$ [HYc HYp HYz HO]
  · isplitr; · iexact Hrec
    isplitl [HYc]; · iexact HYc
    isplitl [HYp]; · iexact HYp
    isplitl [HYz]; · iexact HYz
    iexact HO
  iintro ⟨HYc, HYp, HYz, ⟨%W249, HO⟩⟩
  iapply (wp_sx_wait m K c (53 : Fin 64) W249) $$ [HXc HXp HXz HO]
  · isplitr; · iexact Hrec
    isplitl [HXc]; · iexact HXc
    isplitl [HXp]; · iexact HXp
    isplitl [HXz]; · iexact HXz
    iexact HO
  iintro ⟨HXc, HXp, HXz, ⟨%W250, HO⟩⟩
  iapply (wp_sy_wait m K c (53 : Fin 64) W250) $$ [HYc HYp HYz HO]
  · isplitr; · iexact Hrec
    isplitl [HYc]; · iexact HYc
    isplitl [HYp]; · iexact HYp
    isplitl [HYz]; · iexact HYz
    iexact HO
  iintro ⟨HYc, HYp, HYz, ⟨%W251, HO⟩⟩
  iapply (wp_sx_wait m K c (54 : Fin 64) W251) $$ [HXc HXp HXz HO]
  · isplitr; · iexact Hrec
    isplitl [HXc]; · iexact HXc
    isplitl [HXp]; · iexact HXp
    isplitl [HXz]; · iexact HXz
    iexact HO
  iintro ⟨HXc, HXp, HXz, ⟨%W252, HO⟩⟩
  iapply (wp_sy_wait m K c (54 : Fin 64) W252) $$ [HYc HYp HYz HO]
  · isplitr; · iexact Hrec
    isplitl [HYc]; · iexact HYc
    isplitl [HYp]; · iexact HYp
    isplitl [HYz]; · iexact HYz
    iexact HO
  iintro ⟨HYc, HYp, HYz, ⟨%W253, HO⟩⟩
  iapply (wp_sx_wait m K c (55 : Fin 64) W253) $$ [HXc HXp HXz HO]
  · isplitr; · iexact Hrec
    isplitl [HXc]; · iexact HXc
    isplitl [HXp]; · iexact HXp
    isplitl [HXz]; · iexact HXz
    iexact HO
  iintro ⟨HXc, HXp, HXz, ⟨%W254, HO⟩⟩
  iapply (wp_sy_wait m K c (55 : Fin 64) W254) $$ [HYc HYp HYz HO]
  · isplitr; · iexact Hrec
    isplitl [HYc]; · iexact HYc
    isplitl [HYp]; · iexact HYp
    isplitl [HYz]; · iexact HYz
    iexact HO
  iintro ⟨HYc, HYp, HYz, ⟨%W255, HO⟩⟩
  iapply (wp_sx_wait m K c (56 : Fin 64) W255) $$ [HXc HXp HXz HO]
  · isplitr; · iexact Hrec
    isplitl [HXc]; · iexact HXc
    isplitl [HXp]; · iexact HXp
    isplitl [HXz]; · iexact HXz
    iexact HO
  iintro ⟨HXc, HXp, HXz, ⟨%W256, HO⟩⟩
  iapply (wp_sy_wait m K c (56 : Fin 64) W256) $$ [HYc HYp HYz HO]
  · isplitr; · iexact Hrec
    isplitl [HYc]; · iexact HYc
    isplitl [HYp]; · iexact HYp
    isplitl [HYz]; · iexact HYz
    iexact HO
  iintro ⟨HYc, HYp, HYz, ⟨%W257, HO⟩⟩
  iapply (wp_sx_wait m K c (57 : Fin 64) W257) $$ [HXc HXp HXz HO]
  · isplitr; · iexact Hrec
    isplitl [HXc]; · iexact HXc
    isplitl [HXp]; · iexact HXp
    isplitl [HXz]; · iexact HXz
    iexact HO
  iintro ⟨HXc, HXp, HXz, ⟨%W258, HO⟩⟩
  iapply (wp_sy_wait m K c (57 : Fin 64) W258) $$ [HYc HYp HYz HO]
  · isplitr; · iexact Hrec
    isplitl [HYc]; · iexact HYc
    isplitl [HYp]; · iexact HYp
    isplitl [HYz]; · iexact HYz
    iexact HO
  iintro ⟨HYc, HYp, HYz, ⟨%W259, HO⟩⟩
  iapply (wp_sx_wait m K c (58 : Fin 64) W259) $$ [HXc HXp HXz HO]
  · isplitr; · iexact Hrec
    isplitl [HXc]; · iexact HXc
    isplitl [HXp]; · iexact HXp
    isplitl [HXz]; · iexact HXz
    iexact HO
  iintro ⟨HXc, HXp, HXz, ⟨%W260, HO⟩⟩
  iapply (wp_sy_wait m K c (58 : Fin 64) W260) $$ [HYc HYp HYz HO]
  · isplitr; · iexact Hrec
    isplitl [HYc]; · iexact HYc
    isplitl [HYp]; · iexact HYp
    isplitl [HYz]; · iexact HYz
    iexact HO
  iintro ⟨HYc, HYp, HYz, ⟨%W261, HO⟩⟩
  iapply (wp_sx_wait m K c (59 : Fin 64) W261) $$ [HXc HXp HXz HO]
  · isplitr; · iexact Hrec
    isplitl [HXc]; · iexact HXc
    isplitl [HXp]; · iexact HXp
    isplitl [HXz]; · iexact HXz
    iexact HO
  iintro ⟨HXc, HXp, HXz, ⟨%W262, HO⟩⟩
  iapply (wp_sy_wait m K c (59 : Fin 64) W262) $$ [HYc HYp HYz HO]
  · isplitr; · iexact Hrec
    isplitl [HYc]; · iexact HYc
    isplitl [HYp]; · iexact HYp
    isplitl [HYz]; · iexact HYz
    iexact HO
  iintro ⟨HYc, HYp, HYz, ⟨%W263, HO⟩⟩
  iapply (wp_sx_wait m K c (60 : Fin 64) W263) $$ [HXc HXp HXz HO]
  · isplitr; · iexact Hrec
    isplitl [HXc]; · iexact HXc
    isplitl [HXp]; · iexact HXp
    isplitl [HXz]; · iexact HXz
    iexact HO
  iintro ⟨HXc, HXp, HXz, ⟨%W264, HO⟩⟩
  iapply (wp_sy_wait m K c (60 : Fin 64) W264) $$ [HYc HYp HYz HO]
  · isplitr; · iexact Hrec
    isplitl [HYc]; · iexact HYc
    isplitl [HYp]; · iexact HYp
    isplitl [HYz]; · iexact HYz
    iexact HO
  iintro ⟨HYc, HYp, HYz, ⟨%W265, HO⟩⟩
  iapply (wp_sx_wait m K c (61 : Fin 64) W265) $$ [HXc HXp HXz HO]
  · isplitr; · iexact Hrec
    isplitl [HXc]; · iexact HXc
    isplitl [HXp]; · iexact HXp
    isplitl [HXz]; · iexact HXz
    iexact HO
  iintro ⟨HXc, HXp, HXz, ⟨%W266, HO⟩⟩
  iapply (wp_sy_wait m K c (61 : Fin 64) W266) $$ [HYc HYp HYz HO]
  · isplitr; · iexact Hrec
    isplitl [HYc]; · iexact HYc
    isplitl [HYp]; · iexact HYp
    isplitl [HYz]; · iexact HYz
    iexact HO
  iintro ⟨HYc, HYp, HYz, ⟨%W267, HO⟩⟩
  iapply (wp_sx_wait m K c (62 : Fin 64) W267) $$ [HXc HXp HXz HO]
  · isplitr; · iexact Hrec
    isplitl [HXc]; · iexact HXc
    isplitl [HXp]; · iexact HXp
    isplitl [HXz]; · iexact HXz
    iexact HO
  iintro ⟨HXc, HXp, HXz, ⟨%W268, HO⟩⟩
  iapply (wp_sy_wait m K c (62 : Fin 64) W268) $$ [HYc HYp HYz HO]
  · isplitr; · iexact Hrec
    isplitl [HYc]; · iexact HYc
    isplitl [HYp]; · iexact HYp
    isplitl [HYz]; · iexact HYz
    iexact HO
  iintro ⟨HYc, HYp, HYz, ⟨%W269, HO⟩⟩
  iapply (wp_sx_wait m K c (63 : Fin 64) W269) $$ [HXc HXp HXz HO]
  · isplitr; · iexact Hrec
    isplitl [HXc]; · iexact HXc
    isplitl [HXp]; · iexact HXp
    isplitl [HXz]; · iexact HXz
    iexact HO
  iintro ⟨HXc, HXp, HXz, ⟨%W270, HO⟩⟩
  iapply (wp_sy_wait m K c (63 : Fin 64) W270) $$ [HYc HYp HYz HO]
  · isplitr; · iexact Hrec
    isplitl [HYc]; · iexact HYc
    isplitl [HYp]; · iexact HYp
    isplitl [HYz]; · iexact HYz
    iexact HO
  iintro ⟨HYc, HYp, HYz, ⟨%W271, HO⟩⟩
  iapply (wp_wait_out m K c (6 : Fin 8) (mayWait_lout c (0 : Fin 2) 64 _)) $$ [HS0 HO]
  · isplitr; · iexact Hrec
    isplitr; · iexact Hlev
    isplitl [HS0]; · iexact HS0
    iexists W271; iexact HO
  iintro ⟨HS0, Hout6, ⟨%W272, HO⟩⟩
  iapply (wp_wait_out m K c (7 : Fin 8) (mayWait_lout c (1 : Fin 2) 64 _)) $$ [HS1 HO]
  · isplitr; · iexact Hrec
    isplitr; · iexact Hlev
    isplitl [HS1]; · iexact HS1
    iexists W272; iexact HO
  iintro ⟨HS1, Hout7, ⟨%W273, HO⟩⟩
  -- the two slots' cells close
  iapply (wp_slot_close m K c (0 : Fin 2)) $$ [HS0]
  · isplitr; · iexact Hrec
    iexact HS0
  iintro ⟨Hz0i, Hz0o, Hst0⟩
  iapply (wp_slot_close m K c (1 : Fin 2)) $$ [HS1]
  · isplitr; · iexact Hrec
    iexact HS1
  iintro ⟨Hz1i, Hz1o, Hst1⟩
  rw [wp_ret]; imodintro
  iapply Hk
  unfold bodyPost Φ₁ Dat.owesAt Pipeline.owesWithin
  rw [show (dats m 0 c).owed t₀.succ = 0 from rfl]
  isplitr [HO]
  · isplitl [HXz]; · iexact HXz
    isplitl [HYz]; · iexact HYz
    isplitl [HRXz]; · iexact HRXz
    isplitl [HRYz]; · iexact HRYz
    isplitl [Hsrc0 Hsrc1 Hsrc2 Hsrc3 Hsrc4 Hsrc5 Hsrc6 Hsrc7]
    · rw [GLsrc_eight]
      isplitl [Hsrc0]; · iexact Hsrc0
      isplitl [Hsrc1]; · iexact Hsrc1
      isplitl [Hsrc2]; · iexact Hsrc2
      isplitl [Hsrc3]; · iexact Hsrc3
      isplitl [Hsrc4]; · iexact Hsrc4
      isplitl [Hsrc5]; · iexact Hsrc5
      isplitl [Hsrc6]; · iexact Hsrc6
      iexact Hsrc7
    isplitl [Hout0 Hout1 Hout2 Hout3 Hout4 Hout5 Hout6 Hout7]
    · rw [GLout_eight]
      isplitl [Hout0]; · iexact Hout0
      isplitl [Hout1]; · iexact Hout1
      isplitl [Hout2]; · iexact Hout2
      isplitl [Hout3]; · iexact Hout3
      isplitl [Hout4]; · iexact Hout4
      isplitl [Hout5]; · iexact Hout5
      isplitl [Hout6]; · iexact Hout6
      iexact Hout7
    isplitl [Hz0i Hz0o Hst0]
    · isplitl [Hz0i]; · iexact Hz0i
      isplitl [Hz0o]; · iexact Hz0o
      iexact Hst0
    isplitl [Hz1i Hz1o Hst1]
    · isplitl [Hz1i]; · iexact Hz1i
      isplitl [Hz1o]; · iexact Hz1o
      iexact Hst1
    iexact HRA
  · iexists W273
    isplitr; · (ipureintro; exact fun _ _ => Or.inl trivial)
    rw [← owes_top c]; iexact HO

end Cert.KernelIdeal.A2A

end
-- ==== Proof.KernelIdeal.Run.lean ====
import proofs.«900013_g7700000000000014_dist_a2a_v7x_xy2x2_x_m16384_n1024_f32_1_alg».proof.Proof.KernelIdeal.LaunchMem
import proofs.«900013_g7700000000000014_dist_a2a_v7x_xy2x2_x_m16384_n1024_f32_1_alg».proof.Proof.KernelIdeal.LaunchGhost
import proofs.«900013_g7700000000000014_dist_a2a_v7x_xy2x2_x_m16384_n1024_f32_1_alg».proof.Proof.KernelIdeal.BodyOb
import proofs.«900013_g7700000000000014_dist_a2a_v7x_xy2x2_x_m16384_n1024_f32_1_alg».proof.Proof.KernelIdeal.Body
import proofs.«900013_g7700000000000014_dist_a2a_v7x_xy2x2_x_m16384_n1024_f32_1_alg».proof.Proof.KernelIdeal.Split
import proofs.«900013_g7700000000000014_dist_a2a_v7x_xy2x2_x_m16384_n1024_f32_1_alg».proof.Proof.KernelIdeal.ExitSems

noncomputable section

namespace Cert.KernelIdeal.A2A

open Cert.KernelIdeal Cert.KernelIdeal.Gen
open Idealize.ShloMosaic Idealize.ShloMosaic.TcCoe Idealize.SL.Sem

variable {F : FTy → Type} [FloatOps F]

/-- From any memory, every fair run of the program on the four devices ends, faults nowhere, leaves each argument array
    as it was and each result array holding `outFinal`. -/
theorem run_main (m : (ℓ : Loc nD τ sig) → Buf (Elt F) ℓ) (ρ : Dev nD → PrngReg) :
    θ_run (defs (F := F)) (onTc (τ := τ) (main (F := F))) ⟨m, fun _ => 0, ρ⟩
      (fun r => ∀ c : Dev nD, r.2.mem ((c.tc : Thread nD τ).loc main_v1) = outFinal m c
        ∧ r.2.mem ((c.tc : Thread nD τ).loc main_arg0) = m ((c.tc : Thread nD τ).loc main_arg0)) :=
  run_main_of_body m ρ fun c => body_obligation m (fun K c Kt => sound_body m K c Kt) c

end Cert.KernelIdeal.A2A

end
-- ==== Proof.Value.lean ====
import proofs.«900013_g7700000000000014_dist_a2a_v7x_xy2x2_x_m16384_n1024_f32_1_alg».proof.Proof.KernelIdeal.Base
import Idealize.ShloMosaic.Lib.Layout
import Idealize.ShloMosaic.Lib.StableHlo.Run

/-!
  The value of the exchange, as an index equation.

  The whole input `X` has 32768 rows and 2048 columns. Device `(x, y)` is launched holding rows
  `16384·x … 16384·x + 16383` of `X` (all columns), and must end holding columns `1024·x … 1024·x + 1023`
  of `X` (all rows). The kernel's final result array, `outFinal`, reads row `i` from the argument array of a
  device whose `x` coordinate is `i / 16384`, at local row `i mod 16384` and column `1024·x + j`; that
  device's local row `i mod 16384` is row `16384·(i / 16384) + i mod 16384 = i` of `X`. So entry `(i, j)` of
  the result is `X (i, 1024·x + j)`: the column block of `X` the device owes.
-/

noncomputable section

namespace Cert.KernelIdeal.A2A

open Cert.KernelIdeal Cert.KernelIdeal.Gen
open Idealize.ShloMosaic Idealize.ShloMosaic.TcCoe Idealize.SL.Sem

variable {F : FTy → Type} [FloatOps F]

/-- The device a row of the result is read from lies in the row block that row belongs to: its `x` coordinate is
    the row's block number. (Rows of the device's own block come from itself; the others from a device with the
    other `x`, whichever `y` it has.) -/
theorem px_srcDev (c : Dev nD) (i : ℕ) (hi : i < 32768) : px (srcDev c i) = i / 16384 := by
  have h1 := px_lt c
  have h2 : i / 16384 < 2 := by omega
  unfold srcDev
  split_ifs with ha hb
  · exact ha.symm
  · rw [px_xn]; omega
  · rw [px_xn, px_yn]; omega

/-- On the 2 × 2 mesh numbered row-major, a device's coordinate on the outer axis is `px`. -/
theorem meshLin_x (c : Dev nD) : Layout.meshLin [2, 2] c.val [0] = px c := by
  revert c; decide

theorem meshLin_nil (c : Dev nD) : Layout.meshLin [2, 2] c.val [] = 0 := rfl

/-- Each device's final result array is the column block of the whole input that the device's `x` coordinate names,
    when every device was launched holding the row block its `x` coordinate names. -/
theorem outFinal_eq_block (m : (ℓ : Loc nD τ sig) → Buf (Elt F) ℓ)
    (X : (⟨2, ![32768, 2048]⟩ : Shape).Idx → Elt F .f32)
    (hm : ∀ c : Dev nD, m ((c.tc : Thread nD τ).loc main_arg0)
      = Layout.blockN ⟨2, ![16384, 2048]⟩ ⟨2, ![32768, 2048]⟩ (Layout.meshBlock [2, 2] ![[0], []] c) X)
    (c : Dev nD) :
    outFinal m c
      = Layout.blockN ⟨2, ![32768, 1024]⟩ ⟨2, ![32768, 2048]⟩ (Layout.meshBlock [2, 2] ![[], [0]] c) X := by
  funext idx
  have hi : (idx 0).val < 32768 := (idx 0).isLt
  show m (((srcDev c (idx 0).val).tc : Thread nD τ).loc main_arg0) _ = _
  rw [hm (srcDev c (idx 0).val)]
  show X _ = X _
  congr 1
  funext b
  apply Fin.ext
  fin_cases b
  · show Layout.meshLin [2, 2] (srcDev c (idx 0).val).val [0] * 16384 + (idx 0).val % 16384
      = Layout.meshLin [2, 2] c.val [] * 32768 + (idx 0).val
    rw [meshLin_x, meshLin_nil, px_srcDev c _ hi]
    omega
  · show Layout.meshLin [2, 2] (srcDev c (idx 0).val).val [] * 2048 + (1024 * px c + (idx 1).val)
      = Layout.meshLin [2, 2] c.val [0] * 1024 + (idx 1).val
    rw [meshLin_x, meshLin_nil]
    omega

/-! ## The reference's run

  The reference is the identity on the whole input: its program on its one device performs no operation at all and
  returns its argument. So from any memory its run ends at once, nothing faults, and every array of the device is as
  it was launched; in particular the result (the argument array itself) holds the whole input. This is the library's
  statement about a straight line of host operations, read at the empty line. -/

section Reference

open Idealize.ShloMosaic.StableHlo

variable [Cert.ReferenceIdeal.Facts]

/-- The reference's signature declares no scoped buffer -/
theorem ref_scopedRefs :
    (Finset.univ.filter fun b : Ref Cert.ReferenceIdeal.sig .tc => b.isScoped) = ∅ := by decide
/-- and no scoped semaphore. -/
theorem ref_scopedSems :
    (Finset.univ.filter fun sm : SemLoc Cert.ReferenceIdeal.sig => sm.isScoped .tc) = ∅ := by decide

/-- From any memory, every fair run of the reference ends, faults nowhere, and leaves every array of its device as
    launched. -/
theorem ref_run
    (m' : (ℓ : Loc Cert.ReferenceIdeal.nD Cert.ReferenceIdeal.τ Cert.ReferenceIdeal.sig) → Buf (Elt F) ℓ)
    (g' : Dev Cert.ReferenceIdeal.nD → PrngReg) :
    θ_run (Cert.ReferenceIdeal.defs (F := F))
      (onTc (τ := Cert.ReferenceIdeal.τ) (Cert.ReferenceIdeal.main (F := F))) ⟨m', fun _ => 0, g'⟩
      (fun r => ∀ (c : Dev Cert.ReferenceIdeal.nD) (b : Ref Cert.ReferenceIdeal.sig .tc),
        r.2.mem ((c.tc : Thread Cert.ReferenceIdeal.nD Cert.ReferenceIdeal.τ).loc b)
          = m' ((c.tc : Thread Cert.ReferenceIdeal.nD Cert.ReferenceIdeal.τ).loc b)) :=
  run_seq ref_scopedRefs ref_scopedSems (Cert.ReferenceIdeal.defs (F := F)) (Cert.ReferenceIdeal.main (F := F))
    (fun _ => []) (fun _ => rfl) (fun _ => trivial) m' g' (fun _ _ h => (List.not_mem_nil h).elim)

end Reference

end Cert.KernelIdeal.A2A

end

/-- info: 'Cert.KernelIdeal.A2A.outFinal_eq_block' depends on axioms: [propext, Classical.choice, Quot.sound] -/
#guard_msgs in #print axioms Cert.KernelIdeal.A2A.outFinal_eq_block
/-- info: 'Cert.KernelIdeal.A2A.ref_run' depends on axioms: [propext, Classical.choice, Quot.sound] -/
#guard_msgs in #print axioms Cert.KernelIdeal.A2A.ref_run
-- ==== Proof.lean ====
/- The whole input has 32768 rows and 2048 columns; device (x, y) of the 2 × 2 mesh starts with row block x and must end
   with column block x. Each device copies its own rows of that column block into place, sends the other column block of
   its rows to its x-neighbour (half of them each, by y), and passes on to its y-neighbour what it receives; every row of
   the result is then read from a device of that row's block, at the same column, so the result is the reference's (the
   identity's) column block x, and no argument array is written. -/
import proofs.«900013_g7700000000000014_dist_a2a_v7x_xy2x2_x_m16384_n1024_f32_1_alg».proof.Defs
import proofs.«900013_g7700000000000014_dist_a2a_v7x_xy2x2_x_m16384_n1024_f32_1_alg».proof.Proof.Gen.Kernel
import proofs.«900013_g7700000000000014_dist_a2a_v7x_xy2x2_x_m16384_n1024_f32_1_alg».proof.Proof.Gen.Kernel.Skeleton
import proofs.«900013_g7700000000000014_dist_a2a_v7x_xy2x2_x_m16384_n1024_f32_1_alg».proof.Proof.Gen.Kernel.Launch
import proofs.«900013_g7700000000000014_dist_a2a_v7x_xy2x2_x_m16384_n1024_f32_1_alg».proof.Proof.Gen.Kernel.Points
import proofs.«900013_g7700000000000014_dist_a2a_v7x_xy2x2_x_m16384_n1024_f32_1_alg».proof.Proof.Gen.Kernel.Frame
import proofs.«900013_g7700000000000014_dist_a2a_v7x_xy2x2_x_m16384_n1024_f32_1_alg».proof.Proof.Gen.KernelIdeal
import proofs.«900013_g7700000000000014_dist_a2a_v7x_xy2x2_x_m16384_n1024_f32_1_alg».proof.Proof.Gen.KernelIdeal.Skeleton
import proofs.«900013_g7700000000000014_dist_a2a_v7x_xy2x2_x_m16384_n1024_f32_1_alg».proof.Proof.Gen.KernelIdeal.Launch
import proofs.«900013_g7700000000000014_dist_a2a_v7x_xy2x2_x_m16384_n1024_f32_1_alg».proof.Proof.Gen.KernelIdeal.Points
import proofs.«900013_g7700000000000014_dist_a2a_v7x_xy2x2_x_m16384_n1024_f32_1_alg».proof.Proof.Gen.KernelIdeal.Frame
import proofs.«900013_g7700000000000014_dist_a2a_v7x_xy2x2_x_m16384_n1024_f32_1_alg».proof.Proof.Gen.ReferenceIdeal
import proofs.«900013_g7700000000000014_dist_a2a_v7x_xy2x2_x_m16384_n1024_f32_1_alg».proof.Proof.Gen.Pre_finite_inputs_Kernel
import proofs.«900013_g7700000000000014_dist_a2a_v7x_xy2x2_x_m16384_n1024_f32_1_alg».proof.Proof.Gen.Pre_finite_inputs_ReferenceIdeal
import Idealize.ShloMosaic.Adequacy
import Idealize.ShloMosaic.Init
import proofs.«900013_g7700000000000014_dist_a2a_v7x_xy2x2_x_m16384_n1024_f32_1_alg».proof.Proof.Kernel.Run
import proofs.«900013_g7700000000000014_dist_a2a_v7x_xy2x2_x_m16384_n1024_f32_1_alg».proof.Proof.KernelIdeal.Run
import proofs.«900013_g7700000000000014_dist_a2a_v7x_xy2x2_x_m16384_n1024_f32_1_alg».proof.Proof.Value

noncomputable section

namespace Cert.Proof

open Idealize.ShloMosaic Idealize.SL.Sem

/-- The word-level program runs and leaves its argument arrays as they were: its run, the result's value dropped. -/
theorem frame_k : Cert.frame_Kernel := fun m g _ =>
  (θ_run (Cert.Kernel.defs (F := Bits)) _ _).mono (fun _ h c => (h c).2) (Cert.Kernel.A2A.run_main (F := Bits) m g)

/-- The same of the program read over the extended reals. -/
theorem frame_ki : Cert.frame_KernelIdeal := fun m g _ =>
  (θ_run (Cert.KernelIdeal.defs (F := Ideal)) _ _).mono (fun _ h c => (h c).2)
    (Cert.KernelIdeal.A2A.run_main (F := Ideal) m g)

/-- The reference performs no operation: it runs and leaves its argument array as it was. -/
theorem frame_ri : Cert.frame_ReferenceIdeal := fun m' g' _ =>
  (θ_run (Cert.ReferenceIdeal.defs (F := Ideal)) _ _).mono (fun _ h c => h c Cert.ReferenceIdeal.main_arg0)
    (Cert.KernelIdeal.A2A.ref_run (F := Ideal) m' g')

/-- The ideal pass rewrote no operation of the program: nothing is to be preserved. -/
theorem preserves : Cert.preserves_Kernel_KernelIdeal := trivial

/-- From memories where each device holds its row block of the reference's whole input `X`: the reference ends with
    `X` itself as its result, and each device's result array ends as the kernel's final array, which is the column
    block of `X` the device's `x` coordinate names; both leave their arguments as they were. -/
theorem algebraic : Cert.algebraic_KernelIdeal_ReferenceIdeal := fun m g m' g' _ hagree =>
  ⟨m' (((0 : Dev Cert.ReferenceIdeal.nD).tc : Thread Cert.ReferenceIdeal.nD Cert.ReferenceIdeal.τ).loc Cert.ReferenceIdeal.main_arg0),
    (θ_run (Cert.KernelIdeal.defs (F := Ideal)) _ _).mono
      (fun _ h c => ⟨(h c).1.trans (Cert.KernelIdeal.A2A.outFinal_eq_block m _ hagree c), (h c).2⟩)
      (Cert.KernelIdeal.A2A.run_main (F := Ideal) m g),
    (θ_run (Cert.ReferenceIdeal.defs (F := Ideal)) _ _).mono
      (fun _ h => ⟨h 0 Cert.ReferenceIdeal.main_arg0, h 0 Cert.ReferenceIdeal.main_arg0⟩)
      (Cert.KernelIdeal.A2A.ref_run (F := Ideal) m' g')⟩

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    frame_k, frame_ki, frame_ri, preserves, algebraic⟩

end Cert.Proof

end
